-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v437)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v437) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v477) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S2x400000 : Shape := ⟨2, ![2, 400000]⟩
abbrev S50000 : Shape := ⟨1, ![50000]⟩
abbrev S5x300x300 : Shape := ⟨3, ![5, 300, 300]⟩
abbrev S5x300 : Shape := ⟨2, ![5, 300]⟩
abbrev S6x300x128 : Shape := ⟨3, ![6, 300, 128]⟩
abbrev S6x128 : Shape := ⟨2, ![6, 128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S5x300x300 : S_.BroadcastsInDim S5x300x300 (![] : Fin 0 → Fin S5x300x300.rank)
  reducesTo_S5x300x300_S_d0_1_2 : S5x300x300.ReducesTo [0, 1, 2] S_
  bcast_S_S5x300 : S_.BroadcastsInDim S5x300 (![] : Fin 0 → Fin S5x300.rank)
  reducesTo_S5x300_S_d0_1 : S5x300.ReducesTo [0, 1] S_
  bcast_S_S6x300x128 : S_.BroadcastsInDim S6x300x128 (![] : Fin 0 → Fin S6x300x128.rank)
  reducesTo_S6x300x128_S_d0_1_2 : S6x300x128.ReducesTo [0, 1, 2] S_
  bcast_S_S6x128 : S_.BroadcastsInDim S6x128 (![] : Fin 0 → Fin S6x128.rank)
  reducesTo_S6x128_S_d0_1 : S6x128.ReducesTo [0, 1] S_

variable [Facts]

def fn_part3 {F : FTy → Type} [FloatOps F] (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  main_v53

def fn_part2 {F : FTy → Type} [FloatOps F] (main_arg9 : FVec F S5x300 .f32) (main_arg10 : FVec F S5x300 .f32) (main_arg11 : FVec F S6x300x128 .f32) (main_arg12 : FVec F S6x128 .f32) (main_v33 : IVec S_ 1) : IVec S_ 1 :=
  let main_v34 : FVec F S5x300 .f32 := Host.absf main_arg9
  let main_cst_12 : FVec F S_ .f32 := constant S_ .f32 0x7F800000#32
  let main_v35 : FVec F S5x300 .f32 := broadcastInDim S5x300 ![] bcast_S_S5x300 main_cst_12
  let main_v36 : IVec S5x300 1 := cmpf .olt main_v34 main_v35
  let main_c_13 : IVec S_ 1 := constantI S_ 1 1#1
  let main_v37 : IVec S_ 1 := (fun x v => Host.reduce IntOp.andi x v reducesTo_S5x300_S_d0_1 h_S_) main_v36 main_c_13
  let main_v38 : IVec S_ 1 := andi main_v33 main_v37
  let main_v39 : FVec F S5x300 .f32 := Host.absf main_arg10
  let main_cst_14 : FVec F S_ .f32 := constant S_ .f32 0x7F800000#32
  let main_v40 : FVec F S5x300 .f32 := broadcastInDim S5x300 ![] bcast_S_S5x300 main_cst_14
  let main_v41 : IVec S5x300 1 := cmpf .olt main_v39 main_v40
  let main_c_15 : IVec S_ 1 := constantI S_ 1 1#1
  let main_v42 : IVec S_ 1 := (fun x v => Host.reduce IntOp.andi x v reducesTo_S5x300_S_d0_1 h_S_) main_v41 main_c_15
  let main_v43 : IVec S_ 1 := andi main_v38 main_v42
  let main_v44 : FVec F S6x300x128 .f32 := Host.absf main_arg11
  let main_cst_16 : FVec F S_ .f32 := constant S_ .f32 0x7F800000#32
  let main_v45 : FVec F S6x300x128 .f32 := broadcastInDim S6x300x128 ![] bcast_S_S6x300x128 main_cst_16
  let main_v46 : IVec S6x300x128 1 := cmpf .olt main_v44 main_v45
  let main_c_17 : IVec S_ 1 := constantI S_ 1 1#1
  let main_v47 : IVec S_ 1 := (fun x v => Host.reduce IntOp.andi x v reducesTo_S6x300x128_S_d0_1_2 h_S_) main_v46 main_c_17
  let main_v48 : IVec S_ 1 := andi main_v43 main_v47
  let main_v49 : FVec F S6x128 .f32 := Host.absf main_arg12
  let main_cst_18 : FVec F S_ .f32 := constant S_ .f32 0x7F800000#32
  let main_v50 : FVec F S6x128 .f32 := broadcastInDim S6x128 ![] bcast_S_S6x128 main_cst_18
  fn_part3 (F := F) main_v48 main_v49 main_v50

def fn_part1 {F : FTy → Type} [FloatOps F] (main_arg6 : FVec F S5x300 .f32) (main_arg7 : FVec F S5x300x300 .f32) (main_arg8 : FVec F S5x300 .f32) (main_arg9 : FVec F S5x300 .f32) (main_arg10 : FVec F S5x300 .f32) (main_arg11 : FVec F S6x300x128 .f32) (main_arg12 : FVec F S6x128 .f32) (main_v13 : IVec S_ 1) (main_v16 : IVec S5x300 1) : IVec S_ 1 :=
  let main_c_5 : IVec S_ 1 := constantI S_ 1 1#1
  let main_v17 : IVec S_ 1 := (fun x v => Host.reduce IntOp.andi x v reducesTo_S5x300_S_d0_1 h_S_) main_v16 main_c_5
  let main_v18 : IVec S_ 1 := andi main_v13 main_v17
  let main_v19 : FVec F S5x300 .f32 := Host.absf main_arg6
  let main_cst_6 : FVec F S_ .f32 := constant S_ .f32 0x7F800000#32
  let main_v20 : FVec F S5x300 .f32 := broadcastInDim S5x300 ![] bcast_S_S5x300 main_cst_6
  let main_v21 : IVec S5x300 1 := cmpf .olt main_v19 main_v20
  let main_c_7 : IVec S_ 1 := constantI S_ 1 1#1
  let main_v22 : IVec S_ 1 := (fun x v => Host.reduce IntOp.andi x v reducesTo_S5x300_S_d0_1 h_S_) main_v21 main_c_7
  let main_v23 : IVec S_ 1 := andi main_v18 main_v22
  let main_v24 : FVec F S5x300x300 .f32 := Host.absf main_arg7
  let main_cst_8 : FVec F S_ .f32 := constant S_ .f32 0x7F800000#32
  let main_v25 : FVec F S5x300x300 .f32 := broadcastInDim S5x300x300 ![] bcast_S_S5x300x300 main_cst_8
  let main_v26 : IVec S5x300x300 1 := cmpf .olt main_v24 main_v25
  let main_c_9 : IVec S_ 1 := constantI S_ 1 1#1
  let main_v27 : IVec S_ 1 := (fun x v => Host.reduce IntOp.andi x v reducesTo_S5x300x300_S_d0_1_2 h_S_) main_v26 main_c_9
  let main_v28 : IVec S_ 1 := andi main_v23 main_v27
  let main_v29 : FVec F S5x300 .f32 := Host.absf main_arg8
  let main_cst_10 : FVec F S_ .f32 := constant S_ .f32 0x7F800000#32
  let main_v30 : FVec F S5x300 .f32 := broadcastInDim S5x300 ![] bcast_S_S5x300 main_cst_10
  let main_v31 : IVec S5x300 1 := cmpf .olt main_v29 main_v30
  let main_c_11 : IVec S_ 1 := constantI S_ 1 1#1
  let main_v32 : IVec S_ 1 := (fun x v => Host.reduce IntOp.andi x v reducesTo_S5x300_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x300 .f32) (main_arg1 : IVec S2x400000 32) (main_arg2 : IVec S50000 32) (main_arg3 : FVec F S5x300x300 .f32) (main_arg4 : FVec F S5x300 .f32) (main_arg5 : FVec F S5x300 .f32) (main_arg6 : FVec F S5x300 .f32) (main_arg7 : FVec F S5x300x300 .f32) (main_arg8 : FVec F S5x300 .f32) (main_arg9 : FVec F S5x300 .f32) (main_arg10 : FVec F S5x300 .f32) (main_arg11 : FVec F S6x300x128 .f32) (main_arg12 : FVec F S6x128 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S5x300x300 .f32 := Host.absf main_arg3
  let main_cst_0 : FVec F S_ .f32 := constant S_ .f32 0x7F800000#32
  let main_v5 : FVec F S5x300x300 .f32 := broadcastInDim S5x300x300 ![] bcast_S_S5x300x300 main_cst_0
  let main_v6 : IVec S5x300x300 1 := cmpf .olt main_v4 main_v5
  let main_c_1 : IVec S_ 1 := constantI S_ 1 1#1
  let main_v7 : IVec S_ 1 := (fun x v => Host.reduce IntOp.andi x v reducesTo_S5x300x300_S_d0_1_2 h_S_) main_v6 main_c_1
  let main_v8 : IVec S_ 1 := andi main_v3 main_v7
  let main_v9 : FVec F S5x300 .f32 := Host.absf main_arg4
  let main_cst_2 : FVec F S_ .f32 := constant S_ .f32 0x7F800000#32
  let main_v10 : FVec F S5x300 .f32 := broadcastInDim S5x300 ![] bcast_S_S5x300 main_cst_2
  let main_v11 : IVec S5x300 1 := cmpf .olt main_v9 main_v10
  let main_c_3 : IVec S_ 1 := constantI S_ 1 1#1
  let main_v12 : IVec S_ 1 := (fun x v => Host.reduce IntOp.andi x v reducesTo_S5x300_S_d0_1 h_S_) main_v11 main_c_3
  let main_v13 : IVec S_ 1 := andi main_v8 main_v12
  let main_v14 : FVec F S5x300 .f32 := Host.absf main_arg5
  let main_cst_4 : FVec F S_ .f32 := constant S_ .f32 0x7F800000#32
  let main_v15 : FVec F S5x300 .f32 := broadcastInDim S5x300 ![] bcast_S_S5x300 main_cst_4
  let main_v16 : IVec S5x300 1 := cmpf .olt main_v14 main_v15
  fn_part1 (F := F) main_arg6 main_arg7 main_arg8 main_arg9 main_arg10 main_arg11 main_arg12 main_v13 main_v16
-- ==== Kernel.lean ====
abbrev S50000x300 : Shape := ⟨2, ![50000, 300]⟩
abbrev S2x400000 : Shape := ⟨2, ![2, 400000]⟩
abbrev S50000 : Shape := ⟨1, ![50000]⟩
abbrev S5x300x300 : Shape := ⟨3, ![5, 300, 300]⟩
abbrev S5x300 : Shape := ⟨2, ![5, 300]⟩
abbrev S6x300x128 : Shape := ⟨3, ![6, 300, 128]⟩
abbrev S6x128 : Shape := ⟨2, ![6, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x300 : Shape := ⟨2, ![400000, 300]⟩
abbrev S1x300x300 : Shape := ⟨3, ![1, 300, 300]⟩
abbrev S300x300 : Shape := ⟨2, ![300, 300]⟩
abbrev S1x300 : Shape := ⟨2, ![1, 300]⟩
abbrev S300 : Shape := ⟨1, ![300]⟩
abbrev S200x300 : Shape := ⟨2, ![200, 300]⟩
abbrev S2000x300 : Shape := ⟨2, ![2000, 300]⟩
abbrev S8x300 : Shape := ⟨2, ![8, 300]⟩
abbrev S256 : Shape := ⟨1, ![256]⟩
abbrev S50000x1 : Shape := ⟨2, ![50000, 1]⟩
abbrev S256x128 : Shape := ⟨2, ![256, 128]⟩
abbrev S256x300 : Shape := ⟨2, ![256, 300]⟩
abbrev S256x1 : Shape := ⟨2, ![256, 1]⟩
abbrev S1x300x128 : Shape := ⟨3, ![1, 300, 128]⟩
abbrev S300x128 : Shape := ⟨2, ![300, 128]⟩
abbrev S1x128 : Shape := ⟨2, ![1, 128]⟩
abbrev S128 : Shape := ⟨1, ![128]⟩

abbrev nBuf : Space → Nat
  | .hbm => 567
  | .vmem => 170
  | .smem => 0
  | _ => 0

abbrev hbmTy0_0 (i : Nat) : BufTy := match i % 128 with
  | 0 => ⟨S50000x300, .f32⟩
  | 1 => ⟨S2x400000, .i32⟩
  | 2 => ⟨S50000, .i32⟩
  | 3 => ⟨S5x300x300, .f32⟩
  | 4 => ⟨S5x300, .f32⟩
  | 5 => ⟨S5x300, .f32⟩
  | 6 => ⟨S5x300, .f32⟩
  | 7 => ⟨S5x300x300, .f32⟩
  | 8 => ⟨S5x300, .f32⟩
  | 9 => ⟨S5x300, .f32⟩
  | 10 => ⟨S5x300, .f32⟩
  | 11 => ⟨S6x300x128, .f32⟩
  | 12 => ⟨S6x128, .f32⟩
  | 13 => ⟨S1x400000, .i32⟩
  | 14 => ⟨S400000, .i32⟩
  | 15 => ⟨S1x400000, .i32⟩
  | 16 => ⟨S400000, .i32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x300, .f32⟩
  | 26 => ⟨S_, .f32⟩
  | 27 => ⟨S50000x300, .f32⟩
  | 28 => ⟨S400000x1, .i32⟩
  | 29 => ⟨S50000x300, .f32⟩
  | 30 => ⟨S1x300x300, .f32⟩
  | 31 => ⟨S300x300, .f32⟩
  | 32 => ⟨S1x300, .f32⟩
  | 33 => ⟨S300, .f32⟩
  | 34 => ⟨S1x300, .f32⟩
  | 35 => ⟨S50000x300, .bf16⟩
  | 36 => ⟨S200x300, .f32⟩
  | 37 => ⟨S200x300, .f32⟩
  | 38 => ⟨S_, .f32⟩
  | 39 => ⟨S300, .f32⟩
  | 40 => ⟨S_, .f32⟩
  | 41 => ⟨S300, .f32⟩
  | 42 => ⟨S300, .f32⟩
  | 43 => ⟨S_, .f32⟩
  | 44 => ⟨S300, .f32⟩
  | 45 => ⟨S_, .f32⟩
  | 46 => ⟨S300, .f32⟩
  | 47 => ⟨S300, .f32⟩
  | 48 => ⟨S_, .f32⟩
  | 49 => ⟨S300, .f32⟩
  | 50 => ⟨S300, .f32⟩
  | 51 => ⟨S_, .f32⟩
  | 52 => ⟨S300, .f32⟩
  | 53 => ⟨S300, .f32⟩
  | 54 => ⟨S300, .f32⟩
  | 55 => ⟨S300, .f32⟩
  | 56 => ⟨S_, .f32⟩
  | 57 => ⟨S300, .f32⟩
  | 58 => ⟨S300, .f32⟩
  | 59 => ⟨S1x300, .f32⟩
  | 60 => ⟨S300, .f32⟩
  | 61 => ⟨S1x300, .f32⟩
  | 62 => ⟨S300, .f32⟩
  | 63 => ⟨S1x300x300, .f32⟩
  | 64 => ⟨S300x300, .f32⟩
  | 65 => ⟨S1x300, .f32⟩
  | 66 => ⟨S300, .f32⟩
  | 67 => ⟨S1x300, .f32⟩
  | 68 => ⟨S1x300, .f32⟩
  | 69 => ⟨S1x300, .f32⟩
  | 70 => ⟨S1x300, .f32⟩
  | 71 => ⟨S1x300, .f32⟩
  | 72 => ⟨S50000x300, .bf16⟩
  | 73 => ⟨S200x300, .f32⟩
  | 74 => ⟨S200x300, .f32⟩
  | 75 => ⟨S_, .f32⟩
  | 76 => ⟨S300, .f32⟩
  | 77 => ⟨S_, .f32⟩
  | 78 => ⟨S300, .f32⟩
  | 79 => ⟨S300, .f32⟩
  | 80 => ⟨S_, .f32⟩
  | 81 => ⟨S300, .f32⟩
  | 82 => ⟨S_, .f32⟩
  | 83 => ⟨S300, .f32⟩
  | 84 => ⟨S300, .f32⟩
  | 85 => ⟨S_, .f32⟩
  | 86 => ⟨S300, .f32⟩
  | 87 => ⟨S300, .f32⟩
  | 88 => ⟨S_, .f32⟩
  | 89 => ⟨S300, .f32⟩
  | 90 => ⟨S300, .f32⟩
  | 91 => ⟨S300, .f32⟩
  | 92 => ⟨S300, .f32⟩
  | 93 => ⟨S_, .f32⟩
  | 94 => ⟨S300, .f32⟩
  | 95 => ⟨S300, .f32⟩
  | 96 => ⟨S1x300, .f32⟩
  | 97 => ⟨S300, .f32⟩
  | 98 => ⟨S1x300, .f32⟩
  | 99 => ⟨S300, .f32⟩
  | 100 => ⟨S1x300, .f32⟩
  | 101 => ⟨S1x300, .f32⟩
  | 102 => ⟨S1x300, .f32⟩
  | 103 => ⟨S1x300, .f32⟩
  | 104 => ⟨S50000x300, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x300, .f32⟩
  | 114 => ⟨S_, .f32⟩
  | 115 => ⟨S50000x300, .f32⟩
  | 116 => ⟨S400000x1, .i32⟩
  | 117 => ⟨S50000x300, .f32⟩
  | 118 => ⟨S1x300x300, .f32⟩
  | 119 => ⟨S300x300, .f32⟩
  | 120 => ⟨S1x300, .f32⟩
  | 121 => ⟨S300, .f32⟩
  | 122 => ⟨S1x300, .f32⟩
  | 123 => ⟨S50000x300, .bf16⟩
  | 124 => ⟨S200x300, .f32⟩
  | 125 => ⟨S200x300, .f32⟩
  | 126 => ⟨S_, .f32⟩
  | 127 => ⟨S300, .f32⟩
  | _ => ⟨S50000x300, .f32⟩

abbrev hbmTy0_1 (i : Nat) : BufTy := match i % 128 with
  | 0 => ⟨S_, .f32⟩
  | 1 => ⟨S300, .f32⟩
  | 2 => ⟨S300, .f32⟩
  | 3 => ⟨S_, .f32⟩
  | 4 => ⟨S300, .f32⟩
  | 5 => ⟨S_, .f32⟩
  | 6 => ⟨S300, .f32⟩
  | 7 => ⟨S300, .f32⟩
  | 8 => ⟨S_, .f32⟩
  | 9 => ⟨S300, .f32⟩
  | 10 => ⟨S300, .f32⟩
  | 11 => ⟨S_, .f32⟩
  | 12 => ⟨S300, .f32⟩
  | 13 => ⟨S300, .f32⟩
  | 14 => ⟨S300, .f32⟩
  | 15 => ⟨S300, .f32⟩
  | 16 => ⟨S_, .f32⟩
  | 17 => ⟨S300, .f32⟩
  | 18 => ⟨S300, .f32⟩
  | 19 => ⟨S1x300, .f32⟩
  | 20 => ⟨S300, .f32⟩
  | 21 => ⟨S1x300, .f32⟩
  | 22 => ⟨S300, .f32⟩
  | 23 => ⟨S1x300x300, .f32⟩
  | 24 => ⟨S300x300, .f32⟩
  | 25 => ⟨S1x300, .f32⟩
  | 26 => ⟨S300, .f32⟩
  | 27 => ⟨S1x300, .f32⟩
  | 28 => ⟨S1x300, .f32⟩
  | 29 => ⟨S1x300, .f32⟩
  | 30 => ⟨S1x300, .f32⟩
  | 31 => ⟨S1x300, .f32⟩
  | 32 => ⟨S50000x300, .bf16⟩
  | 33 => ⟨S200x300, .f32⟩
  | 34 => ⟨S200x300, .f32⟩
  | 35 => ⟨S_, .f32⟩
  | 36 => ⟨S300, .f32⟩
  | 37 => ⟨S_, .f32⟩
  | 38 => ⟨S300, .f32⟩
  | 39 => ⟨S300, .f32⟩
  | 40 => ⟨S_, .f32⟩
  | 41 => ⟨S300, .f32⟩
  | 42 => ⟨S_, .f32⟩
  | 43 => ⟨S300, .f32⟩
  | 44 => ⟨S300, .f32⟩
  | 45 => ⟨S_, .f32⟩
  | 46 => ⟨S300, .f32⟩
  | 47 => ⟨S300, .f32⟩
  | 48 => ⟨S_, .f32⟩
  | 49 => ⟨S300, .f32⟩
  | 50 => ⟨S300, .f32⟩
  | 51 => ⟨S300, .f32⟩
  | 52 => ⟨S300, .f32⟩
  | 53 => ⟨S_, .f32⟩
  | 54 => ⟨S300, .f32⟩
  | 55 => ⟨S300, .f32⟩
  | 56 => ⟨S1x300, .f32⟩
  | 57 => ⟨S300, .f32⟩
  | 58 => ⟨S1x300, .f32⟩
  | 59 => ⟨S300, .f32⟩
  | 60 => ⟨S1x300, .f32⟩
  | 61 => ⟨S1x300, .f32⟩
  | 62 => ⟨S1x300, .f32⟩
  | 63 => ⟨S1x300, .f32⟩
  | 64 => ⟨S50000x300, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x300, .f32⟩
  | 74 => ⟨S_, .f32⟩
  | 75 => ⟨S50000x300, .f32⟩
  | 76 => ⟨S400000x1, .i32⟩
  | 77 => ⟨S50000x300, .f32⟩
  | 78 => ⟨S1x300x300, .f32⟩
  | 79 => ⟨S300x300, .f32⟩
  | 80 => ⟨S1x300, .f32⟩
  | 81 => ⟨S300, .f32⟩
  | 82 => ⟨S1x300, .f32⟩
  | 83 => ⟨S50000x300, .bf16⟩
  | 84 => ⟨S200x300, .f32⟩
  | 85 => ⟨S200x300, .f32⟩
  | 86 => ⟨S_, .f32⟩
  | 87 => ⟨S300, .f32⟩
  | 88 => ⟨S_, .f32⟩
  | 89 => ⟨S300, .f32⟩
  | 90 => ⟨S300, .f32⟩
  | 91 => ⟨S_, .f32⟩
  | 92 => ⟨S300, .f32⟩
  | 93 => ⟨S_, .f32⟩
  | 94 => ⟨S300, .f32⟩
  | 95 => ⟨S300, .f32⟩
  | 96 => ⟨S_, .f32⟩
  | 97 => ⟨S300, .f32⟩
  | 98 => ⟨S300, .f32⟩
  | 99 => ⟨S_, .f32⟩
  | 100 => ⟨S300, .f32⟩
  | 101 => ⟨S300, .f32⟩
  | 102 => ⟨S300, .f32⟩
  | 103 => ⟨S300, .f32⟩
  | 104 => ⟨S_, .f32⟩
  | 105 => ⟨S300, .f32⟩
  | 106 => ⟨S300, .f32⟩
  | 107 => ⟨S1x300, .f32⟩
  | 108 => ⟨S300, .f32⟩
  | 109 => ⟨S1x300, .f32⟩
  | 110 => ⟨S300, .f32⟩
  | 111 => ⟨S1x300x300, .f32⟩
  | 112 => ⟨S300x300, .f32⟩
  | 113 => ⟨S1x300, .f32⟩
  | 114 => ⟨S300, .f32⟩
  | 115 => ⟨S1x300, .f32⟩
  | 116 => ⟨S1x300, .f32⟩
  | 117 => ⟨S1x300, .f32⟩
  | 118 => ⟨S1x300, .f32⟩
  | 119 => ⟨S1x300, .f32⟩
  | 120 => ⟨S50000x300, .bf16⟩
  | 121 => ⟨S200x300, .f32⟩
  | 122 => ⟨S200x300, .f32⟩
  | 123 => ⟨S_, .f32⟩
  | 124 => ⟨S300, .f32⟩
  | 125 => ⟨S_, .f32⟩
  | 126 => ⟨S300, .f32⟩
  | 127 => ⟨S300, .f32⟩
  | _ => ⟨S50000x300, .f32⟩

abbrev hbmTy0_2 (i : Nat) : BufTy := match i % 128 with
  | 0 => ⟨S_, .f32⟩
  | 1 => ⟨S300, .f32⟩
  | 2 => ⟨S_, .f32⟩
  | 3 => ⟨S300, .f32⟩
  | 4 => ⟨S300, .f32⟩
  | 5 => ⟨S_, .f32⟩
  | 6 => ⟨S300, .f32⟩
  | 7 => ⟨S300, .f32⟩
  | 8 => ⟨S_, .f32⟩
  | 9 => ⟨S300, .f32⟩
  | 10 => ⟨S300, .f32⟩
  | 11 => ⟨S300, .f32⟩
  | 12 => ⟨S300, .f32⟩
  | 13 => ⟨S_, .f32⟩
  | 14 => ⟨S300, .f32⟩
  | 15 => ⟨S300, .f32⟩
  | 16 => ⟨S1x300, .f32⟩
  | 17 => ⟨S300, .f32⟩
  | 18 => ⟨S1x300, .f32⟩
  | 19 => ⟨S300, .f32⟩
  | 20 => ⟨S1x300, .f32⟩
  | 21 => ⟨S1x300, .f32⟩
  | 22 => ⟨S1x300, .f32⟩
  | 23 => ⟨S1x300, .f32⟩
  | 24 => ⟨S50000x300, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x300, .f32⟩
  | 34 => ⟨S_, .f32⟩
  | 35 => ⟨S50000x300, .f32⟩
  | 36 => ⟨S400000x1, .i32⟩
  | 37 => ⟨S50000x300, .f32⟩
  | 38 => ⟨S1x300x300, .f32⟩
  | 39 => ⟨S300x300, .f32⟩
  | 40 => ⟨S1x300, .f32⟩
  | 41 => ⟨S300, .f32⟩
  | 42 => ⟨S1x300, .f32⟩
  | 43 => ⟨S50000x300, .bf16⟩
  | 44 => ⟨S200x300, .f32⟩
  | 45 => ⟨S200x300, .f32⟩
  | 46 => ⟨S_, .f32⟩
  | 47 => ⟨S300, .f32⟩
  | 48 => ⟨S_, .f32⟩
  | 49 => ⟨S300, .f32⟩
  | 50 => ⟨S300, .f32⟩
  | 51 => ⟨S_, .f32⟩
  | 52 => ⟨S300, .f32⟩
  | 53 => ⟨S_, .f32⟩
  | 54 => ⟨S300, .f32⟩
  | 55 => ⟨S300, .f32⟩
  | 56 => ⟨S_, .f32⟩
  | 57 => ⟨S300, .f32⟩
  | 58 => ⟨S300, .f32⟩
  | 59 => ⟨S_, .f32⟩
  | 60 => ⟨S300, .f32⟩
  | 61 => ⟨S300, .f32⟩
  | 62 => ⟨S300, .f32⟩
  | 63 => ⟨S300, .f32⟩
  | 64 => ⟨S_, .f32⟩
  | 65 => ⟨S300, .f32⟩
  | 66 => ⟨S300, .f32⟩
  | 67 => ⟨S1x300, .f32⟩
  | 68 => ⟨S300, .f32⟩
  | 69 => ⟨S1x300, .f32⟩
  | 70 => ⟨S300, .f32⟩
  | 71 => ⟨S1x300x300, .f32⟩
  | 72 => ⟨S300x300, .f32⟩
  | 73 => ⟨S1x300, .f32⟩
  | 74 => ⟨S300, .f32⟩
  | 75 => ⟨S1x300, .f32⟩
  | 76 => ⟨S1x300, .f32⟩
  | 77 => ⟨S1x300, .f32⟩
  | 78 => ⟨S1x300, .f32⟩
  | 79 => ⟨S1x300, .f32⟩
  | 80 => ⟨S50000x300, .bf16⟩
  | 81 => ⟨S200x300, .f32⟩
  | 82 => ⟨S200x300, .f32⟩
  | 83 => ⟨S_, .f32⟩
  | 84 => ⟨S300, .f32⟩
  | 85 => ⟨S_, .f32⟩
  | 86 => ⟨S300, .f32⟩
  | 87 => ⟨S300, .f32⟩
  | 88 => ⟨S_, .f32⟩
  | 89 => ⟨S300, .f32⟩
  | 90 => ⟨S_, .f32⟩
  | 91 => ⟨S300, .f32⟩
  | 92 => ⟨S300, .f32⟩
  | 93 => ⟨S_, .f32⟩
  | 94 => ⟨S300, .f32⟩
  | 95 => ⟨S300, .f32⟩
  | 96 => ⟨S_, .f32⟩
  | 97 => ⟨S300, .f32⟩
  | 98 => ⟨S300, .f32⟩
  | 99 => ⟨S300, .f32⟩
  | 100 => ⟨S300, .f32⟩
  | 101 => ⟨S_, .f32⟩
  | 102 => ⟨S300, .f32⟩
  | 103 => ⟨S300, .f32⟩
  | 104 => ⟨S1x300, .f32⟩
  | 105 => ⟨S300, .f32⟩
  | 106 => ⟨S1x300, .f32⟩
  | 107 => ⟨S300, .f32⟩
  | 108 => ⟨S1x300, .f32⟩
  | 109 => ⟨S1x300, .f32⟩
  | 110 => ⟨S1x300, .f32⟩
  | 111 => ⟨S1x300, .f32⟩
  | 112 => ⟨S50000x300, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x300, .f32⟩
  | 122 => ⟨S_, .f32⟩
  | 123 => ⟨S50000x300, .f32⟩
  | 124 => ⟨S400000x1, .i32⟩
  | 125 => ⟨S50000x300, .f32⟩
  | 126 => ⟨S1x300x300, .f32⟩
  | 127 => ⟨S300x300, .f32⟩
  | _ => ⟨S50000x300, .f32⟩

abbrev hbmTy0_3 (i : Nat) : BufTy := match i % 128 with
  | 0 => ⟨S1x300, .f32⟩
  | 1 => ⟨S300, .f32⟩
  | 2 => ⟨S1x300, .f32⟩
  | 3 => ⟨S50000x300, .bf16⟩
  | 4 => ⟨S200x300, .f32⟩
  | 5 => ⟨S200x300, .f32⟩
  | 6 => ⟨S_, .f32⟩
  | 7 => ⟨S300, .f32⟩
  | 8 => ⟨S_, .f32⟩
  | 9 => ⟨S300, .f32⟩
  | 10 => ⟨S300, .f32⟩
  | 11 => ⟨S_, .f32⟩
  | 12 => ⟨S300, .f32⟩
  | 13 => ⟨S_, .f32⟩
  | 14 => ⟨S300, .f32⟩
  | 15 => ⟨S300, .f32⟩
  | 16 => ⟨S_, .f32⟩
  | 17 => ⟨S300, .f32⟩
  | 18 => ⟨S300, .f32⟩
  | 19 => ⟨S_, .f32⟩
  | 20 => ⟨S300, .f32⟩
  | 21 => ⟨S300, .f32⟩
  | 22 => ⟨S300, .f32⟩
  | 23 => ⟨S300, .f32⟩
  | 24 => ⟨S_, .f32⟩
  | 25 => ⟨S300, .f32⟩
  | 26 => ⟨S300, .f32⟩
  | 27 => ⟨S1x300, .f32⟩
  | 28 => ⟨S300, .f32⟩
  | 29 => ⟨S1x300, .f32⟩
  | 30 => ⟨S300, .f32⟩
  | 31 => ⟨S1x300x300, .f32⟩
  | 32 => ⟨S300x300, .f32⟩
  | 33 => ⟨S1x300, .f32⟩
  | 34 => ⟨S300, .f32⟩
  | 35 => ⟨S1x300, .f32⟩
  | 36 => ⟨S1x300, .f32⟩
  | 37 => ⟨S1x300, .f32⟩
  | 38 => ⟨S1x300, .f32⟩
  | 39 => ⟨S1x300, .f32⟩
  | 40 => ⟨S50000x300, .bf16⟩
  | 41 => ⟨S200x300, .f32⟩
  | 42 => ⟨S200x300, .f32⟩
  | 43 => ⟨S_, .f32⟩
  | 44 => ⟨S300, .f32⟩
  | 45 => ⟨S_, .f32⟩
  | 46 => ⟨S300, .f32⟩
  | 47 => ⟨S300, .f32⟩
  | 48 => ⟨S_, .f32⟩
  | 49 => ⟨S300, .f32⟩
  | 50 => ⟨S_, .f32⟩
  | 51 => ⟨S300, .f32⟩
  | 52 => ⟨S300, .f32⟩
  | 53 => ⟨S_, .f32⟩
  | 54 => ⟨S300, .f32⟩
  | 55 => ⟨S300, .f32⟩
  | 56 => ⟨S_, .f32⟩
  | 57 => ⟨S300, .f32⟩
  | 58 => ⟨S300, .f32⟩
  | 59 => ⟨S300, .f32⟩
  | 60 => ⟨S300, .f32⟩
  | 61 => ⟨S_, .f32⟩
  | 62 => ⟨S300, .f32⟩
  | 63 => ⟨S300, .f32⟩
  | 64 => ⟨S1x300, .f32⟩
  | 65 => ⟨S300, .f32⟩
  | 66 => ⟨S1x300, .f32⟩
  | 67 => ⟨S300, .f32⟩
  | 68 => ⟨S1x300, .f32⟩
  | 69 => ⟨S1x300, .f32⟩
  | 70 => ⟨S1x300, .f32⟩
  | 71 => ⟨S1x300, .f32⟩
  | 72 => ⟨S50000x300, .f32⟩
  | 73 => ⟨S_, .f32⟩
  | 74 => ⟨S50000, .f32⟩
  | 75 => ⟨S_, .f32⟩
  | 76 => ⟨S256, .f32⟩
  | 77 => ⟨S50000x1, .i32⟩
  | 78 => ⟨S256, .f32⟩
  | 79 => ⟨S_, .f32⟩
  | 80 => ⟨S256, .f32⟩
  | 81 => ⟨S256, .f32⟩
  | 82 => ⟨S_, .f32⟩
  | 83 => ⟨S256, .f32⟩
  | 84 => ⟨S256, .f32⟩
  | 85 => ⟨S_, .f32⟩
  | 86 => ⟨S256x128, .f32⟩
  | 87 => ⟨S_, .f32⟩
  | 88 => ⟨S256x300, .f32⟩
  | 89 => ⟨S50000x1, .i32⟩
  | 90 => ⟨S256x300, .f32⟩
  | 91 => ⟨S256x1, .f32⟩
  | 92 => ⟨S256x300, .f32⟩
  | 93 => ⟨S256x300, .f32⟩
  | 94 => ⟨S1x300x128, .f32⟩
  | 95 => ⟨S300x128, .f32⟩
  | 96 => ⟨S256x128, .f32⟩
  | 97 => ⟨S256x128, .f32⟩
  | 98 => ⟨S1x128, .f32⟩
  | 99 => ⟨S128, .f32⟩
  | 100 => ⟨S1x128, .f32⟩
  | 101 => ⟨S256x128, .f32⟩
  | 102 => ⟨S256x128, .f32⟩
  | 103 => ⟨S_, .f32⟩
  | 104 => ⟨S256x300, .f32⟩
  | 105 => ⟨S50000x1, .i32⟩
  | 106 => ⟨S256x300, .f32⟩
  | 107 => ⟨S256x1, .f32⟩
  | 108 => ⟨S256x300, .f32⟩
  | 109 => ⟨S256x300, .f32⟩
  | 110 => ⟨S1x300x128, .f32⟩
  | 111 => ⟨S300x128, .f32⟩
  | 112 => ⟨S256x128, .f32⟩
  | 113 => ⟨S256x128, .f32⟩
  | 114 => ⟨S1x128, .f32⟩
  | 115 => ⟨S128, .f32⟩
  | 116 => ⟨S1x128, .f32⟩
  | 117 => ⟨S256x128, .f32⟩
  | 118 => ⟨S256x128, .f32⟩
  | 119 => ⟨S_, .f32⟩
  | 120 => ⟨S256x300, .f32⟩
  | 121 => ⟨S50000x1, .i32⟩
  | 122 => ⟨S256x300, .f32⟩
  | 123 => ⟨S256x1, .f32⟩
  | 124 => ⟨S256x300, .f32⟩
  | 125 => ⟨S256x300, .f32⟩
  | 126 => ⟨S1x300x128, .f32⟩
  | 127 => ⟨S300x128, .f32⟩
  | _ => ⟨S50000x300, .f32⟩

abbrev hbmTy0_4 (i : Nat) : BufTy := match i % 128 with
  | 0 => ⟨S256x128, .f32⟩
  | 1 => ⟨S256x128, .f32⟩
  | 2 => ⟨S1x128, .f32⟩
  | 3 => ⟨S128, .f32⟩
  | 4 => ⟨S1x128, .f32⟩
  | 5 => ⟨S256x128, .f32⟩
  | 6 => ⟨S256x128, .f32⟩
  | 7 => ⟨S_, .f32⟩
  | 8 => ⟨S256x300, .f32⟩
  | 9 => ⟨S50000x1, .i32⟩
  | 10 => ⟨S256x300, .f32⟩
  | 11 => ⟨S256x1, .f32⟩
  | 12 => ⟨S256x300, .f32⟩
  | 13 => ⟨S256x300, .f32⟩
  | 14 => ⟨S1x300x128, .f32⟩
  | 15 => ⟨S300x128, .f32⟩
  | 16 => ⟨S256x128, .f32⟩
  | 17 => ⟨S256x128, .f32⟩
  | 18 => ⟨S1x128, .f32⟩
  | 19 => ⟨S128, .f32⟩
  | 20 => ⟨S1x128, .f32⟩
  | 21 => ⟨S256x128, .f32⟩
  | 22 => ⟨S256x128, .f32⟩
  | 23 => ⟨S_, .f32⟩
  | 24 => ⟨S256x300, .f32⟩
  | 25 => ⟨S50000x1, .i32⟩
  | 26 => ⟨S256x300, .f32⟩
  | 27 => ⟨S256x1, .f32⟩
  | 28 => ⟨S256x300, .f32⟩
  | 29 => ⟨S256x300, .f32⟩
  | 30 => ⟨S1x300x128, .f32⟩
  | 31 => ⟨S300x128, .f32⟩
  | 32 => ⟨S256x128, .f32⟩
  | 33 => ⟨S256x128, .f32⟩
  | 34 => ⟨S1x128, .f32⟩
  | 35 => ⟨S128, .f32⟩
  | 36 => ⟨S1x128, .f32⟩
  | 37 => ⟨S256x128, .f32⟩
  | 38 => ⟨S256x128, .f32⟩
  | 39 => ⟨S_, .f32⟩
  | 40 => ⟨S256x300, .f32⟩
  | 41 => ⟨S50000x1, .i32⟩
  | 42 => ⟨S256x300, .f32⟩
  | 43 => ⟨S256x1, .f32⟩
  | 44 => ⟨S256x300, .f32⟩
  | 45 => ⟨S256x300, .f32⟩
  | 46 => ⟨S1x300x128, .f32⟩
  | 47 => ⟨S300x128, .f32⟩
  | 48 => ⟨S256x128, .f32⟩
  | 49 => ⟨S256x128, .f32⟩
  | 50 => ⟨S1x128, .f32⟩
  | 51 => ⟨S128, .f32⟩
  | 52 => ⟨S1x128, .f32⟩
  | 53 => ⟨S256x128, .f32⟩
  | 54 => ⟨S256x128, .f32⟩
  | _ => ⟨S50000x300, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x300, .f32⟩

abbrev vmemTy0_0 (i : Nat) : BufTy := match i % 128 with
  | 0 => ⟨S2000x300, .f32⟩
  | 1 => ⟨S2000x300, .f32⟩
  | 2 => ⟨S2000x300, .f32⟩
  | 3 => ⟨S2000x300, .f32⟩
  | 4 => ⟨S300x300, .f32⟩
  | 5 => ⟨S1x300, .f32⟩
  | 6 => ⟨S2000x300, .bf16⟩
  | 7 => ⟨S2000x300, .bf16⟩
  | 8 => ⟨S8x300, .f32⟩
  | 9 => ⟨S8x300, .f32⟩
  | 10 => ⟨S8x300, .f32⟩
  | 11 => ⟨S8x300, .f32⟩
  | 12 => ⟨S2000x300, .bf16⟩
  | 13 => ⟨S2000x300, .bf16⟩
  | 14 => ⟨S1x300, .f32⟩
  | 15 => ⟨S1x300, .f32⟩
  | 16 => ⟨S1x300, .f32⟩
  | 17 => ⟨S1x300, .f32⟩
  | 18 => ⟨S300x300, .f32⟩
  | 19 => ⟨S1x300, .f32⟩
  | 20 => ⟨S2000x300, .bf16⟩
  | 21 => ⟨S2000x300, .bf16⟩
  | 22 => ⟨S8x300, .f32⟩
  | 23 => ⟨S8x300, .f32⟩
  | 24 => ⟨S8x300, .f32⟩
  | 25 => ⟨S8x300, .f32⟩
  | 26 => ⟨S2000x300, .bf16⟩
  | 27 => ⟨S2000x300, .bf16⟩
  | 28 => ⟨S1x300, .f32⟩
  | 29 => ⟨S1x300, .f32⟩
  | 30 => ⟨S1x300, .f32⟩
  | 31 => ⟨S1x300, .f32⟩
  | 32 => ⟨S2000x300, .f32⟩
  | 33 => ⟨S2000x300, .f32⟩
  | 34 => ⟨S2000x300, .f32⟩
  | 35 => ⟨S2000x300, .f32⟩
  | 36 => ⟨S2000x300, .f32⟩
  | 37 => ⟨S2000x300, .f32⟩
  | 38 => ⟨S300x300, .f32⟩
  | 39 => ⟨S1x300, .f32⟩
  | 40 => ⟨S2000x300, .bf16⟩
  | 41 => ⟨S2000x300, .bf16⟩
  | 42 => ⟨S8x300, .f32⟩
  | 43 => ⟨S8x300, .f32⟩
  | 44 => ⟨S8x300, .f32⟩
  | 45 => ⟨S8x300, .f32⟩
  | 46 => ⟨S2000x300, .bf16⟩
  | 47 => ⟨S2000x300, .bf16⟩
  | 48 => ⟨S1x300, .f32⟩
  | 49 => ⟨S1x300, .f32⟩
  | 50 => ⟨S1x300, .f32⟩
  | 51 => ⟨S1x300, .f32⟩
  | 52 => ⟨S300x300, .f32⟩
  | 53 => ⟨S1x300, .f32⟩
  | 54 => ⟨S2000x300, .bf16⟩
  | 55 => ⟨S2000x300, .bf16⟩
  | 56 => ⟨S8x300, .f32⟩
  | 57 => ⟨S8x300, .f32⟩
  | 58 => ⟨S8x300, .f32⟩
  | 59 => ⟨S8x300, .f32⟩
  | 60 => ⟨S2000x300, .bf16⟩
  | 61 => ⟨S2000x300, .bf16⟩
  | 62 => ⟨S1x300, .f32⟩
  | 63 => ⟨S1x300, .f32⟩
  | 64 => ⟨S1x300, .f32⟩
  | 65 => ⟨S1x300, .f32⟩
  | 66 => ⟨S2000x300, .f32⟩
  | 67 => ⟨S2000x300, .f32⟩
  | 68 => ⟨S2000x300, .f32⟩
  | 69 => ⟨S2000x300, .f32⟩
  | 70 => ⟨S2000x300, .f32⟩
  | 71 => ⟨S2000x300, .f32⟩
  | 72 => ⟨S300x300, .f32⟩
  | 73 => ⟨S1x300, .f32⟩
  | 74 => ⟨S2000x300, .bf16⟩
  | 75 => ⟨S2000x300, .bf16⟩
  | 76 => ⟨S8x300, .f32⟩
  | 77 => ⟨S8x300, .f32⟩
  | 78 => ⟨S8x300, .f32⟩
  | 79 => ⟨S8x300, .f32⟩
  | 80 => ⟨S2000x300, .bf16⟩
  | 81 => ⟨S2000x300, .bf16⟩
  | 82 => ⟨S1x300, .f32⟩
  | 83 => ⟨S1x300, .f32⟩
  | 84 => ⟨S1x300, .f32⟩
  | 85 => ⟨S1x300, .f32⟩
  | 86 => ⟨S300x300, .f32⟩
  | 87 => ⟨S1x300, .f32⟩
  | 88 => ⟨S2000x300, .bf16⟩
  | 89 => ⟨S2000x300, .bf16⟩
  | 90 => ⟨S8x300, .f32⟩
  | 91 => ⟨S8x300, .f32⟩
  | 92 => ⟨S8x300, .f32⟩
  | 93 => ⟨S8x300, .f32⟩
  | 94 => ⟨S2000x300, .bf16⟩
  | 95 => ⟨S2000x300, .bf16⟩
  | 96 => ⟨S1x300, .f32⟩
  | 97 => ⟨S1x300, .f32⟩
  | 98 => ⟨S1x300, .f32⟩
  | 99 => ⟨S1x300, .f32⟩
  | 100 => ⟨S2000x300, .f32⟩
  | 101 => ⟨S2000x300, .f32⟩
  | 102 => ⟨S2000x300, .f32⟩
  | 103 => ⟨S2000x300, .f32⟩
  | 104 => ⟨S2000x300, .f32⟩
  | 105 => ⟨S2000x300, .f32⟩
  | 106 => ⟨S300x300, .f32⟩
  | 107 => ⟨S1x300, .f32⟩
  | 108 => ⟨S2000x300, .bf16⟩
  | 109 => ⟨S2000x300, .bf16⟩
  | 110 => ⟨S8x300, .f32⟩
  | 111 => ⟨S8x300, .f32⟩
  | 112 => ⟨S8x300, .f32⟩
  | 113 => ⟨S8x300, .f32⟩
  | 114 => ⟨S2000x300, .bf16⟩
  | 115 => ⟨S2000x300, .bf16⟩
  | 116 => ⟨S1x300, .f32⟩
  | 117 => ⟨S1x300, .f32⟩
  | 118 => ⟨S1x300, .f32⟩
  | 119 => ⟨S1x300, .f32⟩
  | 120 => ⟨S300x300, .f32⟩
  | 121 => ⟨S1x300, .f32⟩
  | 122 => ⟨S2000x300, .bf16⟩
  | 123 => ⟨S2000x300, .bf16⟩
  | 124 => ⟨S8x300, .f32⟩
  | 125 => ⟨S8x300, .f32⟩
  | 126 => ⟨S8x300, .f32⟩
  | 127 => ⟨S8x300, .f32⟩
  | _ => ⟨S50000x300, .f32⟩

abbrev vmemTy0_1 (i : Nat) : BufTy := match i % 128 with
  | 0 => ⟨S2000x300, .bf16⟩
  | 1 => ⟨S2000x300, .bf16⟩
  | 2 => ⟨S1x300, .f32⟩
  | 3 => ⟨S1x300, .f32⟩
  | 4 => ⟨S1x300, .f32⟩
  | 5 => ⟨S1x300, .f32⟩
  | 6 => ⟨S2000x300, .f32⟩
  | 7 => ⟨S2000x300, .f32⟩
  | 8 => ⟨S2000x300, .f32⟩
  | 9 => ⟨S2000x300, .f32⟩
  | 10 => ⟨S2000x300, .f32⟩
  | 11 => ⟨S2000x300, .f32⟩
  | 12 => ⟨S300x300, .f32⟩
  | 13 => ⟨S1x300, .f32⟩
  | 14 => ⟨S2000x300, .bf16⟩
  | 15 => ⟨S2000x300, .bf16⟩
  | 16 => ⟨S8x300, .f32⟩
  | 17 => ⟨S8x300, .f32⟩
  | 18 => ⟨S8x300, .f32⟩
  | 19 => ⟨S8x300, .f32⟩
  | 20 => ⟨S2000x300, .bf16⟩
  | 21 => ⟨S2000x300, .bf16⟩
  | 22 => ⟨S1x300, .f32⟩
  | 23 => ⟨S1x300, .f32⟩
  | 24 => ⟨S1x300, .f32⟩
  | 25 => ⟨S1x300, .f32⟩
  | 26 => ⟨S300x300, .f32⟩
  | 27 => ⟨S1x300, .f32⟩
  | 28 => ⟨S2000x300, .bf16⟩
  | 29 => ⟨S2000x300, .bf16⟩
  | 30 => ⟨S8x300, .f32⟩
  | 31 => ⟨S8x300, .f32⟩
  | 32 => ⟨S8x300, .f32⟩
  | 33 => ⟨S8x300, .f32⟩
  | 34 => ⟨S2000x300, .bf16⟩
  | 35 => ⟨S2000x300, .bf16⟩
  | 36 => ⟨S1x300, .f32⟩
  | 37 => ⟨S1x300, .f32⟩
  | 38 => ⟨S1x300, .f32⟩
  | 39 => ⟨S1x300, .f32⟩
  | 40 => ⟨S2000x300, .f32⟩
  | 41 => ⟨S2000x300, .f32⟩
  | _ => ⟨S50000x300, .f32⟩

abbrev vmemTy (i : Nat) : BufTy := match i / 128 with
  | 0 => vmemTy0_0 i
  | 1 => vmemTy0_1 i
  | _ => ⟨S50000x300, .f32⟩

abbrev bufTy : (tb : Table) → Fin (tcTables nBuf tb) → BufTy
  | .hbm, ⟨i, _⟩ => hbmTy i
  | .local _ .vmem, ⟨i, _⟩ => vmemTy i
  | _, _ => ⟨S50000x300, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 170 → Bool
  | ⟨i, _⟩ => dmaSemScopedAt i

abbrev sig : RefSig :=
  ofTc nBuf bufTy 0 170 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_cst_1 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_v47_2 : Ref sig .tc := ⟨.hbm, 74, rfl⟩
abbrev main_cst_8 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86_0 : Ref sig .tc := ⟨.hbm, 123, rfl⟩
abbrev main_v86_1 : Ref sig .tc := ⟨.hbm, 124, rfl⟩
abbrev main_v86_2 : Ref sig .tc := ⟨.hbm, 125, rfl⟩
abbrev main_cst_18 : Ref sig .tc := ⟨.hbm, 126, rfl⟩
abbrev main_v87 : Ref sig .tc := ⟨.hbm, 127, rfl⟩
abbrev main_cst_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_cst_23 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114_0 : Ref sig .tc := ⟨.hbm, 160, rfl⟩
abbrev main_v114_1 : Ref sig .tc := ⟨.hbm, 161, rfl⟩
abbrev main_v114_2 : Ref sig .tc := ⟨.hbm, 162, rfl⟩
abbrev main_cst_25 : Ref sig .tc := ⟨.hbm, 163, rfl⟩
abbrev main_v115 : Ref sig .tc := ⟨.hbm, 164, rfl⟩
abbrev main_cst_26 : Ref sig .tc := ⟨.hbm, 165, rfl⟩
abbrev main_v116 : Ref sig .tc := ⟨.hbm, 166, rfl⟩
abbrev main_v117 : Ref sig .tc := ⟨.hbm, 167, rfl⟩
abbrev main_cst_27 : Ref sig .tc := ⟨.hbm, 168, rfl⟩
abbrev main_v118 : Ref sig .tc := ⟨.hbm, 169, rfl⟩
abbrev main_cst_28 : Ref sig .tc := ⟨.hbm, 170, rfl⟩
abbrev main_v119 : Ref sig .tc := ⟨.hbm, 171, rfl⟩
abbrev main_v120 : Ref sig .tc := ⟨.hbm, 172, rfl⟩
abbrev main_cst_29 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_31 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_c_32 : Ref sig .tc := ⟨.hbm, 193, rfl⟩
abbrev main_v138 : Ref sig .tc := ⟨.hbm, 194, rfl⟩
abbrev main_v139 : Ref sig .tc := ⟨.hbm, 195, rfl⟩
abbrev main_c_33 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_34 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153_0 : Ref sig .tc := ⟨.hbm, 211, rfl⟩
abbrev main_v153_1 : Ref sig .tc := ⟨.hbm, 212, rfl⟩
abbrev main_v153_2 : Ref sig .tc := ⟨.hbm, 213, rfl⟩
abbrev main_cst_35 : Ref sig .tc := ⟨.hbm, 214, rfl⟩
abbrev main_v154 : Ref sig .tc := ⟨.hbm, 215, rfl⟩
abbrev main_cst_36 : Ref sig .tc := ⟨.hbm, 216, rfl⟩
abbrev main_v155 : Ref sig .tc := ⟨.hbm, 217, rfl⟩
abbrev main_v156 : Ref sig .tc := ⟨.hbm, 218, rfl⟩
abbrev main_cst_37 : Ref sig .tc := ⟨.hbm, 219, rfl⟩
abbrev main_v157 : Ref sig .tc := ⟨.hbm, 220, rfl⟩
abbrev main_cst_38 : Ref sig .tc := ⟨.hbm, 221, rfl⟩
abbrev main_v158 : Ref sig .tc := ⟨.hbm, 222, rfl⟩
abbrev main_v159 : Ref sig .tc := ⟨.hbm, 223, rfl⟩
abbrev main_cst_39 : Ref sig .tc := ⟨.hbm, 224, rfl⟩
abbrev main_v160 : Ref sig .tc := ⟨.hbm, 225, rfl⟩
abbrev main_v161 : Ref sig .tc := ⟨.hbm, 226, rfl⟩
abbrev main_cst_40 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_41 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181_0 : Ref sig .tc := ⟨.hbm, 248, rfl⟩
abbrev main_v181_1 : Ref sig .tc := ⟨.hbm, 249, rfl⟩
abbrev main_v181_2 : Ref sig .tc := ⟨.hbm, 250, rfl⟩
abbrev main_cst_42 : Ref sig .tc := ⟨.hbm, 251, rfl⟩
abbrev main_v182 : Ref sig .tc := ⟨.hbm, 252, rfl⟩
abbrev main_cst_43 : Ref sig .tc := ⟨.hbm, 253, rfl⟩
abbrev main_v183 : Ref sig .tc := ⟨.hbm, 254, rfl⟩
abbrev main_v184 : Ref sig .tc := ⟨.hbm, 255, rfl⟩
abbrev main_cst_44 : Ref sig .tc := ⟨.hbm, 256, rfl⟩
abbrev main_v185 : Ref sig .tc := ⟨.hbm, 257, rfl⟩
abbrev main_cst_45 : Ref sig .tc := ⟨.hbm, 258, rfl⟩
abbrev main_v186 : Ref sig .tc := ⟨.hbm, 259, rfl⟩
abbrev main_v187 : Ref sig .tc := ⟨.hbm, 260, rfl⟩
abbrev main_cst_46 : Ref sig .tc := ⟨.hbm, 261, rfl⟩
abbrev main_v188 : Ref sig .tc := ⟨.hbm, 262, rfl⟩
abbrev main_v189 : Ref sig .tc := ⟨.hbm, 263, rfl⟩
abbrev main_cst_47 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_cst_48 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_c_49 : Ref sig .tc := ⟨.hbm, 281, rfl⟩
abbrev main_v205 : Ref sig .tc := ⟨.hbm, 282, rfl⟩
abbrev main_v206 : Ref sig .tc := ⟨.hbm, 283, rfl⟩
abbrev main_c_50 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_51 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220_0 : Ref sig .tc := ⟨.hbm, 299, rfl⟩
abbrev main_v220_1 : Ref sig .tc := ⟨.hbm, 300, rfl⟩
abbrev main_v220_2 : Ref sig .tc := ⟨.hbm, 301, rfl⟩
abbrev main_cst_52 : Ref sig .tc := ⟨.hbm, 302, rfl⟩
abbrev main_v221 : Ref sig .tc := ⟨.hbm, 303, rfl⟩
abbrev main_cst_53 : Ref sig .tc := ⟨.hbm, 304, rfl⟩
abbrev main_v222 : Ref sig .tc := ⟨.hbm, 305, rfl⟩
abbrev main_v223 : Ref sig .tc := ⟨.hbm, 306, rfl⟩
abbrev main_cst_54 : Ref sig .tc := ⟨.hbm, 307, rfl⟩
abbrev main_v224 : Ref sig .tc := ⟨.hbm, 308, rfl⟩
abbrev main_cst_55 : Ref sig .tc := ⟨.hbm, 309, rfl⟩
abbrev main_v225 : Ref sig .tc := ⟨.hbm, 310, rfl⟩
abbrev main_v226 : Ref sig .tc := ⟨.hbm, 311, rfl⟩
abbrev main_cst_56 : Ref sig .tc := ⟨.hbm, 312, rfl⟩
abbrev main_v227 : Ref sig .tc := ⟨.hbm, 313, rfl⟩
abbrev main_v228 : Ref sig .tc := ⟨.hbm, 314, rfl⟩
abbrev main_cst_57 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_cst_58 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248_0 : Ref sig .tc := ⟨.hbm, 336, rfl⟩
abbrev main_v248_1 : Ref sig .tc := ⟨.hbm, 337, rfl⟩
abbrev main_v248_2 : Ref sig .tc := ⟨.hbm, 338, rfl⟩
abbrev main_cst_59 : Ref sig .tc := ⟨.hbm, 339, rfl⟩
abbrev main_v249 : Ref sig .tc := ⟨.hbm, 340, rfl⟩
abbrev main_cst_60 : Ref sig .tc := ⟨.hbm, 341, rfl⟩
abbrev main_v250 : Ref sig .tc := ⟨.hbm, 342, rfl⟩
abbrev main_v251 : Ref sig .tc := ⟨.hbm, 343, rfl⟩
abbrev main_cst_61 : Ref sig .tc := ⟨.hbm, 344, rfl⟩
abbrev main_v252 : Ref sig .tc := ⟨.hbm, 345, rfl⟩
abbrev main_cst_62 : Ref sig .tc := ⟨.hbm, 346, rfl⟩
abbrev main_v253 : Ref sig .tc := ⟨.hbm, 347, rfl⟩
abbrev main_v254 : Ref sig .tc := ⟨.hbm, 348, rfl⟩
abbrev main_cst_63 : Ref sig .tc := ⟨.hbm, 349, rfl⟩
abbrev main_v255 : Ref sig .tc := ⟨.hbm, 350, rfl⟩
abbrev main_v256 : Ref sig .tc := ⟨.hbm, 351, rfl⟩
abbrev main_cst_64 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_cst_65 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_c_66 : Ref sig .tc := ⟨.hbm, 369, rfl⟩
abbrev main_v272 : Ref sig .tc := ⟨.hbm, 370, rfl⟩
abbrev main_v273 : Ref sig .tc := ⟨.hbm, 371, rfl⟩
abbrev main_c_67 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_cst_68 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287_0 : Ref sig .tc := ⟨.hbm, 387, rfl⟩
abbrev main_v287_1 : Ref sig .tc := ⟨.hbm, 388, rfl⟩
abbrev main_v287_2 : Ref sig .tc := ⟨.hbm, 389, rfl⟩
abbrev main_cst_69 : Ref sig .tc := ⟨.hbm, 390, rfl⟩
abbrev main_v288 : Ref sig .tc := ⟨.hbm, 391, rfl⟩
abbrev main_cst_70 : Ref sig .tc := ⟨.hbm, 392, rfl⟩
abbrev main_v289 : Ref sig .tc := ⟨.hbm, 393, rfl⟩
abbrev main_v290 : Ref sig .tc := ⟨.hbm, 394, rfl⟩
abbrev main_cst_71 : Ref sig .tc := ⟨.hbm, 395, rfl⟩
abbrev main_v291 : Ref sig .tc := ⟨.hbm, 396, rfl⟩
abbrev main_cst_72 : Ref sig .tc := ⟨.hbm, 397, rfl⟩
abbrev main_v292 : Ref sig .tc := ⟨.hbm, 398, rfl⟩
abbrev main_v293 : Ref sig .tc := ⟨.hbm, 399, rfl⟩
abbrev main_cst_73 : Ref sig .tc := ⟨.hbm, 400, rfl⟩
abbrev main_v294 : Ref sig .tc := ⟨.hbm, 401, rfl⟩
abbrev main_v295 : Ref sig .tc := ⟨.hbm, 402, rfl⟩
abbrev main_cst_74 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_cst_75 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_v304 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_v315_0 : Ref sig .tc := ⟨.hbm, 424, rfl⟩
abbrev main_v315_1 : Ref sig .tc := ⟨.hbm, 425, rfl⟩
abbrev main_v315_2 : Ref sig .tc := ⟨.hbm, 426, rfl⟩
abbrev main_cst_76 : Ref sig .tc := ⟨.hbm, 427, rfl⟩
abbrev main_v316 : Ref sig .tc := ⟨.hbm, 428, rfl⟩
abbrev main_cst_77 : Ref sig .tc := ⟨.hbm, 429, rfl⟩
abbrev main_v317 : Ref sig .tc := ⟨.hbm, 430, rfl⟩
abbrev main_v318 : Ref sig .tc := ⟨.hbm, 431, rfl⟩
abbrev main_cst_78 : Ref sig .tc := ⟨.hbm, 432, rfl⟩
abbrev main_v319 : Ref sig .tc := ⟨.hbm, 433, rfl⟩
abbrev main_cst_79 : Ref sig .tc := ⟨.hbm, 434, rfl⟩
abbrev main_v320 : Ref sig .tc := ⟨.hbm, 435, rfl⟩
abbrev main_v321 : Ref sig .tc := ⟨.hbm, 436, rfl⟩
abbrev main_cst_80 : Ref sig .tc := ⟨.hbm, 437, rfl⟩
abbrev main_v322 : Ref sig .tc := ⟨.hbm, 438, rfl⟩
abbrev main_v323 : Ref sig .tc := ⟨.hbm, 439, rfl⟩
abbrev main_cst_81 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_cst_82 : Ref sig .tc := ⟨.hbm, 445, rfl⟩
abbrev main_v328 : Ref sig .tc := ⟨.hbm, 446, rfl⟩
abbrev main_v329 : Ref sig .tc := ⟨.hbm, 447, rfl⟩
abbrev main_v330 : Ref sig .tc := ⟨.hbm, 448, rfl⟩
abbrev main_v331 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_cst_83 : Ref sig .tc := ⟨.hbm, 457, rfl⟩
abbrev main_v339 : Ref sig .tc := ⟨.hbm, 458, rfl⟩
abbrev main_cst_84 : Ref sig .tc := ⟨.hbm, 459, rfl⟩
abbrev main_v340 : Ref sig .tc := ⟨.hbm, 460, rfl⟩
abbrev main_v341 : Ref sig .tc := ⟨.hbm, 461, rfl⟩
abbrev main_v342 : Ref sig .tc := ⟨.hbm, 462, rfl⟩
abbrev main_cst_85 : Ref sig .tc := ⟨.hbm, 463, rfl⟩
abbrev main_v343 : Ref sig .tc := ⟨.hbm, 464, rfl⟩
abbrev main_v344 : Ref sig .tc := ⟨.hbm, 465, rfl⟩
abbrev main_cst_86 : Ref sig .tc := ⟨.hbm, 466, rfl⟩
abbrev main_v345 : Ref sig .tc := ⟨.hbm, 467, rfl⟩
abbrev main_v346 : Ref sig .tc := ⟨.hbm, 468, rfl⟩
abbrev main_cst_87 : Ref sig .tc := ⟨.hbm, 469, rfl⟩
abbrev main_v347 : Ref sig .tc := ⟨.hbm, 470, rfl⟩
abbrev main_cst_88 : Ref sig .tc := ⟨.hbm, 471, rfl⟩
abbrev main_v348 : Ref sig .tc := ⟨.hbm, 472, rfl⟩
abbrev main_v349 : Ref sig .tc := ⟨.hbm, 473, rfl⟩
abbrev main_v350 : Ref sig .tc := ⟨.hbm, 474, rfl⟩
abbrev main_v351 : Ref sig .tc := ⟨.hbm, 475, rfl⟩
abbrev main_v352 : Ref sig .tc := ⟨.hbm, 476, rfl⟩
abbrev main_v353 : Ref sig .tc := ⟨.hbm, 477, rfl⟩
abbrev main_v354 : Ref sig .tc := ⟨.hbm, 478, rfl⟩
abbrev main_v355 : Ref sig .tc := ⟨.hbm, 479, rfl⟩
abbrev main_v356 : Ref sig .tc := ⟨.hbm, 480, rfl⟩
abbrev main_v357 : Ref sig .tc := ⟨.hbm, 481, rfl⟩
abbrev main_v358 : Ref sig .tc := ⟨.hbm, 482, rfl⟩
abbrev main_v359 : Ref sig .tc := ⟨.hbm, 483, rfl⟩
abbrev main_v360 : Ref sig .tc := ⟨.hbm, 484, rfl⟩
abbrev main_v361 : Ref sig .tc := ⟨.hbm, 485, rfl⟩
abbrev main_v362 : Ref sig .tc := ⟨.hbm, 486, rfl⟩
abbrev main_cst_89 : Ref sig .tc := ⟨.hbm, 487, rfl⟩
abbrev main_v363 : Ref sig .tc := ⟨.hbm, 488, rfl⟩
abbrev main_v364 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_v371 : Ref sig .tc := ⟨.hbm, 496, rfl⟩
abbrev main_v372 : Ref sig .tc := ⟨.hbm, 497, rfl⟩
abbrev main_v373 : Ref sig .tc := ⟨.hbm, 498, rfl⟩
abbrev main_v374 : Ref sig .tc := ⟨.hbm, 499, rfl⟩
abbrev main_v375 : Ref sig .tc := ⟨.hbm, 500, rfl⟩
abbrev main_v376 : Ref sig .tc := ⟨.hbm, 501, rfl⟩
abbrev main_v377 : Ref sig .tc := ⟨.hbm, 502, rfl⟩
abbrev main_cst_90 : Ref sig .tc := ⟨.hbm, 503, rfl⟩
abbrev main_v378 : Ref sig .tc := ⟨.hbm, 504, rfl⟩
abbrev main_v379 : Ref sig .tc := ⟨.hbm, 505, rfl⟩
abbrev main_v380 : Ref sig .tc := ⟨.hbm, 506, rfl⟩
abbrev main_v381 : Ref sig .tc := ⟨.hbm, 507, rfl⟩
abbrev main_v382 : Ref sig .tc := ⟨.hbm, 508, rfl⟩
abbrev main_v383 : Ref sig .tc := ⟨.hbm, 509, rfl⟩
abbrev main_v384 : Ref sig .tc := ⟨.hbm, 510, rfl⟩
abbrev main_v385 : Ref sig .tc := ⟨.hbm, 511, rfl⟩
abbrev main_v386 : Ref sig .tc := ⟨.hbm, 512, rfl⟩
abbrev main_v387 : Ref sig .tc := ⟨.hbm, 513, rfl⟩
abbrev main_v388 : Ref sig .tc := ⟨.hbm, 514, rfl⟩
abbrev main_v389 : Ref sig .tc := ⟨.hbm, 515, rfl⟩
abbrev main_v390 : Ref sig .tc := ⟨.hbm, 516, rfl⟩
abbrev main_v391 : Ref sig .tc := ⟨.hbm, 517, rfl⟩
abbrev main_v392 : Ref sig .tc := ⟨.hbm, 518, rfl⟩
abbrev main_cst_91 : Ref sig .tc := ⟨.hbm, 519, rfl⟩
abbrev main_v393 : Ref sig .tc := ⟨.hbm, 520, rfl⟩
abbrev main_v394 : Ref sig .tc := ⟨.hbm, 521, rfl⟩
abbrev main_v395 : Ref sig .tc := ⟨.hbm, 522, rfl⟩
abbrev main_v396 : Ref sig .tc := ⟨.hbm, 523, rfl⟩
abbrev main_v397 : Ref sig .tc := ⟨.hbm, 524, rfl⟩
abbrev main_v398 : Ref sig .tc := ⟨.hbm, 525, rfl⟩
abbrev main_v399 : Ref sig .tc := ⟨.hbm, 526, rfl⟩
abbrev main_v400 : Ref sig .tc := ⟨.hbm, 527, rfl⟩
abbrev main_v401 : Ref sig .tc := ⟨.hbm, 528, rfl⟩
abbrev main_v402 : Ref sig .tc := ⟨.hbm, 529, rfl⟩
abbrev main_v403 : Ref sig .tc := ⟨.hbm, 530, rfl⟩
abbrev main_v404 : Ref sig .tc := ⟨.hbm, 531, rfl⟩
abbrev main_v405 : Ref sig .tc := ⟨.hbm, 532, rfl⟩
abbrev main_v406 : Ref sig .tc := ⟨.hbm, 533, rfl⟩
abbrev main_v407 : Ref sig .tc := ⟨.hbm, 534, rfl⟩
abbrev main_cst_92 : Ref sig .tc := ⟨.hbm, 535, rfl⟩
abbrev main_v408 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_v420 : Ref sig .tc := ⟨.hbm, 548, rfl⟩
abbrev main_v421 : Ref sig .tc := ⟨.hbm, 549, rfl⟩
abbrev main_v422 : Ref sig .tc := ⟨.hbm, 550, rfl⟩
abbrev main_cst_93 : Ref sig .tc := ⟨.hbm, 551, rfl⟩
abbrev main_v423 : Ref sig .tc := ⟨.hbm, 552, rfl⟩
abbrev main_v424 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_v428 : Ref sig .tc := ⟨.hbm, 557, rfl⟩
abbrev main_v429 : Ref sig .tc := ⟨.hbm, 558, rfl⟩
abbrev main_v430 : Ref sig .tc := ⟨.hbm, 559, rfl⟩
abbrev main_v431 : Ref sig .tc := ⟨.hbm, 560, rfl⟩
abbrev main_v432 : Ref sig .tc := ⟨.hbm, 561, rfl⟩
abbrev main_v433 : Ref sig .tc := ⟨.hbm, 562, rfl⟩
abbrev main_v434 : Ref sig .tc := ⟨.hbm, 563, rfl⟩
abbrev main_v435 : Ref sig .tc := ⟨.hbm, 564, rfl⟩
abbrev main_v436 : Ref sig .tc := ⟨.hbm, 565, rfl⟩
abbrev main_v437 : Ref sig .tc := ⟨.hbm, 566, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc4_stg9_0 : Ref sig .tc := ⟨.vmem, 58, rfl⟩
abbrev cc4_stg9_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg4_1 : Ref sig .tc := ⟨.vmem, 75, rfl⟩
abbrev cc6_stg5_0 : Ref sig .tc := ⟨.vmem, 76, rfl⟩
abbrev cc6_stg5_1 : Ref sig .tc := ⟨.vmem, 77, rfl⟩
abbrev cc6_stg6_0 : Ref sig .tc := ⟨.vmem, 78, rfl⟩
abbrev cc6_stg6_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg6_0 : Ref sig .tc := ⟨.vmem, 87, rfl⟩
abbrev cc7_stg7_0 : Ref sig .tc := ⟨.vmem, 88, rfl⟩
abbrev cc7_stg7_1 : Ref sig .tc := ⟨.vmem, 89, rfl⟩
abbrev cc7_stg8_0 : Ref sig .tc := ⟨.vmem, 90, rfl⟩
abbrev cc7_stg8_1 : Ref sig .tc := ⟨.vmem, 91, rfl⟩
abbrev cc7_stg9_0 : Ref sig .tc := ⟨.vmem, 92, rfl⟩
abbrev cc7_stg9_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg5_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_stg3_0 : Ref sig .tc := ⟨.vmem, 107, rfl⟩
abbrev cc9_stg4_0 : Ref sig .tc := ⟨.vmem, 108, rfl⟩
abbrev cc9_stg4_1 : Ref sig .tc := ⟨.vmem, 109, rfl⟩
abbrev cc9_stg5_0 : Ref sig .tc := ⟨.vmem, 110, rfl⟩
abbrev cc9_stg5_1 : Ref sig .tc := ⟨.vmem, 111, rfl⟩
abbrev cc9_stg6_0 : Ref sig .tc := ⟨.vmem, 112, rfl⟩
abbrev cc9_stg6_1 : Ref sig .tc := ⟨.vmem, 113, rfl⟩
abbrev cc10_stg0_0 : Ref sig .tc := ⟨.vmem, 114, rfl⟩
abbrev cc10_stg0_1 : Ref sig .tc := ⟨.vmem, 115, rfl⟩
abbrev cc10_stg1_0 : Ref sig .tc := ⟨.vmem, 116, rfl⟩
abbrev cc10_stg2_0 : Ref sig .tc := ⟨.vmem, 117, rfl⟩
abbrev cc10_stg3_0 : Ref sig .tc := ⟨.vmem, 118, rfl⟩
abbrev cc10_stg4_0 : Ref sig .tc := ⟨.vmem, 119, rfl⟩
abbrev cc10_stg5_0 : Ref sig .tc := ⟨.vmem, 120, rfl⟩
abbrev cc10_stg6_0 : Ref sig .tc := ⟨.vmem, 121, rfl⟩
abbrev cc10_stg7_0 : Ref sig .tc := ⟨.vmem, 122, rfl⟩
abbrev cc10_stg7_1 : Ref sig .tc := ⟨.vmem, 123, rfl⟩
abbrev cc10_stg8_0 : Ref sig .tc := ⟨.vmem, 124, rfl⟩
abbrev cc10_stg8_1 : Ref sig .tc := ⟨.vmem, 125, rfl⟩
abbrev cc10_stg9_0 : Ref sig .tc := ⟨.vmem, 126, rfl⟩
abbrev cc10_stg9_1 : Ref sig .tc := ⟨.vmem, 127, rfl⟩
abbrev cc11_stg0_0 : Ref sig .tc := ⟨.vmem, 128, rfl⟩
abbrev cc11_stg0_1 : Ref sig .tc := ⟨.vmem, 129, rfl⟩
abbrev cc11_stg1_0 : Ref sig .tc := ⟨.vmem, 130, rfl⟩
abbrev cc11_stg2_0 : Ref sig .tc := ⟨.vmem, 131, rfl⟩
abbrev cc11_stg3_0 : Ref sig .tc := ⟨.vmem, 132, rfl⟩
abbrev cc11_stg4_0 : Ref sig .tc := ⟨.vmem, 133, rfl⟩
abbrev cc11_stg5_0 : Ref sig .tc := ⟨.vmem, 134, rfl⟩
abbrev cc11_stg5_1 : Ref sig .tc := ⟨.vmem, 135, rfl⟩
abbrev cc12_stg0_0 : Ref sig .tc := ⟨.vmem, 136, rfl⟩
abbrev cc12_stg0_1 : Ref sig .tc := ⟨.vmem, 137, rfl⟩
abbrev cc12_stg1_0 : Ref sig .tc := ⟨.vmem, 138, rfl⟩
abbrev cc12_stg1_1 : Ref sig .tc := ⟨.vmem, 139, rfl⟩
abbrev cc12_stg2_0 : Ref sig .tc := ⟨.vmem, 140, rfl⟩
abbrev cc12_stg3_0 : Ref sig .tc := ⟨.vmem, 141, rfl⟩
abbrev cc12_stg4_0 : Ref sig .tc := ⟨.vmem, 142, rfl⟩
abbrev cc12_stg4_1 : Ref sig .tc := ⟨.vmem, 143, rfl⟩
abbrev cc12_stg5_0 : Ref sig .tc := ⟨.vmem, 144, rfl⟩
abbrev cc12_stg5_1 : Ref sig .tc := ⟨.vmem, 145, rfl⟩
abbrev cc12_stg6_0 : Ref sig .tc := ⟨.vmem, 146, rfl⟩
abbrev cc12_stg6_1 : Ref sig .tc := ⟨.vmem, 147, rfl⟩
abbrev cc13_stg0_0 : Ref sig .tc := ⟨.vmem, 148, rfl⟩
abbrev cc13_stg0_1 : Ref sig .tc := ⟨.vmem, 149, rfl⟩
abbrev cc13_stg1_0 : Ref sig .tc := ⟨.vmem, 150, rfl⟩
abbrev cc13_stg2_0 : Ref sig .tc := ⟨.vmem, 151, rfl⟩
abbrev cc13_stg3_0 : Ref sig .tc := ⟨.vmem, 152, rfl⟩
abbrev cc13_stg4_0 : Ref sig .tc := ⟨.vmem, 153, rfl⟩
abbrev cc13_stg5_0 : Ref sig .tc := ⟨.vmem, 154, rfl⟩
abbrev cc13_stg6_0 : Ref sig .tc := ⟨.vmem, 155, rfl⟩
abbrev cc13_stg7_0 : Ref sig .tc := ⟨.vmem, 156, rfl⟩
abbrev cc13_stg7_1 : Ref sig .tc := ⟨.vmem, 157, rfl⟩
abbrev cc13_stg8_0 : Ref sig .tc := ⟨.vmem, 158, rfl⟩
abbrev cc13_stg8_1 : Ref sig .tc := ⟨.vmem, 159, rfl⟩
abbrev cc13_stg9_0 : Ref sig .tc := ⟨.vmem, 160, rfl⟩
abbrev cc13_stg9_1 : Ref sig .tc := ⟨.vmem, 161, rfl⟩
abbrev cc14_stg0_0 : Ref sig .tc := ⟨.vmem, 162, rfl⟩
abbrev cc14_stg0_1 : Ref sig .tc := ⟨.vmem, 163, rfl⟩
abbrev cc14_stg1_0 : Ref sig .tc := ⟨.vmem, 164, rfl⟩
abbrev cc14_stg2_0 : Ref sig .tc := ⟨.vmem, 165, rfl⟩
abbrev cc14_stg3_0 : Ref sig .tc := ⟨.vmem, 166, rfl⟩
abbrev cc14_stg4_0 : Ref sig .tc := ⟨.vmem, 167, rfl⟩
abbrev cc14_stg5_0 : Ref sig .tc := ⟨.vmem, 168, rfl⟩
abbrev cc14_stg5_1 : Ref sig .tc := ⟨.vmem, 169, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc4_sem8_0 : DmaSem sig := 56
abbrev cc4_sem8_1 : DmaSem sig := 57
abbrev cc4_sem9_0 : DmaSem sig := 58
abbrev cc4_sem9_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem3_0 : DmaSem sig := 73
abbrev cc6_sem4_0 : DmaSem sig := 74
abbrev cc6_sem4_1 : DmaSem sig := 75
abbrev cc6_sem5_0 : DmaSem sig := 76
abbrev cc6_sem5_1 : DmaSem sig := 77
abbrev cc6_sem6_0 : DmaSem sig := 78
abbrev cc6_sem6_1 : DmaSem sig := 79
abbrev cc7_sem0_0 : DmaSem sig := 80
abbrev cc7_sem0_1 : DmaSem sig := 81
abbrev cc7_sem1_0 : DmaSem sig := 82
abbrev cc7_sem2_0 : DmaSem sig := 83
abbrev cc7_sem3_0 : DmaSem sig := 84
abbrev cc7_sem4_0 : DmaSem sig := 85
abbrev cc7_sem5_0 : DmaSem sig := 86
abbrev cc7_sem6_0 : DmaSem sig := 87
abbrev cc7_sem7_0 : DmaSem sig := 88
abbrev cc7_sem7_1 : DmaSem sig := 89
abbrev cc7_sem8_0 : DmaSem sig := 90
abbrev cc7_sem8_1 : DmaSem sig := 91
abbrev cc7_sem9_0 : DmaSem sig := 92
abbrev cc7_sem9_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem3_0 : DmaSem sig := 98
abbrev cc8_sem4_0 : DmaSem sig := 99
abbrev cc8_sem5_0 : DmaSem sig := 100
abbrev cc8_sem5_1 : DmaSem sig := 101
abbrev cc9_sem0_0 : DmaSem sig := 102
abbrev cc9_sem0_1 : DmaSem sig := 103
abbrev cc9_sem1_0 : DmaSem sig := 104
abbrev cc9_sem1_1 : DmaSem sig := 105
abbrev cc9_sem2_0 : DmaSem sig := 106
abbrev cc9_sem3_0 : DmaSem sig := 107
abbrev cc9_sem4_0 : DmaSem sig := 108
abbrev cc9_sem4_1 : DmaSem sig := 109
abbrev cc9_sem5_0 : DmaSem sig := 110
abbrev cc9_sem5_1 : DmaSem sig := 111
abbrev cc9_sem6_0 : DmaSem sig := 112
abbrev cc9_sem6_1 : DmaSem sig := 113
abbrev cc10_sem0_0 : DmaSem sig := 114
abbrev cc10_sem0_1 : DmaSem sig := 115
abbrev cc10_sem1_0 : DmaSem sig := 116
abbrev cc10_sem2_0 : DmaSem sig := 117
abbrev cc10_sem3_0 : DmaSem sig := 118
abbrev cc10_sem4_0 : DmaSem sig := 119
abbrev cc10_sem5_0 : DmaSem sig := 120
abbrev cc10_sem6_0 : DmaSem sig := 121
abbrev cc10_sem7_0 : DmaSem sig := 122
abbrev cc10_sem7_1 : DmaSem sig := 123
abbrev cc10_sem8_0 : DmaSem sig := 124
abbrev cc10_sem8_1 : DmaSem sig := 125
abbrev cc10_sem9_0 : DmaSem sig := 126
abbrev cc10_sem9_1 : DmaSem sig := 127
abbrev cc11_sem0_0 : DmaSem sig := 128
abbrev cc11_sem0_1 : DmaSem sig := 129
abbrev cc11_sem1_0 : DmaSem sig := 130
abbrev cc11_sem2_0 : DmaSem sig := 131
abbrev cc11_sem3_0 : DmaSem sig := 132
abbrev cc11_sem4_0 : DmaSem sig := 133
abbrev cc11_sem5_0 : DmaSem sig := 134
abbrev cc11_sem5_1 : DmaSem sig := 135
abbrev cc12_sem0_0 : DmaSem sig := 136
abbrev cc12_sem0_1 : DmaSem sig := 137
abbrev cc12_sem1_0 : DmaSem sig := 138
abbrev cc12_sem1_1 : DmaSem sig := 139
abbrev cc12_sem2_0 : DmaSem sig := 140
abbrev cc12_sem3_0 : DmaSem sig := 141
abbrev cc12_sem4_0 : DmaSem sig := 142
abbrev cc12_sem4_1 : DmaSem sig := 143
abbrev cc12_sem5_0 : DmaSem sig := 144
abbrev cc12_sem5_1 : DmaSem sig := 145
abbrev cc12_sem6_0 : DmaSem sig := 146
abbrev cc12_sem6_1 : DmaSem sig := 147
abbrev cc13_sem0_0 : DmaSem sig := 148
abbrev cc13_sem0_1 : DmaSem sig := 149
abbrev cc13_sem1_0 : DmaSem sig := 150
abbrev cc13_sem2_0 : DmaSem sig := 151
abbrev cc13_sem3_0 : DmaSem sig := 152
abbrev cc13_sem4_0 : DmaSem sig := 153
abbrev cc13_sem5_0 : DmaSem sig := 154
abbrev cc13_sem6_0 : DmaSem sig := 155
abbrev cc13_sem7_0 : DmaSem sig := 156
abbrev cc13_sem7_1 : DmaSem sig := 157
abbrev cc13_sem8_0 : DmaSem sig := 158
abbrev cc13_sem8_1 : DmaSem sig := 159
abbrev cc13_sem9_0 : DmaSem sig := 160
abbrev cc13_sem9_1 : DmaSem sig := 161
abbrev cc14_sem0_0 : DmaSem sig := 162
abbrev cc14_sem0_1 : DmaSem sig := 163
abbrev cc14_sem1_0 : DmaSem sig := 164
abbrev cc14_sem2_0 : DmaSem sig := 165
abbrev cc14_sem3_0 : DmaSem sig := 166
abbrev cc14_sem4_0 : DmaSem sig := 167
abbrev cc14_sem5_0 : DmaSem sig := 168
abbrev cc14_sem5_1 : DmaSem sig := 169

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x300 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x300 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x300 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x300 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x300 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S300x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x300 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x300 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x300 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x300 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S300x300 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x300 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x300 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x300 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S8x300 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x300 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x300 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x300 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x300 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x300 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x300 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S300x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x300 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S8x300 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S8x300 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x300 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x300 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x300 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x300 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S300x300 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x300 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x300 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S8x300 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S8x300 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x300 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x300 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x300 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x300 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x300 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x300 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x300 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x300 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S300x300 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x300 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x300 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S8x300 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S8x300 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x300 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x300 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x300 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x300 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S300x300 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x300 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x300 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S8x300 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S8x300 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x300 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x300 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x300 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x300 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x300 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x300 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x300 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x300 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S300x300 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x300 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x300 .bf16 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S8x300 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S8x300 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_9 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x300 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x300 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x300 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x300 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x300 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S300x300 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x300 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S2000x300 .bf16 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S8x300 .f32 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev stage13_9 : Fin 2 → Memref sig .tc .vmem S8x300 .f32 := fun | 0 => Memref.whole cc13_stg9_0 | 1 => Memref.whole cc13_stg9_1 | ⟨_ + 2, h⟩ => absurd h (Nat.not_lt.2 (Nat.le_add_left _ _))
abbrev sem13_9 : Fin 2 → DmaSem sig := fun | 0 => cc13_sem9_0 | 1 => cc13_sem9_1 | ⟨_ + 2, h⟩ => absurd h (Nat.not_lt.2 (Nat.le_add_left _ _))
abbrev reads13_9 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x300 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x300 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x300 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x300 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x300 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x300 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x300 : S_.BroadcastsInDim S50000x300 (![] : Fin 0 → Fin S50000x300.rank)
  slices_S5x300x300_S1x300x300_0_0_0 : S5x300x300.Slices ![0, 0, 0] S1x300x300
  shapeCasts_S1x300x300_S300x300 : S1x300x300.ShapeCasts S300x300
  slices_S5x300_S1x300_0_0 : S5x300.Slices ![0, 0] S1x300
  shapeCasts_S1x300_S300 : S1x300.ShapeCasts S300
  shapeCasts_S300_S1x300 : S300.ShapeCasts S1x300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bitsLt_bf16_f32 : FTy.bits .bf16 < FTy.bits .f32
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  packedbf16_S2000x300_S2000x300_0_0 : (Rect.unit (s := S2000x300) ![0, 0] S2000x300.size inb_S2000x300_S2000x300_0_0).PackedRows (EltTy.packing .bf16)
  reduces_S2000x300_S300 : S2000x300.Reduces [0] S300
  broadcasts_S1x300_S8x300 : S1x300.Broadcasts S8x300
  inb_S8x300_S8x300_0_0 : ∀ a, (![0, 0] : Fin 2 → Nat) a + S8x300.size a ≤ S8x300.size a
  h_S8x300 : 0 < S8x300.numel
  reducesTo_S200x300_S300_d0 : S200x300.ReducesTo [0] S300
  h_S_ : 0 < S_.numel
  bcast_S_S300 : S_.BroadcastsInDim S300 (![] : Fin 0 → Fin S300.rank)
  slices_S5x300x300_S1x300x300_1_0_0 : S5x300x300.Slices ![1, 0, 0] S1x300x300
  slices_S5x300_S1x300_1_0 : S5x300.Slices ![1, 0] S1x300
  slices_S5x300x300_S1x300x300_2_0_0 : S5x300x300.Slices ![2, 0, 0] S1x300x300
  slices_S5x300_S1x300_2_0 : S5x300.Slices ![2, 0] S1x300
  slices_S5x300x300_S1x300x300_3_0_0 : S5x300x300.Slices ![3, 0, 0] S1x300x300
  slices_S5x300_S1x300_3_0 : S5x300.Slices ![3, 0] S1x300
  slices_S5x300x300_S1x300x300_4_0_0 : S5x300x300.Slices ![4, 0, 0] S1x300x300
  slices_S5x300_S1x300_4_0 : S5x300.Slices ![4, 0] S1x300
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  bcast_S_S256x128 : S_.BroadcastsInDim S256x128 (![] : Fin 0 → Fin S256x128.rank)
  bcast_S_S256x300 : S_.BroadcastsInDim S256x300 (![] : Fin 0 → Fin S256x300.rank)
  bcast_S256_S256x1_0 : S256.BroadcastsInDim S256x1 (![0] : Fin 1 → Fin S256x1.rank)
  bcast_S256x1_S256x300_0_1 : S256x1.BroadcastsInDim S256x300 (![0, 1] : Fin 2 → Fin S256x300.rank)
  slices_S6x300x128_S1x300x128_0_0_0 : S6x300x128.Slices ![0, 0, 0] S1x300x128
  shapeCasts_S1x300x128_S300x128 : S1x300x128.ShapeCasts S300x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  slices_S6x300x128_S1x300x128_1_0_0 : S6x300x128.Slices ![1, 0, 0] S1x300x128
  slices_S6x128_S1x128_1_0 : S6x128.Slices ![1, 0] S1x128
  slices_S6x300x128_S1x300x128_2_0_0 : S6x300x128.Slices ![2, 0, 0] S1x300x128
  slices_S6x128_S1x128_2_0 : S6x128.Slices ![2, 0] S1x128
  slices_S6x300x128_S1x300x128_3_0_0 : S6x300x128.Slices ![3, 0, 0] S1x300x128
  slices_S6x128_S1x128_3_0 : S6x128.Slices ![3, 0] S1x128
  slices_S6x300x128_S1x300x128_4_0_0 : S6x300x128.Slices ![4, 0, 0] S1x300x128
  slices_S6x128_S1x128_4_0 : S6x128.Slices ![4, 0] S1x128
  slices_S6x300x128_S1x300x128_5_0_0 : S6x300x128.Slices ![5, 0, 0] S1x300x128
  slices_S6x128_S1x128_5_0 : S6x128.Slices ![5, 0] S1x128
  gather_S50000x300_S400000x1_S400000x300_1_0_n_n_0_1_1300_wf : GatherDims.WF S50000x300 S400000x1 S400000x300 [1] [0] [] [0] [] 1 ![1, 300]
  scatter_S50000x300_S400000x1_S400000x300_1_0_0_1_wf : ScatterDims.WF S50000x300 S400000x1 S400000x300 [1] [0] [0] 1
  dot_S2000x300_S300x300_S2000x300_1_0_0_1_n_n_wf : DotDims.WF S2000x300 S300x300 S2000x300 [1] [0] [0] [1] [] []
  scatter_S256_S50000x1_S50000_n_0_0_1_wf : ScatterDims.WF S256 S50000x1 S50000 [] [0] [0] 1
  scatter_S256x300_S50000x1_S50000x300_1_0_0_1_wf : ScatterDims.WF S256x300 S50000x1 S50000x300 [1] [0] [0] 1
  dot_S256x300_S300x128_S256x128_1_0_0_1_n_n_wf : DotDims.WF S256x300 S300x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x300.size a ≤ S50000x300.size a
  hwx0_1 : ∀ i : grid0.Coords, EltTy.bits .f32 = 32 ∨ (Rect.block (s := S50000x300) S2000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x300.size a ≤ S300x300.size a
  hwx0_2 : ∀ i : grid0.Coords, EltTy.bits .f32 = 32 ∨ (Rect.block (s := S300x300) S300x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .f32 = 32 ∨ (Rect.block (s := S1x300) S1x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x300.size a ≤ S50000x300.size a
  hwx0_4 : ∀ i : grid0.Coords, EltTy.bits .bf16 = 32 ∨ (Rect.block (s := S50000x300) S2000x300.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x300.size a ≤ S200x300.size a
  hwx0_5 : ∀ i : grid0.Coords, EltTy.bits .f32 = 32 ∨ (Rect.block (s := S200x300) S8x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x300.size a ≤ S200x300.size a
  hwx0_6 : ∀ i : grid0.Coords, EltTy.bits .f32 = 32 ∨ (Rect.block (s := S200x300) S8x300.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .bf16 = 32 ∨ (Rect.block (s := S50000x300) S2000x300.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x300.size a ≤ S1x300.size a
  hwx1_1 : ∀ i : grid1.Coords, EltTy.bits .f32 = 32 ∨ (Rect.block (s := S1x300) S1x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S300x300.size a ≤ S300x300.size a
  hwx1_5 : ∀ i : grid1.Coords, EltTy.bits .f32 = 32 ∨ (Rect.block (s := S300x300) S300x300.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x300.size a ≤ S1x300.size a
  hwx1_6 : ∀ i : grid1.Coords, EltTy.bits .f32 = 32 ∨ (Rect.block (s := S1x300) S1x300.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x300.size a ≤ S50000x300.size a
  hwx1_7 : ∀ i : grid1.Coords, EltTy.bits .bf16 = 32 ∨ (Rect.block (s := S50000x300) S2000x300.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x300.size a ≤ S200x300.size a
  hwx1_8 : ∀ i : grid1.Coords, EltTy.bits .f32 = 32 ∨ (Rect.block (s := S200x300) S8x300.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x300.size a ≤ S200x300.size a
  hwx1_9 : ∀ i : grid1.Coords, EltTy.bits .f32 = 32 ∨ (Rect.block (s := S200x300) S8x300.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S50000x300.size a
  hwx2_0 : ∀ i : grid2.Coords, EltTy.bits .bf16 = 32 ∨ (Rect.block (s := S50000x300) S2000x300.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x300.size a ≤ S1x300.size a
  hwx2_1 : ∀ i : grid2.Coords, EltTy.bits .f32 = 32 ∨ (Rect.block (s := S1x300) S1x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x300.size a ≤ S1x300.size a
  hwx2_4 : ∀ i : grid2.Coords, EltTy.bits .f32 = 32 ∨ (Rect.block (s := S1x300) S1x300.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x300.size a ≤ S50000x300.size a
  hwx2_5 : ∀ i : grid2.Coords, EltTy.bits .f32 = 32 ∨ (Rect.block (s := S50000x300) S2000x300.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S50000x300.size a
  hwx3_0 : ∀ i : grid3.Coords, EltTy.bits .f32 = 32 ∨ (Rect.block (s := S50000x300) S2000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S50000x300.size a
  hwx3_1 : ∀ i : grid3.Coords, EltTy.bits .f32 = 32 ∨ (Rect.block (s := S50000x300) S2000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S300x300.size a ≤ S300x300.size a
  hwx3_2 : ∀ i : grid3.Coords, EltTy.bits .f32 = 32 ∨ (Rect.block (s := S300x300) S300x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x300.size a ≤ S50000x300.size a
  hwx3_4 : ∀ i : grid3.Coords, EltTy.bits .bf16 = 32 ∨ (Rect.block (s := S50000x300) S2000x300.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8x300.size a ≤ S200x300.size a
  hwx3_5 : ∀ i : grid3.Coords, EltTy.bits .f32 = 32 ∨ (Rect.block (s := S200x300) S8x300.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x300.size a ≤ S200x300.size a
  hwx3_6 : ∀ i : grid3.Coords, EltTy.bits .f32 = 32 ∨ (Rect.block (s := S200x300) S8x300.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S50000x300.size a
  hwx4_0 : ∀ i : grid4.Coords, EltTy.bits .bf16 = 32 ∨ (Rect.block (s := S50000x300) S2000x300.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x300.size a ≤ S1x300.size a
  hwx4_1 : ∀ i : grid4.Coords, EltTy.bits .f32 = 32 ∨ (Rect.block (s := S1x300) S1x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x300.size a ≤ S1x300.size a
  hwx4_2 : ∀ i : grid4.Coords, EltTy.bits .f32 = 32 ∨ (Rect.block (s := S1x300) S1x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x300.size a ≤ S1x300.size a
  hwx4_3 : ∀ i : grid4.Coords, EltTy.bits .f32 = 32 ∨ (Rect.block (s := S1x300) S1x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x300.size a ≤ S1x300.size a
  hwx4_4 : ∀ i : grid4.Coords, EltTy.bits .f32 = 32 ∨ (Rect.block (s := S1x300) S1x300.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S300x300.size a ≤ S300x300.size a
  hwx4_5 : ∀ i : grid4.Coords, EltTy.bits .f32 = 32 ∨ (Rect.block (s := S300x300) S300x300.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x300.size a ≤ S1x300.size a
  hwx4_6 : ∀ i : grid4.Coords, EltTy.bits .f32 = 32 ∨ (Rect.block (s := S1x300) S1x300.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x300.size a ≤ S50000x300.size a
  hwx4_7 : ∀ i : grid4.Coords, EltTy.bits .bf16 = 32 ∨ (Rect.block (s := S50000x300) S2000x300.size (cc4_transform_7 i) (hinb4_7 i)).WholeWords (EltTy.packing .bf16)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x300.size a ≤ S200x300.size a
  hwx4_8 : ∀ i : grid4.Coords, EltTy.bits .f32 = 32 ∨ (Rect.block (s := S200x300) S8x300.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8x300.size a ≤ S200x300.size a
  hwx4_9 : ∀ i : grid4.Coords, EltTy.bits .f32 = 32 ∨ (Rect.block (s := S200x300) S8x300.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S50000x300.size a
  hwx5_0 : ∀ i : grid5.Coords, EltTy.bits .bf16 = 32 ∨ (Rect.block (s := S50000x300) S2000x300.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x300.size a ≤ S1x300.size a
  hwx5_1 : ∀ i : grid5.Coords, EltTy.bits .f32 = 32 ∨ (Rect.block (s := S1x300) S1x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x300.size a ≤ S1x300.size a
  hwx5_2 : ∀ i : grid5.Coords, EltTy.bits .f32 = 32 ∨ (Rect.block (s := S1x300) S1x300.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x300.size a ≤ S1x300.size a
  hwx5_3 : ∀ i : grid5.Coords, EltTy.bits .f32 = 32 ∨ (Rect.block (s := S1x300) S1x300.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x300.size a ≤ S1x300.size a
  hwx5_4 : ∀ i : grid5.Coords, EltTy.bits .f32 = 32 ∨ (Rect.block (s := S1x300) S1x300.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x300.size a ≤ S50000x300.size a
  hwx5_5 : ∀ i : grid5.Coords, EltTy.bits .f32 = 32 ∨ (Rect.block (s := S50000x300) S2000x300.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x300.size a ≤ S50000x300.size a
  hwx6_0 : ∀ i : grid6.Coords, EltTy.bits .f32 = 32 ∨ (Rect.block (s := S50000x300) S2000x300.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x300.size a ≤ S50000x300.size a
  hwx6_1 : ∀ i : grid6.Coords, EltTy.bits .f32 = 32 ∨ (Rect.block (s := S50000x300) S2000x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S300x300.size a ≤ S300x300.size a
  hwx6_2 : ∀ i : grid6.Coords, EltTy.bits .f32 = 32 ∨ (Rect.block (s := S300x300) S300x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x300.size a ≤ S1x300.size a
  hwx6_3 : ∀ i : grid6.Coords, EltTy.bits .f32 = 32 ∨ (Rect.block (s := S1x300) S1x300.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x300.size a ≤ S50000x300.size a
  hwx6_4 : ∀ i : grid6.Coords, EltTy.bits .bf16 = 32 ∨ (Rect.block (s := S50000x300) S2000x300.size (cc6_transform_4 i) (hinb6_4 i)).WholeWords (EltTy.packing .bf16)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8x300.size a ≤ S200x300.size a
  hwx6_5 : ∀ i : grid6.Coords, EltTy.bits .f32 = 32 ∨ (Rect.block (s := S200x300) S8x300.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S8x300.size a ≤ S200x300.size a
  hwx6_6 : ∀ i : grid6.Coords, EltTy.bits .f32 = 32 ∨ (Rect.block (s := S200x300) S8x300.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x300.size a ≤ S50000x300.size a
  hwx7_0 : ∀ i : grid7.Coords, EltTy.bits .bf16 = 32 ∨ (Rect.block (s := S50000x300) S2000x300.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x300.size a ≤ S1x300.size a
  hwx7_1 : ∀ i : grid7.Coords, EltTy.bits .f32 = 32 ∨ (Rect.block (s := S1x300) S1x300.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x300.size a ≤ S1x300.size a
  hwx7_2 : ∀ i : grid7.Coords, EltTy.bits .f32 = 32 ∨ (Rect.block (s := S1x300) S1x300.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x300.size a ≤ S1x300.size a
  hwx7_3 : ∀ i : grid7.Coords, EltTy.bits .f32 = 32 ∨ (Rect.block (s := S1x300) S1x300.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x300.size a ≤ S1x300.size a
  hwx7_4 : ∀ i : grid7.Coords, EltTy.bits .f32 = 32 ∨ (Rect.block (s := S1x300) S1x300.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S300x300.size a ≤ S300x300.size a
  hwx7_5 : ∀ i : grid7.Coords, EltTy.bits .f32 = 32 ∨ (Rect.block (s := S300x300) S300x300.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x300.size a ≤ S1x300.size a
  hwx7_6 : ∀ i : grid7.Coords, EltTy.bits .f32 = 32 ∨ (Rect.block (s := S1x300) S1x300.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x300.size a ≤ S50000x300.size a
  hwx7_7 : ∀ i : grid7.Coords, EltTy.bits .bf16 = 32 ∨ (Rect.block (s := S50000x300) S2000x300.size (cc7_transform_7 i) (hinb7_7 i)).WholeWords (EltTy.packing .bf16)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S8x300.size a ≤ S200x300.size a
  hwx7_8 : ∀ i : grid7.Coords, EltTy.bits .f32 = 32 ∨ (Rect.block (s := S200x300) S8x300.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S8x300.size a ≤ S200x300.size a
  hwx7_9 : ∀ i : grid7.Coords, EltTy.bits .f32 = 32 ∨ (Rect.block (s := S200x300) S8x300.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x300.size a ≤ S50000x300.size a
  hwx8_0 : ∀ i : grid8.Coords, EltTy.bits .bf16 = 32 ∨ (Rect.block (s := S50000x300) S2000x300.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x300.size a ≤ S1x300.size a
  hwx8_1 : ∀ i : grid8.Coords, EltTy.bits .f32 = 32 ∨ (Rect.block (s := S1x300) S1x300.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x300.size a ≤ S1x300.size a
  hwx8_2 : ∀ i : grid8.Coords, EltTy.bits .f32 = 32 ∨ (Rect.block (s := S1x300) S1x300.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x300.size a ≤ S1x300.size a
  hwx8_3 : ∀ i : grid8.Coords, EltTy.bits .f32 = 32 ∨ (Rect.block (s := S1x300) S1x300.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x300.size a ≤ S1x300.size a
  hwx8_4 : ∀ i : grid8.Coords, EltTy.bits .f32 = 32 ∨ (Rect.block (s := S1x300) S1x300.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x300.size a ≤ S50000x300.size a
  hwx8_5 : ∀ i : grid8.Coords, EltTy.bits .f32 = 32 ∨ (Rect.block (s := S50000x300) S2000x300.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x300.size a ≤ S50000x300.size a
  hwx9_0 : ∀ i : grid9.Coords, EltTy.bits .f32 = 32 ∨ (Rect.block (s := S50000x300) S2000x300.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x300.size a ≤ S50000x300.size a
  hwx9_1 : ∀ i : grid9.Coords, EltTy.bits .f32 = 32 ∨ (Rect.block (s := S50000x300) S2000x300.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S300x300.size a ≤ S300x300.size a
  hwx9_2 : ∀ i : grid9.Coords, EltTy.bits .f32 = 32 ∨ (Rect.block (s := S300x300) S300x300.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x300.size a ≤ S1x300.size a
  hwx9_3 : ∀ i : grid9.Coords, EltTy.bits .f32 = 32 ∨ (Rect.block (s := S1x300) S1x300.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x300.size a ≤ S50000x300.size a
  hwx9_4 : ∀ i : grid9.Coords, EltTy.bits .bf16 = 32 ∨ (Rect.block (s := S50000x300) S2000x300.size (cc9_transform_4 i) (hinb9_4 i)).WholeWords (EltTy.packing .bf16)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S8x300.size a ≤ S200x300.size a
  hwx9_5 : ∀ i : grid9.Coords, EltTy.bits .f32 = 32 ∨ (Rect.block (s := S200x300) S8x300.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S8x300.size a ≤ S200x300.size a
  hwx9_6 : ∀ i : grid9.Coords, EltTy.bits .f32 = 32 ∨ (Rect.block (s := S200x300) S8x300.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x300.size a ≤ S50000x300.size a
  hwx10_0 : ∀ i : grid10.Coords, EltTy.bits .bf16 = 32 ∨ (Rect.block (s := S50000x300) S2000x300.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x300.size a ≤ S1x300.size a
  hwx10_1 : ∀ i : grid10.Coords, EltTy.bits .f32 = 32 ∨ (Rect.block (s := S1x300) S1x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x300.size a ≤ S1x300.size a
  hwx10_3 : ∀ i : grid10.Coords, EltTy.bits .f32 = 32 ∨ (Rect.block (s := S1x300) S1x300.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x300.size a ≤ S1x300.size a
  hwx10_4 : ∀ i : grid10.Coords, EltTy.bits .f32 = 32 ∨ (Rect.block (s := S1x300) S1x300.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S300x300.size a ≤ S300x300.size a
  hwx10_5 : ∀ i : grid10.Coords, EltTy.bits .f32 = 32 ∨ (Rect.block (s := S300x300) S300x300.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x300.size a ≤ S1x300.size a
  hwx10_6 : ∀ i : grid10.Coords, EltTy.bits .f32 = 32 ∨ (Rect.block (s := S1x300) S1x300.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x300.size a ≤ S50000x300.size a
  hwx10_7 : ∀ i : grid10.Coords, EltTy.bits .bf16 = 32 ∨ (Rect.block (s := S50000x300) S2000x300.size (cc10_transform_7 i) (hinb10_7 i)).WholeWords (EltTy.packing .bf16)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S8x300.size a ≤ S200x300.size a
  hwx10_8 : ∀ i : grid10.Coords, EltTy.bits .f32 = 32 ∨ (Rect.block (s := S200x300) S8x300.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S8x300.size a ≤ S200x300.size a
  hwx10_9 : ∀ i : grid10.Coords, EltTy.bits .f32 = 32 ∨ (Rect.block (s := S200x300) S8x300.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x300.size a ≤ S50000x300.size a
  hwx11_0 : ∀ i : grid11.Coords, EltTy.bits .bf16 = 32 ∨ (Rect.block (s := S50000x300) S2000x300.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x300.size a ≤ S1x300.size a
  hwx11_1 : ∀ i : grid11.Coords, EltTy.bits .f32 = 32 ∨ (Rect.block (s := S1x300) S1x300.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x300.size a ≤ S1x300.size a
  hwx11_2 : ∀ i : grid11.Coords, EltTy.bits .f32 = 32 ∨ (Rect.block (s := S1x300) S1x300.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x300.size a ≤ S1x300.size a
  hwx11_3 : ∀ i : grid11.Coords, EltTy.bits .f32 = 32 ∨ (Rect.block (s := S1x300) S1x300.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x300.size a ≤ S1x300.size a
  hwx11_4 : ∀ i : grid11.Coords, EltTy.bits .f32 = 32 ∨ (Rect.block (s := S1x300) S1x300.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x300.size a ≤ S50000x300.size a
  hwx11_5 : ∀ i : grid11.Coords, EltTy.bits .f32 = 32 ∨ (Rect.block (s := S50000x300) S2000x300.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x300.size a ≤ S50000x300.size a
  hwx12_0 : ∀ i : grid12.Coords, EltTy.bits .f32 = 32 ∨ (Rect.block (s := S50000x300) S2000x300.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x300.size a ≤ S50000x300.size a
  hwx12_1 : ∀ i : grid12.Coords, EltTy.bits .f32 = 32 ∨ (Rect.block (s := S50000x300) S2000x300.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S300x300.size a ≤ S300x300.size a
  hwx12_2 : ∀ i : grid12.Coords, EltTy.bits .f32 = 32 ∨ (Rect.block (s := S300x300) S300x300.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x300.size a ≤ S1x300.size a
  hwx12_3 : ∀ i : grid12.Coords, EltTy.bits .f32 = 32 ∨ (Rect.block (s := S1x300) S1x300.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x300.size a ≤ S50000x300.size a
  hwx12_4 : ∀ i : grid12.Coords, EltTy.bits .bf16 = 32 ∨ (Rect.block (s := S50000x300) S2000x300.size (cc12_transform_4 i) (hinb12_4 i)).WholeWords (EltTy.packing .bf16)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S8x300.size a ≤ S200x300.size a
  hwx12_5 : ∀ i : grid12.Coords, EltTy.bits .f32 = 32 ∨ (Rect.block (s := S200x300) S8x300.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S8x300.size a ≤ S200x300.size a
  hwx12_6 : ∀ i : grid12.Coords, EltTy.bits .f32 = 32 ∨ (Rect.block (s := S200x300) S8x300.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x300.size a ≤ S50000x300.size a
  hwx13_0 : ∀ i : grid13.Coords, EltTy.bits .bf16 = 32 ∨ (Rect.block (s := S50000x300) S2000x300.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x300.size a ≤ S1x300.size a
  hwx13_1 : ∀ i : grid13.Coords, EltTy.bits .f32 = 32 ∨ (Rect.block (s := S1x300) S1x300.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x300.size a ≤ S1x300.size a
  hwx13_2 : ∀ i : grid13.Coords, EltTy.bits .f32 = 32 ∨ (Rect.block (s := S1x300) S1x300.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x300.size a ≤ S1x300.size a
  hwx13_3 : ∀ i : grid13.Coords, EltTy.bits .f32 = 32 ∨ (Rect.block (s := S1x300) S1x300.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x300.size a ≤ S1x300.size a
  hwx13_4 : ∀ i : grid13.Coords, EltTy.bits .f32 = 32 ∨ (Rect.block (s := S1x300) S1x300.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S300x300.size a ≤ S300x300.size a
  hwx13_5 : ∀ i : grid13.Coords, EltTy.bits .f32 = 32 ∨ (Rect.block (s := S300x300) S300x300.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x300.size a ≤ S1x300.size a
  hwx13_6 : ∀ i : grid13.Coords, EltTy.bits .f32 = 32 ∨ (Rect.block (s := S1x300) S1x300.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S2000x300.size a ≤ S50000x300.size a
  hwx13_7 : ∀ i : grid13.Coords, EltTy.bits .bf16 = 32 ∨ (Rect.block (s := S50000x300) S2000x300.size (cc13_transform_7 i) (hinb13_7 i)).WholeWords (EltTy.packing .bf16)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S8x300.size a ≤ S200x300.size a
  hwx13_8 : ∀ i : grid13.Coords, EltTy.bits .f32 = 32 ∨ (Rect.block (s := S200x300) S8x300.size (cc13_transform_8 i) (hinb13_8 i)).WholeWords (EltTy.packing .f32)
  hstage13_9 : ∀ j, (stage13_9 j).IsWhole
  nbuf13_9 : grid13.bufCount reads13_9 false = 2
  hreads13_9 : ∀ i i' : grid13.Coords, (∀ a, reads13_9 a = true → i a = i' a) → cc13_transform_9 i = cc13_transform_9 i'
  hinb13_9 : ∀ (i : grid13.Coords) a, (cc13_transform_9 i a + 1) * S8x300.size a ≤ S200x300.size a
  hwx13_9 : ∀ i : grid13.Coords, EltTy.bits .f32 = 32 ∨ (Rect.block (s := S200x300) S8x300.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x300.size a ≤ S50000x300.size a
  hwx14_0 : ∀ i : grid14.Coords, EltTy.bits .bf16 = 32 ∨ (Rect.block (s := S50000x300) S2000x300.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x300.size a ≤ S1x300.size a
  hwx14_1 : ∀ i : grid14.Coords, EltTy.bits .f32 = 32 ∨ (Rect.block (s := S1x300) S1x300.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x300.size a ≤ S1x300.size a
  hwx14_2 : ∀ i : grid14.Coords, EltTy.bits .f32 = 32 ∨ (Rect.block (s := S1x300) S1x300.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x300.size a ≤ S1x300.size a
  hwx14_3 : ∀ i : grid14.Coords, EltTy.bits .f32 = 32 ∨ (Rect.block (s := S1x300) S1x300.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x300.size a ≤ S1x300.size a
  hwx14_4 : ∀ i : grid14.Coords, EltTy.bits .f32 = 32 ∨ (Rect.block (s := S1x300) S1x300.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x300.size a ≤ S50000x300.size a
  hwx14_5 : ∀ i : grid14.Coords, EltTy.bits .f32 = 32 ∨ (Rect.block (s := S50000x300) S2000x300.size (cc14_transform_5 i) (hinb14_5 i)).WholeWords (EltTy.packing .f32)

variable [Facts₀]

def gather_S50000x300_S400000x1_S400000x300_1_0_n_n_0_1_1300 : GatherDims S50000x300 S400000x1 S400000x300 where
  offsetDims := [1]
  collapsedSliceDims := [0]
  operandBatchingDims := []
  startIndicesBatchingDims := []
  startIndexMap := [0]
  indexVectorDim := 1
  sliceSizes := ![1, 300]
  wf := gather_S50000x300_S400000x1_S400000x300_1_0_n_n_0_1_1300_wf
def scatter_S50000x300_S400000x1_S400000x300_1_0_0_1 : ScatterDims S50000x300 S400000x1 S400000x300 where
  updateWindowDims := [1]
  insertedWindowDims := [0]
  scatterDimsToOperandDims := [0]
  indexVectorDim := 1
  wf := scatter_S50000x300_S400000x1_S400000x300_1_0_0_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x300_S50000x1_S50000x300_1_0_0_1 : ScatterDims S256x300 S50000x1 S50000x300 where
  updateWindowDims := [1]
  insertedWindowDims := [0]
  scatterDimsToOperandDims := [0]
  indexVectorDim := 1
  wf := scatter_S256x300_S50000x1_S50000x300_1_0_0_1_wf
def dot_S256x300_S300x128_S256x128_1_0_0_1_n_n : DotDims S256x300 S300x128 S256x128 where
  lhsContracting := [1]
  rhsContracting := [0]
  lhsNonContracting := [0]
  rhsNonContracting := [1]
  lhsBatch := []
  rhsBatch := []
  wf := dot_S256x300_S300x128_S256x128_1_0_0_1_n_n_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S300x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S2000x300.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S8x300.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S8x300.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S300x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47_0) S2000x300.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_1) S8x300.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v47_2) S8x300.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47_0) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S2000x300.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S300x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86_0) S2000x300.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v86_1) S8x300.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v86_2) S8x300.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v86_0) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S1x300.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v110) S1x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S1x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112) S1x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S300x300.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113) S1x300.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v114_0) S2000x300.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v114_1) S8x300.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v114_2) S8x300.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v114_0) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v133) S1x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v134) S1x300.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v135) S1x300.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v136) S1x300.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v137) S2000x300.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v137) S2000x300.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S2000x300.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v149) S300x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S1x300.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v153_0) S2000x300.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v153_1) S8x300.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v153_2) S8x300.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v153_0) S2000x300.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v176) S1x300.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v177) S1x300.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v178) S1x300.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v179) S1x300.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v173) S300x300.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v180) S1x300.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v181_0) S2000x300.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v181_1) S8x300.size cc7_transform_8 reads7_8 true false 2 stage7_8 sem7_8
    hrank7 hreads7_8 hinb7_8 nbuf7_8 (Memref.isWhole_whole _) hwx7_8 hstage7_8

abbrev win7_9 : Pipeline.Window sig grid7 :=
  Pipeline.Window.ofSpec (Memref.whole main_v181_2) S8x300.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v181_0) S2000x300.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v200) S1x300.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v201) S1x300.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v202) S1x300.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v203) S1x300.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v204) S2000x300.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v204) S2000x300.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v214) S2000x300.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v216) S300x300.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v219) S1x300.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v220_0) S2000x300.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v220_1) S8x300.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v220_2) S8x300.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v220_0) S2000x300.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v243) S1x300.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v244) S1x300.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v245) S1x300.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v246) S1x300.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v240) S300x300.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v247) S1x300.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v248_0) S2000x300.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v248_1) S8x300.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v248_2) S8x300.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v248_0) S2000x300.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v267) S1x300.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v268) S1x300.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v269) S1x300.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v270) S1x300.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v271) S2000x300.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v271) S2000x300.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v281) S2000x300.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v283) S300x300.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v286) S1x300.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v287_0) S2000x300.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v287_1) S8x300.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v287_2) S8x300.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v287_0) S2000x300.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v310) S1x300.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v311) S1x300.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v312) S1x300.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v313) S1x300.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v307) S300x300.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v314) S1x300.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v315_0) S2000x300.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v315_1) S8x300.size cc13_transform_8 reads13_8 true false 2 stage13_8 sem13_8
    hrank13 hreads13_8 hinb13_8 nbuf13_8 (Memref.isWhole_whole _) hwx13_8 hstage13_8

abbrev win13_9 : Pipeline.Window sig grid13 :=
  Pipeline.Window.ofSpec (Memref.whole main_v315_2) S8x300.size cc13_transform_9 reads13_9 true false 2 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v315_0) S2000x300.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v334) S1x300.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v335) S1x300.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v336) S1x300.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v337) S1x300.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v338) S2000x300.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S50000x300 : Shape := ⟨2, ![50000, 300]⟩
abbrev S2x400000 : Shape := ⟨2, ![2, 400000]⟩
abbrev S50000 : Shape := ⟨1, ![50000]⟩
abbrev S5x300x300 : Shape := ⟨3, ![5, 300, 300]⟩
abbrev S5x300 : Shape := ⟨2, ![5, 300]⟩
abbrev S6x300x128 : Shape := ⟨3, ![6, 300, 128]⟩
abbrev S6x128 : Shape := ⟨2, ![6, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x300 : Shape := ⟨2, ![400000, 300]⟩
abbrev S1x300x300 : Shape := ⟨3, ![1, 300, 300]⟩
abbrev S300x300 : Shape := ⟨2, ![300, 300]⟩
abbrev S1x300 : Shape := ⟨2, ![1, 300]⟩
abbrev S300 : Shape := ⟨1, ![300]⟩
abbrev S256 : Shape := ⟨1, ![256]⟩
abbrev S50000x1 : Shape := ⟨2, ![50000, 1]⟩
abbrev S256x128 : Shape := ⟨2, ![256, 128]⟩
abbrev S256x300 : Shape := ⟨2, ![256, 300]⟩
abbrev S256x1 : Shape := ⟨2, ![256, 1]⟩
abbrev S1x300x128 : Shape := ⟨3, ![1, 300, 128]⟩
abbrev S300x128 : Shape := ⟨2, ![300, 128]⟩
abbrev S1x128 : Shape := ⟨2, ![1, 128]⟩
abbrev S128 : Shape := ⟨1, ![128]⟩

abbrev nBuf : Space → Nat
  | .hbm => 787
  | .vmem => 0
  | .smem => 0
  | _ => 0

abbrev hbmTy0_0 (i : Nat) : BufTy := match i % 128 with
  | 0 => ⟨S50000x300, .f32⟩
  | 1 => ⟨S2x400000, .i32⟩
  | 2 => ⟨S50000, .i32⟩
  | 3 => ⟨S5x300x300, .f32⟩
  | 4 => ⟨S5x300, .f32⟩
  | 5 => ⟨S5x300, .f32⟩
  | 6 => ⟨S5x300, .f32⟩
  | 7 => ⟨S5x300x300, .f32⟩
  | 8 => ⟨S5x300, .f32⟩
  | 9 => ⟨S5x300, .f32⟩
  | 10 => ⟨S5x300, .f32⟩
  | 11 => ⟨S6x300x128, .f32⟩
  | 12 => ⟨S6x128, .f32⟩
  | 13 => ⟨S1x400000, .i32⟩
  | 14 => ⟨S400000, .i32⟩
  | 15 => ⟨S1x400000, .i32⟩
  | 16 => ⟨S400000, .i32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x300, .f32⟩
  | 26 => ⟨S_, .f32⟩
  | 27 => ⟨S50000x300, .f32⟩
  | 28 => ⟨S400000x1, .i32⟩
  | 29 => ⟨S50000x300, .f32⟩
  | 30 => ⟨S50000x300, .f32⟩
  | 31 => ⟨S1x300x300, .f32⟩
  | 32 => ⟨S300x300, .f32⟩
  | 33 => ⟨S50000x300, .f32⟩
  | 34 => ⟨S1x300, .f32⟩
  | 35 => ⟨S300, .f32⟩
  | 36 => ⟨S1x300, .f32⟩
  | 37 => ⟨S50000x300, .f32⟩
  | 38 => ⟨S50000x300, .f32⟩
  | 39 => ⟨S1x300, .f32⟩
  | 40 => ⟨S300, .f32⟩
  | 41 => ⟨S1x300, .f32⟩
  | 42 => ⟨S300, .f32⟩
  | 43 => ⟨S_, .f32⟩
  | 44 => ⟨S300, .f32⟩
  | 45 => ⟨S_, .f32⟩
  | 46 => ⟨S300, .f32⟩
  | 47 => ⟨S300, .f32⟩
  | 48 => ⟨S_, .i32⟩
  | 49 => ⟨S_, .f32⟩
  | 50 => ⟨S300, .f32⟩
  | 51 => ⟨S1x300, .f32⟩
  | 52 => ⟨S_, .f32⟩
  | 53 => ⟨S1x300, .f32⟩
  | 54 => ⟨S1x300, .f32⟩
  | 55 => ⟨S50000x300, .f32⟩
  | 56 => ⟨S50000x300, .f32⟩
  | 57 => ⟨S50000x300, .f32⟩
  | 58 => ⟨S_, .f32⟩
  | 59 => ⟨S_, .f32⟩
  | 60 => ⟨S_, .f32⟩
  | 61 => ⟨S_, .f32⟩
  | 62 => ⟨S300, .f32⟩
  | 63 => ⟨S300, .f32⟩
  | 64 => ⟨S300, .f32⟩
  | 65 => ⟨S_, .f32⟩
  | 66 => ⟨S_, .i1⟩
  | 67 => ⟨S_, .f32⟩
  | 68 => ⟨S_, .f32⟩
  | 69 => ⟨S300, .f32⟩
  | 70 => ⟨S300, .f32⟩
  | 71 => ⟨S1x300, .f32⟩
  | 72 => ⟨S50000x300, .f32⟩
  | 73 => ⟨S50000x300, .f32⟩
  | 74 => ⟨S_, .f32⟩
  | 75 => ⟨S300, .f32⟩
  | 76 => ⟨S300, .f32⟩
  | 77 => ⟨S300, .f32⟩
  | 78 => ⟨S1x300, .f32⟩
  | 79 => ⟨S50000x300, .f32⟩
  | 80 => ⟨S50000x300, .f32⟩
  | 81 => ⟨S1x300, .f32⟩
  | 82 => ⟨S50000x300, .f32⟩
  | 83 => ⟨S50000x300, .f32⟩
  | 84 => ⟨S1x300, .f32⟩
  | 85 => ⟨S50000x300, .f32⟩
  | 86 => ⟨S50000x300, .f32⟩
  | 87 => ⟨S_, .f32⟩
  | 88 => ⟨S50000x300, .f32⟩
  | 89 => ⟨S50000x300, .f32⟩
  | 90 => ⟨S1x300x300, .f32⟩
  | 91 => ⟨S300x300, .f32⟩
  | 92 => ⟨S50000x300, .f32⟩
  | 93 => ⟨S1x300, .f32⟩
  | 94 => ⟨S300, .f32⟩
  | 95 => ⟨S1x300, .f32⟩
  | 96 => ⟨S50000x300, .f32⟩
  | 97 => ⟨S50000x300, .f32⟩
  | 98 => ⟨S1x300, .f32⟩
  | 99 => ⟨S300, .f32⟩
  | 100 => ⟨S1x300, .f32⟩
  | 101 => ⟨S300, .f32⟩
  | 102 => ⟨S_, .f32⟩
  | 103 => ⟨S300, .f32⟩
  | 104 => ⟨S_, .f32⟩
  | 105 => ⟨S300, .f32⟩
  | 106 => ⟨S300, .f32⟩
  | 107 => ⟨S_, .i32⟩
  | 108 => ⟨S_, .f32⟩
  | 109 => ⟨S300, .f32⟩
  | 110 => ⟨S1x300, .f32⟩
  | 111 => ⟨S_, .f32⟩
  | 112 => ⟨S1x300, .f32⟩
  | 113 => ⟨S1x300, .f32⟩
  | 114 => ⟨S50000x300, .f32⟩
  | 115 => ⟨S50000x300, .f32⟩
  | 116 => ⟨S50000x300, .f32⟩
  | 117 => ⟨S_, .f32⟩
  | 118 => ⟨S_, .f32⟩
  | 119 => ⟨S_, .f32⟩
  | 120 => ⟨S_, .f32⟩
  | 121 => ⟨S300, .f32⟩
  | 122 => ⟨S300, .f32⟩
  | 123 => ⟨S300, .f32⟩
  | 124 => ⟨S_, .f32⟩
  | 125 => ⟨S_, .i1⟩
  | 126 => ⟨S_, .f32⟩
  | 127 => ⟨S_, .f32⟩
  | _ => ⟨S50000x300, .f32⟩

abbrev hbmTy0_1 (i : Nat) : BufTy := match i % 128 with
  | 0 => ⟨S300, .f32⟩
  | 1 => ⟨S300, .f32⟩
  | 2 => ⟨S1x300, .f32⟩
  | 3 => ⟨S50000x300, .f32⟩
  | 4 => ⟨S50000x300, .f32⟩
  | 5 => ⟨S_, .f32⟩
  | 6 => ⟨S300, .f32⟩
  | 7 => ⟨S300, .f32⟩
  | 8 => ⟨S300, .f32⟩
  | 9 => ⟨S1x300, .f32⟩
  | 10 => ⟨S50000x300, .f32⟩
  | 11 => ⟨S50000x300, .f32⟩
  | 12 => ⟨S1x300, .f32⟩
  | 13 => ⟨S50000x300, .f32⟩
  | 14 => ⟨S50000x300, .f32⟩
  | 15 => ⟨S1x300, .f32⟩
  | 16 => ⟨S50000x300, .f32⟩
  | 17 => ⟨S50000x300, .f32⟩
  | 18 => ⟨S_, .f32⟩
  | 19 => ⟨S50000x300, .f32⟩
  | 20 => ⟨S50000x300, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x300, .f32⟩
  | 30 => ⟨S_, .f32⟩
  | 31 => ⟨S50000x300, .f32⟩
  | 32 => ⟨S400000x1, .i32⟩
  | 33 => ⟨S50000x300, .f32⟩
  | 34 => ⟨S50000x300, .f32⟩
  | 35 => ⟨S1x300x300, .f32⟩
  | 36 => ⟨S300x300, .f32⟩
  | 37 => ⟨S50000x300, .f32⟩
  | 38 => ⟨S1x300, .f32⟩
  | 39 => ⟨S300, .f32⟩
  | 40 => ⟨S1x300, .f32⟩
  | 41 => ⟨S50000x300, .f32⟩
  | 42 => ⟨S50000x300, .f32⟩
  | 43 => ⟨S1x300, .f32⟩
  | 44 => ⟨S300, .f32⟩
  | 45 => ⟨S1x300, .f32⟩
  | 46 => ⟨S300, .f32⟩
  | 47 => ⟨S_, .f32⟩
  | 48 => ⟨S300, .f32⟩
  | 49 => ⟨S_, .f32⟩
  | 50 => ⟨S300, .f32⟩
  | 51 => ⟨S300, .f32⟩
  | 52 => ⟨S_, .i32⟩
  | 53 => ⟨S_, .f32⟩
  | 54 => ⟨S300, .f32⟩
  | 55 => ⟨S1x300, .f32⟩
  | 56 => ⟨S_, .f32⟩
  | 57 => ⟨S1x300, .f32⟩
  | 58 => ⟨S1x300, .f32⟩
  | 59 => ⟨S50000x300, .f32⟩
  | 60 => ⟨S50000x300, .f32⟩
  | 61 => ⟨S50000x300, .f32⟩
  | 62 => ⟨S_, .f32⟩
  | 63 => ⟨S_, .f32⟩
  | 64 => ⟨S_, .f32⟩
  | 65 => ⟨S_, .f32⟩
  | 66 => ⟨S300, .f32⟩
  | 67 => ⟨S300, .f32⟩
  | 68 => ⟨S300, .f32⟩
  | 69 => ⟨S_, .f32⟩
  | 70 => ⟨S_, .i1⟩
  | 71 => ⟨S_, .f32⟩
  | 72 => ⟨S_, .f32⟩
  | 73 => ⟨S300, .f32⟩
  | 74 => ⟨S300, .f32⟩
  | 75 => ⟨S1x300, .f32⟩
  | 76 => ⟨S50000x300, .f32⟩
  | 77 => ⟨S50000x300, .f32⟩
  | 78 => ⟨S_, .f32⟩
  | 79 => ⟨S300, .f32⟩
  | 80 => ⟨S300, .f32⟩
  | 81 => ⟨S300, .f32⟩
  | 82 => ⟨S1x300, .f32⟩
  | 83 => ⟨S50000x300, .f32⟩
  | 84 => ⟨S50000x300, .f32⟩
  | 85 => ⟨S1x300, .f32⟩
  | 86 => ⟨S50000x300, .f32⟩
  | 87 => ⟨S50000x300, .f32⟩
  | 88 => ⟨S1x300, .f32⟩
  | 89 => ⟨S50000x300, .f32⟩
  | 90 => ⟨S50000x300, .f32⟩
  | 91 => ⟨S_, .f32⟩
  | 92 => ⟨S50000x300, .f32⟩
  | 93 => ⟨S50000x300, .f32⟩
  | 94 => ⟨S1x300x300, .f32⟩
  | 95 => ⟨S300x300, .f32⟩
  | 96 => ⟨S50000x300, .f32⟩
  | 97 => ⟨S1x300, .f32⟩
  | 98 => ⟨S300, .f32⟩
  | 99 => ⟨S1x300, .f32⟩
  | 100 => ⟨S50000x300, .f32⟩
  | 101 => ⟨S50000x300, .f32⟩
  | 102 => ⟨S1x300, .f32⟩
  | 103 => ⟨S300, .f32⟩
  | 104 => ⟨S1x300, .f32⟩
  | 105 => ⟨S300, .f32⟩
  | 106 => ⟨S_, .f32⟩
  | 107 => ⟨S300, .f32⟩
  | 108 => ⟨S_, .f32⟩
  | 109 => ⟨S300, .f32⟩
  | 110 => ⟨S300, .f32⟩
  | 111 => ⟨S_, .i32⟩
  | 112 => ⟨S_, .f32⟩
  | 113 => ⟨S300, .f32⟩
  | 114 => ⟨S1x300, .f32⟩
  | 115 => ⟨S_, .f32⟩
  | 116 => ⟨S1x300, .f32⟩
  | 117 => ⟨S1x300, .f32⟩
  | 118 => ⟨S50000x300, .f32⟩
  | 119 => ⟨S50000x300, .f32⟩
  | 120 => ⟨S50000x300, .f32⟩
  | 121 => ⟨S_, .f32⟩
  | 122 => ⟨S_, .f32⟩
  | 123 => ⟨S_, .f32⟩
  | 124 => ⟨S_, .f32⟩
  | 125 => ⟨S300, .f32⟩
  | 126 => ⟨S300, .f32⟩
  | 127 => ⟨S300, .f32⟩
  | _ => ⟨S50000x300, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S300, .f32⟩
  | 5 => ⟨S300, .f32⟩
  | 6 => ⟨S1x300, .f32⟩
  | 7 => ⟨S50000x300, .f32⟩
  | 8 => ⟨S50000x300, .f32⟩
  | 9 => ⟨S_, .f32⟩
  | 10 => ⟨S300, .f32⟩
  | 11 => ⟨S300, .f32⟩
  | 12 => ⟨S300, .f32⟩
  | 13 => ⟨S1x300, .f32⟩
  | 14 => ⟨S50000x300, .f32⟩
  | 15 => ⟨S50000x300, .f32⟩
  | 16 => ⟨S1x300, .f32⟩
  | 17 => ⟨S50000x300, .f32⟩
  | 18 => ⟨S50000x300, .f32⟩
  | 19 => ⟨S1x300, .f32⟩
  | 20 => ⟨S50000x300, .f32⟩
  | 21 => ⟨S50000x300, .f32⟩
  | 22 => ⟨S_, .f32⟩
  | 23 => ⟨S50000x300, .f32⟩
  | 24 => ⟨S50000x300, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x300, .f32⟩
  | 34 => ⟨S_, .f32⟩
  | 35 => ⟨S50000x300, .f32⟩
  | 36 => ⟨S400000x1, .i32⟩
  | 37 => ⟨S50000x300, .f32⟩
  | 38 => ⟨S50000x300, .f32⟩
  | 39 => ⟨S1x300x300, .f32⟩
  | 40 => ⟨S300x300, .f32⟩
  | 41 => ⟨S50000x300, .f32⟩
  | 42 => ⟨S1x300, .f32⟩
  | 43 => ⟨S300, .f32⟩
  | 44 => ⟨S1x300, .f32⟩
  | 45 => ⟨S50000x300, .f32⟩
  | 46 => ⟨S50000x300, .f32⟩
  | 47 => ⟨S1x300, .f32⟩
  | 48 => ⟨S300, .f32⟩
  | 49 => ⟨S1x300, .f32⟩
  | 50 => ⟨S300, .f32⟩
  | 51 => ⟨S_, .f32⟩
  | 52 => ⟨S300, .f32⟩
  | 53 => ⟨S_, .f32⟩
  | 54 => ⟨S300, .f32⟩
  | 55 => ⟨S300, .f32⟩
  | 56 => ⟨S_, .i32⟩
  | 57 => ⟨S_, .f32⟩
  | 58 => ⟨S300, .f32⟩
  | 59 => ⟨S1x300, .f32⟩
  | 60 => ⟨S_, .f32⟩
  | 61 => ⟨S1x300, .f32⟩
  | 62 => ⟨S1x300, .f32⟩
  | 63 => ⟨S50000x300, .f32⟩
  | 64 => ⟨S50000x300, .f32⟩
  | 65 => ⟨S50000x300, .f32⟩
  | 66 => ⟨S_, .f32⟩
  | 67 => ⟨S_, .f32⟩
  | 68 => ⟨S_, .f32⟩
  | 69 => ⟨S_, .f32⟩
  | 70 => ⟨S300, .f32⟩
  | 71 => ⟨S300, .f32⟩
  | 72 => ⟨S300, .f32⟩
  | 73 => ⟨S_, .f32⟩
  | 74 => ⟨S_, .i1⟩
  | 75 => ⟨S_, .f32⟩
  | 76 => ⟨S_, .f32⟩
  | 77 => ⟨S300, .f32⟩
  | 78 => ⟨S300, .f32⟩
  | 79 => ⟨S1x300, .f32⟩
  | 80 => ⟨S50000x300, .f32⟩
  | 81 => ⟨S50000x300, .f32⟩
  | 82 => ⟨S_, .f32⟩
  | 83 => ⟨S300, .f32⟩
  | 84 => ⟨S300, .f32⟩
  | 85 => ⟨S300, .f32⟩
  | 86 => ⟨S1x300, .f32⟩
  | 87 => ⟨S50000x300, .f32⟩
  | 88 => ⟨S50000x300, .f32⟩
  | 89 => ⟨S1x300, .f32⟩
  | 90 => ⟨S50000x300, .f32⟩
  | 91 => ⟨S50000x300, .f32⟩
  | 92 => ⟨S1x300, .f32⟩
  | 93 => ⟨S50000x300, .f32⟩
  | 94 => ⟨S50000x300, .f32⟩
  | 95 => ⟨S_, .f32⟩
  | 96 => ⟨S50000x300, .f32⟩
  | 97 => ⟨S50000x300, .f32⟩
  | 98 => ⟨S1x300x300, .f32⟩
  | 99 => ⟨S300x300, .f32⟩
  | 100 => ⟨S50000x300, .f32⟩
  | 101 => ⟨S1x300, .f32⟩
  | 102 => ⟨S300, .f32⟩
  | 103 => ⟨S1x300, .f32⟩
  | 104 => ⟨S50000x300, .f32⟩
  | 105 => ⟨S50000x300, .f32⟩
  | 106 => ⟨S1x300, .f32⟩
  | 107 => ⟨S300, .f32⟩
  | 108 => ⟨S1x300, .f32⟩
  | 109 => ⟨S300, .f32⟩
  | 110 => ⟨S_, .f32⟩
  | 111 => ⟨S300, .f32⟩
  | 112 => ⟨S_, .f32⟩
  | 113 => ⟨S300, .f32⟩
  | 114 => ⟨S300, .f32⟩
  | 115 => ⟨S_, .i32⟩
  | 116 => ⟨S_, .f32⟩
  | 117 => ⟨S300, .f32⟩
  | 118 => ⟨S1x300, .f32⟩
  | 119 => ⟨S_, .f32⟩
  | 120 => ⟨S1x300, .f32⟩
  | 121 => ⟨S1x300, .f32⟩
  | 122 => ⟨S50000x300, .f32⟩
  | 123 => ⟨S50000x300, .f32⟩
  | 124 => ⟨S50000x300, .f32⟩
  | 125 => ⟨S_, .f32⟩
  | 126 => ⟨S_, .f32⟩
  | 127 => ⟨S_, .f32⟩
  | _ => ⟨S50000x300, .f32⟩

abbrev hbmTy0_3 (i : Nat) : BufTy := match i % 128 with
  | 0 => ⟨S_, .f32⟩
  | 1 => ⟨S300, .f32⟩
  | 2 => ⟨S300, .f32⟩
  | 3 => ⟨S300, .f32⟩
  | 4 => ⟨S_, .f32⟩
  | 5 => ⟨S_, .i1⟩
  | 6 => ⟨S_, .f32⟩
  | 7 => ⟨S_, .f32⟩
  | 8 => ⟨S300, .f32⟩
  | 9 => ⟨S300, .f32⟩
  | 10 => ⟨S1x300, .f32⟩
  | 11 => ⟨S50000x300, .f32⟩
  | 12 => ⟨S50000x300, .f32⟩
  | 13 => ⟨S_, .f32⟩
  | 14 => ⟨S300, .f32⟩
  | 15 => ⟨S300, .f32⟩
  | 16 => ⟨S300, .f32⟩
  | 17 => ⟨S1x300, .f32⟩
  | 18 => ⟨S50000x300, .f32⟩
  | 19 => ⟨S50000x300, .f32⟩
  | 20 => ⟨S1x300, .f32⟩
  | 21 => ⟨S50000x300, .f32⟩
  | 22 => ⟨S50000x300, .f32⟩
  | 23 => ⟨S1x300, .f32⟩
  | 24 => ⟨S50000x300, .f32⟩
  | 25 => ⟨S50000x300, .f32⟩
  | 26 => ⟨S_, .f32⟩
  | 27 => ⟨S50000x300, .f32⟩
  | 28 => ⟨S50000x300, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x300, .f32⟩
  | 38 => ⟨S_, .f32⟩
  | 39 => ⟨S50000x300, .f32⟩
  | 40 => ⟨S400000x1, .i32⟩
  | 41 => ⟨S50000x300, .f32⟩
  | 42 => ⟨S50000x300, .f32⟩
  | 43 => ⟨S1x300x300, .f32⟩
  | 44 => ⟨S300x300, .f32⟩
  | 45 => ⟨S50000x300, .f32⟩
  | 46 => ⟨S1x300, .f32⟩
  | 47 => ⟨S300, .f32⟩
  | 48 => ⟨S1x300, .f32⟩
  | 49 => ⟨S50000x300, .f32⟩
  | 50 => ⟨S50000x300, .f32⟩
  | 51 => ⟨S1x300, .f32⟩
  | 52 => ⟨S300, .f32⟩
  | 53 => ⟨S1x300, .f32⟩
  | 54 => ⟨S300, .f32⟩
  | 55 => ⟨S_, .f32⟩
  | 56 => ⟨S300, .f32⟩
  | 57 => ⟨S_, .f32⟩
  | 58 => ⟨S300, .f32⟩
  | 59 => ⟨S300, .f32⟩
  | 60 => ⟨S_, .i32⟩
  | 61 => ⟨S_, .f32⟩
  | 62 => ⟨S300, .f32⟩
  | 63 => ⟨S1x300, .f32⟩
  | 64 => ⟨S_, .f32⟩
  | 65 => ⟨S1x300, .f32⟩
  | 66 => ⟨S1x300, .f32⟩
  | 67 => ⟨S50000x300, .f32⟩
  | 68 => ⟨S50000x300, .f32⟩
  | 69 => ⟨S50000x300, .f32⟩
  | 70 => ⟨S_, .f32⟩
  | 71 => ⟨S_, .f32⟩
  | 72 => ⟨S_, .f32⟩
  | 73 => ⟨S_, .f32⟩
  | 74 => ⟨S300, .f32⟩
  | 75 => ⟨S300, .f32⟩
  | 76 => ⟨S300, .f32⟩
  | 77 => ⟨S_, .f32⟩
  | 78 => ⟨S_, .i1⟩
  | 79 => ⟨S_, .f32⟩
  | 80 => ⟨S_, .f32⟩
  | 81 => ⟨S300, .f32⟩
  | 82 => ⟨S300, .f32⟩
  | 83 => ⟨S1x300, .f32⟩
  | 84 => ⟨S50000x300, .f32⟩
  | 85 => ⟨S50000x300, .f32⟩
  | 86 => ⟨S_, .f32⟩
  | 87 => ⟨S300, .f32⟩
  | 88 => ⟨S300, .f32⟩
  | 89 => ⟨S300, .f32⟩
  | 90 => ⟨S1x300, .f32⟩
  | 91 => ⟨S50000x300, .f32⟩
  | 92 => ⟨S50000x300, .f32⟩
  | 93 => ⟨S1x300, .f32⟩
  | 94 => ⟨S50000x300, .f32⟩
  | 95 => ⟨S50000x300, .f32⟩
  | 96 => ⟨S1x300, .f32⟩
  | 97 => ⟨S50000x300, .f32⟩
  | 98 => ⟨S50000x300, .f32⟩
  | 99 => ⟨S_, .f32⟩
  | 100 => ⟨S50000x300, .f32⟩
  | 101 => ⟨S50000x300, .f32⟩
  | 102 => ⟨S1x300x300, .f32⟩
  | 103 => ⟨S300x300, .f32⟩
  | 104 => ⟨S50000x300, .f32⟩
  | 105 => ⟨S1x300, .f32⟩
  | 106 => ⟨S300, .f32⟩
  | 107 => ⟨S1x300, .f32⟩
  | 108 => ⟨S50000x300, .f32⟩
  | 109 => ⟨S50000x300, .f32⟩
  | 110 => ⟨S1x300, .f32⟩
  | 111 => ⟨S300, .f32⟩
  | 112 => ⟨S1x300, .f32⟩
  | 113 => ⟨S300, .f32⟩
  | 114 => ⟨S_, .f32⟩
  | 115 => ⟨S300, .f32⟩
  | 116 => ⟨S_, .f32⟩
  | 117 => ⟨S300, .f32⟩
  | 118 => ⟨S300, .f32⟩
  | 119 => ⟨S_, .i32⟩
  | 120 => ⟨S_, .f32⟩
  | 121 => ⟨S300, .f32⟩
  | 122 => ⟨S1x300, .f32⟩
  | 123 => ⟨S_, .f32⟩
  | 124 => ⟨S1x300, .f32⟩
  | 125 => ⟨S1x300, .f32⟩
  | 126 => ⟨S50000x300, .f32⟩
  | 127 => ⟨S50000x300, .f32⟩
  | _ => ⟨S50000x300, .f32⟩

abbrev hbmTy0_4 (i : Nat) : BufTy := match i % 128 with
  | 0 => ⟨S50000x300, .f32⟩
  | 1 => ⟨S_, .f32⟩
  | 2 => ⟨S_, .f32⟩
  | 3 => ⟨S_, .f32⟩
  | 4 => ⟨S_, .f32⟩
  | 5 => ⟨S300, .f32⟩
  | 6 => ⟨S300, .f32⟩
  | 7 => ⟨S300, .f32⟩
  | 8 => ⟨S_, .f32⟩
  | 9 => ⟨S_, .i1⟩
  | 10 => ⟨S_, .f32⟩
  | 11 => ⟨S_, .f32⟩
  | 12 => ⟨S300, .f32⟩
  | 13 => ⟨S300, .f32⟩
  | 14 => ⟨S1x300, .f32⟩
  | 15 => ⟨S50000x300, .f32⟩
  | 16 => ⟨S50000x300, .f32⟩
  | 17 => ⟨S_, .f32⟩
  | 18 => ⟨S300, .f32⟩
  | 19 => ⟨S300, .f32⟩
  | 20 => ⟨S300, .f32⟩
  | 21 => ⟨S1x300, .f32⟩
  | 22 => ⟨S50000x300, .f32⟩
  | 23 => ⟨S50000x300, .f32⟩
  | 24 => ⟨S1x300, .f32⟩
  | 25 => ⟨S50000x300, .f32⟩
  | 26 => ⟨S50000x300, .f32⟩
  | 27 => ⟨S1x300, .f32⟩
  | 28 => ⟨S50000x300, .f32⟩
  | 29 => ⟨S50000x300, .f32⟩
  | 30 => ⟨S_, .f32⟩
  | 31 => ⟨S50000x300, .f32⟩
  | 32 => ⟨S50000x300, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x300, .f32⟩
  | 42 => ⟨S_, .f32⟩
  | 43 => ⟨S50000x300, .f32⟩
  | 44 => ⟨S400000x1, .i32⟩
  | 45 => ⟨S50000x300, .f32⟩
  | 46 => ⟨S50000x300, .f32⟩
  | 47 => ⟨S1x300x300, .f32⟩
  | 48 => ⟨S300x300, .f32⟩
  | 49 => ⟨S50000x300, .f32⟩
  | 50 => ⟨S1x300, .f32⟩
  | 51 => ⟨S300, .f32⟩
  | 52 => ⟨S1x300, .f32⟩
  | 53 => ⟨S50000x300, .f32⟩
  | 54 => ⟨S50000x300, .f32⟩
  | 55 => ⟨S1x300, .f32⟩
  | 56 => ⟨S300, .f32⟩
  | 57 => ⟨S1x300, .f32⟩
  | 58 => ⟨S300, .f32⟩
  | 59 => ⟨S_, .f32⟩
  | 60 => ⟨S300, .f32⟩
  | 61 => ⟨S_, .f32⟩
  | 62 => ⟨S300, .f32⟩
  | 63 => ⟨S300, .f32⟩
  | 64 => ⟨S_, .i32⟩
  | 65 => ⟨S_, .f32⟩
  | 66 => ⟨S300, .f32⟩
  | 67 => ⟨S1x300, .f32⟩
  | 68 => ⟨S_, .f32⟩
  | 69 => ⟨S1x300, .f32⟩
  | 70 => ⟨S1x300, .f32⟩
  | 71 => ⟨S50000x300, .f32⟩
  | 72 => ⟨S50000x300, .f32⟩
  | 73 => ⟨S50000x300, .f32⟩
  | 74 => ⟨S_, .f32⟩
  | 75 => ⟨S_, .f32⟩
  | 76 => ⟨S_, .f32⟩
  | 77 => ⟨S_, .f32⟩
  | 78 => ⟨S300, .f32⟩
  | 79 => ⟨S300, .f32⟩
  | 80 => ⟨S300, .f32⟩
  | 81 => ⟨S_, .f32⟩
  | 82 => ⟨S_, .i1⟩
  | 83 => ⟨S_, .f32⟩
  | 84 => ⟨S_, .f32⟩
  | 85 => ⟨S300, .f32⟩
  | 86 => ⟨S300, .f32⟩
  | 87 => ⟨S1x300, .f32⟩
  | 88 => ⟨S50000x300, .f32⟩
  | 89 => ⟨S50000x300, .f32⟩
  | 90 => ⟨S_, .f32⟩
  | 91 => ⟨S300, .f32⟩
  | 92 => ⟨S300, .f32⟩
  | 93 => ⟨S300, .f32⟩
  | 94 => ⟨S1x300, .f32⟩
  | 95 => ⟨S50000x300, .f32⟩
  | 96 => ⟨S50000x300, .f32⟩
  | 97 => ⟨S1x300, .f32⟩
  | 98 => ⟨S50000x300, .f32⟩
  | 99 => ⟨S50000x300, .f32⟩
  | 100 => ⟨S1x300, .f32⟩
  | 101 => ⟨S50000x300, .f32⟩
  | 102 => ⟨S50000x300, .f32⟩
  | 103 => ⟨S_, .f32⟩
  | 104 => ⟨S50000x300, .f32⟩
  | 105 => ⟨S50000x300, .f32⟩
  | 106 => ⟨S1x300x300, .f32⟩
  | 107 => ⟨S300x300, .f32⟩
  | 108 => ⟨S50000x300, .f32⟩
  | 109 => ⟨S1x300, .f32⟩
  | 110 => ⟨S300, .f32⟩
  | 111 => ⟨S1x300, .f32⟩
  | 112 => ⟨S50000x300, .f32⟩
  | 113 => ⟨S50000x300, .f32⟩
  | 114 => ⟨S1x300, .f32⟩
  | 115 => ⟨S300, .f32⟩
  | 116 => ⟨S1x300, .f32⟩
  | 117 => ⟨S300, .f32⟩
  | 118 => ⟨S_, .f32⟩
  | 119 => ⟨S300, .f32⟩
  | 120 => ⟨S_, .f32⟩
  | 121 => ⟨S300, .f32⟩
  | 122 => ⟨S300, .f32⟩
  | 123 => ⟨S_, .i32⟩
  | 124 => ⟨S_, .f32⟩
  | 125 => ⟨S300, .f32⟩
  | 126 => ⟨S1x300, .f32⟩
  | 127 => ⟨S_, .f32⟩
  | _ => ⟨S50000x300, .f32⟩

abbrev hbmTy0_5 (i : Nat) : BufTy := match i % 128 with
  | 0 => ⟨S1x300, .f32⟩
  | 1 => ⟨S1x300, .f32⟩
  | 2 => ⟨S50000x300, .f32⟩
  | 3 => ⟨S50000x300, .f32⟩
  | 4 => ⟨S50000x300, .f32⟩
  | 5 => ⟨S_, .f32⟩
  | 6 => ⟨S_, .f32⟩
  | 7 => ⟨S_, .f32⟩
  | 8 => ⟨S_, .f32⟩
  | 9 => ⟨S300, .f32⟩
  | 10 => ⟨S300, .f32⟩
  | 11 => ⟨S300, .f32⟩
  | 12 => ⟨S_, .f32⟩
  | 13 => ⟨S_, .i1⟩
  | 14 => ⟨S_, .f32⟩
  | 15 => ⟨S_, .f32⟩
  | 16 => ⟨S300, .f32⟩
  | 17 => ⟨S300, .f32⟩
  | 18 => ⟨S1x300, .f32⟩
  | 19 => ⟨S50000x300, .f32⟩
  | 20 => ⟨S50000x300, .f32⟩
  | 21 => ⟨S_, .f32⟩
  | 22 => ⟨S300, .f32⟩
  | 23 => ⟨S300, .f32⟩
  | 24 => ⟨S300, .f32⟩
  | 25 => ⟨S1x300, .f32⟩
  | 26 => ⟨S50000x300, .f32⟩
  | 27 => ⟨S50000x300, .f32⟩
  | 28 => ⟨S1x300, .f32⟩
  | 29 => ⟨S50000x300, .f32⟩
  | 30 => ⟨S50000x300, .f32⟩
  | 31 => ⟨S1x300, .f32⟩
  | 32 => ⟨S50000x300, .f32⟩
  | 33 => ⟨S50000x300, .f32⟩
  | 34 => ⟨S_, .f32⟩
  | 35 => ⟨S50000x300, .f32⟩
  | 36 => ⟨S50000x300, .f32⟩
  | 37 => ⟨S_, .f32⟩
  | 38 => ⟨S50000, .f32⟩
  | 39 => ⟨S_, .f32⟩
  | 40 => ⟨S256, .f32⟩
  | 41 => ⟨S50000x1, .i32⟩
  | 42 => ⟨S256, .f32⟩
  | 43 => ⟨S_, .f32⟩
  | 44 => ⟨S256, .f32⟩
  | 45 => ⟨S256, .f32⟩
  | 46 => ⟨S_, .f32⟩
  | 47 => ⟨S256, .f32⟩
  | 48 => ⟨S256, .f32⟩
  | 49 => ⟨S_, .f32⟩
  | 50 => ⟨S256x128, .f32⟩
  | 51 => ⟨S_, .f32⟩
  | 52 => ⟨S256x300, .f32⟩
  | 53 => ⟨S50000x1, .i32⟩
  | 54 => ⟨S256x300, .f32⟩
  | 55 => ⟨S256x1, .f32⟩
  | 56 => ⟨S256x300, .f32⟩
  | 57 => ⟨S256x300, .f32⟩
  | 58 => ⟨S1x300x128, .f32⟩
  | 59 => ⟨S300x128, .f32⟩
  | 60 => ⟨S256x128, .f32⟩
  | 61 => ⟨S1x128, .f32⟩
  | 62 => ⟨S128, .f32⟩
  | 63 => ⟨S1x128, .f32⟩
  | 64 => ⟨S256x128, .f32⟩
  | 65 => ⟨S256x128, .f32⟩
  | 66 => ⟨S256x128, .f32⟩
  | 67 => ⟨S_, .f32⟩
  | 68 => ⟨S256x300, .f32⟩
  | 69 => ⟨S50000x1, .i32⟩
  | 70 => ⟨S256x300, .f32⟩
  | 71 => ⟨S256x1, .f32⟩
  | 72 => ⟨S256x300, .f32⟩
  | 73 => ⟨S256x300, .f32⟩
  | 74 => ⟨S1x300x128, .f32⟩
  | 75 => ⟨S300x128, .f32⟩
  | 76 => ⟨S256x128, .f32⟩
  | 77 => ⟨S1x128, .f32⟩
  | 78 => ⟨S128, .f32⟩
  | 79 => ⟨S1x128, .f32⟩
  | 80 => ⟨S256x128, .f32⟩
  | 81 => ⟨S256x128, .f32⟩
  | 82 => ⟨S256x128, .f32⟩
  | 83 => ⟨S_, .f32⟩
  | 84 => ⟨S256x300, .f32⟩
  | 85 => ⟨S50000x1, .i32⟩
  | 86 => ⟨S256x300, .f32⟩
  | 87 => ⟨S256x1, .f32⟩
  | 88 => ⟨S256x300, .f32⟩
  | 89 => ⟨S256x300, .f32⟩
  | 90 => ⟨S1x300x128, .f32⟩
  | 91 => ⟨S300x128, .f32⟩
  | 92 => ⟨S256x128, .f32⟩
  | 93 => ⟨S1x128, .f32⟩
  | 94 => ⟨S128, .f32⟩
  | 95 => ⟨S1x128, .f32⟩
  | 96 => ⟨S256x128, .f32⟩
  | 97 => ⟨S256x128, .f32⟩
  | 98 => ⟨S256x128, .f32⟩
  | 99 => ⟨S_, .f32⟩
  | 100 => ⟨S256x300, .f32⟩
  | 101 => ⟨S50000x1, .i32⟩
  | 102 => ⟨S256x300, .f32⟩
  | 103 => ⟨S256x1, .f32⟩
  | 104 => ⟨S256x300, .f32⟩
  | 105 => ⟨S256x300, .f32⟩
  | 106 => ⟨S1x300x128, .f32⟩
  | 107 => ⟨S300x128, .f32⟩
  | 108 => ⟨S256x128, .f32⟩
  | 109 => ⟨S1x128, .f32⟩
  | 110 => ⟨S128, .f32⟩
  | 111 => ⟨S1x128, .f32⟩
  | 112 => ⟨S256x128, .f32⟩
  | 113 => ⟨S256x128, .f32⟩
  | 114 => ⟨S256x128, .f32⟩
  | 115 => ⟨S_, .f32⟩
  | 116 => ⟨S256x300, .f32⟩
  | 117 => ⟨S50000x1, .i32⟩
  | 118 => ⟨S256x300, .f32⟩
  | 119 => ⟨S256x1, .f32⟩
  | 120 => ⟨S256x300, .f32⟩
  | 121 => ⟨S256x300, .f32⟩
  | 122 => ⟨S1x300x128, .f32⟩
  | 123 => ⟨S300x128, .f32⟩
  | 124 => ⟨S256x128, .f32⟩
  | 125 => ⟨S1x128, .f32⟩
  | 126 => ⟨S128, .f32⟩
  | 127 => ⟨S1x128, .f32⟩
  | _ => ⟨S50000x300, .f32⟩

abbrev hbmTy0_6 (i : Nat) : BufTy := match i % 128 with
  | 0 => ⟨S256x128, .f32⟩
  | 1 => ⟨S256x128, .f32⟩
  | 2 => ⟨S256x128, .f32⟩
  | 3 => ⟨S_, .f32⟩
  | 4 => ⟨S256x300, .f32⟩
  | 5 => ⟨S50000x1, .i32⟩
  | 6 => ⟨S256x300, .f32⟩
  | 7 => ⟨S256x1, .f32⟩
  | 8 => ⟨S256x300, .f32⟩
  | 9 => ⟨S256x300, .f32⟩
  | 10 => ⟨S1x300x128, .f32⟩
  | 11 => ⟨S300x128, .f32⟩
  | 12 => ⟨S256x128, .f32⟩
  | 13 => ⟨S1x128, .f32⟩
  | 14 => ⟨S128, .f32⟩
  | 15 => ⟨S1x128, .f32⟩
  | 16 => ⟨S256x128, .f32⟩
  | 17 => ⟨S256x128, .f32⟩
  | 18 => ⟨S256x128, .f32⟩
  | _ => ⟨S50000x300, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_5 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_8 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_call3_cst : Ref sig .tc := ⟨.hbm, 146, rfl⟩
abbrev main_call3_v0 : Ref sig .tc := ⟨.hbm, 147, rfl⟩
abbrev main_v78 : Ref sig .tc := ⟨.hbm, 148, rfl⟩
abbrev main_c_9 : Ref sig .tc := ⟨.hbm, 149, rfl⟩
abbrev main_v79 : Ref sig .tc := ⟨.hbm, 150, rfl⟩
abbrev main_v80 : Ref sig .tc := ⟨.hbm, 151, rfl⟩
abbrev main_c_10 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_12 : Ref sig .tc := ⟨.hbm, 175, rfl⟩
abbrev main_v102 : Ref sig .tc := ⟨.hbm, 176, rfl⟩
abbrev main_cst_13 : Ref sig .tc := ⟨.hbm, 177, rfl⟩
abbrev main_v103 : Ref sig .tc := ⟨.hbm, 178, rfl⟩
abbrev main_v104 : Ref sig .tc := ⟨.hbm, 179, rfl⟩
abbrev main_c_14 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_cst_15 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_call5_cst : Ref sig .tc := ⟨.hbm, 219, rfl⟩
abbrev main_call5_v0 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_16 : Ref sig .tc := ⟨.hbm, 234, rfl⟩
abbrev main_v134 : Ref sig .tc := ⟨.hbm, 235, rfl⟩
abbrev main_cst_17 : Ref sig .tc := ⟨.hbm, 236, rfl⟩
abbrev main_v135 : Ref sig .tc := ⟨.hbm, 237, rfl⟩
abbrev main_v136 : Ref sig .tc := ⟨.hbm, 238, rfl⟩
abbrev main_c_18 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_cst_3 : Ref sig .tc := ⟨.hbm, 256, rfl⟩
abbrev main_call6_v12 : Ref sig .tc := ⟨.hbm, 257, rfl⟩
abbrev main_call6_cst_4 : Ref sig .tc := ⟨.hbm, 258, rfl⟩
abbrev main_call6_call0_v0 : Ref sig .tc := ⟨.hbm, 259, rfl⟩
abbrev main_call6_call0_v1 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_19 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_call7_cst : Ref sig .tc := ⟨.hbm, 278, rfl⟩
abbrev main_call7_v0 : Ref sig .tc := ⟨.hbm, 279, rfl⟩
abbrev main_v153 : Ref sig .tc := ⟨.hbm, 280, rfl⟩
abbrev main_c_20 : Ref sig .tc := ⟨.hbm, 281, rfl⟩
abbrev main_v154 : Ref sig .tc := ⟨.hbm, 282, rfl⟩
abbrev main_v155 : Ref sig .tc := ⟨.hbm, 283, rfl⟩
abbrev main_c_21 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_cst_22 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_cst_23 : Ref sig .tc := ⟨.hbm, 307, rfl⟩
abbrev main_v177 : Ref sig .tc := ⟨.hbm, 308, rfl⟩
abbrev main_cst_24 : Ref sig .tc := ⟨.hbm, 309, rfl⟩
abbrev main_v178 : Ref sig .tc := ⟨.hbm, 310, rfl⟩
abbrev main_v179 : Ref sig .tc := ⟨.hbm, 311, rfl⟩
abbrev main_c_25 : Ref sig .tc := ⟨.hbm, 312, rfl⟩
abbrev main_call8_cst : Ref sig .tc := ⟨.hbm, 313, rfl⟩
abbrev main_call8_v0 : Ref sig .tc := ⟨.hbm, 314, rfl⟩
abbrev main_call8_v1 : Ref sig .tc := ⟨.hbm, 315, rfl⟩
abbrev main_call8_cst_0 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_call8_v5 : Ref sig .tc := ⟨.hbm, 320, rfl⟩
abbrev main_call8_v6 : Ref sig .tc := ⟨.hbm, 321, rfl⟩
abbrev main_call8_v7 : Ref sig .tc := ⟨.hbm, 322, rfl⟩
abbrev main_call8_cst_1 : Ref sig .tc := ⟨.hbm, 323, rfl⟩
abbrev main_call8_v8 : Ref sig .tc := ⟨.hbm, 324, rfl⟩
abbrev main_call8_cst_2 : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_cst_3 : Ref sig .tc := ⟨.hbm, 329, rfl⟩
abbrev main_call8_v12 : Ref sig .tc := ⟨.hbm, 330, rfl⟩
abbrev main_call8_cst_4 : Ref sig .tc := ⟨.hbm, 331, rfl⟩
abbrev main_call8_call0_v0 : Ref sig .tc := ⟨.hbm, 332, rfl⟩
abbrev main_call8_call0_v1 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_26 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_call9_cst : Ref sig .tc := ⟨.hbm, 351, rfl⟩
abbrev main_call9_v0 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_v206 : Ref sig .tc := ⟨.hbm, 363, rfl⟩
abbrev main_v207 : Ref sig .tc := ⟨.hbm, 364, rfl⟩
abbrev main_v208 : Ref sig .tc := ⟨.hbm, 365, rfl⟩
abbrev main_cst_27 : Ref sig .tc := ⟨.hbm, 366, rfl⟩
abbrev main_v209 : Ref sig .tc := ⟨.hbm, 367, rfl⟩
abbrev main_cst_28 : Ref sig .tc := ⟨.hbm, 368, rfl⟩
abbrev main_v210 : Ref sig .tc := ⟨.hbm, 369, rfl⟩
abbrev main_v211 : Ref sig .tc := ⟨.hbm, 370, rfl⟩
abbrev main_c_29 : Ref sig .tc := ⟨.hbm, 371, rfl⟩
abbrev main_call10_cst : Ref sig .tc := ⟨.hbm, 372, rfl⟩
abbrev main_call10_v0 : Ref sig .tc := ⟨.hbm, 373, rfl⟩
abbrev main_call10_v1 : Ref sig .tc := ⟨.hbm, 374, rfl⟩
abbrev main_call10_cst_0 : Ref sig .tc := ⟨.hbm, 375, rfl⟩
abbrev main_call10_v2 : Ref sig .tc := ⟨.hbm, 376, rfl⟩
abbrev main_call10_v3 : Ref sig .tc := ⟨.hbm, 377, rfl⟩
abbrev main_call10_v4 : Ref sig .tc := ⟨.hbm, 378, rfl⟩
abbrev main_call10_v5 : Ref sig .tc := ⟨.hbm, 379, rfl⟩
abbrev main_call10_v6 : Ref sig .tc := ⟨.hbm, 380, rfl⟩
abbrev main_call10_v7 : Ref sig .tc := ⟨.hbm, 381, rfl⟩
abbrev main_call10_cst_1 : Ref sig .tc := ⟨.hbm, 382, rfl⟩
abbrev main_call10_v8 : Ref sig .tc := ⟨.hbm, 383, rfl⟩
abbrev main_call10_cst_2 : Ref sig .tc := ⟨.hbm, 384, rfl⟩
abbrev main_call10_v9 : Ref sig .tc := ⟨.hbm, 385, rfl⟩
abbrev main_call10_v10 : Ref sig .tc := ⟨.hbm, 386, rfl⟩
abbrev main_call10_v11 : Ref sig .tc := ⟨.hbm, 387, rfl⟩
abbrev main_call10_cst_3 : Ref sig .tc := ⟨.hbm, 388, rfl⟩
abbrev main_call10_v12 : Ref sig .tc := ⟨.hbm, 389, rfl⟩
abbrev main_call10_cst_4 : Ref sig .tc := ⟨.hbm, 390, rfl⟩
abbrev main_call10_call0_v0 : Ref sig .tc := ⟨.hbm, 391, rfl⟩
abbrev main_call10_call0_v1 : Ref sig .tc := ⟨.hbm, 392, rfl⟩
abbrev main_v212 : Ref sig .tc := ⟨.hbm, 393, rfl⟩
abbrev main_v213 : Ref sig .tc := ⟨.hbm, 394, rfl⟩
abbrev main_v214 : Ref sig .tc := ⟨.hbm, 395, rfl⟩
abbrev main_v215 : Ref sig .tc := ⟨.hbm, 396, rfl⟩
abbrev main_cst_30 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_call11_cst : Ref sig .tc := ⟨.hbm, 410, rfl⟩
abbrev main_call11_v0 : Ref sig .tc := ⟨.hbm, 411, rfl⟩
abbrev main_v228 : Ref sig .tc := ⟨.hbm, 412, rfl⟩
abbrev main_c_31 : Ref sig .tc := ⟨.hbm, 413, rfl⟩
abbrev main_v229 : Ref sig .tc := ⟨.hbm, 414, rfl⟩
abbrev main_v230 : Ref sig .tc := ⟨.hbm, 415, rfl⟩
abbrev main_c_32 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_cst_33 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_v247 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_cst_34 : Ref sig .tc := ⟨.hbm, 439, rfl⟩
abbrev main_v252 : Ref sig .tc := ⟨.hbm, 440, rfl⟩
abbrev main_cst_35 : Ref sig .tc := ⟨.hbm, 441, rfl⟩
abbrev main_v253 : Ref sig .tc := ⟨.hbm, 442, rfl⟩
abbrev main_v254 : Ref sig .tc := ⟨.hbm, 443, rfl⟩
abbrev main_c_36 : Ref sig .tc := ⟨.hbm, 444, rfl⟩
abbrev main_call12_cst : Ref sig .tc := ⟨.hbm, 445, rfl⟩
abbrev main_call12_v0 : Ref sig .tc := ⟨.hbm, 446, rfl⟩
abbrev main_call12_v1 : Ref sig .tc := ⟨.hbm, 447, rfl⟩
abbrev main_call12_cst_0 : Ref sig .tc := ⟨.hbm, 448, rfl⟩
abbrev main_call12_v2 : Ref sig .tc := ⟨.hbm, 449, rfl⟩
abbrev main_call12_v3 : Ref sig .tc := ⟨.hbm, 450, rfl⟩
abbrev main_call12_v4 : Ref sig .tc := ⟨.hbm, 451, rfl⟩
abbrev main_call12_v5 : Ref sig .tc := ⟨.hbm, 452, rfl⟩
abbrev main_call12_v6 : Ref sig .tc := ⟨.hbm, 453, rfl⟩
abbrev main_call12_v7 : Ref sig .tc := ⟨.hbm, 454, rfl⟩
abbrev main_call12_cst_1 : Ref sig .tc := ⟨.hbm, 455, rfl⟩
abbrev main_call12_v8 : Ref sig .tc := ⟨.hbm, 456, rfl⟩
abbrev main_call12_cst_2 : Ref sig .tc := ⟨.hbm, 457, rfl⟩
abbrev main_call12_v9 : Ref sig .tc := ⟨.hbm, 458, rfl⟩
abbrev main_call12_v10 : Ref sig .tc := ⟨.hbm, 459, rfl⟩
abbrev main_call12_v11 : Ref sig .tc := ⟨.hbm, 460, rfl⟩
abbrev main_call12_cst_3 : Ref sig .tc := ⟨.hbm, 461, rfl⟩
abbrev main_call12_v12 : Ref sig .tc := ⟨.hbm, 462, rfl⟩
abbrev main_call12_cst_4 : Ref sig .tc := ⟨.hbm, 463, rfl⟩
abbrev main_call12_call0_v0 : Ref sig .tc := ⟨.hbm, 464, rfl⟩
abbrev main_call12_call0_v1 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_cst_37 : Ref sig .tc := ⟨.hbm, 470, rfl⟩
abbrev main_v259 : Ref sig .tc := ⟨.hbm, 471, rfl⟩
abbrev main_v260 : Ref sig .tc := ⟨.hbm, 472, rfl⟩
abbrev main_v261 : Ref sig .tc := ⟨.hbm, 473, rfl⟩
abbrev main_v262 : Ref sig .tc := ⟨.hbm, 474, rfl⟩
abbrev main_v263 : Ref sig .tc := ⟨.hbm, 475, rfl⟩
abbrev main_v264 : Ref sig .tc := ⟨.hbm, 476, rfl⟩
abbrev main_v265 : Ref sig .tc := ⟨.hbm, 477, rfl⟩
abbrev main_v266 : Ref sig .tc := ⟨.hbm, 478, rfl⟩
abbrev main_v267 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_call13_cst : Ref sig .tc := ⟨.hbm, 483, rfl⟩
abbrev main_call13_v0 : Ref sig .tc := ⟨.hbm, 484, rfl⟩
abbrev main_v271 : Ref sig .tc := ⟨.hbm, 485, rfl⟩
abbrev main_v272 : Ref sig .tc := ⟨.hbm, 486, rfl⟩
abbrev main_v273 : Ref sig .tc := ⟨.hbm, 487, rfl⟩
abbrev main_v274 : Ref sig .tc := ⟨.hbm, 488, rfl⟩
abbrev main_v275 : Ref sig .tc := ⟨.hbm, 489, rfl⟩
abbrev main_v276 : Ref sig .tc := ⟨.hbm, 490, rfl⟩
abbrev main_v277 : Ref sig .tc := ⟨.hbm, 491, rfl⟩
abbrev main_v278 : Ref sig .tc := ⟨.hbm, 492, rfl⟩
abbrev main_v279 : Ref sig .tc := ⟨.hbm, 493, rfl⟩
abbrev main_v280 : Ref sig .tc := ⟨.hbm, 494, rfl⟩
abbrev main_v281 : Ref sig .tc := ⟨.hbm, 495, rfl⟩
abbrev main_v282 : Ref sig .tc := ⟨.hbm, 496, rfl⟩
abbrev main_v283 : Ref sig .tc := ⟨.hbm, 497, rfl⟩
abbrev main_cst_38 : Ref sig .tc := ⟨.hbm, 498, rfl⟩
abbrev main_v284 : Ref sig .tc := ⟨.hbm, 499, rfl⟩
abbrev main_cst_39 : Ref sig .tc := ⟨.hbm, 500, rfl⟩
abbrev main_v285 : Ref sig .tc := ⟨.hbm, 501, rfl⟩
abbrev main_v286 : Ref sig .tc := ⟨.hbm, 502, rfl⟩
abbrev main_c_40 : Ref sig .tc := ⟨.hbm, 503, rfl⟩
abbrev main_call14_cst : Ref sig .tc := ⟨.hbm, 504, rfl⟩
abbrev main_call14_v0 : Ref sig .tc := ⟨.hbm, 505, rfl⟩
abbrev main_call14_v1 : Ref sig .tc := ⟨.hbm, 506, rfl⟩
abbrev main_call14_cst_0 : Ref sig .tc := ⟨.hbm, 507, rfl⟩
abbrev main_call14_v2 : Ref sig .tc := ⟨.hbm, 508, rfl⟩
abbrev main_call14_v3 : Ref sig .tc := ⟨.hbm, 509, rfl⟩
abbrev main_call14_v4 : Ref sig .tc := ⟨.hbm, 510, rfl⟩
abbrev main_call14_v5 : Ref sig .tc := ⟨.hbm, 511, rfl⟩
abbrev main_call14_v6 : Ref sig .tc := ⟨.hbm, 512, rfl⟩
abbrev main_call14_v7 : Ref sig .tc := ⟨.hbm, 513, rfl⟩
abbrev main_call14_cst_1 : Ref sig .tc := ⟨.hbm, 514, rfl⟩
abbrev main_call14_v8 : Ref sig .tc := ⟨.hbm, 515, rfl⟩
abbrev main_call14_cst_2 : Ref sig .tc := ⟨.hbm, 516, rfl⟩
abbrev main_call14_v9 : Ref sig .tc := ⟨.hbm, 517, rfl⟩
abbrev main_call14_v10 : Ref sig .tc := ⟨.hbm, 518, rfl⟩
abbrev main_call14_v11 : Ref sig .tc := ⟨.hbm, 519, rfl⟩
abbrev main_call14_cst_3 : Ref sig .tc := ⟨.hbm, 520, rfl⟩
abbrev main_call14_v12 : Ref sig .tc := ⟨.hbm, 521, rfl⟩
abbrev main_call14_cst_4 : Ref sig .tc := ⟨.hbm, 522, rfl⟩
abbrev main_call14_call0_v0 : Ref sig .tc := ⟨.hbm, 523, rfl⟩
abbrev main_call14_call0_v1 : Ref sig .tc := ⟨.hbm, 524, rfl⟩
abbrev main_v287 : Ref sig .tc := ⟨.hbm, 525, rfl⟩
abbrev main_v288 : Ref sig .tc := ⟨.hbm, 526, rfl⟩
abbrev main_v289 : Ref sig .tc := ⟨.hbm, 527, rfl⟩
abbrev main_v290 : Ref sig .tc := ⟨.hbm, 528, rfl⟩
abbrev main_cst_41 : Ref sig .tc := ⟨.hbm, 529, rfl⟩
abbrev main_v291 : Ref sig .tc := ⟨.hbm, 530, rfl⟩
abbrev main_v292 : Ref sig .tc := ⟨.hbm, 531, rfl⟩
abbrev main_v293 : Ref sig .tc := ⟨.hbm, 532, rfl⟩
abbrev main_v294 : Ref sig .tc := ⟨.hbm, 533, rfl⟩
abbrev main_v295 : Ref sig .tc := ⟨.hbm, 534, rfl⟩
abbrev main_v296 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_v300 : Ref sig .tc := ⟨.hbm, 539, rfl⟩
abbrev main_v301 : Ref sig .tc := ⟨.hbm, 540, rfl⟩
abbrev main_v302 : Ref sig .tc := ⟨.hbm, 541, rfl⟩
abbrev main_call15_cst : Ref sig .tc := ⟨.hbm, 542, rfl⟩
abbrev main_call15_v0 : Ref sig .tc := ⟨.hbm, 543, rfl⟩
abbrev main_v303 : Ref sig .tc := ⟨.hbm, 544, rfl⟩
abbrev main_c_42 : Ref sig .tc := ⟨.hbm, 545, rfl⟩
abbrev main_v304 : Ref sig .tc := ⟨.hbm, 546, rfl⟩
abbrev main_v305 : Ref sig .tc := ⟨.hbm, 547, rfl⟩
abbrev main_c_43 : Ref sig .tc := ⟨.hbm, 548, rfl⟩
abbrev main_v306 : Ref sig .tc := ⟨.hbm, 549, rfl⟩
abbrev main_v307 : Ref sig .tc := ⟨.hbm, 550, rfl⟩
abbrev main_v308 : Ref sig .tc := ⟨.hbm, 551, rfl⟩
abbrev main_v309 : Ref sig .tc := ⟨.hbm, 552, rfl⟩
abbrev main_v310 : Ref sig .tc := ⟨.hbm, 553, rfl⟩
abbrev main_cst_44 : Ref sig .tc := ⟨.hbm, 554, rfl⟩
abbrev main_v311 : Ref sig .tc := ⟨.hbm, 555, rfl⟩
abbrev main_v312 : Ref sig .tc := ⟨.hbm, 556, rfl⟩
abbrev main_v313 : Ref sig .tc := ⟨.hbm, 557, rfl⟩
abbrev main_v314 : Ref sig .tc := ⟨.hbm, 558, rfl⟩
abbrev main_v315 : Ref sig .tc := ⟨.hbm, 559, rfl⟩
abbrev main_v316 : Ref sig .tc := ⟨.hbm, 560, rfl⟩
abbrev main_v317 : Ref sig .tc := ⟨.hbm, 561, rfl⟩
abbrev main_v318 : Ref sig .tc := ⟨.hbm, 562, rfl⟩
abbrev main_v319 : Ref sig .tc := ⟨.hbm, 563, rfl⟩
abbrev main_v320 : Ref sig .tc := ⟨.hbm, 564, rfl⟩
abbrev main_v321 : Ref sig .tc := ⟨.hbm, 565, rfl⟩
abbrev main_v322 : Ref sig .tc := ⟨.hbm, 566, rfl⟩
abbrev main_v323 : Ref sig .tc := ⟨.hbm, 567, rfl⟩
abbrev main_v324 : Ref sig .tc := ⟨.hbm, 568, rfl⟩
abbrev main_v325 : Ref sig .tc := ⟨.hbm, 569, rfl⟩
abbrev main_v326 : Ref sig .tc := ⟨.hbm, 570, rfl⟩
abbrev main_cst_45 : Ref sig .tc := ⟨.hbm, 571, rfl⟩
abbrev main_v327 : Ref sig .tc := ⟨.hbm, 572, rfl⟩
abbrev main_cst_46 : Ref sig .tc := ⟨.hbm, 573, rfl⟩
abbrev main_v328 : Ref sig .tc := ⟨.hbm, 574, rfl⟩
abbrev main_v329 : Ref sig .tc := ⟨.hbm, 575, rfl⟩
abbrev main_c_47 : Ref sig .tc := ⟨.hbm, 576, rfl⟩
abbrev main_call16_cst : Ref sig .tc := ⟨.hbm, 577, rfl⟩
abbrev main_call16_v0 : Ref sig .tc := ⟨.hbm, 578, rfl⟩
abbrev main_call16_v1 : Ref sig .tc := ⟨.hbm, 579, rfl⟩
abbrev main_call16_cst_0 : Ref sig .tc := ⟨.hbm, 580, rfl⟩
abbrev main_call16_v2 : Ref sig .tc := ⟨.hbm, 581, rfl⟩
abbrev main_call16_v3 : Ref sig .tc := ⟨.hbm, 582, rfl⟩
abbrev main_call16_v4 : Ref sig .tc := ⟨.hbm, 583, rfl⟩
abbrev main_call16_v5 : Ref sig .tc := ⟨.hbm, 584, rfl⟩
abbrev main_call16_v6 : Ref sig .tc := ⟨.hbm, 585, rfl⟩
abbrev main_call16_v7 : Ref sig .tc := ⟨.hbm, 586, rfl⟩
abbrev main_call16_cst_1 : Ref sig .tc := ⟨.hbm, 587, rfl⟩
abbrev main_call16_v8 : Ref sig .tc := ⟨.hbm, 588, rfl⟩
abbrev main_call16_cst_2 : Ref sig .tc := ⟨.hbm, 589, rfl⟩
abbrev main_call16_v9 : Ref sig .tc := ⟨.hbm, 590, rfl⟩
abbrev main_call16_v10 : Ref sig .tc := ⟨.hbm, 591, rfl⟩
abbrev main_call16_v11 : Ref sig .tc := ⟨.hbm, 592, rfl⟩
abbrev main_call16_cst_3 : Ref sig .tc := ⟨.hbm, 593, rfl⟩
abbrev main_call16_v12 : Ref sig .tc := ⟨.hbm, 594, rfl⟩
abbrev main_call16_cst_4 : Ref sig .tc := ⟨.hbm, 595, rfl⟩
abbrev main_call16_call0_v0 : Ref sig .tc := ⟨.hbm, 596, rfl⟩
abbrev main_call16_call0_v1 : Ref sig .tc := ⟨.hbm, 597, rfl⟩
abbrev main_v330 : Ref sig .tc := ⟨.hbm, 598, rfl⟩
abbrev main_v331 : Ref sig .tc := ⟨.hbm, 599, rfl⟩
abbrev main_v332 : Ref sig .tc := ⟨.hbm, 600, rfl⟩
abbrev main_v333 : Ref sig .tc := ⟨.hbm, 601, rfl⟩
abbrev main_cst_48 : Ref sig .tc := ⟨.hbm, 602, rfl⟩
abbrev main_v334 : Ref sig .tc := ⟨.hbm, 603, rfl⟩
abbrev main_v335 : Ref sig .tc := ⟨.hbm, 604, rfl⟩
abbrev main_v336 : Ref sig .tc := ⟨.hbm, 605, rfl⟩
abbrev main_v337 : Ref sig .tc := ⟨.hbm, 606, rfl⟩
abbrev main_v338 : Ref sig .tc := ⟨.hbm, 607, rfl⟩
abbrev main_v339 : Ref sig .tc := ⟨.hbm, 608, rfl⟩
abbrev main_v340 : Ref sig .tc := ⟨.hbm, 609, rfl⟩
abbrev main_v341 : Ref sig .tc := ⟨.hbm, 610, rfl⟩
abbrev main_v342 : Ref sig .tc := ⟨.hbm, 611, rfl⟩
abbrev main_v343 : Ref sig .tc := ⟨.hbm, 612, rfl⟩
abbrev main_v344 : Ref sig .tc := ⟨.hbm, 613, rfl⟩
abbrev main_v345 : Ref sig .tc := ⟨.hbm, 614, rfl⟩
abbrev main_call17_cst : Ref sig .tc := ⟨.hbm, 615, rfl⟩
abbrev main_call17_v0 : Ref sig .tc := ⟨.hbm, 616, rfl⟩
abbrev main_v346 : Ref sig .tc := ⟨.hbm, 617, rfl⟩
abbrev main_v347 : Ref sig .tc := ⟨.hbm, 618, rfl⟩
abbrev main_v348 : Ref sig .tc := ⟨.hbm, 619, rfl⟩
abbrev main_v349 : Ref sig .tc := ⟨.hbm, 620, rfl⟩
abbrev main_v350 : Ref sig .tc := ⟨.hbm, 621, rfl⟩
abbrev main_v351 : Ref sig .tc := ⟨.hbm, 622, rfl⟩
abbrev main_v352 : Ref sig .tc := ⟨.hbm, 623, rfl⟩
abbrev main_v353 : Ref sig .tc := ⟨.hbm, 624, rfl⟩
abbrev main_v354 : Ref sig .tc := ⟨.hbm, 625, rfl⟩
abbrev main_v355 : Ref sig .tc := ⟨.hbm, 626, rfl⟩
abbrev main_v356 : Ref sig .tc := ⟨.hbm, 627, rfl⟩
abbrev main_v357 : Ref sig .tc := ⟨.hbm, 628, rfl⟩
abbrev main_v358 : Ref sig .tc := ⟨.hbm, 629, rfl⟩
abbrev main_cst_49 : Ref sig .tc := ⟨.hbm, 630, rfl⟩
abbrev main_v359 : Ref sig .tc := ⟨.hbm, 631, rfl⟩
abbrev main_cst_50 : Ref sig .tc := ⟨.hbm, 632, rfl⟩
abbrev main_v360 : Ref sig .tc := ⟨.hbm, 633, rfl⟩
abbrev main_v361 : Ref sig .tc := ⟨.hbm, 634, rfl⟩
abbrev main_c_51 : Ref sig .tc := ⟨.hbm, 635, rfl⟩
abbrev main_call18_cst : Ref sig .tc := ⟨.hbm, 636, rfl⟩
abbrev main_call18_v0 : Ref sig .tc := ⟨.hbm, 637, rfl⟩
abbrev main_call18_v1 : Ref sig .tc := ⟨.hbm, 638, rfl⟩
abbrev main_call18_cst_0 : Ref sig .tc := ⟨.hbm, 639, rfl⟩
abbrev main_call18_v2 : Ref sig .tc := ⟨.hbm, 640, rfl⟩
abbrev main_call18_v3 : Ref sig .tc := ⟨.hbm, 641, rfl⟩
abbrev main_call18_v4 : Ref sig .tc := ⟨.hbm, 642, rfl⟩
abbrev main_call18_v5 : Ref sig .tc := ⟨.hbm, 643, rfl⟩
abbrev main_call18_v6 : Ref sig .tc := ⟨.hbm, 644, rfl⟩
abbrev main_call18_v7 : Ref sig .tc := ⟨.hbm, 645, rfl⟩
abbrev main_call18_cst_1 : Ref sig .tc := ⟨.hbm, 646, rfl⟩
abbrev main_call18_v8 : Ref sig .tc := ⟨.hbm, 647, rfl⟩
abbrev main_call18_cst_2 : Ref sig .tc := ⟨.hbm, 648, rfl⟩
abbrev main_call18_v9 : Ref sig .tc := ⟨.hbm, 649, rfl⟩
abbrev main_call18_v10 : Ref sig .tc := ⟨.hbm, 650, rfl⟩
abbrev main_call18_v11 : Ref sig .tc := ⟨.hbm, 651, rfl⟩
abbrev main_call18_cst_3 : Ref sig .tc := ⟨.hbm, 652, rfl⟩
abbrev main_call18_v12 : Ref sig .tc := ⟨.hbm, 653, rfl⟩
abbrev main_call18_cst_4 : Ref sig .tc := ⟨.hbm, 654, rfl⟩
abbrev main_call18_call0_v0 : Ref sig .tc := ⟨.hbm, 655, rfl⟩
abbrev main_call18_call0_v1 : Ref sig .tc := ⟨.hbm, 656, rfl⟩
abbrev main_v362 : Ref sig .tc := ⟨.hbm, 657, rfl⟩
abbrev main_v363 : Ref sig .tc := ⟨.hbm, 658, rfl⟩
abbrev main_v364 : Ref sig .tc := ⟨.hbm, 659, rfl⟩
abbrev main_v365 : Ref sig .tc := ⟨.hbm, 660, rfl⟩
abbrev main_cst_52 : Ref sig .tc := ⟨.hbm, 661, rfl⟩
abbrev main_v366 : Ref sig .tc := ⟨.hbm, 662, rfl⟩
abbrev main_v367 : Ref sig .tc := ⟨.hbm, 663, rfl⟩
abbrev main_v368 : Ref sig .tc := ⟨.hbm, 664, rfl⟩
abbrev main_v369 : Ref sig .tc := ⟨.hbm, 665, rfl⟩
abbrev main_v370 : Ref sig .tc := ⟨.hbm, 666, rfl⟩
abbrev main_v371 : Ref sig .tc := ⟨.hbm, 667, rfl⟩
abbrev main_v372 : Ref sig .tc := ⟨.hbm, 668, rfl⟩
abbrev main_v373 : Ref sig .tc := ⟨.hbm, 669, rfl⟩
abbrev main_v374 : Ref sig .tc := ⟨.hbm, 670, rfl⟩
abbrev main_v375 : Ref sig .tc := ⟨.hbm, 671, rfl⟩
abbrev main_v376 : Ref sig .tc := ⟨.hbm, 672, rfl⟩
abbrev main_v377 : Ref sig .tc := ⟨.hbm, 673, rfl⟩
abbrev main_call19_cst : Ref sig .tc := ⟨.hbm, 674, rfl⟩
abbrev main_call19_v0 : Ref sig .tc := ⟨.hbm, 675, rfl⟩
abbrev main_v378 : Ref sig .tc := ⟨.hbm, 676, rfl⟩
abbrev main_cst_53 : Ref sig .tc := ⟨.hbm, 677, rfl⟩
abbrev main_v379 : Ref sig .tc := ⟨.hbm, 678, rfl⟩
abbrev main_cst_54 : Ref sig .tc := ⟨.hbm, 679, rfl⟩
abbrev main_v380 : Ref sig .tc := ⟨.hbm, 680, rfl⟩
abbrev main_v381 : Ref sig .tc := ⟨.hbm, 681, rfl⟩
abbrev main_v382 : Ref sig .tc := ⟨.hbm, 682, rfl⟩
abbrev main_cst_55 : Ref sig .tc := ⟨.hbm, 683, rfl⟩
abbrev main_v383 : Ref sig .tc := ⟨.hbm, 684, rfl⟩
abbrev main_v384 : Ref sig .tc := ⟨.hbm, 685, rfl⟩
abbrev main_cst_56 : Ref sig .tc := ⟨.hbm, 686, rfl⟩
abbrev main_v385 : Ref sig .tc := ⟨.hbm, 687, rfl⟩
abbrev main_v386 : Ref sig .tc := ⟨.hbm, 688, rfl⟩
abbrev main_cst_57 : Ref sig .tc := ⟨.hbm, 689, rfl⟩
abbrev main_v387 : Ref sig .tc := ⟨.hbm, 690, rfl⟩
abbrev main_cst_58 : Ref sig .tc := ⟨.hbm, 691, rfl⟩
abbrev main_v388 : Ref sig .tc := ⟨.hbm, 692, rfl⟩
abbrev main_v389 : Ref sig .tc := ⟨.hbm, 693, rfl⟩
abbrev main_v390 : Ref sig .tc := ⟨.hbm, 694, rfl⟩
abbrev main_v391 : Ref sig .tc := ⟨.hbm, 695, rfl⟩
abbrev main_v392 : Ref sig .tc := ⟨.hbm, 696, rfl⟩
abbrev main_v393 : Ref sig .tc := ⟨.hbm, 697, rfl⟩
abbrev main_v394 : Ref sig .tc := ⟨.hbm, 698, rfl⟩
abbrev main_v395 : Ref sig .tc := ⟨.hbm, 699, rfl⟩
abbrev main_v396 : Ref sig .tc := ⟨.hbm, 700, rfl⟩
abbrev main_v397 : Ref sig .tc := ⟨.hbm, 701, rfl⟩
abbrev main_v398 : Ref sig .tc := ⟨.hbm, 702, rfl⟩
abbrev main_v399 : Ref sig .tc := ⟨.hbm, 703, rfl⟩
abbrev main_v400 : Ref sig .tc := ⟨.hbm, 704, rfl⟩
abbrev main_v401 : Ref sig .tc := ⟨.hbm, 705, rfl⟩
abbrev main_v402 : Ref sig .tc := ⟨.hbm, 706, rfl⟩
abbrev main_cst_59 : Ref sig .tc := ⟨.hbm, 707, rfl⟩
abbrev main_v403 : Ref sig .tc := ⟨.hbm, 708, rfl⟩
abbrev main_v404 : Ref sig .tc := ⟨.hbm, 709, rfl⟩
abbrev main_v405 : Ref sig .tc := ⟨.hbm, 710, rfl⟩
abbrev main_v406 : Ref sig .tc := ⟨.hbm, 711, rfl⟩
abbrev main_v407 : Ref sig .tc := ⟨.hbm, 712, rfl⟩
abbrev main_v408 : Ref sig .tc := ⟨.hbm, 713, rfl⟩
abbrev main_v409 : Ref sig .tc := ⟨.hbm, 714, rfl⟩
abbrev main_v410 : Ref sig .tc := ⟨.hbm, 715, rfl⟩
abbrev main_v411 : Ref sig .tc := ⟨.hbm, 716, rfl⟩
abbrev main_v412 : Ref sig .tc := ⟨.hbm, 717, rfl⟩
abbrev main_v413 : Ref sig .tc := ⟨.hbm, 718, rfl⟩
abbrev main_v414 : Ref sig .tc := ⟨.hbm, 719, rfl⟩
abbrev main_v415 : Ref sig .tc := ⟨.hbm, 720, rfl⟩
abbrev main_v416 : Ref sig .tc := ⟨.hbm, 721, rfl⟩
abbrev main_v417 : Ref sig .tc := ⟨.hbm, 722, rfl⟩
abbrev main_cst_60 : Ref sig .tc := ⟨.hbm, 723, rfl⟩
abbrev main_v418 : Ref sig .tc := ⟨.hbm, 724, rfl⟩
abbrev main_v419 : Ref sig .tc := ⟨.hbm, 725, rfl⟩
abbrev main_v420 : Ref sig .tc := ⟨.hbm, 726, rfl⟩
abbrev main_v421 : Ref sig .tc := ⟨.hbm, 727, rfl⟩
abbrev main_v422 : Ref sig .tc := ⟨.hbm, 728, rfl⟩
abbrev main_v423 : Ref sig .tc := ⟨.hbm, 729, rfl⟩
abbrev main_v424 : Ref sig .tc := ⟨.hbm, 730, rfl⟩
abbrev main_v425 : Ref sig .tc := ⟨.hbm, 731, rfl⟩
abbrev main_v426 : Ref sig .tc := ⟨.hbm, 732, rfl⟩
abbrev main_v427 : Ref sig .tc := ⟨.hbm, 733, rfl⟩
abbrev main_v428 : Ref sig .tc := ⟨.hbm, 734, rfl⟩
abbrev main_v429 : Ref sig .tc := ⟨.hbm, 735, rfl⟩
abbrev main_v430 : Ref sig .tc := ⟨.hbm, 736, rfl⟩
abbrev main_v431 : Ref sig .tc := ⟨.hbm, 737, rfl⟩
abbrev main_v432 : Ref sig .tc := ⟨.hbm, 738, rfl⟩
abbrev main_cst_61 : Ref sig .tc := ⟨.hbm, 739, rfl⟩
abbrev main_v433 : Ref sig .tc := ⟨.hbm, 740, rfl⟩
abbrev main_v434 : Ref sig .tc := ⟨.hbm, 741, rfl⟩
abbrev main_v435 : Ref sig .tc := ⟨.hbm, 742, rfl⟩
abbrev main_v436 : Ref sig .tc := ⟨.hbm, 743, rfl⟩
abbrev main_v437 : Ref sig .tc := ⟨.hbm, 744, rfl⟩
abbrev main_v438 : Ref sig .tc := ⟨.hbm, 745, rfl⟩
abbrev main_v439 : Ref sig .tc := ⟨.hbm, 746, rfl⟩
abbrev main_v440 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_v444 : Ref sig .tc := ⟨.hbm, 751, rfl⟩
abbrev main_v445 : Ref sig .tc := ⟨.hbm, 752, rfl⟩
abbrev main_v446 : Ref sig .tc := ⟨.hbm, 753, rfl⟩
abbrev main_v447 : Ref sig .tc := ⟨.hbm, 754, rfl⟩
abbrev main_cst_62 : Ref sig .tc := ⟨.hbm, 755, rfl⟩
abbrev main_v448 : Ref sig .tc := ⟨.hbm, 756, rfl⟩
abbrev main_v449 : Ref sig .tc := ⟨.hbm, 757, rfl⟩
abbrev main_v450 : Ref sig .tc := ⟨.hbm, 758, rfl⟩
abbrev main_v451 : Ref sig .tc := ⟨.hbm, 759, rfl⟩
abbrev main_v452 : Ref sig .tc := ⟨.hbm, 760, rfl⟩
abbrev main_v453 : Ref sig .tc := ⟨.hbm, 761, rfl⟩
abbrev main_v454 : Ref sig .tc := ⟨.hbm, 762, rfl⟩
abbrev main_v455 : Ref sig .tc := ⟨.hbm, 763, rfl⟩
abbrev main_v456 : Ref sig .tc := ⟨.hbm, 764, rfl⟩
abbrev main_v457 : Ref sig .tc := ⟨.hbm, 765, rfl⟩
abbrev main_v458 : Ref sig .tc := ⟨.hbm, 766, rfl⟩
abbrev main_v459 : Ref sig .tc := ⟨.hbm, 767, rfl⟩
abbrev main_v460 : Ref sig .tc := ⟨.hbm, 768, rfl⟩
abbrev main_v461 : Ref sig .tc := ⟨.hbm, 769, rfl⟩
abbrev main_v462 : Ref sig .tc := ⟨.hbm, 770, rfl⟩
abbrev main_cst_63 : Ref sig .tc := ⟨.hbm, 771, rfl⟩
abbrev main_v463 : Ref sig .tc := ⟨.hbm, 772, rfl⟩
abbrev main_v464 : Ref sig .tc := ⟨.hbm, 773, rfl⟩
abbrev main_v465 : Ref sig .tc := ⟨.hbm, 774, rfl⟩
abbrev main_v466 : Ref sig .tc := ⟨.hbm, 775, rfl⟩
abbrev main_v467 : Ref sig .tc := ⟨.hbm, 776, rfl⟩
abbrev main_v468 : Ref sig .tc := ⟨.hbm, 777, rfl⟩
abbrev main_v469 : Ref sig .tc := ⟨.hbm, 778, rfl⟩
abbrev main_v470 : Ref sig .tc := ⟨.hbm, 779, rfl⟩
abbrev main_v471 : Ref sig .tc := ⟨.hbm, 780, rfl⟩
abbrev main_v472 : Ref sig .tc := ⟨.hbm, 781, rfl⟩
abbrev main_v473 : Ref sig .tc := ⟨.hbm, 782, rfl⟩
abbrev main_v474 : Ref sig .tc := ⟨.hbm, 783, rfl⟩
abbrev main_v475 : Ref sig .tc := ⟨.hbm, 784, rfl⟩
abbrev main_v476 : Ref sig .tc := ⟨.hbm, 785, rfl⟩
abbrev main_v477 : Ref sig .tc := ⟨.hbm, 786, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x300 : S_.BroadcastsInDim S50000x300 (![] : Fin 0 → Fin S50000x300.rank)
  slices_S5x300x300_S1x300x300_0_0_0 : S5x300x300.Slices ![0, 0, 0] S1x300x300
  shapeCasts_S1x300x300_S300x300 : S1x300x300.ShapeCasts S300x300
  slices_S5x300_S1x300_0_0 : S5x300.Slices ![0, 0] S1x300
  shapeCasts_S1x300_S300 : S1x300.ShapeCasts S300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  reducesTo_S50000x300_S300_d0 : S50000x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  slices_S5x300x300_S1x300x300_1_0_0 : S5x300x300.Slices ![1, 0, 0] S1x300x300
  slices_S5x300_S1x300_1_0 : S5x300.Slices ![1, 0] S1x300
  slices_S5x300x300_S1x300x300_2_0_0 : S5x300x300.Slices ![2, 0, 0] S1x300x300
  slices_S5x300_S1x300_2_0 : S5x300.Slices ![2, 0] S1x300
  slices_S5x300x300_S1x300x300_3_0_0 : S5x300x300.Slices ![3, 0, 0] S1x300x300
  slices_S5x300_S1x300_3_0 : S5x300.Slices ![3, 0] S1x300
  slices_S5x300x300_S1x300x300_4_0_0 : S5x300x300.Slices ![4, 0, 0] S1x300x300
  slices_S5x300_S1x300_4_0 : S5x300.Slices ![4, 0] S1x300
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  bcast_S_S256x128 : S_.BroadcastsInDim S256x128 (![] : Fin 0 → Fin S256x128.rank)
  bcast_S_S256x300 : S_.BroadcastsInDim S256x300 (![] : Fin 0 → Fin S256x300.rank)
  bcast_S256_S256x1_0 : S256.BroadcastsInDim S256x1 (![0] : Fin 1 → Fin S256x1.rank)
  bcast_S256x1_S256x300_0_1 : S256x1.BroadcastsInDim S256x300 (![0, 1] : Fin 2 → Fin S256x300.rank)
  slices_S6x300x128_S1x300x128_0_0_0 : S6x300x128.Slices ![0, 0, 0] S1x300x128
  shapeCasts_S1x300x128_S300x128 : S1x300x128.ShapeCasts S300x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  slices_S6x300x128_S1x300x128_1_0_0 : S6x300x128.Slices ![1, 0, 0] S1x300x128
  slices_S6x128_S1x128_1_0 : S6x128.Slices ![1, 0] S1x128
  slices_S6x300x128_S1x300x128_2_0_0 : S6x300x128.Slices ![2, 0, 0] S1x300x128
  slices_S6x128_S1x128_2_0 : S6x128.Slices ![2, 0] S1x128
  slices_S6x300x128_S1x300x128_3_0_0 : S6x300x128.Slices ![3, 0, 0] S1x300x128
  slices_S6x128_S1x128_3_0 : S6x128.Slices ![3, 0] S1x128
  slices_S6x300x128_S1x300x128_4_0_0 : S6x300x128.Slices ![4, 0, 0] S1x300x128
  slices_S6x128_S1x128_4_0 : S6x128.Slices ![4, 0] S1x128
  slices_S6x300x128_S1x300x128_5_0_0 : S6x300x128.Slices ![5, 0, 0] S1x300x128
  slices_S6x128_S1x128_5_0 : S6x128.Slices ![5, 0] S1x128
  gather_S50000x300_S400000x1_S400000x300_1_0_n_n_0_1_1300_wf : GatherDims.WF S50000x300 S400000x1 S400000x300 [1] [0] [] [0] [] 1 ![1, 300]
  scatter_S50000x300_S400000x1_S400000x300_1_0_0_1_wf : ScatterDims.WF S50000x300 S400000x1 S400000x300 [1] [0] [0] 1
  dot_S50000x300_S300x300_S50000x300_1_0_0_1_n_n_wf : DotDims.WF S50000x300 S300x300 S50000x300 [1] [0] [0] [1] [] []
  scatter_S256_S50000x1_S50000_n_0_0_1_wf : ScatterDims.WF S256 S50000x1 S50000 [] [0] [0] 1
  scatter_S256x300_S50000x1_S50000x300_1_0_0_1_wf : ScatterDims.WF S256x300 S50000x1 S50000x300 [1] [0] [0] 1
  dot_S256x300_S300x128_S256x128_1_0_0_1_n_n_wf : DotDims.WF S256x300 S300x128 S256x128 [1] [0] [0] [1] [] []

variable [Facts₀]

def gather_S50000x300_S400000x1_S400000x300_1_0_n_n_0_1_1300 : GatherDims S50000x300 S400000x1 S400000x300 where
  offsetDims := [1]
  collapsedSliceDims := [0]
  operandBatchingDims := []
  startIndicesBatchingDims := []
  startIndexMap := [0]
  indexVectorDim := 1
  sliceSizes := ![1, 300]
  wf := gather_S50000x300_S400000x1_S400000x300_1_0_n_n_0_1_1300_wf
def scatter_S50000x300_S400000x1_S400000x300_1_0_0_1 : ScatterDims S50000x300 S400000x1 S400000x300 where
  updateWindowDims := [1]
  insertedWindowDims := [0]
  scatterDimsToOperandDims := [0]
  indexVectorDim := 1
  wf := scatter_S50000x300_S400000x1_S400000x300_1_0_0_1_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x300_S50000x1_S50000x300_1_0_0_1 : ScatterDims S256x300 S50000x1 S50000x300 where
  updateWindowDims := [1]
  insertedWindowDims := [0]
  scatterDimsToOperandDims := [0]
  indexVectorDim := 1
  wf := scatter_S256x300_S50000x1_S50000x300_1_0_0_1_wf
def dot_S256x300_S300x128_S256x128_1_0_0_1_n_n : DotDims S256x300 S300x128 S256x128 where
  lhsContracting := [1]
  rhsContracting := [0]
  lhsNonContracting := [0]
  rhsNonContracting := [1]
  lhsBatch := []
  rhsBatch := []
  wf := dot_S256x300_S300x128_S256x128_1_0_0_1_n_n_wf

class Facts : Prop extends Facts₀ where

variable [Facts]
-- ==== Proof.Spec.lean ====
/-
  The network both programs compute, index by index, over the extended reals.

  One GIN layer takes node features `h : 50000 × 300`, adds the neighbour aggregate `A h` (a sum over edges, kept abstract here),
  applies an affine map `z ↦ z W + b`, normalises every column by its batch statistics (mean and biased variance over the
  50000 rows), applies `max · 0`, a second affine map, and a second normalisation with `max · 0`.

  The two programs differ in how a column's statistics are obtained.  The reference takes the mean `μ = (Σ z) / N` and the
  variance `(Σ (z - μ)²) / N`.  The kernel cuts the rows into 25 tiles of 2000, writes each tile's partial sums of `z` and of `z²`
  on 8 identical rows, adds up the 200 rows, divides by 8 and by `N`, and takes `max (E[z²] - μ²) 0`.  Over the reals the two are
  equal; over the extended reals they are equal once every entry is a real number.
-/
import Idealize.ShloMosaic.PureOps.Ideal
import Idealize.ShloMosaic.Lib.ValueIdx

noncomputable section

namespace GIN

open Idealize.ShloMosaic Idealize.ShloMosaic.ValueIdx

/-- node features: 50000 rows of 300 -/
abbrev SN : Shape := ⟨2, ![50000, 300]⟩
/-- a layer's weight matrix -/
abbrev SW : Shape := ⟨2, ![300, 300]⟩
/-- a per-column vector -/
abbrev SD : Shape := ⟨1, ![300]⟩
/-- the tiles' partial sums: 25 tiles, each on 8 identical rows -/
abbrev SP : Shape := ⟨2, ![200, 300]⟩
/-- the five layers' stacked weights and vectors -/
abbrev S5W : Shape := ⟨3, ![5, 300, 300]⟩
abbrev S5D : Shape := ⟨2, ![5, 300]⟩

abbrev Mat := SN.Idx → EReal
abbrev Wt := SW.Idx → EReal
abbrev Col := SD.Idx → EReal

/-- every entry is a real number -/
def AllReal {ι : Type} (x : ι → EReal) : Prop := ∀ i, ∃ r : ℝ, x i = (r : EReal)

/-- the float words the programs spell: `0`, `8`, `50000`, and the normalisation's `ε` -/
def c0 : EReal := Ideal.ofBits .f32 0x00000000#32
def c8 : EReal := Ideal.ofBits .f32 0x41000000#32
def cN : EReal := Ideal.ofBits .f32 0x47435000#32
def cEps : EReal := Ideal.ofBits .f32 0x3727C5AC#32
/-- the word the reference's variance would return were its divisor not positive (never selected) -/
def cNaN : EReal := Ideal.ofBits .f32 0x7FC00000#32

/-- layer `l`'s weight matrix and vector out of the stacked parameters -/
def slW (l : Fin 5) (W : S5W.Idx → EReal) : Wt := fun j => W (ix3 l (j 0) (j 1))
def slD (l : Fin 5) (b : S5D.Idx → EReal) : Col := fun j => b (ix2 l (j 0))

/-- `z W + b` -/
def lin (z : Mat) (W : Wt) (b : Col) : Mat :=
  fun i => (∑ k : Fin 300, z (ix2 (i 0) k) * W (ix2 k (i 1))) + b (ix1 (i 1))

/-- `max ((z - μ) · (v + ε)^(-1/2) · γ + β) 0`, column statistics `μ`, `v` -/
def bnrelu (z : Mat) (mu v g be : Col) : Mat :=
  fun i => max ((z i - mu (ix1 (i 1))) * Ideal.rsqrt (v (ix1 (i 1)) + cEps) * g (ix1 (i 1)) + be (ix1 (i 1))) c0

/-! ### The reference's statistics -/

/-- `(0 + Σ_n z n j) / N` -/
def meanR (z : Mat) : Col := fun j => Ideal.div (c0 + ∑ n : Fin 50000, z (ix2 n (j 0))) cN

/-- the reference's divisor `N - 0` (its `ddof` argument is the integer `0`, converted) -/
def nR : EReal := cN - (((0#32 : BitVec 32).toInt : ℝ) : EReal)

/-- `(0 + Σ_n (z n j - μ j)²) / (N - 0)`, guarded by `N - 0 > 0` -/
def varR (z : Mat) : Col := fun j =>
  Scalar.select (Ideal.cmp .ogt nR c0)
    (Ideal.div (c0 + ∑ n : Fin 50000, (z (ix2 n (j 0)) - meanR z j) * (z (ix2 n (j 0)) - meanR z j)) nR) cNaN

/-! ### The kernel's statistics -/

/-- row `8 t + r` of the partial sums holds tile `t`'s column sums of `f z` -/
def tileRow (p : Fin 200) (r : Fin 2000) : Fin 50000 := ⟨2000 * (p.val / 8) + r.val, by have := p.isLt; have := r.isLt; omega⟩

def tileSum (z : Mat) : SP.Idx → EReal := fun i => ∑ r : Fin 2000, z (ix2 (tileRow (i 0) r) (i 1))
def tileSumSq (z : Mat) : SP.Idx → EReal := fun i => ∑ r : Fin 2000, z (ix2 (tileRow (i 0) r) (i 1)) * z (ix2 (tileRow (i 0) r) (i 1))

/-- `((0 + Σ_p s p j) / 8) / N` of a `200 × 300` array of partial sums -/
def statK (s : SP.Idx → EReal) : Col := fun j => Ideal.div (Ideal.div (c0 + ∑ p : Fin 200, s (ix2 p (j 0))) c8) cN

def meanK (z : Mat) : Col := statK (tileSum z)
/-- `max (E[z²] - μ · μ) 0` -/
def varK (z : Mat) : Col := fun j => max (statK (tileSumSq z) j - meanK z j * meanK z j) c0

/-! ### One layer, both ways -/

def layerR (A : Mat → Mat) (h : Mat) (W1 : Wt) (b1 g1 be1 : Col) (W2 : Wt) (b2 g be : Col) : Mat :=
  let z1 := lin (fun i => h i + A h i) W1 b1
  let a := bnrelu z1 (meanR z1) (varR z1) g1 be1
  let z2 := lin a W2 b2
  bnrelu z2 (meanR z2) (varR z2) g be

def layerK (A : Mat → Mat) (h : Mat) (W1 : Wt) (b1 g1 be1 : Col) (W2 : Wt) (b2 g be : Col) : Mat :=
  let z1 := lin (fun i => h i + A h i) W1 b1
  let a := bnrelu z1 (meanK z1) (varK z1) g1 be1
  let z2 := lin a W2 b2
  bnrelu z2 (meanK z2) (varK z2) g be

/-- the features after `l` layers, the layer function `L` given -/
def feats (L : Mat → Wt → Col → Col → Col → Wt → Col → Col → Col → Mat)
    (x : Mat) (W1 : S5W.Idx → EReal) (b1 g1 be1 : S5D.Idx → EReal) (W2 : S5W.Idx → EReal) (b2 g be : S5D.Idx → EReal) :
    (l : Nat) → (hl : l ≤ 5) → Mat
  | 0, _ => x
  | l + 1, hl => L (feats L x W1 b1 g1 be1 W2 b2 g be l (Nat.le_of_succ_le hl))
      (slW ⟨l, hl⟩ W1) (slD ⟨l, hl⟩ b1) (slD ⟨l, hl⟩ g1) (slD ⟨l, hl⟩ be1) (slW ⟨l, hl⟩ W2) (slD ⟨l, hl⟩ b2) (slD ⟨l, hl⟩ g) (slD ⟨l, hl⟩ be)

end GIN

end
-- ==== Proof.KRegA.lean ====
/-
  The first kernel of a layer (region 0): the affine map of the node features plus their neighbour aggregate, and the
  tiles' partial sums of its result and of its square.

  The rows are cut into 25 tiles of 2000.  At tile `t` the body reads rows `2000 t … 2000 t + 1999` of the features `X0`
  and of the aggregate `X1`, the whole 300 × 300 weight matrix `X2` and the bias row `X3`, and forms
  `z = (x0 + x1) · X2 + X3` on those rows: entry `(p, q)` is `Σ_k (x0 p k + x1 p k) · X2 k q + X3 0 q` (over the extended
  reals a change of float format is the identity, and the product into a zero accumulator is the plain sum).  It writes
  `z` to rows `2000 t …` of the first result, the column sums `Σ_p z p q` to each of rows `8 t … 8 t + 7` of the second,
  and the column sums of `z p q · z p q` to the same rows of the third.

  Row `n` of a 50000-row array lies in tile `n / 2000` only, row `p` of a 200-row array in tile `p / 8` only, so after
  the 25 tiles the three results are, index by index, `Z = GIN.lin (X0 + X1) X2 X3`, `GIN.tileSum Z` and `GIN.tileSumSq Z`.
-/
import proofs.«144515_j12352325943894_2_alg».proof.Proof.FrameKI.R0
import proofs.«144515_j12352325943894_2_alg».proof.Proof.Spec
import Idealize.ShloMosaic.Lib.ValueIdx
import Idealize.ShloMosaic.Lib.Pipeline.Value
import Idealize.ShloMosaic.PureOps.Ideal.Laws

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen

/-! ## The matrix product's operand indices, axis by axis -/

theorem lhs_axis0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_axis1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_axis0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_axis1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The product of a 2000×300 block by a 300×300 matrix into a zero accumulator, at row `p` and column `q`:
    the sum over the 300 shared coordinates. -/
theorem mm_apply (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) := by
  show FloatOps.matmul dot_S2000x300_S300x300_S2000x300_1_0_0_1_n_n none a b _ (ix2 p q) = _
  rw [Ideal.matmul_constant_zero_apply,
    ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q)
      ((contrEquiv1 dot_S2000x300_S300x300_S2000x300_1_0_0_1_n_n 300 rfl rfl).symm k) = ix2 p k :=
    funext fun ax => Fin.ext (by
      match ax with
      | ⟨0, _⟩ => exact lhs_axis0 _ _
      | ⟨1, _⟩ => exact (lhs_axis1 _ _).trans hk)
  have er : dot_S2000x300_S300x300_S2000x300_1_0_0_1_n_n.rhsIdx (ix2 p q)
      ((contrEquiv1 dot_S2000x300_S300x300_S2000x300_1_0_0_1_n_n 300 rfl rfl).symm k) = ix2 k q :=
    funext fun ax => Fin.ext (by
      match ax with
      | ⟨0, _⟩ => exact (rhs_axis0 _ _).trans hk
      | ⟨1, _⟩ => exact rhs_axis1 _ _)
  rw [el, er]

/-! ## The layout operations at an index -/

/-- A row vector spread over 2000 rows reads its entry of the same column. -/
theorem row2000_apply (x : S1x300.Idx → EReal) (h : S1x300.Broadcasts S2000x300) (p : Fin 2000) (q : Fin 300) :
    broadcastTo S2000x300 x h (ix2 p q) = x (ix2 0 q) :=
  broadcastTo_apply x h (ix2 p q) (ix2 0 q) (fun a => by
    match a with
    | ⟨0, _⟩ => rfl
    | ⟨1, _⟩ => rfl)

/-- A row vector spread over 8 rows reads its entry of the same column. -/
theorem row8_apply (x : S1x300.Idx → EReal) (h : S1x300.Broadcasts S8x300) (r : Fin 8) (q : Fin 300) :
    broadcastTo S8x300 x h (ix2 r q) = x (ix2 0 q) :=
  broadcastTo_apply x h (ix2 r q) (ix2 0 q) (fun a => by
    match a with
    | ⟨0, _⟩ => rfl
    | ⟨1, _⟩ => rfl)

/-- A vector of 300 viewed as one row reads the same entry. -/
theorem asRow_apply (x : S300.Idx → EReal) (h : S300.ShapeCasts S1x300) (q : Fin 300) :
    shapeCast S1x300 x h (ix2 0 q) = x (ix1 q) :=
  shapeCast_apply x h (ix2 0 q) (ix1 q) (by
    rw [Shape.rowMajor_val_one, Shape.rowMajor_val_two]
    show q.val = 0 * 300 + q.val
    omega)

/-- The sum over the 2000 rows of a block, column by column. -/
theorem colsum_apply (v : FVec Ideal S2000x300 .f32) (h : S2000x300.Reduces [0] S300) (hφ : FKind.Formats .f32)
    (hacc : (0x00000000#32 : BitVec 32) = FKind.add.neutral .f32 hφ) (q : Fin 300) :
    multiReduction .add [0] S300 v 0x00000000#32 h hφ hacc (ix1 q) = ∑ r : Fin 2000, v (ix2 r q) := by
  refine (Ideal.multiReduction_add_single v _ h hφ hacc (ix1 q)).trans ?_
  refine Finset.sum_congr rfl fun r _ => congrArg v ?_
  funext a
  apply Fin.ext
  match a with
  | ⟨0, _⟩ => rfl
  | ⟨1, _⟩ => rfl

/-! ## The body's three stored values at an index -/

/-- The affine map of the block's rows: row `p` of `x0 + x1` times column `q` of `x2`, plus the row vector's entry. -/
theorem pay1_apply (x0 x1 : Vec Ideal S2000x300 .f32) (x2 : Vec Ideal S300x300 .f32) (x3 : Vec Ideal S1x300 .f32)
    (p : Fin 2000) (q : Fin 300) :
    k0_pay1 (F := Ideal) x0 x1 x2 x3 (ix2 p q)
      = (∑ k : Fin 300, (x0 (ix2 p k) + x1 (ix2 p k)) * x2 (ix2 k q)) + x3 (ix2 0 q) := by
  unfold k0_pay1
  simp only [shapeCast_self]
  refine (addf_apply _ _ (ix2 p q)).trans ?_
  refine congrArg₂ (· + ·) ((mm_apply _ _ p q).trans ?_) (row2000_apply x3 _ p q)
  rfl

/-- The stored block in the narrower format is the same values. -/
theorem pay2_apply (x0 x1 : Vec Ideal S2000x300 .f32) (x2 : Vec Ideal S300x300 .f32) (x3 : Vec Ideal S1x300 .f32)
    (p : Fin 2000) (q : Fin 300) :
    k0_pay2 (F := Ideal) x0 x1 x2 x3 (ix2 p q)
      = (∑ k : Fin 300, (x0 (ix2 p k) + x1 (ix2 p k)) * x2 (ix2 k q)) + x3 (ix2 0 q) :=
  pay1_apply x0 x1 x2 x3 p q

/-- The block's column sums, on each of the 8 rows. -/
theorem pay3_apply (x0 x1 : Vec Ideal S2000x300 .f32) (x2 : Vec Ideal S300x300 .f32) (x3 : Vec Ideal S1x300 .f32)
    (r : Fin 8) (q : Fin 300) :
    k0_pay3 (F := Ideal) x0 x1 x2 x3 (ix2 r q) = ∑ p : Fin 2000, k0_pay1 (F := Ideal) x0 x1 x2 x3 (ix2 p q) := by
  unfold k0_pay3
  simp only [shapeCast_self]
  refine (row8_apply _ _ r q).trans ?_
  refine (asRow_apply _ _ q).trans ?_
  exact colsum_apply _ _ _ _ q

/-- The block's column sums of squares, on each of the 8 rows. -/
theorem pay4_apply (x0 x1 : Vec Ideal S2000x300 .f32) (x2 : Vec Ideal S300x300 .f32) (x3 : Vec Ideal S1x300 .f32)
    (r : Fin 8) (q : Fin 300) :
    k0_pay4 (F := Ideal) x0 x1 x2 x3 (ix2 r q)
      = ∑ p : Fin 2000, k0_pay1 (F := Ideal) x0 x1 x2 x3 (ix2 p q) * k0_pay1 (F := Ideal) x0 x1 x2 x3 (ix2 p q) := by
  unfold k0_pay4
  simp only [shapeCast_self]
  refine (row8_apply _ _ r q).trans ?_
  refine (asRow_apply _ _ q).trans ?_
  exact colsum_apply _ _ _ _ q

/-! ## The region's arrays, its blocks, and where a block sits in its array -/

section Arrays

variable (V : (c : Dev nD) → (b : Ref sig .tc) → Buf (Elt Ideal) ((c : Thread nD τ).loc b))

/-- the node features the region reads, 50000 × 300 -/
abbrev X0 (c : Dev nD) : GIN.Mat := V c (Pipeline.arrRef spec0 0)
/-- the neighbour aggregate, 50000 × 300 -/
abbrev X1 (c : Dev nD) : GIN.Mat := V c (Pipeline.arrRef spec0 1)
/-- the weight matrix, 300 × 300 -/
abbrev X2 (c : Dev nD) : GIN.Wt := V c (Pipeline.arrRef spec0 2)
/-- the bias, one row of 300 -/
abbrev X3 (c : Dev nD) : S1x300.Idx → EReal := V c (Pipeline.arrRef spec0 3)

/-- what the region computes: the affine map of `X0 + X1` -/
abbrev Z (c : Dev nD) : GIN.Mat :=
  GIN.lin (fun i => X0 V c i + X1 V c i) (X2 V c) (fun j => X3 V c (ix2 0 (j 0)))

/-- the four input windows' blocks at grid point `t` -/
abbrev B0 (c : Dev nD) (t : Fin cfg0.N) : Vec Ideal S2000x300 .f32 := iblk0 V c 0 t
abbrev B1 (c : Dev nD) (t : Fin cfg0.N) : Vec Ideal S2000x300 .f32 := iblk0 V c 1 t
abbrev B2 (c : Dev nD) (t : Fin cfg0.N) : Vec Ideal S300x300 .f32 := iblk0 V c 2 t
abbrev B3 (c : Dev nD) (t : Fin cfg0.N) : Vec Ideal S1x300 .f32 := iblk0 V c 3 t

theorem hz : (![0, 0] : Fin 2 → Nat) = fun _ => 0 := funext fun a => by
  match a with
  | ⟨0, _⟩ => rfl
  | ⟨1, _⟩ => rfl

/-- The index maps over the 25 grid points: the two big inputs and the three outputs move down one block per point,
    the weight matrix and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the features' block at point `t` is row `2000 t + p` of the array. -/
theorem B0_apply (c : Dev nD) (t : Fin cfg0.N) (p : Fin 2000) (q : Fin 300) (n : Fin 50000)
    (hn : n.val = 2000 * t.val + p.val) : B0 V c t (ix2 p q) = X0 V c (ix2 n q) := by
  obtain ⟨e0, e1, -⟩ := idx_facts t
  show V c (Pipeline.arrRef spec0 0) (((cfg0.win 0).blk t).view.emb (ix2 p q)) = V c (Pipeline.arrRef spec0 0) (ix2 n q)
  refine congrArg _ (funext fun a => Fin.ext ?_)
  match a with
  | ⟨0, _⟩ => show win0_0.index t (0 : Fin 2) * 2000 + 1 * p.val = n.val; rw [e0, hn]; omega
  | ⟨1, _⟩ => show win0_0.index t (1 : Fin 2) * 300 + 1 * q.val = q.val; rw [e1]; omega

/-- The same for the aggregate's block. -/
theorem B1_apply (c : Dev nD) (t : Fin cfg0.N) (p : Fin 2000) (q : Fin 300) (n : Fin 50000)
    (hn : n.val = 2000 * t.val + p.val) : B1 V c t (ix2 p q) = X1 V c (ix2 n q) := by
  obtain ⟨-, -, e0, e1, -⟩ := idx_facts t
  show V c (Pipeline.arrRef spec0 1) (((cfg0.win 1).blk t).view.emb (ix2 p q)) = V c (Pipeline.arrRef spec0 1) (ix2 n q)
  refine congrArg _ (funext fun a => Fin.ext ?_)
  match a with
  | ⟨0, _⟩ => show win0_1.index t (0 : Fin 2) * 2000 + 1 * p.val = n.val; rw [e0, hn]; omega
  | ⟨1, _⟩ => show win0_1.index t (1 : Fin 2) * 300 + 1 * q.val = q.val; rw [e1]; omega

/-- The weight matrix's block is the whole matrix at every point. -/
theorem B2_apply (c : Dev nD) (t : Fin cfg0.N) (k q : Fin 300) : B2 V c t (ix2 k q) = X2 V c (ix2 k q) := by
  obtain ⟨-, -, -, -, e0, e1, -⟩ := idx_facts t
  show V c (Pipeline.arrRef spec0 2) (((cfg0.win 2).blk t).view.emb (ix2 k q)) = V c (Pipeline.arrRef spec0 2) (ix2 k q)
  refine congrArg _ (funext fun a => Fin.ext ?_)
  match a with
  | ⟨0, _⟩ => show win0_2.index t (0 : Fin 2) * 300 + 1 * k.val = k.val; rw [e0]; omega
  | ⟨1, _⟩ => show win0_2.index t (1 : Fin 2) * 300 + 1 * q.val = q.val; rw [e1]; omega

/-- The bias's block is the whole row at every point. -/
theorem B3_apply (c : Dev nD) (t : Fin cfg0.N) (q : Fin 300) : B3 V c t (ix2 0 q) = X3 V c (ix2 0 q) := by
  obtain ⟨-, -, -, -, -, -, e0, e1, -⟩ := idx_facts t
  show V c (Pipeline.arrRef spec0 3) (((cfg0.win 3).blk t).view.emb (ix2 0 q)) = V c (Pipeline.arrRef spec0 3) (ix2 0 q)
  refine congrArg _ (funext fun a => Fin.ext ?_)
  match a with
  | ⟨0, _⟩ => show win0_3.index t (0 : Fin 2) * 1 + 1 * 0 = 0; rw [e0]
  | ⟨1, _⟩ => show win0_3.index t (1 : Fin 2) * 300 + 1 * q.val = q.val; rw [e1]; omega

/-! ## The body's values on the blocks are the network's values on the arrays -/

/-- Row `p` of the affine map of the blocks at point `t` is row `2000 t + p` of `Z`. -/
theorem pay1_block (c : Dev nD) (t : Fin cfg0.N) (p : Fin 2000) (q : Fin 300) (n : Fin 50000)
    (hn : n.val = 2000 * t.val + p.val) :
    k0_pay1 (F := Ideal) (B0 V c t) (B1 V c t) (B2 V c t) (B3 V c t) (ix2 p q) = Z V c (ix2 n q) := by
  refine (pay1_apply _ _ _ _ p q).trans ?_
  show _ = (∑ k : Fin 300, (X0 V c (ix2 n k) + X1 V c (ix2 n k)) * X2 V c (ix2 k q)) + X3 V c (ix2 0 q)
  refine congrArg₂ (· + ·) (Finset.sum_congr rfl fun k _ => ?_) (B3_apply V c t q)
  rw [B0_apply V c t p k n hn, B1_apply V c t p k n hn, B2_apply V c t k q]

/-- The stored block of window 4, entry by entry. -/
theorem out4_at (c : Dev nD) (t : Fin cfg0.N) (j : S2000x300.Idx) (n : Fin 50000)
    (hn : n.val = 2000 * t.val + (j 0).val) :
    k0_pay2 (F := Ideal) (B0 V c t) (B1 V c t) (B2 V c t) (B3 V c t) j = Z V c (ix2 n (j 1)) := by
  obtain ⟨p, q, rfl⟩ : ∃ (p : Fin 2000) (q : Fin 300), j = ix2 p q := ⟨j 0, j 1, eq_ix2 j⟩
  exact pay1_block V c t p q n hn

/-- The stored block of window 5: each of its 8 rows is the tile's column sums of `Z`. -/
theorem out5_at (c : Dev nD) (t : Fin cfg0.N) (j : S8x300.Idx) (s : Fin 200)
    (hs : s.val = 8 * t.val + (j 0).val) :
    k0_pay3 (F := Ideal) (B0 V c t) (B1 V c t) (B2 V c t) (B3 V c t) j = GIN.tileSum (Z V c) (ix2 s (j 1)) := by
  obtain ⟨r, q, rfl⟩ : ∃ (r : Fin 8) (q : Fin 300), j = ix2 r q := ⟨j 0, j 1, eq_ix2 j⟩
  refine (pay3_apply _ _ _ _ r q).trans ?_
  show _ = ∑ p : Fin 2000, Z V c (ix2 (GIN.tileRow s p) q)
  refine Finset.sum_congr rfl fun p _ => pay1_block V c t p q (GIN.tileRow s p) ?_
  show 2000 * (s.val / 8) + p.val = 2000 * t.val + p.val
  have hr : r.val < 8 := r.isLt
  have hs' : s.val = 8 * t.val + r.val := hs
  omega

/-- The stored block of window 6: each of its 8 rows is the tile's column sums of the squares of `Z`. -/
theorem out6_at (c : Dev nD) (t : Fin cfg0.N) (j : S8x300.Idx) (s : Fin 200)
    (hs : s.val = 8 * t.val + (j 0).val) :
    k0_pay4 (F := Ideal) (B0 V c t) (B1 V c t) (B2 V c t) (B3 V c t) j = GIN.tileSumSq (Z V c) (ix2 s (j 1)) := by
  obtain ⟨r, q, rfl⟩ : ∃ (r : Fin 8) (q : Fin 300), j = ix2 r q := ⟨j 0, j 1, eq_ix2 j⟩
  refine (pay4_apply _ _ _ _ r q).trans ?_
  show _ = ∑ p : Fin 2000, Z V c (ix2 (GIN.tileRow s p) q) * Z V c (ix2 (GIN.tileRow s p) q)
  have hr : r.val < 8 := r.isLt
  have hs' : s.val = 8 * t.val + r.val := hs
  refine Finset.sum_congr rfl fun p _ => ?_
  have e := pay1_block V c t p q (GIN.tileRow s p) (by
    show 2000 * (s.val / 8) + p.val = 2000 * t.val + p.val
    omega)
  rw [e]

/-! ## What each grid point writes back, and the arrays after the region -/

/-- Point `t` writes back rows `2000 t … 2000 t + 1999` of `Z`. -/
theorem flushed4_eq (c : Dev nD) (t : Fin cfg0.N) :
    (dat0 V c).flushed 4 t = ((cfg0.win 4).blk t).view.read (Elt Ideal) (Z V c) := by
  show (cfg0.win 4).cut (grid0.coords t) ((dat0 V c).after 4 t) = _
  rw [after0_4]
  unfold out0_4
  rw [View.canon_unit_zero hz]
  simp only [View.ld_unit_zero (S := S2000x300) hz, View.ld_unit_zero (S := S300x300) hz, View.ld_unit_zero (S := S1x300) hz]
  obtain ⟨-, -, -, -, -, -, -, -, e0, e1, -⟩ := idx_facts t
  have ht : t.val < 25 := t.isLt
  funext j
  have hj : (j 0).val < 2000 := (j 0).isLt
  show k0_pay2 (F := Ideal) (B0 V c t) (B1 V c t) (B2 V c t) (B3 V c t) j = Z V c (((cfg0.win 4).blk t).view.emb j)
  refine (out4_at V c t j ⟨2000 * t.val + (j 0).val, by omega⟩ rfl).trans ?_
  refine congrArg (Z V c) (funext fun a => Fin.ext ?_)
  match a with
  | ⟨0, _⟩ => show 2000 * t.val + (j 0).val = win0_4.index t (0 : Fin 2) * 2000 + 1 * (j 0).val; rw [e0]; omega
  | ⟨1, _⟩ => show (j 1).val = win0_4.index t (1 : Fin 2) * 300 + 1 * (j 1).val; rw [e1]; omega

/-- Point `t` writes back rows `8 t … 8 t + 7` of the tiles' column sums. -/
theorem flushed5_eq (c : Dev nD) (t : Fin cfg0.N) :
    (dat0 V c).flushed 5 t = ((cfg0.win 5).blk t).view.read (Elt Ideal) (GIN.tileSum (Z V c)) := by
  show (cfg0.win 5).cut (grid0.coords t) ((dat0 V c).after 5 t) = _
  rw [after0_5]
  unfold out0_5
  rw [View.canon_unit_zero hz]
  simp only [View.ld_unit_zero (S := S2000x300) hz, View.ld_unit_zero (S := S300x300) hz, View.ld_unit_zero (S := S1x300) hz]
  obtain ⟨-, -, -, -, -, -, -, -, -, -, e0, e1, -⟩ := idx_facts t
  have ht : t.val < 25 := t.isLt
  funext j
  have hj : (j 0).val < 8 := (j 0).isLt
  show k0_pay3 (F := Ideal) (B0 V c t) (B1 V c t) (B2 V c t) (B3 V c t) j = GIN.tileSum (Z V c) (((cfg0.win 5).blk t).view.emb j)
  refine (out5_at V c t j ⟨8 * t.val + (j 0).val, by omega⟩ rfl).trans ?_
  refine congrArg (GIN.tileSum (Z V c)) (funext fun a => Fin.ext ?_)
  match a with
  | ⟨0, _⟩ => show 8 * t.val + (j 0).val = win0_5.index t (0 : Fin 2) * 8 + 1 * (j 0).val; rw [e0]; omega
  | ⟨1, _⟩ => show (j 1).val = win0_5.index t (1 : Fin 2) * 300 + 1 * (j 1).val; rw [e1]; omega

/-- Point `t` writes back rows `8 t … 8 t + 7` of the tiles' column sums of squares. -/
theorem flushed6_eq (c : Dev nD) (t : Fin cfg0.N) :
    (dat0 V c).flushed 6 t = ((cfg0.win 6).blk t).view.read (Elt Ideal) (GIN.tileSumSq (Z V c)) := by
  show (cfg0.win 6).cut (grid0.coords t) ((dat0 V c).after 6 t) = _
  rw [after0_6]
  unfold out0_6
  rw [View.canon_unit_zero hz]
  simp only [View.ld_unit_zero (S := S2000x300) hz, View.ld_unit_zero (S := S300x300) hz, View.ld_unit_zero (S := S1x300) hz]
  obtain ⟨-, -, -, -, -, -, -, -, -, -, -, -, e0, e1⟩ := idx_facts t
  have ht : t.val < 25 := t.isLt
  funext j
  have hj : (j 0).val < 8 := (j 0).isLt
  show k0_pay4 (F := Ideal) (B0 V c t) (B1 V c t) (B2 V c t) (B3 V c t) j = GIN.tileSumSq (Z V c) (((cfg0.win 6).blk t).view.emb j)
  refine (out6_at V c t j ⟨8 * t.val + (j 0).val, by omega⟩ rfl).trans ?_
  refine congrArg (GIN.tileSumSq (Z V c)) (funext fun a => Fin.ext ?_)
  match a with
  | ⟨0, _⟩ => show 8 * t.val + (j 0).val = win0_6.index t (0 : Fin 2) * 8 + 1 * (j 0).val; rw [e0]; omega
  | ⟨1, _⟩ => show (j 1).val = win0_6.index t (1 : Fin 2) * 300 + 1 * (j 1).val; rw [e1]; omega

/-- An index of the 50000 × 300 array lies in point `t`'s block of window 4 iff each coordinate is in the block's range. -/
theorem mem_blk4 (t : Fin cfg0.N) (i : S50000x300.Idx) :
    i ∈ ((cfg0.win 4).blk t).view.set ↔ ∀ a : Fin 2, win0_4.index t a * S2000x300.size a ≤ (i a).val
      ∧ (i a).val < win0_4.index t a * S2000x300.size a + S2000x300.size a := by
  show i ∈ ((View.whole main_v19_0).slice (win0_4.rect t)).set ↔ _
  rw [View.set_slice_whole, Rect.mem_set_unit]
  exact Iff.rfl

theorem mem_blk5 (t : Fin cfg0.N) (i : S200x300.Idx) :
    i ∈ ((cfg0.win 5).blk t).view.set ↔ ∀ a : Fin 2, win0_5.index t a * S8x300.size a ≤ (i a).val
      ∧ (i a).val < win0_5.index t a * S8x300.size a + S8x300.size a := by
  show i ∈ ((View.whole main_v19_1).slice (win0_5.rect t)).set ↔ _
  rw [View.set_slice_whole, Rect.mem_set_unit]
  exact Iff.rfl

theorem mem_blk6 (t : Fin cfg0.N) (i : S200x300.Idx) :
    i ∈ ((cfg0.win 6).blk t).view.set ↔ ∀ a : Fin 2, win0_6.index t a * S8x300.size a ≤ (i a).val
      ∧ (i a).val < win0_6.index t a * S8x300.size a + S8x300.size a := by
  show i ∈ ((View.whole main_v19_2).slice (win0_6.rect t)).set ↔ _
  rw [View.set_slice_whole, Rect.mem_set_unit]
  exact Iff.rfl

/-- Row `n` of the 50000 × 300 array lies in the block of point `n / 2000`. -/
theorem cover4 (i : S50000x300.Idx) : ∃ t : Fin cfg0.N, (cfg0.win 4).flush t = true ∧ i ∈ ((cfg0.win 4).blk t).view.set := by
  have h0 : (i 0).val < 50000 := (i 0).isLt
  have h1 : (i 1).val < 300 := (i 1).isLt
  refine ⟨⟨(i 0).val / 2000, by show (i 0).val / 2000 < 25; omega⟩, flush0_4 _, ?_⟩
  rw [mem_blk4]
  obtain ⟨-, -, -, -, -, -, -, -, e0, e1, -⟩ := idx_facts ⟨(i 0).val / 2000, by show (i 0).val / 2000 < 25; omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 300 ≤ (i 1).val ∧ (i 1).val < win0_4.index _ (1 : Fin 2) * 300 + 300
    rw [e1]; omega

/-- Row `p` of the 200 × 300 array lies in the block of point `p / 8`. -/
theorem cover5 (i : S200x300.Idx) : ∃ t : Fin cfg0.N, (cfg0.win 5).flush t = true ∧ i ∈ ((cfg0.win 5).blk t).view.set := by
  have h0 : (i 0).val < 200 := (i 0).isLt
  have h1 : (i 1).val < 300 := (i 1).isLt
  refine ⟨⟨(i 0).val / 8, by show (i 0).val / 8 < 25; omega⟩, flush0_5 _, ?_⟩
  rw [mem_blk5]
  obtain ⟨-, -, -, -, -, -, -, -, -, -, e0, e1, -⟩ := idx_facts ⟨(i 0).val / 8, by show (i 0).val / 8 < 25; omega⟩
  intro a
  match a with
  | ⟨0, _⟩ =>
    show win0_5.index _ (0 : Fin 2) * 8 ≤ (i 0).val ∧ (i 0).val < win0_5.index _ (0 : Fin 2) * 8 + 8
    rw [e0]; show (i 0).val / 8 * 8 ≤ (i 0).val ∧ (i 0).val < (i 0).val / 8 * 8 + 8; omega
  | ⟨1, _⟩ =>
    show win0_5.index _ (1 : Fin 2) * 300 ≤ (i 1).val ∧ (i 1).val < win0_5.index _ (1 : Fin 2) * 300 + 300
    rw [e1]; omega

theorem cover6 (i : S200x300.Idx) : ∃ t : Fin cfg0.N, (cfg0.win 6).flush t = true ∧ i ∈ ((cfg0.win 6).blk t).view.set := by
  have h0 : (i 0).val < 200 := (i 0).isLt
  have h1 : (i 1).val < 300 := (i 1).isLt
  refine ⟨⟨(i 0).val / 8, by show (i 0).val / 8 < 25; omega⟩, flush0_6 _, ?_⟩
  rw [mem_blk6]
  obtain ⟨-, -, -, -, -, -, -, -, -, -, -, -, e0, e1⟩ := idx_facts ⟨(i 0).val / 8, by show (i 0).val / 8 < 25; omega⟩
  intro a
  match a with
  | ⟨0, _⟩ =>
    show win0_6.index _ (0 : Fin 2) * 8 ≤ (i 0).val ∧ (i 0).val < win0_6.index _ (0 : Fin 2) * 8 + 8
    rw [e0]; show (i 0).val / 8 * 8 ≤ (i 0).val ∧ (i 0).val < (i 0).val / 8 * 8 + 8; omega
  | ⟨1, _⟩ =>
    show win0_6.index _ (1 : Fin 2) * 300 ≤ (i 1).val ∧ (i 1).val < win0_6.index _ (1 : Fin 2) * 300 + 300
    rw [e1]; omega

/-- After the region the first output array holds `Z`. -/
theorem z_final (c : Dev nD) : (dat0 V c).arrAt 4 cfg0.N = Z V c :=
  (dat0 V c).arrAt_eq_of_cover 4 (Z V c) (fun t _ => flushed4_eq V c t) cover4

/-- After the region the second output array holds the tiles' column sums of `Z`, each tile's on 8 rows. -/
theorem s_final (c : Dev nD) : (dat0 V c).arrAt 5 cfg0.N = GIN.tileSum (Z V c) :=
  (dat0 V c).arrAt_eq_of_cover 5 (GIN.tileSum (Z V c)) (fun t _ => flushed5_eq V c t) cover5

/-- After the region the third output array holds the tiles' column sums of the squares of `Z`. -/
theorem q_final (c : Dev nD) : (dat0 V c).arrAt 6 cfg0.N = GIN.tileSumSq (Z V c) :=
  (dat0 V c).arrAt_eq_of_cover 6 (GIN.tileSumSq (Z V c)) (fun t _ => flushed6_eq V c t) cover6

end Arrays

end Cert.KernelIdeal.Reg0

end
-- ==== Proof.KRegB.lean ====
/-
  The second kernel of a layer, on the arrays it finds.  With `z` the 50000 × 300 features, `μ` and `v` the column
  statistics, `γ` and `β` the normalisation's parameters and `W`, `b` an affine map, its three output arrays end holding

      Z2 = max ((z - μ) · (v + ε)^(-1/2) · γ + β) 0 · W + b,

  and, for each of the 25 tiles of 2000 rows, on 8 identical rows per tile, the tile's column sums of `Z2` and of `Z2 · Z2`.

  The kernel visits the tiles in order.  At tile `t` it reads rows `2000 t …` of `z` and the small arrays whole, forms the
  2000 × 300 block of `Z2` by one block product, and writes the block and its two rows of column sums.  Read at one entry,
  the block product is the sum over the 300 contracted coordinates and a lane sum is the sum over the block's 2000 rows;
  an entry of a block is the entry of the array at block index × block size + its own coordinate; the blocks tile the arrays.
-/
import proofs.«144515_j12352325943894_2_alg».proof.Proof.Spec
import proofs.«144515_j12352325943894_2_alg».proof.Proof.FrameKI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx
open Idealize.ShloMosaic.Pipeline (Dat)
open Cert.KernelIdeal Cert.KernelIdeal.Gen

/-! ## The block product at an index -/

theorem lhs_mm_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_mm_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_mm_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_mm_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The block product into the zero splat, at row `p` and column `q`: the sum over the 300 contracted coordinates. -/
theorem mm_apply (a : FVec Ideal S2000x300 .bf16) (w : FVec Ideal S300x300 .bf16) (p : Fin 2000) (q : Fin 300) :
    matmul dot_S2000x300_S300x300_S2000x300_1_0_0_1_n_n none a w (constant (F := Ideal) S2000x300 .f32 0x00000000#32) (ix2 p q)
      = ∑ k : Fin 300, a (ix2 p k) * w (ix2 k q) := by
  simp only [matmul]
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k :=
    funext fun a => Fin.ext (by
      match a with
      | ⟨0, _⟩ => exact lhs_mm_0 _ _
      | ⟨1, _⟩ => exact (lhs_mm_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q :=
    funext fun a => Fin.ext (by
      match a with
      | ⟨0, _⟩ => exact (rhs_mm_0 _ _).trans hk
      | ⟨1, _⟩ => exact rhs_mm_1 _ _)
  rw [el, er]

/-! ## The payload at an index -/

/-- The affine image of the normalised, rectified block, at row `p` and column `q` of the block. -/
theorem pay3_apply (x0 : Vec Ideal S2000x300 .bf16) (xv xm xg xb : Vec Ideal S1x300 .f32) (xW : Vec Ideal S300x300 .f32)
    (xc : Vec Ideal S1x300 .f32) (p : Fin 2000) (q : Fin 300) :
    k1_pay3 x0 xv xm xg xb xW xc (ix2 p q)
      = (∑ k : Fin 300, max ((x0 (ix2 p k) - xm (ix2 0 k)) * Ideal.rsqrt (xv (ix2 0 k) + Ideal.ofBits .f32 0x3727C5AC#32) * xg (ix2 0 k)
            + xb (ix2 0 k)) (Ideal.ofBits .f32 0x00000000#32) * xW (ix2 k q)) + xc (ix2 0 q) := by
  unfold k1_pay3
  simp only [shapeCast_self]
  rw [addf_apply, mm_apply, broadcastTo_1b_ab_apply]
  refine congrArg (· + _) (Finset.sum_congr rfl fun k _ => ?_)
  rw [truncf_apply, truncf_apply, maximumf_apply, addf_apply, mulf_apply, mulf_apply, subf_apply, extf_apply,
    broadcastTo_1b_ab_apply, broadcastTo_1b_ab_apply, broadcastTo_1b_ab_apply, broadcastTo_1b_ab_apply]
  rfl

/-- A sum over the block's 2000 rows, read at column `q`. -/
theorem colsum_apply (src : FVec Ideal S2000x300 .f32) (h : S2000x300.Reduces [0] S300) (hφ : FKind.Formats .f32)
    (hacc : (0x00000000#32 : BitVec FTy.f32.bits) = FKind.add.neutral .f32 hφ) (q : Fin 300) :
    multiReduction (F := Ideal) .add [0] S300 src 0x00000000#32 h hφ hacc (ix1 q) = ∑ p : Fin 2000, src (ix2 p q) := by
  refine (Ideal.multiReduction_add_single src 0x00000000#32 h hφ hacc (ix1 q)).trans ?_
  show ∑ p : Fin 2000, src (h.lift (ix1 q) p) = _
  refine Finset.sum_congr rfl fun p _ => congrArg src ?_
  funext a
  match a with
  | ⟨0, _⟩ => rfl
  | ⟨1, _⟩ => rfl

/-- The first partial-sum block: every one of its 8 rows holds the block's column sums. -/
theorem sum_pay_apply (x0 : Vec Ideal S2000x300 .bf16) (xv xm xg xb : Vec Ideal S1x300 .f32) (xW : Vec Ideal S300x300 .f32)
    (xc : Vec Ideal S1x300 .f32) (r : Fin 8) (q : Fin 300) :
    k1_pay1 (k1_pay5 x0 xv xm xg xb xW xc) (ix2 r q) = ∑ p : Fin 2000, k1_pay3 x0 xv xm xg xb xW xc (ix2 p q) := by
  unfold k1_pay1 k1_pay5
  simp only [shapeCast_self]
  rw [broadcastTo_1b_ab_apply, shapeCast_a_1a_apply]
  exact colsum_apply _ _ _ _ q

/-- The second: every row holds the column sums of the squares. -/
theorem sq_pay_apply (x0 : Vec Ideal S2000x300 .bf16) (xv xm xg xb : Vec Ideal S1x300 .f32) (xW : Vec Ideal S300x300 .f32)
    (xc : Vec Ideal S1x300 .f32) (r : Fin 8) (q : Fin 300) :
    k1_pay2 (k1_pay6 x0 xv xm xg xb xW xc) (ix2 r q)
      = ∑ p : Fin 2000, k1_pay3 x0 xv xm xg xb xW xc (ix2 p q) * k1_pay3 x0 xv xm xg xb xW xc (ix2 p q) := by
  unfold k1_pay2 k1_pay6
  simp only [shapeCast_self]
  rw [broadcastTo_1b_ab_apply, shapeCast_a_1a_apply]
  exact colsum_apply _ _ _ _ q

/-! ## A block's payload as rows of the whole-array function -/

/-- Where the loaded blocks are row `n` of the features and the whole small arrays, the payload at `(p, q)` is the
    normalised, rectified features' affine image at `(n, q)`. -/
theorem z_point (Zin : GIN.Mat) (mu v g be : GIN.Col) (W : GIN.Wt) (b : GIN.Col)
    (x0 : Vec Ideal S2000x300 .bf16) (xm xv xg xb : Vec Ideal S1x300 .f32) (xW : Vec Ideal S300x300 .f32)
    (xc : Vec Ideal S1x300 .f32) (p : Fin 2000) (q : Fin 300) (n : Fin 50000)
    (h0 : ∀ k : Fin 300, x0 (ix2 p k) = Zin (ix2 n k))
    (hm : ∀ k : Fin 300, xm (ix2 0 k) = mu (ix1 k)) (hv : ∀ k : Fin 300, xv (ix2 0 k) = v (ix1 k))
    (hg : ∀ k : Fin 300, xg (ix2 0 k) = g (ix1 k)) (hb : ∀ k : Fin 300, xb (ix2 0 k) = be (ix1 k))
    (hW : ∀ k j : Fin 300, xW (ix2 k j) = W (ix2 k j)) (hc : ∀ k : Fin 300, xc (ix2 0 k) = b (ix1 k)) :
    k1_pay3 x0 xv xm xg xb xW xc (ix2 p q) = GIN.lin (GIN.bnrelu Zin mu v g be) W b (ix2 n q) := by
  rw [pay3_apply]
  unfold GIN.lin GIN.bnrelu GIN.cEps GIN.c0
  simp only [h0, hm, hv, hg, hb, hW, hc]

/-! ## The region's arrays -/

variable (V : (c : Dev nD) → (b : Ref sig .tc) → Buf (Elt Ideal) ((c : Thread nD τ).loc b))

/-- The arrays the region reads, as it finds them: the features, the column statistics and parameters, the weights. -/
abbrev zIn (c : Dev nD) : GIN.Mat := V c (Pipeline.arrRef spec1 0)
abbrev muIn (c : Dev nD) : GIN.Col := fun j => (V c (Pipeline.arrRef spec1 1) : S1x300.Idx → EReal) (ix2 0 (j 0))
abbrev varIn (c : Dev nD) : GIN.Col := fun j => (V c (Pipeline.arrRef spec1 2) : S1x300.Idx → EReal) (ix2 0 (j 0))
abbrev gIn (c : Dev nD) : GIN.Col := fun j => (V c (Pipeline.arrRef spec1 3) : S1x300.Idx → EReal) (ix2 0 (j 0))
abbrev beIn (c : Dev nD) : GIN.Col := fun j => (V c (Pipeline.arrRef spec1 4) : S1x300.Idx → EReal) (ix2 0 (j 0))
abbrev wIn (c : Dev nD) : GIN.Wt := V c (Pipeline.arrRef spec1 5)
abbrev bIn (c : Dev nD) : GIN.Col := fun j => (V c (Pipeline.arrRef spec1 6) : S1x300.Idx → EReal) (ix2 0 (j 0))

/-- What the region computes: the normalised, rectified features' affine image. -/
abbrev Z2 (c : Dev nD) : GIN.Mat :=
  GIN.lin (GIN.bnrelu (zIn V c) (muIn V c) (varIn V c) (gIn V c) (beIn V c)) (wIn V c) (bIn V c)

theorem hz : (![0, 0] : Fin 2 → Nat) = fun _ => 0 := funext fun a => by fin_cases a <;> rfl

/-- The index maps over the 25 points: the row-blocked windows sit at block `(t, 0)`, the whole-array ones at `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## The input blocks as parts of the arrays -/

/-- Row `p` of the features' block at point `t` is row `2000 t + p` of the features. -/
theorem z_blk (c : Dev nD) (t : Fin cfg1.N) (p : Fin 2000) (q : Fin 300) (n : Fin 50000) (hn : n.val = 2000 * t.val + p.val) :
    (iblk1 V c 0 t : Vec Ideal S2000x300 .bf16) (ix2 p q) = zIn V c (ix2 n q) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = n.val; rw [e0, hn]; omega
  | ⟨1, _⟩ => show win1_0.index t (1 : Fin 2) * 300 + 1 * q.val = q.val; rw [e1]; omega

/-- The one-row windows hold their whole arrays at every point: the column means, -/
theorem mu_blk (c : Dev nD) (t : Fin cfg1.N) (k : Fin 300) :
    (iblk1 V c 1 t : Vec Ideal S1x300 .f32) (ix2 0 k) = muIn V c (ix1 k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; rw [e0]
  | ⟨1, _⟩ => show win1_1.index t (1 : Fin 2) * 300 + 1 * k.val = k.val; rw [e1]; omega

/-- the column variances, -/
theorem var_blk (c : Dev nD) (t : Fin cfg1.N) (k : Fin 300) :
    (iblk1 V c 2 t : Vec Ideal S1x300 .f32) (ix2 0 k) = varIn V c (ix1 k) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; rw [e0]
  | ⟨1, _⟩ => show win1_2.index t (1 : Fin 2) * 300 + 1 * k.val = k.val; rw [e1]; omega

/-- the scales, -/
theorem g_blk (c : Dev nD) (t : Fin cfg1.N) (k : Fin 300) :
    (iblk1 V c 3 t : Vec Ideal S1x300 .f32) (ix2 0 k) = gIn V c (ix1 k) := by
  obtain ⟨-, -, -, -, -, -, e0, e1, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; rw [e0]
  | ⟨1, _⟩ => show win1_3.index t (1 : Fin 2) * 300 + 1 * k.val = k.val; rw [e1]; omega

/-- the shifts, -/
theorem be_blk (c : Dev nD) (t : Fin cfg1.N) (k : Fin 300) :
    (iblk1 V c 4 t : Vec Ideal S1x300 .f32) (ix2 0 k) = beIn V c (ix1 k) := by
  obtain ⟨-, -, -, -, -, -, -, -, e0, e1, -⟩ := idx_facts t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * 0 = 0; rw [e0]
  | ⟨1, _⟩ => show win1_4.index t (1 : Fin 2) * 300 + 1 * k.val = k.val; rw [e1]; omega

/-- the affine map's vector, -/
theorem b_blk (c : Dev nD) (t : Fin cfg1.N) (k : Fin 300) :
    (iblk1 V c 6 t : Vec Ideal S1x300 .f32) (ix2 0 k) = bIn V c (ix1 k) := by
  obtain ⟨-, -, -, -, -, -, -, -, -, -, -, -, e0, e1, -⟩ := idx_facts t
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * 0 = 0; rw [e0]
  | ⟨1, _⟩ => show win1_6.index t (1 : Fin 2) * 300 + 1 * k.val = k.val; rw [e1]; omega

/-- and the weights' window holds the whole matrix. -/
theorem w_blk (c : Dev nD) (t : Fin cfg1.N) (k j : Fin 300) :
    (iblk1 V c 5 t : Vec Ideal S300x300 .f32) (ix2 k j) = wIn V c (ix2 k j) := by
  obtain ⟨-, -, -, -, -, -, -, -, -, -, e0, e1, -⟩ := idx_facts t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 300 + 1 * k.val = k.val; rw [e0]; omega
  | ⟨1, _⟩ => show win1_5.index t (1 : Fin 2) * 300 + 1 * j.val = j.val; rw [e1]; omega

/-- The payload of point `t`'s blocks at `(p, q)` is the region's function at row `2000 t + p`. -/
theorem pay_blk (c : Dev nD) (t : Fin cfg1.N) (p : Fin 2000) (q : Fin 300) (n : Fin 50000) (hn : n.val = 2000 * t.val + p.val) :
    k1_pay3 (iblk1 V c 0 t) (iblk1 V c 2 t) (iblk1 V c 1 t) (iblk1 V c 3 t) (iblk1 V c 4 t) (iblk1 V c 5 t) (iblk1 V c 6 t) (ix2 p q)
      = Z2 V c (ix2 n q) :=
  z_point (zIn V c) (muIn V c) (varIn V c) (gIn V c) (beIn V c) (wIn V c) (bIn V c)
    (iblk1 V c 0 t) (iblk1 V c 1 t) (iblk1 V c 2 t) (iblk1 V c 3 t) (iblk1 V c 4 t) (iblk1 V c 5 t) (iblk1 V c 6 t) p q n
    (fun k => z_blk V c t p k n hn) (mu_blk V c t) (var_blk V c t) (g_blk V c t) (be_blk V c t) (w_blk V c t) (b_blk V c t)

/-! ## What each point writes back -/

/-- Point `t` writes back rows `2000 t … 2000 t + 1999` of the region's function. -/
theorem z_flushed (c : Dev nD) (t : Fin cfg1.N) :
    (dat1 V c).flushed 7 t = ((cfg1.win 7).blk t).view.read (Elt Ideal) (Z2 V c) := by
  show (cfg1.win 7).cut (grid1.coords t) ((dat1 V c).after 7 t) = _
  rw [after1_7]
  unfold out1_7
  rw [View.canon_unit_zero hz]
  simp only [View.ld_unit_zero (S := S2000x300) hz, View.ld_unit_zero (S := S1x300) hz, View.ld_unit_zero (S := S300x300) hz]
  funext j
  obtain ⟨p, q, rfl⟩ : ∃ (p : Fin 2000) (q : Fin 300), j = ix2 p q := ⟨j 0, j 1, eq_ix2 j⟩
  obtain ⟨-, -, -, -, -, -, -, -, -, -, -, -, -, -, e0, e1, -⟩ := idx_facts t
  have ht : t.val < 25 := t.isLt
  have hn : 2000 * t.val + p.val < 50000 := by have := p.isLt; omega
  have hemb : ((cfg1.win 7).blk t).view.emb (ix2 p q) = (ix2 (⟨2000 * t.val + p.val, hn⟩ : Fin 50000) q : S50000x300.Idx) := by
    funext a
    apply Fin.ext
    match a with
    | ⟨0, _⟩ => show win1_7.index t (0 : Fin 2) * 2000 + 1 * p.val = 2000 * t.val + p.val; rw [e0]; omega
    | ⟨1, _⟩ => show win1_7.index t (1 : Fin 2) * 300 + 1 * q.val = q.val; rw [e1]; omega
  show k1_pay3 (iblk1 V c 0 t) (iblk1 V c 2 t) (iblk1 V c 1 t) (iblk1 V c 3 t) (iblk1 V c 4 t) (iblk1 V c 5 t) (iblk1 V c 6 t) (ix2 p q)
    = Z2 V c (((cfg1.win 7).blk t).view.emb (ix2 p q))
  rw [hemb]
  exact pay_blk V c t p q ⟨_, hn⟩ rfl

/-- Row `8 t + r` of the partial sums' arrays is tile `t`'s. -/
theorem tileRow_blk (t : Fin 25) (r : Fin 8) (p : Fin 2000) (h : 8 * t.val + r.val < 200) (hn : 2000 * t.val + p.val < 50000) :
    GIN.tileRow ⟨8 * t.val + r.val, h⟩ p = ⟨2000 * t.val + p.val, hn⟩ := by
  apply Fin.ext
  show 2000 * ((8 * t.val + r.val) / 8) + p.val = 2000 * t.val + p.val
  have := r.isLt
  omega

/-- Point `t` writes back rows `8 t … 8 t + 7` of the tiles' column sums, -/
theorem s_flushed (c : Dev nD) (t : Fin cfg1.N) :
    (dat1 V c).flushed 8 t = ((cfg1.win 8).blk t).view.read (Elt Ideal) (GIN.tileSum (Z2 V c)) := by
  show (cfg1.win 8).cut (grid1.coords t) ((dat1 V c).after 8 t) = _
  rw [after1_8]
  unfold out1_8
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, e0, e1, -⟩ := idx_facts t
  have ht : t.val < 25 := t.isLt
  have hP : 8 * t.val + r.val < 200 := by have := r.isLt; omega
  have hemb : ((cfg1.win 8).blk t).view.emb (ix2 r q) = (ix2 (⟨8 * t.val + r.val, hP⟩ : Fin 200) q : S200x300.Idx) := by
    funext a
    apply Fin.ext
    match a with
    | ⟨0, _⟩ => show win1_8.index t (0 : Fin 2) * 8 + 1 * r.val = 8 * t.val + r.val; rw [e0]; omega
    | ⟨1, _⟩ => show win1_8.index t (1 : Fin 2) * 300 + 1 * q.val = q.val; rw [e1]; omega
  show k1_pay1 (k1_pay5 (iblk1 V c 0 t) (iblk1 V c 2 t) (iblk1 V c 1 t) (iblk1 V c 3 t) (iblk1 V c 4 t) (iblk1 V c 5 t) (iblk1 V c 6 t)) (ix2 r q)
    = GIN.tileSum (Z2 V c) (((cfg1.win 8).blk t).view.emb (ix2 r q))
  rw [hemb, sum_pay_apply]
  show _ = ∑ p : Fin 2000, Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn]
  exact pay_blk V c t p q ⟨_, hn⟩ rfl

/-- and of the tiles' column sums of squares. -/
theorem q_flushed (c : Dev nD) (t : Fin cfg1.N) :
    (dat1 V c).flushed 9 t = ((cfg1.win 9).blk t).view.read (Elt Ideal) (GIN.tileSumSq (Z2 V c)) := by
  show (cfg1.win 9).cut (grid1.coords t) ((dat1 V c).after 9 t) = _
  rw [after1_9]
  unfold out1_9
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, -, -, e0, e1⟩ := idx_facts t
  have ht : t.val < 25 := t.isLt
  have hP : 8 * t.val + r.val < 200 := by have := r.isLt; omega
  have hemb : ((cfg1.win 9).blk t).view.emb (ix2 r q) = (ix2 (⟨8 * t.val + r.val, hP⟩ : Fin 200) q : S200x300.Idx) := by
    funext a
    apply Fin.ext
    match a with
    | ⟨0, _⟩ => show win1_9.index t (0 : Fin 2) * 8 + 1 * r.val = 8 * t.val + r.val; rw [e0]; omega
    | ⟨1, _⟩ => show win1_9.index t (1 : Fin 2) * 300 + 1 * q.val = q.val; rw [e1]; omega
  show k1_pay2 (k1_pay6 (iblk1 V c 0 t) (iblk1 V c 2 t) (iblk1 V c 1 t) (iblk1 V c 3 t) (iblk1 V c 4 t) (iblk1 V c 5 t) (iblk1 V c 6 t)) (ix2 r q)
    = GIN.tileSumSq (Z2 V c) (((cfg1.win 9).blk t).view.emb (ix2 r q))
  rw [hemb, sq_pay_apply]
  show _ = ∑ p : Fin 2000, Z2 V c (ix2 (GIN.tileRow ⟨8 * t.val + r.val, hP⟩ p) q) * Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn, pay_blk V c t p q ⟨_, hn⟩ rfl]

/-! ## The blocks cover the arrays -/

/-- An index of the features' array is in point `t`'s block iff each coordinate is in the block's range. -/
theorem mem_blk7 (t : Fin cfg1.N) (i : S50000x300.Idx) :
    i ∈ ((cfg1.win 7).blk t).view.set
      ↔ ∀ a : Fin 2, win1_7.index t a * S2000x300.size a ≤ (i a).val ∧ (i a).val < win1_7.index t a * S2000x300.size a + S2000x300.size a := by
  show i ∈ ((View.whole main_v47_0).slice (win1_7.rect t)).set ↔ _
  rw [View.set_slice_whole, Rect.mem_set_unit]
  exact Iff.rfl

theorem mem_blk8 (t : Fin cfg1.N) (i : S200x300.Idx) :
    i ∈ ((cfg1.win 8).blk t).view.set
      ↔ ∀ a : Fin 2, win1_8.index t a * S8x300.size a ≤ (i a).val ∧ (i a).val < win1_8.index t a * S8x300.size a + S8x300.size a := by
  show i ∈ ((View.whole main_v47_1).slice (win1_8.rect t)).set ↔ _
  rw [View.set_slice_whole, Rect.mem_set_unit]
  exact Iff.rfl

theorem mem_blk9 (t : Fin cfg1.N) (i : S200x300.Idx) :
    i ∈ ((cfg1.win 9).blk t).view.set
      ↔ ∀ a : Fin 2, win1_9.index t a * S8x300.size a ≤ (i a).val ∧ (i a).val < win1_9.index t a * S8x300.size a + S8x300.size a := by
  show i ∈ ((View.whole main_v47_2).slice (win1_9.rect t)).set ↔ _
  rw [View.set_slice_whole, Rect.mem_set_unit]
  exact Iff.rfl

/-- Row `n` of the features is in the block of point `n / 2000`. -/
theorem z_cover (i : S50000x300.Idx) :
    ∃ t : Fin cfg1.N, (cfg1.win 7).flush t = true ∧ i ∈ ((cfg1.win 7).blk t).view.set := by
  have hi0 : (i 0).val < 50000 := (i 0).isLt
  have hi1 : (i 1).val < 300 := (i 1).isLt
  have ht : (i 0).val / 2000 < 25 := by omega
  obtain ⟨-, -, -, -, -, -, -, -, -, -, -, -, -, -, e0, e1, -⟩ := idx_facts (⟨(i 0).val / 2000, ht⟩ : Fin cfg1.N)
  refine ⟨⟨(i 0).val / 2000, ht⟩, flush1_7 _, ?_⟩
  rw [mem_blk7]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 300 ≤ (i 1).val ∧ (i 1).val < win1_7.index ⟨(i 0).val / 2000, ht⟩ (1 : Fin 2) * 300 + 300
    rw [e1]; omega

/-- Row `P` of a partial sums' array is in the block of point `P / 8`. -/
theorem s_cover (i : S200x300.Idx) :
    ∃ t : Fin cfg1.N, (cfg1.win 8).flush t = true ∧ i ∈ ((cfg1.win 8).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, e0, e1, -⟩ := idx_facts (⟨(i 0).val / 8, ht⟩ : Fin cfg1.N)
  refine ⟨⟨(i 0).val / 8, ht⟩, flush1_8 _, ?_⟩
  rw [mem_blk8]
  intro a
  match a with
  | ⟨0, _⟩ =>
    show win1_8.index ⟨(i 0).val / 8, ht⟩ (0 : Fin 2) * 8 ≤ (i 0).val ∧ (i 0).val < win1_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_8.index ⟨(i 0).val / 8, ht⟩ (1 : Fin 2) * 300 ≤ (i 1).val ∧ (i 1).val < win1_8.index ⟨(i 0).val / 8, ht⟩ (1 : Fin 2) * 300 + 300
    rw [e1]; omega

theorem q_cover (i : S200x300.Idx) :
    ∃ t : Fin cfg1.N, (cfg1.win 9).flush t = true ∧ i ∈ ((cfg1.win 9).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, -, -, e0, e1⟩ := idx_facts (⟨(i 0).val / 8, ht⟩ : Fin cfg1.N)
  refine ⟨⟨(i 0).val / 8, ht⟩, flush1_9 _, ?_⟩
  rw [mem_blk9]
  intro a
  match a with
  | ⟨0, _⟩ =>
    show win1_9.index ⟨(i 0).val / 8, ht⟩ (0 : Fin 2) * 8 ≤ (i 0).val ∧ (i 0).val < win1_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_9.index ⟨(i 0).val / 8, ht⟩ (1 : Fin 2) * 300 ≤ (i 1).val ∧ (i 1).val < win1_9.index ⟨(i 0).val / 8, ht⟩ (1 : Fin 2) * 300 + 300
    rw [e1]; omega

/-! ## The three arrays after the region -/

/-- The features' array ends at the region's function of the arrays it read; -/
theorem z_final (c : Dev nD) : (dat1 V c).arrAt 7 cfg1.N = Z2 V c :=
  (dat1 V c).arrAt_eq_of_cover 7 (Z2 V c) (fun t _ => z_flushed V c t) z_cover

/-- the first partial sums' array at its tiles' column sums, each on 8 rows; -/
theorem s_final (c : Dev nD) : (dat1 V c).arrAt 8 cfg1.N = GIN.tileSum (Z2 V c) :=
  (dat1 V c).arrAt_eq_of_cover 8 (GIN.tileSum (Z2 V c)) (fun t _ => s_flushed V c t) s_cover

/-- the second at the column sums of squares. -/
theorem q_final (c : Dev nD) : (dat1 V c).arrAt 9 cfg1.N = GIN.tileSumSq (Z2 V c) :=
  (dat1 V c).arrAt_eq_of_cover 9 (GIN.tileSumSq (Z2 V c)) (fun t _ => q_flushed V c t) q_cover

end Cert.KernelIdeal.Reg1

end
-- ==== Proof.KRegC.lean ====
/-
  The third kernel of a layer (normalise, scale, shift, clamp), as a function of the arrays it finds.

  The grid has 25 points. At point `t` the kernel reads rows `2000 t … 2000 t + 1999` of the `50000 × 300` input `z`, and the
  four `1 × 300` rows `μ`, `v`, `γ`, `β` whole, and writes rows `2000 t … 2000 t + 1999` of the output:
  `max ((z - μ) · (v + ε)^(-1/2) · γ + β) 0`, entry by entry, each column with its own `μ`, `v`, `γ`, `β`.
  The 25 tiles of rows are disjoint and fill the array, so after the last point the output array is that function of the
  input arrays at every index: `GIN.bnrelu`.
-/
import proofs.«144515_j12352325943894_2_alg».proof.Proof.FrameKI.R2
import proofs.«144515_j12352325943894_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-! ## The body at one entry of a block -/

/-- The body's result at row `p`, column `q` of a block: the block's entry, less the column's mean, times the
    inverse square root of the column's variance plus `ε`, times the column's scale, plus its shift, clamped at `0`.
    Widening the 16-bit entries is the identity over the extended reals; the four rows are repeated down the 2000 rows. -/
theorem pay_apply (x0 : Vec Ideal S2000x300 .bf16) (xv xm xg xb : Vec Ideal S1x300 .f32) (p : Fin 2000) (q : Fin 300) :
    k2_pay1 x0 xv xm xg xb (ix2 p q)
      = max ((x0 (ix2 p q) - xm (ix2 0 q)) * Ideal.rsqrt (xv (ix2 0 q) + GIN.cEps) * xg (ix2 0 q) + xb (ix2 0 q)) GIN.c0 := by
  unfold k2_pay1
  simp only [shapeCast_self]
  rw [maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-! ## Where the blocks sit in the arrays -/

theorem hz : (![0, 0] : Fin 2 → Nat) = fun _ => 0 := funext fun a => by fin_cases a <;> rfl

/-- The printed index maps over the 25 grid points: the two big windows sit at block `(t, 0)`, the four row
    windows at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- row `p` of tile `t` is row `2000 t + p` of the array -/
def row (t : Fin 25) (p : Fin 2000) : Fin 50000 := ⟨2000 * t.val + p.val, by have := t.isLt; have := p.isLt; omega⟩

/-- Entry `(p, q)` of the input's block at point `t` is entry `(2000 t + p, q)` of the array. -/
theorem emb0 (t : Fin cfg2.N) (p : Fin 2000) (q : Fin 300) :
    ((cfg2.win 0).blk t).view.emb (ix2 p q) = ix2 (row t p) q := by
  obtain ⟨e0, e1, -⟩ := idx_facts t
  funext a; apply Fin.ext
  match a with
  | ⟨0, _⟩ => show win2_0.index t (0 : Fin 2) * 2000 + 1 * p.val = 2000 * t.val + p.val; omega
  | ⟨1, _⟩ => show win2_0.index t (1 : Fin 2) * 300 + 1 * q.val = q.val; omega

/-- and so is entry `(p, q)` of the output's block. -/
theorem emb5 (t : Fin cfg2.N) (p : Fin 2000) (q : Fin 300) :
    ((cfg2.win 5).blk t).view.emb (ix2 p q) = ix2 (row t p) q := by
  obtain ⟨-, -, -, -, -, -, -, -, -, -, e0, e1⟩ := idx_facts t
  funext a; apply Fin.ext
  match a with
  | ⟨0, _⟩ => show win2_5.index t (0 : Fin 2) * 2000 + 1 * p.val = 2000 * t.val + p.val; omega
  | ⟨1, _⟩ => show win2_5.index t (1 : Fin 2) * 300 + 1 * q.val = q.val; omega

/-- Each row window's block is the whole row, at every point. -/
theorem emb1 (t : Fin cfg2.N) (q : Fin 300) :
    ((cfg2.win 1).blk t).view.emb (ix2 (0 : Fin 1) q) = ix2 (0 : Fin 1) q := by
  obtain ⟨-, -, e0, e1, -⟩ := idx_facts t
  funext a; apply Fin.ext
  match a with
  | ⟨0, _⟩ => show win2_1.index t (0 : Fin 2) * 1 + 1 * 0 = 0; omega
  | ⟨1, _⟩ => show win2_1.index t (1 : Fin 2) * 300 + 1 * q.val = q.val; omega

theorem emb2 (t : Fin cfg2.N) (q : Fin 300) :
    ((cfg2.win 2).blk t).view.emb (ix2 (0 : Fin 1) q) = ix2 (0 : Fin 1) q := by
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 300 + 1 * q.val = q.val; omega

theorem emb3 (t : Fin cfg2.N) (q : Fin 300) :
    ((cfg2.win 3).blk t).view.emb (ix2 (0 : Fin 1) q) = ix2 (0 : Fin 1) q := by
  obtain ⟨-, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 300 + 1 * q.val = q.val; omega

theorem emb4 (t : Fin cfg2.N) (q : Fin 300) :
    ((cfg2.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 300 + 1 * q.val = q.val; omega

/-- An index of the array is in point `t`'s block iff each coordinate is in the block's range on its axis. -/
theorem mem_blk (t : Fin cfg2.N) (i : S50000x300.Idx) :
    i ∈ ((cfg2.win 5).blk t).view.set ↔ ∀ a : Fin 2, win2_5.index t a * S2000x300.size a ≤ (i a).val ∧ (i a).val < win2_5.index t a * S2000x300.size a + S2000x300.size a := by
  show i ∈ ((View.whole main_v70).slice (win2_5.rect t)).set ↔ _
  rw [View.set_slice_whole, Rect.mem_set_unit]
  exact Iff.rfl

/-- Row `r` of the array lies in tile `r / 2000`, so the 25 blocks cover the array. -/
theorem cover (i : S50000x300.Idx) :
    ∃ t : Fin cfg2.N, (cfg2.win 5).flush t = true ∧ i ∈ ((cfg2.win 5).blk t).view.set := by
  have hi0 : (i 0).val < 50000 := (i 0).isLt
  have hi1 : (i 1).val < 300 := (i 1).isLt
  have ht : (i 0).val / 2000 < 25 := by omega
  refine ⟨⟨(i 0).val / 2000, ht⟩, flush2_5 _, ?_⟩
  rw [mem_blk]
  obtain ⟨-, -, -, -, -, -, -, -, -, -, e0, e1⟩ := idx_facts ⟨(i 0).val / 2000, ht⟩
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 300 ≤ (i 1).val ∧ (i 1).val < win2_5.index ⟨(i 0).val / 2000, ht⟩ (1 : Fin 2) * 300 + 300
    rw [e1]; omega

/-! ## The output array after the region -/

variable (V : (c : Dev nD) → (b : Ref sig .tc) → Buf (Elt Ideal) ((c : Thread nD τ).loc b))

/-- the input `z` as the region finds it -/
abbrev Zin (c : Dev nD) : GIN.Mat := V c (Pipeline.arrRef spec2 0)
/-- the four rows as the region finds them, read as per-column vectors -/
abbrev mu (c : Dev nD) : GIN.Col := fun j => V c (Pipeline.arrRef spec2 1) (ix2 0 (j 0))
abbrev va (c : Dev nD) : GIN.Col := fun j => V c (Pipeline.arrRef spec2 2) (ix2 0 (j 0))
abbrev ga (c : Dev nD) : GIN.Col := fun j => V c (Pipeline.arrRef spec2 3) (ix2 0 (j 0))
abbrev be (c : Dev nD) : GIN.Col := fun j => V c (Pipeline.arrRef spec2 4) (ix2 0 (j 0))

/-- What point `t` writes back is block `t` of `GIN.bnrelu` of the input arrays: the body's result at `(p, q)` reads
    the input at `(2000 t + p, q)` and the rows at `q`, and that is the output's index `(2000 t + p, q)`. -/
theorem flushed_eq (c : Dev nD) (t : Fin cfg2.N) :
    (dat2 V c).flushed 5 t
      = ((cfg2.win 5).blk t).view.read (Elt Ideal) (GIN.bnrelu (Zin V c) (mu V c) (va V c) (ga V c) (be V c)) := by
  show (cfg2.win 5).cut (grid2.coords t) ((dat2 V c).after 5 t) = _
  rw [after2_5]
  unfold out2_5
  rw [View.canon_unit_zero hz]
  simp only [View.ld_unit_zero (S := S2000x300) hz, View.ld_unit_zero (S := S1x300) hz]
  funext j
  obtain ⟨p, q, rfl⟩ : ∃ (p : Fin 2000) (q : Fin 300), j = ix2 p q := ⟨j 0, j 1, eq_ix2 j⟩
  show k2_pay1 (iblk2 V c 0 t) (iblk2 V c 2 t) (iblk2 V c 1 t) (iblk2 V c 3 t) (iblk2 V c 4 t) (ix2 p q)
    = GIN.bnrelu (Zin V c) (mu V c) (va V c) (ga V c) (be V c) (((cfg2.win 5).blk t).view.emb (ix2 p q))
  rw [pay_apply, emb5]
  have h0 : iblk2 V c 0 t (ix2 p q) = Zin V c (ix2 (row t p) q) := by
    show V c (Pipeline.arrRef spec2 0) (((cfg2.win 0).blk t).view.emb (ix2 p q)) = _
    rw [emb0]
  have h1 : iblk2 V c 1 t (ix2 0 q) = V c (Pipeline.arrRef spec2 1) (ix2 0 q) := by
    show V c (Pipeline.arrRef spec2 1) (((cfg2.win 1).blk t).view.emb (ix2 (0 : Fin 1) q)) = _
    rw [emb1]
  have h2 : iblk2 V c 2 t (ix2 0 q) = V c (Pipeline.arrRef spec2 2) (ix2 0 q) := by
    show V c (Pipeline.arrRef spec2 2) (((cfg2.win 2).blk t).view.emb (ix2 (0 : Fin 1) q)) = _
    rw [emb2]
  have h3 : iblk2 V c 3 t (ix2 0 q) = V c (Pipeline.arrRef spec2 3) (ix2 0 q) := by
    show V c (Pipeline.arrRef spec2 3) (((cfg2.win 3).blk t).view.emb (ix2 (0 : Fin 1) q)) = _
    rw [emb3]
  have h4 : iblk2 V c 4 t (ix2 0 q) = V c (Pipeline.arrRef spec2 4) (ix2 0 q) := by
    show V c (Pipeline.arrRef spec2 4) (((cfg2.win 4).blk t).view.emb (ix2 (0 : Fin 1) q)) = _
    rw [emb4]
  rw [h0, h1, h2, h3, h4]
  rfl

/-- THE OUTPUT ARRAY after the region: `max ((z - μ) · (v + ε)^(-1/2) · γ + β) 0` of the arrays the region finds. -/
theorem h_final (c : Dev nD) :
    (dat2 V c).arrAt 5 cfg2.N
      = GIN.bnrelu (V c (Pipeline.arrRef spec2 0))
          (fun j : GIN.SD.Idx => V c (Pipeline.arrRef spec2 1) (ix2 0 (j 0)))
          (fun j : GIN.SD.Idx => V c (Pipeline.arrRef spec2 2) (ix2 0 (j 0)))
          (fun j : GIN.SD.Idx => V c (Pipeline.arrRef spec2 3) (ix2 0 (j 0)))
          (fun j : GIN.SD.Idx => V c (Pipeline.arrRef spec2 4) (ix2 0 (j 0))) :=
  (dat2 V c).arrAt_eq_of_cover 5 (GIN.bnrelu (Zin V c) (mu V c) (va V c) (ga V c) (be V c))
    (fun t _ => flushed_eq V c t) cover

end Cert.KernelIdeal.Reg2

end
-- ==== Proof.KRegA3.lean ====
/-
  The first kernel of a layer (region 3): the affine map of the node features plus their neighbour aggregate, and the
  tiles' partial sums of its result and of its square.

  The rows are cut into 25 tiles of 2000.  At tile `t` the body reads rows `2000 t … 2000 t + 1999` of the features `X0`
  and of the aggregate `X1`, the whole 300 × 300 weight matrix `X2` and the bias row `X3`, and forms
  `z = (x0 + x1) · X2 + X3` on those rows: entry `(p, q)` is `Σ_k (x0 p k + x1 p k) · X2 k q + X3 0 q` (over the extended
  reals a change of float format is the identity, and the product into a zero accumulator is the plain sum).  It writes
  `z` to rows `2000 t …` of the first result, the column sums `Σ_p z p q` to each of rows `8 t … 8 t + 7` of the second,
  and the column sums of `z p q · z p q` to the same rows of the third.

  Row `n` of a 50000-row array lies in tile `n / 2000` only, row `p` of a 200-row array in tile `p / 8` only, so after
  the 25 tiles the three results are, index by index, `Z = GIN.lin (X0 + X1) X2 X3`, `GIN.tileSum Z` and `GIN.tileSumSq Z`.
-/
import proofs.«144515_j12352325943894_2_alg».proof.Proof.FrameKI.R3
import proofs.«144515_j12352325943894_2_alg».proof.Proof.Spec
import Idealize.ShloMosaic.Lib.ValueIdx
import Idealize.ShloMosaic.Lib.Pipeline.Value
import Idealize.ShloMosaic.PureOps.Ideal.Laws

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen

/-! ## The matrix product's operand indices, axis by axis -/

theorem lhs_axis0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_axis1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_axis0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_axis1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The product of a 2000×300 block by a 300×300 matrix into a zero accumulator, at row `p` and column `q`:
    the sum over the 300 shared coordinates. -/
theorem mm_apply (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) := by
  show FloatOps.matmul dot_S2000x300_S300x300_S2000x300_1_0_0_1_n_n none a b _ (ix2 p q) = _
  rw [Ideal.matmul_constant_zero_apply,
    ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q)
      ((contrEquiv1 dot_S2000x300_S300x300_S2000x300_1_0_0_1_n_n 300 rfl rfl).symm k) = ix2 p k :=
    funext fun ax => Fin.ext (by
      match ax with
      | ⟨0, _⟩ => exact lhs_axis0 _ _
      | ⟨1, _⟩ => exact (lhs_axis1 _ _).trans hk)
  have er : dot_S2000x300_S300x300_S2000x300_1_0_0_1_n_n.rhsIdx (ix2 p q)
      ((contrEquiv1 dot_S2000x300_S300x300_S2000x300_1_0_0_1_n_n 300 rfl rfl).symm k) = ix2 k q :=
    funext fun ax => Fin.ext (by
      match ax with
      | ⟨0, _⟩ => exact (rhs_axis0 _ _).trans hk
      | ⟨1, _⟩ => exact rhs_axis1 _ _)
  rw [el, er]

/-! ## The layout operations at an index -/

/-- A row vector spread over 2000 rows reads its entry of the same column. -/
theorem row2000_apply (x : S1x300.Idx → EReal) (h : S1x300.Broadcasts S2000x300) (p : Fin 2000) (q : Fin 300) :
    broadcastTo S2000x300 x h (ix2 p q) = x (ix2 0 q) :=
  broadcastTo_apply x h (ix2 p q) (ix2 0 q) (fun a => by
    match a with
    | ⟨0, _⟩ => rfl
    | ⟨1, _⟩ => rfl)

/-- A row vector spread over 8 rows reads its entry of the same column. -/
theorem row8_apply (x : S1x300.Idx → EReal) (h : S1x300.Broadcasts S8x300) (r : Fin 8) (q : Fin 300) :
    broadcastTo S8x300 x h (ix2 r q) = x (ix2 0 q) :=
  broadcastTo_apply x h (ix2 r q) (ix2 0 q) (fun a => by
    match a with
    | ⟨0, _⟩ => rfl
    | ⟨1, _⟩ => rfl)

/-- A vector of 300 viewed as one row reads the same entry. -/
theorem asRow_apply (x : S300.Idx → EReal) (h : S300.ShapeCasts S1x300) (q : Fin 300) :
    shapeCast S1x300 x h (ix2 0 q) = x (ix1 q) :=
  shapeCast_apply x h (ix2 0 q) (ix1 q) (by
    rw [Shape.rowMajor_val_one, Shape.rowMajor_val_two]
    show q.val = 0 * 300 + q.val
    omega)

/-- The sum over the 2000 rows of a block, column by column. -/
theorem colsum_apply (v : FVec Ideal S2000x300 .f32) (h : S2000x300.Reduces [0] S300) (hφ : FKind.Formats .f32)
    (hacc : (0x00000000#32 : BitVec 32) = FKind.add.neutral .f32 hφ) (q : Fin 300) :
    multiReduction .add [0] S300 v 0x00000000#32 h hφ hacc (ix1 q) = ∑ r : Fin 2000, v (ix2 r q) := by
  refine (Ideal.multiReduction_add_single v _ h hφ hacc (ix1 q)).trans ?_
  refine Finset.sum_congr rfl fun r _ => congrArg v ?_
  funext a
  apply Fin.ext
  match a with
  | ⟨0, _⟩ => rfl
  | ⟨1, _⟩ => rfl

/-! ## The body's three stored values at an index -/

/-- The affine map of the block's rows: row `p` of `x0 + x1` times column `q` of `x2`, plus the row vector's entry. -/
theorem pay1_apply (x0 x1 : Vec Ideal S2000x300 .f32) (x2 : Vec Ideal S300x300 .f32) (x3 : Vec Ideal S1x300 .f32)
    (p : Fin 2000) (q : Fin 300) :
    k3_pay1 (F := Ideal) x0 x1 x2 x3 (ix2 p q)
      = (∑ k : Fin 300, (x0 (ix2 p k) + x1 (ix2 p k)) * x2 (ix2 k q)) + x3 (ix2 0 q) := by
  unfold k3_pay1
  simp only [shapeCast_self]
  refine (addf_apply _ _ (ix2 p q)).trans ?_
  refine congrArg₂ (· + ·) ((mm_apply _ _ p q).trans ?_) (row2000_apply x3 _ p q)
  rfl

/-- The stored block in the narrower format is the same values. -/
theorem pay2_apply (x0 x1 : Vec Ideal S2000x300 .f32) (x2 : Vec Ideal S300x300 .f32) (x3 : Vec Ideal S1x300 .f32)
    (p : Fin 2000) (q : Fin 300) :
    k3_pay2 (F := Ideal) x0 x1 x2 x3 (ix2 p q)
      = (∑ k : Fin 300, (x0 (ix2 p k) + x1 (ix2 p k)) * x2 (ix2 k q)) + x3 (ix2 0 q) :=
  pay1_apply x0 x1 x2 x3 p q

/-- The block's column sums, on each of the 8 rows. -/
theorem pay3_apply (x0 x1 : Vec Ideal S2000x300 .f32) (x2 : Vec Ideal S300x300 .f32) (x3 : Vec Ideal S1x300 .f32)
    (r : Fin 8) (q : Fin 300) :
    k3_pay3 (F := Ideal) x0 x1 x2 x3 (ix2 r q) = ∑ p : Fin 2000, k3_pay1 (F := Ideal) x0 x1 x2 x3 (ix2 p q) := by
  unfold k3_pay3
  simp only [shapeCast_self]
  refine (row8_apply _ _ r q).trans ?_
  refine (asRow_apply _ _ q).trans ?_
  exact colsum_apply _ _ _ _ q

/-- The block's column sums of squares, on each of the 8 rows. -/
theorem pay4_apply (x0 x1 : Vec Ideal S2000x300 .f32) (x2 : Vec Ideal S300x300 .f32) (x3 : Vec Ideal S1x300 .f32)
    (r : Fin 8) (q : Fin 300) :
    k3_pay4 (F := Ideal) x0 x1 x2 x3 (ix2 r q)
      = ∑ p : Fin 2000, k3_pay1 (F := Ideal) x0 x1 x2 x3 (ix2 p q) * k3_pay1 (F := Ideal) x0 x1 x2 x3 (ix2 p q) := by
  unfold k3_pay4
  simp only [shapeCast_self]
  refine (row8_apply _ _ r q).trans ?_
  refine (asRow_apply _ _ q).trans ?_
  exact colsum_apply _ _ _ _ q

/-! ## The region's arrays, its blocks, and where a block sits in its array -/

section Arrays

variable (V : (c : Dev nD) → (b : Ref sig .tc) → Buf (Elt Ideal) ((c : Thread nD τ).loc b))

/-- the node features the region reads, 50000 × 300 -/
abbrev X0 (c : Dev nD) : GIN.Mat := V c (Pipeline.arrRef spec3 0)
/-- the neighbour aggregate, 50000 × 300 -/
abbrev X1 (c : Dev nD) : GIN.Mat := V c (Pipeline.arrRef spec3 1)
/-- the weight matrix, 300 × 300 -/
abbrev X2 (c : Dev nD) : GIN.Wt := V c (Pipeline.arrRef spec3 2)
/-- the bias, one row of 300 -/
abbrev X3 (c : Dev nD) : S1x300.Idx → EReal := V c (Pipeline.arrRef spec3 3)

/-- what the region computes: the affine map of `X0 + X1` -/
abbrev Z (c : Dev nD) : GIN.Mat :=
  GIN.lin (fun i => X0 V c i + X1 V c i) (X2 V c) (fun j => X3 V c (ix2 0 (j 0)))

/-- the four input windows' blocks at grid point `t` -/
abbrev B0 (c : Dev nD) (t : Fin cfg3.N) : Vec Ideal S2000x300 .f32 := iblk3 V c 0 t
abbrev B1 (c : Dev nD) (t : Fin cfg3.N) : Vec Ideal S2000x300 .f32 := iblk3 V c 1 t
abbrev B2 (c : Dev nD) (t : Fin cfg3.N) : Vec Ideal S300x300 .f32 := iblk3 V c 2 t
abbrev B3 (c : Dev nD) (t : Fin cfg3.N) : Vec Ideal S1x300 .f32 := iblk3 V c 3 t

theorem hz : (![0, 0] : Fin 2 → Nat) = fun _ => 0 := funext fun a => by
  match a with
  | ⟨0, _⟩ => rfl
  | ⟨1, _⟩ => rfl

/-- The index maps over the 25 grid points: the two big inputs and the three outputs move down one block per point,
    the weight matrix and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of the features' block at point `t` is row `2000 t + p` of the array. -/
theorem B0_apply (c : Dev nD) (t : Fin cfg3.N) (p : Fin 2000) (q : Fin 300) (n : Fin 50000)
    (hn : n.val = 2000 * t.val + p.val) : B0 V c t (ix2 p q) = X0 V c (ix2 n q) := by
  obtain ⟨e0, e1, -⟩ := idx_facts t
  show V c (Pipeline.arrRef spec3 0) (((cfg3.win 0).blk t).view.emb (ix2 p q)) = V c (Pipeline.arrRef spec3 0) (ix2 n q)
  refine congrArg _ (funext fun a => Fin.ext ?_)
  match a with
  | ⟨0, _⟩ => show win3_0.index t (0 : Fin 2) * 2000 + 1 * p.val = n.val; rw [e0, hn]; omega
  | ⟨1, _⟩ => show win3_0.index t (1 : Fin 2) * 300 + 1 * q.val = q.val; rw [e1]; omega

/-- The same for the aggregate's block. -/
theorem B1_apply (c : Dev nD) (t : Fin cfg3.N) (p : Fin 2000) (q : Fin 300) (n : Fin 50000)
    (hn : n.val = 2000 * t.val + p.val) : B1 V c t (ix2 p q) = X1 V c (ix2 n q) := by
  obtain ⟨-, -, e0, e1, -⟩ := idx_facts t
  show V c (Pipeline.arrRef spec3 1) (((cfg3.win 1).blk t).view.emb (ix2 p q)) = V c (Pipeline.arrRef spec3 1) (ix2 n q)
  refine congrArg _ (funext fun a => Fin.ext ?_)
  match a with
  | ⟨0, _⟩ => show win3_1.index t (0 : Fin 2) * 2000 + 1 * p.val = n.val; rw [e0, hn]; omega
  | ⟨1, _⟩ => show win3_1.index t (1 : Fin 2) * 300 + 1 * q.val = q.val; rw [e1]; omega

/-- The weight matrix's block is the whole matrix at every point. -/
theorem B2_apply (c : Dev nD) (t : Fin cfg3.N) (k q : Fin 300) : B2 V c t (ix2 k q) = X2 V c (ix2 k q) := by
  obtain ⟨-, -, -, -, e0, e1, -⟩ := idx_facts t
  show V c (Pipeline.arrRef spec3 2) (((cfg3.win 2).blk t).view.emb (ix2 k q)) = V c (Pipeline.arrRef spec3 2) (ix2 k q)
  refine congrArg _ (funext fun a => Fin.ext ?_)
  match a with
  | ⟨0, _⟩ => show win3_2.index t (0 : Fin 2) * 300 + 1 * k.val = k.val; rw [e0]; omega
  | ⟨1, _⟩ => show win3_2.index t (1 : Fin 2) * 300 + 1 * q.val = q.val; rw [e1]; omega

/-- The bias's block is the whole row at every point. -/
theorem B3_apply (c : Dev nD) (t : Fin cfg3.N) (q : Fin 300) : B3 V c t (ix2 0 q) = X3 V c (ix2 0 q) := by
  obtain ⟨-, -, -, -, -, -, e0, e1, -⟩ := idx_facts t
  show V c (Pipeline.arrRef spec3 3) (((cfg3.win 3).blk t).view.emb (ix2 0 q)) = V c (Pipeline.arrRef spec3 3) (ix2 0 q)
  refine congrArg _ (funext fun a => Fin.ext ?_)
  match a with
  | ⟨0, _⟩ => show win3_3.index t (0 : Fin 2) * 1 + 1 * 0 = 0; rw [e0]
  | ⟨1, _⟩ => show win3_3.index t (1 : Fin 2) * 300 + 1 * q.val = q.val; rw [e1]; omega

/-! ## The body's values on the blocks are the network's values on the arrays -/

/-- Row `p` of the affine map of the blocks at point `t` is row `2000 t + p` of `Z`. -/
theorem pay1_block (c : Dev nD) (t : Fin cfg3.N) (p : Fin 2000) (q : Fin 300) (n : Fin 50000)
    (hn : n.val = 2000 * t.val + p.val) :
    k3_pay1 (F := Ideal) (B0 V c t) (B1 V c t) (B2 V c t) (B3 V c t) (ix2 p q) = Z V c (ix2 n q) := by
  refine (pay1_apply _ _ _ _ p q).trans ?_
  show _ = (∑ k : Fin 300, (X0 V c (ix2 n k) + X1 V c (ix2 n k)) * X2 V c (ix2 k q)) + X3 V c (ix2 0 q)
  refine congrArg₂ (· + ·) (Finset.sum_congr rfl fun k _ => ?_) (B3_apply V c t q)
  rw [B0_apply V c t p k n hn, B1_apply V c t p k n hn, B2_apply V c t k q]

/-- The stored block of window 4, entry by entry. -/
theorem out4_at (c : Dev nD) (t : Fin cfg3.N) (j : S2000x300.Idx) (n : Fin 50000)
    (hn : n.val = 2000 * t.val + (j 0).val) :
    k3_pay2 (F := Ideal) (B0 V c t) (B1 V c t) (B2 V c t) (B3 V c t) j = Z V c (ix2 n (j 1)) := by
  obtain ⟨p, q, rfl⟩ : ∃ (p : Fin 2000) (q : Fin 300), j = ix2 p q := ⟨j 0, j 1, eq_ix2 j⟩
  exact pay1_block V c t p q n hn

/-- The stored block of window 5: each of its 8 rows is the tile's column sums of `Z`. -/
theorem out5_at (c : Dev nD) (t : Fin cfg3.N) (j : S8x300.Idx) (s : Fin 200)
    (hs : s.val = 8 * t.val + (j 0).val) :
    k3_pay3 (F := Ideal) (B0 V c t) (B1 V c t) (B2 V c t) (B3 V c t) j = GIN.tileSum (Z V c) (ix2 s (j 1)) := by
  obtain ⟨r, q, rfl⟩ : ∃ (r : Fin 8) (q : Fin 300), j = ix2 r q := ⟨j 0, j 1, eq_ix2 j⟩
  refine (pay3_apply _ _ _ _ r q).trans ?_
  show _ = ∑ p : Fin 2000, Z V c (ix2 (GIN.tileRow s p) q)
  refine Finset.sum_congr rfl fun p _ => pay1_block V c t p q (GIN.tileRow s p) ?_
  show 2000 * (s.val / 8) + p.val = 2000 * t.val + p.val
  have hr : r.val < 8 := r.isLt
  have hs' : s.val = 8 * t.val + r.val := hs
  omega

/-- The stored block of window 6: each of its 8 rows is the tile's column sums of the squares of `Z`. -/
theorem out6_at (c : Dev nD) (t : Fin cfg3.N) (j : S8x300.Idx) (s : Fin 200)
    (hs : s.val = 8 * t.val + (j 0).val) :
    k3_pay4 (F := Ideal) (B0 V c t) (B1 V c t) (B2 V c t) (B3 V c t) j = GIN.tileSumSq (Z V c) (ix2 s (j 1)) := by
  obtain ⟨r, q, rfl⟩ : ∃ (r : Fin 8) (q : Fin 300), j = ix2 r q := ⟨j 0, j 1, eq_ix2 j⟩
  refine (pay4_apply _ _ _ _ r q).trans ?_
  show _ = ∑ p : Fin 2000, Z V c (ix2 (GIN.tileRow s p) q) * Z V c (ix2 (GIN.tileRow s p) q)
  have hr : r.val < 8 := r.isLt
  have hs' : s.val = 8 * t.val + r.val := hs
  refine Finset.sum_congr rfl fun p _ => ?_
  have e := pay1_block V c t p q (GIN.tileRow s p) (by
    show 2000 * (s.val / 8) + p.val = 2000 * t.val + p.val
    omega)
  rw [e]

/-! ## What each grid point writes back, and the arrays after the region -/

/-- Point `t` writes back rows `2000 t … 2000 t + 1999` of `Z`. -/
theorem flushed4_eq (c : Dev nD) (t : Fin cfg3.N) :
    (dat3 V c).flushed 4 t = ((cfg3.win 4).blk t).view.read (Elt Ideal) (Z V c) := by
  show (cfg3.win 4).cut (grid3.coords t) ((dat3 V c).after 4 t) = _
  rw [after3_4]
  unfold out3_4
  rw [View.canon_unit_zero hz]
  simp only [View.ld_unit_zero (S := S2000x300) hz, View.ld_unit_zero (S := S300x300) hz, View.ld_unit_zero (S := S1x300) hz]
  obtain ⟨-, -, -, -, -, -, -, -, e0, e1, -⟩ := idx_facts t
  have ht : t.val < 25 := t.isLt
  funext j
  have hj : (j 0).val < 2000 := (j 0).isLt
  show k3_pay2 (F := Ideal) (B0 V c t) (B1 V c t) (B2 V c t) (B3 V c t) j = Z V c (((cfg3.win 4).blk t).view.emb j)
  refine (out4_at V c t j ⟨2000 * t.val + (j 0).val, by omega⟩ rfl).trans ?_
  refine congrArg (Z V c) (funext fun a => Fin.ext ?_)
  match a with
  | ⟨0, _⟩ => show 2000 * t.val + (j 0).val = win3_4.index t (0 : Fin 2) * 2000 + 1 * (j 0).val; rw [e0]; omega
  | ⟨1, _⟩ => show (j 1).val = win3_4.index t (1 : Fin 2) * 300 + 1 * (j 1).val; rw [e1]; omega

/-- Point `t` writes back rows `8 t … 8 t + 7` of the tiles' column sums. -/
theorem flushed5_eq (c : Dev nD) (t : Fin cfg3.N) :
    (dat3 V c).flushed 5 t = ((cfg3.win 5).blk t).view.read (Elt Ideal) (GIN.tileSum (Z V c)) := by
  show (cfg3.win 5).cut (grid3.coords t) ((dat3 V c).after 5 t) = _
  rw [after3_5]
  unfold out3_5
  rw [View.canon_unit_zero hz]
  simp only [View.ld_unit_zero (S := S2000x300) hz, View.ld_unit_zero (S := S300x300) hz, View.ld_unit_zero (S := S1x300) hz]
  obtain ⟨-, -, -, -, -, -, -, -, -, -, e0, e1, -⟩ := idx_facts t
  have ht : t.val < 25 := t.isLt
  funext j
  have hj : (j 0).val < 8 := (j 0).isLt
  show k3_pay3 (F := Ideal) (B0 V c t) (B1 V c t) (B2 V c t) (B3 V c t) j = GIN.tileSum (Z V c) (((cfg3.win 5).blk t).view.emb j)
  refine (out5_at V c t j ⟨8 * t.val + (j 0).val, by omega⟩ rfl).trans ?_
  refine congrArg (GIN.tileSum (Z V c)) (funext fun a => Fin.ext ?_)
  match a with
  | ⟨0, _⟩ => show 8 * t.val + (j 0).val = win3_5.index t (0 : Fin 2) * 8 + 1 * (j 0).val; rw [e0]; omega
  | ⟨1, _⟩ => show (j 1).val = win3_5.index t (1 : Fin 2) * 300 + 1 * (j 1).val; rw [e1]; omega

/-- Point `t` writes back rows `8 t … 8 t + 7` of the tiles' column sums of squares. -/
theorem flushed6_eq (c : Dev nD) (t : Fin cfg3.N) :
    (dat3 V c).flushed 6 t = ((cfg3.win 6).blk t).view.read (Elt Ideal) (GIN.tileSumSq (Z V c)) := by
  show (cfg3.win 6).cut (grid3.coords t) ((dat3 V c).after 6 t) = _
  rw [after3_6]
  unfold out3_6
  rw [View.canon_unit_zero hz]
  simp only [View.ld_unit_zero (S := S2000x300) hz, View.ld_unit_zero (S := S300x300) hz, View.ld_unit_zero (S := S1x300) hz]
  obtain ⟨-, -, -, -, -, -, -, -, -, -, -, -, e0, e1⟩ := idx_facts t
  have ht : t.val < 25 := t.isLt
  funext j
  have hj : (j 0).val < 8 := (j 0).isLt
  show k3_pay4 (F := Ideal) (B0 V c t) (B1 V c t) (B2 V c t) (B3 V c t) j = GIN.tileSumSq (Z V c) (((cfg3.win 6).blk t).view.emb j)
  refine (out6_at V c t j ⟨8 * t.val + (j 0).val, by omega⟩ rfl).trans ?_
  refine congrArg (GIN.tileSumSq (Z V c)) (funext fun a => Fin.ext ?_)
  match a with
  | ⟨0, _⟩ => show 8 * t.val + (j 0).val = win3_6.index t (0 : Fin 2) * 8 + 1 * (j 0).val; rw [e0]; omega
  | ⟨1, _⟩ => show (j 1).val = win3_6.index t (1 : Fin 2) * 300 + 1 * (j 1).val; rw [e1]; omega

/-- An index of the 50000 × 300 array lies in point `t`'s block of window 4 iff each coordinate is in the block's range. -/
theorem mem_blk4 (t : Fin cfg3.N) (i : S50000x300.Idx) :
    i ∈ ((cfg3.win 4).blk t).view.set ↔ ∀ a : Fin 2, win3_4.index t a * S2000x300.size a ≤ (i a).val
      ∧ (i a).val < win3_4.index t a * S2000x300.size a + S2000x300.size a := by
  show i ∈ ((View.whole main_v86_0).slice (win3_4.rect t)).set ↔ _
  rw [View.set_slice_whole, Rect.mem_set_unit]
  exact Iff.rfl

theorem mem_blk5 (t : Fin cfg3.N) (i : S200x300.Idx) :
    i ∈ ((cfg3.win 5).blk t).view.set ↔ ∀ a : Fin 2, win3_5.index t a * S8x300.size a ≤ (i a).val
      ∧ (i a).val < win3_5.index t a * S8x300.size a + S8x300.size a := by
  show i ∈ ((View.whole main_v86_1).slice (win3_5.rect t)).set ↔ _
  rw [View.set_slice_whole, Rect.mem_set_unit]
  exact Iff.rfl

theorem mem_blk6 (t : Fin cfg3.N) (i : S200x300.Idx) :
    i ∈ ((cfg3.win 6).blk t).view.set ↔ ∀ a : Fin 2, win3_6.index t a * S8x300.size a ≤ (i a).val
      ∧ (i a).val < win3_6.index t a * S8x300.size a + S8x300.size a := by
  show i ∈ ((View.whole main_v86_2).slice (win3_6.rect t)).set ↔ _
  rw [View.set_slice_whole, Rect.mem_set_unit]
  exact Iff.rfl

/-- Row `n` of the 50000 × 300 array lies in the block of point `n / 2000`. -/
theorem cover4 (i : S50000x300.Idx) : ∃ t : Fin cfg3.N, (cfg3.win 4).flush t = true ∧ i ∈ ((cfg3.win 4).blk t).view.set := by
  have h0 : (i 0).val < 50000 := (i 0).isLt
  have h1 : (i 1).val < 300 := (i 1).isLt
  refine ⟨⟨(i 0).val / 2000, by show (i 0).val / 2000 < 25; omega⟩, flush3_4 _, ?_⟩
  rw [mem_blk4]
  obtain ⟨-, -, -, -, -, -, -, -, e0, e1, -⟩ := idx_facts ⟨(i 0).val / 2000, by show (i 0).val / 2000 < 25; omega⟩
  intro a
  match a with
  | ⟨0, _⟩ =>
    show win3_4.index _ (0 : Fin 2) * 2000 ≤ (i 0).val ∧ (i 0).val < win3_4.index _ (0 : Fin 2) * 2000 + 2000
    rw [e0]; show (i 0).val / 2000 * 2000 ≤ (i 0).val ∧ (i 0).val < (i 0).val / 2000 * 2000 + 2000; omega
  | ⟨1, _⟩ =>
    show win3_4.index _ (1 : Fin 2) * 300 ≤ (i 1).val ∧ (i 1).val < win3_4.index _ (1 : Fin 2) * 300 + 300
    rw [e1]; omega

/-- Row `p` of the 200 × 300 array lies in the block of point `p / 8`. -/
theorem cover5 (i : S200x300.Idx) : ∃ t : Fin cfg3.N, (cfg3.win 5).flush t = true ∧ i ∈ ((cfg3.win 5).blk t).view.set := by
  have h0 : (i 0).val < 200 := (i 0).isLt
  have h1 : (i 1).val < 300 := (i 1).isLt
  refine ⟨⟨(i 0).val / 8, by show (i 0).val / 8 < 25; omega⟩, flush3_5 _, ?_⟩
  rw [mem_blk5]
  obtain ⟨-, -, -, -, -, -, -, -, -, -, e0, e1, -⟩ := idx_facts ⟨(i 0).val / 8, by show (i 0).val / 8 < 25; omega⟩
  intro a
  match a with
  | ⟨0, _⟩ =>
    show win3_5.index _ (0 : Fin 2) * 8 ≤ (i 0).val ∧ (i 0).val < win3_5.index _ (0 : Fin 2) * 8 + 8
    rw [e0]; show (i 0).val / 8 * 8 ≤ (i 0).val ∧ (i 0).val < (i 0).val / 8 * 8 + 8; omega
  | ⟨1, _⟩ =>
    show win3_5.index _ (1 : Fin 2) * 300 ≤ (i 1).val ∧ (i 1).val < win3_5.index _ (1 : Fin 2) * 300 + 300
    rw [e1]; omega

theorem cover6 (i : S200x300.Idx) : ∃ t : Fin cfg3.N, (cfg3.win 6).flush t = true ∧ i ∈ ((cfg3.win 6).blk t).view.set := by
  have h0 : (i 0).val < 200 := (i 0).isLt
  have h1 : (i 1).val < 300 := (i 1).isLt
  refine ⟨⟨(i 0).val / 8, by show (i 0).val / 8 < 25; omega⟩, flush3_6 _, ?_⟩
  rw [mem_blk6]
  obtain ⟨-, -, -, -, -, -, -, -, -, -, -, -, e0, e1⟩ := idx_facts ⟨(i 0).val / 8, by show (i 0).val / 8 < 25; omega⟩
  intro a
  match a with
  | ⟨0, _⟩ =>
    show win3_6.index _ (0 : Fin 2) * 8 ≤ (i 0).val ∧ (i 0).val < win3_6.index _ (0 : Fin 2) * 8 + 8
    rw [e0]; show (i 0).val / 8 * 8 ≤ (i 0).val ∧ (i 0).val < (i 0).val / 8 * 8 + 8; omega
  | ⟨1, _⟩ =>
    show win3_6.index _ (1 : Fin 2) * 300 ≤ (i 1).val ∧ (i 1).val < win3_6.index _ (1 : Fin 2) * 300 + 300
    rw [e1]; omega

/-- After the region the first output array holds `Z`. -/
theorem z_final (c : Dev nD) : (dat3 V c).arrAt 4 cfg3.N = Z V c :=
  (dat3 V c).arrAt_eq_of_cover 4 (Z V c) (fun t _ => flushed4_eq V c t) cover4

/-- After the region the second output array holds the tiles' column sums of `Z`, each tile's on 8 rows. -/
theorem s_final (c : Dev nD) : (dat3 V c).arrAt 5 cfg3.N = GIN.tileSum (Z V c) :=
  (dat3 V c).arrAt_eq_of_cover 5 (GIN.tileSum (Z V c)) (fun t _ => flushed5_eq V c t) cover5

/-- After the region the third output array holds the tiles' column sums of the squares of `Z`. -/
theorem q_final (c : Dev nD) : (dat3 V c).arrAt 6 cfg3.N = GIN.tileSumSq (Z V c) :=
  (dat3 V c).arrAt_eq_of_cover 6 (GIN.tileSumSq (Z V c)) (fun t _ => flushed6_eq V c t) cover6

end Arrays

end Cert.KernelIdeal.Reg3

end
-- ==== Proof.KRegB4.lean ====
/-
  The second kernel of a layer, on the arrays it finds.  With `z` the 50000 × 300 features, `μ` and `v` the column
  statistics, `γ` and `β` the normalisation's parameters and `W`, `b` an affine map, its three output arrays end holding

      Z2 = max ((z - μ) · (v + ε)^(-1/2) · γ + β) 0 · W + b,

  and, for each of the 25 tiles of 2000 rows, on 8 identical rows per tile, the tile's column sums of `Z2` and of `Z2 · Z2`.

  The kernel visits the tiles in order.  At tile `t` it reads rows `2000 t …` of `z` and the small arrays whole, forms the
  2000 × 300 block of `Z2` by one block product, and writes the block and its two rows of column sums.  Read at one entry,
  the block product is the sum over the 300 contracted coordinates and a lane sum is the sum over the block's 2000 rows;
  an entry of a block is the entry of the array at block index × block size + its own coordinate; the blocks tile the arrays.
-/
import proofs.«144515_j12352325943894_2_alg».proof.Proof.Spec
import proofs.«144515_j12352325943894_2_alg».proof.Proof.FrameKI.R4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.ShloMosaic.ValueIdx
open Idealize.ShloMosaic.Pipeline (Dat)
open Cert.KernelIdeal Cert.KernelIdeal.Gen

/-! ## The block product at an index -/

theorem lhs_mm_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_mm_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_mm_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_mm_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The block product into the zero splat, at row `p` and column `q`: the sum over the 300 contracted coordinates. -/
theorem mm_apply (a : FVec Ideal S2000x300 .bf16) (w : FVec Ideal S300x300 .bf16) (p : Fin 2000) (q : Fin 300) :
    matmul dot_S2000x300_S300x300_S2000x300_1_0_0_1_n_n none a w (constant (F := Ideal) S2000x300 .f32 0x00000000#32) (ix2 p q)
      = ∑ k : Fin 300, a (ix2 p k) * w (ix2 k q) := by
  simp only [matmul]
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k :=
    funext fun a => Fin.ext (by
      match a with
      | ⟨0, _⟩ => exact lhs_mm_0 _ _
      | ⟨1, _⟩ => exact (lhs_mm_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q :=
    funext fun a => Fin.ext (by
      match a with
      | ⟨0, _⟩ => exact (rhs_mm_0 _ _).trans hk
      | ⟨1, _⟩ => exact rhs_mm_1 _ _)
  rw [el, er]

/-! ## The payload at an index -/

/-- The affine image of the normalised, rectified block, at row `p` and column `q` of the block. -/
theorem pay3_apply (x0 : Vec Ideal S2000x300 .bf16) (xv xm xg xb : Vec Ideal S1x300 .f32) (xW : Vec Ideal S300x300 .f32)
    (xc : Vec Ideal S1x300 .f32) (p : Fin 2000) (q : Fin 300) :
    k4_pay3 x0 xv xm xg xb xW xc (ix2 p q)
      = (∑ k : Fin 300, max ((x0 (ix2 p k) - xm (ix2 0 k)) * Ideal.rsqrt (xv (ix2 0 k) + Ideal.ofBits .f32 0x3727C5AC#32) * xg (ix2 0 k)
            + xb (ix2 0 k)) (Ideal.ofBits .f32 0x00000000#32) * xW (ix2 k q)) + xc (ix2 0 q) := by
  unfold k4_pay3
  simp only [shapeCast_self]
  rw [addf_apply, mm_apply, broadcastTo_1b_ab_apply]
  refine congrArg (· + _) (Finset.sum_congr rfl fun k _ => ?_)
  rw [truncf_apply, truncf_apply, maximumf_apply, addf_apply, mulf_apply, mulf_apply, subf_apply, extf_apply,
    broadcastTo_1b_ab_apply, broadcastTo_1b_ab_apply, broadcastTo_1b_ab_apply, broadcastTo_1b_ab_apply]
  rfl

/-- A sum over the block's 2000 rows, read at column `q`. -/
theorem colsum_apply (src : FVec Ideal S2000x300 .f32) (h : S2000x300.Reduces [0] S300) (hφ : FKind.Formats .f32)
    (hacc : (0x00000000#32 : BitVec FTy.f32.bits) = FKind.add.neutral .f32 hφ) (q : Fin 300) :
    multiReduction (F := Ideal) .add [0] S300 src 0x00000000#32 h hφ hacc (ix1 q) = ∑ p : Fin 2000, src (ix2 p q) := by
  refine (Ideal.multiReduction_add_single src 0x00000000#32 h hφ hacc (ix1 q)).trans ?_
  show ∑ p : Fin 2000, src (h.lift (ix1 q) p) = _
  refine Finset.sum_congr rfl fun p _ => congrArg src ?_
  funext a
  match a with
  | ⟨0, _⟩ => rfl
  | ⟨1, _⟩ => rfl

/-- The first partial-sum block: every one of its 8 rows holds the block's column sums. -/
theorem sum_pay_apply (x0 : Vec Ideal S2000x300 .bf16) (xv xm xg xb : Vec Ideal S1x300 .f32) (xW : Vec Ideal S300x300 .f32)
    (xc : Vec Ideal S1x300 .f32) (r : Fin 8) (q : Fin 300) :
    k4_pay1 (k4_pay5 x0 xv xm xg xb xW xc) (ix2 r q) = ∑ p : Fin 2000, k4_pay3 x0 xv xm xg xb xW xc (ix2 p q) := by
  unfold k4_pay1 k4_pay5
  simp only [shapeCast_self]
  rw [broadcastTo_1b_ab_apply, shapeCast_a_1a_apply]
  exact colsum_apply _ _ _ _ q

/-- The second: every row holds the column sums of the squares. -/
theorem sq_pay_apply (x0 : Vec Ideal S2000x300 .bf16) (xv xm xg xb : Vec Ideal S1x300 .f32) (xW : Vec Ideal S300x300 .f32)
    (xc : Vec Ideal S1x300 .f32) (r : Fin 8) (q : Fin 300) :
    k4_pay2 (k4_pay6 x0 xv xm xg xb xW xc) (ix2 r q)
      = ∑ p : Fin 2000, k4_pay3 x0 xv xm xg xb xW xc (ix2 p q) * k4_pay3 x0 xv xm xg xb xW xc (ix2 p q) := by
  unfold k4_pay2 k4_pay6
  simp only [shapeCast_self]
  rw [broadcastTo_1b_ab_apply, shapeCast_a_1a_apply]
  exact colsum_apply _ _ _ _ q

/-! ## A block's payload as rows of the whole-array function -/

/-- Where the loaded blocks are row `n` of the features and the whole small arrays, the payload at `(p, q)` is the
    normalised, rectified features' affine image at `(n, q)`. -/
theorem z_point (Zin : GIN.Mat) (mu v g be : GIN.Col) (W : GIN.Wt) (b : GIN.Col)
    (x0 : Vec Ideal S2000x300 .bf16) (xm xv xg xb : Vec Ideal S1x300 .f32) (xW : Vec Ideal S300x300 .f32)
    (xc : Vec Ideal S1x300 .f32) (p : Fin 2000) (q : Fin 300) (n : Fin 50000)
    (h0 : ∀ k : Fin 300, x0 (ix2 p k) = Zin (ix2 n k))
    (hm : ∀ k : Fin 300, xm (ix2 0 k) = mu (ix1 k)) (hv : ∀ k : Fin 300, xv (ix2 0 k) = v (ix1 k))
    (hg : ∀ k : Fin 300, xg (ix2 0 k) = g (ix1 k)) (hb : ∀ k : Fin 300, xb (ix2 0 k) = be (ix1 k))
    (hW : ∀ k j : Fin 300, xW (ix2 k j) = W (ix2 k j)) (hc : ∀ k : Fin 300, xc (ix2 0 k) = b (ix1 k)) :
    k4_pay3 x0 xv xm xg xb xW xc (ix2 p q) = GIN.lin (GIN.bnrelu Zin mu v g be) W b (ix2 n q) := by
  rw [pay3_apply]
  unfold GIN.lin GIN.bnrelu GIN.cEps GIN.c0
  simp only [h0, hm, hv, hg, hb, hW, hc]

/-! ## The region's arrays -/

variable (V : (c : Dev nD) → (b : Ref sig .tc) → Buf (Elt Ideal) ((c : Thread nD τ).loc b))

/-- The arrays the region reads, as it finds them: the features, the column statistics and parameters, the weights. -/
abbrev zIn (c : Dev nD) : GIN.Mat := V c (Pipeline.arrRef spec4 0)
abbrev muIn (c : Dev nD) : GIN.Col := fun j => (V c (Pipeline.arrRef spec4 1) : S1x300.Idx → EReal) (ix2 0 (j 0))
abbrev varIn (c : Dev nD) : GIN.Col := fun j => (V c (Pipeline.arrRef spec4 2) : S1x300.Idx → EReal) (ix2 0 (j 0))
abbrev gIn (c : Dev nD) : GIN.Col := fun j => (V c (Pipeline.arrRef spec4 3) : S1x300.Idx → EReal) (ix2 0 (j 0))
abbrev beIn (c : Dev nD) : GIN.Col := fun j => (V c (Pipeline.arrRef spec4 4) : S1x300.Idx → EReal) (ix2 0 (j 0))
abbrev wIn (c : Dev nD) : GIN.Wt := V c (Pipeline.arrRef spec4 5)
abbrev bIn (c : Dev nD) : GIN.Col := fun j => (V c (Pipeline.arrRef spec4 6) : S1x300.Idx → EReal) (ix2 0 (j 0))

/-- What the region computes: the normalised, rectified features' affine image. -/
abbrev Z2 (c : Dev nD) : GIN.Mat :=
  GIN.lin (GIN.bnrelu (zIn V c) (muIn V c) (varIn V c) (gIn V c) (beIn V c)) (wIn V c) (bIn V c)

theorem hz : (![0, 0] : Fin 2 → Nat) = fun _ => 0 := funext fun a => by fin_cases a <;> rfl

/-- The index maps over the 25 points: the row-blocked windows sit at block `(t, 0)`, the whole-array ones at `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-! ## The input blocks as parts of the arrays -/

/-- Row `p` of the features' block at point `t` is row `2000 t + p` of the features. -/
theorem z_blk (c : Dev nD) (t : Fin cfg4.N) (p : Fin 2000) (q : Fin 300) (n : Fin 50000) (hn : n.val = 2000 * t.val + p.val) :
    (iblk4 V c 0 t : Vec Ideal S2000x300 .bf16) (ix2 p q) = zIn V c (ix2 n q) := by
  obtain ⟨e0, e1, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = n.val; rw [e0, hn]; omega
  | ⟨1, _⟩ => show win4_0.index t (1 : Fin 2) * 300 + 1 * q.val = q.val; rw [e1]; omega

/-- The one-row windows hold their whole arrays at every point: the column means, -/
theorem mu_blk (c : Dev nD) (t : Fin cfg4.N) (k : Fin 300) :
    (iblk4 V c 1 t : Vec Ideal S1x300 .f32) (ix2 0 k) = muIn V c (ix1 k) := by
  obtain ⟨-, -, e0, e1, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1 + 1 * 0 = 0; rw [e0]
  | ⟨1, _⟩ => show win4_1.index t (1 : Fin 2) * 300 + 1 * k.val = k.val; rw [e1]; omega

/-- the column variances, -/
theorem var_blk (c : Dev nD) (t : Fin cfg4.N) (k : Fin 300) :
    (iblk4 V c 2 t : Vec Ideal S1x300 .f32) (ix2 0 k) = varIn V c (ix1 k) := by
  obtain ⟨-, -, -, -, e0, e1, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = 0; rw [e0]
  | ⟨1, _⟩ => show win4_2.index t (1 : Fin 2) * 300 + 1 * k.val = k.val; rw [e1]; omega

/-- the scales, -/
theorem g_blk (c : Dev nD) (t : Fin cfg4.N) (k : Fin 300) :
    (iblk4 V c 3 t : Vec Ideal S1x300 .f32) (ix2 0 k) = gIn V c (ix1 k) := by
  obtain ⟨-, -, -, -, -, -, e0, e1, -⟩ := idx_facts t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * 0 = 0; rw [e0]
  | ⟨1, _⟩ => show win4_3.index t (1 : Fin 2) * 300 + 1 * k.val = k.val; rw [e1]; omega

/-- the shifts, -/
theorem be_blk (c : Dev nD) (t : Fin cfg4.N) (k : Fin 300) :
    (iblk4 V c 4 t : Vec Ideal S1x300 .f32) (ix2 0 k) = beIn V c (ix1 k) := by
  obtain ⟨-, -, -, -, -, -, -, -, e0, e1, -⟩ := idx_facts t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * 0 = 0; rw [e0]
  | ⟨1, _⟩ => show win4_4.index t (1 : Fin 2) * 300 + 1 * k.val = k.val; rw [e1]; omega

/-- the affine map's vector, -/
theorem b_blk (c : Dev nD) (t : Fin cfg4.N) (k : Fin 300) :
    (iblk4 V c 6 t : Vec Ideal S1x300 .f32) (ix2 0 k) = bIn V c (ix1 k) := by
  obtain ⟨-, -, -, -, -, -, -, -, -, -, -, -, e0, e1, -⟩ := idx_facts t
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 1 + 1 * 0 = 0; rw [e0]
  | ⟨1, _⟩ => show win4_6.index t (1 : Fin 2) * 300 + 1 * k.val = k.val; rw [e1]; omega

/-- and the weights' window holds the whole matrix. -/
theorem w_blk (c : Dev nD) (t : Fin cfg4.N) (k j : Fin 300) :
    (iblk4 V c 5 t : Vec Ideal S300x300 .f32) (ix2 k j) = wIn V c (ix2 k j) := by
  obtain ⟨-, -, -, -, -, -, -, -, -, -, e0, e1, -⟩ := idx_facts t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 300 + 1 * k.val = k.val; rw [e0]; omega
  | ⟨1, _⟩ => show win4_5.index t (1 : Fin 2) * 300 + 1 * j.val = j.val; rw [e1]; omega

/-- The payload of point `t`'s blocks at `(p, q)` is the region's function at row `2000 t + p`. -/
theorem pay_blk (c : Dev nD) (t : Fin cfg4.N) (p : Fin 2000) (q : Fin 300) (n : Fin 50000) (hn : n.val = 2000 * t.val + p.val) :
    k4_pay3 (iblk4 V c 0 t) (iblk4 V c 2 t) (iblk4 V c 1 t) (iblk4 V c 3 t) (iblk4 V c 4 t) (iblk4 V c 5 t) (iblk4 V c 6 t) (ix2 p q)
      = Z2 V c (ix2 n q) :=
  z_point (zIn V c) (muIn V c) (varIn V c) (gIn V c) (beIn V c) (wIn V c) (bIn V c)
    (iblk4 V c 0 t) (iblk4 V c 1 t) (iblk4 V c 2 t) (iblk4 V c 3 t) (iblk4 V c 4 t) (iblk4 V c 5 t) (iblk4 V c 6 t) p q n
    (fun k => z_blk V c t p k n hn) (mu_blk V c t) (var_blk V c t) (g_blk V c t) (be_blk V c t) (w_blk V c t) (b_blk V c t)

/-! ## What each point writes back -/

/-- Point `t` writes back rows `2000 t … 2000 t + 1999` of the region's function. -/
theorem z_flushed (c : Dev nD) (t : Fin cfg4.N) :
    (dat4 V c).flushed 7 t = ((cfg4.win 7).blk t).view.read (Elt Ideal) (Z2 V c) := by
  show (cfg4.win 7).cut (grid4.coords t) ((dat4 V c).after 7 t) = _
  rw [after4_7]
  unfold out4_7
  rw [View.canon_unit_zero hz]
  simp only [View.ld_unit_zero (S := S2000x300) hz, View.ld_unit_zero (S := S1x300) hz, View.ld_unit_zero (S := S300x300) hz]
  funext j
  obtain ⟨p, q, rfl⟩ : ∃ (p : Fin 2000) (q : Fin 300), j = ix2 p q := ⟨j 0, j 1, eq_ix2 j⟩
  obtain ⟨-, -, -, -, -, -, -, -, -, -, -, -, -, -, e0, e1, -⟩ := idx_facts t
  have ht : t.val < 25 := t.isLt
  have hn : 2000 * t.val + p.val < 50000 := by have := p.isLt; omega
  have hemb : ((cfg4.win 7).blk t).view.emb (ix2 p q) = (ix2 (⟨2000 * t.val + p.val, hn⟩ : Fin 50000) q : S50000x300.Idx) := by
    funext a
    apply Fin.ext
    match a with
    | ⟨0, _⟩ => show win4_7.index t (0 : Fin 2) * 2000 + 1 * p.val = 2000 * t.val + p.val; rw [e0]; omega
    | ⟨1, _⟩ => show win4_7.index t (1 : Fin 2) * 300 + 1 * q.val = q.val; rw [e1]; omega
  show k4_pay3 (iblk4 V c 0 t) (iblk4 V c 2 t) (iblk4 V c 1 t) (iblk4 V c 3 t) (iblk4 V c 4 t) (iblk4 V c 5 t) (iblk4 V c 6 t) (ix2 p q)
    = Z2 V c (((cfg4.win 7).blk t).view.emb (ix2 p q))
  rw [hemb]
  exact pay_blk V c t p q ⟨_, hn⟩ rfl

/-- Row `8 t + r` of the partial sums' arrays is tile `t`'s. -/
theorem tileRow_blk (t : Fin 25) (r : Fin 8) (p : Fin 2000) (h : 8 * t.val + r.val < 200) (hn : 2000 * t.val + p.val < 50000) :
    GIN.tileRow ⟨8 * t.val + r.val, h⟩ p = ⟨2000 * t.val + p.val, hn⟩ := by
  apply Fin.ext
  show 2000 * ((8 * t.val + r.val) / 8) + p.val = 2000 * t.val + p.val
  have := r.isLt
  omega

/-- Point `t` writes back rows `8 t … 8 t + 7` of the tiles' column sums, -/
theorem s_flushed (c : Dev nD) (t : Fin cfg4.N) :
    (dat4 V c).flushed 8 t = ((cfg4.win 8).blk t).view.read (Elt Ideal) (GIN.tileSum (Z2 V c)) := by
  show (cfg4.win 8).cut (grid4.coords t) ((dat4 V c).after 8 t) = _
  rw [after4_8]
  unfold out4_8
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, e0, e1, -⟩ := idx_facts t
  have ht : t.val < 25 := t.isLt
  have hP : 8 * t.val + r.val < 200 := by have := r.isLt; omega
  have hemb : ((cfg4.win 8).blk t).view.emb (ix2 r q) = (ix2 (⟨8 * t.val + r.val, hP⟩ : Fin 200) q : S200x300.Idx) := by
    funext a
    apply Fin.ext
    match a with
    | ⟨0, _⟩ => show win4_8.index t (0 : Fin 2) * 8 + 1 * r.val = 8 * t.val + r.val; rw [e0]; omega
    | ⟨1, _⟩ => show win4_8.index t (1 : Fin 2) * 300 + 1 * q.val = q.val; rw [e1]; omega
  show k4_pay1 (k4_pay5 (iblk4 V c 0 t) (iblk4 V c 2 t) (iblk4 V c 1 t) (iblk4 V c 3 t) (iblk4 V c 4 t) (iblk4 V c 5 t) (iblk4 V c 6 t)) (ix2 r q)
    = GIN.tileSum (Z2 V c) (((cfg4.win 8).blk t).view.emb (ix2 r q))
  rw [hemb, sum_pay_apply]
  show _ = ∑ p : Fin 2000, Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn]
  exact pay_blk V c t p q ⟨_, hn⟩ rfl

/-- and of the tiles' column sums of squares. -/
theorem q_flushed (c : Dev nD) (t : Fin cfg4.N) :
    (dat4 V c).flushed 9 t = ((cfg4.win 9).blk t).view.read (Elt Ideal) (GIN.tileSumSq (Z2 V c)) := by
  show (cfg4.win 9).cut (grid4.coords t) ((dat4 V c).after 9 t) = _
  rw [after4_9]
  unfold out4_9
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, -, -, e0, e1⟩ := idx_facts t
  have ht : t.val < 25 := t.isLt
  have hP : 8 * t.val + r.val < 200 := by have := r.isLt; omega
  have hemb : ((cfg4.win 9).blk t).view.emb (ix2 r q) = (ix2 (⟨8 * t.val + r.val, hP⟩ : Fin 200) q : S200x300.Idx) := by
    funext a
    apply Fin.ext
    match a with
    | ⟨0, _⟩ => show win4_9.index t (0 : Fin 2) * 8 + 1 * r.val = 8 * t.val + r.val; rw [e0]; omega
    | ⟨1, _⟩ => show win4_9.index t (1 : Fin 2) * 300 + 1 * q.val = q.val; rw [e1]; omega
  show k4_pay2 (k4_pay6 (iblk4 V c 0 t) (iblk4 V c 2 t) (iblk4 V c 1 t) (iblk4 V c 3 t) (iblk4 V c 4 t) (iblk4 V c 5 t) (iblk4 V c 6 t)) (ix2 r q)
    = GIN.tileSumSq (Z2 V c) (((cfg4.win 9).blk t).view.emb (ix2 r q))
  rw [hemb, sq_pay_apply]
  show _ = ∑ p : Fin 2000, Z2 V c (ix2 (GIN.tileRow ⟨8 * t.val + r.val, hP⟩ p) q) * Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn, pay_blk V c t p q ⟨_, hn⟩ rfl]

/-! ## The blocks cover the arrays -/

/-- An index of the features' array is in point `t`'s block iff each coordinate is in the block's range. -/
theorem mem_blk7 (t : Fin cfg4.N) (i : S50000x300.Idx) :
    i ∈ ((cfg4.win 7).blk t).view.set
      ↔ ∀ a : Fin 2, win4_7.index t a * S2000x300.size a ≤ (i a).val ∧ (i a).val < win4_7.index t a * S2000x300.size a + S2000x300.size a := by
  show i ∈ ((View.whole main_v114_0).slice (win4_7.rect t)).set ↔ _
  rw [View.set_slice_whole, Rect.mem_set_unit]
  exact Iff.rfl

theorem mem_blk8 (t : Fin cfg4.N) (i : S200x300.Idx) :
    i ∈ ((cfg4.win 8).blk t).view.set
      ↔ ∀ a : Fin 2, win4_8.index t a * S8x300.size a ≤ (i a).val ∧ (i a).val < win4_8.index t a * S8x300.size a + S8x300.size a := by
  show i ∈ ((View.whole main_v114_1).slice (win4_8.rect t)).set ↔ _
  rw [View.set_slice_whole, Rect.mem_set_unit]
  exact Iff.rfl

theorem mem_blk9 (t : Fin cfg4.N) (i : S200x300.Idx) :
    i ∈ ((cfg4.win 9).blk t).view.set
      ↔ ∀ a : Fin 2, win4_9.index t a * S8x300.size a ≤ (i a).val ∧ (i a).val < win4_9.index t a * S8x300.size a + S8x300.size a := by
  show i ∈ ((View.whole main_v114_2).slice (win4_9.rect t)).set ↔ _
  rw [View.set_slice_whole, Rect.mem_set_unit]
  exact Iff.rfl

/-- Row `n` of the features is in the block of point `n / 2000`. -/
theorem z_cover (i : S50000x300.Idx) :
    ∃ t : Fin cfg4.N, (cfg4.win 7).flush t = true ∧ i ∈ ((cfg4.win 7).blk t).view.set := by
  have hi0 : (i 0).val < 50000 := (i 0).isLt
  have hi1 : (i 1).val < 300 := (i 1).isLt
  have ht : (i 0).val / 2000 < 25 := by omega
  obtain ⟨-, -, -, -, -, -, -, -, -, -, -, -, -, -, e0, e1, -⟩ := idx_facts (⟨(i 0).val / 2000, ht⟩ : Fin cfg4.N)
  refine ⟨⟨(i 0).val / 2000, ht⟩, flush4_7 _, ?_⟩
  rw [mem_blk7]
  intro a
  match a with
  | ⟨0, _⟩ =>
    show win4_7.index ⟨(i 0).val / 2000, ht⟩ (0 : Fin 2) * 2000 ≤ (i 0).val ∧ (i 0).val < win4_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_7.index ⟨(i 0).val / 2000, ht⟩ (1 : Fin 2) * 300 ≤ (i 1).val ∧ (i 1).val < win4_7.index ⟨(i 0).val / 2000, ht⟩ (1 : Fin 2) * 300 + 300
    rw [e1]; omega

/-- Row `P` of a partial sums' array is in the block of point `P / 8`. -/
theorem s_cover (i : S200x300.Idx) :
    ∃ t : Fin cfg4.N, (cfg4.win 8).flush t = true ∧ i ∈ ((cfg4.win 8).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, e0, e1, -⟩ := idx_facts (⟨(i 0).val / 8, ht⟩ : Fin cfg4.N)
  refine ⟨⟨(i 0).val / 8, ht⟩, flush4_8 _, ?_⟩
  rw [mem_blk8]
  intro a
  match a with
  | ⟨0, _⟩ =>
    show win4_8.index ⟨(i 0).val / 8, ht⟩ (0 : Fin 2) * 8 ≤ (i 0).val ∧ (i 0).val < win4_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win4_8.index ⟨(i 0).val / 8, ht⟩ (1 : Fin 2) * 300 ≤ (i 1).val ∧ (i 1).val < win4_8.index ⟨(i 0).val / 8, ht⟩ (1 : Fin 2) * 300 + 300
    rw [e1]; omega

theorem q_cover (i : S200x300.Idx) :
    ∃ t : Fin cfg4.N, (cfg4.win 9).flush t = true ∧ i ∈ ((cfg4.win 9).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, -, -, e0, e1⟩ := idx_facts (⟨(i 0).val / 8, ht⟩ : Fin cfg4.N)
  refine ⟨⟨(i 0).val / 8, ht⟩, flush4_9 _, ?_⟩
  rw [mem_blk9]
  intro a
  match a with
  | ⟨0, _⟩ =>
    show win4_9.index ⟨(i 0).val / 8, ht⟩ (0 : Fin 2) * 8 ≤ (i 0).val ∧ (i 0).val < win4_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win4_9.index ⟨(i 0).val / 8, ht⟩ (1 : Fin 2) * 300 ≤ (i 1).val ∧ (i 1).val < win4_9.index ⟨(i 0).val / 8, ht⟩ (1 : Fin 2) * 300 + 300
    rw [e1]; omega

/-! ## The three arrays after the region -/

/-- The features' array ends at the region's function of the arrays it read; -/
theorem z_final (c : Dev nD) : (dat4 V c).arrAt 7 cfg4.N = Z2 V c :=
  (dat4 V c).arrAt_eq_of_cover 7 (Z2 V c) (fun t _ => z_flushed V c t) z_cover

/-- the first partial sums' array at its tiles' column sums, each on 8 rows; -/
theorem s_final (c : Dev nD) : (dat4 V c).arrAt 8 cfg4.N = GIN.tileSum (Z2 V c) :=
  (dat4 V c).arrAt_eq_of_cover 8 (GIN.tileSum (Z2 V c)) (fun t _ => s_flushed V c t) s_cover

/-- the second at the column sums of squares. -/
theorem q_final (c : Dev nD) : (dat4 V c).arrAt 9 cfg4.N = GIN.tileSumSq (Z2 V c) :=
  (dat4 V c).arrAt_eq_of_cover 9 (GIN.tileSumSq (Z2 V c)) (fun t _ => q_flushed V c t) q_cover

end Cert.KernelIdeal.Reg4

end
-- ==== Proof.KRegC5.lean ====
/-
  The third kernel of a layer (normalise, scale, shift, clamp), as a function of the arrays it finds.

  The grid has 25 points. At point `t` the kernel reads rows `2000 t … 2000 t + 1999` of the `50000 × 300` input `z`, and the
  four `1 × 300` rows `μ`, `v`, `γ`, `β` whole, and writes rows `2000 t … 2000 t + 1999` of the output:
  `max ((z - μ) · (v + ε)^(-1/2) · γ + β) 0`, entry by entry, each column with its own `μ`, `v`, `γ`, `β`.
  The 25 tiles of rows are disjoint and fill the array, so after the last point the output array is that function of the
  input arrays at every index: `GIN.bnrelu`.
-/
import proofs.«144515_j12352325943894_2_alg».proof.Proof.FrameKI.R5
import proofs.«144515_j12352325943894_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat)

/-! ## The body at one entry of a block -/

/-- The body's result at row `p`, column `q` of a block: the block's entry, less the column's mean, times the
    inverse square root of the column's variance plus `ε`, times the column's scale, plus its shift, clamped at `0`.
    Widening the 16-bit entries is the identity over the extended reals; the four rows are repeated down the 2000 rows. -/
theorem pay_apply (x0 : Vec Ideal S2000x300 .bf16) (xv xm xg xb : Vec Ideal S1x300 .f32) (p : Fin 2000) (q : Fin 300) :
    k5_pay1 x0 xv xm xg xb (ix2 p q)
      = max ((x0 (ix2 p q) - xm (ix2 0 q)) * Ideal.rsqrt (xv (ix2 0 q) + GIN.cEps) * xg (ix2 0 q) + xb (ix2 0 q)) GIN.c0 := by
  unfold k5_pay1
  simp only [shapeCast_self]
  rw [maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-! ## Where the blocks sit in the arrays -/

theorem hz : (![0, 0] : Fin 2 → Nat) = fun _ => 0 := funext fun a => by fin_cases a <;> rfl

/-- The printed index maps over the 25 grid points: the two big windows sit at block `(t, 0)`, the four row
    windows at block `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- row `p` of tile `t` is row `2000 t + p` of the array -/
def row (t : Fin 25) (p : Fin 2000) : Fin 50000 := ⟨2000 * t.val + p.val, by have := t.isLt; have := p.isLt; omega⟩

/-- Entry `(p, q)` of the input's block at point `t` is entry `(2000 t + p, q)` of the array. -/
theorem emb0 (t : Fin cfg5.N) (p : Fin 2000) (q : Fin 300) :
    ((cfg5.win 0).blk t).view.emb (ix2 p q) = ix2 (row t p) q := by
  obtain ⟨e0, e1, -⟩ := idx_facts t
  funext a; apply Fin.ext
  match a with
  | ⟨0, _⟩ => show win5_0.index t (0 : Fin 2) * 2000 + 1 * p.val = 2000 * t.val + p.val; omega
  | ⟨1, _⟩ => show win5_0.index t (1 : Fin 2) * 300 + 1 * q.val = q.val; omega

/-- and so is entry `(p, q)` of the output's block. -/
theorem emb5 (t : Fin cfg5.N) (p : Fin 2000) (q : Fin 300) :
    ((cfg5.win 5).blk t).view.emb (ix2 p q) = ix2 (row t p) q := by
  obtain ⟨-, -, -, -, -, -, -, -, -, -, e0, e1⟩ := idx_facts t
  funext a; apply Fin.ext
  match a with
  | ⟨0, _⟩ => show win5_5.index t (0 : Fin 2) * 2000 + 1 * p.val = 2000 * t.val + p.val; omega
  | ⟨1, _⟩ => show win5_5.index t (1 : Fin 2) * 300 + 1 * q.val = q.val; omega

/-- Each row window's block is the whole row, at every point. -/
theorem emb1 (t : Fin cfg5.N) (q : Fin 300) :
    ((cfg5.win 1).blk t).view.emb (ix2 (0 : Fin 1) q) = ix2 (0 : Fin 1) q := by
  obtain ⟨-, -, e0, e1, -⟩ := idx_facts t
  funext a; apply Fin.ext
  match a with
  | ⟨0, _⟩ => show win5_1.index t (0 : Fin 2) * 1 + 1 * 0 = 0; omega
  | ⟨1, _⟩ => show win5_1.index t (1 : Fin 2) * 300 + 1 * q.val = q.val; omega

theorem emb2 (t : Fin cfg5.N) (q : Fin 300) :
    ((cfg5.win 2).blk t).view.emb (ix2 (0 : Fin 1) q) = ix2 (0 : Fin 1) q := by
  obtain ⟨-, -, -, -, e0, e1, -⟩ := idx_facts t
  funext a; apply Fin.ext
  match a with
  | ⟨0, _⟩ => show win5_2.index t (0 : Fin 2) * 1 + 1 * 0 = 0; omega
  | ⟨1, _⟩ => show win5_2.index t (1 : Fin 2) * 300 + 1 * q.val = q.val; omega

theorem emb3 (t : Fin cfg5.N) (q : Fin 300) :
    ((cfg5.win 3).blk t).view.emb (ix2 (0 : Fin 1) q) = ix2 (0 : Fin 1) q := by
  obtain ⟨-, -, -, -, -, -, e0, e1, -⟩ := idx_facts t
  funext a; apply Fin.ext
  match a with
  | ⟨0, _⟩ => show win5_3.index t (0 : Fin 2) * 1 + 1 * 0 = 0; omega
  | ⟨1, _⟩ => show win5_3.index t (1 : Fin 2) * 300 + 1 * q.val = q.val; omega

theorem emb4 (t : Fin cfg5.N) (q : Fin 300) :
    ((cfg5.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win5_4.index t (0 : Fin 2) * 1 + 1 * 0 = 0; omega
  | ⟨1, _⟩ => show win5_4.index t (1 : Fin 2) * 300 + 1 * q.val = q.val; omega

/-- An index of the array is in point `t`'s block iff each coordinate is in the block's range on its axis. -/
theorem mem_blk (t : Fin cfg5.N) (i : S50000x300.Idx) :
    i ∈ ((cfg5.win 5).blk t).view.set ↔ ∀ a : Fin 2, win5_5.index t a * S2000x300.size a ≤ (i a).val ∧ (i a).val < win5_5.index t a * S2000x300.size a + S2000x300.size a := by
  show i ∈ ((View.whole main_v137).slice (win5_5.rect t)).set ↔ _
  rw [View.set_slice_whole, Rect.mem_set_unit]
  exact Iff.rfl

/-- Row `r` of the array lies in tile `r / 2000`, so the 25 blocks cover the array. -/
theorem cover (i : S50000x300.Idx) :
    ∃ t : Fin cfg5.N, (cfg5.win 5).flush t = true ∧ i ∈ ((cfg5.win 5).blk t).view.set := by
  have hi0 : (i 0).val < 50000 := (i 0).isLt
  have hi1 : (i 1).val < 300 := (i 1).isLt
  have ht : (i 0).val / 2000 < 25 := by omega
  refine ⟨⟨(i 0).val / 2000, ht⟩, flush5_5 _, ?_⟩
  rw [mem_blk]
  obtain ⟨-, -, -, -, -, -, -, -, -, -, e0, e1⟩ := idx_facts ⟨(i 0).val / 2000, ht⟩
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ (1 : Fin 2) * 300 ≤ (i 1).val ∧ (i 1).val < win5_5.index ⟨(i 0).val / 2000, ht⟩ (1 : Fin 2) * 300 + 300
    rw [e1]; omega

/-! ## The output array after the region -/

variable (V : (c : Dev nD) → (b : Ref sig .tc) → Buf (Elt Ideal) ((c : Thread nD τ).loc b))

/-- the input `z` as the region finds it -/
abbrev Zin (c : Dev nD) : GIN.Mat := V c (Pipeline.arrRef spec5 0)
/-- the four rows as the region finds them, read as per-column vectors -/
abbrev mu (c : Dev nD) : GIN.Col := fun j => V c (Pipeline.arrRef spec5 1) (ix2 0 (j 0))
abbrev va (c : Dev nD) : GIN.Col := fun j => V c (Pipeline.arrRef spec5 2) (ix2 0 (j 0))
abbrev ga (c : Dev nD) : GIN.Col := fun j => V c (Pipeline.arrRef spec5 3) (ix2 0 (j 0))
abbrev be (c : Dev nD) : GIN.Col := fun j => V c (Pipeline.arrRef spec5 4) (ix2 0 (j 0))

/-- What point `t` writes back is block `t` of `GIN.bnrelu` of the input arrays: the body's result at `(p, q)` reads
    the input at `(2000 t + p, q)` and the rows at `q`, and that is the output's index `(2000 t + p, q)`. -/
theorem flushed_eq (c : Dev nD) (t : Fin cfg5.N) :
    (dat5 V c).flushed 5 t
      = ((cfg5.win 5).blk t).view.read (Elt Ideal) (GIN.bnrelu (Zin V c) (mu V c) (va V c) (ga V c) (be V c)) := by
  show (cfg5.win 5).cut (grid5.coords t) ((dat5 V c).after 5 t) = _
  rw [after5_5]
  unfold out5_5
  rw [View.canon_unit_zero hz]
  simp only [View.ld_unit_zero (S := S2000x300) hz, View.ld_unit_zero (S := S1x300) hz]
  funext j
  obtain ⟨p, q, rfl⟩ : ∃ (p : Fin 2000) (q : Fin 300), j = ix2 p q := ⟨j 0, j 1, eq_ix2 j⟩
  show k5_pay1 (iblk5 V c 0 t) (iblk5 V c 2 t) (iblk5 V c 1 t) (iblk5 V c 3 t) (iblk5 V c 4 t) (ix2 p q)
    = GIN.bnrelu (Zin V c) (mu V c) (va V c) (ga V c) (be V c) (((cfg5.win 5).blk t).view.emb (ix2 p q))
  rw [pay_apply, emb5]
  have h0 : iblk5 V c 0 t (ix2 p q) = Zin V c (ix2 (row t p) q) := by
    show V c (Pipeline.arrRef spec5 0) (((cfg5.win 0).blk t).view.emb (ix2 p q)) = _
    rw [emb0]
  have h1 : iblk5 V c 1 t (ix2 0 q) = V c (Pipeline.arrRef spec5 1) (ix2 0 q) := by
    show V c (Pipeline.arrRef spec5 1) (((cfg5.win 1).blk t).view.emb (ix2 (0 : Fin 1) q)) = _
    rw [emb1]
  have h2 : iblk5 V c 2 t (ix2 0 q) = V c (Pipeline.arrRef spec5 2) (ix2 0 q) := by
    show V c (Pipeline.arrRef spec5 2) (((cfg5.win 2).blk t).view.emb (ix2 (0 : Fin 1) q)) = _
    rw [emb2]
  have h3 : iblk5 V c 3 t (ix2 0 q) = V c (Pipeline.arrRef spec5 3) (ix2 0 q) := by
    show V c (Pipeline.arrRef spec5 3) (((cfg5.win 3).blk t).view.emb (ix2 (0 : Fin 1) q)) = _
    rw [emb3]
  have h4 : iblk5 V c 4 t (ix2 0 q) = V c (Pipeline.arrRef spec5 4) (ix2 0 q) := by
    show V c (Pipeline.arrRef spec5 4) (((cfg5.win 4).blk t).view.emb (ix2 (0 : Fin 1) q)) = _
    rw [emb4]
  rw [h0, h1, h2, h3, h4]
  rfl

/-- THE OUTPUT ARRAY after the region: `max ((z - μ) · (v + ε)^(-1/2) · γ + β) 0` of the arrays the region finds. -/
theorem h_final (c : Dev nD) :
    (dat5 V c).arrAt 5 cfg5.N
      = GIN.bnrelu (V c (Pipeline.arrRef spec5 0))
          (fun j : GIN.SD.Idx => V c (Pipeline.arrRef spec5 1) (ix2 0 (j 0)))
          (fun j : GIN.SD.Idx => V c (Pipeline.arrRef spec5 2) (ix2 0 (j 0)))
          (fun j : GIN.SD.Idx => V c (Pipeline.arrRef spec5 3) (ix2 0 (j 0)))
          (fun j : GIN.SD.Idx => V c (Pipeline.arrRef spec5 4) (ix2 0 (j 0))) :=
  (dat5 V c).arrAt_eq_of_cover 5 (GIN.bnrelu (Zin V c) (mu V c) (va V c) (ga V c) (be V c))
    (fun t _ => flushed_eq V c t) cover

end Cert.KernelIdeal.Reg5

end
-- ==== Proof.KRegA6.lean ====
/-
  The first kernel of a layer (region 6): the affine map of the node features plus their neighbour aggregate, and the
  tiles' partial sums of its result and of its square.

  The rows are cut into 25 tiles of 2000.  At tile `t` the body reads rows `2000 t … 2000 t + 1999` of the features `X0`
  and of the aggregate `X1`, the whole 300 × 300 weight matrix `X2` and the bias row `X3`, and forms
  `z = (x0 + x1) · X2 + X3` on those rows: entry `(p, q)` is `Σ_k (x0 p k + x1 p k) · X2 k q + X3 0 q` (over the extended
  reals a change of float format is the identity, and the product into a zero accumulator is the plain sum).  It writes
  `z` to rows `2000 t …` of the first result, the column sums `Σ_p z p q` to each of rows `8 t … 8 t + 7` of the second,
  and the column sums of `z p q · z p q` to the same rows of the third.

  Row `n` of a 50000-row array lies in tile `n / 2000` only, row `p` of a 200-row array in tile `p / 8` only, so after
  the 25 tiles the three results are, index by index, `Z = GIN.lin (X0 + X1) X2 X3`, `GIN.tileSum Z` and `GIN.tileSumSq Z`.
-/
import proofs.«144515_j12352325943894_2_alg».proof.Proof.FrameKI.R6
import proofs.«144515_j12352325943894_2_alg».proof.Proof.Spec
import Idealize.ShloMosaic.Lib.ValueIdx
import Idealize.ShloMosaic.Lib.Pipeline.Value
import Idealize.ShloMosaic.PureOps.Ideal.Laws

noncomputable section

namespace Cert.KernelIdeal.Reg6

open Idealize.ShloMosaic Idealize.ShloMosaic.TcCoe Idealize.ShloMosaic.ValueIdx Idealize.SL.Sem
open Idealize.ShloMosaic.Pipeline (Dat)
open Cert.KernelIdeal Cert.KernelIdeal.Gen

/-! ## The matrix product's operand indices, axis by axis -/

theorem lhs_axis0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_axis1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_axis0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_axis1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The product of a 2000×300 block by a 300×300 matrix into a zero accumulator, at row `p` and column `q`:
    the sum over the 300 shared coordinates. -/
theorem mm_apply (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) := by
  show FloatOps.matmul dot_S2000x300_S300x300_S2000x300_1_0_0_1_n_n none a b _ (ix2 p q) = _
  rw [Ideal.matmul_constant_zero_apply,
    ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q)
      ((contrEquiv1 dot_S2000x300_S300x300_S2000x300_1_0_0_1_n_n 300 rfl rfl).symm k) = ix2 p k :=
    funext fun ax => Fin.ext (by
      match ax with
      | ⟨0, _⟩ => exact lhs_axis0 _ _
      | ⟨1, _⟩ => exact (lhs_axis1 _ _).trans hk)
  have er : dot_S2000x300_S300x300_S2000x300_1_0_0_1_n_n.rhsIdx (ix2 p q)
      ((contrEquiv1 dot_S2000x300_S300x300_S2000x300_1_0_0_1_n_n 300 rfl rfl).symm k) = ix2 k q :=
    funext fun ax => Fin.ext (by
      match ax with
      | ⟨0, _⟩ => exact (rhs_axis0 _ _).trans hk
      | ⟨1, _⟩ => exact rhs_axis1 _ _)
  rw [el, er]

/-! ## The layout operations at an index -/

/-- A row vector spread over 2000 rows reads its entry of the same column. -/
theorem row2000_apply (x : S1x300.Idx → EReal) (h : S1x300.Broadcasts S2000x300) (p : Fin 2000) (q : Fin 300) :
    broadcastTo S2000x300 x h (ix2 p q) = x (ix2 0 q) :=
  broadcastTo_apply x h (ix2 p q) (ix2 0 q) (fun a => by
    match a with
    | ⟨0, _⟩ => rfl
    | ⟨1, _⟩ => rfl)

/-- A row vector spread over 8 rows reads its entry of the same column. -/
theorem row8_apply (x : S1x300.Idx → EReal) (h : S1x300.Broadcasts S8x300) (r : Fin 8) (q : Fin 300) :
    broadcastTo S8x300 x h (ix2 r q) = x (ix2 0 q) :=
  broadcastTo_apply x h (ix2 r q) (ix2 0 q) (fun a => by
    match a with
    | ⟨0, _⟩ => rfl
    | ⟨1, _⟩ => rfl)

/-- A vector of 300 viewed as one row reads the same entry. -/
theorem asRow_apply (x : S300.Idx → EReal) (h : S300.ShapeCasts S1x300) (q : Fin 300) :
    shapeCast S1x300 x h (ix2 0 q) = x (ix1 q) :=
  shapeCast_apply x h (ix2 0 q) (ix1 q) (by
    rw [Shape.rowMajor_val_one, Shape.rowMajor_val_two]
    show q.val = 0 * 300 + q.val
    omega)

/-- The sum over the 2000 rows of a block, column by column. -/
theorem colsum_apply (v : FVec Ideal S2000x300 .f32) (h : S2000x300.Reduces [0] S300) (hφ : FKind.Formats .f32)
    (hacc : (0x00000000#32 : BitVec 32) = FKind.add.neutral .f32 hφ) (q : Fin 300) :
    multiReduction .add [0] S300 v 0x00000000#32 h hφ hacc (ix1 q) = ∑ r : Fin 2000, v (ix2 r q) := by
  refine (Ideal.multiReduction_add_single v _ h hφ hacc (ix1 q)).trans ?_
  refine Finset.sum_congr rfl fun r _ => congrArg v ?_
  funext a
  apply Fin.ext
  match a with
  | ⟨0, _⟩ => rfl
  | ⟨1, _⟩ => rfl

/-! ## The body's three stored values at an index -/

/-- The affine map of the block's rows: row `p` of `x0 + x1` times column `q` of `x2`, plus the row vector's entry. -/
theorem pay1_apply (x0 x1 : Vec Ideal S2000x300 .f32) (x2 : Vec Ideal S300x300 .f32) (x3 : Vec Ideal S1x300 .f32)
    (p : Fin 2000) (q : Fin 300) :
    k6_pay1 (F := Ideal) x0 x1 x2 x3 (ix2 p q)
      = (∑ k : Fin 300, (x0 (ix2 p k) + x1 (ix2 p k)) * x2 (ix2 k q)) + x3 (ix2 0 q) := by
  unfold k6_pay1
  simp only [shapeCast_self]
  refine (addf_apply _ _ (ix2 p q)).trans ?_
  refine congrArg₂ (· + ·) ((mm_apply _ _ p q).trans ?_) (row2000_apply x3 _ p q)
  rfl

/-- The stored block in the narrower format is the same values. -/
theorem pay2_apply (x0 x1 : Vec Ideal S2000x300 .f32) (x2 : Vec Ideal S300x300 .f32) (x3 : Vec Ideal S1x300 .f32)
    (p : Fin 2000) (q : Fin 300) :
    k6_pay2 (F := Ideal) x0 x1 x2 x3 (ix2 p q)
      = (∑ k : Fin 300, (x0 (ix2 p k) + x1 (ix2 p k)) * x2 (ix2 k q)) + x3 (ix2 0 q) :=
  pay1_apply x0 x1 x2 x3 p q

/-- The block's column sums, on each of the 8 rows. -/
theorem pay3_apply (x0 x1 : Vec Ideal S2000x300 .f32) (x2 : Vec Ideal S300x300 .f32) (x3 : Vec Ideal S1x300 .f32)
    (r : Fin 8) (q : Fin 300) :
    k6_pay3 (F := Ideal) x0 x1 x2 x3 (ix2 r q) = ∑ p : Fin 2000, k6_pay1 (F := Ideal) x0 x1 x2 x3 (ix2 p q) := by
  unfold k6_pay3
  simp only [shapeCast_self]
  refine (row8_apply _ _ r q).trans ?_
  refine (asRow_apply _ _ q).trans ?_
  exact colsum_apply _ _ _ _ q

/-- The block's column sums of squares, on each of the 8 rows. -/
theorem pay4_apply (x0 x1 : Vec Ideal S2000x300 .f32) (x2 : Vec Ideal S300x300 .f32) (x3 : Vec Ideal S1x300 .f32)
    (r : Fin 8) (q : Fin 300) :
    k6_pay4 (F := Ideal) x0 x1 x2 x3 (ix2 r q)
      = ∑ p : Fin 2000, k6_pay1 (F := Ideal) x0 x1 x2 x3 (ix2 p q) * k6_pay1 (F := Ideal) x0 x1 x2 x3 (ix2 p q) := by
  unfold k6_pay4
  simp only [shapeCast_self]
  refine (row8_apply _ _ r q).trans ?_
  refine (asRow_apply _ _ q).trans ?_
  exact colsum_apply _ _ _ _ q

/-! ## The region's arrays, its blocks, and where a block sits in its array -/

section Arrays

variable (V : (c : Dev nD) → (b : Ref sig .tc) → Buf (Elt Ideal) ((c : Thread nD τ).loc b))

/-- the node features the region reads, 50000 × 300 -/
abbrev X0 (c : Dev nD) : GIN.Mat := V c (Pipeline.arrRef spec6 0)
/-- the neighbour aggregate, 50000 × 300 -/
abbrev X1 (c : Dev nD) : GIN.Mat := V c (Pipeline.arrRef spec6 1)
/-- the weight matrix, 300 × 300 -/
abbrev X2 (c : Dev nD) : GIN.Wt := V c (Pipeline.arrRef spec6 2)
/-- the bias, one row of 300 -/
abbrev X3 (c : Dev nD) : S1x300.Idx → EReal := V c (Pipeline.arrRef spec6 3)

/-- what the region computes: the affine map of `X0 + X1` -/
abbrev Z (c : Dev nD) : GIN.Mat :=
  GIN.lin (fun i => X0 V c i + X1 V c i) (X2 V c) (fun j => X3 V c (ix2 0 (j 0)))

/-- the four input windows' blocks at grid point `t` -/
abbrev B0 (c : Dev nD) (t : Fin cfg6.N) : Vec Ideal S2000x300 .f32 := iblk6 V c 0 t
abbrev B1 (c : Dev nD) (t : Fin cfg6.N) : Vec Ideal S2000x300 .f32 := iblk6 V c 1 t
abbrev B2 (c : Dev nD) (t : Fin cfg6.N) : Vec Ideal S300x300 .f32 := iblk6 V c 2 t
abbrev B3 (c : Dev nD) (t : Fin cfg6.N) : Vec Ideal S1x300 .f32 := iblk6 V c 3 t

theorem hz : (![0, 0] : Fin 2 → Nat) = fun _ => 0 := funext fun a => by
  match a with
  | ⟨0, _⟩ => rfl
  | ⟨1, _⟩ => rfl

/-- The index maps over the 25 grid points: the two big inputs and the three outputs move down one block per point,
    the weight matrix and the bias stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Row `p` of the features' block at point `t` is row `2000 t + p` of the array. -/
theorem B0_apply (c : Dev nD) (t : Fin cfg6.N) (p : Fin 2000) (q : Fin 300) (n : Fin 50000)
    (hn : n.val = 2000 * t.val + p.val) : B0 V c t (ix2 p q) = X0 V c (ix2 n q) := by
  obtain ⟨e0, e1, -⟩ := idx_facts t
  show V c (Pipeline.arrRef spec6 0) (((cfg6.win 0).blk t).view.emb (ix2 p q)) = V c (Pipeline.arrRef spec6 0) (ix2 n q)
  refine congrArg _ (funext fun a => Fin.ext ?_)
  match a with
  | ⟨0, _⟩ => show win6_0.index t (0 : Fin 2) * 2000 + 1 * p.val = n.val; rw [e0, hn]; omega
  | ⟨1, _⟩ => show win6_0.index t (1 : Fin 2) * 300 + 1 * q.val = q.val; rw [e1]; omega

/-- The same for the aggregate's block. -/
theorem B1_apply (c : Dev nD) (t : Fin cfg6.N) (p : Fin 2000) (q : Fin 300) (n : Fin 50000)
    (hn : n.val = 2000 * t.val + p.val) : B1 V c t (ix2 p q) = X1 V c (ix2 n q) := by
  obtain ⟨-, -, e0, e1, -⟩ := idx_facts t
  show V c (Pipeline.arrRef spec6 1) (((cfg6.win 1).blk t).view.emb (ix2 p q)) = V c (Pipeline.arrRef spec6 1) (ix2 n q)
  refine congrArg _ (funext fun a => Fin.ext ?_)
  match a with
  | ⟨0, _⟩ => show win6_1.index t (0 : Fin 2) * 2000 + 1 * p.val = n.val; rw [e0, hn]; omega
  | ⟨1, _⟩ => show win6_1.index t (1 : Fin 2) * 300 + 1 * q.val = q.val; rw [e1]; omega

/-- The weight matrix's block is the whole matrix at every point. -/
theorem B2_apply (c : Dev nD) (t : Fin cfg6.N) (k q : Fin 300) : B2 V c t (ix2 k q) = X2 V c (ix2 k q) := by
  obtain ⟨-, -, -, -, e0, e1, -⟩ := idx_facts t
  show V c (Pipeline.arrRef spec6 2) (((cfg6.win 2).blk t).view.emb (ix2 k q)) = V c (Pipeline.arrRef spec6 2) (ix2 k q)
  refine congrArg _ (funext fun a => Fin.ext ?_)
  match a with
  | ⟨0, _⟩ => show win6_2.index t (0 : Fin 2) * 300 + 1 * k.val = k.val; rw [e0]; omega
  | ⟨1, _⟩ => show win6_2.index t (1 : Fin 2) * 300 + 1 * q.val = q.val; rw [e1]; omega

/-- The bias's block is the whole row at every point. -/
theorem B3_apply (c : Dev nD) (t : Fin cfg6.N) (q : Fin 300) : B3 V c t (ix2 0 q) = X3 V c (ix2 0 q) := by
  obtain ⟨-, -, -, -, -, -, e0, e1, -⟩ := idx_facts t
  show V c (Pipeline.arrRef spec6 3) (((cfg6.win 3).blk t).view.emb (ix2 0 q)) = V c (Pipeline.arrRef spec6 3) (ix2 0 q)
  refine congrArg _ (funext fun a => Fin.ext ?_)
  match a with
  | ⟨0, _⟩ => show win6_3.index t (0 : Fin 2) * 1 + 1 * 0 = 0; rw [e0]
  | ⟨1, _⟩ => show win6_3.index t (1 : Fin 2) * 300 + 1 * q.val = q.val; rw [e1]; omega

/-! ## The body's values on the blocks are the network's values on the arrays -/

/-- Row `p` of the affine map of the blocks at point `t` is row `2000 t + p` of `Z`. -/
theorem pay1_block (c : Dev nD) (t : Fin cfg6.N) (p : Fin 2000) (q : Fin 300) (n : Fin 50000)
    (hn : n.val = 2000 * t.val + p.val) :
    k6_pay1 (F := Ideal) (B0 V c t) (B1 V c t) (B2 V c t) (B3 V c t) (ix2 p q) = Z V c (ix2 n q) := by
  refine (pay1_apply _ _ _ _ p q).trans ?_
  show _ = (∑ k : Fin 300, (X0 V c (ix2 n k) + X1 V c (ix2 n k)) * X2 V c (ix2 k q)) + X3 V c (ix2 0 q)
  refine congrArg₂ (· + ·) (Finset.sum_congr rfl fun k _ => ?_) (B3_apply V c t q)
  rw [B0_apply V c t p k n hn, B1_apply V c t p k n hn, B2_apply V c t k q]

/-- The stored block of window 4, entry by entry. -/
theorem out4_at (c : Dev nD) (t : Fin cfg6.N) (j : S2000x300.Idx) (n : Fin 50000)
    (hn : n.val = 2000 * t.val + (j 0).val) :
    k6_pay2 (F := Ideal) (B0 V c t) (B1 V c t) (B2 V c t) (B3 V c t) j = Z V c (ix2 n (j 1)) := by
  obtain ⟨p, q, rfl⟩ : ∃ (p : Fin 2000) (q : Fin 300), j = ix2 p q := ⟨j 0, j 1, eq_ix2 j⟩
  exact pay1_block V c t p q n hn

/-- The stored block of window 5: each of its 8 rows is the tile's column sums of `Z`. -/
theorem out5_at (c : Dev nD) (t : Fin cfg6.N) (j : S8x300.Idx) (s : Fin 200)
    (hs : s.val = 8 * t.val + (j 0).val) :
    k6_pay3 (F := Ideal) (B0 V c t) (B1 V c t) (B2 V c t) (B3 V c t) j = GIN.tileSum (Z V c) (ix2 s (j 1)) := by
  obtain ⟨r, q, rfl⟩ : ∃ (r : Fin 8) (q : Fin 300), j = ix2 r q := ⟨j 0, j 1, eq_ix2 j⟩
  refine (pay3_apply _ _ _ _ r q).trans ?_
  show _ = ∑ p : Fin 2000, Z V c (ix2 (GIN.tileRow s p) q)
  refine Finset.sum_congr rfl fun p _ => pay1_block V c t p q (GIN.tileRow s p) ?_
  show 2000 * (s.val / 8) + p.val = 2000 * t.val + p.val
  have hr : r.val < 8 := r.isLt
  have hs' : s.val = 8 * t.val + r.val := hs
  omega

/-- The stored block of window 6: each of its 8 rows is the tile's column sums of the squares of `Z`. -/
theorem out6_at (c : Dev nD) (t : Fin cfg6.N) (j : S8x300.Idx) (s : Fin 200)
    (hs : s.val = 8 * t.val + (j 0).val) :
    k6_pay4 (F := Ideal) (B0 V c t) (B1 V c t) (B2 V c t) (B3 V c t) j = GIN.tileSumSq (Z V c) (ix2 s (j 1)) := by
  obtain ⟨r, q, rfl⟩ : ∃ (r : Fin 8) (q : Fin 300), j = ix2 r q := ⟨j 0, j 1, eq_ix2 j⟩
  refine (pay4_apply _ _ _ _ r q).trans ?_
  show _ = ∑ p : Fin 2000, Z V c (ix2 (GIN.tileRow s p) q) * Z V c (ix2 (GIN.tileRow s p) q)
  have hr : r.val < 8 := r.isLt
  have hs' : s.val = 8 * t.val + r.val := hs
  refine Finset.sum_congr rfl fun p _ => ?_
  have e := pay1_block V c t p q (GIN.tileRow s p) (by
    show 2000 * (s.val / 8) + p.val = 2000 * t.val + p.val
    omega)
  rw [e]

/-! ## What each grid point writes back, and the arrays after the region -/

/-- Point `t` writes back rows `2000 t … 2000 t + 1999` of `Z`. -/
theorem flushed4_eq (c : Dev nD) (t : Fin cfg6.N) :
    (dat6 V c).flushed 4 t = ((cfg6.win 4).blk t).view.read (Elt Ideal) (Z V c) := by
  show (cfg6.win 4).cut (grid6.coords t) ((dat6 V c).after 4 t) = _
  rw [after6_4]
  unfold out6_4
  rw [View.canon_unit_zero hz]
  simp only [View.ld_unit_zero (S := S2000x300) hz, View.ld_unit_zero (S := S300x300) hz, View.ld_unit_zero (S := S1x300) hz]
  obtain ⟨-, -, -, -, -, -, -, -, e0, e1, -⟩ := idx_facts t
  have ht : t.val < 25 := t.isLt
  funext j
  have hj : (j 0).val < 2000 := (j 0).isLt
  show k6_pay2 (F := Ideal) (B0 V c t) (B1 V c t) (B2 V c t) (B3 V c t) j = Z V c (((cfg6.win 4).blk t).view.emb j)
  refine (out4_at V c t j ⟨2000 * t.val + (j 0).val, by omega⟩ rfl).trans ?_
  refine congrArg (Z V c) (funext fun a => Fin.ext ?_)
  match a with
  | ⟨0, _⟩ => show 2000 * t.val + (j 0).val = win6_4.index t (0 : Fin 2) * 2000 + 1 * (j 0).val; rw [e0]; omega
  | ⟨1, _⟩ => show (j 1).val = win6_4.index t (1 : Fin 2) * 300 + 1 * (j 1).val; rw [e1]; omega

/-- Point `t` writes back rows `8 t … 8 t + 7` of the tiles' column sums. -/
theorem flushed5_eq (c : Dev nD) (t : Fin cfg6.N) :
    (dat6 V c).flushed 5 t = ((cfg6.win 5).blk t).view.read (Elt Ideal) (GIN.tileSum (Z V c)) := by
  show (cfg6.win 5).cut (grid6.coords t) ((dat6 V c).after 5 t) = _
  rw [after6_5]
  unfold out6_5
  rw [View.canon_unit_zero hz]
  simp only [View.ld_unit_zero (S := S2000x300) hz, View.ld_unit_zero (S := S300x300) hz, View.ld_unit_zero (S := S1x300) hz]
  obtain ⟨-, -, -, -, -, -, -, -, -, -, e0, e1, -⟩ := idx_facts t
  have ht : t.val < 25 := t.isLt
  funext j
  have hj : (j 0).val < 8 := (j 0).isLt
  show k6_pay3 (F := Ideal) (B0 V c t) (B1 V c t) (B2 V c t) (B3 V c t) j = GIN.tileSum (Z V c) (((cfg6.win 5).blk t).view.emb j)
  refine (out5_at V c t j ⟨8 * t.val + (j 0).val, by omega⟩ rfl).trans ?_
  refine congrArg (GIN.tileSum (Z V c)) (funext fun a => Fin.ext ?_)
  match a with
  | ⟨0, _⟩ => show 8 * t.val + (j 0).val = win6_5.index t (0 : Fin 2) * 8 + 1 * (j 0).val; rw [e0]; omega
  | ⟨1, _⟩ => show (j 1).val = win6_5.index t (1 : Fin 2) * 300 + 1 * (j 1).val; rw [e1]; omega

/-- Point `t` writes back rows `8 t … 8 t + 7` of the tiles' column sums of squares. -/
theorem flushed6_eq (c : Dev nD) (t : Fin cfg6.N) :
    (dat6 V c).flushed 6 t = ((cfg6.win 6).blk t).view.read (Elt Ideal) (GIN.tileSumSq (Z V c)) := by
  show (cfg6.win 6).cut (grid6.coords t) ((dat6 V c).after 6 t) = _
  rw [after6_6]
  unfold out6_6
  rw [View.canon_unit_zero hz]
  simp only [View.ld_unit_zero (S := S2000x300) hz, View.ld_unit_zero (S := S300x300) hz, View.ld_unit_zero (S := S1x300) hz]
  obtain ⟨-, -, -, -, -, -, -, -, -, -, -, -, e0, e1⟩ := idx_facts t
  have ht : t.val < 25 := t.isLt
  funext j
  have hj : (j 0).val < 8 := (j 0).isLt
  show k6_pay4 (F := Ideal) (B0 V c t) (B1 V c t) (B2 V c t) (B3 V c t) j = GIN.tileSumSq (Z V c) (((cfg6.win 6).blk t).view.emb j)
  refine (out6_at V c t j ⟨8 * t.val + (j 0).val, by omega⟩ rfl).trans ?_
  refine congrArg (GIN.tileSumSq (Z V c)) (funext fun a => Fin.ext ?_)
  match a with
  | ⟨0, _⟩ => show 8 * t.val + (j 0).val = win6_6.index t (0 : Fin 2) * 8 + 1 * (j 0).val; rw [e0]; omega
  | ⟨1, _⟩ => show (j 1).val = win6_6.index t (1 : Fin 2) * 300 + 1 * (j 1).val; rw [e1]; omega

/-- An index of the 50000 × 300 array lies in point `t`'s block of window 4 iff each coordinate is in the block's range. -/
theorem mem_blk4 (t : Fin cfg6.N) (i : S50000x300.Idx) :
    i ∈ ((cfg6.win 4).blk t).view.set ↔ ∀ a : Fin 2, win6_4.index t a * S2000x300.size a ≤ (i a).val
      ∧ (i a).val < win6_4.index t a * S2000x300.size a + S2000x300.size a := by
  show i ∈ ((View.whole main_v153_0).slice (win6_4.rect t)).set ↔ _
  rw [View.set_slice_whole, Rect.mem_set_unit]
  exact Iff.rfl

theorem mem_blk5 (t : Fin cfg6.N) (i : S200x300.Idx) :
    i ∈ ((cfg6.win 5).blk t).view.set ↔ ∀ a : Fin 2, win6_5.index t a * S8x300.size a ≤ (i a).val
      ∧ (i a).val < win6_5.index t a * S8x300.size a + S8x300.size a := by
  show i ∈ ((View.whole main_v153_1).slice (win6_5.rect t)).set ↔ _
  rw [View.set_slice_whole, Rect.mem_set_unit]
  exact Iff.rfl

theorem mem_blk6 (t : Fin cfg6.N) (i : S200x300.Idx) :
    i ∈ ((cfg6.win 6).blk t).view.set ↔ ∀ a : Fin 2, win6_6.index t a * S8x300.size a ≤ (i a).val
      ∧ (i a).val < win6_6.index t a * S8x300.size a + S8x300.size a := by
  show i ∈ ((View.whole main_v153_2).slice (win6_6.rect t)).set ↔ _
  rw [View.set_slice_whole, Rect.mem_set_unit]
  exact Iff.rfl

/-- Row `n` of the 50000 × 300 array lies in the block of point `n / 2000`. -/
theorem cover4 (i : S50000x300.Idx) : ∃ t : Fin cfg6.N, (cfg6.win 4).flush t = true ∧ i ∈ ((cfg6.win 4).blk t).view.set := by
  have h0 : (i 0).val < 50000 := (i 0).isLt
  have h1 : (i 1).val < 300 := (i 1).isLt
  refine ⟨⟨(i 0).val / 2000, by show (i 0).val / 2000 < 25; omega⟩, flush6_4 _, ?_⟩
  rw [mem_blk4]
  obtain ⟨-, -, -, -, -, -, -, -, e0, e1, -⟩ := idx_facts ⟨(i 0).val / 2000, by show (i 0).val / 2000 < 25; omega⟩
  intro a
  match a with
  | ⟨0, _⟩ =>
    show win6_4.index _ (0 : Fin 2) * 2000 ≤ (i 0).val ∧ (i 0).val < win6_4.index _ (0 : Fin 2) * 2000 + 2000
    rw [e0]; show (i 0).val / 2000 * 2000 ≤ (i 0).val ∧ (i 0).val < (i 0).val / 2000 * 2000 + 2000; omega
  | ⟨1, _⟩ =>
    show win6_4.index _ (1 : Fin 2) * 300 ≤ (i 1).val ∧ (i 1).val < win6_4.index _ (1 : Fin 2) * 300 + 300
    rw [e1]; omega

/-- Row `p` of the 200 × 300 array lies in the block of point `p / 8`. -/
theorem cover5 (i : S200x300.Idx) : ∃ t : Fin cfg6.N, (cfg6.win 5).flush t = true ∧ i ∈ ((cfg6.win 5).blk t).view.set := by
  have h0 : (i 0).val < 200 := (i 0).isLt
  have h1 : (i 1).val < 300 := (i 1).isLt
  refine ⟨⟨(i 0).val / 8, by show (i 0).val / 8 < 25; omega⟩, flush6_5 _, ?_⟩
  rw [mem_blk5]
  obtain ⟨-, -, -, -, -, -, -, -, -, -, e0, e1, -⟩ := idx_facts ⟨(i 0).val / 8, by show (i 0).val / 8 < 25; omega⟩
  intro a
  match a with
  | ⟨0, _⟩ =>
    show win6_5.index _ (0 : Fin 2) * 8 ≤ (i 0).val ∧ (i 0).val < win6_5.index _ (0 : Fin 2) * 8 + 8
    rw [e0]; show (i 0).val / 8 * 8 ≤ (i 0).val ∧ (i 0).val < (i 0).val / 8 * 8 + 8; omega
  | ⟨1, _⟩ =>
    show win6_5.index _ (1 : Fin 2) * 300 ≤ (i 1).val ∧ (i 1).val < win6_5.index _ (1 : Fin 2) * 300 + 300
    rw [e1]; omega

theorem cover6 (i : S200x300.Idx) : ∃ t : Fin cfg6.N, (cfg6.win 6).flush t = true ∧ i ∈ ((cfg6.win 6).blk t).view.set := by
  have h0 : (i 0).val < 200 := (i 0).isLt
  have h1 : (i 1).val < 300 := (i 1).isLt
  refine ⟨⟨(i 0).val / 8, by show (i 0).val / 8 < 25; omega⟩, flush6_6 _, ?_⟩
  rw [mem_blk6]
  obtain ⟨-, -, -, -, -, -, -, -, -, -, -, -, e0, e1⟩ := idx_facts ⟨(i 0).val / 8, by show (i 0).val / 8 < 25; omega⟩
  intro a
  match a with
  | ⟨0, _⟩ =>
    show win6_6.index _ (0 : Fin 2) * 8 ≤ (i 0).val ∧ (i 0).val < win6_6.index _ (0 : Fin 2) * 8 + 8
    rw [e0]; show (i 0).val / 8 * 8 ≤ (i 0).val ∧ (i 0).val < (i 0).val / 8 * 8 + 8; omega
  | ⟨1, _⟩ =>
    show win6_6.index _ (1 : Fin 2) * 300 ≤ (i 1).val ∧ (i 1).val < win6_6.index _ (1 : Fin 2) * 300 + 300
    rw [e1]; omega

/-- After the region the first output array holds `Z`. -/
theorem z_final (c : Dev nD) : (dat6 V c).arrAt 4 cfg6.N = Z V c :=
  (dat6 V c).arrAt_eq_of_cover 4 (Z V c) (fun t _ => flushed4_eq V c t) cover4

/-- After the region the second output array holds the tiles' column sums of `Z`, each tile's on 8 rows. -/
theorem s_final (c : Dev nD) : (dat6 V c).arrAt 5 cfg6.N = GIN.tileSum (Z V c) :=
  (dat6 V c).arrAt_eq_of_cover 5 (GIN.tileSum (Z V c)) (fun t _ => flushed5_eq V c t) cover5

/-- After the region the third output array holds the tiles' column sums of the squares of `Z`. -/
theorem q_final (c : Dev nD) : (dat6 V c).arrAt 6 cfg6.N = GIN.tileSumSq (Z V c) :=
  (dat6 V c).arrAt_eq_of_cover 6 (GIN.tileSumSq (Z V c)) (fun t _ => flushed6_eq V c t) cover6

end Arrays

end Cert.KernelIdeal.Reg6

end
-- ==== Proof.KRegB7.lean ====
/-
  The second kernel of a layer, on the arrays it finds.  With `z` the 50000 × 300 features, `μ` and `v` the column
  statistics, `γ` and `β` the normalisation's parameters and `W`, `b` an affine map, its three output arrays end holding

      Z2 = max ((z - μ) · (v + ε)^(-1/2) · γ + β) 0 · W + b,

  and, for each of the 25 tiles of 2000 rows, on 8 identical rows per tile, the tile's column sums of `Z2` and of `Z2 · Z2`.

  The kernel visits the tiles in order.  At tile `t` it reads rows `2000 t …` of `z` and the small arrays whole, forms the
  2000 × 300 block of `Z2` by one block product, and writes the block and its two rows of column sums.  Read at one entry,
  the block product is the sum over the 300 contracted coordinates and a lane sum is the sum over the block's 2000 rows;
  an entry of a block is the entry of the array at block index × block size + its own coordinate; the blocks tile the arrays.
-/
import proofs.«144515_j12352325943894_2_alg».proof.Proof.Spec
import proofs.«144515_j12352325943894_2_alg».proof.Proof.FrameKI.R7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg7

open Idealize.ShloMosaic Idealize.ShloMosaic.TcCoe Idealize.ShloMosaic.ValueIdx
open Idealize.ShloMosaic.Pipeline (Dat)
open Cert.KernelIdeal Cert.KernelIdeal.Gen

/-! ## The block product at an index -/

theorem lhs_mm_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_mm_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_mm_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_mm_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The block product into the zero splat, at row `p` and column `q`: the sum over the 300 contracted coordinates. -/
theorem mm_apply (a : FVec Ideal S2000x300 .bf16) (w : FVec Ideal S300x300 .bf16) (p : Fin 2000) (q : Fin 300) :
    matmul dot_S2000x300_S300x300_S2000x300_1_0_0_1_n_n none a w (constant (F := Ideal) S2000x300 .f32 0x00000000#32) (ix2 p q)
      = ∑ k : Fin 300, a (ix2 p k) * w (ix2 k q) := by
  simp only [matmul]
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k :=
    funext fun a => Fin.ext (by
      match a with
      | ⟨0, _⟩ => exact lhs_mm_0 _ _
      | ⟨1, _⟩ => exact (lhs_mm_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q :=
    funext fun a => Fin.ext (by
      match a with
      | ⟨0, _⟩ => exact (rhs_mm_0 _ _).trans hk
      | ⟨1, _⟩ => exact rhs_mm_1 _ _)
  rw [el, er]

/-! ## The payload at an index -/

/-- The affine image of the normalised, rectified block, at row `p` and column `q` of the block. -/
theorem pay3_apply (x0 : Vec Ideal S2000x300 .bf16) (xv xm xg xb : Vec Ideal S1x300 .f32) (xW : Vec Ideal S300x300 .f32)
    (xc : Vec Ideal S1x300 .f32) (p : Fin 2000) (q : Fin 300) :
    k7_pay3 x0 xv xm xg xb xW xc (ix2 p q)
      = (∑ k : Fin 300, max ((x0 (ix2 p k) - xm (ix2 0 k)) * Ideal.rsqrt (xv (ix2 0 k) + Ideal.ofBits .f32 0x3727C5AC#32) * xg (ix2 0 k)
            + xb (ix2 0 k)) (Ideal.ofBits .f32 0x00000000#32) * xW (ix2 k q)) + xc (ix2 0 q) := by
  unfold k7_pay3
  simp only [shapeCast_self]
  rw [addf_apply, mm_apply, broadcastTo_1b_ab_apply]
  refine congrArg (· + _) (Finset.sum_congr rfl fun k _ => ?_)
  rw [truncf_apply, truncf_apply, maximumf_apply, addf_apply, mulf_apply, mulf_apply, subf_apply, extf_apply,
    broadcastTo_1b_ab_apply, broadcastTo_1b_ab_apply, broadcastTo_1b_ab_apply, broadcastTo_1b_ab_apply]
  rfl

/-- A sum over the block's 2000 rows, read at column `q`. -/
theorem colsum_apply (src : FVec Ideal S2000x300 .f32) (h : S2000x300.Reduces [0] S300) (hφ : FKind.Formats .f32)
    (hacc : (0x00000000#32 : BitVec FTy.f32.bits) = FKind.add.neutral .f32 hφ) (q : Fin 300) :
    multiReduction (F := Ideal) .add [0] S300 src 0x00000000#32 h hφ hacc (ix1 q) = ∑ p : Fin 2000, src (ix2 p q) := by
  refine (Ideal.multiReduction_add_single src 0x00000000#32 h hφ hacc (ix1 q)).trans ?_
  show ∑ p : Fin 2000, src (h.lift (ix1 q) p) = _
  refine Finset.sum_congr rfl fun p _ => congrArg src ?_
  funext a
  match a with
  | ⟨0, _⟩ => rfl
  | ⟨1, _⟩ => rfl

/-- The first partial-sum block: every one of its 8 rows holds the block's column sums. -/
theorem sum_pay_apply (x0 : Vec Ideal S2000x300 .bf16) (xv xm xg xb : Vec Ideal S1x300 .f32) (xW : Vec Ideal S300x300 .f32)
    (xc : Vec Ideal S1x300 .f32) (r : Fin 8) (q : Fin 300) :
    k7_pay1 (k7_pay5 x0 xv xm xg xb xW xc) (ix2 r q) = ∑ p : Fin 2000, k7_pay3 x0 xv xm xg xb xW xc (ix2 p q) := by
  unfold k7_pay1 k7_pay5
  simp only [shapeCast_self]
  rw [broadcastTo_1b_ab_apply, shapeCast_a_1a_apply]
  exact colsum_apply _ _ _ _ q

/-- The second: every row holds the column sums of the squares. -/
theorem sq_pay_apply (x0 : Vec Ideal S2000x300 .bf16) (xv xm xg xb : Vec Ideal S1x300 .f32) (xW : Vec Ideal S300x300 .f32)
    (xc : Vec Ideal S1x300 .f32) (r : Fin 8) (q : Fin 300) :
    k7_pay2 (k7_pay6 x0 xv xm xg xb xW xc) (ix2 r q)
      = ∑ p : Fin 2000, k7_pay3 x0 xv xm xg xb xW xc (ix2 p q) * k7_pay3 x0 xv xm xg xb xW xc (ix2 p q) := by
  unfold k7_pay2 k7_pay6
  simp only [shapeCast_self]
  rw [broadcastTo_1b_ab_apply, shapeCast_a_1a_apply]
  exact colsum_apply _ _ _ _ q

/-! ## A block's payload as rows of the whole-array function -/

/-- Where the loaded blocks are row `n` of the features and the whole small arrays, the payload at `(p, q)` is the
    normalised, rectified features' affine image at `(n, q)`. -/
theorem z_point (Zin : GIN.Mat) (mu v g be : GIN.Col) (W : GIN.Wt) (b : GIN.Col)
    (x0 : Vec Ideal S2000x300 .bf16) (xm xv xg xb : Vec Ideal S1x300 .f32) (xW : Vec Ideal S300x300 .f32)
    (xc : Vec Ideal S1x300 .f32) (p : Fin 2000) (q : Fin 300) (n : Fin 50000)
    (h0 : ∀ k : Fin 300, x0 (ix2 p k) = Zin (ix2 n k))
    (hm : ∀ k : Fin 300, xm (ix2 0 k) = mu (ix1 k)) (hv : ∀ k : Fin 300, xv (ix2 0 k) = v (ix1 k))
    (hg : ∀ k : Fin 300, xg (ix2 0 k) = g (ix1 k)) (hb : ∀ k : Fin 300, xb (ix2 0 k) = be (ix1 k))
    (hW : ∀ k j : Fin 300, xW (ix2 k j) = W (ix2 k j)) (hc : ∀ k : Fin 300, xc (ix2 0 k) = b (ix1 k)) :
    k7_pay3 x0 xv xm xg xb xW xc (ix2 p q) = GIN.lin (GIN.bnrelu Zin mu v g be) W b (ix2 n q) := by
  rw [pay3_apply]
  unfold GIN.lin GIN.bnrelu GIN.cEps GIN.c0
  simp only [h0, hm, hv, hg, hb, hW, hc]

/-! ## The region's arrays -/

variable (V : (c : Dev nD) → (b : Ref sig .tc) → Buf (Elt Ideal) ((c : Thread nD τ).loc b))

/-- The arrays the region reads, as it finds them: the features, the column statistics and parameters, the weights. -/
abbrev zIn (c : Dev nD) : GIN.Mat := V c (Pipeline.arrRef spec7 0)
abbrev muIn (c : Dev nD) : GIN.Col := fun j => (V c (Pipeline.arrRef spec7 1) : S1x300.Idx → EReal) (ix2 0 (j 0))
abbrev varIn (c : Dev nD) : GIN.Col := fun j => (V c (Pipeline.arrRef spec7 2) : S1x300.Idx → EReal) (ix2 0 (j 0))
abbrev gIn (c : Dev nD) : GIN.Col := fun j => (V c (Pipeline.arrRef spec7 3) : S1x300.Idx → EReal) (ix2 0 (j 0))
abbrev beIn (c : Dev nD) : GIN.Col := fun j => (V c (Pipeline.arrRef spec7 4) : S1x300.Idx → EReal) (ix2 0 (j 0))
abbrev wIn (c : Dev nD) : GIN.Wt := V c (Pipeline.arrRef spec7 5)
abbrev bIn (c : Dev nD) : GIN.Col := fun j => (V c (Pipeline.arrRef spec7 6) : S1x300.Idx → EReal) (ix2 0 (j 0))

/-- What the region computes: the normalised, rectified features' affine image. -/
abbrev Z2 (c : Dev nD) : GIN.Mat :=
  GIN.lin (GIN.bnrelu (zIn V c) (muIn V c) (varIn V c) (gIn V c) (beIn V c)) (wIn V c) (bIn V c)

theorem hz : (![0, 0] : Fin 2 → Nat) = fun _ => 0 := funext fun a => by fin_cases a <;> rfl

/-- The index maps over the 25 points: the row-blocked windows sit at block `(t, 0)`, the whole-array ones at `(0, 0)`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0
    ∧ win7_8.index t (0 : Fin 2) = t.val ∧ win7_8.index t (1 : Fin 2) = 0
    ∧ win7_9.index t (0 : Fin 2) = t.val ∧ win7_9.index t (1 : Fin 2) = 0 :=
  (by decide +kernel : ∀ t : Fin grid7.N, _)

/-! ## The input blocks as parts of the arrays -/

/-- Row `p` of the features' block at point `t` is row `2000 t + p` of the features. -/
theorem z_blk (c : Dev nD) (t : Fin cfg7.N) (p : Fin 2000) (q : Fin 300) (n : Fin 50000) (hn : n.val = 2000 * t.val + p.val) :
    (iblk7 V c 0 t : Vec Ideal S2000x300 .bf16) (ix2 p q) = zIn V c (ix2 n q) := by
  obtain ⟨e0, e1, -⟩ := idx_facts t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 2000 + 1 * p.val = n.val; rw [e0, hn]; omega
  | ⟨1, _⟩ => show win7_0.index t (1 : Fin 2) * 300 + 1 * q.val = q.val; rw [e1]; omega

/-- The one-row windows hold their whole arrays at every point: the column means, -/
theorem mu_blk (c : Dev nD) (t : Fin cfg7.N) (k : Fin 300) :
    (iblk7 V c 1 t : Vec Ideal S1x300 .f32) (ix2 0 k) = muIn V c (ix1 k) := by
  obtain ⟨-, -, e0, e1, -⟩ := idx_facts t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * 0 = 0; rw [e0]
  | ⟨1, _⟩ => show win7_1.index t (1 : Fin 2) * 300 + 1 * k.val = k.val; rw [e1]; omega

/-- the column variances, -/
theorem var_blk (c : Dev nD) (t : Fin cfg7.N) (k : Fin 300) :
    (iblk7 V c 2 t : Vec Ideal S1x300 .f32) (ix2 0 k) = varIn V c (ix1 k) := by
  obtain ⟨-, -, -, -, e0, e1, -⟩ := idx_facts t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * 0 = 0; rw [e0]
  | ⟨1, _⟩ => show win7_2.index t (1 : Fin 2) * 300 + 1 * k.val = k.val; rw [e1]; omega

/-- the scales, -/
theorem g_blk (c : Dev nD) (t : Fin cfg7.N) (k : Fin 300) :
    (iblk7 V c 3 t : Vec Ideal S1x300 .f32) (ix2 0 k) = gIn V c (ix1 k) := by
  obtain ⟨-, -, -, -, -, -, e0, e1, -⟩ := idx_facts t
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 1 + 1 * 0 = 0; rw [e0]
  | ⟨1, _⟩ => show win7_3.index t (1 : Fin 2) * 300 + 1 * k.val = k.val; rw [e1]; omega

/-- the shifts, -/
theorem be_blk (c : Dev nD) (t : Fin cfg7.N) (k : Fin 300) :
    (iblk7 V c 4 t : Vec Ideal S1x300 .f32) (ix2 0 k) = beIn V c (ix1 k) := by
  obtain ⟨-, -, -, -, -, -, -, -, e0, e1, -⟩ := idx_facts t
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * 0 = 0; rw [e0]
  | ⟨1, _⟩ => show win7_4.index t (1 : Fin 2) * 300 + 1 * k.val = k.val; rw [e1]; omega

/-- the affine map's vector, -/
theorem b_blk (c : Dev nD) (t : Fin cfg7.N) (k : Fin 300) :
    (iblk7 V c 6 t : Vec Ideal S1x300 .f32) (ix2 0 k) = bIn V c (ix1 k) := by
  obtain ⟨-, -, -, -, -, -, -, -, -, -, -, -, e0, e1, -⟩ := idx_facts t
  unfold iblk7
  rw [View.read_apply]
  show V c (Pipeline.arrRef spec7 6) _ = V c (Pipeline.arrRef spec7 6) _
  congr 1
  funext a
  apply Fin.ext
  match a with
  | ⟨0, _⟩ => show win7_6.index t (0 : Fin 2) * 1 + 1 * 0 = 0; rw [e0]
  | ⟨1, _⟩ => show win7_6.index t (1 : Fin 2) * 300 + 1 * k.val = k.val; rw [e1]; omega

/-- and the weights' window holds the whole matrix. -/
theorem w_blk (c : Dev nD) (t : Fin cfg7.N) (k j : Fin 300) :
    (iblk7 V c 5 t : Vec Ideal S300x300 .f32) (ix2 k j) = wIn V c (ix2 k j) := by
  obtain ⟨-, -, -, -, -, -, -, -, -, -, e0, e1, -⟩ := idx_facts t
  unfold iblk7
  rw [View.read_apply]
  show V c (Pipeline.arrRef spec7 5) _ = V c (Pipeline.arrRef spec7 5) _
  congr 1
  funext a
  apply Fin.ext
  match a with
  | ⟨0, _⟩ => show win7_5.index t (0 : Fin 2) * 300 + 1 * k.val = k.val; rw [e0]; omega
  | ⟨1, _⟩ => show win7_5.index t (1 : Fin 2) * 300 + 1 * j.val = j.val; rw [e1]; omega

/-- The payload of point `t`'s blocks at `(p, q)` is the region's function at row `2000 t + p`. -/
theorem pay_blk (c : Dev nD) (t : Fin cfg7.N) (p : Fin 2000) (q : Fin 300) (n : Fin 50000) (hn : n.val = 2000 * t.val + p.val) :
    k7_pay3 (iblk7 V c 0 t) (iblk7 V c 2 t) (iblk7 V c 1 t) (iblk7 V c 3 t) (iblk7 V c 4 t) (iblk7 V c 5 t) (iblk7 V c 6 t) (ix2 p q)
      = Z2 V c (ix2 n q) :=
  z_point (zIn V c) (muIn V c) (varIn V c) (gIn V c) (beIn V c) (wIn V c) (bIn V c)
    (iblk7 V c 0 t) (iblk7 V c 1 t) (iblk7 V c 2 t) (iblk7 V c 3 t) (iblk7 V c 4 t) (iblk7 V c 5 t) (iblk7 V c 6 t) p q n
    (fun k => z_blk V c t p k n hn) (mu_blk V c t) (var_blk V c t) (g_blk V c t) (be_blk V c t) (w_blk V c t) (b_blk V c t)

/-! ## What each point writes back -/

/-- Point `t` writes back rows `2000 t … 2000 t + 1999` of the region's function. -/
theorem z_flushed (c : Dev nD) (t : Fin cfg7.N) :
    (dat7 V c).flushed 7 t = ((cfg7.win 7).blk t).view.read (Elt Ideal) (Z2 V c) := by
  show (cfg7.win 7).cut (grid7.coords t) ((dat7 V c).after 7 t) = _
  rw [after7_7]
  unfold out7_7
  rw [View.canon_unit_zero hz]
  simp only [View.ld_unit_zero (S := S2000x300) hz, View.ld_unit_zero (S := S1x300) hz, View.ld_unit_zero (S := S300x300) hz]
  funext j
  obtain ⟨p, q, rfl⟩ : ∃ (p : Fin 2000) (q : Fin 300), j = ix2 p q := ⟨j 0, j 1, eq_ix2 j⟩
  obtain ⟨-, -, -, -, -, -, -, -, -, -, -, -, -, -, e0, e1, -⟩ := idx_facts t
  have ht : t.val < 25 := t.isLt
  have hn : 2000 * t.val + p.val < 50000 := by have := p.isLt; omega
  have hemb : ((cfg7.win 7).blk t).view.emb (ix2 p q) = (ix2 (⟨2000 * t.val + p.val, hn⟩ : Fin 50000) q : S50000x300.Idx) := by
    funext a
    apply Fin.ext
    match a with
    | ⟨0, _⟩ => show win7_7.index t (0 : Fin 2) * 2000 + 1 * p.val = 2000 * t.val + p.val; rw [e0]; omega
    | ⟨1, _⟩ => show win7_7.index t (1 : Fin 2) * 300 + 1 * q.val = q.val; rw [e1]; omega
  show k7_pay3 (iblk7 V c 0 t) (iblk7 V c 2 t) (iblk7 V c 1 t) (iblk7 V c 3 t) (iblk7 V c 4 t) (iblk7 V c 5 t) (iblk7 V c 6 t) (ix2 p q)
    = Z2 V c (((cfg7.win 7).blk t).view.emb (ix2 p q))
  rw [hemb]
  exact pay_blk V c t p q ⟨_, hn⟩ rfl

/-- Row `8 t + r` of the partial sums' arrays is tile `t`'s. -/
theorem tileRow_blk (t : Fin 25) (r : Fin 8) (p : Fin 2000) (h : 8 * t.val + r.val < 200) (hn : 2000 * t.val + p.val < 50000) :
    GIN.tileRow ⟨8 * t.val + r.val, h⟩ p = ⟨2000 * t.val + p.val, hn⟩ := by
  apply Fin.ext
  show 2000 * ((8 * t.val + r.val) / 8) + p.val = 2000 * t.val + p.val
  have := r.isLt
  omega

/-- Point `t` writes back rows `8 t … 8 t + 7` of the tiles' column sums, -/
theorem s_flushed (c : Dev nD) (t : Fin cfg7.N) :
    (dat7 V c).flushed 8 t = ((cfg7.win 8).blk t).view.read (Elt Ideal) (GIN.tileSum (Z2 V c)) := by
  show (cfg7.win 8).cut (grid7.coords t) ((dat7 V c).after 8 t) = _
  rw [after7_8]
  unfold out7_8
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, e0, e1, -⟩ := idx_facts t
  have ht : t.val < 25 := t.isLt
  have hP : 8 * t.val + r.val < 200 := by have := r.isLt; omega
  have hemb : ((cfg7.win 8).blk t).view.emb (ix2 r q) = (ix2 (⟨8 * t.val + r.val, hP⟩ : Fin 200) q : S200x300.Idx) := by
    funext a
    apply Fin.ext
    match a with
    | ⟨0, _⟩ => show win7_8.index t (0 : Fin 2) * 8 + 1 * r.val = 8 * t.val + r.val; rw [e0]; omega
    | ⟨1, _⟩ => show win7_8.index t (1 : Fin 2) * 300 + 1 * q.val = q.val; rw [e1]; omega
  show k7_pay1 (k7_pay5 (iblk7 V c 0 t) (iblk7 V c 2 t) (iblk7 V c 1 t) (iblk7 V c 3 t) (iblk7 V c 4 t) (iblk7 V c 5 t) (iblk7 V c 6 t)) (ix2 r q)
    = GIN.tileSum (Z2 V c) (((cfg7.win 8).blk t).view.emb (ix2 r q))
  rw [hemb, sum_pay_apply]
  show _ = ∑ p : Fin 2000, Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn]
  exact pay_blk V c t p q ⟨_, hn⟩ rfl

/-- and of the tiles' column sums of squares. -/
theorem q_flushed (c : Dev nD) (t : Fin cfg7.N) :
    (dat7 V c).flushed 9 t = ((cfg7.win 9).blk t).view.read (Elt Ideal) (GIN.tileSumSq (Z2 V c)) := by
  show (cfg7.win 9).cut (grid7.coords t) ((dat7 V c).after 9 t) = _
  rw [after7_9]
  unfold out7_9
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, -, -, e0, e1⟩ := idx_facts t
  have ht : t.val < 25 := t.isLt
  have hP : 8 * t.val + r.val < 200 := by have := r.isLt; omega
  have hemb : ((cfg7.win 9).blk t).view.emb (ix2 r q) = (ix2 (⟨8 * t.val + r.val, hP⟩ : Fin 200) q : S200x300.Idx) := by
    funext a
    apply Fin.ext
    match a with
    | ⟨0, _⟩ => show win7_9.index t (0 : Fin 2) * 8 + 1 * r.val = 8 * t.val + r.val; rw [e0]; omega
    | ⟨1, _⟩ => show win7_9.index t (1 : Fin 2) * 300 + 1 * q.val = q.val; rw [e1]; omega
  show k7_pay2 (k7_pay6 (iblk7 V c 0 t) (iblk7 V c 2 t) (iblk7 V c 1 t) (iblk7 V c 3 t) (iblk7 V c 4 t) (iblk7 V c 5 t) (iblk7 V c 6 t)) (ix2 r q)
    = GIN.tileSumSq (Z2 V c) (((cfg7.win 9).blk t).view.emb (ix2 r q))
  rw [hemb, sq_pay_apply]
  show _ = ∑ p : Fin 2000, Z2 V c (ix2 (GIN.tileRow ⟨8 * t.val + r.val, hP⟩ p) q) * Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn, pay_blk V c t p q ⟨_, hn⟩ rfl]

/-! ## The blocks cover the arrays -/

/-- An index of the features' array is in point `t`'s block iff each coordinate is in the block's range. -/
theorem mem_blk7 (t : Fin cfg7.N) (i : S50000x300.Idx) :
    i ∈ ((cfg7.win 7).blk t).view.set
      ↔ ∀ a : Fin 2, win7_7.index t a * S2000x300.size a ≤ (i a).val ∧ (i a).val < win7_7.index t a * S2000x300.size a + S2000x300.size a := by
  show i ∈ ((View.whole main_v181_0).slice (win7_7.rect t)).set ↔ _
  rw [View.set_slice_whole, Rect.mem_set_unit]
  exact Iff.rfl

theorem mem_blk8 (t : Fin cfg7.N) (i : S200x300.Idx) :
    i ∈ ((cfg7.win 8).blk t).view.set
      ↔ ∀ a : Fin 2, win7_8.index t a * S8x300.size a ≤ (i a).val ∧ (i a).val < win7_8.index t a * S8x300.size a + S8x300.size a := by
  show i ∈ ((View.whole main_v181_1).slice (win7_8.rect t)).set ↔ _
  rw [View.set_slice_whole, Rect.mem_set_unit]
  exact Iff.rfl

theorem mem_blk9 (t : Fin cfg7.N) (i : S200x300.Idx) :
    i ∈ ((cfg7.win 9).blk t).view.set
      ↔ ∀ a : Fin 2, win7_9.index t a * S8x300.size a ≤ (i a).val ∧ (i a).val < win7_9.index t a * S8x300.size a + S8x300.size a := by
  show i ∈ ((View.whole main_v181_2).slice (win7_9.rect t)).set ↔ _
  rw [View.set_slice_whole, Rect.mem_set_unit]
  exact Iff.rfl

/-- Row `n` of the features is in the block of point `n / 2000`. -/
theorem z_cover (i : S50000x300.Idx) :
    ∃ t : Fin cfg7.N, (cfg7.win 7).flush t = true ∧ i ∈ ((cfg7.win 7).blk t).view.set := by
  have hi0 : (i 0).val < 50000 := (i 0).isLt
  have hi1 : (i 1).val < 300 := (i 1).isLt
  have ht : (i 0).val / 2000 < 25 := by omega
  obtain ⟨-, -, -, -, -, -, -, -, -, -, -, -, -, -, e0, e1, -⟩ := idx_facts (⟨(i 0).val / 2000, ht⟩ : Fin cfg7.N)
  refine ⟨⟨(i 0).val / 2000, ht⟩, flush7_7 _, ?_⟩
  rw [mem_blk7]
  intro a
  match a with
  | ⟨0, _⟩ =>
    show win7_7.index ⟨(i 0).val / 2000, ht⟩ (0 : Fin 2) * 2000 ≤ (i 0).val ∧ (i 0).val < win7_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_7.index ⟨(i 0).val / 2000, ht⟩ (1 : Fin 2) * 300 ≤ (i 1).val ∧ (i 1).val < win7_7.index ⟨(i 0).val / 2000, ht⟩ (1 : Fin 2) * 300 + 300
    rw [e1]; omega

/-- Row `P` of a partial sums' array is in the block of point `P / 8`. -/
theorem s_cover (i : S200x300.Idx) :
    ∃ t : Fin cfg7.N, (cfg7.win 8).flush t = true ∧ i ∈ ((cfg7.win 8).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, e0, e1, -⟩ := idx_facts (⟨(i 0).val / 8, ht⟩ : Fin cfg7.N)
  refine ⟨⟨(i 0).val / 8, ht⟩, flush7_8 _, ?_⟩
  rw [mem_blk8]
  intro a
  match a with
  | ⟨0, _⟩ =>
    show win7_8.index ⟨(i 0).val / 8, ht⟩ (0 : Fin 2) * 8 ≤ (i 0).val ∧ (i 0).val < win7_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win7_8.index ⟨(i 0).val / 8, ht⟩ (1 : Fin 2) * 300 ≤ (i 1).val ∧ (i 1).val < win7_8.index ⟨(i 0).val / 8, ht⟩ (1 : Fin 2) * 300 + 300
    rw [e1]; omega

theorem q_cover (i : S200x300.Idx) :
    ∃ t : Fin cfg7.N, (cfg7.win 9).flush t = true ∧ i ∈ ((cfg7.win 9).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, -, -, e0, e1⟩ := idx_facts (⟨(i 0).val / 8, ht⟩ : Fin cfg7.N)
  refine ⟨⟨(i 0).val / 8, ht⟩, flush7_9 _, ?_⟩
  rw [mem_blk9]
  intro a
  match a with
  | ⟨0, _⟩ =>
    show win7_9.index ⟨(i 0).val / 8, ht⟩ (0 : Fin 2) * 8 ≤ (i 0).val ∧ (i 0).val < win7_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win7_9.index ⟨(i 0).val / 8, ht⟩ (1 : Fin 2) * 300 ≤ (i 1).val ∧ (i 1).val < win7_9.index ⟨(i 0).val / 8, ht⟩ (1 : Fin 2) * 300 + 300
    rw [e1]; omega

/-! ## The three arrays after the region -/

/-- The features' array ends at the region's function of the arrays it read; -/
theorem z_final (c : Dev nD) : (dat7 V c).arrAt 7 cfg7.N = Z2 V c :=
  (dat7 V c).arrAt_eq_of_cover 7 (Z2 V c) (fun t _ => z_flushed V c t) z_cover

/-- the first partial sums' array at its tiles' column sums, each on 8 rows; -/
theorem s_final (c : Dev nD) : (dat7 V c).arrAt 8 cfg7.N = GIN.tileSum (Z2 V c) :=
  (dat7 V c).arrAt_eq_of_cover 8 (GIN.tileSum (Z2 V c)) (fun t _ => s_flushed V c t) s_cover

/-- the second at the column sums of squares. -/
theorem q_final (c : Dev nD) : (dat7 V c).arrAt 9 cfg7.N = GIN.tileSumSq (Z2 V c) :=
  (dat7 V c).arrAt_eq_of_cover 9 (GIN.tileSumSq (Z2 V c)) (fun t _ => q_flushed V c t) q_cover

end Cert.KernelIdeal.Reg7

end
-- ==== Proof.KRegC8.lean ====
/-
  The third kernel of a layer (normalise, scale, shift, clamp), as a function of the arrays it finds.

  The grid has 25 points. At point `t` the kernel reads rows `2000 t … 2000 t + 1999` of the `50000 × 300` input `z`, and the
  four `1 × 300` rows `μ`, `v`, `γ`, `β` whole, and writes rows `2000 t … 2000 t + 1999` of the output:
  `max ((z - μ) · (v + ε)^(-1/2) · γ + β) 0`, entry by entry, each column with its own `μ`, `v`, `γ`, `β`.
  The 25 tiles of rows are disjoint and fill the array, so after the last point the output array is that function of the
  input arrays at every index: `GIN.bnrelu`.
-/
import proofs.«144515_j12352325943894_2_alg».proof.Proof.FrameKI.R8
import proofs.«144515_j12352325943894_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Reg8

open Cert.KernelIdeal Cert.KernelIdeal.Gen
open Idealize.ShloMosaic Idealize.ShloMosaic.TcCoe Idealize.ShloMosaic.ValueIdx Idealize.SL.Sem
open Idealize.ShloMosaic.Pipeline (Dat)

/-! ## The body at one entry of a block -/

/-- The body's result at row `p`, column `q` of a block: the block's entry, less the column's mean, times the
    inverse square root of the column's variance plus `ε`, times the column's scale, plus its shift, clamped at `0`.
    Widening the 16-bit entries is the identity over the extended reals; the four rows are repeated down the 2000 rows. -/
theorem pay_apply (x0 : Vec Ideal S2000x300 .bf16) (xv xm xg xb : Vec Ideal S1x300 .f32) (p : Fin 2000) (q : Fin 300) :
    k8_pay1 x0 xv xm xg xb (ix2 p q)
      = max ((x0 (ix2 p q) - xm (ix2 0 q)) * Ideal.rsqrt (xv (ix2 0 q) + GIN.cEps) * xg (ix2 0 q) + xb (ix2 0 q)) GIN.c0 := by
  unfold k8_pay1
  simp only [shapeCast_self]
  rw [maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-! ## Where the blocks sit in the arrays -/

theorem hz : (![0, 0] : Fin 2 → Nat) = fun _ => 0 := funext fun a => by fin_cases a <;> rfl

/-- The printed index maps over the 25 grid points: the two big windows sit at block `(t, 0)`, the four row
    windows at block `(0, 0)`. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- row `p` of tile `t` is row `2000 t + p` of the array -/
def row (t : Fin 25) (p : Fin 2000) : Fin 50000 := ⟨2000 * t.val + p.val, by have := t.isLt; have := p.isLt; omega⟩

/-- Entry `(p, q)` of the input's block at point `t` is entry `(2000 t + p, q)` of the array. -/
theorem emb0 (t : Fin cfg8.N) (p : Fin 2000) (q : Fin 300) :
    ((cfg8.win 0).blk t).view.emb (ix2 p q) = ix2 (row t p) q := by
  obtain ⟨e0, e1, -⟩ := idx_facts t
  funext a; apply Fin.ext
  match a with
  | ⟨0, _⟩ => show win8_0.index t (0 : Fin 2) * 2000 + 1 * p.val = 2000 * t.val + p.val; omega
  | ⟨1, _⟩ => show win8_0.index t (1 : Fin 2) * 300 + 1 * q.val = q.val; omega

/-- and so is entry `(p, q)` of the output's block. -/
theorem emb5 (t : Fin cfg8.N) (p : Fin 2000) (q : Fin 300) :
    ((cfg8.win 5).blk t).view.emb (ix2 p q) = ix2 (row t p) q := by
  obtain ⟨-, -, -, -, -, -, -, -, -, -, e0, e1⟩ := idx_facts t
  funext a; apply Fin.ext
  match a with
  | ⟨0, _⟩ => show win8_5.index t (0 : Fin 2) * 2000 + 1 * p.val = 2000 * t.val + p.val; omega
  | ⟨1, _⟩ => show win8_5.index t (1 : Fin 2) * 300 + 1 * q.val = q.val; omega

/-- Each row window's block is the whole row, at every point. -/
theorem emb1 (t : Fin cfg8.N) (q : Fin 300) :
    ((cfg8.win 1).blk t).view.emb (ix2 (0 : Fin 1) q) = ix2 (0 : Fin 1) q := by
  obtain ⟨-, -, e0, e1, -⟩ := idx_facts t
  funext a; apply Fin.ext
  match a with
  | ⟨0, _⟩ => show win8_1.index t (0 : Fin 2) * 1 + 1 * 0 = 0; omega
  | ⟨1, _⟩ => show win8_1.index t (1 : Fin 2) * 300 + 1 * q.val = q.val; omega

theorem emb2 (t : Fin cfg8.N) (q : Fin 300) :
    ((cfg8.win 2).blk t).view.emb (ix2 (0 : Fin 1) q) = ix2 (0 : Fin 1) q := by
  obtain ⟨-, -, -, -, e0, e1, -⟩ := idx_facts t
  funext a; apply Fin.ext
  match a with
  | ⟨0, _⟩ => show win8_2.index t (0 : Fin 2) * 1 + 1 * 0 = 0; omega
  | ⟨1, _⟩ => show win8_2.index t (1 : Fin 2) * 300 + 1 * q.val = q.val; omega

theorem emb3 (t : Fin cfg8.N) (q : Fin 300) :
    ((cfg8.win 3).blk t).view.emb (ix2 (0 : Fin 1) q) = ix2 (0 : Fin 1) q := by
  obtain ⟨-, -, -, -, -, -, e0, e1, -⟩ := idx_facts t
  funext a; apply Fin.ext
  match a with
  | ⟨0, _⟩ => show win8_3.index t (0 : Fin 2) * 1 + 1 * 0 = 0; omega
  | ⟨1, _⟩ => show win8_3.index t (1 : Fin 2) * 300 + 1 * q.val = q.val; omega

theorem emb4 (t : Fin cfg8.N) (q : Fin 300) :
    ((cfg8.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win8_4.index t (0 : Fin 2) * 1 + 1 * 0 = 0; omega
  | ⟨1, _⟩ => show win8_4.index t (1 : Fin 2) * 300 + 1 * q.val = q.val; omega

/-- An index of the array is in point `t`'s block iff each coordinate is in the block's range on its axis. -/
theorem mem_blk (t : Fin cfg8.N) (i : S50000x300.Idx) :
    i ∈ ((cfg8.win 5).blk t).view.set ↔ ∀ a : Fin 2, win8_5.index t a * S2000x300.size a ≤ (i a).val ∧ (i a).val < win8_5.index t a * S2000x300.size a + S2000x300.size a := by
  show i ∈ ((View.whole main_v204).slice (win8_5.rect t)).set ↔ _
  rw [View.set_slice_whole, Rect.mem_set_unit]
  exact Iff.rfl

/-- Row `r` of the array lies in tile `r / 2000`, so the 25 blocks cover the array. -/
theorem cover (i : S50000x300.Idx) :
    ∃ t : Fin cfg8.N, (cfg8.win 5).flush t = true ∧ i ∈ ((cfg8.win 5).blk t).view.set := by
  have hi0 : (i 0).val < 50000 := (i 0).isLt
  have hi1 : (i 1).val < 300 := (i 1).isLt
  have ht : (i 0).val / 2000 < 25 := by omega
  refine ⟨⟨(i 0).val / 2000, ht⟩, flush8_5 _, ?_⟩
  rw [mem_blk]
  obtain ⟨-, -, -, -, -, -, -, -, -, -, e0, e1⟩ := idx_facts ⟨(i 0).val / 2000, ht⟩
  intro a
  match a with
  | ⟨0, _⟩ =>
    show win8_5.index ⟨(i 0).val / 2000, ht⟩ (0 : Fin 2) * 2000 ≤ (i 0).val ∧ (i 0).val < win8_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win8_5.index ⟨(i 0).val / 2000, ht⟩ (1 : Fin 2) * 300 ≤ (i 1).val ∧ (i 1).val < win8_5.index ⟨(i 0).val / 2000, ht⟩ (1 : Fin 2) * 300 + 300
    rw [e1]; omega

/-! ## The output array after the region -/

variable (V : (c : Dev nD) → (b : Ref sig .tc) → Buf (Elt Ideal) ((c : Thread nD τ).loc b))

/-- the input `z` as the region finds it -/
abbrev Zin (c : Dev nD) : GIN.Mat := V c (Pipeline.arrRef spec8 0)
/-- the four rows as the region finds them, read as per-column vectors -/
abbrev mu (c : Dev nD) : GIN.Col := fun j => V c (Pipeline.arrRef spec8 1) (ix2 0 (j 0))
abbrev va (c : Dev nD) : GIN.Col := fun j => V c (Pipeline.arrRef spec8 2) (ix2 0 (j 0))
abbrev ga (c : Dev nD) : GIN.Col := fun j => V c (Pipeline.arrRef spec8 3) (ix2 0 (j 0))
abbrev be (c : Dev nD) : GIN.Col := fun j => V c (Pipeline.arrRef spec8 4) (ix2 0 (j 0))

/-- What point `t` writes back is block `t` of `GIN.bnrelu` of the input arrays: the body's result at `(p, q)` reads
    the input at `(2000 t + p, q)` and the rows at `q`, and that is the output's index `(2000 t + p, q)`. -/
theorem flushed_eq (c : Dev nD) (t : Fin cfg8.N) :
    (dat8 V c).flushed 5 t
      = ((cfg8.win 5).blk t).view.read (Elt Ideal) (GIN.bnrelu (Zin V c) (mu V c) (va V c) (ga V c) (be V c)) := by
  show (cfg8.win 5).cut (grid8.coords t) ((dat8 V c).after 5 t) = _
  rw [after8_5]
  unfold out8_5
  rw [View.canon_unit_zero hz]
  simp only [View.ld_unit_zero (S := S2000x300) hz, View.ld_unit_zero (S := S1x300) hz]
  funext j
  obtain ⟨p, q, rfl⟩ : ∃ (p : Fin 2000) (q : Fin 300), j = ix2 p q := ⟨j 0, j 1, eq_ix2 j⟩
  show k8_pay1 (iblk8 V c 0 t) (iblk8 V c 2 t) (iblk8 V c 1 t) (iblk8 V c 3 t) (iblk8 V c 4 t) (ix2 p q)
    = GIN.bnrelu (Zin V c) (mu V c) (va V c) (ga V c) (be V c) (((cfg8.win 5).blk t).view.emb (ix2 p q))
  rw [pay_apply, emb5]
  have h0 : iblk8 V c 0 t (ix2 p q) = Zin V c (ix2 (row t p) q) := by
    show V c (Pipeline.arrRef spec8 0) (((cfg8.win 0).blk t).view.emb (ix2 p q)) = _
    rw [emb0]
  have h1 : iblk8 V c 1 t (ix2 0 q) = V c (Pipeline.arrRef spec8 1) (ix2 0 q) := by
    show V c (Pipeline.arrRef spec8 1) (((cfg8.win 1).blk t).view.emb (ix2 (0 : Fin 1) q)) = _
    rw [emb1]
  have h2 : iblk8 V c 2 t (ix2 0 q) = V c (Pipeline.arrRef spec8 2) (ix2 0 q) := by
    show V c (Pipeline.arrRef spec8 2) (((cfg8.win 2).blk t).view.emb (ix2 (0 : Fin 1) q)) = _
    rw [emb2]
  have h3 : iblk8 V c 3 t (ix2 0 q) = V c (Pipeline.arrRef spec8 3) (ix2 0 q) := by
    show V c (Pipeline.arrRef spec8 3) (((cfg8.win 3).blk t).view.emb (ix2 (0 : Fin 1) q)) = _
    rw [emb3]
  have h4 : iblk8 V c 4 t (ix2 0 q) = V c (Pipeline.arrRef spec8 4) (ix2 0 q) := by
    show V c (Pipeline.arrRef spec8 4) (((cfg8.win 4).blk t).view.emb (ix2 (0 : Fin 1) q)) = _
    rw [emb4]
  rw [h0, h1, h2, h3, h4]
  rfl

/-- THE OUTPUT ARRAY after the region: `max ((z - μ) · (v + ε)^(-1/2) · γ + β) 0` of the arrays the region finds. -/
theorem h_final (c : Dev nD) :
    (dat8 V c).arrAt 5 cfg8.N
      = GIN.bnrelu (V c (Pipeline.arrRef spec8 0))
          (fun j : GIN.SD.Idx => V c (Pipeline.arrRef spec8 1) (ix2 0 (j 0)))
          (fun j : GIN.SD.Idx => V c (Pipeline.arrRef spec8 2) (ix2 0 (j 0)))
          (fun j : GIN.SD.Idx => V c (Pipeline.arrRef spec8 3) (ix2 0 (j 0)))
          (fun j : GIN.SD.Idx => V c (Pipeline.arrRef spec8 4) (ix2 0 (j 0))) :=
  (dat8 V c).arrAt_eq_of_cover 5 (GIN.bnrelu (Zin V c) (mu V c) (va V c) (ga V c) (be V c))
    (fun t _ => flushed_eq V c t) cover

end Cert.KernelIdeal.Reg8

end
-- ==== Proof.KRegA9.lean ====
/-
  The first kernel of a layer (region 9): the affine map of the node features plus their neighbour aggregate, and the
  tiles' partial sums of its result and of its square.

  The rows are cut into 25 tiles of 2000.  At tile `t` the body reads rows `2000 t … 2000 t + 1999` of the features `X0`
  and of the aggregate `X1`, the whole 300 × 300 weight matrix `X2` and the bias row `X3`, and forms
  `z = (x0 + x1) · X2 + X3` on those rows: entry `(p, q)` is `Σ_k (x0 p k + x1 p k) · X2 k q + X3 0 q` (over the extended
  reals a change of float format is the identity, and the product into a zero accumulator is the plain sum).  It writes
  `z` to rows `2000 t …` of the first result, the column sums `Σ_p z p q` to each of rows `8 t … 8 t + 7` of the second,
  and the column sums of `z p q · z p q` to the same rows of the third.

  Row `n` of a 50000-row array lies in tile `n / 2000` only, row `p` of a 200-row array in tile `p / 8` only, so after
  the 25 tiles the three results are, index by index, `Z = GIN.lin (X0 + X1) X2 X3`, `GIN.tileSum Z` and `GIN.tileSumSq Z`.
-/
import proofs.«144515_j12352325943894_2_alg».proof.Proof.FrameKI.R9
import proofs.«144515_j12352325943894_2_alg».proof.Proof.Spec
import Idealize.ShloMosaic.Lib.ValueIdx
import Idealize.ShloMosaic.Lib.Pipeline.Value
import Idealize.ShloMosaic.PureOps.Ideal.Laws

noncomputable section

namespace Cert.KernelIdeal.Reg9

open Idealize.ShloMosaic Idealize.ShloMosaic.TcCoe Idealize.ShloMosaic.ValueIdx Idealize.SL.Sem
open Idealize.ShloMosaic.Pipeline (Dat)
open Cert.KernelIdeal Cert.KernelIdeal.Gen

/-! ## The matrix product's operand indices, axis by axis -/

theorem lhs_axis0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_axis1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_axis0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_axis1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The product of a 2000×300 block by a 300×300 matrix into a zero accumulator, at row `p` and column `q`:
    the sum over the 300 shared coordinates. -/
theorem mm_apply (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) := by
  show FloatOps.matmul dot_S2000x300_S300x300_S2000x300_1_0_0_1_n_n none a b _ (ix2 p q) = _
  rw [Ideal.matmul_constant_zero_apply,
    ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q)
      ((contrEquiv1 dot_S2000x300_S300x300_S2000x300_1_0_0_1_n_n 300 rfl rfl).symm k) = ix2 p k :=
    funext fun ax => Fin.ext (by
      match ax with
      | ⟨0, _⟩ => exact lhs_axis0 _ _
      | ⟨1, _⟩ => exact (lhs_axis1 _ _).trans hk)
  have er : dot_S2000x300_S300x300_S2000x300_1_0_0_1_n_n.rhsIdx (ix2 p q)
      ((contrEquiv1 dot_S2000x300_S300x300_S2000x300_1_0_0_1_n_n 300 rfl rfl).symm k) = ix2 k q :=
    funext fun ax => Fin.ext (by
      match ax with
      | ⟨0, _⟩ => exact (rhs_axis0 _ _).trans hk
      | ⟨1, _⟩ => exact rhs_axis1 _ _)
  rw [el, er]

/-! ## The layout operations at an index -/

/-- A row vector spread over 2000 rows reads its entry of the same column. -/
theorem row2000_apply (x : S1x300.Idx → EReal) (h : S1x300.Broadcasts S2000x300) (p : Fin 2000) (q : Fin 300) :
    broadcastTo S2000x300 x h (ix2 p q) = x (ix2 0 q) :=
  broadcastTo_apply x h (ix2 p q) (ix2 0 q) (fun a => by
    match a with
    | ⟨0, _⟩ => rfl
    | ⟨1, _⟩ => rfl)

/-- A row vector spread over 8 rows reads its entry of the same column. -/
theorem row8_apply (x : S1x300.Idx → EReal) (h : S1x300.Broadcasts S8x300) (r : Fin 8) (q : Fin 300) :
    broadcastTo S8x300 x h (ix2 r q) = x (ix2 0 q) :=
  broadcastTo_apply x h (ix2 r q) (ix2 0 q) (fun a => by
    match a with
    | ⟨0, _⟩ => rfl
    | ⟨1, _⟩ => rfl)

/-- A vector of 300 viewed as one row reads the same entry. -/
theorem asRow_apply (x : S300.Idx → EReal) (h : S300.ShapeCasts S1x300) (q : Fin 300) :
    shapeCast S1x300 x h (ix2 0 q) = x (ix1 q) :=
  shapeCast_apply x h (ix2 0 q) (ix1 q) (by
    rw [Shape.rowMajor_val_one, Shape.rowMajor_val_two]
    show q.val = 0 * 300 + q.val
    omega)

/-- The sum over the 2000 rows of a block, column by column. -/
theorem colsum_apply (v : FVec Ideal S2000x300 .f32) (h : S2000x300.Reduces [0] S300) (hφ : FKind.Formats .f32)
    (hacc : (0x00000000#32 : BitVec 32) = FKind.add.neutral .f32 hφ) (q : Fin 300) :
    multiReduction .add [0] S300 v 0x00000000#32 h hφ hacc (ix1 q) = ∑ r : Fin 2000, v (ix2 r q) := by
  refine (Ideal.multiReduction_add_single v _ h hφ hacc (ix1 q)).trans ?_
  refine Finset.sum_congr rfl fun r _ => congrArg v ?_
  funext a
  apply Fin.ext
  match a with
  | ⟨0, _⟩ => rfl
  | ⟨1, _⟩ => rfl

/-! ## The body's three stored values at an index -/

/-- The affine map of the block's rows: row `p` of `x0 + x1` times column `q` of `x2`, plus the row vector's entry. -/
theorem pay1_apply (x0 x1 : Vec Ideal S2000x300 .f32) (x2 : Vec Ideal S300x300 .f32) (x3 : Vec Ideal S1x300 .f32)
    (p : Fin 2000) (q : Fin 300) :
    k9_pay1 (F := Ideal) x0 x1 x2 x3 (ix2 p q)
      = (∑ k : Fin 300, (x0 (ix2 p k) + x1 (ix2 p k)) * x2 (ix2 k q)) + x3 (ix2 0 q) := by
  unfold k9_pay1
  simp only [shapeCast_self]
  refine (addf_apply _ _ (ix2 p q)).trans ?_
  refine congrArg₂ (· + ·) ((mm_apply _ _ p q).trans ?_) (row2000_apply x3 _ p q)
  rfl

/-- The stored block in the narrower format is the same values. -/
theorem pay2_apply (x0 x1 : Vec Ideal S2000x300 .f32) (x2 : Vec Ideal S300x300 .f32) (x3 : Vec Ideal S1x300 .f32)
    (p : Fin 2000) (q : Fin 300) :
    k9_pay2 (F := Ideal) x0 x1 x2 x3 (ix2 p q)
      = (∑ k : Fin 300, (x0 (ix2 p k) + x1 (ix2 p k)) * x2 (ix2 k q)) + x3 (ix2 0 q) :=
  pay1_apply x0 x1 x2 x3 p q

/-- The block's column sums, on each of the 8 rows. -/
theorem pay3_apply (x0 x1 : Vec Ideal S2000x300 .f32) (x2 : Vec Ideal S300x300 .f32) (x3 : Vec Ideal S1x300 .f32)
    (r : Fin 8) (q : Fin 300) :
    k9_pay3 (F := Ideal) x0 x1 x2 x3 (ix2 r q) = ∑ p : Fin 2000, k9_pay1 (F := Ideal) x0 x1 x2 x3 (ix2 p q) := by
  unfold k9_pay3
  simp only [shapeCast_self]
  refine (row8_apply _ _ r q).trans ?_
  refine (asRow_apply _ _ q).trans ?_
  exact colsum_apply _ _ _ _ q

/-- The block's column sums of squares, on each of the 8 rows. -/
theorem pay4_apply (x0 x1 : Vec Ideal S2000x300 .f32) (x2 : Vec Ideal S300x300 .f32) (x3 : Vec Ideal S1x300 .f32)
    (r : Fin 8) (q : Fin 300) :
    k9_pay4 (F := Ideal) x0 x1 x2 x3 (ix2 r q)
      = ∑ p : Fin 2000, k9_pay1 (F := Ideal) x0 x1 x2 x3 (ix2 p q) * k9_pay1 (F := Ideal) x0 x1 x2 x3 (ix2 p q) := by
  unfold k9_pay4
  simp only [shapeCast_self]
  refine (row8_apply _ _ r q).trans ?_
  refine (asRow_apply _ _ q).trans ?_
  exact colsum_apply _ _ _ _ q

/-! ## The region's arrays, its blocks, and where a block sits in its array -/

section Arrays

variable (V : (c : Dev nD) → (b : Ref sig .tc) → Buf (Elt Ideal) ((c : Thread nD τ).loc b))

/-- the node features the region reads, 50000 × 300 -/
abbrev X0 (c : Dev nD) : GIN.Mat := V c (Pipeline.arrRef spec9 0)
/-- the neighbour aggregate, 50000 × 300 -/
abbrev X1 (c : Dev nD) : GIN.Mat := V c (Pipeline.arrRef spec9 1)
/-- the weight matrix, 300 × 300 -/
abbrev X2 (c : Dev nD) : GIN.Wt := V c (Pipeline.arrRef spec9 2)
/-- the bias, one row of 300 -/
abbrev X3 (c : Dev nD) : S1x300.Idx → EReal := V c (Pipeline.arrRef spec9 3)

/-- what the region computes: the affine map of `X0 + X1` -/
abbrev Z (c : Dev nD) : GIN.Mat :=
  GIN.lin (fun i => X0 V c i + X1 V c i) (X2 V c) (fun j => X3 V c (ix2 0 (j 0)))

/-- the four input windows' blocks at grid point `t` -/
abbrev B0 (c : Dev nD) (t : Fin cfg9.N) : Vec Ideal S2000x300 .f32 := iblk9 V c 0 t
abbrev B1 (c : Dev nD) (t : Fin cfg9.N) : Vec Ideal S2000x300 .f32 := iblk9 V c 1 t
abbrev B2 (c : Dev nD) (t : Fin cfg9.N) : Vec Ideal S300x300 .f32 := iblk9 V c 2 t
abbrev B3 (c : Dev nD) (t : Fin cfg9.N) : Vec Ideal S1x300 .f32 := iblk9 V c 3 t

theorem hz : (![0, 0] : Fin 2 → Nat) = fun _ => 0 := funext fun a => by
  match a with
  | ⟨0, _⟩ => rfl
  | ⟨1, _⟩ => rfl

/-- The index maps over the 25 grid points: the two big inputs and the three outputs move down one block per point,
    the weight matrix and the bias stay. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- Row `p` of the features' block at point `t` is row `2000 t + p` of the array. -/
theorem B0_apply (c : Dev nD) (t : Fin cfg9.N) (p : Fin 2000) (q : Fin 300) (n : Fin 50000)
    (hn : n.val = 2000 * t.val + p.val) : B0 V c t (ix2 p q) = X0 V c (ix2 n q) := by
  obtain ⟨e0, e1, -⟩ := idx_facts t
  show V c (Pipeline.arrRef spec9 0) (((cfg9.win 0).blk t).view.emb (ix2 p q)) = V c (Pipeline.arrRef spec9 0) (ix2 n q)
  refine congrArg _ (funext fun a => Fin.ext ?_)
  match a with
  | ⟨0, _⟩ => show win9_0.index t (0 : Fin 2) * 2000 + 1 * p.val = n.val; rw [e0, hn]; omega
  | ⟨1, _⟩ => show win9_0.index t (1 : Fin 2) * 300 + 1 * q.val = q.val; rw [e1]; omega

/-- The same for the aggregate's block. -/
theorem B1_apply (c : Dev nD) (t : Fin cfg9.N) (p : Fin 2000) (q : Fin 300) (n : Fin 50000)
    (hn : n.val = 2000 * t.val + p.val) : B1 V c t (ix2 p q) = X1 V c (ix2 n q) := by
  obtain ⟨-, -, e0, e1, -⟩ := idx_facts t
  show V c (Pipeline.arrRef spec9 1) (((cfg9.win 1).blk t).view.emb (ix2 p q)) = V c (Pipeline.arrRef spec9 1) (ix2 n q)
  refine congrArg _ (funext fun a => Fin.ext ?_)
  match a with
  | ⟨0, _⟩ => show win9_1.index t (0 : Fin 2) * 2000 + 1 * p.val = n.val; rw [e0, hn]; omega
  | ⟨1, _⟩ => show win9_1.index t (1 : Fin 2) * 300 + 1 * q.val = q.val; rw [e1]; omega

/-- The weight matrix's block is the whole matrix at every point. -/
theorem B2_apply (c : Dev nD) (t : Fin cfg9.N) (k q : Fin 300) : B2 V c t (ix2 k q) = X2 V c (ix2 k q) := by
  obtain ⟨-, -, -, -, e0, e1, -⟩ := idx_facts t
  show V c (Pipeline.arrRef spec9 2) (((cfg9.win 2).blk t).view.emb (ix2 k q)) = V c (Pipeline.arrRef spec9 2) (ix2 k q)
  refine congrArg _ (funext fun a => Fin.ext ?_)
  match a with
  | ⟨0, _⟩ => show win9_2.index t (0 : Fin 2) * 300 + 1 * k.val = k.val; rw [e0]; omega
  | ⟨1, _⟩ => show win9_2.index t (1 : Fin 2) * 300 + 1 * q.val = q.val; rw [e1]; omega

/-- The bias's block is the whole row at every point. -/
theorem B3_apply (c : Dev nD) (t : Fin cfg9.N) (q : Fin 300) : B3 V c t (ix2 0 q) = X3 V c (ix2 0 q) := by
  obtain ⟨-, -, -, -, -, -, e0, e1, -⟩ := idx_facts t
  show V c (Pipeline.arrRef spec9 3) (((cfg9.win 3).blk t).view.emb (ix2 0 q)) = V c (Pipeline.arrRef spec9 3) (ix2 0 q)
  refine congrArg _ (funext fun a => Fin.ext ?_)
  match a with
  | ⟨0, _⟩ => show win9_3.index t (0 : Fin 2) * 1 + 1 * 0 = 0; rw [e0]
  | ⟨1, _⟩ => show win9_3.index t (1 : Fin 2) * 300 + 1 * q.val = q.val; rw [e1]; omega

/-! ## The body's values on the blocks are the network's values on the arrays -/

/-- Row `p` of the affine map of the blocks at point `t` is row `2000 t + p` of `Z`. -/
theorem pay1_block (c : Dev nD) (t : Fin cfg9.N) (p : Fin 2000) (q : Fin 300) (n : Fin 50000)
    (hn : n.val = 2000 * t.val + p.val) :
    k9_pay1 (F := Ideal) (B0 V c t) (B1 V c t) (B2 V c t) (B3 V c t) (ix2 p q) = Z V c (ix2 n q) := by
  refine (pay1_apply _ _ _ _ p q).trans ?_
  show _ = (∑ k : Fin 300, (X0 V c (ix2 n k) + X1 V c (ix2 n k)) * X2 V c (ix2 k q)) + X3 V c (ix2 0 q)
  refine congrArg₂ (· + ·) (Finset.sum_congr rfl fun k _ => ?_) (B3_apply V c t q)
  rw [B0_apply V c t p k n hn, B1_apply V c t p k n hn, B2_apply V c t k q]

/-- The stored block of window 4, entry by entry. -/
theorem out4_at (c : Dev nD) (t : Fin cfg9.N) (j : S2000x300.Idx) (n : Fin 50000)
    (hn : n.val = 2000 * t.val + (j 0).val) :
    k9_pay2 (F := Ideal) (B0 V c t) (B1 V c t) (B2 V c t) (B3 V c t) j = Z V c (ix2 n (j 1)) := by
  obtain ⟨p, q, rfl⟩ : ∃ (p : Fin 2000) (q : Fin 300), j = ix2 p q := ⟨j 0, j 1, eq_ix2 j⟩
  exact pay1_block V c t p q n hn

/-- The stored block of window 5: each of its 8 rows is the tile's column sums of `Z`. -/
theorem out5_at (c : Dev nD) (t : Fin cfg9.N) (j : S8x300.Idx) (s : Fin 200)
    (hs : s.val = 8 * t.val + (j 0).val) :
    k9_pay3 (F := Ideal) (B0 V c t) (B1 V c t) (B2 V c t) (B3 V c t) j = GIN.tileSum (Z V c) (ix2 s (j 1)) := by
  obtain ⟨r, q, rfl⟩ : ∃ (r : Fin 8) (q : Fin 300), j = ix2 r q := ⟨j 0, j 1, eq_ix2 j⟩
  refine (pay3_apply _ _ _ _ r q).trans ?_
  show _ = ∑ p : Fin 2000, Z V c (ix2 (GIN.tileRow s p) q)
  refine Finset.sum_congr rfl fun p _ => pay1_block V c t p q (GIN.tileRow s p) ?_
  show 2000 * (s.val / 8) + p.val = 2000 * t.val + p.val
  have hr : r.val < 8 := r.isLt
  have hs' : s.val = 8 * t.val + r.val := hs
  omega

/-- The stored block of window 6: each of its 8 rows is the tile's column sums of the squares of `Z`. -/
theorem out6_at (c : Dev nD) (t : Fin cfg9.N) (j : S8x300.Idx) (s : Fin 200)
    (hs : s.val = 8 * t.val + (j 0).val) :
    k9_pay4 (F := Ideal) (B0 V c t) (B1 V c t) (B2 V c t) (B3 V c t) j = GIN.tileSumSq (Z V c) (ix2 s (j 1)) := by
  obtain ⟨r, q, rfl⟩ : ∃ (r : Fin 8) (q : Fin 300), j = ix2 r q := ⟨j 0, j 1, eq_ix2 j⟩
  refine (pay4_apply _ _ _ _ r q).trans ?_
  show _ = ∑ p : Fin 2000, Z V c (ix2 (GIN.tileRow s p) q) * Z V c (ix2 (GIN.tileRow s p) q)
  have hr : r.val < 8 := r.isLt
  have hs' : s.val = 8 * t.val + r.val := hs
  refine Finset.sum_congr rfl fun p _ => ?_
  have e := pay1_block V c t p q (GIN.tileRow s p) (by
    show 2000 * (s.val / 8) + p.val = 2000 * t.val + p.val
    omega)
  rw [e]

/-! ## What each grid point writes back, and the arrays after the region -/

/-- Point `t` writes back rows `2000 t … 2000 t + 1999` of `Z`. -/
theorem flushed4_eq (c : Dev nD) (t : Fin cfg9.N) :
    (dat9 V c).flushed 4 t = ((cfg9.win 4).blk t).view.read (Elt Ideal) (Z V c) := by
  show (cfg9.win 4).cut (grid9.coords t) ((dat9 V c).after 4 t) = _
  rw [after9_4]
  unfold out9_4
  rw [View.canon_unit_zero hz]
  simp only [View.ld_unit_zero (S := S2000x300) hz, View.ld_unit_zero (S := S300x300) hz, View.ld_unit_zero (S := S1x300) hz]
  obtain ⟨-, -, -, -, -, -, -, -, e0, e1, -⟩ := idx_facts t
  have ht : t.val < 25 := t.isLt
  funext j
  have hj : (j 0).val < 2000 := (j 0).isLt
  show k9_pay2 (F := Ideal) (B0 V c t) (B1 V c t) (B2 V c t) (B3 V c t) j = Z V c (((cfg9.win 4).blk t).view.emb j)
  refine (out4_at V c t j ⟨2000 * t.val + (j 0).val, by omega⟩ rfl).trans ?_
  refine congrArg (Z V c) (funext fun a => Fin.ext ?_)
  match a with
  | ⟨0, _⟩ => show 2000 * t.val + (j 0).val = win9_4.index t (0 : Fin 2) * 2000 + 1 * (j 0).val; rw [e0]; omega
  | ⟨1, _⟩ => show (j 1).val = win9_4.index t (1 : Fin 2) * 300 + 1 * (j 1).val; rw [e1]; omega

/-- Point `t` writes back rows `8 t … 8 t + 7` of the tiles' column sums. -/
theorem flushed5_eq (c : Dev nD) (t : Fin cfg9.N) :
    (dat9 V c).flushed 5 t = ((cfg9.win 5).blk t).view.read (Elt Ideal) (GIN.tileSum (Z V c)) := by
  show (cfg9.win 5).cut (grid9.coords t) ((dat9 V c).after 5 t) = _
  rw [after9_5]
  unfold out9_5
  rw [View.canon_unit_zero hz]
  simp only [View.ld_unit_zero (S := S2000x300) hz, View.ld_unit_zero (S := S300x300) hz, View.ld_unit_zero (S := S1x300) hz]
  obtain ⟨-, -, -, -, -, -, -, -, -, -, e0, e1, -⟩ := idx_facts t
  have ht : t.val < 25 := t.isLt
  funext j
  have hj : (j 0).val < 8 := (j 0).isLt
  show k9_pay3 (F := Ideal) (B0 V c t) (B1 V c t) (B2 V c t) (B3 V c t) j = GIN.tileSum (Z V c) (((cfg9.win 5).blk t).view.emb j)
  refine (out5_at V c t j ⟨8 * t.val + (j 0).val, by omega⟩ rfl).trans ?_
  refine congrArg (GIN.tileSum (Z V c)) (funext fun a => Fin.ext ?_)
  match a with
  | ⟨0, _⟩ => show 8 * t.val + (j 0).val = win9_5.index t (0 : Fin 2) * 8 + 1 * (j 0).val; rw [e0]; omega
  | ⟨1, _⟩ => show (j 1).val = win9_5.index t (1 : Fin 2) * 300 + 1 * (j 1).val; rw [e1]; omega

/-- Point `t` writes back rows `8 t … 8 t + 7` of the tiles' column sums of squares. -/
theorem flushed6_eq (c : Dev nD) (t : Fin cfg9.N) :
    (dat9 V c).flushed 6 t = ((cfg9.win 6).blk t).view.read (Elt Ideal) (GIN.tileSumSq (Z V c)) := by
  show (cfg9.win 6).cut (grid9.coords t) ((dat9 V c).after 6 t) = _
  rw [after9_6]
  unfold out9_6
  rw [View.canon_unit_zero hz]
  simp only [View.ld_unit_zero (S := S2000x300) hz, View.ld_unit_zero (S := S300x300) hz, View.ld_unit_zero (S := S1x300) hz]
  obtain ⟨-, -, -, -, -, -, -, -, -, -, -, -, e0, e1⟩ := idx_facts t
  have ht : t.val < 25 := t.isLt
  funext j
  have hj : (j 0).val < 8 := (j 0).isLt
  show k9_pay4 (F := Ideal) (B0 V c t) (B1 V c t) (B2 V c t) (B3 V c t) j = GIN.tileSumSq (Z V c) (((cfg9.win 6).blk t).view.emb j)
  refine (out6_at V c t j ⟨8 * t.val + (j 0).val, by omega⟩ rfl).trans ?_
  refine congrArg (GIN.tileSumSq (Z V c)) (funext fun a => Fin.ext ?_)
  match a with
  | ⟨0, _⟩ => show 8 * t.val + (j 0).val = win9_6.index t (0 : Fin 2) * 8 + 1 * (j 0).val; rw [e0]; omega
  | ⟨1, _⟩ => show (j 1).val = win9_6.index t (1 : Fin 2) * 300 + 1 * (j 1).val; rw [e1]; omega

/-- An index of the 50000 × 300 array lies in point `t`'s block of window 4 iff each coordinate is in the block's range. -/
theorem mem_blk4 (t : Fin cfg9.N) (i : S50000x300.Idx) :
    i ∈ ((cfg9.win 4).blk t).view.set ↔ ∀ a : Fin 2, win9_4.index t a * S2000x300.size a ≤ (i a).val
      ∧ (i a).val < win9_4.index t a * S2000x300.size a + S2000x300.size a := by
  show i ∈ ((View.whole main_v220_0).slice (win9_4.rect t)).set ↔ _
  rw [View.set_slice_whole, Rect.mem_set_unit]
  exact Iff.rfl

theorem mem_blk5 (t : Fin cfg9.N) (i : S200x300.Idx) :
    i ∈ ((cfg9.win 5).blk t).view.set ↔ ∀ a : Fin 2, win9_5.index t a * S8x300.size a ≤ (i a).val
      ∧ (i a).val < win9_5.index t a * S8x300.size a + S8x300.size a := by
  show i ∈ ((View.whole main_v220_1).slice (win9_5.rect t)).set ↔ _
  rw [View.set_slice_whole, Rect.mem_set_unit]
  exact Iff.rfl

theorem mem_blk6 (t : Fin cfg9.N) (i : S200x300.Idx) :
    i ∈ ((cfg9.win 6).blk t).view.set ↔ ∀ a : Fin 2, win9_6.index t a * S8x300.size a ≤ (i a).val
      ∧ (i a).val < win9_6.index t a * S8x300.size a + S8x300.size a := by
  show i ∈ ((View.whole main_v220_2).slice (win9_6.rect t)).set ↔ _
  rw [View.set_slice_whole, Rect.mem_set_unit]
  exact Iff.rfl

/-- Row `n` of the 50000 × 300 array lies in the block of point `n / 2000`. -/
theorem cover4 (i : S50000x300.Idx) : ∃ t : Fin cfg9.N, (cfg9.win 4).flush t = true ∧ i ∈ ((cfg9.win 4).blk t).view.set := by
  have h0 : (i 0).val < 50000 := (i 0).isLt
  have h1 : (i 1).val < 300 := (i 1).isLt
  refine ⟨⟨(i 0).val / 2000, by show (i 0).val / 2000 < 25; omega⟩, flush9_4 _, ?_⟩
  rw [mem_blk4]
  obtain ⟨-, -, -, -, -, -, -, -, e0, e1, -⟩ := idx_facts ⟨(i 0).val / 2000, by show (i 0).val / 2000 < 25; omega⟩
  intro a
  match a with
  | ⟨0, _⟩ =>
    show win9_4.index _ (0 : Fin 2) * 2000 ≤ (i 0).val ∧ (i 0).val < win9_4.index _ (0 : Fin 2) * 2000 + 2000
    rw [e0]; show (i 0).val / 2000 * 2000 ≤ (i 0).val ∧ (i 0).val < (i 0).val / 2000 * 2000 + 2000; omega
  | ⟨1, _⟩ =>
    show win9_4.index _ (1 : Fin 2) * 300 ≤ (i 1).val ∧ (i 1).val < win9_4.index _ (1 : Fin 2) * 300 + 300
    rw [e1]; omega

/-- Row `p` of the 200 × 300 array lies in the block of point `p / 8`. -/
theorem cover5 (i : S200x300.Idx) : ∃ t : Fin cfg9.N, (cfg9.win 5).flush t = true ∧ i ∈ ((cfg9.win 5).blk t).view.set := by
  have h0 : (i 0).val < 200 := (i 0).isLt
  have h1 : (i 1).val < 300 := (i 1).isLt
  refine ⟨⟨(i 0).val / 8, by show (i 0).val / 8 < 25; omega⟩, flush9_5 _, ?_⟩
  rw [mem_blk5]
  obtain ⟨-, -, -, -, -, -, -, -, -, -, e0, e1, -⟩ := idx_facts ⟨(i 0).val / 8, by show (i 0).val / 8 < 25; omega⟩
  intro a
  match a with
  | ⟨0, _⟩ =>
    show win9_5.index _ (0 : Fin 2) * 8 ≤ (i 0).val ∧ (i 0).val < win9_5.index _ (0 : Fin 2) * 8 + 8
    rw [e0]; show (i 0).val / 8 * 8 ≤ (i 0).val ∧ (i 0).val < (i 0).val / 8 * 8 + 8; omega
  | ⟨1, _⟩ =>
    show win9_5.index _ (1 : Fin 2) * 300 ≤ (i 1).val ∧ (i 1).val < win9_5.index _ (1 : Fin 2) * 300 + 300
    rw [e1]; omega

theorem cover6 (i : S200x300.Idx) : ∃ t : Fin cfg9.N, (cfg9.win 6).flush t = true ∧ i ∈ ((cfg9.win 6).blk t).view.set := by
  have h0 : (i 0).val < 200 := (i 0).isLt
  have h1 : (i 1).val < 300 := (i 1).isLt
  refine ⟨⟨(i 0).val / 8, by show (i 0).val / 8 < 25; omega⟩, flush9_6 _, ?_⟩
  rw [mem_blk6]
  obtain ⟨-, -, -, -, -, -, -, -, -, -, -, -, e0, e1⟩ := idx_facts ⟨(i 0).val / 8, by show (i 0).val / 8 < 25; omega⟩
  intro a
  match a with
  | ⟨0, _⟩ =>
    show win9_6.index _ (0 : Fin 2) * 8 ≤ (i 0).val ∧ (i 0).val < win9_6.index _ (0 : Fin 2) * 8 + 8
    rw [e0]; show (i 0).val / 8 * 8 ≤ (i 0).val ∧ (i 0).val < (i 0).val / 8 * 8 + 8; omega
  | ⟨1, _⟩ =>
    show win9_6.index _ (1 : Fin 2) * 300 ≤ (i 1).val ∧ (i 1).val < win9_6.index _ (1 : Fin 2) * 300 + 300
    rw [e1]; omega

/-- After the region the first output array holds `Z`. -/
theorem z_final (c : Dev nD) : (dat9 V c).arrAt 4 cfg9.N = Z V c :=
  (dat9 V c).arrAt_eq_of_cover 4 (Z V c) (fun t _ => flushed4_eq V c t) cover4

/-- After the region the second output array holds the tiles' column sums of `Z`, each tile's on 8 rows. -/
theorem s_final (c : Dev nD) : (dat9 V c).arrAt 5 cfg9.N = GIN.tileSum (Z V c) :=
  (dat9 V c).arrAt_eq_of_cover 5 (GIN.tileSum (Z V c)) (fun t _ => flushed5_eq V c t) cover5

/-- After the region the third output array holds the tiles' column sums of the squares of `Z`. -/
theorem q_final (c : Dev nD) : (dat9 V c).arrAt 6 cfg9.N = GIN.tileSumSq (Z V c) :=
  (dat9 V c).arrAt_eq_of_cover 6 (GIN.tileSumSq (Z V c)) (fun t _ => flushed6_eq V c t) cover6

end Arrays

end Cert.KernelIdeal.Reg9

end
-- ==== Proof.KRegB10.lean ====
/-
  The second kernel of a layer, on the arrays it finds.  With `z` the 50000 × 300 features, `μ` and `v` the column
  statistics, `γ` and `β` the normalisation's parameters and `W`, `b` an affine map, its three output arrays end holding

      Z2 = max ((z - μ) · (v + ε)^(-1/2) · γ + β) 0 · W + b,

  and, for each of the 25 tiles of 2000 rows, on 8 identical rows per tile, the tile's column sums of `Z2` and of `Z2 · Z2`.

  The kernel visits the tiles in order.  At tile `t` it reads rows `2000 t …` of `z` and the small arrays whole, forms the
  2000 × 300 block of `Z2` by one block product, and writes the block and its two rows of column sums.  Read at one entry,
  the block product is the sum over the 300 contracted coordinates and a lane sum is the sum over the block's 2000 rows;
  an entry of a block is the entry of the array at block index × block size + its own coordinate; the blocks tile the arrays.
-/
import proofs.«144515_j12352325943894_2_alg».proof.Proof.Spec
import proofs.«144515_j12352325943894_2_alg».proof.Proof.FrameKI.R10
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg10

open Idealize.ShloMosaic Idealize.ShloMosaic.TcCoe Idealize.ShloMosaic.ValueIdx
open Idealize.ShloMosaic.Pipeline (Dat)
open Cert.KernelIdeal Cert.KernelIdeal.Gen

/-! ## The block product at an index -/

theorem lhs_mm_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_mm_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_mm_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_mm_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The block product into the zero splat, at row `p` and column `q`: the sum over the 300 contracted coordinates. -/
theorem mm_apply (a : FVec Ideal S2000x300 .bf16) (w : FVec Ideal S300x300 .bf16) (p : Fin 2000) (q : Fin 300) :
    matmul dot_S2000x300_S300x300_S2000x300_1_0_0_1_n_n none a w (constant (F := Ideal) S2000x300 .f32 0x00000000#32) (ix2 p q)
      = ∑ k : Fin 300, a (ix2 p k) * w (ix2 k q) := by
  simp only [matmul]
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k :=
    funext fun a => Fin.ext (by
      match a with
      | ⟨0, _⟩ => exact lhs_mm_0 _ _
      | ⟨1, _⟩ => exact (lhs_mm_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q :=
    funext fun a => Fin.ext (by
      match a with
      | ⟨0, _⟩ => exact (rhs_mm_0 _ _).trans hk
      | ⟨1, _⟩ => exact rhs_mm_1 _ _)
  rw [el, er]

/-! ## The payload at an index -/

/-- The affine image of the normalised, rectified block, at row `p` and column `q` of the block. -/
theorem pay3_apply (x0 : Vec Ideal S2000x300 .bf16) (xv xm xg xb : Vec Ideal S1x300 .f32) (xW : Vec Ideal S300x300 .f32)
    (xc : Vec Ideal S1x300 .f32) (p : Fin 2000) (q : Fin 300) :
    k10_pay3 x0 xv xm xg xb xW xc (ix2 p q)
      = (∑ k : Fin 300, max ((x0 (ix2 p k) - xm (ix2 0 k)) * Ideal.rsqrt (xv (ix2 0 k) + Ideal.ofBits .f32 0x3727C5AC#32) * xg (ix2 0 k)
            + xb (ix2 0 k)) (Ideal.ofBits .f32 0x00000000#32) * xW (ix2 k q)) + xc (ix2 0 q) := by
  unfold k10_pay3
  simp only [shapeCast_self]
  rw [addf_apply, mm_apply, broadcastTo_1b_ab_apply]
  refine congrArg (· + _) (Finset.sum_congr rfl fun k _ => ?_)
  rw [truncf_apply, truncf_apply, maximumf_apply, addf_apply, mulf_apply, mulf_apply, subf_apply, extf_apply,
    broadcastTo_1b_ab_apply, broadcastTo_1b_ab_apply, broadcastTo_1b_ab_apply, broadcastTo_1b_ab_apply]
  rfl

/-- A sum over the block's 2000 rows, read at column `q`. -/
theorem colsum_apply (src : FVec Ideal S2000x300 .f32) (h : S2000x300.Reduces [0] S300) (hφ : FKind.Formats .f32)
    (hacc : (0x00000000#32 : BitVec FTy.f32.bits) = FKind.add.neutral .f32 hφ) (q : Fin 300) :
    multiReduction (F := Ideal) .add [0] S300 src 0x00000000#32 h hφ hacc (ix1 q) = ∑ p : Fin 2000, src (ix2 p q) := by
  refine (Ideal.multiReduction_add_single src 0x00000000#32 h hφ hacc (ix1 q)).trans ?_
  show ∑ p : Fin 2000, src (h.lift (ix1 q) p) = _
  refine Finset.sum_congr rfl fun p _ => congrArg src ?_
  funext a
  match a with
  | ⟨0, _⟩ => rfl
  | ⟨1, _⟩ => rfl

/-- The first partial-sum block: every one of its 8 rows holds the block's column sums. -/
theorem sum_pay_apply (x0 : Vec Ideal S2000x300 .bf16) (xv xm xg xb : Vec Ideal S1x300 .f32) (xW : Vec Ideal S300x300 .f32)
    (xc : Vec Ideal S1x300 .f32) (r : Fin 8) (q : Fin 300) :
    k10_pay1 (k10_pay5 x0 xv xm xg xb xW xc) (ix2 r q) = ∑ p : Fin 2000, k10_pay3 x0 xv xm xg xb xW xc (ix2 p q) := by
  unfold k10_pay1 k10_pay5
  simp only [shapeCast_self]
  rw [broadcastTo_1b_ab_apply, shapeCast_a_1a_apply]
  exact colsum_apply _ _ _ _ q

/-- The second: every row holds the column sums of the squares. -/
theorem sq_pay_apply (x0 : Vec Ideal S2000x300 .bf16) (xv xm xg xb : Vec Ideal S1x300 .f32) (xW : Vec Ideal S300x300 .f32)
    (xc : Vec Ideal S1x300 .f32) (r : Fin 8) (q : Fin 300) :
    k10_pay2 (k10_pay6 x0 xv xm xg xb xW xc) (ix2 r q)
      = ∑ p : Fin 2000, k10_pay3 x0 xv xm xg xb xW xc (ix2 p q) * k10_pay3 x0 xv xm xg xb xW xc (ix2 p q) := by
  unfold k10_pay2 k10_pay6
  simp only [shapeCast_self]
  rw [broadcastTo_1b_ab_apply, shapeCast_a_1a_apply]
  exact colsum_apply _ _ _ _ q

/-! ## A block's payload as rows of the whole-array function -/

/-- Where the loaded blocks are row `n` of the features and the whole small arrays, the payload at `(p, q)` is the
    normalised, rectified features' affine image at `(n, q)`. -/
theorem z_point (Zin : GIN.Mat) (mu v g be : GIN.Col) (W : GIN.Wt) (b : GIN.Col)
    (x0 : Vec Ideal S2000x300 .bf16) (xm xv xg xb : Vec Ideal S1x300 .f32) (xW : Vec Ideal S300x300 .f32)
    (xc : Vec Ideal S1x300 .f32) (p : Fin 2000) (q : Fin 300) (n : Fin 50000)
    (h0 : ∀ k : Fin 300, x0 (ix2 p k) = Zin (ix2 n k))
    (hm : ∀ k : Fin 300, xm (ix2 0 k) = mu (ix1 k)) (hv : ∀ k : Fin 300, xv (ix2 0 k) = v (ix1 k))
    (hg : ∀ k : Fin 300, xg (ix2 0 k) = g (ix1 k)) (hb : ∀ k : Fin 300, xb (ix2 0 k) = be (ix1 k))
    (hW : ∀ k j : Fin 300, xW (ix2 k j) = W (ix2 k j)) (hc : ∀ k : Fin 300, xc (ix2 0 k) = b (ix1 k)) :
    k10_pay3 x0 xv xm xg xb xW xc (ix2 p q) = GIN.lin (GIN.bnrelu Zin mu v g be) W b (ix2 n q) := by
  rw [pay3_apply]
  unfold GIN.lin GIN.bnrelu GIN.cEps GIN.c0
  simp only [h0, hm, hv, hg, hb, hW, hc]

/-! ## The region's arrays -/

variable (V : (c : Dev nD) → (b : Ref sig .tc) → Buf (Elt Ideal) ((c : Thread nD τ).loc b))

/-- The arrays the region reads, as it finds them: the features, the column statistics and parameters, the weights. -/
abbrev zIn (c : Dev nD) : GIN.Mat := V c (Pipeline.arrRef spec10 0)
abbrev muIn (c : Dev nD) : GIN.Col := fun j => (V c (Pipeline.arrRef spec10 1) : S1x300.Idx → EReal) (ix2 0 (j 0))
abbrev varIn (c : Dev nD) : GIN.Col := fun j => (V c (Pipeline.arrRef spec10 2) : S1x300.Idx → EReal) (ix2 0 (j 0))
abbrev gIn (c : Dev nD) : GIN.Col := fun j => (V c (Pipeline.arrRef spec10 3) : S1x300.Idx → EReal) (ix2 0 (j 0))
abbrev beIn (c : Dev nD) : GIN.Col := fun j => (V c (Pipeline.arrRef spec10 4) : S1x300.Idx → EReal) (ix2 0 (j 0))
abbrev wIn (c : Dev nD) : GIN.Wt := V c (Pipeline.arrRef spec10 5)
abbrev bIn (c : Dev nD) : GIN.Col := fun j => (V c (Pipeline.arrRef spec10 6) : S1x300.Idx → EReal) (ix2 0 (j 0))

/-- What the region computes: the normalised, rectified features' affine image. -/
abbrev Z2 (c : Dev nD) : GIN.Mat :=
  GIN.lin (GIN.bnrelu (zIn V c) (muIn V c) (varIn V c) (gIn V c) (beIn V c)) (wIn V c) (bIn V c)

theorem hz : (![0, 0] : Fin 2 → Nat) = fun _ => 0 := funext fun a => by fin_cases a <;> rfl

/-- The index maps over the 25 points: the row-blocked windows sit at block `(t, 0)`, the whole-array ones at `(0, 0)`. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0
    ∧ win10_8.index t (0 : Fin 2) = t.val ∧ win10_8.index t (1 : Fin 2) = 0
    ∧ win10_9.index t (0 : Fin 2) = t.val ∧ win10_9.index t (1 : Fin 2) = 0 :=
  (by decide +kernel : ∀ t : Fin grid10.N, _)

/-! ## The input blocks as parts of the arrays -/

/-- Row `p` of the features' block at point `t` is row `2000 t + p` of the features. -/
theorem z_blk (c : Dev nD) (t : Fin cfg10.N) (p : Fin 2000) (q : Fin 300) (n : Fin 50000) (hn : n.val = 2000 * t.val + p.val) :
    (iblk10 V c 0 t : Vec Ideal S2000x300 .bf16) (ix2 p q) = zIn V c (ix2 n q) := by
  obtain ⟨e0, e1, -⟩ := idx_facts t
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 2000 + 1 * p.val = n.val; rw [e0, hn]; omega
  | ⟨1, _⟩ => show win10_0.index t (1 : Fin 2) * 300 + 1 * q.val = q.val; rw [e1]; omega

/-- The one-row windows hold their whole arrays at every point: the column means, -/
theorem mu_blk (c : Dev nD) (t : Fin cfg10.N) (k : Fin 300) :
    (iblk10 V c 1 t : Vec Ideal S1x300 .f32) (ix2 0 k) = muIn V c (ix1 k) := by
  obtain ⟨-, -, e0, e1, -⟩ := idx_facts t
  unfold iblk10
  rw [View.read_apply]
  show V c (Pipeline.arrRef spec10 1) _ = V c (Pipeline.arrRef spec10 1) _
  congr 1
  funext a
  apply Fin.ext
  match a with
  | ⟨0, _⟩ => show win10_1.index t (0 : Fin 2) * 1 + 1 * 0 = 0; rw [e0]
  | ⟨1, _⟩ => show win10_1.index t (1 : Fin 2) * 300 + 1 * k.val = k.val; rw [e1]; omega

/-- the column variances, -/
theorem var_blk (c : Dev nD) (t : Fin cfg10.N) (k : Fin 300) :
    (iblk10 V c 2 t : Vec Ideal S1x300 .f32) (ix2 0 k) = varIn V c (ix1 k) := by
  obtain ⟨-, -, -, -, e0, e1, -⟩ := idx_facts t
  unfold iblk10
  rw [View.read_apply]
  show V c (Pipeline.arrRef spec10 2) _ = V c (Pipeline.arrRef spec10 2) _
  congr 1
  funext a
  apply Fin.ext
  match a with
  | ⟨0, _⟩ => show win10_2.index t (0 : Fin 2) * 1 + 1 * 0 = 0; rw [e0]
  | ⟨1, _⟩ => show win10_2.index t (1 : Fin 2) * 300 + 1 * k.val = k.val; rw [e1]; omega

/-- the scales, -/
theorem g_blk (c : Dev nD) (t : Fin cfg10.N) (k : Fin 300) :
    (iblk10 V c 3 t : Vec Ideal S1x300 .f32) (ix2 0 k) = gIn V c (ix1 k) := by
  obtain ⟨-, -, -, -, -, -, e0, e1, -⟩ := idx_facts t
  unfold iblk10
  rw [View.read_apply]
  show V c (Pipeline.arrRef spec10 3) _ = V c (Pipeline.arrRef spec10 3) _
  congr 1
  funext a
  apply Fin.ext
  match a with
  | ⟨0, _⟩ => show win10_3.index t (0 : Fin 2) * 1 + 1 * 0 = 0; rw [e0]
  | ⟨1, _⟩ => show win10_3.index t (1 : Fin 2) * 300 + 1 * k.val = k.val; rw [e1]; omega

/-- the shifts, -/
theorem be_blk (c : Dev nD) (t : Fin cfg10.N) (k : Fin 300) :
    (iblk10 V c 4 t : Vec Ideal S1x300 .f32) (ix2 0 k) = beIn V c (ix1 k) := by
  obtain ⟨-, -, -, -, -, -, -, -, e0, e1, -⟩ := idx_facts t
  unfold iblk10
  rw [View.read_apply]
  show V c (Pipeline.arrRef spec10 4) _ = V c (Pipeline.arrRef spec10 4) _
  congr 1
  funext a
  apply Fin.ext
  match a with
  | ⟨0, _⟩ => show win10_4.index t (0 : Fin 2) * 1 + 1 * 0 = 0; rw [e0]
  | ⟨1, _⟩ => show win10_4.index t (1 : Fin 2) * 300 + 1 * k.val = k.val; rw [e1]; omega

/-- the affine map's vector, -/
theorem b_blk (c : Dev nD) (t : Fin cfg10.N) (k : Fin 300) :
    (iblk10 V c 6 t : Vec Ideal S1x300 .f32) (ix2 0 k) = bIn V c (ix1 k) := by
  obtain ⟨-, -, -, -, -, -, -, -, -, -, -, -, e0, e1, -⟩ := idx_facts t
  unfold iblk10
  rw [View.read_apply]
  show V c (Pipeline.arrRef spec10 6) _ = V c (Pipeline.arrRef spec10 6) _
  congr 1
  funext a
  apply Fin.ext
  match a with
  | ⟨0, _⟩ => show win10_6.index t (0 : Fin 2) * 1 + 1 * 0 = 0; rw [e0]
  | ⟨1, _⟩ => show win10_6.index t (1 : Fin 2) * 300 + 1 * k.val = k.val; rw [e1]; omega

/-- and the weights' window holds the whole matrix. -/
theorem w_blk (c : Dev nD) (t : Fin cfg10.N) (k j : Fin 300) :
    (iblk10 V c 5 t : Vec Ideal S300x300 .f32) (ix2 k j) = wIn V c (ix2 k j) := by
  obtain ⟨-, -, -, -, -, -, -, -, -, -, e0, e1, -⟩ := idx_facts t
  unfold iblk10
  rw [View.read_apply]
  show V c (Pipeline.arrRef spec10 5) _ = V c (Pipeline.arrRef spec10 5) _
  congr 1
  funext a
  apply Fin.ext
  match a with
  | ⟨0, _⟩ => show win10_5.index t (0 : Fin 2) * 300 + 1 * k.val = k.val; rw [e0]; omega
  | ⟨1, _⟩ => show win10_5.index t (1 : Fin 2) * 300 + 1 * j.val = j.val; rw [e1]; omega

/-- The payload of point `t`'s blocks at `(p, q)` is the region's function at row `2000 t + p`. -/
theorem pay_blk (c : Dev nD) (t : Fin cfg10.N) (p : Fin 2000) (q : Fin 300) (n : Fin 50000) (hn : n.val = 2000 * t.val + p.val) :
    k10_pay3 (iblk10 V c 0 t) (iblk10 V c 2 t) (iblk10 V c 1 t) (iblk10 V c 3 t) (iblk10 V c 4 t) (iblk10 V c 5 t) (iblk10 V c 6 t) (ix2 p q)
      = Z2 V c (ix2 n q) :=
  z_point (zIn V c) (muIn V c) (varIn V c) (gIn V c) (beIn V c) (wIn V c) (bIn V c)
    (iblk10 V c 0 t) (iblk10 V c 1 t) (iblk10 V c 2 t) (iblk10 V c 3 t) (iblk10 V c 4 t) (iblk10 V c 5 t) (iblk10 V c 6 t) p q n
    (fun k => z_blk V c t p k n hn) (mu_blk V c t) (var_blk V c t) (g_blk V c t) (be_blk V c t) (w_blk V c t) (b_blk V c t)

/-! ## What each point writes back -/

/-- Point `t` writes back rows `2000 t … 2000 t + 1999` of the region's function. -/
theorem z_flushed (c : Dev nD) (t : Fin cfg10.N) :
    (dat10 V c).flushed 7 t = ((cfg10.win 7).blk t).view.read (Elt Ideal) (Z2 V c) := by
  show (cfg10.win 7).cut (grid10.coords t) ((dat10 V c).after 7 t) = _
  rw [after10_7]
  unfold out10_7
  rw [View.canon_unit_zero hz]
  simp only [View.ld_unit_zero (S := S2000x300) hz, View.ld_unit_zero (S := S1x300) hz, View.ld_unit_zero (S := S300x300) hz]
  funext j
  obtain ⟨p, q, rfl⟩ : ∃ (p : Fin 2000) (q : Fin 300), j = ix2 p q := ⟨j 0, j 1, eq_ix2 j⟩
  obtain ⟨-, -, -, -, -, -, -, -, -, -, -, -, -, -, e0, e1, -⟩ := idx_facts t
  have ht : t.val < 25 := t.isLt
  have hn : 2000 * t.val + p.val < 50000 := by have := p.isLt; omega
  have hemb : ((cfg10.win 7).blk t).view.emb (ix2 p q) = (ix2 (⟨2000 * t.val + p.val, hn⟩ : Fin 50000) q : S50000x300.Idx) := by
    funext a
    apply Fin.ext
    match a with
    | ⟨0, _⟩ => show win10_7.index t (0 : Fin 2) * 2000 + 1 * p.val = 2000 * t.val + p.val; rw [e0]; omega
    | ⟨1, _⟩ => show win10_7.index t (1 : Fin 2) * 300 + 1 * q.val = q.val; rw [e1]; omega
  show k10_pay3 (iblk10 V c 0 t) (iblk10 V c 2 t) (iblk10 V c 1 t) (iblk10 V c 3 t) (iblk10 V c 4 t) (iblk10 V c 5 t) (iblk10 V c 6 t) (ix2 p q)
    = Z2 V c (((cfg10.win 7).blk t).view.emb (ix2 p q))
  rw [hemb]
  exact pay_blk V c t p q ⟨_, hn⟩ rfl

/-- Row `8 t + r` of the partial sums' arrays is tile `t`'s. -/
theorem tileRow_blk (t : Fin 25) (r : Fin 8) (p : Fin 2000) (h : 8 * t.val + r.val < 200) (hn : 2000 * t.val + p.val < 50000) :
    GIN.tileRow ⟨8 * t.val + r.val, h⟩ p = ⟨2000 * t.val + p.val, hn⟩ := by
  apply Fin.ext
  show 2000 * ((8 * t.val + r.val) / 8) + p.val = 2000 * t.val + p.val
  have := r.isLt
  omega

/-- Point `t` writes back rows `8 t … 8 t + 7` of the tiles' column sums, -/
theorem s_flushed (c : Dev nD) (t : Fin cfg10.N) :
    (dat10 V c).flushed 8 t = ((cfg10.win 8).blk t).view.read (Elt Ideal) (GIN.tileSum (Z2 V c)) := by
  show (cfg10.win 8).cut (grid10.coords t) ((dat10 V c).after 8 t) = _
  rw [after10_8]
  unfold out10_8
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, e0, e1, -⟩ := idx_facts t
  have ht : t.val < 25 := t.isLt
  have hP : 8 * t.val + r.val < 200 := by have := r.isLt; omega
  have hemb : ((cfg10.win 8).blk t).view.emb (ix2 r q) = (ix2 (⟨8 * t.val + r.val, hP⟩ : Fin 200) q : S200x300.Idx) := by
    funext a
    apply Fin.ext
    match a with
    | ⟨0, _⟩ => show win10_8.index t (0 : Fin 2) * 8 + 1 * r.val = 8 * t.val + r.val; rw [e0]; omega
    | ⟨1, _⟩ => show win10_8.index t (1 : Fin 2) * 300 + 1 * q.val = q.val; rw [e1]; omega
  show k10_pay1 (k10_pay5 (iblk10 V c 0 t) (iblk10 V c 2 t) (iblk10 V c 1 t) (iblk10 V c 3 t) (iblk10 V c 4 t) (iblk10 V c 5 t) (iblk10 V c 6 t)) (ix2 r q)
    = GIN.tileSum (Z2 V c) (((cfg10.win 8).blk t).view.emb (ix2 r q))
  rw [hemb, sum_pay_apply]
  show _ = ∑ p : Fin 2000, Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn]
  exact pay_blk V c t p q ⟨_, hn⟩ rfl

/-- and of the tiles' column sums of squares. -/
theorem q_flushed (c : Dev nD) (t : Fin cfg10.N) :
    (dat10 V c).flushed 9 t = ((cfg10.win 9).blk t).view.read (Elt Ideal) (GIN.tileSumSq (Z2 V c)) := by
  show (cfg10.win 9).cut (grid10.coords t) ((dat10 V c).after 9 t) = _
  rw [after10_9]
  unfold out10_9
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, -, -, e0, e1⟩ := idx_facts t
  have ht : t.val < 25 := t.isLt
  have hP : 8 * t.val + r.val < 200 := by have := r.isLt; omega
  have hemb : ((cfg10.win 9).blk t).view.emb (ix2 r q) = (ix2 (⟨8 * t.val + r.val, hP⟩ : Fin 200) q : S200x300.Idx) := by
    funext a
    apply Fin.ext
    match a with
    | ⟨0, _⟩ => show win10_9.index t (0 : Fin 2) * 8 + 1 * r.val = 8 * t.val + r.val; rw [e0]; omega
    | ⟨1, _⟩ => show win10_9.index t (1 : Fin 2) * 300 + 1 * q.val = q.val; rw [e1]; omega
  show k10_pay2 (k10_pay6 (iblk10 V c 0 t) (iblk10 V c 2 t) (iblk10 V c 1 t) (iblk10 V c 3 t) (iblk10 V c 4 t) (iblk10 V c 5 t) (iblk10 V c 6 t)) (ix2 r q)
    = GIN.tileSumSq (Z2 V c) (((cfg10.win 9).blk t).view.emb (ix2 r q))
  rw [hemb, sq_pay_apply]
  show _ = ∑ p : Fin 2000, Z2 V c (ix2 (GIN.tileRow ⟨8 * t.val + r.val, hP⟩ p) q) * Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn, pay_blk V c t p q ⟨_, hn⟩ rfl]

/-! ## The blocks cover the arrays -/

/-- An index of the features' array is in point `t`'s block iff each coordinate is in the block's range. -/
theorem mem_blk7 (t : Fin cfg10.N) (i : S50000x300.Idx) :
    i ∈ ((cfg10.win 7).blk t).view.set
      ↔ ∀ a : Fin 2, win10_7.index t a * S2000x300.size a ≤ (i a).val ∧ (i a).val < win10_7.index t a * S2000x300.size a + S2000x300.size a := by
  show i ∈ ((View.whole main_v248_0).slice (win10_7.rect t)).set ↔ _
  rw [View.set_slice_whole, Rect.mem_set_unit]
  exact Iff.rfl

theorem mem_blk8 (t : Fin cfg10.N) (i : S200x300.Idx) :
    i ∈ ((cfg10.win 8).blk t).view.set
      ↔ ∀ a : Fin 2, win10_8.index t a * S8x300.size a ≤ (i a).val ∧ (i a).val < win10_8.index t a * S8x300.size a + S8x300.size a := by
  show i ∈ ((View.whole main_v248_1).slice (win10_8.rect t)).set ↔ _
  rw [View.set_slice_whole, Rect.mem_set_unit]
  exact Iff.rfl

theorem mem_blk9 (t : Fin cfg10.N) (i : S200x300.Idx) :
    i ∈ ((cfg10.win 9).blk t).view.set
      ↔ ∀ a : Fin 2, win10_9.index t a * S8x300.size a ≤ (i a).val ∧ (i a).val < win10_9.index t a * S8x300.size a + S8x300.size a := by
  show i ∈ ((View.whole main_v248_2).slice (win10_9.rect t)).set ↔ _
  rw [View.set_slice_whole, Rect.mem_set_unit]
  exact Iff.rfl

/-- Row `n` of the features is in the block of point `n / 2000`. -/
theorem z_cover (i : S50000x300.Idx) :
    ∃ t : Fin cfg10.N, (cfg10.win 7).flush t = true ∧ i ∈ ((cfg10.win 7).blk t).view.set := by
  have hi0 : (i 0).val < 50000 := (i 0).isLt
  have hi1 : (i 1).val < 300 := (i 1).isLt
  have ht : (i 0).val / 2000 < 25 := by omega
  obtain ⟨-, -, -, -, -, -, -, -, -, -, -, -, -, -, e0, e1, -⟩ := idx_facts (⟨(i 0).val / 2000, ht⟩ : Fin cfg10.N)
  refine ⟨⟨(i 0).val / 2000, ht⟩, flush10_7 _, ?_⟩
  rw [mem_blk7]
  intro a
  match a with
  | ⟨0, _⟩ =>
    show win10_7.index ⟨(i 0).val / 2000, ht⟩ (0 : Fin 2) * 2000 ≤ (i 0).val ∧ (i 0).val < win10_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win10_7.index ⟨(i 0).val / 2000, ht⟩ (1 : Fin 2) * 300 ≤ (i 1).val ∧ (i 1).val < win10_7.index ⟨(i 0).val / 2000, ht⟩ (1 : Fin 2) * 300 + 300
    rw [e1]; omega

/-- Row `P` of a partial sums' array is in the block of point `P / 8`. -/
theorem s_cover (i : S200x300.Idx) :
    ∃ t : Fin cfg10.N, (cfg10.win 8).flush t = true ∧ i ∈ ((cfg10.win 8).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, e0, e1, -⟩ := idx_facts (⟨(i 0).val / 8, ht⟩ : Fin cfg10.N)
  refine ⟨⟨(i 0).val / 8, ht⟩, flush10_8 _, ?_⟩
  rw [mem_blk8]
  intro a
  match a with
  | ⟨0, _⟩ =>
    show win10_8.index ⟨(i 0).val / 8, ht⟩ (0 : Fin 2) * 8 ≤ (i 0).val ∧ (i 0).val < win10_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win10_8.index ⟨(i 0).val / 8, ht⟩ (1 : Fin 2) * 300 ≤ (i 1).val ∧ (i 1).val < win10_8.index ⟨(i 0).val / 8, ht⟩ (1 : Fin 2) * 300 + 300
    rw [e1]; omega

theorem q_cover (i : S200x300.Idx) :
    ∃ t : Fin cfg10.N, (cfg10.win 9).flush t = true ∧ i ∈ ((cfg10.win 9).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, -, -, e0, e1⟩ := idx_facts (⟨(i 0).val / 8, ht⟩ : Fin cfg10.N)
  refine ⟨⟨(i 0).val / 8, ht⟩, flush10_9 _, ?_⟩
  rw [mem_blk9]
  intro a
  match a with
  | ⟨0, _⟩ =>
    show win10_9.index ⟨(i 0).val / 8, ht⟩ (0 : Fin 2) * 8 ≤ (i 0).val ∧ (i 0).val < win10_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win10_9.index ⟨(i 0).val / 8, ht⟩ (1 : Fin 2) * 300 ≤ (i 1).val ∧ (i 1).val < win10_9.index ⟨(i 0).val / 8, ht⟩ (1 : Fin 2) * 300 + 300
    rw [e1]; omega

/-! ## The three arrays after the region -/

/-- The features' array ends at the region's function of the arrays it read; -/
theorem z_final (c : Dev nD) : (dat10 V c).arrAt 7 cfg10.N = Z2 V c :=
  (dat10 V c).arrAt_eq_of_cover 7 (Z2 V c) (fun t _ => z_flushed V c t) z_cover

/-- the first partial sums' array at its tiles' column sums, each on 8 rows; -/
theorem s_final (c : Dev nD) : (dat10 V c).arrAt 8 cfg10.N = GIN.tileSum (Z2 V c) :=
  (dat10 V c).arrAt_eq_of_cover 8 (GIN.tileSum (Z2 V c)) (fun t _ => s_flushed V c t) s_cover

/-- the second at the column sums of squares. -/
theorem q_final (c : Dev nD) : (dat10 V c).arrAt 9 cfg10.N = GIN.tileSumSq (Z2 V c) :=
  (dat10 V c).arrAt_eq_of_cover 9 (GIN.tileSumSq (Z2 V c)) (fun t _ => q_flushed V c t) q_cover

end Cert.KernelIdeal.Reg10

end
-- ==== Proof.KRegC11.lean ====
/-
  The third kernel of a layer (normalise, scale, shift, clamp), as a function of the arrays it finds.

  The grid has 25 points. At point `t` the kernel reads rows `2000 t … 2000 t + 1999` of the `50000 × 300` input `z`, and the
  four `1 × 300` rows `μ`, `v`, `γ`, `β` whole, and writes rows `2000 t … 2000 t + 1999` of the output:
  `max ((z - μ) · (v + ε)^(-1/2) · γ + β) 0`, entry by entry, each column with its own `μ`, `v`, `γ`, `β`.
  The 25 tiles of rows are disjoint and fill the array, so after the last point the output array is that function of the
  input arrays at every index: `GIN.bnrelu`.
-/
import proofs.«144515_j12352325943894_2_alg».proof.Proof.FrameKI.R11
import proofs.«144515_j12352325943894_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Reg11

open Cert.KernelIdeal Cert.KernelIdeal.Gen
open Idealize.ShloMosaic Idealize.ShloMosaic.TcCoe Idealize.ShloMosaic.ValueIdx Idealize.SL.Sem
open Idealize.ShloMosaic.Pipeline (Dat)

/-! ## The body at one entry of a block -/

/-- The body's result at row `p`, column `q` of a block: the block's entry, less the column's mean, times the
    inverse square root of the column's variance plus `ε`, times the column's scale, plus its shift, clamped at `0`.
    Widening the 16-bit entries is the identity over the extended reals; the four rows are repeated down the 2000 rows. -/
theorem pay_apply (x0 : Vec Ideal S2000x300 .bf16) (xv xm xg xb : Vec Ideal S1x300 .f32) (p : Fin 2000) (q : Fin 300) :
    k11_pay1 x0 xv xm xg xb (ix2 p q)
      = max ((x0 (ix2 p q) - xm (ix2 0 q)) * Ideal.rsqrt (xv (ix2 0 q) + GIN.cEps) * xg (ix2 0 q) + xb (ix2 0 q)) GIN.c0 := by
  unfold k11_pay1
  simp only [shapeCast_self]
  rw [maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-! ## Where the blocks sit in the arrays -/

theorem hz : (![0, 0] : Fin 2 → Nat) = fun _ => 0 := funext fun a => by fin_cases a <;> rfl

/-- The printed index maps over the 25 grid points: the two big windows sit at block `(t, 0)`, the four row
    windows at block `(0, 0)`. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- row `p` of tile `t` is row `2000 t + p` of the array -/
def row (t : Fin 25) (p : Fin 2000) : Fin 50000 := ⟨2000 * t.val + p.val, by have := t.isLt; have := p.isLt; omega⟩

/-- Entry `(p, q)` of the input's block at point `t` is entry `(2000 t + p, q)` of the array. -/
theorem emb0 (t : Fin cfg11.N) (p : Fin 2000) (q : Fin 300) :
    ((cfg11.win 0).blk t).view.emb (ix2 p q) = ix2 (row t p) q := by
  obtain ⟨e0, e1, -⟩ := idx_facts t
  funext a; apply Fin.ext
  match a with
  | ⟨0, _⟩ => show win11_0.index t (0 : Fin 2) * 2000 + 1 * p.val = 2000 * t.val + p.val; omega
  | ⟨1, _⟩ => show win11_0.index t (1 : Fin 2) * 300 + 1 * q.val = q.val; omega

/-- and so is entry `(p, q)` of the output's block. -/
theorem emb5 (t : Fin cfg11.N) (p : Fin 2000) (q : Fin 300) :
    ((cfg11.win 5).blk t).view.emb (ix2 p q) = ix2 (row t p) q := by
  obtain ⟨-, -, -, -, -, -, -, -, -, -, e0, e1⟩ := idx_facts t
  funext a; apply Fin.ext
  match a with
  | ⟨0, _⟩ => show win11_5.index t (0 : Fin 2) * 2000 + 1 * p.val = 2000 * t.val + p.val; omega
  | ⟨1, _⟩ => show win11_5.index t (1 : Fin 2) * 300 + 1 * q.val = q.val; omega

/-- Each row window's block is the whole row, at every point. -/
theorem emb1 (t : Fin cfg11.N) (q : Fin 300) :
    ((cfg11.win 1).blk t).view.emb (ix2 (0 : Fin 1) q) = ix2 (0 : Fin 1) q := by
  obtain ⟨-, -, e0, e1, -⟩ := idx_facts t
  funext a; apply Fin.ext
  match a with
  | ⟨0, _⟩ => show win11_1.index t (0 : Fin 2) * 1 + 1 * 0 = 0; omega
  | ⟨1, _⟩ => show win11_1.index t (1 : Fin 2) * 300 + 1 * q.val = q.val; omega

theorem emb2 (t : Fin cfg11.N) (q : Fin 300) :
    ((cfg11.win 2).blk t).view.emb (ix2 (0 : Fin 1) q) = ix2 (0 : Fin 1) q := by
  obtain ⟨-, -, -, -, e0, e1, -⟩ := idx_facts t
  funext a; apply Fin.ext
  match a with
  | ⟨0, _⟩ => show win11_2.index t (0 : Fin 2) * 1 + 1 * 0 = 0; omega
  | ⟨1, _⟩ => show win11_2.index t (1 : Fin 2) * 300 + 1 * q.val = q.val; omega

theorem emb3 (t : Fin cfg11.N) (q : Fin 300) :
    ((cfg11.win 3).blk t).view.emb (ix2 (0 : Fin 1) q) = ix2 (0 : Fin 1) q := by
  obtain ⟨-, -, -, -, -, -, e0, e1, -⟩ := idx_facts t
  funext a; apply Fin.ext
  match a with
  | ⟨0, _⟩ => show win11_3.index t (0 : Fin 2) * 1 + 1 * 0 = 0; omega
  | ⟨1, _⟩ => show win11_3.index t (1 : Fin 2) * 300 + 1 * q.val = q.val; omega

theorem emb4 (t : Fin cfg11.N) (q : Fin 300) :
    ((cfg11.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win11_4.index t (0 : Fin 2) * 1 + 1 * 0 = 0; omega
  | ⟨1, _⟩ => show win11_4.index t (1 : Fin 2) * 300 + 1 * q.val = q.val; omega

/-- An index of the array is in point `t`'s block iff each coordinate is in the block's range on its axis. -/
theorem mem_blk (t : Fin cfg11.N) (i : S50000x300.Idx) :
    i ∈ ((cfg11.win 5).blk t).view.set ↔ ∀ a : Fin 2, win11_5.index t a * S2000x300.size a ≤ (i a).val ∧ (i a).val < win11_5.index t a * S2000x300.size a + S2000x300.size a := by
  show i ∈ ((View.whole main_v271).slice (win11_5.rect t)).set ↔ _
  rw [View.set_slice_whole, Rect.mem_set_unit]
  exact Iff.rfl

/-- Row `r` of the array lies in tile `r / 2000`, so the 25 blocks cover the array. -/
theorem cover (i : S50000x300.Idx) :
    ∃ t : Fin cfg11.N, (cfg11.win 5).flush t = true ∧ i ∈ ((cfg11.win 5).blk t).view.set := by
  have hi0 : (i 0).val < 50000 := (i 0).isLt
  have hi1 : (i 1).val < 300 := (i 1).isLt
  have ht : (i 0).val / 2000 < 25 := by omega
  refine ⟨⟨(i 0).val / 2000, ht⟩, flush11_5 _, ?_⟩
  rw [mem_blk]
  obtain ⟨-, -, -, -, -, -, -, -, -, -, e0, e1⟩ := idx_facts ⟨(i 0).val / 2000, ht⟩
  intro a
  match a with
  | ⟨0, _⟩ =>
    show win11_5.index ⟨(i 0).val / 2000, ht⟩ (0 : Fin 2) * 2000 ≤ (i 0).val ∧ (i 0).val < win11_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win11_5.index ⟨(i 0).val / 2000, ht⟩ (1 : Fin 2) * 300 ≤ (i 1).val ∧ (i 1).val < win11_5.index ⟨(i 0).val / 2000, ht⟩ (1 : Fin 2) * 300 + 300
    rw [e1]; omega

/-! ## The output array after the region -/

variable (V : (c : Dev nD) → (b : Ref sig .tc) → Buf (Elt Ideal) ((c : Thread nD τ).loc b))

/-- the input `z` as the region finds it -/
abbrev Zin (c : Dev nD) : GIN.Mat := V c (Pipeline.arrRef spec11 0)
/-- the four rows as the region finds them, read as per-column vectors -/
abbrev mu (c : Dev nD) : GIN.Col := fun j => V c (Pipeline.arrRef spec11 1) (ix2 0 (j 0))
abbrev va (c : Dev nD) : GIN.Col := fun j => V c (Pipeline.arrRef spec11 2) (ix2 0 (j 0))
abbrev ga (c : Dev nD) : GIN.Col := fun j => V c (Pipeline.arrRef spec11 3) (ix2 0 (j 0))
abbrev be (c : Dev nD) : GIN.Col := fun j => V c (Pipeline.arrRef spec11 4) (ix2 0 (j 0))

/-- What point `t` writes back is block `t` of `GIN.bnrelu` of the input arrays: the body's result at `(p, q)` reads
    the input at `(2000 t + p, q)` and the rows at `q`, and that is the output's index `(2000 t + p, q)`. -/
theorem flushed_eq (c : Dev nD) (t : Fin cfg11.N) :
    (dat11 V c).flushed 5 t
      = ((cfg11.win 5).blk t).view.read (Elt Ideal) (GIN.bnrelu (Zin V c) (mu V c) (va V c) (ga V c) (be V c)) := by
  show (cfg11.win 5).cut (grid11.coords t) ((dat11 V c).after 5 t) = _
  rw [after11_5]
  unfold out11_5
  rw [View.canon_unit_zero hz]
  simp only [View.ld_unit_zero (S := S2000x300) hz, View.ld_unit_zero (S := S1x300) hz]
  funext j
  obtain ⟨p, q, rfl⟩ : ∃ (p : Fin 2000) (q : Fin 300), j = ix2 p q := ⟨j 0, j 1, eq_ix2 j⟩
  show k11_pay1 (iblk11 V c 0 t) (iblk11 V c 2 t) (iblk11 V c 1 t) (iblk11 V c 3 t) (iblk11 V c 4 t) (ix2 p q)
    = GIN.bnrelu (Zin V c) (mu V c) (va V c) (ga V c) (be V c) (((cfg11.win 5).blk t).view.emb (ix2 p q))
  rw [pay_apply, emb5]
  have h0 : iblk11 V c 0 t (ix2 p q) = Zin V c (ix2 (row t p) q) := by
    show V c (Pipeline.arrRef spec11 0) (((cfg11.win 0).blk t).view.emb (ix2 p q)) = _
    rw [emb0]
  have h1 : iblk11 V c 1 t (ix2 0 q) = V c (Pipeline.arrRef spec11 1) (ix2 0 q) := by
    show V c (Pipeline.arrRef spec11 1) (((cfg11.win 1).blk t).view.emb (ix2 (0 : Fin 1) q)) = _
    rw [emb1]
  have h2 : iblk11 V c 2 t (ix2 0 q) = V c (Pipeline.arrRef spec11 2) (ix2 0 q) := by
    show V c (Pipeline.arrRef spec11 2) (((cfg11.win 2).blk t).view.emb (ix2 (0 : Fin 1) q)) = _
    rw [emb2]
  have h3 : iblk11 V c 3 t (ix2 0 q) = V c (Pipeline.arrRef spec11 3) (ix2 0 q) := by
    show V c (Pipeline.arrRef spec11 3) (((cfg11.win 3).blk t).view.emb (ix2 (0 : Fin 1) q)) = _
    rw [emb3]
  have h4 : iblk11 V c 4 t (ix2 0 q) = V c (Pipeline.arrRef spec11 4) (ix2 0 q) := by
    show V c (Pipeline.arrRef spec11 4) (((cfg11.win 4).blk t).view.emb (ix2 (0 : Fin 1) q)) = _
    rw [emb4]
  rw [h0, h1, h2, h3, h4]
  rfl

/-- THE OUTPUT ARRAY after the region: `max ((z - μ) · (v + ε)^(-1/2) · γ + β) 0` of the arrays the region finds. -/
theorem h_final (c : Dev nD) :
    (dat11 V c).arrAt 5 cfg11.N
      = GIN.bnrelu (V c (Pipeline.arrRef spec11 0))
          (fun j : GIN.SD.Idx => V c (Pipeline.arrRef spec11 1) (ix2 0 (j 0)))
          (fun j : GIN.SD.Idx => V c (Pipeline.arrRef spec11 2) (ix2 0 (j 0)))
          (fun j : GIN.SD.Idx => V c (Pipeline.arrRef spec11 3) (ix2 0 (j 0)))
          (fun j : GIN.SD.Idx => V c (Pipeline.arrRef spec11 4) (ix2 0 (j 0))) :=
  (dat11 V c).arrAt_eq_of_cover 5 (GIN.bnrelu (Zin V c) (mu V c) (va V c) (ga V c) (be V c))
    (fun t _ => flushed_eq V c t) cover

end Cert.KernelIdeal.Reg11

end
-- ==== Proof.KRegA12.lean ====
/-
  The first kernel of a layer (region 12): the affine map of the node features plus their neighbour aggregate, and the
  tiles' partial sums of its result and of its square.

  The rows are cut into 25 tiles of 2000.  At tile `t` the body reads rows `2000 t … 2000 t + 1999` of the features `X0`
  and of the aggregate `X1`, the whole 300 × 300 weight matrix `X2` and the bias row `X3`, and forms
  `z = (x0 + x1) · X2 + X3` on those rows: entry `(p, q)` is `Σ_k (x0 p k + x1 p k) · X2 k q + X3 0 q` (over the extended
  reals a change of float format is the identity, and the product into a zero accumulator is the plain sum).  It writes
  `z` to rows `2000 t …` of the first result, the column sums `Σ_p z p q` to each of rows `8 t … 8 t + 7` of the second,
  and the column sums of `z p q · z p q` to the same rows of the third.

  Row `n` of a 50000-row array lies in tile `n / 2000` only, row `p` of a 200-row array in tile `p / 8` only, so after
  the 25 tiles the three results are, index by index, `Z = GIN.lin (X0 + X1) X2 X3`, `GIN.tileSum Z` and `GIN.tileSumSq Z`.
-/
import proofs.«144515_j12352325943894_2_alg».proof.Proof.FrameKI.R12
import proofs.«144515_j12352325943894_2_alg».proof.Proof.Spec
import Idealize.ShloMosaic.Lib.ValueIdx
import Idealize.ShloMosaic.Lib.Pipeline.Value
import Idealize.ShloMosaic.PureOps.Ideal.Laws

noncomputable section

namespace Cert.KernelIdeal.Reg12

open Idealize.ShloMosaic Idealize.ShloMosaic.TcCoe Idealize.ShloMosaic.ValueIdx Idealize.SL.Sem
open Idealize.ShloMosaic.Pipeline (Dat)
open Cert.KernelIdeal Cert.KernelIdeal.Gen

/-! ## The matrix product's operand indices, axis by axis -/

theorem lhs_axis0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_axis1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_axis0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_axis1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The product of a 2000×300 block by a 300×300 matrix into a zero accumulator, at row `p` and column `q`:
    the sum over the 300 shared coordinates. -/
theorem mm_apply (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) := by
  show FloatOps.matmul dot_S2000x300_S300x300_S2000x300_1_0_0_1_n_n none a b _ (ix2 p q) = _
  rw [Ideal.matmul_constant_zero_apply,
    ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q)
      ((contrEquiv1 dot_S2000x300_S300x300_S2000x300_1_0_0_1_n_n 300 rfl rfl).symm k) = ix2 p k :=
    funext fun ax => Fin.ext (by
      match ax with
      | ⟨0, _⟩ => exact lhs_axis0 _ _
      | ⟨1, _⟩ => exact (lhs_axis1 _ _).trans hk)
  have er : dot_S2000x300_S300x300_S2000x300_1_0_0_1_n_n.rhsIdx (ix2 p q)
      ((contrEquiv1 dot_S2000x300_S300x300_S2000x300_1_0_0_1_n_n 300 rfl rfl).symm k) = ix2 k q :=
    funext fun ax => Fin.ext (by
      match ax with
      | ⟨0, _⟩ => exact (rhs_axis0 _ _).trans hk
      | ⟨1, _⟩ => exact rhs_axis1 _ _)
  rw [el, er]

/-! ## The layout operations at an index -/

/-- A row vector spread over 2000 rows reads its entry of the same column. -/
theorem row2000_apply (x : S1x300.Idx → EReal) (h : S1x300.Broadcasts S2000x300) (p : Fin 2000) (q : Fin 300) :
    broadcastTo S2000x300 x h (ix2 p q) = x (ix2 0 q) :=
  broadcastTo_apply x h (ix2 p q) (ix2 0 q) (fun a => by
    match a with
    | ⟨0, _⟩ => rfl
    | ⟨1, _⟩ => rfl)

/-- A row vector spread over 8 rows reads its entry of the same column. -/
theorem row8_apply (x : S1x300.Idx → EReal) (h : S1x300.Broadcasts S8x300) (r : Fin 8) (q : Fin 300) :
    broadcastTo S8x300 x h (ix2 r q) = x (ix2 0 q) :=
  broadcastTo_apply x h (ix2 r q) (ix2 0 q) (fun a => by
    match a with
    | ⟨0, _⟩ => rfl
    | ⟨1, _⟩ => rfl)

/-- A vector of 300 viewed as one row reads the same entry. -/
theorem asRow_apply (x : S300.Idx → EReal) (h : S300.ShapeCasts S1x300) (q : Fin 300) :
    shapeCast S1x300 x h (ix2 0 q) = x (ix1 q) :=
  shapeCast_apply x h (ix2 0 q) (ix1 q) (by
    rw [Shape.rowMajor_val_one, Shape.rowMajor_val_two]
    show q.val = 0 * 300 + q.val
    omega)

/-- The sum over the 2000 rows of a block, column by column. -/
theorem colsum_apply (v : FVec Ideal S2000x300 .f32) (h : S2000x300.Reduces [0] S300) (hφ : FKind.Formats .f32)
    (hacc : (0x00000000#32 : BitVec 32) = FKind.add.neutral .f32 hφ) (q : Fin 300) :
    multiReduction .add [0] S300 v 0x00000000#32 h hφ hacc (ix1 q) = ∑ r : Fin 2000, v (ix2 r q) := by
  refine (Ideal.multiReduction_add_single v _ h hφ hacc (ix1 q)).trans ?_
  refine Finset.sum_congr rfl fun r _ => congrArg v ?_
  funext a
  apply Fin.ext
  match a with
  | ⟨0, _⟩ => rfl
  | ⟨1, _⟩ => rfl

/-! ## The body's three stored values at an index -/

/-- The affine map of the block's rows: row `p` of `x0 + x1` times column `q` of `x2`, plus the row vector's entry. -/
theorem pay1_apply (x0 x1 : Vec Ideal S2000x300 .f32) (x2 : Vec Ideal S300x300 .f32) (x3 : Vec Ideal S1x300 .f32)
    (p : Fin 2000) (q : Fin 300) :
    k12_pay1 (F := Ideal) x0 x1 x2 x3 (ix2 p q)
      = (∑ k : Fin 300, (x0 (ix2 p k) + x1 (ix2 p k)) * x2 (ix2 k q)) + x3 (ix2 0 q) := by
  unfold k12_pay1
  simp only [shapeCast_self]
  refine (addf_apply _ _ (ix2 p q)).trans ?_
  refine congrArg₂ (· + ·) ((mm_apply _ _ p q).trans ?_) (row2000_apply x3 _ p q)
  rfl

/-- The stored block in the narrower format is the same values. -/
theorem pay2_apply (x0 x1 : Vec Ideal S2000x300 .f32) (x2 : Vec Ideal S300x300 .f32) (x3 : Vec Ideal S1x300 .f32)
    (p : Fin 2000) (q : Fin 300) :
    k12_pay2 (F := Ideal) x0 x1 x2 x3 (ix2 p q)
      = (∑ k : Fin 300, (x0 (ix2 p k) + x1 (ix2 p k)) * x2 (ix2 k q)) + x3 (ix2 0 q) :=
  pay1_apply x0 x1 x2 x3 p q

/-- The block's column sums, on each of the 8 rows. -/
theorem pay3_apply (x0 x1 : Vec Ideal S2000x300 .f32) (x2 : Vec Ideal S300x300 .f32) (x3 : Vec Ideal S1x300 .f32)
    (r : Fin 8) (q : Fin 300) :
    k12_pay3 (F := Ideal) x0 x1 x2 x3 (ix2 r q) = ∑ p : Fin 2000, k12_pay1 (F := Ideal) x0 x1 x2 x3 (ix2 p q) := by
  unfold k12_pay3
  simp only [shapeCast_self]
  refine (row8_apply _ _ r q).trans ?_
  refine (asRow_apply _ _ q).trans ?_
  exact colsum_apply _ _ _ _ q

/-- The block's column sums of squares, on each of the 8 rows. -/
theorem pay4_apply (x0 x1 : Vec Ideal S2000x300 .f32) (x2 : Vec Ideal S300x300 .f32) (x3 : Vec Ideal S1x300 .f32)
    (r : Fin 8) (q : Fin 300) :
    k12_pay4 (F := Ideal) x0 x1 x2 x3 (ix2 r q)
      = ∑ p : Fin 2000, k12_pay1 (F := Ideal) x0 x1 x2 x3 (ix2 p q) * k12_pay1 (F := Ideal) x0 x1 x2 x3 (ix2 p q) := by
  unfold k12_pay4
  simp only [shapeCast_self]
  refine (row8_apply _ _ r q).trans ?_
  refine (asRow_apply _ _ q).trans ?_
  exact colsum_apply _ _ _ _ q

/-! ## The region's arrays, its blocks, and where a block sits in its array -/

section Arrays

variable (V : (c : Dev nD) → (b : Ref sig .tc) → Buf (Elt Ideal) ((c : Thread nD τ).loc b))

/-- the node features the region reads, 50000 × 300 -/
abbrev X0 (c : Dev nD) : GIN.Mat := V c (Pipeline.arrRef spec12 0)
/-- the neighbour aggregate, 50000 × 300 -/
abbrev X1 (c : Dev nD) : GIN.Mat := V c (Pipeline.arrRef spec12 1)
/-- the weight matrix, 300 × 300 -/
abbrev X2 (c : Dev nD) : GIN.Wt := V c (Pipeline.arrRef spec12 2)
/-- the bias, one row of 300 -/
abbrev X3 (c : Dev nD) : S1x300.Idx → EReal := V c (Pipeline.arrRef spec12 3)

/-- what the region computes: the affine map of `X0 + X1` -/
abbrev Z (c : Dev nD) : GIN.Mat :=
  GIN.lin (fun i => X0 V c i + X1 V c i) (X2 V c) (fun j => X3 V c (ix2 0 (j 0)))

/-- the four input windows' blocks at grid point `t` -/
abbrev B0 (c : Dev nD) (t : Fin cfg12.N) : Vec Ideal S2000x300 .f32 := iblk12 V c 0 t
abbrev B1 (c : Dev nD) (t : Fin cfg12.N) : Vec Ideal S2000x300 .f32 := iblk12 V c 1 t
abbrev B2 (c : Dev nD) (t : Fin cfg12.N) : Vec Ideal S300x300 .f32 := iblk12 V c 2 t
abbrev B3 (c : Dev nD) (t : Fin cfg12.N) : Vec Ideal S1x300 .f32 := iblk12 V c 3 t

theorem hz : (![0, 0] : Fin 2 → Nat) = fun _ => 0 := funext fun a => by
  match a with
  | ⟨0, _⟩ => rfl
  | ⟨1, _⟩ => rfl

/-- The index maps over the 25 grid points: the two big inputs and the three outputs move down one block per point,
    the weight matrix and the bias stay. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0 :=
  (by decide +kernel : ∀ t : Fin grid12.N, _)

/-- Row `p` of the features' block at point `t` is row `2000 t + p` of the array. -/
theorem B0_apply (c : Dev nD) (t : Fin cfg12.N) (p : Fin 2000) (q : Fin 300) (n : Fin 50000)
    (hn : n.val = 2000 * t.val + p.val) : B0 V c t (ix2 p q) = X0 V c (ix2 n q) := by
  obtain ⟨e0, e1, -⟩ := idx_facts t
  show V c (Pipeline.arrRef spec12 0) (((cfg12.win 0).blk t).view.emb (ix2 p q)) = V c (Pipeline.arrRef spec12 0) (ix2 n q)
  refine congrArg _ (funext fun a => Fin.ext ?_)
  match a with
  | ⟨0, _⟩ => show win12_0.index t (0 : Fin 2) * 2000 + 1 * p.val = n.val; rw [e0, hn]; omega
  | ⟨1, _⟩ => show win12_0.index t (1 : Fin 2) * 300 + 1 * q.val = q.val; rw [e1]; omega

/-- The same for the aggregate's block. -/
theorem B1_apply (c : Dev nD) (t : Fin cfg12.N) (p : Fin 2000) (q : Fin 300) (n : Fin 50000)
    (hn : n.val = 2000 * t.val + p.val) : B1 V c t (ix2 p q) = X1 V c (ix2 n q) := by
  obtain ⟨-, -, e0, e1, -⟩ := idx_facts t
  show V c (Pipeline.arrRef spec12 1) (((cfg12.win 1).blk t).view.emb (ix2 p q)) = V c (Pipeline.arrRef spec12 1) (ix2 n q)
  refine congrArg _ (funext fun a => Fin.ext ?_)
  match a with
  | ⟨0, _⟩ => show win12_1.index t (0 : Fin 2) * 2000 + 1 * p.val = n.val; rw [e0, hn]; omega
  | ⟨1, _⟩ => show win12_1.index t (1 : Fin 2) * 300 + 1 * q.val = q.val; rw [e1]; omega

/-- The weight matrix's block is the whole matrix at every point. -/
theorem B2_apply (c : Dev nD) (t : Fin cfg12.N) (k q : Fin 300) : B2 V c t (ix2 k q) = X2 V c (ix2 k q) := by
  obtain ⟨-, -, -, -, e0, e1, -⟩ := idx_facts t
  show V c (Pipeline.arrRef spec12 2) (((cfg12.win 2).blk t).view.emb (ix2 k q)) = V c (Pipeline.arrRef spec12 2) (ix2 k q)
  refine congrArg _ (funext fun a => Fin.ext ?_)
  match a with
  | ⟨0, _⟩ => show win12_2.index t (0 : Fin 2) * 300 + 1 * k.val = k.val; rw [e0]; omega
  | ⟨1, _⟩ => show win12_2.index t (1 : Fin 2) * 300 + 1 * q.val = q.val; rw [e1]; omega

/-- The bias's block is the whole row at every point. -/
theorem B3_apply (c : Dev nD) (t : Fin cfg12.N) (q : Fin 300) : B3 V c t (ix2 0 q) = X3 V c (ix2 0 q) := by
  obtain ⟨-, -, -, -, -, -, e0, e1, -⟩ := idx_facts t
  show V c (Pipeline.arrRef spec12 3) (((cfg12.win 3).blk t).view.emb (ix2 0 q)) = V c (Pipeline.arrRef spec12 3) (ix2 0 q)
  refine congrArg _ (funext fun a => Fin.ext ?_)
  match a with
  | ⟨0, _⟩ => show win12_3.index t (0 : Fin 2) * 1 + 1 * 0 = 0; rw [e0]
  | ⟨1, _⟩ => show win12_3.index t (1 : Fin 2) * 300 + 1 * q.val = q.val; rw [e1]; omega

/-! ## The body's values on the blocks are the network's values on the arrays -/

/-- Row `p` of the affine map of the blocks at point `t` is row `2000 t + p` of `Z`. -/
theorem pay1_block (c : Dev nD) (t : Fin cfg12.N) (p : Fin 2000) (q : Fin 300) (n : Fin 50000)
    (hn : n.val = 2000 * t.val + p.val) :
    k12_pay1 (F := Ideal) (B0 V c t) (B1 V c t) (B2 V c t) (B3 V c t) (ix2 p q) = Z V c (ix2 n q) := by
  refine (pay1_apply _ _ _ _ p q).trans ?_
  show _ = (∑ k : Fin 300, (X0 V c (ix2 n k) + X1 V c (ix2 n k)) * X2 V c (ix2 k q)) + X3 V c (ix2 0 q)
  refine congrArg₂ (· + ·) (Finset.sum_congr rfl fun k _ => ?_) (B3_apply V c t q)
  rw [B0_apply V c t p k n hn, B1_apply V c t p k n hn, B2_apply V c t k q]

/-- The stored block of window 4, entry by entry. -/
theorem out4_at (c : Dev nD) (t : Fin cfg12.N) (j : S2000x300.Idx) (n : Fin 50000)
    (hn : n.val = 2000 * t.val + (j 0).val) :
    k12_pay2 (F := Ideal) (B0 V c t) (B1 V c t) (B2 V c t) (B3 V c t) j = Z V c (ix2 n (j 1)) := by
  obtain ⟨p, q, rfl⟩ : ∃ (p : Fin 2000) (q : Fin 300), j = ix2 p q := ⟨j 0, j 1, eq_ix2 j⟩
  exact pay1_block V c t p q n hn

/-- The stored block of window 5: each of its 8 rows is the tile's column sums of `Z`. -/
theorem out5_at (c : Dev nD) (t : Fin cfg12.N) (j : S8x300.Idx) (s : Fin 200)
    (hs : s.val = 8 * t.val + (j 0).val) :
    k12_pay3 (F := Ideal) (B0 V c t) (B1 V c t) (B2 V c t) (B3 V c t) j = GIN.tileSum (Z V c) (ix2 s (j 1)) := by
  obtain ⟨r, q, rfl⟩ : ∃ (r : Fin 8) (q : Fin 300), j = ix2 r q := ⟨j 0, j 1, eq_ix2 j⟩
  refine (pay3_apply _ _ _ _ r q).trans ?_
  show _ = ∑ p : Fin 2000, Z V c (ix2 (GIN.tileRow s p) q)
  refine Finset.sum_congr rfl fun p _ => pay1_block V c t p q (GIN.tileRow s p) ?_
  show 2000 * (s.val / 8) + p.val = 2000 * t.val + p.val
  have hr : r.val < 8 := r.isLt
  have hs' : s.val = 8 * t.val + r.val := hs
  omega

/-- The stored block of window 6: each of its 8 rows is the tile's column sums of the squares of `Z`. -/
theorem out6_at (c : Dev nD) (t : Fin cfg12.N) (j : S8x300.Idx) (s : Fin 200)
    (hs : s.val = 8 * t.val + (j 0).val) :
    k12_pay4 (F := Ideal) (B0 V c t) (B1 V c t) (B2 V c t) (B3 V c t) j = GIN.tileSumSq (Z V c) (ix2 s (j 1)) := by
  obtain ⟨r, q, rfl⟩ : ∃ (r : Fin 8) (q : Fin 300), j = ix2 r q := ⟨j 0, j 1, eq_ix2 j⟩
  refine (pay4_apply _ _ _ _ r q).trans ?_
  show _ = ∑ p : Fin 2000, Z V c (ix2 (GIN.tileRow s p) q) * Z V c (ix2 (GIN.tileRow s p) q)
  have hr : r.val < 8 := r.isLt
  have hs' : s.val = 8 * t.val + r.val := hs
  refine Finset.sum_congr rfl fun p _ => ?_
  have e := pay1_block V c t p q (GIN.tileRow s p) (by
    show 2000 * (s.val / 8) + p.val = 2000 * t.val + p.val
    omega)
  rw [e]

/-! ## What each grid point writes back, and the arrays after the region -/

/-- Point `t` writes back rows `2000 t … 2000 t + 1999` of `Z`. -/
theorem flushed4_eq (c : Dev nD) (t : Fin cfg12.N) :
    (dat12 V c).flushed 4 t = ((cfg12.win 4).blk t).view.read (Elt Ideal) (Z V c) := by
  show (cfg12.win 4).cut (grid12.coords t) ((dat12 V c).after 4 t) = _
  rw [after12_4]
  unfold out12_4
  rw [View.canon_unit_zero hz]
  simp only [View.ld_unit_zero (S := S2000x300) hz, View.ld_unit_zero (S := S300x300) hz, View.ld_unit_zero (S := S1x300) hz]
  obtain ⟨-, -, -, -, -, -, -, -, e0, e1, -⟩ := idx_facts t
  have ht : t.val < 25 := t.isLt
  funext j
  have hj : (j 0).val < 2000 := (j 0).isLt
  show k12_pay2 (F := Ideal) (B0 V c t) (B1 V c t) (B2 V c t) (B3 V c t) j = Z V c (((cfg12.win 4).blk t).view.emb j)
  refine (out4_at V c t j ⟨2000 * t.val + (j 0).val, by omega⟩ rfl).trans ?_
  refine congrArg (Z V c) (funext fun a => Fin.ext ?_)
  match a with
  | ⟨0, _⟩ => show 2000 * t.val + (j 0).val = win12_4.index t (0 : Fin 2) * 2000 + 1 * (j 0).val; rw [e0]; omega
  | ⟨1, _⟩ => show (j 1).val = win12_4.index t (1 : Fin 2) * 300 + 1 * (j 1).val; rw [e1]; omega

/-- Point `t` writes back rows `8 t … 8 t + 7` of the tiles' column sums. -/
theorem flushed5_eq (c : Dev nD) (t : Fin cfg12.N) :
    (dat12 V c).flushed 5 t = ((cfg12.win 5).blk t).view.read (Elt Ideal) (GIN.tileSum (Z V c)) := by
  show (cfg12.win 5).cut (grid12.coords t) ((dat12 V c).after 5 t) = _
  rw [after12_5]
  unfold out12_5
  rw [View.canon_unit_zero hz]
  simp only [View.ld_unit_zero (S := S2000x300) hz, View.ld_unit_zero (S := S300x300) hz, View.ld_unit_zero (S := S1x300) hz]
  obtain ⟨-, -, -, -, -, -, -, -, -, -, e0, e1, -⟩ := idx_facts t
  have ht : t.val < 25 := t.isLt
  funext j
  have hj : (j 0).val < 8 := (j 0).isLt
  show k12_pay3 (F := Ideal) (B0 V c t) (B1 V c t) (B2 V c t) (B3 V c t) j = GIN.tileSum (Z V c) (((cfg12.win 5).blk t).view.emb j)
  refine (out5_at V c t j ⟨8 * t.val + (j 0).val, by omega⟩ rfl).trans ?_
  refine congrArg (GIN.tileSum (Z V c)) (funext fun a => Fin.ext ?_)
  match a with
  | ⟨0, _⟩ => show 8 * t.val + (j 0).val = win12_5.index t (0 : Fin 2) * 8 + 1 * (j 0).val; rw [e0]; omega
  | ⟨1, _⟩ => show (j 1).val = win12_5.index t (1 : Fin 2) * 300 + 1 * (j 1).val; rw [e1]; omega

/-- Point `t` writes back rows `8 t … 8 t + 7` of the tiles' column sums of squares. -/
theorem flushed6_eq (c : Dev nD) (t : Fin cfg12.N) :
    (dat12 V c).flushed 6 t = ((cfg12.win 6).blk t).view.read (Elt Ideal) (GIN.tileSumSq (Z V c)) := by
  show (cfg12.win 6).cut (grid12.coords t) ((dat12 V c).after 6 t) = _
  rw [after12_6]
  unfold out12_6
  rw [View.canon_unit_zero hz]
  simp only [View.ld_unit_zero (S := S2000x300) hz, View.ld_unit_zero (S := S300x300) hz, View.ld_unit_zero (S := S1x300) hz]
  obtain ⟨-, -, -, -, -, -, -, -, -, -, -, -, e0, e1⟩ := idx_facts t
  have ht : t.val < 25 := t.isLt
  funext j
  have hj : (j 0).val < 8 := (j 0).isLt
  show k12_pay4 (F := Ideal) (B0 V c t) (B1 V c t) (B2 V c t) (B3 V c t) j = GIN.tileSumSq (Z V c) (((cfg12.win 6).blk t).view.emb j)
  refine (out6_at V c t j ⟨8 * t.val + (j 0).val, by omega⟩ rfl).trans ?_
  refine congrArg (GIN.tileSumSq (Z V c)) (funext fun a => Fin.ext ?_)
  match a with
  | ⟨0, _⟩ => show 8 * t.val + (j 0).val = win12_6.index t (0 : Fin 2) * 8 + 1 * (j 0).val; rw [e0]; omega
  | ⟨1, _⟩ => show (j 1).val = win12_6.index t (1 : Fin 2) * 300 + 1 * (j 1).val; rw [e1]; omega

/-- An index of the 50000 × 300 array lies in point `t`'s block of window 4 iff each coordinate is in the block's range. -/
theorem mem_blk4 (t : Fin cfg12.N) (i : S50000x300.Idx) :
    i ∈ ((cfg12.win 4).blk t).view.set ↔ ∀ a : Fin 2, win12_4.index t a * S2000x300.size a ≤ (i a).val
      ∧ (i a).val < win12_4.index t a * S2000x300.size a + S2000x300.size a := by
  show i ∈ ((View.whole main_v287_0).slice (win12_4.rect t)).set ↔ _
  rw [View.set_slice_whole, Rect.mem_set_unit]
  exact Iff.rfl

theorem mem_blk5 (t : Fin cfg12.N) (i : S200x300.Idx) :
    i ∈ ((cfg12.win 5).blk t).view.set ↔ ∀ a : Fin 2, win12_5.index t a * S8x300.size a ≤ (i a).val
      ∧ (i a).val < win12_5.index t a * S8x300.size a + S8x300.size a := by
  show i ∈ ((View.whole main_v287_1).slice (win12_5.rect t)).set ↔ _
  rw [View.set_slice_whole, Rect.mem_set_unit]
  exact Iff.rfl

theorem mem_blk6 (t : Fin cfg12.N) (i : S200x300.Idx) :
    i ∈ ((cfg12.win 6).blk t).view.set ↔ ∀ a : Fin 2, win12_6.index t a * S8x300.size a ≤ (i a).val
      ∧ (i a).val < win12_6.index t a * S8x300.size a + S8x300.size a := by
  show i ∈ ((View.whole main_v287_2).slice (win12_6.rect t)).set ↔ _
  rw [View.set_slice_whole, Rect.mem_set_unit]
  exact Iff.rfl

/-- Row `n` of the 50000 × 300 array lies in the block of point `n / 2000`. -/
theorem cover4 (i : S50000x300.Idx) : ∃ t : Fin cfg12.N, (cfg12.win 4).flush t = true ∧ i ∈ ((cfg12.win 4).blk t).view.set := by
  have h0 : (i 0).val < 50000 := (i 0).isLt
  have h1 : (i 1).val < 300 := (i 1).isLt
  refine ⟨⟨(i 0).val / 2000, by show (i 0).val / 2000 < 25; omega⟩, flush12_4 _, ?_⟩
  rw [mem_blk4]
  obtain ⟨-, -, -, -, -, -, -, -, e0, e1, -⟩ := idx_facts ⟨(i 0).val / 2000, by show (i 0).val / 2000 < 25; omega⟩
  intro a
  match a with
  | ⟨0, _⟩ =>
    show win12_4.index _ (0 : Fin 2) * 2000 ≤ (i 0).val ∧ (i 0).val < win12_4.index _ (0 : Fin 2) * 2000 + 2000
    rw [e0]; show (i 0).val / 2000 * 2000 ≤ (i 0).val ∧ (i 0).val < (i 0).val / 2000 * 2000 + 2000; omega
  | ⟨1, _⟩ =>
    show win12_4.index _ (1 : Fin 2) * 300 ≤ (i 1).val ∧ (i 1).val < win12_4.index _ (1 : Fin 2) * 300 + 300
    rw [e1]; omega

/-- Row `p` of the 200 × 300 array lies in the block of point `p / 8`. -/
theorem cover5 (i : S200x300.Idx) : ∃ t : Fin cfg12.N, (cfg12.win 5).flush t = true ∧ i ∈ ((cfg12.win 5).blk t).view.set := by
  have h0 : (i 0).val < 200 := (i 0).isLt
  have h1 : (i 1).val < 300 := (i 1).isLt
  refine ⟨⟨(i 0).val / 8, by show (i 0).val / 8 < 25; omega⟩, flush12_5 _, ?_⟩
  rw [mem_blk5]
  obtain ⟨-, -, -, -, -, -, -, -, -, -, e0, e1, -⟩ := idx_facts ⟨(i 0).val / 8, by show (i 0).val / 8 < 25; omega⟩
  intro a
  match a with
  | ⟨0, _⟩ =>
    show win12_5.index _ (0 : Fin 2) * 8 ≤ (i 0).val ∧ (i 0).val < win12_5.index _ (0 : Fin 2) * 8 + 8
    rw [e0]; show (i 0).val / 8 * 8 ≤ (i 0).val ∧ (i 0).val < (i 0).val / 8 * 8 + 8; omega
  | ⟨1, _⟩ =>
    show win12_5.index _ (1 : Fin 2) * 300 ≤ (i 1).val ∧ (i 1).val < win12_5.index _ (1 : Fin 2) * 300 + 300
    rw [e1]; omega

theorem cover6 (i : S200x300.Idx) : ∃ t : Fin cfg12.N, (cfg12.win 6).flush t = true ∧ i ∈ ((cfg12.win 6).blk t).view.set := by
  have h0 : (i 0).val < 200 := (i 0).isLt
  have h1 : (i 1).val < 300 := (i 1).isLt
  refine ⟨⟨(i 0).val / 8, by show (i 0).val / 8 < 25; omega⟩, flush12_6 _, ?_⟩
  rw [mem_blk6]
  obtain ⟨-, -, -, -, -, -, -, -, -, -, -, -, e0, e1⟩ := idx_facts ⟨(i 0).val / 8, by show (i 0).val / 8 < 25; omega⟩
  intro a
  match a with
  | ⟨0, _⟩ =>
    show win12_6.index _ (0 : Fin 2) * 8 ≤ (i 0).val ∧ (i 0).val < win12_6.index _ (0 : Fin 2) * 8 + 8
    rw [e0]; show (i 0).val / 8 * 8 ≤ (i 0).val ∧ (i 0).val < (i 0).val / 8 * 8 + 8; omega
  | ⟨1, _⟩ =>
    show win12_6.index _ (1 : Fin 2) * 300 ≤ (i 1).val ∧ (i 1).val < win12_6.index _ (1 : Fin 2) * 300 + 300
    rw [e1]; omega

/-- After the region the first output array holds `Z`. -/
theorem z_final (c : Dev nD) : (dat12 V c).arrAt 4 cfg12.N = Z V c :=
  (dat12 V c).arrAt_eq_of_cover 4 (Z V c) (fun t _ => flushed4_eq V c t) cover4

/-- After the region the second output array holds the tiles' column sums of `Z`, each tile's on 8 rows. -/
theorem s_final (c : Dev nD) : (dat12 V c).arrAt 5 cfg12.N = GIN.tileSum (Z V c) :=
  (dat12 V c).arrAt_eq_of_cover 5 (GIN.tileSum (Z V c)) (fun t _ => flushed5_eq V c t) cover5

/-- After the region the third output array holds the tiles' column sums of the squares of `Z`. -/
theorem q_final (c : Dev nD) : (dat12 V c).arrAt 6 cfg12.N = GIN.tileSumSq (Z V c) :=
  (dat12 V c).arrAt_eq_of_cover 6 (GIN.tileSumSq (Z V c)) (fun t _ => flushed6_eq V c t) cover6

end Arrays

end Cert.KernelIdeal.Reg12

end
-- ==== Proof.KRegB13.lean ====
/-
  The second kernel of a layer, on the arrays it finds.  With `z` the 50000 × 300 features, `μ` and `v` the column
  statistics, `γ` and `β` the normalisation's parameters and `W`, `b` an affine map, its three output arrays end holding

      Z2 = max ((z - μ) · (v + ε)^(-1/2) · γ + β) 0 · W + b,

  and, for each of the 25 tiles of 2000 rows, on 8 identical rows per tile, the tile's column sums of `Z2` and of `Z2 · Z2`.

  The kernel visits the tiles in order.  At tile `t` it reads rows `2000 t …` of `z` and the small arrays whole, forms the
  2000 × 300 block of `Z2` by one block product, and writes the block and its two rows of column sums.  Read at one entry,
  the block product is the sum over the 300 contracted coordinates and a lane sum is the sum over the block's 2000 rows;
  an entry of a block is the entry of the array at block index × block size + its own coordinate; the blocks tile the arrays.
-/
import proofs.«144515_j12352325943894_2_alg».proof.Proof.Spec
import proofs.«144515_j12352325943894_2_alg».proof.Proof.FrameKI.R13
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg13

open Idealize.ShloMosaic Idealize.ShloMosaic.TcCoe Idealize.ShloMosaic.ValueIdx
open Idealize.ShloMosaic.Pipeline (Dat)
open Cert.KernelIdeal Cert.KernelIdeal.Gen

/-! ## The block product at an index -/

theorem lhs_mm_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_mm_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q

theorem rhs_mm_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q

theorem rhs_mm_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-- The block product into the zero splat, at row `p` and column `q`: the sum over the 300 contracted coordinates. -/
theorem mm_apply (a : FVec Ideal S2000x300 .bf16) (w : FVec Ideal S300x300 .bf16) (p : Fin 2000) (q : Fin 300) :
    matmul dot_S2000x300_S300x300_S2000x300_1_0_0_1_n_n none a w (constant (F := Ideal) S2000x300 .f32 0x00000000#32) (ix2 p q)
      = ∑ k : Fin 300, a (ix2 p k) * w (ix2 k q) := by
  simp only [matmul]
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k :=
    funext fun a => Fin.ext (by
      match a with
      | ⟨0, _⟩ => exact lhs_mm_0 _ _
      | ⟨1, _⟩ => exact (lhs_mm_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q :=
    funext fun a => Fin.ext (by
      match a with
      | ⟨0, _⟩ => exact (rhs_mm_0 _ _).trans hk
      | ⟨1, _⟩ => exact rhs_mm_1 _ _)
  rw [el, er]

/-! ## The payload at an index -/

/-- The affine image of the normalised, rectified block, at row `p` and column `q` of the block. -/
theorem pay3_apply (x0 : Vec Ideal S2000x300 .bf16) (xv xm xg xb : Vec Ideal S1x300 .f32) (xW : Vec Ideal S300x300 .f32)
    (xc : Vec Ideal S1x300 .f32) (p : Fin 2000) (q : Fin 300) :
    k13_pay3 x0 xv xm xg xb xW xc (ix2 p q)
      = (∑ k : Fin 300, max ((x0 (ix2 p k) - xm (ix2 0 k)) * Ideal.rsqrt (xv (ix2 0 k) + Ideal.ofBits .f32 0x3727C5AC#32) * xg (ix2 0 k)
            + xb (ix2 0 k)) (Ideal.ofBits .f32 0x00000000#32) * xW (ix2 k q)) + xc (ix2 0 q) := by
  unfold k13_pay3
  simp only [shapeCast_self]
  rw [addf_apply, mm_apply, broadcastTo_1b_ab_apply]
  refine congrArg (· + _) (Finset.sum_congr rfl fun k _ => ?_)
  rw [truncf_apply, truncf_apply, maximumf_apply, addf_apply, mulf_apply, mulf_apply, subf_apply, extf_apply,
    broadcastTo_1b_ab_apply, broadcastTo_1b_ab_apply, broadcastTo_1b_ab_apply, broadcastTo_1b_ab_apply]
  rfl

/-- A sum over the block's 2000 rows, read at column `q`. -/
theorem colsum_apply (src : FVec Ideal S2000x300 .f32) (h : S2000x300.Reduces [0] S300) (hφ : FKind.Formats .f32)
    (hacc : (0x00000000#32 : BitVec FTy.f32.bits) = FKind.add.neutral .f32 hφ) (q : Fin 300) :
    multiReduction (F := Ideal) .add [0] S300 src 0x00000000#32 h hφ hacc (ix1 q) = ∑ p : Fin 2000, src (ix2 p q) := by
  refine (Ideal.multiReduction_add_single src 0x00000000#32 h hφ hacc (ix1 q)).trans ?_
  show ∑ p : Fin 2000, src (h.lift (ix1 q) p) = _
  refine Finset.sum_congr rfl fun p _ => congrArg src ?_
  funext a
  match a with
  | ⟨0, _⟩ => rfl
  | ⟨1, _⟩ => rfl

/-- The first partial-sum block: every one of its 8 rows holds the block's column sums. -/
theorem sum_pay_apply (x0 : Vec Ideal S2000x300 .bf16) (xv xm xg xb : Vec Ideal S1x300 .f32) (xW : Vec Ideal S300x300 .f32)
    (xc : Vec Ideal S1x300 .f32) (r : Fin 8) (q : Fin 300) :
    k13_pay1 (k13_pay5 x0 xv xm xg xb xW xc) (ix2 r q) = ∑ p : Fin 2000, k13_pay3 x0 xv xm xg xb xW xc (ix2 p q) := by
  unfold k13_pay1 k13_pay5
  simp only [shapeCast_self]
  rw [broadcastTo_1b_ab_apply, shapeCast_a_1a_apply]
  exact colsum_apply _ _ _ _ q

/-- The second: every row holds the column sums of the squares. -/
theorem sq_pay_apply (x0 : Vec Ideal S2000x300 .bf16) (xv xm xg xb : Vec Ideal S1x300 .f32) (xW : Vec Ideal S300x300 .f32)
    (xc : Vec Ideal S1x300 .f32) (r : Fin 8) (q : Fin 300) :
    k13_pay2 (k13_pay6 x0 xv xm xg xb xW xc) (ix2 r q)
      = ∑ p : Fin 2000, k13_pay3 x0 xv xm xg xb xW xc (ix2 p q) * k13_pay3 x0 xv xm xg xb xW xc (ix2 p q) := by
  unfold k13_pay2 k13_pay6
  simp only [shapeCast_self]
  rw [broadcastTo_1b_ab_apply, shapeCast_a_1a_apply]
  exact colsum_apply _ _ _ _ q

/-! ## A block's payload as rows of the whole-array function -/

/-- Where the loaded blocks are row `n` of the features and the whole small arrays, the payload at `(p, q)` is the
    normalised, rectified features' affine image at `(n, q)`. -/
theorem z_point (Zin : GIN.Mat) (mu v g be : GIN.Col) (W : GIN.Wt) (b : GIN.Col)
    (x0 : Vec Ideal S2000x300 .bf16) (xm xv xg xb : Vec Ideal S1x300 .f32) (xW : Vec Ideal S300x300 .f32)
    (xc : Vec Ideal S1x300 .f32) (p : Fin 2000) (q : Fin 300) (n : Fin 50000)
    (h0 : ∀ k : Fin 300, x0 (ix2 p k) = Zin (ix2 n k))
    (hm : ∀ k : Fin 300, xm (ix2 0 k) = mu (ix1 k)) (hv : ∀ k : Fin 300, xv (ix2 0 k) = v (ix1 k))
    (hg : ∀ k : Fin 300, xg (ix2 0 k) = g (ix1 k)) (hb : ∀ k : Fin 300, xb (ix2 0 k) = be (ix1 k))
    (hW : ∀ k j : Fin 300, xW (ix2 k j) = W (ix2 k j)) (hc : ∀ k : Fin 300, xc (ix2 0 k) = b (ix1 k)) :
    k13_pay3 x0 xv xm xg xb xW xc (ix2 p q) = GIN.lin (GIN.bnrelu Zin mu v g be) W b (ix2 n q) := by
  rw [pay3_apply]
  unfold GIN.lin GIN.bnrelu GIN.cEps GIN.c0
  simp only [h0, hm, hv, hg, hb, hW, hc]

/-! ## The region's arrays -/

variable (V : (c : Dev nD) → (b : Ref sig .tc) → Buf (Elt Ideal) ((c : Thread nD τ).loc b))

/-- The arrays the region reads, as it finds them: the features, the column statistics and parameters, the weights. -/
abbrev zIn (c : Dev nD) : GIN.Mat := V c (Pipeline.arrRef spec13 0)
abbrev muIn (c : Dev nD) : GIN.Col := fun j => (V c (Pipeline.arrRef spec13 1) : S1x300.Idx → EReal) (ix2 0 (j 0))
abbrev varIn (c : Dev nD) : GIN.Col := fun j => (V c (Pipeline.arrRef spec13 2) : S1x300.Idx → EReal) (ix2 0 (j 0))
abbrev gIn (c : Dev nD) : GIN.Col := fun j => (V c (Pipeline.arrRef spec13 3) : S1x300.Idx → EReal) (ix2 0 (j 0))
abbrev beIn (c : Dev nD) : GIN.Col := fun j => (V c (Pipeline.arrRef spec13 4) : S1x300.Idx → EReal) (ix2 0 (j 0))
abbrev wIn (c : Dev nD) : GIN.Wt := V c (Pipeline.arrRef spec13 5)
abbrev bIn (c : Dev nD) : GIN.Col := fun j => (V c (Pipeline.arrRef spec13 6) : S1x300.Idx → EReal) (ix2 0 (j 0))

/-- What the region computes: the normalised, rectified features' affine image. -/
abbrev Z2 (c : Dev nD) : GIN.Mat :=
  GIN.lin (GIN.bnrelu (zIn V c) (muIn V c) (varIn V c) (gIn V c) (beIn V c)) (wIn V c) (bIn V c)

theorem hz : (![0, 0] : Fin 2 → Nat) = fun _ => 0 := funext fun a => by fin_cases a <;> rfl

/-- The index maps over the 25 points: the row-blocked windows sit at block `(t, 0)`, the whole-array ones at `(0, 0)`. -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0
    ∧ win13_8.index t (0 : Fin 2) = t.val ∧ win13_8.index t (1 : Fin 2) = 0
    ∧ win13_9.index t (0 : Fin 2) = t.val ∧ win13_9.index t (1 : Fin 2) = 0 :=
  (by decide +kernel : ∀ t : Fin grid13.N, _)

/-! ## The input blocks as parts of the arrays -/

/-- Row `p` of the features' block at point `t` is row `2000 t + p` of the features. -/
theorem z_blk (c : Dev nD) (t : Fin cfg13.N) (p : Fin 2000) (q : Fin 300) (n : Fin 50000) (hn : n.val = 2000 * t.val + p.val) :
    (iblk13 V c 0 t : Vec Ideal S2000x300 .bf16) (ix2 p q) = zIn V c (ix2 n q) := by
  obtain ⟨e0, e1, -⟩ := idx_facts t
  unfold iblk13
  rw [View.read_apply]
  show V c (Pipeline.arrRef spec13 0) _ = V c (Pipeline.arrRef spec13 0) _
  congr 1
  funext a
  apply Fin.ext
  match a with
  | ⟨0, _⟩ => show win13_0.index t (0 : Fin 2) * 2000 + 1 * p.val = n.val; rw [e0, hn]; omega
  | ⟨1, _⟩ => show win13_0.index t (1 : Fin 2) * 300 + 1 * q.val = q.val; rw [e1]; omega

/-- The one-row windows hold their whole arrays at every point: the column means, -/
theorem mu_blk (c : Dev nD) (t : Fin cfg13.N) (k : Fin 300) :
    (iblk13 V c 1 t : Vec Ideal S1x300 .f32) (ix2 0 k) = muIn V c (ix1 k) := by
  obtain ⟨-, -, e0, e1, -⟩ := idx_facts t
  unfold iblk13
  rw [View.read_apply]
  show V c (Pipeline.arrRef spec13 1) _ = V c (Pipeline.arrRef spec13 1) _
  congr 1
  funext a
  apply Fin.ext
  match a with
  | ⟨0, _⟩ => show win13_1.index t (0 : Fin 2) * 1 + 1 * 0 = 0; rw [e0]
  | ⟨1, _⟩ => show win13_1.index t (1 : Fin 2) * 300 + 1 * k.val = k.val; rw [e1]; omega

/-- the column variances, -/
theorem var_blk (c : Dev nD) (t : Fin cfg13.N) (k : Fin 300) :
    (iblk13 V c 2 t : Vec Ideal S1x300 .f32) (ix2 0 k) = varIn V c (ix1 k) := by
  obtain ⟨-, -, -, -, e0, e1, -⟩ := idx_facts t
  unfold iblk13
  rw [View.read_apply]
  show V c (Pipeline.arrRef spec13 2) _ = V c (Pipeline.arrRef spec13 2) _
  congr 1
  funext a
  apply Fin.ext
  match a with
  | ⟨0, _⟩ => show win13_2.index t (0 : Fin 2) * 1 + 1 * 0 = 0; rw [e0]
  | ⟨1, _⟩ => show win13_2.index t (1 : Fin 2) * 300 + 1 * k.val = k.val; rw [e1]; omega

/-- the scales, -/
theorem g_blk (c : Dev nD) (t : Fin cfg13.N) (k : Fin 300) :
    (iblk13 V c 3 t : Vec Ideal S1x300 .f32) (ix2 0 k) = gIn V c (ix1 k) := by
  obtain ⟨-, -, -, -, -, -, e0, e1, -⟩ := idx_facts t
  unfold iblk13
  rw [View.read_apply]
  show V c (Pipeline.arrRef spec13 3) _ = V c (Pipeline.arrRef spec13 3) _
  congr 1
  funext a
  apply Fin.ext
  match a with
  | ⟨0, _⟩ => show win13_3.index t (0 : Fin 2) * 1 + 1 * 0 = 0; rw [e0]
  | ⟨1, _⟩ => show win13_3.index t (1 : Fin 2) * 300 + 1 * k.val = k.val; rw [e1]; omega

/-- the shifts, -/
theorem be_blk (c : Dev nD) (t : Fin cfg13.N) (k : Fin 300) :
    (iblk13 V c 4 t : Vec Ideal S1x300 .f32) (ix2 0 k) = beIn V c (ix1 k) := by
  obtain ⟨-, -, -, -, -, -, -, -, e0, e1, -⟩ := idx_facts t
  unfold iblk13
  rw [View.read_apply]
  show V c (Pipeline.arrRef spec13 4) _ = V c (Pipeline.arrRef spec13 4) _
  congr 1
  funext a
  apply Fin.ext
  match a with
  | ⟨0, _⟩ => show win13_4.index t (0 : Fin 2) * 1 + 1 * 0 = 0; rw [e0]
  | ⟨1, _⟩ => show win13_4.index t (1 : Fin 2) * 300 + 1 * k.val = k.val; rw [e1]; omega

/-- the affine map's vector, -/
theorem b_blk (c : Dev nD) (t : Fin cfg13.N) (k : Fin 300) :
    (iblk13 V c 6 t : Vec Ideal S1x300 .f32) (ix2 0 k) = bIn V c (ix1 k) := by
  obtain ⟨-, -, -, -, -, -, -, -, -, -, -, -, e0, e1, -⟩ := idx_facts t
  unfold iblk13
  rw [View.read_apply]
  show V c (Pipeline.arrRef spec13 6) _ = V c (Pipeline.arrRef spec13 6) _
  congr 1
  funext a
  apply Fin.ext
  match a with
  | ⟨0, _⟩ => show win13_6.index t (0 : Fin 2) * 1 + 1 * 0 = 0; rw [e0]
  | ⟨1, _⟩ => show win13_6.index t (1 : Fin 2) * 300 + 1 * k.val = k.val; rw [e1]; omega

/-- and the weights' window holds the whole matrix. -/
theorem w_blk (c : Dev nD) (t : Fin cfg13.N) (k j : Fin 300) :
    (iblk13 V c 5 t : Vec Ideal S300x300 .f32) (ix2 k j) = wIn V c (ix2 k j) := by
  obtain ⟨-, -, -, -, -, -, -, -, -, -, e0, e1, -⟩ := idx_facts t
  unfold iblk13
  rw [View.read_apply]
  show V c (Pipeline.arrRef spec13 5) _ = V c (Pipeline.arrRef spec13 5) _
  congr 1
  funext a
  apply Fin.ext
  match a with
  | ⟨0, _⟩ => show win13_5.index t (0 : Fin 2) * 300 + 1 * k.val = k.val; rw [e0]; omega
  | ⟨1, _⟩ => show win13_5.index t (1 : Fin 2) * 300 + 1 * j.val = j.val; rw [e1]; omega

/-- The payload of point `t`'s blocks at `(p, q)` is the region's function at row `2000 t + p`. -/
theorem pay_blk (c : Dev nD) (t : Fin cfg13.N) (p : Fin 2000) (q : Fin 300) (n : Fin 50000) (hn : n.val = 2000 * t.val + p.val) :
    k13_pay3 (iblk13 V c 0 t) (iblk13 V c 2 t) (iblk13 V c 1 t) (iblk13 V c 3 t) (iblk13 V c 4 t) (iblk13 V c 5 t) (iblk13 V c 6 t) (ix2 p q)
      = Z2 V c (ix2 n q) :=
  z_point (zIn V c) (muIn V c) (varIn V c) (gIn V c) (beIn V c) (wIn V c) (bIn V c)
    (iblk13 V c 0 t) (iblk13 V c 1 t) (iblk13 V c 2 t) (iblk13 V c 3 t) (iblk13 V c 4 t) (iblk13 V c 5 t) (iblk13 V c 6 t) p q n
    (fun k => z_blk V c t p k n hn) (mu_blk V c t) (var_blk V c t) (g_blk V c t) (be_blk V c t) (w_blk V c t) (b_blk V c t)

/-! ## What each point writes back -/

/-- Point `t` writes back rows `2000 t … 2000 t + 1999` of the region's function. -/
theorem z_flushed (c : Dev nD) (t : Fin cfg13.N) :
    (dat13 V c).flushed 7 t = ((cfg13.win 7).blk t).view.read (Elt Ideal) (Z2 V c) := by
  show (cfg13.win 7).cut (grid13.coords t) ((dat13 V c).after 7 t) = _
  rw [after13_7]
  unfold out13_7
  rw [View.canon_unit_zero hz]
  simp only [View.ld_unit_zero (S := S2000x300) hz, View.ld_unit_zero (S := S1x300) hz, View.ld_unit_zero (S := S300x300) hz]
  funext j
  obtain ⟨p, q, rfl⟩ : ∃ (p : Fin 2000) (q : Fin 300), j = ix2 p q := ⟨j 0, j 1, eq_ix2 j⟩
  obtain ⟨-, -, -, -, -, -, -, -, -, -, -, -, -, -, e0, e1, -⟩ := idx_facts t
  have ht : t.val < 25 := t.isLt
  have hn : 2000 * t.val + p.val < 50000 := by have := p.isLt; omega
  have hemb : ((cfg13.win 7).blk t).view.emb (ix2 p q) = (ix2 (⟨2000 * t.val + p.val, hn⟩ : Fin 50000) q : S50000x300.Idx) := by
    funext a
    apply Fin.ext
    match a with
    | ⟨0, _⟩ => show win13_7.index t (0 : Fin 2) * 2000 + 1 * p.val = 2000 * t.val + p.val; rw [e0]; omega
    | ⟨1, _⟩ => show win13_7.index t (1 : Fin 2) * 300 + 1 * q.val = q.val; rw [e1]; omega
  show k13_pay3 (iblk13 V c 0 t) (iblk13 V c 2 t) (iblk13 V c 1 t) (iblk13 V c 3 t) (iblk13 V c 4 t) (iblk13 V c 5 t) (iblk13 V c 6 t) (ix2 p q)
    = Z2 V c (((cfg13.win 7).blk t).view.emb (ix2 p q))
  rw [hemb]
  exact pay_blk V c t p q ⟨_, hn⟩ rfl

/-- Row `8 t + r` of the partial sums' arrays is tile `t`'s. -/
theorem tileRow_blk (t : Fin 25) (r : Fin 8) (p : Fin 2000) (h : 8 * t.val + r.val < 200) (hn : 2000 * t.val + p.val < 50000) :
    GIN.tileRow ⟨8 * t.val + r.val, h⟩ p = ⟨2000 * t.val + p.val, hn⟩ := by
  apply Fin.ext
  show 2000 * ((8 * t.val + r.val) / 8) + p.val = 2000 * t.val + p.val
  have := r.isLt
  omega

/-- Point `t` writes back rows `8 t … 8 t + 7` of the tiles' column sums, -/
theorem s_flushed (c : Dev nD) (t : Fin cfg13.N) :
    (dat13 V c).flushed 8 t = ((cfg13.win 8).blk t).view.read (Elt Ideal) (GIN.tileSum (Z2 V c)) := by
  show (cfg13.win 8).cut (grid13.coords t) ((dat13 V c).after 8 t) = _
  rw [after13_8]
  unfold out13_8
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, e0, e1, -⟩ := idx_facts t
  have ht : t.val < 25 := t.isLt
  have hP : 8 * t.val + r.val < 200 := by have := r.isLt; omega
  have hemb : ((cfg13.win 8).blk t).view.emb (ix2 r q) = (ix2 (⟨8 * t.val + r.val, hP⟩ : Fin 200) q : S200x300.Idx) := by
    funext a
    apply Fin.ext
    match a with
    | ⟨0, _⟩ => show win13_8.index t (0 : Fin 2) * 8 + 1 * r.val = 8 * t.val + r.val; rw [e0]; omega
    | ⟨1, _⟩ => show win13_8.index t (1 : Fin 2) * 300 + 1 * q.val = q.val; rw [e1]; omega
  show k13_pay1 (k13_pay5 (iblk13 V c 0 t) (iblk13 V c 2 t) (iblk13 V c 1 t) (iblk13 V c 3 t) (iblk13 V c 4 t) (iblk13 V c 5 t) (iblk13 V c 6 t)) (ix2 r q)
    = GIN.tileSum (Z2 V c) (((cfg13.win 8).blk t).view.emb (ix2 r q))
  rw [hemb, sum_pay_apply]
  show _ = ∑ p : Fin 2000, Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn]
  exact pay_blk V c t p q ⟨_, hn⟩ rfl

/-- and of the tiles' column sums of squares. -/
theorem q_flushed (c : Dev nD) (t : Fin cfg13.N) :
    (dat13 V c).flushed 9 t = ((cfg13.win 9).blk t).view.read (Elt Ideal) (GIN.tileSumSq (Z2 V c)) := by
  show (cfg13.win 9).cut (grid13.coords t) ((dat13 V c).after 9 t) = _
  rw [after13_9]
  unfold out13_9
  rw [View.canon_unit_zero hz]
  simp only [View.ld_unit_zero (S := S2000x300) hz, View.ld_unit_zero (S := S1x300) hz, View.ld_unit_zero (S := S300x300) hz]
  funext j
  obtain ⟨r, q, rfl⟩ : ∃ (r : Fin 8) (q : Fin 300), j = ix2 r q := ⟨j 0, j 1, eq_ix2 j⟩
  obtain ⟨-, -, -, -, -, -, -, -, -, -, -, -, -, -, -, -, -, -, e0, e1⟩ := idx_facts t
  have ht : t.val < 25 := t.isLt
  have hP : 8 * t.val + r.val < 200 := by have := r.isLt; omega
  have hemb : ((cfg13.win 9).blk t).view.emb (ix2 r q) = (ix2 (⟨8 * t.val + r.val, hP⟩ : Fin 200) q : S200x300.Idx) := by
    funext a
    apply Fin.ext
    match a with
    | ⟨0, _⟩ => show win13_9.index t (0 : Fin 2) * 8 + 1 * r.val = 8 * t.val + r.val; rw [e0]; omega
    | ⟨1, _⟩ => show win13_9.index t (1 : Fin 2) * 300 + 1 * q.val = q.val; rw [e1]; omega
  show k13_pay2 (k13_pay6 (iblk13 V c 0 t) (iblk13 V c 2 t) (iblk13 V c 1 t) (iblk13 V c 3 t) (iblk13 V c 4 t) (iblk13 V c 5 t) (iblk13 V c 6 t)) (ix2 r q)
    = GIN.tileSumSq (Z2 V c) (((cfg13.win 9).blk t).view.emb (ix2 r q))
  rw [hemb, sq_pay_apply]
  show _ = ∑ p : Fin 2000, Z2 V c (ix2 (GIN.tileRow ⟨8 * t.val + r.val, hP⟩ p) q) * Z2 V c (ix2 (GIN.tileRow ⟨8 * t.val + r.val, hP⟩ p) q)
  refine Finset.sum_congr rfl fun p _ => ?_
  have hn : 2000 * t.val + p.val < 50000 := by have := p.isLt; omega
  rw [tileRow_blk ⟨t.val, ht⟩ r p hP hn, pay_blk V c t p q ⟨_, hn⟩ rfl]

/-! ## The blocks cover the arrays -/

/-- An index of the features' array is in point `t`'s block iff each coordinate is in the block's range. -/
theorem mem_blk7 (t : Fin cfg13.N) (i : S50000x300.Idx) :
    i ∈ ((cfg13.win 7).blk t).view.set
      ↔ ∀ a : Fin 2, win13_7.index t a * S2000x300.size a ≤ (i a).val ∧ (i a).val < win13_7.index t a * S2000x300.size a + S2000x300.size a := by
  show i ∈ ((View.whole main_v315_0).slice (win13_7.rect t)).set ↔ _
  rw [View.set_slice_whole, Rect.mem_set_unit]
  exact Iff.rfl

theorem mem_blk8 (t : Fin cfg13.N) (i : S200x300.Idx) :
    i ∈ ((cfg13.win 8).blk t).view.set
      ↔ ∀ a : Fin 2, win13_8.index t a * S8x300.size a ≤ (i a).val ∧ (i a).val < win13_8.index t a * S8x300.size a + S8x300.size a := by
  show i ∈ ((View.whole main_v315_1).slice (win13_8.rect t)).set ↔ _
  rw [View.set_slice_whole, Rect.mem_set_unit]
  exact Iff.rfl

theorem mem_blk9 (t : Fin cfg13.N) (i : S200x300.Idx) :
    i ∈ ((cfg13.win 9).blk t).view.set
      ↔ ∀ a : Fin 2, win13_9.index t a * S8x300.size a ≤ (i a).val ∧ (i a).val < win13_9.index t a * S8x300.size a + S8x300.size a := by
  show i ∈ ((View.whole main_v315_2).slice (win13_9.rect t)).set ↔ _
  rw [View.set_slice_whole, Rect.mem_set_unit]
  exact Iff.rfl

/-- Row `n` of the features is in the block of point `n / 2000`. -/
theorem z_cover (i : S50000x300.Idx) :
    ∃ t : Fin cfg13.N, (cfg13.win 7).flush t = true ∧ i ∈ ((cfg13.win 7).blk t).view.set := by
  have hi0 : (i 0).val < 50000 := (i 0).isLt
  have hi1 : (i 1).val < 300 := (i 1).isLt
  have ht : (i 0).val / 2000 < 25 := by omega
  obtain ⟨-, -, -, -, -, -, -, -, -, -, -, -, -, -, e0, e1, -⟩ := idx_facts (⟨(i 0).val / 2000, ht⟩ : Fin cfg13.N)
  refine ⟨⟨(i 0).val / 2000, ht⟩, flush13_7 _, ?_⟩
  rw [mem_blk7]
  intro a
  match a with
  | ⟨0, _⟩ =>
    show win13_7.index ⟨(i 0).val / 2000, ht⟩ (0 : Fin 2) * 2000 ≤ (i 0).val ∧ (i 0).val < win13_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win13_7.index ⟨(i 0).val / 2000, ht⟩ (1 : Fin 2) * 300 ≤ (i 1).val ∧ (i 1).val < win13_7.index ⟨(i 0).val / 2000, ht⟩ (1 : Fin 2) * 300 + 300
    rw [e1]; omega

/-- Row `P` of a partial sums' array is in the block of point `P / 8`. -/
theorem s_cover (i : S200x300.Idx) :
    ∃ t : Fin cfg13.N, (cfg13.win 8).flush t = true ∧ i ∈ ((cfg13.win 8).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, e0, e1, -⟩ := idx_facts (⟨(i 0).val / 8, ht⟩ : Fin cfg13.N)
  refine ⟨⟨(i 0).val / 8, ht⟩, flush13_8 _, ?_⟩
  rw [mem_blk8]
  intro a
  match a with
  | ⟨0, _⟩ =>
    show win13_8.index ⟨(i 0).val / 8, ht⟩ (0 : Fin 2) * 8 ≤ (i 0).val ∧ (i 0).val < win13_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win13_8.index ⟨(i 0).val / 8, ht⟩ (1 : Fin 2) * 300 ≤ (i 1).val ∧ (i 1).val < win13_8.index ⟨(i 0).val / 8, ht⟩ (1 : Fin 2) * 300 + 300
    rw [e1]; omega

theorem q_cover (i : S200x300.Idx) :
    ∃ t : Fin cfg13.N, (cfg13.win 9).flush t = true ∧ i ∈ ((cfg13.win 9).blk t).view.set := by
  have hi0 : (i 0).val < 200 := (i 0).isLt
  have hi1 : (i 1).val < 300 := (i 1).isLt
  have ht : (i 0).val / 8 < 25 := by omega
  obtain ⟨-, -, -, -, -, -, -, -, -, -, -, -, -, -, -, -, -, -, e0, e1⟩ := idx_facts (⟨(i 0).val / 8, ht⟩ : Fin cfg13.N)
  refine ⟨⟨(i 0).val / 8, ht⟩, flush13_9 _, ?_⟩
  rw [mem_blk9]
  intro a
  match a with
  | ⟨0, _⟩ =>
    show win13_9.index ⟨(i 0).val / 8, ht⟩ (0 : Fin 2) * 8 ≤ (i 0).val ∧ (i 0).val < win13_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win13_9.index ⟨(i 0).val / 8, ht⟩ (1 : Fin 2) * 300 ≤ (i 1).val ∧ (i 1).val < win13_9.index ⟨(i 0).val / 8, ht⟩ (1 : Fin 2) * 300 + 300
    rw [e1]; omega

/-! ## The three arrays after the region -/

/-- The features' array ends at the region's function of the arrays it read; -/
theorem z_final (c : Dev nD) : (dat13 V c).arrAt 7 cfg13.N = Z2 V c :=
  (dat13 V c).arrAt_eq_of_cover 7 (Z2 V c) (fun t _ => z_flushed V c t) z_cover

/-- the first partial sums' array at its tiles' column sums, each on 8 rows; -/
theorem s_final (c : Dev nD) : (dat13 V c).arrAt 8 cfg13.N = GIN.tileSum (Z2 V c) :=
  (dat13 V c).arrAt_eq_of_cover 8 (GIN.tileSum (Z2 V c)) (fun t _ => s_flushed V c t) s_cover

/-- the second at the column sums of squares. -/
theorem q_final (c : Dev nD) : (dat13 V c).arrAt 9 cfg13.N = GIN.tileSumSq (Z2 V c) :=
  (dat13 V c).arrAt_eq_of_cover 9 (GIN.tileSumSq (Z2 V c)) (fun t _ => q_flushed V c t) q_cover

end Cert.KernelIdeal.Reg13

end
-- ==== Proof.KRegC14.lean ====
/-
  The third kernel of a layer (normalise, scale, shift, clamp), as a function of the arrays it finds.

  The grid has 25 points. At point `t` the kernel reads rows `2000 t … 2000 t + 1999` of the `50000 × 300` input `z`, and the
  four `1 × 300` rows `μ`, `v`, `γ`, `β` whole, and writes rows `2000 t … 2000 t + 1999` of the output:
  `max ((z - μ) · (v + ε)^(-1/2) · γ + β) 0`, entry by entry, each column with its own `μ`, `v`, `γ`, `β`.
  The 25 tiles of rows are disjoint and fill the array, so after the last point the output array is that function of the
  input arrays at every index: `GIN.bnrelu`.
-/
import proofs.«144515_j12352325943894_2_alg».proof.Proof.FrameKI.R14
import proofs.«144515_j12352325943894_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Reg14

open Cert.KernelIdeal Cert.KernelIdeal.Gen
open Idealize.ShloMosaic Idealize.ShloMosaic.TcCoe Idealize.ShloMosaic.ValueIdx Idealize.SL.Sem
open Idealize.ShloMosaic.Pipeline (Dat)

/-! ## The body at one entry of a block -/

/-- The body's result at row `p`, column `q` of a block: the block's entry, less the column's mean, times the
    inverse square root of the column's variance plus `ε`, times the column's scale, plus its shift, clamped at `0`.
    Widening the 16-bit entries is the identity over the extended reals; the four rows are repeated down the 2000 rows. -/
theorem pay_apply (x0 : Vec Ideal S2000x300 .bf16) (xv xm xg xb : Vec Ideal S1x300 .f32) (p : Fin 2000) (q : Fin 300) :
    k14_pay1 x0 xv xm xg xb (ix2 p q)
      = max ((x0 (ix2 p q) - xm (ix2 0 q)) * Ideal.rsqrt (xv (ix2 0 q) + GIN.cEps) * xg (ix2 0 q) + xb (ix2 0 q)) GIN.c0 := by
  unfold k14_pay1
  simp only [shapeCast_self]
  rw [maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-! ## Where the blocks sit in the arrays -/

theorem hz : (![0, 0] : Fin 2 → Nat) = fun _ => 0 := funext fun a => by fin_cases a <;> rfl

/-- The printed index maps over the 25 grid points: the two big windows sit at block `(t, 0)`, the four row
    windows at block `(0, 0)`. -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- row `p` of tile `t` is row `2000 t + p` of the array -/
def row (t : Fin 25) (p : Fin 2000) : Fin 50000 := ⟨2000 * t.val + p.val, by have := t.isLt; have := p.isLt; omega⟩

/-- Entry `(p, q)` of the input's block at point `t` is entry `(2000 t + p, q)` of the array. -/
theorem emb0 (t : Fin cfg14.N) (p : Fin 2000) (q : Fin 300) :
    ((cfg14.win 0).blk t).view.emb (ix2 p q) = ix2 (row t p) q := by
  obtain ⟨e0, e1, -⟩ := idx_facts t
  funext a; apply Fin.ext
  match a with
  | ⟨0, _⟩ => show win14_0.index t (0 : Fin 2) * 2000 + 1 * p.val = 2000 * t.val + p.val; omega
  | ⟨1, _⟩ => show win14_0.index t (1 : Fin 2) * 300 + 1 * q.val = q.val; omega

/-- and so is entry `(p, q)` of the output's block. -/
theorem emb5 (t : Fin cfg14.N) (p : Fin 2000) (q : Fin 300) :
    ((cfg14.win 5).blk t).view.emb (ix2 p q) = ix2 (row t p) q := by
  obtain ⟨-, -, -, -, -, -, -, -, -, -, e0, e1⟩ := idx_facts t
  funext a; apply Fin.ext
  match a with
  | ⟨0, _⟩ => show win14_5.index t (0 : Fin 2) * 2000 + 1 * p.val = 2000 * t.val + p.val; omega
  | ⟨1, _⟩ => show win14_5.index t (1 : Fin 2) * 300 + 1 * q.val = q.val; omega

/-- Each row window's block is the whole row, at every point. -/
theorem emb1 (t : Fin cfg14.N) (q : Fin 300) :
    ((cfg14.win 1).blk t).view.emb (ix2 (0 : Fin 1) q) = ix2 (0 : Fin 1) q := by
  obtain ⟨-, -, e0, e1, -⟩ := idx_facts t
  funext a; apply Fin.ext
  match a with
  | ⟨0, _⟩ => show win14_1.index t (0 : Fin 2) * 1 + 1 * 0 = 0; omega
  | ⟨1, _⟩ => show win14_1.index t (1 : Fin 2) * 300 + 1 * q.val = q.val; omega

theorem emb2 (t : Fin cfg14.N) (q : Fin 300) :
    ((cfg14.win 2).blk t).view.emb (ix2 (0 : Fin 1) q) = ix2 (0 : Fin 1) q := by
  obtain ⟨-, -, -, -, e0, e1, -⟩ := idx_facts t
  funext a; apply Fin.ext
  match a with
  | ⟨0, _⟩ => show win14_2.index t (0 : Fin 2) * 1 + 1 * 0 = 0; omega
  | ⟨1, _⟩ => show win14_2.index t (1 : Fin 2) * 300 + 1 * q.val = q.val; omega

theorem emb3 (t : Fin cfg14.N) (q : Fin 300) :
    ((cfg14.win 3).blk t).view.emb (ix2 (0 : Fin 1) q) = ix2 (0 : Fin 1) q := by
  obtain ⟨-, -, -, -, -, -, e0, e1, -⟩ := idx_facts t
  funext a; apply Fin.ext
  match a with
  | ⟨0, _⟩ => show win14_3.index t (0 : Fin 2) * 1 + 1 * 0 = 0; omega
  | ⟨1, _⟩ => show win14_3.index t (1 : Fin 2) * 300 + 1 * q.val = q.val; omega

theorem emb4 (t : Fin cfg14.N) (q : Fin 300) :
    ((cfg14.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win14_4.index t (0 : Fin 2) * 1 + 1 * 0 = 0; omega
  | ⟨1, _⟩ => show win14_4.index t (1 : Fin 2) * 300 + 1 * q.val = q.val; omega

/-- An index of the array is in point `t`'s block iff each coordinate is in the block's range on its axis. -/
theorem mem_blk (t : Fin cfg14.N) (i : S50000x300.Idx) :
    i ∈ ((cfg14.win 5).blk t).view.set ↔ ∀ a : Fin 2, win14_5.index t a * S2000x300.size a ≤ (i a).val ∧ (i a).val < win14_5.index t a * S2000x300.size a + S2000x300.size a := by
  show i ∈ ((View.whole main_v338).slice (win14_5.rect t)).set ↔ _
  rw [View.set_slice_whole, Rect.mem_set_unit]
  exact Iff.rfl

/-- Row `r` of the array lies in tile `r / 2000`, so the 25 blocks cover the array. -/
theorem cover (i : S50000x300.Idx) :
    ∃ t : Fin cfg14.N, (cfg14.win 5).flush t = true ∧ i ∈ ((cfg14.win 5).blk t).view.set := by
  have hi0 : (i 0).val < 50000 := (i 0).isLt
  have hi1 : (i 1).val < 300 := (i 1).isLt
  have ht : (i 0).val / 2000 < 25 := by omega
  refine ⟨⟨(i 0).val / 2000, ht⟩, flush14_5 _, ?_⟩
  rw [mem_blk]
  obtain ⟨-, -, -, -, -, -, -, -, -, -, e0, e1⟩ := idx_facts ⟨(i 0).val / 2000, ht⟩
  intro a
  match a with
  | ⟨0, _⟩ =>
    show win14_5.index ⟨(i 0).val / 2000, ht⟩ (0 : Fin 2) * 2000 ≤ (i 0).val ∧ (i 0).val < win14_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win14_5.index ⟨(i 0).val / 2000, ht⟩ (1 : Fin 2) * 300 ≤ (i 1).val ∧ (i 1).val < win14_5.index ⟨(i 0).val / 2000, ht⟩ (1 : Fin 2) * 300 + 300
    rw [e1]; omega

/-! ## The output array after the region -/

variable (V : (c : Dev nD) → (b : Ref sig .tc) → Buf (Elt Ideal) ((c : Thread nD τ).loc b))

/-- the input `z` as the region finds it -/
abbrev Zin (c : Dev nD) : GIN.Mat := V c (Pipeline.arrRef spec14 0)
/-- the four rows as the region finds them, read as per-column vectors -/
abbrev mu (c : Dev nD) : GIN.Col := fun j => V c (Pipeline.arrRef spec14 1) (ix2 0 (j 0))
abbrev va (c : Dev nD) : GIN.Col := fun j => V c (Pipeline.arrRef spec14 2) (ix2 0 (j 0))
abbrev ga (c : Dev nD) : GIN.Col := fun j => V c (Pipeline.arrRef spec14 3) (ix2 0 (j 0))
abbrev be (c : Dev nD) : GIN.Col := fun j => V c (Pipeline.arrRef spec14 4) (ix2 0 (j 0))

/-- What point `t` writes back is block `t` of `GIN.bnrelu` of the input arrays: the body's result at `(p, q)` reads
    the input at `(2000 t + p, q)` and the rows at `q`, and that is the output's index `(2000 t + p, q)`. -/
theorem flushed_eq (c : Dev nD) (t : Fin cfg14.N) :
    (dat14 V c).flushed 5 t
      = ((cfg14.win 5).blk t).view.read (Elt Ideal) (GIN.bnrelu (Zin V c) (mu V c) (va V c) (ga V c) (be V c)) := by
  show (cfg14.win 5).cut (grid14.coords t) ((dat14 V c).after 5 t) = _
  rw [after14_5]
  unfold out14_5
  rw [View.canon_unit_zero hz]
  simp only [View.ld_unit_zero (S := S2000x300) hz, View.ld_unit_zero (S := S1x300) hz]
  funext j
  obtain ⟨p, q, rfl⟩ : ∃ (p : Fin 2000) (q : Fin 300), j = ix2 p q := ⟨j 0, j 1, eq_ix2 j⟩
  show k14_pay1 (iblk14 V c 0 t) (iblk14 V c 2 t) (iblk14 V c 1 t) (iblk14 V c 3 t) (iblk14 V c 4 t) (ix2 p q)
    = GIN.bnrelu (Zin V c) (mu V c) (va V c) (ga V c) (be V c) (((cfg14.win 5).blk t).view.emb (ix2 p q))
  rw [pay_apply, emb5]
  have h0 : iblk14 V c 0 t (ix2 p q) = Zin V c (ix2 (row t p) q) := by
    show V c (Pipeline.arrRef spec14 0) (((cfg14.win 0).blk t).view.emb (ix2 p q)) = _
    rw [emb0]
  have h1 : iblk14 V c 1 t (ix2 0 q) = V c (Pipeline.arrRef spec14 1) (ix2 0 q) := by
    show V c (Pipeline.arrRef spec14 1) (((cfg14.win 1).blk t).view.emb (ix2 (0 : Fin 1) q)) = _
    rw [emb1]
  have h2 : iblk14 V c 2 t (ix2 0 q) = V c (Pipeline.arrRef spec14 2) (ix2 0 q) := by
    show V c (Pipeline.arrRef spec14 2) (((cfg14.win 2).blk t).view.emb (ix2 (0 : Fin 1) q)) = _
    rw [emb2]
  have h3 : iblk14 V c 3 t (ix2 0 q) = V c (Pipeline.arrRef spec14 3) (ix2 0 q) := by
    show V c (Pipeline.arrRef spec14 3) (((cfg14.win 3).blk t).view.emb (ix2 (0 : Fin 1) q)) = _
    rw [emb3]
  have h4 : iblk14 V c 4 t (ix2 0 q) = V c (Pipeline.arrRef spec14 4) (ix2 0 q) := by
    show V c (Pipeline.arrRef spec14 4) (((cfg14.win 4).blk t).view.emb (ix2 (0 : Fin 1) q)) = _
    rw [emb4]
  rw [h0, h1, h2, h3, h4]
  rfl

/-- THE OUTPUT ARRAY after the region: `max ((z - μ) · (v + ε)^(-1/2) · γ + β) 0` of the arrays the region finds. -/
theorem h_final (c : Dev nD) :
    (dat14 V c).arrAt 5 cfg14.N
      = GIN.bnrelu (V c (Pipeline.arrRef spec14 0))
          (fun j : GIN.SD.Idx => V c (Pipeline.arrRef spec14 1) (ix2 0 (j 0)))
          (fun j : GIN.SD.Idx => V c (Pipeline.arrRef spec14 2) (ix2 0 (j 0)))
          (fun j : GIN.SD.Idx => V c (Pipeline.arrRef spec14 3) (ix2 0 (j 0)))
          (fun j : GIN.SD.Idx => V c (Pipeline.arrRef spec14 4) (ix2 0 (j 0))) :=
  (dat14 V c).arrAt_eq_of_cover 5 (GIN.bnrelu (Zin V c) (mu V c) (va V c) (ga V c) (be V c))
    (fun t _ => flushed_eq V c t) cover

end Cert.KernelIdeal.Reg14

end
-- ==== Proof.KHost.lean ====
/-
  The kernel program's host operations between its regions, as plain functions over arrays, with their index-level reading.

  Between a layer's first and second region the host turns the two 200 × 300 arrays of partial sums into the column mean
  and the column variance: it sums the 200 rows, divides by 8 and by 50000, and for the variance subtracts the mean's square
  and takes the maximum with zero. It also cuts one layer's row out of each stacked parameter array. Before a layer's first
  region it forms the neighbour aggregate: gather the source rows of the edges, scatter-add them at the destination rows.
  Each function below is the composed term of the operations, in the order and with the shape facts the program states.
-/
import proofs.«144515_j12352325943894_2_alg».proof.KernelIdeal
import proofs.«144515_j12352325943894_2_alg».proof.Proof.Spec
import Idealize.ShloMosaic.Lib.IdealHost
import Idealize.ShloMosaic.Lib.ValueLayout

noncomputable section

namespace Cert.KernelIdeal.KHost

open Cert.KernelIdeal Idealize.ShloMosaic Idealize.ShloMosaic.ValueIdx

variable [Facts₀]
open Facts₀

/-! ## The column statistics -/

/-- the 200 rows summed from the zero word, divided by the word of 8, then by the word of 50000 -/
def statT (s : FVec Ideal S200x300 .f32) : FVec Ideal S300 .f32 :=
  Host.divf
    (Host.divf (Host.reduceAdd s (constant S_ .f32 0x00000000#32) reducesTo_S200x300_S300_d0 h_S_)
      (broadcastInDim S300 ![] bcast_S_S300 (constant S_ .f32 0x41000000#32)))
    (broadcastInDim S300 ![] bcast_S_S300 (constant S_ .f32 0x47435000#32))

/-- the column mean, as a 1 × 300 array -/
def meanT (s : FVec Ideal S200x300 .f32) : FVec Ideal S1x300 .f32 :=
  shapeCast S1x300 (statT s) shapeCasts_S300_S1x300

/-- the column variance before its reshape: second moment minus the mean's square, not below the zero word -/
def varV (s q : FVec Ideal S200x300 .f32) : FVec Ideal S300 .f32 :=
  maximumf (subf (statT q) (mulf (statT s) (statT s)))
    (broadcastInDim S300 ![] bcast_S_S300 (constant S_ .f32 0x00000000#32))

/-- the column variance, as a 1 × 300 array -/
def varT (s q : FVec Ideal S200x300 .f32) : FVec Ideal S1x300 .f32 :=
  shapeCast S1x300 (varV s q) shapeCasts_S300_S1x300

theorem statT_apply (s : FVec Ideal S200x300 .f32) (j : Fin 300) : statT s (ix1 j) = GIN.statK s (ix1 j) := by
  have h2 : S200x300.Reduces [0] S300 :=
    ⟨reducesTo_S200x300_S300_d0.1, Nat.one_pos, reducesTo_S200x300_S300_d0.2⟩
  unfold statT GIN.statK GIN.c0 GIN.c8 GIN.cN
  rw [hostDivf_apply, hostDivf_apply, hostReduceAdd_apply, broadcastInDim_scalar_apply, broadcastInDim_scalar_apply,
    constant_apply, constant_apply, constant_apply, Ideal.hostReduceAdd_single _ h2]
  refine congrArg (fun t => Ideal.div (Ideal.div (_ + t) _) _) (Finset.sum_congr rfl fun k _ => ?_)
  refine congrArg s (funext fun a => Fin.ext ?_)
  match a with
  | ⟨0, _⟩ => rfl
  | ⟨1, _⟩ => rfl

/-- the mean at column j is the kernel's statistic of the partial sums -/
theorem meanT_apply (s : FVec Ideal S200x300 .f32) (j : Fin 300) : meanT s (ix2 0 j) = GIN.statK s (ix1 j) := by
  unfold meanT
  rw [shapeCast_a_1a_apply, statT_apply]

/-- the variance at column j: the second moment's statistic minus the mean's square, not below the zero word -/
theorem varT_apply (s q : FVec Ideal S200x300 .f32) (j : Fin 300) :
    varT s q (ix2 0 j) = max (GIN.statK q (ix1 j) - GIN.statK s (ix1 j) * GIN.statK s (ix1 j)) GIN.c0 := by
  unfold varT varV
  rw [shapeCast_a_1a_apply, maximumf_apply, subf_apply, mulf_apply, statT_apply, statT_apply,
    broadcastInDim_scalar_apply, constant_apply]
  rfl

/-- over the tiles' partial sums of z the mean is the kernel's column mean of z -/
theorem meanT_eq (z : GIN.Mat) : (fun j : GIN.SD.Idx => meanT (GIN.tileSum z) (ix2 0 (j 0))) = GIN.meanK z := by
  funext j
  obtain ⟨j0, rfl⟩ : ∃ j0 : Fin 300, j = ix1 j0 := ⟨j 0, eq_ix1 j⟩
  exact meanT_apply _ j0

/-- over the tiles' partial sums of z and of z² the variance is the kernel's column variance of z -/
theorem varT_eq (z : GIN.Mat) :
    (fun j : GIN.SD.Idx => varT (GIN.tileSum z) (GIN.tileSumSq z) (ix2 0 (j 0))) = GIN.varK z := by
  funext j
  obtain ⟨j0, rfl⟩ : ∃ j0 : Fin 300, j = ix1 j0 := ⟨j 0, eq_ix1 j⟩
  exact varT_apply _ _ j0

/-! ## One layer's row of a stacked parameter array -/

/-- row l of a 5 × 300 array is a block of it -/
theorem slicesRow (l : Fin 5) : S5x300.Slices ![l.val, 0] S1x300 :=
  match l with
  | 0 => slices_S5x300_S1x300_0_0
  | 1 => slices_S5x300_S1x300_1_0
  | 2 => slices_S5x300_S1x300_2_0
  | 3 => slices_S5x300_S1x300_3_0
  | 4 => slices_S5x300_S1x300_4_0

/-- matrix l of a 5 × 300 × 300 array is a block of it -/
theorem slicesMat (l : Fin 5) : S5x300x300.Slices ![l.val, 0, 0] S1x300x300 :=
  match l with
  | 0 => slices_S5x300x300_S1x300x300_0_0_0
  | 1 => slices_S5x300x300_S1x300x300_1_0_0
  | 2 => slices_S5x300x300_S1x300x300_2_0_0
  | 3 => slices_S5x300x300_S1x300x300_3_0_0
  | 4 => slices_S5x300x300_S1x300x300_4_0_0

/-- row l cut out as 1 × 300, flattened to 300, and set up again as 1 × 300 -/
def rowT (l : Fin 5) (b : FVec Ideal S5x300 .f32) : FVec Ideal S1x300 .f32 :=
  shapeCast S1x300
    (shapeCast S300 (extractStridedSlice S1x300 ![l.val, 0] b (slicesRow l)) shapeCasts_S1x300_S300)
    shapeCasts_S300_S1x300

/-- matrix l cut out as 1 × 300 × 300 and its unit axis dropped -/
def matT (l : Fin 5) (W : FVec Ideal S5x300x300 .f32) : FVec Ideal S300x300 .f32 :=
  shapeCast S300x300 (extractStridedSlice S1x300x300 ![l.val, 0, 0] W (slicesMat l)) shapeCasts_S1x300x300_S300x300

theorem rowT_apply (l : Fin 5) (b : FVec Ideal S5x300 .f32) (j : Fin 300) :
    rowT l b (ix2 0 j) = GIN.slD l b (ix1 j) := by
  unfold rowT GIN.slD
  rw [shapeCast_a_1a_apply, shapeCast_1a_a_apply, slice2_axis0_apply l.val b (slicesRow l) 0 j l (Nat.add_zero _).symm]

theorem matT_eq (l : Fin 5) (W : FVec Ideal S5x300x300 .f32) : matT l W = GIN.slW l W := by
  funext i
  obtain ⟨i0, i1, rfl⟩ : ∃ i0 i1 : Fin 300, i = ix2 i0 i1 := ⟨i 0, i 1, eq_ix2 i⟩
  unfold matT GIN.slW
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-! ## The neighbour aggregate -/

/-- the edges' first row: the rows gathered from -/
def src (ei : IVec S2x400000 32) : IVec S400000 32 :=
  shapeCast S400000 (extractStridedSlice S1x400000 ![0, 0] ei slices_S2x400000_S1x400000_0_0) shapeCasts_S1x400000_S400000

/-- the edges' second row: the rows added into -/
def dst (ei : IVec S2x400000 32) : IVec S400000 32 :=
  shapeCast S400000 (extractStridedSlice S1x400000 ![1, 0] ei slices_S2x400000_S1x400000_1_0) shapeCasts_S1x400000_S400000

/-- for every edge the row of h at its first end (a negative index counted from the end: 50000 added), the 400000 rows
    added into a zero 50000 × 300 array at the edges' second ends -/
def agg (h : FVec Ideal S50000x300 .f32) (s d : IVec S400000 32) : FVec Ideal S50000x300 .f32 :=
  Host.scatterAdd scatter_S50000x300_S400000x1_S400000x300_1_0_0_1
    (broadcastInDim S50000x300 ![] bcast_S_S50000x300 (constant S_ .f32 0x00000000#32))
    (broadcastInDim S400000x1 ![0] bcast_S400000_S400000x1_0 d)
    (Host.gather gather_S50000x300_S400000x1_S400000x300_1_0_n_n_0_1_1300 h
      (broadcastInDim S400000x1 ![0] bcast_S400000_S400000x1_0
        (select (cmpi .slt s (broadcastInDim S400000 ![] bcast_S_S400000 (constantI S_ 32 0#32)))
          (addi s (broadcastInDim S400000 ![] bcast_S_S400000 (constantI S_ 32 50000#32))) s)))

end Cert.KernelIdeal.KHost

end
-- ==== Proof.KLayer0a.lean ====
/-
  One layer of the kernel program (layer 0: regions 0, 1, 2 of the run): what its three stretches of host operations write.

  The first stretch cuts the edge array into its two rows, forms the neighbour aggregate of the features along them, and cuts
  the layer's first weight matrix and shift out of the stacked parameters.  The second turns the first region's partial sums
  into the column mean and variance and cuts the first normalisation's scale and shift and the second affine map's matrix
  and shift.  The third forms the second mean and variance and cuts the second scale and shift.  From any contents, each
  result buffer of a stretch holds the stretch's function of the contents it found, and a buffer outside the stretch's list
  of result buffers holds what it held.
-/
import proofs.«144515_j12352325943894_2_alg».proof.Proof.Gen.KernelIdeal.Launch
import proofs.«144515_j12352325943894_2_alg».proof.Proof.Spec
import proofs.«144515_j12352325943894_2_alg».proof.Proof.KHost
import Idealize.ShloMosaic.Lib.StableHlo.Run

set_option maxRecDepth 16384
-- reading a buffer's array type off the program's 737-buffer signature is long
set_option maxHeartbeats 1000000

noncomputable section

namespace Cert.KernelIdeal.KLayer0

open Cert.KernelIdeal Cert.KernelIdeal.Gen
open Idealize.ShloMosaic Idealize.ShloMosaic.TcCoe Idealize.ShloMosaic.ValueIdx

/-- two 50000 × 300 arrays added entry by entry -/
abbrev addM (x y : GIN.Mat) : GIN.Mat := fun i => x i + y i

/-- a 1 × 300 array read as a per-column vector -/
def colOf (x : FVec Ideal S1x300 .f32) : GIN.Col := fun j => x (ix2 0 (j 0))

theorem colOf_rowT (l : Fin 5) (b : FVec Ideal S5x300 .f32) : colOf (KHost.rowT l b) = GIN.slD l b := by
  funext j
  obtain ⟨j0, rfl⟩ : ∃ j0 : Fin 300, j = ix1 j0 := ⟨j 0, eq_ix1 j⟩
  exact KHost.rowT_apply l b j0

theorem colOf_meanT (z : GIN.Mat) : colOf (KHost.meanT (GIN.tileSum z)) = GIN.meanK z := KHost.meanT_eq z

theorem colOf_varT (z : GIN.Mat) : colOf (KHost.varT (GIN.tileSum z) (GIN.tileSumSq z)) = GIN.varK z := KHost.varT_eq z

/-! ## What the three stretches write, from any contents -/

section Stretches

variable (W : Valuation τ sig (Elt Ideal))

theorem sA_src : StableHlo.after (hostOps0 (F := Ideal)) W (Proc.devRef .tc main_v1) = KHost.src (W (Proc.devRef .tc main_arg1)) := by
  dsimp only [hostOps0]; after_results_simp; rfl
theorem sA_dst : StableHlo.after (hostOps0 (F := Ideal)) W (Proc.devRef .tc main_v3) = KHost.dst (W (Proc.devRef .tc main_arg1)) := by
  dsimp only [hostOps0]; after_results_simp; rfl
theorem sA_agg : StableHlo.after (hostOps0 (F := Ideal)) W (Proc.devRef .tc main_v13)
    = KHost.agg (W (Proc.devRef .tc main_arg0)) (KHost.src (W (Proc.devRef .tc main_arg1))) (KHost.dst (W (Proc.devRef .tc main_arg1))) := by
  dsimp only [hostOps0]; after_results_simp; rfl
theorem sA_w1 : StableHlo.after (hostOps0 (F := Ideal)) W (Proc.devRef .tc main_v15) = KHost.matT 0 (W (Proc.devRef .tc main_arg3)) := by
  dsimp only [hostOps0]; after_results_simp; rfl
theorem sA_b1 : StableHlo.after (hostOps0 (F := Ideal)) W (Proc.devRef .tc main_v18) = KHost.rowT 0 (W (Proc.devRef .tc main_arg4)) := by
  dsimp only [hostOps0]; after_results_simp; rfl

theorem sB_mean : StableHlo.after (hostOps1 (F := Ideal)) W (Proc.devRef .tc main_v42) = KHost.meanT (W (Proc.devRef .tc main_v19_1)) := by
  dsimp only [hostOps1]; after_results_simp; rfl
theorem sB_var : StableHlo.after (hostOps1 (F := Ideal)) W (Proc.devRef .tc main_v43)
    = KHost.varT (W (Proc.devRef .tc main_v19_1)) (W (Proc.devRef .tc main_v19_2)) := by
  dsimp only [hostOps1]; after_results_simp; rfl
theorem sB_g1 : StableHlo.after (hostOps1 (F := Ideal)) W (Proc.devRef .tc main_v44) = KHost.rowT 0 (W (Proc.devRef .tc main_arg5)) := by
  dsimp only [hostOps1]; after_results_simp; rfl
theorem sB_be1 : StableHlo.after (hostOps1 (F := Ideal)) W (Proc.devRef .tc main_v45) = KHost.rowT 0 (W (Proc.devRef .tc main_arg6)) := by
  dsimp only [hostOps1]; after_results_simp; rfl
theorem sB_w2 : StableHlo.after (hostOps1 (F := Ideal)) W (Proc.devRef .tc main_v39) = KHost.matT 0 (W (Proc.devRef .tc main_arg7)) := by
  dsimp only [hostOps1]; after_results_simp; rfl
theorem sB_b2 : StableHlo.after (hostOps1 (F := Ideal)) W (Proc.devRef .tc main_v46) = KHost.rowT 0 (W (Proc.devRef .tc main_arg8)) := by
  dsimp only [hostOps1]; after_results_simp; rfl

theorem sC_mean : StableHlo.after (hostOps2 (F := Ideal)) W (Proc.devRef .tc main_v66) = KHost.meanT (W (Proc.devRef .tc main_v47_1)) := by
  dsimp only [hostOps2]; after_results_simp; rfl
theorem sC_var : StableHlo.after (hostOps2 (F := Ideal)) W (Proc.devRef .tc main_v67)
    = KHost.varT (W (Proc.devRef .tc main_v47_1)) (W (Proc.devRef .tc main_v47_2)) := by
  dsimp only [hostOps2]; after_results_simp; rfl
theorem sC_g : StableHlo.after (hostOps2 (F := Ideal)) W (Proc.devRef .tc main_v68) = KHost.rowT 0 (W (Proc.devRef .tc main_arg9)) := by
  dsimp only [hostOps2]; after_results_simp; rfl
theorem sC_be : StableHlo.after (hostOps2 (F := Ideal)) W (Proc.devRef .tc main_v69) = KHost.rowT 0 (W (Proc.devRef .tc main_arg10)) := by
  dsimp only [hostOps2]; after_results_simp; rfl

/-! ### What the stretches leave alone: a buffer outside a stretch's list of result buffers keeps its contents -/

/-- the result buffers of the layer's first stretch, in order -/
def wrA : List (Ref sig .tc) := [main_v0, main_v1, main_v2, main_v3, main_c, main_v4, main_v5, main_c_0, main_v6, main_v7, main_v8, main_v9, main_v10, main_cst, main_v11, main_v12, main_v13, main_v14, main_v15, main_v16, main_v17, main_v18]
/-- the result buffers of the layer's second stretch, in order -/
def wrB : List (Ref sig .tc) := [main_cst_1, main_v20, main_cst_2, main_v21, main_v22, main_cst_3, main_v23, main_cst_4, main_v24, main_v25, main_cst_5, main_v26, main_v27, main_cst_6, main_v28, main_v29, main_v30, main_v31, main_cst_7, main_v32, main_v33, main_v34, main_v35, main_v36, main_v37, main_v38, main_v39, main_v40, main_v41, main_v42, main_v43, main_v44, main_v45, main_v46]
/-- the result buffers of the layer's third stretch, in order -/
def wrC : List (Ref sig .tc) := [main_cst_8, main_v48, main_cst_9, main_v49, main_v50, main_cst_10, main_v51, main_cst_11, main_v52, main_v53, main_cst_12, main_v54, main_v55, main_cst_13, main_v56, main_v57, main_v58, main_v59, main_cst_14, main_v60, main_v61, main_v62, main_v63, main_v64, main_v65, main_v66, main_v67, main_v68, main_v69]

theorem wrA_sub : (hostOps0 (F := Ideal)).Forall fun op => op.writes ⊆ (wrA.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrB_sub : (hostOps1 (F := Ideal)).Forall fun op => op.writes ⊆ (wrB.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrC_sub : (hostOps2 (F := Ideal)).Forall fun op => op.writes ⊆ (wrC.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

theorem keepA (b : Ref sig .tc) (hb : b ∉ wrA) :
    StableHlo.after (hostOps0 (F := Ideal)) W (Proc.devRef .tc b) = W (Proc.devRef .tc b) :=
  StableHlo.after_of_writes_sub _ W wrA_sub hb
theorem keepB (b : Ref sig .tc) (hb : b ∉ wrB) :
    StableHlo.after (hostOps1 (F := Ideal)) W (Proc.devRef .tc b) = W (Proc.devRef .tc b) :=
  StableHlo.after_of_writes_sub _ W wrB_sub hb
theorem keepC (b : Ref sig .tc) (hb : b ∉ wrC) :
    StableHlo.after (hostOps2 (F := Ideal)) W (Proc.devRef .tc b) = W (Proc.devRef .tc b) :=
  StableHlo.after_of_writes_sub _ W wrC_sub hb

end Stretches

end Cert.KernelIdeal.KLayer0

end
-- ==== Proof.KLayer0.lean ====
/-
  One layer of the kernel program, as a function of what the layer finds (layer 0: regions 0, 1, 2 of the run).

  Between the boundary before the layer and the boundary after it the program runs three stretches of host operations and
  three regions.  The first stretch cuts the edge array into its two rows, forms the neighbour aggregate of the features
  along them, and cuts the layer's first weight matrix and shift out of the stacked parameters; the first region applies
  the affine map to features plus aggregate and leaves, beside the result z₁, the tiles' partial sums of z₁ and of z₁².
  The second stretch turns the partial sums into the column mean and variance and cuts the first normalisation's scale and
  shift and the second affine map's matrix and shift; the second region normalises, clamps at zero, applies the second
  affine map and again leaves the partial sums.  The third stretch forms the second mean and variance and cuts the second
  scale and shift; the third region normalises and clamps.

  Each boundary's contents are read back to the contents before the layer, one step at a time: a stretch's result buffer
  holds the stretch's function of what the stretch found, a region's output array holds the region's function of what the
  region found, and every buffer a step does not write holds what it held.  Composed, the layer's output is the index-level
  layer function of the layer's input features, the edge rows and the eight parameter slices.
-/
import proofs.«144515_j12352325943894_2_alg».proof.Proof.FrameKI
import proofs.«144515_j12352325943894_2_alg».proof.Proof.Spec
import proofs.«144515_j12352325943894_2_alg».proof.Proof.KHost
import proofs.«144515_j12352325943894_2_alg».proof.Proof.KLayer0a

set_option maxRecDepth 16384
-- reading a buffer's array type off the program's 737-buffer signature is long
set_option maxHeartbeats 1000000

noncomputable section

namespace Cert.KernelIdeal.KLayer0

open Cert.KernelIdeal Cert.KernelIdeal.Gen
open Idealize.ShloMosaic Idealize.ShloMosaic.TcCoe Idealize.ShloMosaic.ValueIdx

/-! ## The run's boundaries around the layer -/

variable (m : (ℓ : Loc nD τ sig) → Buf (Elt Ideal) ℓ) (ρ : Dev nD → PrngReg) (c : Dev nD)

/-! ### Buffers the layer leaves alone -/

/-- One step back over each of the layer's six segments, for a buffer no stretch writes and no region has as an array. -/
theorem carry (b : Ref sig .tc) (nA : b ∉ wrA) (rA : ∀ w, Pipeline.arrRef spec0 w ≠ b) (nB : b ∉ wrB)
    (rB : ∀ w, Pipeline.arrRef spec1 w ≠ b) (nC : b ∉ wrC) (rC : ∀ w, Pipeline.arrRef spec2 w ≠ b) :
    W6 m ρ c (Proc.devRef .tc b) = W0 m ρ c (Proc.devRef .tc b) :=
  calc W6 m ρ c (Proc.devRef .tc b)
    _ = W5 m ρ c (Proc.devRef .tc b) := W6_of_ne m ρ c b rC
    _ = W4 m ρ c (Proc.devRef .tc b) := keepC (W4 m ρ c) b nC
    _ = W3 m ρ c (Proc.devRef .tc b) := W4_of_ne m ρ c b rB
    _ = W2 m ρ c (Proc.devRef .tc b) := keepB (W2 m ρ c) b nB
    _ = W1 m ρ c (Proc.devRef .tc b) := W2_of_ne m ρ c b rA
    _ = W0 m ρ c (Proc.devRef .tc b) := keepA (W0 m ρ c) b nA

theorem carry_main_arg1 : W6 m ρ c (Proc.devRef .tc main_arg1) = W0 m ρ c (Proc.devRef .tc main_arg1) :=
  carry m ρ c main_arg1 (by decide) (by decide) (by decide) (by decide) (by decide) (by decide)
theorem carry_main_arg2 : W6 m ρ c (Proc.devRef .tc main_arg2) = W0 m ρ c (Proc.devRef .tc main_arg2) :=
  carry m ρ c main_arg2 (by decide) (by decide) (by decide) (by decide) (by decide) (by decide)
theorem carry_main_arg3 : W6 m ρ c (Proc.devRef .tc main_arg3) = W0 m ρ c (Proc.devRef .tc main_arg3) :=
  carry m ρ c main_arg3 (by decide) (by decide) (by decide) (by decide) (by decide) (by decide)
theorem carry_main_arg4 : W6 m ρ c (Proc.devRef .tc main_arg4) = W0 m ρ c (Proc.devRef .tc main_arg4) :=
  carry m ρ c main_arg4 (by decide) (by decide) (by decide) (by decide) (by decide) (by decide)
theorem carry_main_arg5 : W6 m ρ c (Proc.devRef .tc main_arg5) = W0 m ρ c (Proc.devRef .tc main_arg5) :=
  carry m ρ c main_arg5 (by decide) (by decide) (by decide) (by decide) (by decide) (by decide)
theorem carry_main_arg6 : W6 m ρ c (Proc.devRef .tc main_arg6) = W0 m ρ c (Proc.devRef .tc main_arg6) :=
  carry m ρ c main_arg6 (by decide) (by decide) (by decide) (by decide) (by decide) (by decide)
theorem carry_main_arg7 : W6 m ρ c (Proc.devRef .tc main_arg7) = W0 m ρ c (Proc.devRef .tc main_arg7) :=
  carry m ρ c main_arg7 (by decide) (by decide) (by decide) (by decide) (by decide) (by decide)
theorem carry_main_arg8 : W6 m ρ c (Proc.devRef .tc main_arg8) = W0 m ρ c (Proc.devRef .tc main_arg8) :=
  carry m ρ c main_arg8 (by decide) (by decide) (by decide) (by decide) (by decide) (by decide)
theorem carry_main_arg9 : W6 m ρ c (Proc.devRef .tc main_arg9) = W0 m ρ c (Proc.devRef .tc main_arg9) :=
  carry m ρ c main_arg9 (by decide) (by decide) (by decide) (by decide) (by decide) (by decide)
theorem carry_main_arg10 : W6 m ρ c (Proc.devRef .tc main_arg10) = W0 m ρ c (Proc.devRef .tc main_arg10) :=
  carry m ρ c main_arg10 (by decide) (by decide) (by decide) (by decide) (by decide) (by decide)
theorem carry_main_arg11 : W6 m ρ c (Proc.devRef .tc main_arg11) = W0 m ρ c (Proc.devRef .tc main_arg11) :=
  carry m ρ c main_arg11 (by decide) (by decide) (by decide) (by decide) (by decide) (by decide)
theorem carry_main_arg12 : W6 m ρ c (Proc.devRef .tc main_arg12) = W0 m ρ c (Proc.devRef .tc main_arg12) :=
  carry m ρ c main_arg12 (by decide) (by decide) (by decide) (by decide) (by decide) (by decide)

/-- The edges' first ends are written by the layer's first stretch and by nothing after it: the boundary after the layer holds
    the edge array's first row, flattened. -/
theorem src_at6 : W6 m ρ c (Proc.devRef .tc main_v1) = KHost.src (W0 m ρ c (Proc.devRef .tc main_arg1)) :=
  calc W6 m ρ c (Proc.devRef .tc main_v1)
    _ = W5 m ρ c (Proc.devRef .tc main_v1) := W6_of_ne m ρ c main_v1 (by decide)
    _ = W4 m ρ c (Proc.devRef .tc main_v1) := keepC (W4 m ρ c) main_v1 (by decide)
    _ = W3 m ρ c (Proc.devRef .tc main_v1) := W4_of_ne m ρ c main_v1 (by decide)
    _ = W2 m ρ c (Proc.devRef .tc main_v1) := keepB (W2 m ρ c) main_v1 (by decide)
    _ = W1 m ρ c (Proc.devRef .tc main_v1) := W2_of_ne m ρ c main_v1 (by decide)
    _ = KHost.src (W0 m ρ c (Proc.devRef .tc main_arg1)) := sA_src (W0 m ρ c)

/-- Likewise the edges' second ends: the edge array's second row, flattened. -/
theorem dst_at6 : W6 m ρ c (Proc.devRef .tc main_v3) = KHost.dst (W0 m ρ c (Proc.devRef .tc main_arg1)) :=
  calc W6 m ρ c (Proc.devRef .tc main_v3)
    _ = W5 m ρ c (Proc.devRef .tc main_v3) := W6_of_ne m ρ c main_v3 (by decide)
    _ = W4 m ρ c (Proc.devRef .tc main_v3) := keepC (W4 m ρ c) main_v3 (by decide)
    _ = W3 m ρ c (Proc.devRef .tc main_v3) := W4_of_ne m ρ c main_v3 (by decide)
    _ = W2 m ρ c (Proc.devRef .tc main_v3) := keepB (W2 m ρ c) main_v3 (by decide)
    _ = W1 m ρ c (Proc.devRef .tc main_v3) := W2_of_ne m ρ c main_v3 (by decide)
    _ = KHost.dst (W0 m ρ c (Proc.devRef .tc main_arg1)) := sA_dst (W0 m ρ c)

/-- The layer's input features are an array of the first region, which only reads it: the region's exit holds what its
    entry held; no other segment of the layer touches it. -/
theorem carry_main_arg0 : W6 m ρ c (Proc.devRef .tc main_arg0) = W0 m ρ c (Proc.devRef .tc main_arg0) :=
  calc W6 m ρ c (Proc.devRef .tc main_arg0)
    _ = W5 m ρ c (Proc.devRef .tc main_arg0) := W6_of_ne m ρ c main_arg0 (by decide)
    _ = W4 m ρ c (Proc.devRef .tc main_arg0) := keepC (W4 m ρ c) main_arg0 (by decide)
    _ = W3 m ρ c (Proc.devRef .tc main_arg0) := W4_of_ne m ρ c main_arg0 (by decide)
    _ = W2 m ρ c (Proc.devRef .tc main_arg0) := keepB (W2 m ρ c) main_arg0 (by decide)
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := keepA (W0 m ρ c) main_arg0 (by decide)

/-! ### The layer's arrays, named from what the layer finds -/

/-- the first affine map's result: features plus aggregate, times the layer's first matrix, plus its shift -/
def Z1 : GIN.Mat :=
  GIN.lin (addM (W0 m ρ c (Proc.devRef .tc main_arg0))
      (KHost.agg (W0 m ρ c (Proc.devRef .tc main_arg0)) (KHost.src (W0 m ρ c (Proc.devRef .tc main_arg1)))
        (KHost.dst (W0 m ρ c (Proc.devRef .tc main_arg1)))))
    (KHost.matT 0 (W0 m ρ c (Proc.devRef .tc main_arg3))) (colOf (KHost.rowT 0 (W0 m ρ c (Proc.devRef .tc main_arg4))))

/-- the first normalisation, clamped at zero -/
def A1 : GIN.Mat :=
  GIN.bnrelu (Z1 m ρ c) (colOf (KHost.meanT (GIN.tileSum (Z1 m ρ c))))
    (colOf (KHost.varT (GIN.tileSum (Z1 m ρ c)) (GIN.tileSumSq (Z1 m ρ c))))
    (colOf (KHost.rowT 0 (W0 m ρ c (Proc.devRef .tc main_arg5)))) (colOf (KHost.rowT 0 (W0 m ρ c (Proc.devRef .tc main_arg6))))

/-- the second affine map's result -/
def Z2 : GIN.Mat :=
  GIN.lin (A1 m ρ c) (KHost.matT 0 (W0 m ρ c (Proc.devRef .tc main_arg7))) (colOf (KHost.rowT 0 (W0 m ρ c (Proc.devRef .tc main_arg8))))

theorem Z1_eq : Z1 m ρ c = GIN.lin (addM (W0 m ρ c (Proc.devRef .tc main_arg0))
      (KHost.agg (W0 m ρ c (Proc.devRef .tc main_arg0)) (KHost.src (W0 m ρ c (Proc.devRef .tc main_arg1)))
        (KHost.dst (W0 m ρ c (Proc.devRef .tc main_arg1)))))
    (GIN.slW 0 (W0 m ρ c (Proc.devRef .tc main_arg3))) (GIN.slD 0 (W0 m ρ c (Proc.devRef .tc main_arg4))) := by
  unfold Z1; rw [KHost.matT_eq, colOf_rowT]

theorem A1_eq : A1 m ρ c = GIN.bnrelu (Z1 m ρ c) (GIN.meanK (Z1 m ρ c)) (GIN.varK (Z1 m ρ c))
    (GIN.slD 0 (W0 m ρ c (Proc.devRef .tc main_arg5))) (GIN.slD 0 (W0 m ρ c (Proc.devRef .tc main_arg6))) := by
  unfold A1; rw [colOf_meanT, colOf_varT, colOf_rowT, colOf_rowT]

theorem Z2_eq : Z2 m ρ c = GIN.lin (A1 m ρ c) (GIN.slW 0 (W0 m ρ c (Proc.devRef .tc main_arg7))) (GIN.slD 0 (W0 m ρ c (Proc.devRef .tc main_arg8))) := by
  unfold Z2; rw [KHost.matT_eq, colOf_rowT]

/-! ### The parameters at the boundaries where they are read -/

theorem arg_afterA (b : Ref sig .tc) (nA : b ∉ wrA) (rA : ∀ w, Pipeline.arrRef spec0 w ≠ b) :
    W2 m ρ c (Proc.devRef .tc b) = W0 m ρ c (Proc.devRef .tc b) :=
  (W2_of_ne m ρ c b rA).trans (keepA (W0 m ρ c) b nA)

theorem arg_afterB (b : Ref sig .tc) (nA : b ∉ wrA) (rA : ∀ w, Pipeline.arrRef spec0 w ≠ b) (nB : b ∉ wrB)
    (rB : ∀ w, Pipeline.arrRef spec1 w ≠ b) : W4 m ρ c (Proc.devRef .tc b) = W0 m ρ c (Proc.devRef .tc b) :=
  (W4_of_ne m ρ c b rB).trans ((keepB (W2 m ρ c) b nB).trans (arg_afterA m ρ c b nA rA))

/-! ## The layer's value -/

/-- the first region's affine result, from the contents the region finds -/
abbrev ZA (V : (c : Dev nD) → (b : Ref sig .tc) → Buf (Elt Ideal) ((c : Thread nD τ).loc b)) (c : Dev nD) : GIN.Mat :=
  GIN.lin (addM (V c (Pipeline.arrRef spec0 0)) (V c (Pipeline.arrRef spec0 1))) (V c (Pipeline.arrRef spec0 2))
    (fun j : GIN.SD.Idx => V c (Pipeline.arrRef spec0 3) (ix2 0 (j 0)))

/-- the second region's affine result, from the contents the region finds -/
abbrev ZB (V : (c : Dev nD) → (b : Ref sig .tc) → Buf (Elt Ideal) ((c : Thread nD τ).loc b)) (c : Dev nD) : GIN.Mat :=
  GIN.lin (GIN.bnrelu (V c (Pipeline.arrRef spec1 0)) (fun j : GIN.SD.Idx => V c (Pipeline.arrRef spec1 1) (ix2 0 (j 0)))
      (fun j : GIN.SD.Idx => V c (Pipeline.arrRef spec1 2) (ix2 0 (j 0))) (fun j : GIN.SD.Idx => V c (Pipeline.arrRef spec1 3) (ix2 0 (j 0)))
      (fun j : GIN.SD.Idx => V c (Pipeline.arrRef spec1 4) (ix2 0 (j 0))))
    (V c (Pipeline.arrRef spec1 5)) (fun j : GIN.SD.Idx => V c (Pipeline.arrRef spec1 6) (ix2 0 (j 0)))

/-- What the first region finds: the features as before the layer, their aggregate, the layer's first matrix and shift. -/
theorem ZA_entry : ZA (V1 m ρ) c = Z1 m ρ c := by
  show GIN.lin (addM (W1 m ρ c (Proc.devRef .tc main_arg0)) (W1 m ρ c (Proc.devRef .tc main_v13)))
    (W1 m ρ c (Proc.devRef .tc main_v15)) (colOf (W1 m ρ c (Proc.devRef .tc main_v18))) = _
  rw [show W1 m ρ c (Proc.devRef .tc main_arg0) = W0 m ρ c (Proc.devRef .tc main_arg0) from keepA (W0 m ρ c) main_arg0 (by decide),
    show W1 m ρ c (Proc.devRef .tc main_v13) = _ from sA_agg (W0 m ρ c),
    show W1 m ρ c (Proc.devRef .tc main_v15) = _ from sA_w1 (W0 m ρ c),
    show W1 m ρ c (Proc.devRef .tc main_v18) = _ from sA_b1 (W0 m ρ c)]
  rfl

section Value

/- What each of the layer's three regions leaves in its output arrays, as a function of the contents it finds: the first
   and the second leave the affine result and the tiles' partial sums of it and of its square, the third the
   normalised and clamped array. -/
variable
  (hA : ∀ (V : (c : Dev nD) → (b : Ref sig .tc) → Buf (Elt Ideal) ((c : Thread nD τ).loc b)) (c : Dev nD),
    (dat0 V c).arrAt 4 cfg0.N = ZA V c ∧ (dat0 V c).arrAt 5 cfg0.N = GIN.tileSum (ZA V c)
      ∧ (dat0 V c).arrAt 6 cfg0.N = GIN.tileSumSq (ZA V c))
  (hB : ∀ (V : (c : Dev nD) → (b : Ref sig .tc) → Buf (Elt Ideal) ((c : Thread nD τ).loc b)) (c : Dev nD),
    (dat1 V c).arrAt 7 cfg1.N = ZB V c ∧ (dat1 V c).arrAt 8 cfg1.N = GIN.tileSum (ZB V c)
      ∧ (dat1 V c).arrAt 9 cfg1.N = GIN.tileSumSq (ZB V c))
  (hC : ∀ (V : (c : Dev nD) → (b : Ref sig .tc) → Buf (Elt Ideal) ((c : Thread nD τ).loc b)) (c : Dev nD),
    (dat2 V c).arrAt 5 cfg2.N
      = GIN.bnrelu (V c (Pipeline.arrRef spec2 0)) (fun j : GIN.SD.Idx => V c (Pipeline.arrRef spec2 1) (ix2 0 (j 0)))
          (fun j : GIN.SD.Idx => V c (Pipeline.arrRef spec2 2) (ix2 0 (j 0))) (fun j : GIN.SD.Idx => V c (Pipeline.arrRef spec2 3) (ix2 0 (j 0)))
          (fun j : GIN.SD.Idx => V c (Pipeline.arrRef spec2 4) (ix2 0 (j 0))))

include hA hB hC

/-! ### After the first region: the affine result of features plus aggregate, and its tiles' partial sums -/

theorem afterA_z : W2 m ρ c (Proc.devRef .tc main_v19_0) = Z1 m ρ c :=
  (W2_arr m ρ c 4).trans ((hA (V1 m ρ) c).1.trans (ZA_entry m ρ c))
theorem afterA_s : W2 m ρ c (Proc.devRef .tc main_v19_1) = GIN.tileSum (Z1 m ρ c) :=
  (W2_arr m ρ c 5).trans ((hA (V1 m ρ) c).2.1.trans (congrArg GIN.tileSum (ZA_entry m ρ c)))
theorem afterA_q : W2 m ρ c (Proc.devRef .tc main_v19_2) = GIN.tileSumSq (Z1 m ρ c) :=
  (W2_arr m ρ c 6).trans ((hA (V1 m ρ) c).2.2.trans (congrArg GIN.tileSumSq (ZA_entry m ρ c)))

/-! ### What the second region finds, and what it leaves -/

theorem atB_z : W3 m ρ c (Proc.devRef .tc main_v19_0) = Z1 m ρ c :=
  (keepB (W2 m ρ c) main_v19_0 (by decide)).trans (afterA_z m ρ c hA hB hC)
theorem atB_mean : W3 m ρ c (Proc.devRef .tc main_v42) = KHost.meanT (GIN.tileSum (Z1 m ρ c)) :=
  (sB_mean (W2 m ρ c)).trans (congrArg KHost.meanT (afterA_s m ρ c hA hB hC))
theorem atB_var : W3 m ρ c (Proc.devRef .tc main_v43)
    = KHost.varT (GIN.tileSum (Z1 m ρ c)) (GIN.tileSumSq (Z1 m ρ c)) :=
  (sB_var (W2 m ρ c)).trans (congrArg₂ KHost.varT (afterA_s m ρ c hA hB hC) (afterA_q m ρ c hA hB hC))

omit hA hB hC in
theorem atB_g1 : W3 m ρ c (Proc.devRef .tc main_v44) = KHost.rowT 0 (W0 m ρ c (Proc.devRef .tc main_arg5)) :=
  (sB_g1 (W2 m ρ c)).trans (congrArg (KHost.rowT 0) (arg_afterA m ρ c main_arg5 (by decide) (by decide)))
omit hA hB hC in
theorem atB_be1 : W3 m ρ c (Proc.devRef .tc main_v45) = KHost.rowT 0 (W0 m ρ c (Proc.devRef .tc main_arg6)) :=
  (sB_be1 (W2 m ρ c)).trans (congrArg (KHost.rowT 0) (arg_afterA m ρ c main_arg6 (by decide) (by decide)))
omit hA hB hC in
theorem atB_w2 : W3 m ρ c (Proc.devRef .tc main_v39) = KHost.matT 0 (W0 m ρ c (Proc.devRef .tc main_arg7)) :=
  (sB_w2 (W2 m ρ c)).trans (congrArg (KHost.matT 0) (arg_afterA m ρ c main_arg7 (by decide) (by decide)))
omit hA hB hC in
theorem atB_b2 : W3 m ρ c (Proc.devRef .tc main_v46) = KHost.rowT 0 (W0 m ρ c (Proc.devRef .tc main_arg8)) :=
  (sB_b2 (W2 m ρ c)).trans (congrArg (KHost.rowT 0) (arg_afterA m ρ c main_arg8 (by decide) (by decide)))

theorem ZB_entry : ZB (V3 m ρ) c = Z2 m ρ c := by
  show GIN.lin (GIN.bnrelu (W3 m ρ c (Proc.devRef .tc main_v19_0)) (colOf (W3 m ρ c (Proc.devRef .tc main_v42)))
      (colOf (W3 m ρ c (Proc.devRef .tc main_v43))) (colOf (W3 m ρ c (Proc.devRef .tc main_v44)))
      (colOf (W3 m ρ c (Proc.devRef .tc main_v45))))
    (W3 m ρ c (Proc.devRef .tc main_v39)) (colOf (W3 m ρ c (Proc.devRef .tc main_v46))) = _
  rw [atB_z m ρ c hA hB hC, atB_mean m ρ c hA hB hC, atB_var m ρ c hA hB hC, atB_g1 m ρ c, atB_be1 m ρ c, atB_w2 m ρ c, atB_b2 m ρ c]
  rfl

theorem afterB_z : W4 m ρ c (Proc.devRef .tc main_v47_0) = Z2 m ρ c :=
  (W4_arr m ρ c 7).trans ((hB (V3 m ρ) c).1.trans (ZB_entry m ρ c hA hB hC))
theorem afterB_s : W4 m ρ c (Proc.devRef .tc main_v47_1) = GIN.tileSum (Z2 m ρ c) :=
  (W4_arr m ρ c 8).trans ((hB (V3 m ρ) c).2.1.trans (congrArg GIN.tileSum (ZB_entry m ρ c hA hB hC)))
theorem afterB_q : W4 m ρ c (Proc.devRef .tc main_v47_2) = GIN.tileSumSq (Z2 m ρ c) :=
  (W4_arr m ρ c 9).trans ((hB (V3 m ρ) c).2.2.trans (congrArg GIN.tileSumSq (ZB_entry m ρ c hA hB hC)))

/-! ### What the third region finds, and what it leaves -/

theorem atC_z : W5 m ρ c (Proc.devRef .tc main_v47_0) = Z2 m ρ c :=
  (keepC (W4 m ρ c) main_v47_0 (by decide)).trans (afterB_z m ρ c hA hB hC)
theorem atC_mean : W5 m ρ c (Proc.devRef .tc main_v66) = KHost.meanT (GIN.tileSum (Z2 m ρ c)) :=
  (sC_mean (W4 m ρ c)).trans (congrArg KHost.meanT (afterB_s m ρ c hA hB hC))
theorem atC_var : W5 m ρ c (Proc.devRef .tc main_v67)
    = KHost.varT (GIN.tileSum (Z2 m ρ c)) (GIN.tileSumSq (Z2 m ρ c)) :=
  (sC_var (W4 m ρ c)).trans (congrArg₂ KHost.varT (afterB_s m ρ c hA hB hC) (afterB_q m ρ c hA hB hC))
omit hA hB hC in
theorem atC_g : W5 m ρ c (Proc.devRef .tc main_v68) = KHost.rowT 0 (W0 m ρ c (Proc.devRef .tc main_arg9)) :=
  (sC_g (W4 m ρ c)).trans
    (congrArg (KHost.rowT 0) (arg_afterB m ρ c main_arg9 (by decide) (by decide) (by decide) (by decide)))
omit hA hB hC in
theorem atC_be : W5 m ρ c (Proc.devRef .tc main_v69) = KHost.rowT 0 (W0 m ρ c (Proc.devRef .tc main_arg10)) :=
  (sC_be (W4 m ρ c)).trans
    (congrArg (KHost.rowT 0) (arg_afterB m ρ c main_arg10 (by decide) (by decide) (by decide) (by decide)))

/-- After the third region: the second normalisation, clamped at zero. -/
theorem afterC : W6 m ρ c (Proc.devRef .tc main_v70)
    = GIN.bnrelu (Z2 m ρ c) (colOf (KHost.meanT (GIN.tileSum (Z2 m ρ c))))
        (colOf (KHost.varT (GIN.tileSum (Z2 m ρ c)) (GIN.tileSumSq (Z2 m ρ c))))
        (colOf (KHost.rowT 0 (W0 m ρ c (Proc.devRef .tc main_arg9)))) (colOf (KHost.rowT 0 (W0 m ρ c (Proc.devRef .tc main_arg10)))) := by
  refine (W6_arr m ρ c 5).trans ((hC (V5 m ρ) c).trans ?_)
  show GIN.bnrelu (W5 m ρ c (Proc.devRef .tc main_v47_0)) (colOf (W5 m ρ c (Proc.devRef .tc main_v66)))
      (colOf (W5 m ρ c (Proc.devRef .tc main_v67))) (colOf (W5 m ρ c (Proc.devRef .tc main_v68)))
      (colOf (W5 m ρ c (Proc.devRef .tc main_v69))) = _
  rw [atC_z m ρ c hA hB hC, atC_mean m ρ c hA hB hC, atC_var m ρ c hA hB hC, atC_g m ρ c, atC_be m ρ c]

/-- THE LAYER: the boundary after the layer holds, at the layer's output buffer, the index-level layer function of what the
    boundary before the layer holds: the input features, the edge rows the aggregate is taken along, and the layer's
    slices of the eight stacked parameter arrays. -/
theorem layer_value : W6 m ρ c (Proc.devRef .tc main_v70)
    = GIN.layerK (fun h => KHost.agg h (KHost.src (W0 m ρ c (Proc.devRef .tc main_arg1))) (KHost.dst (W0 m ρ c (Proc.devRef .tc main_arg1))))
        (W0 m ρ c (Proc.devRef .tc main_arg0))
        (GIN.slW 0 (W0 m ρ c (Proc.devRef .tc main_arg3))) (GIN.slD 0 (W0 m ρ c (Proc.devRef .tc main_arg4)))
        (GIN.slD 0 (W0 m ρ c (Proc.devRef .tc main_arg5))) (GIN.slD 0 (W0 m ρ c (Proc.devRef .tc main_arg6)))
        (GIN.slW 0 (W0 m ρ c (Proc.devRef .tc main_arg7))) (GIN.slD 0 (W0 m ρ c (Proc.devRef .tc main_arg8)))
        (GIN.slD 0 (W0 m ρ c (Proc.devRef .tc main_arg9))) (GIN.slD 0 (W0 m ρ c (Proc.devRef .tc main_arg10))) := by
  rw [afterC m ρ c hA hB hC, colOf_meanT, colOf_varT, colOf_rowT, colOf_rowT, Z2_eq, A1_eq, Z1_eq]
  rfl

end Value

end Cert.KernelIdeal.KLayer0

end
-- ==== Proof.KLayer1a.lean ====
/-
  One layer of the kernel program (layer 1: stretches 3, 4, 5 of the run): what its three stretches of host operations
  write and what they leave alone, from any buffer contents.

  The first stretch forms the neighbour aggregate of the features (gather the rows at the edges' first ends, add them up at
  the edges' second ends) and cuts the layer's first weight matrix and shift out of the stacked parameters.  The second
  turns the first region's two arrays of partial sums into the column mean and variance and cuts the first normalisation's
  scale and shift and the second affine map's matrix and shift.  The third does the same for the second normalisation.
  Each result buffer holds the composed function of the buffers the stretch read; a buffer that is no operation's result
  keeps its contents.
-/
import proofs.«144515_j12352325943894_2_alg».proof.Proof.Gen.KernelIdeal.Launch
import proofs.«144515_j12352325943894_2_alg».proof.Proof.Spec
import proofs.«144515_j12352325943894_2_alg».proof.Proof.KHost

set_option maxRecDepth 16384
-- reading a buffer's array type off the program's 737-buffer signature is long
set_option maxHeartbeats 1000000

noncomputable section

namespace Cert.KernelIdeal.KLayer1

open Cert.KernelIdeal Cert.KernelIdeal.Gen
open Idealize.ShloMosaic Idealize.ShloMosaic.TcCoe Idealize.ShloMosaic.ValueIdx

/-- two 50000 × 300 arrays added entry by entry -/
abbrev addM (x y : GIN.Mat) : GIN.Mat := fun i => x i + y i

/-- a 1 × 300 array read as a per-column vector -/
def colOf (x : FVec Ideal S1x300 .f32) : GIN.Col := fun j => x (ix2 0 (j 0))

theorem colOf_rowT (l : Fin 5) (b : FVec Ideal S5x300 .f32) : colOf (KHost.rowT l b) = GIN.slD l b := by
  funext j
  obtain ⟨j0, rfl⟩ : ∃ j0 : Fin 300, j = ix1 j0 := ⟨j 0, eq_ix1 j⟩
  exact KHost.rowT_apply l b j0

theorem colOf_meanT (z : GIN.Mat) : colOf (KHost.meanT (GIN.tileSum z)) = GIN.meanK z := KHost.meanT_eq z

theorem colOf_varT (z : GIN.Mat) : colOf (KHost.varT (GIN.tileSum z) (GIN.tileSumSq z)) = GIN.varK z := KHost.varT_eq z

/-! ## What the three stretches write, from any contents -/

section Stretches

variable (W : Valuation τ sig (Elt Ideal))

theorem sA_agg : StableHlo.after (hostOps3 (F := Ideal)) W (Proc.devRef .tc main_v80)
    = KHost.agg (W (Proc.devRef .tc main_v70)) (W (Proc.devRef .tc main_v1)) (W (Proc.devRef .tc main_v3)) := by
  dsimp only [hostOps3]; after_results_simp; rfl
theorem sA_w1 : StableHlo.after (hostOps3 (F := Ideal)) W (Proc.devRef .tc main_v82) = KHost.matT 1 (W (Proc.devRef .tc main_arg3)) := by
  dsimp only [hostOps3]; after_results_simp; rfl
theorem sA_b1 : StableHlo.after (hostOps3 (F := Ideal)) W (Proc.devRef .tc main_v85) = KHost.rowT 1 (W (Proc.devRef .tc main_arg4)) := by
  dsimp only [hostOps3]; after_results_simp; rfl

theorem sB_mean : StableHlo.after (hostOps4 (F := Ideal)) W (Proc.devRef .tc main_v109) = KHost.meanT (W (Proc.devRef .tc main_v86_1)) := by
  dsimp only [hostOps4]; after_results_simp; rfl
theorem sB_var : StableHlo.after (hostOps4 (F := Ideal)) W (Proc.devRef .tc main_v110)
    = KHost.varT (W (Proc.devRef .tc main_v86_1)) (W (Proc.devRef .tc main_v86_2)) := by
  dsimp only [hostOps4]; after_results_simp; rfl
theorem sB_g1 : StableHlo.after (hostOps4 (F := Ideal)) W (Proc.devRef .tc main_v111) = KHost.rowT 1 (W (Proc.devRef .tc main_arg5)) := by
  dsimp only [hostOps4]; after_results_simp; rfl
theorem sB_be1 : StableHlo.after (hostOps4 (F := Ideal)) W (Proc.devRef .tc main_v112) = KHost.rowT 1 (W (Proc.devRef .tc main_arg6)) := by
  dsimp only [hostOps4]; after_results_simp; rfl
theorem sB_w2 : StableHlo.after (hostOps4 (F := Ideal)) W (Proc.devRef .tc main_v106) = KHost.matT 1 (W (Proc.devRef .tc main_arg7)) := by
  dsimp only [hostOps4]; after_results_simp; rfl
theorem sB_b2 : StableHlo.after (hostOps4 (F := Ideal)) W (Proc.devRef .tc main_v113) = KHost.rowT 1 (W (Proc.devRef .tc main_arg8)) := by
  dsimp only [hostOps4]; after_results_simp; rfl

theorem sC_mean : StableHlo.after (hostOps5 (F := Ideal)) W (Proc.devRef .tc main_v133) = KHost.meanT (W (Proc.devRef .tc main_v114_1)) := by
  dsimp only [hostOps5]; after_results_simp; rfl
theorem sC_var : StableHlo.after (hostOps5 (F := Ideal)) W (Proc.devRef .tc main_v134)
    = KHost.varT (W (Proc.devRef .tc main_v114_1)) (W (Proc.devRef .tc main_v114_2)) := by
  dsimp only [hostOps5]; after_results_simp; rfl
theorem sC_g : StableHlo.after (hostOps5 (F := Ideal)) W (Proc.devRef .tc main_v135) = KHost.rowT 1 (W (Proc.devRef .tc main_arg9)) := by
  dsimp only [hostOps5]; after_results_simp; rfl
theorem sC_be : StableHlo.after (hostOps5 (F := Ideal)) W (Proc.devRef .tc main_v136) = KHost.rowT 1 (W (Proc.devRef .tc main_arg10)) := by
  dsimp only [hostOps5]; after_results_simp; rfl

/-! ### What the stretches leave alone: a buffer outside a stretch's list of result buffers keeps its contents -/

/-- the result buffers of the layer's first stretch, in order -/
def wrA : List (Ref sig .tc) := [main_c_15, main_v71, main_v72, main_c_16, main_v73, main_v74, main_v75, main_v76, main_v77, main_cst_17, main_v78, main_v79, main_v80, main_v81, main_v82, main_v83, main_v84, main_v85]
/-- the result buffers of the layer's second stretch, in order -/
def wrB : List (Ref sig .tc) := [main_cst_18, main_v87, main_cst_19, main_v88, main_v89, main_cst_20, main_v90, main_cst_21, main_v91, main_v92, main_cst_22, main_v93, main_v94, main_cst_23, main_v95, main_v96, main_v97, main_v98, main_cst_24, main_v99, main_v100, main_v101, main_v102, main_v103, main_v104, main_v105, main_v106, main_v107, main_v108, main_v109, main_v110, main_v111, main_v112, main_v113]
/-- the result buffers of the layer's third stretch, in order -/
def wrC : List (Ref sig .tc) := [main_cst_25, main_v115, main_cst_26, main_v116, main_v117, main_cst_27, main_v118, main_cst_28, main_v119, main_v120, main_cst_29, main_v121, main_v122, main_cst_30, main_v123, main_v124, main_v125, main_v126, main_cst_31, main_v127, main_v128, main_v129, main_v130, main_v131, main_v132, main_v133, main_v134, main_v135, main_v136]

theorem wrA_sub : (hostOps3 (F := Ideal)).Forall fun op => op.writes ⊆ (wrA.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrB_sub : (hostOps4 (F := Ideal)).Forall fun op => op.writes ⊆ (wrB.map (Proc.devRef (τ := τ) .tc)).toFinset := by
  simp only [hostOps4, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrC_sub : (hostOps5 (F := Ideal)).Forall fun op => op.writes ⊆ (wrC.map (Proc.devRef (τ := τ) .tc)).toFinset := by
  simp only [hostOps5, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

theorem keepA (b : Ref sig .tc) (hb : b ∉ wrA) :
    StableHlo.after (hostOps3 (F := Ideal)) W (Proc.devRef .tc b) = W (Proc.devRef .tc b) :=
  StableHlo.after_of_writes_sub _ W wrA_sub hb
theorem keepB (b : Ref sig .tc) (hb : b ∉ wrB) :
    StableHlo.after (hostOps4 (F := Ideal)) W (Proc.devRef .tc b) = W (Proc.devRef .tc b) :=
  StableHlo.after_of_writes_sub _ W wrB_sub hb
theorem keepC (b : Ref sig .tc) (hb : b ∉ wrC) :
    StableHlo.after (hostOps5 (F := Ideal)) W (Proc.devRef .tc b) = W (Proc.devRef .tc b) :=
  StableHlo.after_of_writes_sub _ W wrC_sub hb

end Stretches

end Cert.KernelIdeal.KLayer1

end
-- ==== Proof.KLayer1.lean ====
/-
  One layer of the kernel program, as a function of what the layer finds (layer 1: regions 3, 4, 5 of the run).

  Between the boundary before the layer and the boundary after it the program runs three stretches of host operations and
  three regions.  The first stretch forms the neighbour aggregate of the features and cuts the layer's first weight matrix
  and shift out of the stacked parameters; the first region applies the affine map to features plus aggregate and leaves,
  beside the result z₁, the tiles' partial sums of z₁ and of z₁².  The second stretch turns the partial sums into the column
  mean and variance and cuts the first normalisation's scale and shift and the second affine map's matrix and shift; the
  second region normalises, clamps at zero, applies the second affine map and again leaves the partial sums.  The third
  stretch forms the second mean and variance and cuts the second scale and shift; the third region normalises and clamps.

  Each boundary's contents are read back to the contents before the layer, one step at a time: a stretch's result buffer
  holds the stretch's function of what the stretch found, a region's output array holds the region's function of what the
  region found, and every buffer a step does not write holds what it held.  Composed, the layer's output is the index-level
  layer function of the layer's input features, the edge rows and the eight parameter slices.
-/
import proofs.«144515_j12352325943894_2_alg».proof.Proof.FrameKI
import proofs.«144515_j12352325943894_2_alg».proof.Proof.KLayer1a

set_option maxRecDepth 16384
-- reading a buffer's array type off the program's 737-buffer signature is long
set_option maxHeartbeats 1000000

noncomputable section

namespace Cert.KernelIdeal.KLayer1

open Cert.KernelIdeal Cert.KernelIdeal.Gen
open Idealize.ShloMosaic Idealize.ShloMosaic.TcCoe Idealize.ShloMosaic.ValueIdx

/-! ## The run's boundaries around the layer -/

variable (m : (ℓ : Loc nD τ sig) → Buf (Elt Ideal) ℓ) (ρ : Dev nD → PrngReg) (c : Dev nD)

/-! ### Buffers the layer leaves alone -/

/-- One step back over each of the layer's six segments, for a buffer no stretch writes and no region has as an array. -/
theorem carry (b : Ref sig .tc) (nA : b ∉ wrA) (rA : ∀ w, Pipeline.arrRef spec3 w ≠ b) (nB : b ∉ wrB)
    (rB : ∀ w, Pipeline.arrRef spec4 w ≠ b) (nC : b ∉ wrC) (rC : ∀ w, Pipeline.arrRef spec5 w ≠ b) :
    W12 m ρ c (Proc.devRef .tc b) = W6 m ρ c (Proc.devRef .tc b) :=
  calc W12 m ρ c (Proc.devRef .tc b)
    _ = W11 m ρ c (Proc.devRef .tc b) := W12_of_ne m ρ c b rC
    _ = W10 m ρ c (Proc.devRef .tc b) := keepC (W10 m ρ c) b nC
    _ = W9 m ρ c (Proc.devRef .tc b) := W10_of_ne m ρ c b rB
    _ = W8 m ρ c (Proc.devRef .tc b) := keepB (W8 m ρ c) b nB
    _ = W7 m ρ c (Proc.devRef .tc b) := W8_of_ne m ρ c b rA
    _ = W6 m ρ c (Proc.devRef .tc b) := keepA (W6 m ρ c) b nA

theorem carry_main_arg0 : W12 m ρ c (Proc.devRef .tc main_arg0) = W6 m ρ c (Proc.devRef .tc main_arg0) :=
  carry m ρ c main_arg0 (by decide) (by decide) (by decide) (by decide) (by decide) (by decide)
theorem carry_main_arg1 : W12 m ρ c (Proc.devRef .tc main_arg1) = W6 m ρ c (Proc.devRef .tc main_arg1) :=
  carry m ρ c main_arg1 (by decide) (by decide) (by decide) (by decide) (by decide) (by decide)
theorem carry_main_arg2 : W12 m ρ c (Proc.devRef .tc main_arg2) = W6 m ρ c (Proc.devRef .tc main_arg2) :=
  carry m ρ c main_arg2 (by decide) (by decide) (by decide) (by decide) (by decide) (by decide)
theorem carry_main_arg3 : W12 m ρ c (Proc.devRef .tc main_arg3) = W6 m ρ c (Proc.devRef .tc main_arg3) :=
  carry m ρ c main_arg3 (by decide) (by decide) (by decide) (by decide) (by decide) (by decide)
theorem carry_main_arg4 : W12 m ρ c (Proc.devRef .tc main_arg4) = W6 m ρ c (Proc.devRef .tc main_arg4) :=
  carry m ρ c main_arg4 (by decide) (by decide) (by decide) (by decide) (by decide) (by decide)
theorem carry_main_arg5 : W12 m ρ c (Proc.devRef .tc main_arg5) = W6 m ρ c (Proc.devRef .tc main_arg5) :=
  carry m ρ c main_arg5 (by decide) (by decide) (by decide) (by decide) (by decide) (by decide)
theorem carry_main_arg6 : W12 m ρ c (Proc.devRef .tc main_arg6) = W6 m ρ c (Proc.devRef .tc main_arg6) :=
  carry m ρ c main_arg6 (by decide) (by decide) (by decide) (by decide) (by decide) (by decide)
theorem carry_main_arg7 : W12 m ρ c (Proc.devRef .tc main_arg7) = W6 m ρ c (Proc.devRef .tc main_arg7) :=
  carry m ρ c main_arg7 (by decide) (by decide) (by decide) (by decide) (by decide) (by decide)
theorem carry_main_arg8 : W12 m ρ c (Proc.devRef .tc main_arg8) = W6 m ρ c (Proc.devRef .tc main_arg8) :=
  carry m ρ c main_arg8 (by decide) (by decide) (by decide) (by decide) (by decide) (by decide)
theorem carry_main_arg9 : W12 m ρ c (Proc.devRef .tc main_arg9) = W6 m ρ c (Proc.devRef .tc main_arg9) :=
  carry m ρ c main_arg9 (by decide) (by decide) (by decide) (by decide) (by decide) (by decide)
theorem carry_main_arg10 : W12 m ρ c (Proc.devRef .tc main_arg10) = W6 m ρ c (Proc.devRef .tc main_arg10) :=
  carry m ρ c main_arg10 (by decide) (by decide) (by decide) (by decide) (by decide) (by decide)
theorem carry_main_arg11 : W12 m ρ c (Proc.devRef .tc main_arg11) = W6 m ρ c (Proc.devRef .tc main_arg11) :=
  carry m ρ c main_arg11 (by decide) (by decide) (by decide) (by decide) (by decide) (by decide)
theorem carry_main_arg12 : W12 m ρ c (Proc.devRef .tc main_arg12) = W6 m ρ c (Proc.devRef .tc main_arg12) :=
  carry m ρ c main_arg12 (by decide) (by decide) (by decide) (by decide) (by decide) (by decide)
theorem carry_main_v1 : W12 m ρ c (Proc.devRef .tc main_v1) = W6 m ρ c (Proc.devRef .tc main_v1) :=
  carry m ρ c main_v1 (by decide) (by decide) (by decide) (by decide) (by decide) (by decide)
theorem carry_main_v3 : W12 m ρ c (Proc.devRef .tc main_v3) = W6 m ρ c (Proc.devRef .tc main_v3) :=
  carry m ρ c main_v3 (by decide) (by decide) (by decide) (by decide) (by decide) (by decide)

-- the features of earlier layers, carried through this layer: the input array main_arg0 (above)

/-- The layer's input features are an array of the first region, which only reads it: the region's exit holds what its
    entry held; no other segment of the layer touches it. -/
theorem carry_hin : W12 m ρ c (Proc.devRef .tc main_v70) = W6 m ρ c (Proc.devRef .tc main_v70) :=
  calc W12 m ρ c (Proc.devRef .tc main_v70)
    _ = W11 m ρ c (Proc.devRef .tc main_v70) := W12_of_ne m ρ c main_v70 (by decide)
    _ = W10 m ρ c (Proc.devRef .tc main_v70) := keepC (W10 m ρ c) main_v70 (by decide)
    _ = W9 m ρ c (Proc.devRef .tc main_v70) := W10_of_ne m ρ c main_v70 (by decide)
    _ = W8 m ρ c (Proc.devRef .tc main_v70) := keepB (W8 m ρ c) main_v70 (by decide)
    _ = W7 m ρ c (Proc.devRef .tc main_v70) :=
        (W8_arr m ρ c 0).trans (((dat3 (V7 m ρ) c).arrAt_in 0 rfl _).trans (A_eq3 (V7 m ρ) c 0))
    _ = W6 m ρ c (Proc.devRef .tc main_v70) := keepA (W6 m ρ c) main_v70 (by decide)

/-! ### The layer's arrays, named from what the layer finds -/

/-- the first affine map's result: features plus aggregate, times the layer's first matrix, plus its shift -/
def Z1 : GIN.Mat :=
  GIN.lin (addM (W6 m ρ c (Proc.devRef .tc main_v70))
      (KHost.agg (W6 m ρ c (Proc.devRef .tc main_v70)) (W6 m ρ c (Proc.devRef .tc main_v1))
        (W6 m ρ c (Proc.devRef .tc main_v3))))
    (KHost.matT 1 (W6 m ρ c (Proc.devRef .tc main_arg3))) (colOf (KHost.rowT 1 (W6 m ρ c (Proc.devRef .tc main_arg4))))

/-- the first normalisation, clamped at zero -/
def A1 : GIN.Mat :=
  GIN.bnrelu (Z1 m ρ c) (colOf (KHost.meanT (GIN.tileSum (Z1 m ρ c))))
    (colOf (KHost.varT (GIN.tileSum (Z1 m ρ c)) (GIN.tileSumSq (Z1 m ρ c))))
    (colOf (KHost.rowT 1 (W6 m ρ c (Proc.devRef .tc main_arg5)))) (colOf (KHost.rowT 1 (W6 m ρ c (Proc.devRef .tc main_arg6))))

/-- the second affine map's result -/
def Z2 : GIN.Mat :=
  GIN.lin (A1 m ρ c) (KHost.matT 1 (W6 m ρ c (Proc.devRef .tc main_arg7))) (colOf (KHost.rowT 1 (W6 m ρ c (Proc.devRef .tc main_arg8))))

theorem Z1_eq : Z1 m ρ c = GIN.lin (addM (W6 m ρ c (Proc.devRef .tc main_v70))
      (KHost.agg (W6 m ρ c (Proc.devRef .tc main_v70)) (W6 m ρ c (Proc.devRef .tc main_v1))
        (W6 m ρ c (Proc.devRef .tc main_v3))))
    (GIN.slW 1 (W6 m ρ c (Proc.devRef .tc main_arg3))) (GIN.slD 1 (W6 m ρ c (Proc.devRef .tc main_arg4))) := by
  unfold Z1; rw [KHost.matT_eq, colOf_rowT]

theorem A1_eq : A1 m ρ c = GIN.bnrelu (Z1 m ρ c) (GIN.meanK (Z1 m ρ c)) (GIN.varK (Z1 m ρ c))
    (GIN.slD 1 (W6 m ρ c (Proc.devRef .tc main_arg5))) (GIN.slD 1 (W6 m ρ c (Proc.devRef .tc main_arg6))) := by
  unfold A1; rw [colOf_meanT, colOf_varT, colOf_rowT, colOf_rowT]

theorem Z2_eq : Z2 m ρ c = GIN.lin (A1 m ρ c) (GIN.slW 1 (W6 m ρ c (Proc.devRef .tc main_arg7))) (GIN.slD 1 (W6 m ρ c (Proc.devRef .tc main_arg8))) := by
  unfold Z2; rw [KHost.matT_eq, colOf_rowT]

/-! ### The parameters at the boundaries where they are read -/

theorem arg_afterA (b : Ref sig .tc) (nA : b ∉ wrA) (rA : ∀ w, Pipeline.arrRef spec3 w ≠ b) :
    W8 m ρ c (Proc.devRef .tc b) = W6 m ρ c (Proc.devRef .tc b) :=
  (W8_of_ne m ρ c b rA).trans (keepA (W6 m ρ c) b nA)

theorem arg_afterB (b : Ref sig .tc) (nA : b ∉ wrA) (rA : ∀ w, Pipeline.arrRef spec3 w ≠ b) (nB : b ∉ wrB)
    (rB : ∀ w, Pipeline.arrRef spec4 w ≠ b) : W10 m ρ c (Proc.devRef .tc b) = W6 m ρ c (Proc.devRef .tc b) :=
  (W10_of_ne m ρ c b rB).trans ((keepB (W8 m ρ c) b nB).trans (arg_afterA m ρ c b nA rA))

/-! ## The layer's value -/

/-- the first region's affine result, from the contents the region finds -/
abbrev ZA (V : (c : Dev nD) → (b : Ref sig .tc) → Buf (Elt Ideal) ((c : Thread nD τ).loc b)) (c : Dev nD) : GIN.Mat :=
  GIN.lin (addM (V c (Pipeline.arrRef spec3 0)) (V c (Pipeline.arrRef spec3 1))) (V c (Pipeline.arrRef spec3 2))
    (fun j : GIN.SD.Idx => V c (Pipeline.arrRef spec3 3) (ix2 0 (j 0)))

/-- the second region's affine result, from the contents the region finds -/
abbrev ZB (V : (c : Dev nD) → (b : Ref sig .tc) → Buf (Elt Ideal) ((c : Thread nD τ).loc b)) (c : Dev nD) : GIN.Mat :=
  GIN.lin (GIN.bnrelu (V c (Pipeline.arrRef spec4 0)) (fun j : GIN.SD.Idx => V c (Pipeline.arrRef spec4 1) (ix2 0 (j 0)))
      (fun j : GIN.SD.Idx => V c (Pipeline.arrRef spec4 2) (ix2 0 (j 0))) (fun j : GIN.SD.Idx => V c (Pipeline.arrRef spec4 3) (ix2 0 (j 0)))
      (fun j : GIN.SD.Idx => V c (Pipeline.arrRef spec4 4) (ix2 0 (j 0))))
    (V c (Pipeline.arrRef spec4 5)) (fun j : GIN.SD.Idx => V c (Pipeline.arrRef spec4 6) (ix2 0 (j 0)))

/-- What the first region finds: the features as before the layer, their aggregate, the layer's first matrix and shift. -/
theorem ZA_entry : ZA (V7 m ρ) c = Z1 m ρ c := by
  show GIN.lin (addM (W7 m ρ c (Proc.devRef .tc main_v70)) (W7 m ρ c (Proc.devRef .tc main_v80)))
    (W7 m ρ c (Proc.devRef .tc main_v82)) (colOf (W7 m ρ c (Proc.devRef .tc main_v85))) = _
  rw [show W7 m ρ c (Proc.devRef .tc main_v70) = W6 m ρ c (Proc.devRef .tc main_v70) from keepA (W6 m ρ c) main_v70 (by decide),
    show W7 m ρ c (Proc.devRef .tc main_v80) = _ from sA_agg (W6 m ρ c),
    show W7 m ρ c (Proc.devRef .tc main_v82) = _ from sA_w1 (W6 m ρ c),
    show W7 m ρ c (Proc.devRef .tc main_v85) = _ from sA_b1 (W6 m ρ c)]
  rfl

section Value

/- What each of the layer's three regions leaves in its output arrays, as a function of the contents it finds: the first
   and the second leave the affine result and the tiles' partial sums of it and of its square, the third the
   normalised and clamped array. -/
variable
  (hA : ∀ (V : (c : Dev nD) → (b : Ref sig .tc) → Buf (Elt Ideal) ((c : Thread nD τ).loc b)) (c : Dev nD),
    (dat3 V c).arrAt 4 cfg3.N = ZA V c ∧ (dat3 V c).arrAt 5 cfg3.N = GIN.tileSum (ZA V c)
      ∧ (dat3 V c).arrAt 6 cfg3.N = GIN.tileSumSq (ZA V c))
  (hB : ∀ (V : (c : Dev nD) → (b : Ref sig .tc) → Buf (Elt Ideal) ((c : Thread nD τ).loc b)) (c : Dev nD),
    (dat4 V c).arrAt 7 cfg4.N = ZB V c ∧ (dat4 V c).arrAt 8 cfg4.N = GIN.tileSum (ZB V c)
      ∧ (dat4 V c).arrAt 9 cfg4.N = GIN.tileSumSq (ZB V c))
  (hC : ∀ (V : (c : Dev nD) → (b : Ref sig .tc) → Buf (Elt Ideal) ((c : Thread nD τ).loc b)) (c : Dev nD),
    (dat5 V c).arrAt 5 cfg5.N
      = GIN.bnrelu (V c (Pipeline.arrRef spec5 0)) (fun j : GIN.SD.Idx => V c (Pipeline.arrRef spec5 1) (ix2 0 (j 0)))
          (fun j : GIN.SD.Idx => V c (Pipeline.arrRef spec5 2) (ix2 0 (j 0))) (fun j : GIN.SD.Idx => V c (Pipeline.arrRef spec5 3) (ix2 0 (j 0)))
          (fun j : GIN.SD.Idx => V c (Pipeline.arrRef spec5 4) (ix2 0 (j 0))))

include hA hB hC

/-! ### After the first region: the affine result of features plus aggregate, and its tiles' partial sums -/

theorem afterA_z : W8 m ρ c (Proc.devRef .tc main_v86_0) = Z1 m ρ c :=
  (W8_arr m ρ c 4).trans ((hA (V7 m ρ) c).1.trans (ZA_entry m ρ c))
theorem afterA_s : W8 m ρ c (Proc.devRef .tc main_v86_1) = GIN.tileSum (Z1 m ρ c) :=
  (W8_arr m ρ c 5).trans ((hA (V7 m ρ) c).2.1.trans (congrArg GIN.tileSum (ZA_entry m ρ c)))
theorem afterA_q : W8 m ρ c (Proc.devRef .tc main_v86_2) = GIN.tileSumSq (Z1 m ρ c) :=
  (W8_arr m ρ c 6).trans ((hA (V7 m ρ) c).2.2.trans (congrArg GIN.tileSumSq (ZA_entry m ρ c)))

/-! ### What the second region finds, and what it leaves -/

theorem atB_z : W9 m ρ c (Proc.devRef .tc main_v86_0) = Z1 m ρ c :=
  (keepB (W8 m ρ c) main_v86_0 (by decide)).trans (afterA_z m ρ c hA hB hC)
theorem atB_mean : W9 m ρ c (Proc.devRef .tc main_v109) = KHost.meanT (GIN.tileSum (Z1 m ρ c)) :=
  (sB_mean (W8 m ρ c)).trans (congrArg KHost.meanT (afterA_s m ρ c hA hB hC))
theorem atB_var : W9 m ρ c (Proc.devRef .tc main_v110)
    = KHost.varT (GIN.tileSum (Z1 m ρ c)) (GIN.tileSumSq (Z1 m ρ c)) :=
  (sB_var (W8 m ρ c)).trans (congrArg₂ KHost.varT (afterA_s m ρ c hA hB hC) (afterA_q m ρ c hA hB hC))

omit hA hB hC in
theorem atB_g1 : W9 m ρ c (Proc.devRef .tc main_v111) = KHost.rowT 1 (W6 m ρ c (Proc.devRef .tc main_arg5)) :=
  (sB_g1 (W8 m ρ c)).trans (congrArg (KHost.rowT 1) (arg_afterA m ρ c main_arg5 (by decide) (by decide)))
omit hA hB hC in
theorem atB_be1 : W9 m ρ c (Proc.devRef .tc main_v112) = KHost.rowT 1 (W6 m ρ c (Proc.devRef .tc main_arg6)) :=
  (sB_be1 (W8 m ρ c)).trans (congrArg (KHost.rowT 1) (arg_afterA m ρ c main_arg6 (by decide) (by decide)))
omit hA hB hC in
theorem atB_w2 : W9 m ρ c (Proc.devRef .tc main_v106) = KHost.matT 1 (W6 m ρ c (Proc.devRef .tc main_arg7)) :=
  (sB_w2 (W8 m ρ c)).trans (congrArg (KHost.matT 1) (arg_afterA m ρ c main_arg7 (by decide) (by decide)))
omit hA hB hC in
theorem atB_b2 : W9 m ρ c (Proc.devRef .tc main_v113) = KHost.rowT 1 (W6 m ρ c (Proc.devRef .tc main_arg8)) :=
  (sB_b2 (W8 m ρ c)).trans (congrArg (KHost.rowT 1) (arg_afterA m ρ c main_arg8 (by decide) (by decide)))

theorem ZB_entry : ZB (V9 m ρ) c = Z2 m ρ c := by
  show GIN.lin (GIN.bnrelu (W9 m ρ c (Proc.devRef .tc main_v86_0)) (colOf (W9 m ρ c (Proc.devRef .tc main_v109)))
      (colOf (W9 m ρ c (Proc.devRef .tc main_v110))) (colOf (W9 m ρ c (Proc.devRef .tc main_v111)))
      (colOf (W9 m ρ c (Proc.devRef .tc main_v112))))
    (W9 m ρ c (Proc.devRef .tc main_v106)) (colOf (W9 m ρ c (Proc.devRef .tc main_v113))) = _
  rw [atB_z m ρ c hA hB hC, atB_mean m ρ c hA hB hC, atB_var m ρ c hA hB hC, atB_g1 m ρ c, atB_be1 m ρ c, atB_w2 m ρ c, atB_b2 m ρ c]
  rfl

theorem afterB_z : W10 m ρ c (Proc.devRef .tc main_v114_0) = Z2 m ρ c :=
  (W10_arr m ρ c 7).trans ((hB (V9 m ρ) c).1.trans (ZB_entry m ρ c hA hB hC))
theorem afterB_s : W10 m ρ c (Proc.devRef .tc main_v114_1) = GIN.tileSum (Z2 m ρ c) :=
  (W10_arr m ρ c 8).trans ((hB (V9 m ρ) c).2.1.trans (congrArg GIN.tileSum (ZB_entry m ρ c hA hB hC)))
theorem afterB_q : W10 m ρ c (Proc.devRef .tc main_v114_2) = GIN.tileSumSq (Z2 m ρ c) :=
  (W10_arr m ρ c 9).trans ((hB (V9 m ρ) c).2.2.trans (congrArg GIN.tileSumSq (ZB_entry m ρ c hA hB hC)))

/-! ### What the third region finds, and what it leaves -/

theorem atC_z : W11 m ρ c (Proc.devRef .tc main_v114_0) = Z2 m ρ c :=
  (keepC (W10 m ρ c) main_v114_0 (by decide)).trans (afterB_z m ρ c hA hB hC)
theorem atC_mean : W11 m ρ c (Proc.devRef .tc main_v133) = KHost.meanT (GIN.tileSum (Z2 m ρ c)) :=
  (sC_mean (W10 m ρ c)).trans (congrArg KHost.meanT (afterB_s m ρ c hA hB hC))
theorem atC_var : W11 m ρ c (Proc.devRef .tc main_v134)
    = KHost.varT (GIN.tileSum (Z2 m ρ c)) (GIN.tileSumSq (Z2 m ρ c)) :=
  (sC_var (W10 m ρ c)).trans (congrArg₂ KHost.varT (afterB_s m ρ c hA hB hC) (afterB_q m ρ c hA hB hC))
omit hA hB hC in
theorem atC_g : W11 m ρ c (Proc.devRef .tc main_v135) = KHost.rowT 1 (W6 m ρ c (Proc.devRef .tc main_arg9)) :=
  (sC_g (W10 m ρ c)).trans
    (congrArg (KHost.rowT 1) (arg_afterB m ρ c main_arg9 (by decide) (by decide) (by decide) (by decide)))
omit hA hB hC in
theorem atC_be : W11 m ρ c (Proc.devRef .tc main_v136) = KHost.rowT 1 (W6 m ρ c (Proc.devRef .tc main_arg10)) :=
  (sC_be (W10 m ρ c)).trans
    (congrArg (KHost.rowT 1) (arg_afterB m ρ c main_arg10 (by decide) (by decide) (by decide) (by decide)))

/-- After the third region: the second normalisation, clamped at zero. -/
theorem afterC : W12 m ρ c (Proc.devRef .tc main_v137)
    = GIN.bnrelu (Z2 m ρ c) (colOf (KHost.meanT (GIN.tileSum (Z2 m ρ c))))
        (colOf (KHost.varT (GIN.tileSum (Z2 m ρ c)) (GIN.tileSumSq (Z2 m ρ c))))
        (colOf (KHost.rowT 1 (W6 m ρ c (Proc.devRef .tc main_arg9)))) (colOf (KHost.rowT 1 (W6 m ρ c (Proc.devRef .tc main_arg10)))) := by
  refine (W12_arr m ρ c 5).trans ((hC (V11 m ρ) c).trans ?_)
  show GIN.bnrelu (W11 m ρ c (Proc.devRef .tc main_v114_0)) (colOf (W11 m ρ c (Proc.devRef .tc main_v133)))
      (colOf (W11 m ρ c (Proc.devRef .tc main_v134))) (colOf (W11 m ρ c (Proc.devRef .tc main_v135)))
      (colOf (W11 m ρ c (Proc.devRef .tc main_v136))) = _
  rw [atC_z m ρ c hA hB hC, atC_mean m ρ c hA hB hC, atC_var m ρ c hA hB hC, atC_g m ρ c, atC_be m ρ c]

/-- THE LAYER: the boundary after the layer holds, at the layer's output buffer, the index-level layer function of what the
    boundary before the layer holds: the input features, the edge rows the aggregate is taken along, and the layer's
    slices of the eight stacked parameter arrays. -/
theorem layer_value : W12 m ρ c (Proc.devRef .tc main_v137)
    = GIN.layerK (fun h => KHost.agg h (W6 m ρ c (Proc.devRef .tc main_v1)) (W6 m ρ c (Proc.devRef .tc main_v3)))
        (W6 m ρ c (Proc.devRef .tc main_v70))
        (GIN.slW 1 (W6 m ρ c (Proc.devRef .tc main_arg3))) (GIN.slD 1 (W6 m ρ c (Proc.devRef .tc main_arg4)))
        (GIN.slD 1 (W6 m ρ c (Proc.devRef .tc main_arg5))) (GIN.slD 1 (W6 m ρ c (Proc.devRef .tc main_arg6)))
        (GIN.slW 1 (W6 m ρ c (Proc.devRef .tc main_arg7))) (GIN.slD 1 (W6 m ρ c (Proc.devRef .tc main_arg8)))
        (GIN.slD 1 (W6 m ρ c (Proc.devRef .tc main_arg9))) (GIN.slD 1 (W6 m ρ c (Proc.devRef .tc main_arg10))) := by
  rw [afterC m ρ c hA hB hC, colOf_meanT, colOf_varT, colOf_rowT, colOf_rowT, Z2_eq, A1_eq, Z1_eq]
  rfl

end Value

end Cert.KernelIdeal.KLayer1

end
-- ==== Proof.KLayer2a.lean ====
/-
  One layer of the kernel program (layer 2: stretches 6, 7, 8 of the run): what its three stretches of host operations
  write and what they leave alone, from any buffer contents.

  The first stretch forms the neighbour aggregate of the features (gather the rows at the edges' first ends, add them up at
  the edges' second ends) and cuts the layer's first weight matrix and shift out of the stacked parameters.  The second
  turns the first region's two arrays of partial sums into the column mean and variance and cuts the first normalisation's
  scale and shift and the second affine map's matrix and shift.  The third does the same for the second normalisation.
  Each result buffer holds the composed function of the buffers the stretch read; a buffer that is no operation's result
  keeps its contents.
-/
import proofs.«144515_j12352325943894_2_alg».proof.Proof.Gen.KernelIdeal.Launch
import proofs.«144515_j12352325943894_2_alg».proof.Proof.Spec
import proofs.«144515_j12352325943894_2_alg».proof.Proof.KHost

set_option maxRecDepth 16384
-- reading a buffer's array type off the program's 737-buffer signature is long
set_option maxHeartbeats 1000000

noncomputable section

namespace Cert.KernelIdeal.KLayer2

open Cert.KernelIdeal Cert.KernelIdeal.Gen
open Idealize.ShloMosaic Idealize.ShloMosaic.TcCoe Idealize.ShloMosaic.ValueIdx

/-- two 50000 × 300 arrays added entry by entry -/
abbrev addM (x y : GIN.Mat) : GIN.Mat := fun i => x i + y i

/-- a 1 × 300 array read as a per-column vector -/
def colOf (x : FVec Ideal S1x300 .f32) : GIN.Col := fun j => x (ix2 0 (j 0))

theorem colOf_rowT (l : Fin 5) (b : FVec Ideal S5x300 .f32) : colOf (KHost.rowT l b) = GIN.slD l b := by
  funext j
  obtain ⟨j0, rfl⟩ : ∃ j0 : Fin 300, j = ix1 j0 := ⟨j 0, eq_ix1 j⟩
  exact KHost.rowT_apply l b j0

theorem colOf_meanT (z : GIN.Mat) : colOf (KHost.meanT (GIN.tileSum z)) = GIN.meanK z := KHost.meanT_eq z

theorem colOf_varT (z : GIN.Mat) : colOf (KHost.varT (GIN.tileSum z) (GIN.tileSumSq z)) = GIN.varK z := KHost.varT_eq z

/-! ## What the three stretches write, from any contents -/

section Stretches

variable (W : Valuation τ sig (Elt Ideal))

theorem sA_agg : StableHlo.after (hostOps6 (F := Ideal)) W (Proc.devRef .tc main_v147)
    = KHost.agg (W (Proc.devRef .tc main_v137)) (W (Proc.devRef .tc main_v1)) (W (Proc.devRef .tc main_v3)) := by
  dsimp only [hostOps6]; after_results_simp; rfl
theorem sA_w1 : StableHlo.after (hostOps6 (F := Ideal)) W (Proc.devRef .tc main_v149) = KHost.matT 2 (W (Proc.devRef .tc main_arg3)) := by
  dsimp only [hostOps6]; after_results_simp; rfl
theorem sA_b1 : StableHlo.after (hostOps6 (F := Ideal)) W (Proc.devRef .tc main_v152) = KHost.rowT 2 (W (Proc.devRef .tc main_arg4)) := by
  dsimp only [hostOps6]; after_results_simp; rfl

theorem sB_mean : StableHlo.after (hostOps7 (F := Ideal)) W (Proc.devRef .tc main_v176) = KHost.meanT (W (Proc.devRef .tc main_v153_1)) := by
  dsimp only [hostOps7]; after_results_simp; rfl
theorem sB_var : StableHlo.after (hostOps7 (F := Ideal)) W (Proc.devRef .tc main_v177)
    = KHost.varT (W (Proc.devRef .tc main_v153_1)) (W (Proc.devRef .tc main_v153_2)) := by
  dsimp only [hostOps7]; after_results_simp; rfl
theorem sB_g1 : StableHlo.after (hostOps7 (F := Ideal)) W (Proc.devRef .tc main_v178) = KHost.rowT 2 (W (Proc.devRef .tc main_arg5)) := by
  dsimp only [hostOps7]; after_results_simp; rfl
theorem sB_be1 : StableHlo.after (hostOps7 (F := Ideal)) W (Proc.devRef .tc main_v179) = KHost.rowT 2 (W (Proc.devRef .tc main_arg6)) := by
  dsimp only [hostOps7]; after_results_simp; rfl
theorem sB_w2 : StableHlo.after (hostOps7 (F := Ideal)) W (Proc.devRef .tc main_v173) = KHost.matT 2 (W (Proc.devRef .tc main_arg7)) := by
  dsimp only [hostOps7]; after_results_simp; rfl
theorem sB_b2 : StableHlo.after (hostOps7 (F := Ideal)) W (Proc.devRef .tc main_v180) = KHost.rowT 2 (W (Proc.devRef .tc main_arg8)) := by
  dsimp only [hostOps7]; after_results_simp; rfl

theorem sC_mean : StableHlo.after (hostOps8 (F := Ideal)) W (Proc.devRef .tc main_v200) = KHost.meanT (W (Proc.devRef .tc main_v181_1)) := by
  dsimp only [hostOps8]; after_results_simp; rfl
theorem sC_var : StableHlo.after (hostOps8 (F := Ideal)) W (Proc.devRef .tc main_v201)
    = KHost.varT (W (Proc.devRef .tc main_v181_1)) (W (Proc.devRef .tc main_v181_2)) := by
  dsimp only [hostOps8]; after_results_simp; rfl
theorem sC_g : StableHlo.after (hostOps8 (F := Ideal)) W (Proc.devRef .tc main_v202) = KHost.rowT 2 (W (Proc.devRef .tc main_arg9)) := by
  dsimp only [hostOps8]; after_results_simp; rfl
theorem sC_be : StableHlo.after (hostOps8 (F := Ideal)) W (Proc.devRef .tc main_v203) = KHost.rowT 2 (W (Proc.devRef .tc main_arg10)) := by
  dsimp only [hostOps8]; after_results_simp; rfl

/-! ### What the stretches leave alone: a buffer outside a stretch's list of result buffers keeps its contents -/

/-- the result buffers of the layer's first stretch, in order -/
def wrA : List (Ref sig .tc) := [main_c_32, main_v138, main_v139, main_c_33, main_v140, main_v141, main_v142, main_v143, main_v144, main_cst_34, main_v145, main_v146, main_v147, main_v148, main_v149, main_v150, main_v151, main_v152]
/-- the result buffers of the layer's second stretch, in order -/
def wrB : List (Ref sig .tc) := [main_cst_35, main_v154, main_cst_36, main_v155, main_v156, main_cst_37, main_v157, main_cst_38, main_v158, main_v159, main_cst_39, main_v160, main_v161, main_cst_40, main_v162, main_v163, main_v164, main_v165, main_cst_41, main_v166, main_v167, main_v168, main_v169, main_v170, main_v171, main_v172, main_v173, main_v174, main_v175, main_v176, main_v177, main_v178, main_v179, main_v180]
/-- the result buffers of the layer's third stretch, in order -/
def wrC : List (Ref sig .tc) := [main_cst_42, main_v182, main_cst_43, main_v183, main_v184, main_cst_44, main_v185, main_cst_45, main_v186, main_v187, main_cst_46, main_v188, main_v189, main_cst_47, main_v190, main_v191, main_v192, main_v193, main_cst_48, main_v194, main_v195, main_v196, main_v197, main_v198, main_v199, main_v200, main_v201, main_v202, main_v203]

theorem wrA_sub : (hostOps6 (F := Ideal)).Forall fun op => op.writes ⊆ (wrA.map (Proc.devRef (τ := τ) .tc)).toFinset := by
  simp only [hostOps6, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrB_sub : (hostOps7 (F := Ideal)).Forall fun op => op.writes ⊆ (wrB.map (Proc.devRef (τ := τ) .tc)).toFinset := by
  simp only [hostOps7, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrC_sub : (hostOps8 (F := Ideal)).Forall fun op => op.writes ⊆ (wrC.map (Proc.devRef (τ := τ) .tc)).toFinset := by
  simp only [hostOps8, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

theorem keepA (b : Ref sig .tc) (hb : b ∉ wrA) :
    StableHlo.after (hostOps6 (F := Ideal)) W (Proc.devRef .tc b) = W (Proc.devRef .tc b) :=
  StableHlo.after_of_writes_sub _ W wrA_sub hb
theorem keepB (b : Ref sig .tc) (hb : b ∉ wrB) :
    StableHlo.after (hostOps7 (F := Ideal)) W (Proc.devRef .tc b) = W (Proc.devRef .tc b) :=
  StableHlo.after_of_writes_sub _ W wrB_sub hb
theorem keepC (b : Ref sig .tc) (hb : b ∉ wrC) :
    StableHlo.after (hostOps8 (F := Ideal)) W (Proc.devRef .tc b) = W (Proc.devRef .tc b) :=
  StableHlo.after_of_writes_sub _ W wrC_sub hb

end Stretches

end Cert.KernelIdeal.KLayer2

end
-- ==== Proof.KLayer2.lean ====
/-
  One layer of the kernel program, as a function of what the layer finds (layer 2: regions 6, 7, 8 of the run).

  Between the boundary before the layer and the boundary after it the program runs three stretches of host operations and
  three regions.  The first stretch forms the neighbour aggregate of the features and cuts the layer's first weight matrix
  and shift out of the stacked parameters; the first region applies the affine map to features plus aggregate and leaves,
  beside the result z₁, the tiles' partial sums of z₁ and of z₁².  The second stretch turns the partial sums into the column
  mean and variance and cuts the first normalisation's scale and shift and the second affine map's matrix and shift; the
  second region normalises, clamps at zero, applies the second affine map and again leaves the partial sums.  The third
  stretch forms the second mean and variance and cuts the second scale and shift; the third region normalises and clamps.

  Each boundary's contents are read back to the contents before the layer, one step at a time: a stretch's result buffer
  holds the stretch's function of what the stretch found, a region's output array holds the region's function of what the
  region found, and every buffer a step does not write holds what it held.  Composed, the layer's output is the index-level
  layer function of the layer's input features, the edge rows and the eight parameter slices.
-/
import proofs.«144515_j12352325943894_2_alg».proof.Proof.FrameKI
import proofs.«144515_j12352325943894_2_alg».proof.Proof.KLayer2a

set_option maxRecDepth 16384
-- reading a buffer's array type off the program's 737-buffer signature is long
set_option maxHeartbeats 1000000

noncomputable section

namespace Cert.KernelIdeal.KLayer2

open Cert.KernelIdeal Cert.KernelIdeal.Gen
open Idealize.ShloMosaic Idealize.ShloMosaic.TcCoe Idealize.ShloMosaic.ValueIdx

/-! ## The run's boundaries around the layer -/

variable (m : (ℓ : Loc nD τ sig) → Buf (Elt Ideal) ℓ) (ρ : Dev nD → PrngReg) (c : Dev nD)

/-! ### Buffers the layer leaves alone -/

/-- One step back over each of the layer's six segments, for a buffer no stretch writes and no region has as an array. -/
theorem carry (b : Ref sig .tc) (nA : b ∉ wrA) (rA : ∀ w, Pipeline.arrRef spec6 w ≠ b) (nB : b ∉ wrB)
    (rB : ∀ w, Pipeline.arrRef spec7 w ≠ b) (nC : b ∉ wrC) (rC : ∀ w, Pipeline.arrRef spec8 w ≠ b) :
    W18 m ρ c (Proc.devRef .tc b) = W12 m ρ c (Proc.devRef .tc b) :=
  calc W18 m ρ c (Proc.devRef .tc b)
    _ = W17 m ρ c (Proc.devRef .tc b) := W18_of_ne m ρ c b rC
    _ = W16 m ρ c (Proc.devRef .tc b) := keepC (W16 m ρ c) b nC
    _ = W15 m ρ c (Proc.devRef .tc b) := W16_of_ne m ρ c b rB
    _ = W14 m ρ c (Proc.devRef .tc b) := keepB (W14 m ρ c) b nB
    _ = W13 m ρ c (Proc.devRef .tc b) := W14_of_ne m ρ c b rA
    _ = W12 m ρ c (Proc.devRef .tc b) := keepA (W12 m ρ c) b nA

theorem carry_main_arg0 : W18 m ρ c (Proc.devRef .tc main_arg0) = W12 m ρ c (Proc.devRef .tc main_arg0) :=
  carry m ρ c main_arg0 (by decide) (by decide) (by decide) (by decide) (by decide) (by decide)
theorem carry_main_arg1 : W18 m ρ c (Proc.devRef .tc main_arg1) = W12 m ρ c (Proc.devRef .tc main_arg1) :=
  carry m ρ c main_arg1 (by decide) (by decide) (by decide) (by decide) (by decide) (by decide)
theorem carry_main_arg2 : W18 m ρ c (Proc.devRef .tc main_arg2) = W12 m ρ c (Proc.devRef .tc main_arg2) :=
  carry m ρ c main_arg2 (by decide) (by decide) (by decide) (by decide) (by decide) (by decide)
theorem carry_main_arg3 : W18 m ρ c (Proc.devRef .tc main_arg3) = W12 m ρ c (Proc.devRef .tc main_arg3) :=
  carry m ρ c main_arg3 (by decide) (by decide) (by decide) (by decide) (by decide) (by decide)
theorem carry_main_arg4 : W18 m ρ c (Proc.devRef .tc main_arg4) = W12 m ρ c (Proc.devRef .tc main_arg4) :=
  carry m ρ c main_arg4 (by decide) (by decide) (by decide) (by decide) (by decide) (by decide)
theorem carry_main_arg5 : W18 m ρ c (Proc.devRef .tc main_arg5) = W12 m ρ c (Proc.devRef .tc main_arg5) :=
  carry m ρ c main_arg5 (by decide) (by decide) (by decide) (by decide) (by decide) (by decide)
theorem carry_main_arg6 : W18 m ρ c (Proc.devRef .tc main_arg6) = W12 m ρ c (Proc.devRef .tc main_arg6) :=
  carry m ρ c main_arg6 (by decide) (by decide) (by decide) (by decide) (by decide) (by decide)
theorem carry_main_arg7 : W18 m ρ c (Proc.devRef .tc main_arg7) = W12 m ρ c (Proc.devRef .tc main_arg7) :=
  carry m ρ c main_arg7 (by decide) (by decide) (by decide) (by decide) (by decide) (by decide)
theorem carry_main_arg8 : W18 m ρ c (Proc.devRef .tc main_arg8) = W12 m ρ c (Proc.devRef .tc main_arg8) :=
  carry m ρ c main_arg8 (by decide) (by decide) (by decide) (by decide) (by decide) (by decide)
theorem carry_main_arg9 : W18 m ρ c (Proc.devRef .tc main_arg9) = W12 m ρ c (Proc.devRef .tc main_arg9) :=
  carry m ρ c main_arg9 (by decide) (by decide) (by decide) (by decide) (by decide) (by decide)
theorem carry_main_arg10 : W18 m ρ c (Proc.devRef .tc main_arg10) = W12 m ρ c (Proc.devRef .tc main_arg10) :=
  carry m ρ c main_arg10 (by decide) (by decide) (by decide) (by decide) (by decide) (by decide)
theorem carry_main_arg11 : W18 m ρ c (Proc.devRef .tc main_arg11) = W12 m ρ c (Proc.devRef .tc main_arg11) :=
  carry m ρ c main_arg11 (by decide) (by decide) (by decide) (by decide) (by decide) (by decide)
theorem carry_main_arg12 : W18 m ρ c (Proc.devRef .tc main_arg12) = W12 m ρ c (Proc.devRef .tc main_arg12) :=
  carry m ρ c main_arg12 (by decide) (by decide) (by decide) (by decide) (by decide) (by decide)
theorem carry_main_v1 : W18 m ρ c (Proc.devRef .tc main_v1) = W12 m ρ c (Proc.devRef .tc main_v1) :=
  carry m ρ c main_v1 (by decide) (by decide) (by decide) (by decide) (by decide) (by decide)
theorem carry_main_v3 : W18 m ρ c (Proc.devRef .tc main_v3) = W12 m ρ c (Proc.devRef .tc main_v3) :=
  carry m ρ c main_v3 (by decide) (by decide) (by decide) (by decide) (by decide) (by decide)

-- the features of earlier layers, carried through this layer: the input array main_arg0 (above), and
theorem carry_main_v70 : W18 m ρ c (Proc.devRef .tc main_v70) = W12 m ρ c (Proc.devRef .tc main_v70) :=
  carry m ρ c main_v70 (by decide) (by decide) (by decide) (by decide) (by decide) (by decide)

/-- The layer's input features are an array of the first region, which only reads it: the region's exit holds what its
    entry held; no other segment of the layer touches it. -/
theorem carry_hin : W18 m ρ c (Proc.devRef .tc main_v137) = W12 m ρ c (Proc.devRef .tc main_v137) :=
  calc W18 m ρ c (Proc.devRef .tc main_v137)
    _ = W17 m ρ c (Proc.devRef .tc main_v137) := W18_of_ne m ρ c main_v137 (by decide)
    _ = W16 m ρ c (Proc.devRef .tc main_v137) := keepC (W16 m ρ c) main_v137 (by decide)
    _ = W15 m ρ c (Proc.devRef .tc main_v137) := W16_of_ne m ρ c main_v137 (by decide)
    _ = W14 m ρ c (Proc.devRef .tc main_v137) := keepB (W14 m ρ c) main_v137 (by decide)
    _ = W13 m ρ c (Proc.devRef .tc main_v137) :=
        (W14_arr m ρ c 0).trans (((dat6 (V13 m ρ) c).arrAt_in 0 rfl _).trans (A_eq6 (V13 m ρ) c 0))
    _ = W12 m ρ c (Proc.devRef .tc main_v137) := keepA (W12 m ρ c) main_v137 (by decide)

/-! ### The layer's arrays, named from what the layer finds -/

/-- the first affine map's result: features plus aggregate, times the layer's first matrix, plus its shift -/
def Z1 : GIN.Mat :=
  GIN.lin (addM (W12 m ρ c (Proc.devRef .tc main_v137))
      (KHost.agg (W12 m ρ c (Proc.devRef .tc main_v137)) (W12 m ρ c (Proc.devRef .tc main_v1))
        (W12 m ρ c (Proc.devRef .tc main_v3))))
    (KHost.matT 2 (W12 m ρ c (Proc.devRef .tc main_arg3))) (colOf (KHost.rowT 2 (W12 m ρ c (Proc.devRef .tc main_arg4))))

/-- the first normalisation, clamped at zero -/
def A1 : GIN.Mat :=
  GIN.bnrelu (Z1 m ρ c) (colOf (KHost.meanT (GIN.tileSum (Z1 m ρ c))))
    (colOf (KHost.varT (GIN.tileSum (Z1 m ρ c)) (GIN.tileSumSq (Z1 m ρ c))))
    (colOf (KHost.rowT 2 (W12 m ρ c (Proc.devRef .tc main_arg5)))) (colOf (KHost.rowT 2 (W12 m ρ c (Proc.devRef .tc main_arg6))))

/-- the second affine map's result -/
def Z2 : GIN.Mat :=
  GIN.lin (A1 m ρ c) (KHost.matT 2 (W12 m ρ c (Proc.devRef .tc main_arg7))) (colOf (KHost.rowT 2 (W12 m ρ c (Proc.devRef .tc main_arg8))))

theorem Z1_eq : Z1 m ρ c = GIN.lin (addM (W12 m ρ c (Proc.devRef .tc main_v137))
      (KHost.agg (W12 m ρ c (Proc.devRef .tc main_v137)) (W12 m ρ c (Proc.devRef .tc main_v1))
        (W12 m ρ c (Proc.devRef .tc main_v3))))
    (GIN.slW 2 (W12 m ρ c (Proc.devRef .tc main_arg3))) (GIN.slD 2 (W12 m ρ c (Proc.devRef .tc main_arg4))) := by
  unfold Z1; rw [KHost.matT_eq, colOf_rowT]

theorem A1_eq : A1 m ρ c = GIN.bnrelu (Z1 m ρ c) (GIN.meanK (Z1 m ρ c)) (GIN.varK (Z1 m ρ c))
    (GIN.slD 2 (W12 m ρ c (Proc.devRef .tc main_arg5))) (GIN.slD 2 (W12 m ρ c (Proc.devRef .tc main_arg6))) := by
  unfold A1; rw [colOf_meanT, colOf_varT, colOf_rowT, colOf_rowT]

theorem Z2_eq : Z2 m ρ c = GIN.lin (A1 m ρ c) (GIN.slW 2 (W12 m ρ c (Proc.devRef .tc main_arg7))) (GIN.slD 2 (W12 m ρ c (Proc.devRef .tc main_arg8))) := by
  unfold Z2; rw [KHost.matT_eq, colOf_rowT]

/-! ### The parameters at the boundaries where they are read -/

theorem arg_afterA (b : Ref sig .tc) (nA : b ∉ wrA) (rA : ∀ w, Pipeline.arrRef spec6 w ≠ b) :
    W14 m ρ c (Proc.devRef .tc b) = W12 m ρ c (Proc.devRef .tc b) :=
  (W14_of_ne m ρ c b rA).trans (keepA (W12 m ρ c) b nA)

theorem arg_afterB (b : Ref sig .tc) (nA : b ∉ wrA) (rA : ∀ w, Pipeline.arrRef spec6 w ≠ b) (nB : b ∉ wrB)
    (rB : ∀ w, Pipeline.arrRef spec7 w ≠ b) : W16 m ρ c (Proc.devRef .tc b) = W12 m ρ c (Proc.devRef .tc b) :=
  (W16_of_ne m ρ c b rB).trans ((keepB (W14 m ρ c) b nB).trans (arg_afterA m ρ c b nA rA))

/-! ## The layer's value -/

/-- the first region's affine result, from the contents the region finds -/
abbrev ZA (V : (c : Dev nD) → (b : Ref sig .tc) → Buf (Elt Ideal) ((c : Thread nD τ).loc b)) (c : Dev nD) : GIN.Mat :=
  GIN.lin (addM (V c (Pipeline.arrRef spec6 0)) (V c (Pipeline.arrRef spec6 1))) (V c (Pipeline.arrRef spec6 2))
    (fun j : GIN.SD.Idx => V c (Pipeline.arrRef spec6 3) (ix2 0 (j 0)))

/-- the second region's affine result, from the contents the region finds -/
abbrev ZB (V : (c : Dev nD) → (b : Ref sig .tc) → Buf (Elt Ideal) ((c : Thread nD τ).loc b)) (c : Dev nD) : GIN.Mat :=
  GIN.lin (GIN.bnrelu (V c (Pipeline.arrRef spec7 0)) (fun j : GIN.SD.Idx => V c (Pipeline.arrRef spec7 1) (ix2 0 (j 0)))
      (fun j : GIN.SD.Idx => V c (Pipeline.arrRef spec7 2) (ix2 0 (j 0))) (fun j : GIN.SD.Idx => V c (Pipeline.arrRef spec7 3) (ix2 0 (j 0)))
      (fun j : GIN.SD.Idx => V c (Pipeline.arrRef spec7 4) (ix2 0 (j 0))))
    (V c (Pipeline.arrRef spec7 5)) (fun j : GIN.SD.Idx => V c (Pipeline.arrRef spec7 6) (ix2 0 (j 0)))

/-- What the first region finds: the features as before the layer, their aggregate, the layer's first matrix and shift. -/
theorem ZA_entry : ZA (V13 m ρ) c = Z1 m ρ c := by
  show GIN.lin (addM (W13 m ρ c (Proc.devRef .tc main_v137)) (W13 m ρ c (Proc.devRef .tc main_v147)))
    (W13 m ρ c (Proc.devRef .tc main_v149)) (colOf (W13 m ρ c (Proc.devRef .tc main_v152))) = _
  rw [show W13 m ρ c (Proc.devRef .tc main_v137) = W12 m ρ c (Proc.devRef .tc main_v137) from keepA (W12 m ρ c) main_v137 (by decide),
    show W13 m ρ c (Proc.devRef .tc main_v147) = _ from sA_agg (W12 m ρ c),
    show W13 m ρ c (Proc.devRef .tc main_v149) = _ from sA_w1 (W12 m ρ c),
    show W13 m ρ c (Proc.devRef .tc main_v152) = _ from sA_b1 (W12 m ρ c)]
  rfl

section Value

/- What each of the layer's three regions leaves in its output arrays, as a function of the contents it finds: the first
   and the second leave the affine result and the tiles' partial sums of it and of its square, the third the
   normalised and clamped array. -/
variable
  (hA : ∀ (V : (c : Dev nD) → (b : Ref sig .tc) → Buf (Elt Ideal) ((c : Thread nD τ).loc b)) (c : Dev nD),
    (dat6 V c).arrAt 4 cfg6.N = ZA V c ∧ (dat6 V c).arrAt 5 cfg6.N = GIN.tileSum (ZA V c)
      ∧ (dat6 V c).arrAt 6 cfg6.N = GIN.tileSumSq (ZA V c))
  (hB : ∀ (V : (c : Dev nD) → (b : Ref sig .tc) → Buf (Elt Ideal) ((c : Thread nD τ).loc b)) (c : Dev nD),
    (dat7 V c).arrAt 7 cfg7.N = ZB V c ∧ (dat7 V c).arrAt 8 cfg7.N = GIN.tileSum (ZB V c)
      ∧ (dat7 V c).arrAt 9 cfg7.N = GIN.tileSumSq (ZB V c))
  (hC : ∀ (V : (c : Dev nD) → (b : Ref sig .tc) → Buf (Elt Ideal) ((c : Thread nD τ).loc b)) (c : Dev nD),
    (dat8 V c).arrAt 5 cfg8.N
      = GIN.bnrelu (V c (Pipeline.arrRef spec8 0)) (fun j : GIN.SD.Idx => V c (Pipeline.arrRef spec8 1) (ix2 0 (j 0)))
          (fun j : GIN.SD.Idx => V c (Pipeline.arrRef spec8 2) (ix2 0 (j 0))) (fun j : GIN.SD.Idx => V c (Pipeline.arrRef spec8 3) (ix2 0 (j 0)))
          (fun j : GIN.SD.Idx => V c (Pipeline.arrRef spec8 4) (ix2 0 (j 0))))

include hA hB hC

/-! ### After the first region: the affine result of features plus aggregate, and its tiles' partial sums -/

theorem afterA_z : W14 m ρ c (Proc.devRef .tc main_v153_0) = Z1 m ρ c :=
  (W14_arr m ρ c 4).trans ((hA (V13 m ρ) c).1.trans (ZA_entry m ρ c))
theorem afterA_s : W14 m ρ c (Proc.devRef .tc main_v153_1) = GIN.tileSum (Z1 m ρ c) :=
  (W14_arr m ρ c 5).trans ((hA (V13 m ρ) c).2.1.trans (congrArg GIN.tileSum (ZA_entry m ρ c)))
theorem afterA_q : W14 m ρ c (Proc.devRef .tc main_v153_2) = GIN.tileSumSq (Z1 m ρ c) :=
  (W14_arr m ρ c 6).trans ((hA (V13 m ρ) c).2.2.trans (congrArg GIN.tileSumSq (ZA_entry m ρ c)))

/-! ### What the second region finds, and what it leaves -/

theorem atB_z : W15 m ρ c (Proc.devRef .tc main_v153_0) = Z1 m ρ c :=
  (keepB (W14 m ρ c) main_v153_0 (by decide)).trans (afterA_z m ρ c hA hB hC)
theorem atB_mean : W15 m ρ c (Proc.devRef .tc main_v176) = KHost.meanT (GIN.tileSum (Z1 m ρ c)) :=
  (sB_mean (W14 m ρ c)).trans (congrArg KHost.meanT (afterA_s m ρ c hA hB hC))
theorem atB_var : W15 m ρ c (Proc.devRef .tc main_v177)
    = KHost.varT (GIN.tileSum (Z1 m ρ c)) (GIN.tileSumSq (Z1 m ρ c)) :=
  (sB_var (W14 m ρ c)).trans (congrArg₂ KHost.varT (afterA_s m ρ c hA hB hC) (afterA_q m ρ c hA hB hC))

omit hA hB hC in
theorem atB_g1 : W15 m ρ c (Proc.devRef .tc main_v178) = KHost.rowT 2 (W12 m ρ c (Proc.devRef .tc main_arg5)) :=
  (sB_g1 (W14 m ρ c)).trans (congrArg (KHost.rowT 2) (arg_afterA m ρ c main_arg5 (by decide) (by decide)))
omit hA hB hC in
theorem atB_be1 : W15 m ρ c (Proc.devRef .tc main_v179) = KHost.rowT 2 (W12 m ρ c (Proc.devRef .tc main_arg6)) :=
  (sB_be1 (W14 m ρ c)).trans (congrArg (KHost.rowT 2) (arg_afterA m ρ c main_arg6 (by decide) (by decide)))
omit hA hB hC in
theorem atB_w2 : W15 m ρ c (Proc.devRef .tc main_v173) = KHost.matT 2 (W12 m ρ c (Proc.devRef .tc main_arg7)) :=
  (sB_w2 (W14 m ρ c)).trans (congrArg (KHost.matT 2) (arg_afterA m ρ c main_arg7 (by decide) (by decide)))
omit hA hB hC in
theorem atB_b2 : W15 m ρ c (Proc.devRef .tc main_v180) = KHost.rowT 2 (W12 m ρ c (Proc.devRef .tc main_arg8)) :=
  (sB_b2 (W14 m ρ c)).trans (congrArg (KHost.rowT 2) (arg_afterA m ρ c main_arg8 (by decide) (by decide)))

theorem ZB_entry : ZB (V15 m ρ) c = Z2 m ρ c := by
  show GIN.lin (GIN.bnrelu (W15 m ρ c (Proc.devRef .tc main_v153_0)) (colOf (W15 m ρ c (Proc.devRef .tc main_v176)))
      (colOf (W15 m ρ c (Proc.devRef .tc main_v177))) (colOf (W15 m ρ c (Proc.devRef .tc main_v178)))
      (colOf (W15 m ρ c (Proc.devRef .tc main_v179))))
    (W15 m ρ c (Proc.devRef .tc main_v173)) (colOf (W15 m ρ c (Proc.devRef .tc main_v180))) = _
  rw [atB_z m ρ c hA hB hC, atB_mean m ρ c hA hB hC, atB_var m ρ c hA hB hC, atB_g1 m ρ c, atB_be1 m ρ c, atB_w2 m ρ c, atB_b2 m ρ c]
  rfl

theorem afterB_z : W16 m ρ c (Proc.devRef .tc main_v181_0) = Z2 m ρ c :=
  (W16_arr m ρ c 7).trans ((hB (V15 m ρ) c).1.trans (ZB_entry m ρ c hA hB hC))
theorem afterB_s : W16 m ρ c (Proc.devRef .tc main_v181_1) = GIN.tileSum (Z2 m ρ c) :=
  (W16_arr m ρ c 8).trans ((hB (V15 m ρ) c).2.1.trans (congrArg GIN.tileSum (ZB_entry m ρ c hA hB hC)))
theorem afterB_q : W16 m ρ c (Proc.devRef .tc main_v181_2) = GIN.tileSumSq (Z2 m ρ c) :=
  (W16_arr m ρ c 9).trans ((hB (V15 m ρ) c).2.2.trans (congrArg GIN.tileSumSq (ZB_entry m ρ c hA hB hC)))

/-! ### What the third region finds, and what it leaves -/

theorem atC_z : W17 m ρ c (Proc.devRef .tc main_v181_0) = Z2 m ρ c :=
  (keepC (W16 m ρ c) main_v181_0 (by decide)).trans (afterB_z m ρ c hA hB hC)
theorem atC_mean : W17 m ρ c (Proc.devRef .tc main_v200) = KHost.meanT (GIN.tileSum (Z2 m ρ c)) :=
  (sC_mean (W16 m ρ c)).trans (congrArg KHost.meanT (afterB_s m ρ c hA hB hC))
theorem atC_var : W17 m ρ c (Proc.devRef .tc main_v201)
    = KHost.varT (GIN.tileSum (Z2 m ρ c)) (GIN.tileSumSq (Z2 m ρ c)) :=
  (sC_var (W16 m ρ c)).trans (congrArg₂ KHost.varT (afterB_s m ρ c hA hB hC) (afterB_q m ρ c hA hB hC))
omit hA hB hC in
theorem atC_g : W17 m ρ c (Proc.devRef .tc main_v202) = KHost.rowT 2 (W12 m ρ c (Proc.devRef .tc main_arg9)) :=
  (sC_g (W16 m ρ c)).trans
    (congrArg (KHost.rowT 2) (arg_afterB m ρ c main_arg9 (by decide) (by decide) (by decide) (by decide)))
omit hA hB hC in
theorem atC_be : W17 m ρ c (Proc.devRef .tc main_v203) = KHost.rowT 2 (W12 m ρ c (Proc.devRef .tc main_arg10)) :=
  (sC_be (W16 m ρ c)).trans
    (congrArg (KHost.rowT 2) (arg_afterB m ρ c main_arg10 (by decide) (by decide) (by decide) (by decide)))

/-- After the third region: the second normalisation, clamped at zero. -/
theorem afterC : W18 m ρ c (Proc.devRef .tc main_v204)
    = GIN.bnrelu (Z2 m ρ c) (colOf (KHost.meanT (GIN.tileSum (Z2 m ρ c))))
        (colOf (KHost.varT (GIN.tileSum (Z2 m ρ c)) (GIN.tileSumSq (Z2 m ρ c))))
        (colOf (KHost.rowT 2 (W12 m ρ c (Proc.devRef .tc main_arg9)))) (colOf (KHost.rowT 2 (W12 m ρ c (Proc.devRef .tc main_arg10)))) := by
  refine (W18_arr m ρ c 5).trans ((hC (V17 m ρ) c).trans ?_)
  show GIN.bnrelu (W17 m ρ c (Proc.devRef .tc main_v181_0)) (colOf (W17 m ρ c (Proc.devRef .tc main_v200)))
      (colOf (W17 m ρ c (Proc.devRef .tc main_v201))) (colOf (W17 m ρ c (Proc.devRef .tc main_v202)))
      (colOf (W17 m ρ c (Proc.devRef .tc main_v203))) = _
  rw [atC_z m ρ c hA hB hC, atC_mean m ρ c hA hB hC, atC_var m ρ c hA hB hC, atC_g m ρ c, atC_be m ρ c]

/-- THE LAYER: the boundary after the layer holds, at the layer's output buffer, the index-level layer function of what the
    boundary before the layer holds: the input features, the edge rows the aggregate is taken along, and the layer's
    slices of the eight stacked parameter arrays. -/
theorem layer_value : W18 m ρ c (Proc.devRef .tc main_v204)
    = GIN.layerK (fun h => KHost.agg h (W12 m ρ c (Proc.devRef .tc main_v1)) (W12 m ρ c (Proc.devRef .tc main_v3)))
        (W12 m ρ c (Proc.devRef .tc main_v137))
        (GIN.slW 2 (W12 m ρ c (Proc.devRef .tc main_arg3))) (GIN.slD 2 (W12 m ρ c (Proc.devRef .tc main_arg4)))
        (GIN.slD 2 (W12 m ρ c (Proc.devRef .tc main_arg5))) (GIN.slD 2 (W12 m ρ c (Proc.devRef .tc main_arg6)))
        (GIN.slW 2 (W12 m ρ c (Proc.devRef .tc main_arg7))) (GIN.slD 2 (W12 m ρ c (Proc.devRef .tc main_arg8)))
        (GIN.slD 2 (W12 m ρ c (Proc.devRef .tc main_arg9))) (GIN.slD 2 (W12 m ρ c (Proc.devRef .tc main_arg10))) := by
  rw [afterC m ρ c hA hB hC, colOf_meanT, colOf_varT, colOf_rowT, colOf_rowT, Z2_eq, A1_eq, Z1_eq]
  rfl

end Value

end Cert.KernelIdeal.KLayer2

end
-- ==== Proof.KLayer3a.lean ====
/-
  One layer of the kernel program (layer 3: stretches 9, 10, 11 of the run): what its three stretches of host operations
  write and what they leave alone, from any buffer contents.

  The first stretch forms the neighbour aggregate of the features (gather the rows at the edges' first ends, add them up at
  the edges' second ends) and cuts the layer's first weight matrix and shift out of the stacked parameters.  The second
  turns the first region's two arrays of partial sums into the column mean and variance and cuts the first normalisation's
  scale and shift and the second affine map's matrix and shift.  The third does the same for the second normalisation.
  Each result buffer holds the composed function of the buffers the stretch read; a buffer that is no operation's result
  keeps its contents.
-/
import proofs.«144515_j12352325943894_2_alg».proof.Proof.Gen.KernelIdeal.Launch
import proofs.«144515_j12352325943894_2_alg».proof.Proof.Spec
import proofs.«144515_j12352325943894_2_alg».proof.Proof.KHost

set_option maxRecDepth 16384
-- reading a buffer's array type off the program's 737-buffer signature is long
set_option maxHeartbeats 1000000

noncomputable section

namespace Cert.KernelIdeal.KLayer3

open Cert.KernelIdeal Cert.KernelIdeal.Gen
open Idealize.ShloMosaic Idealize.ShloMosaic.TcCoe Idealize.ShloMosaic.ValueIdx

/-- two 50000 × 300 arrays added entry by entry -/
abbrev addM (x y : GIN.Mat) : GIN.Mat := fun i => x i + y i

/-- a 1 × 300 array read as a per-column vector -/
def colOf (x : FVec Ideal S1x300 .f32) : GIN.Col := fun j => x (ix2 0 (j 0))

theorem colOf_rowT (l : Fin 5) (b : FVec Ideal S5x300 .f32) : colOf (KHost.rowT l b) = GIN.slD l b := by
  funext j
  obtain ⟨j0, rfl⟩ : ∃ j0 : Fin 300, j = ix1 j0 := ⟨j 0, eq_ix1 j⟩
  exact KHost.rowT_apply l b j0

theorem colOf_meanT (z : GIN.Mat) : colOf (KHost.meanT (GIN.tileSum z)) = GIN.meanK z := KHost.meanT_eq z

theorem colOf_varT (z : GIN.Mat) : colOf (KHost.varT (GIN.tileSum z) (GIN.tileSumSq z)) = GIN.varK z := KHost.varT_eq z

/-! ## What the three stretches write, from any contents -/

section Stretches

variable (W : Valuation τ sig (Elt Ideal))

theorem sA_agg : StableHlo.after (hostOps9 (F := Ideal)) W (Proc.devRef .tc main_v214)
    = KHost.agg (W (Proc.devRef .tc main_v204)) (W (Proc.devRef .tc main_v1)) (W (Proc.devRef .tc main_v3)) := by
  dsimp only [hostOps9]; after_results_simp; rfl
theorem sA_w1 : StableHlo.after (hostOps9 (F := Ideal)) W (Proc.devRef .tc main_v216) = KHost.matT 3 (W (Proc.devRef .tc main_arg3)) := by
  dsimp only [hostOps9]; after_results_simp; rfl
theorem sA_b1 : StableHlo.after (hostOps9 (F := Ideal)) W (Proc.devRef .tc main_v219) = KHost.rowT 3 (W (Proc.devRef .tc main_arg4)) := by
  dsimp only [hostOps9]; after_results_simp; rfl

theorem sB_mean : StableHlo.after (hostOps10 (F := Ideal)) W (Proc.devRef .tc main_v243) = KHost.meanT (W (Proc.devRef .tc main_v220_1)) := by
  dsimp only [hostOps10]; after_results_simp; rfl
theorem sB_var : StableHlo.after (hostOps10 (F := Ideal)) W (Proc.devRef .tc main_v244)
    = KHost.varT (W (Proc.devRef .tc main_v220_1)) (W (Proc.devRef .tc main_v220_2)) := by
  dsimp only [hostOps10]; after_results_simp; rfl
theorem sB_g1 : StableHlo.after (hostOps10 (F := Ideal)) W (Proc.devRef .tc main_v245) = KHost.rowT 3 (W (Proc.devRef .tc main_arg5)) := by
  dsimp only [hostOps10]; after_results_simp; rfl
theorem sB_be1 : StableHlo.after (hostOps10 (F := Ideal)) W (Proc.devRef .tc main_v246) = KHost.rowT 3 (W (Proc.devRef .tc main_arg6)) := by
  dsimp only [hostOps10]; after_results_simp; rfl
theorem sB_w2 : StableHlo.after (hostOps10 (F := Ideal)) W (Proc.devRef .tc main_v240) = KHost.matT 3 (W (Proc.devRef .tc main_arg7)) := by
  dsimp only [hostOps10]; after_results_simp; rfl
theorem sB_b2 : StableHlo.after (hostOps10 (F := Ideal)) W (Proc.devRef .tc main_v247) = KHost.rowT 3 (W (Proc.devRef .tc main_arg8)) := by
  dsimp only [hostOps10]; after_results_simp; rfl

theorem sC_mean : StableHlo.after (hostOps11 (F := Ideal)) W (Proc.devRef .tc main_v267) = KHost.meanT (W (Proc.devRef .tc main_v248_1)) := by
  dsimp only [hostOps11]; after_results_simp; rfl
theorem sC_var : StableHlo.after (hostOps11 (F := Ideal)) W (Proc.devRef .tc main_v268)
    = KHost.varT (W (Proc.devRef .tc main_v248_1)) (W (Proc.devRef .tc main_v248_2)) := by
  dsimp only [hostOps11]; after_results_simp; rfl
theorem sC_g : StableHlo.after (hostOps11 (F := Ideal)) W (Proc.devRef .tc main_v269) = KHost.rowT 3 (W (Proc.devRef .tc main_arg9)) := by
  dsimp only [hostOps11]; after_results_simp; rfl
theorem sC_be : StableHlo.after (hostOps11 (F := Ideal)) W (Proc.devRef .tc main_v270) = KHost.rowT 3 (W (Proc.devRef .tc main_arg10)) := by
  dsimp only [hostOps11]; after_results_simp; rfl

/-! ### What the stretches leave alone: a buffer outside a stretch's list of result buffers keeps its contents -/

/-- the result buffers of the layer's first stretch, in order -/
def wrA : List (Ref sig .tc) := [main_c_49, main_v205, main_v206, main_c_50, main_v207, main_v208, main_v209, main_v210, main_v211, main_cst_51, main_v212, main_v213, main_v214, main_v215, main_v216, main_v217, main_v218, main_v219]
/-- the result buffers of the layer's second stretch, in order -/
def wrB : List (Ref sig .tc) := [main_cst_52, main_v221, main_cst_53, main_v222, main_v223, main_cst_54, main_v224, main_cst_55, main_v225, main_v226, main_cst_56, main_v227, main_v228, main_cst_57, main_v229, main_v230, main_v231, main_v232, main_cst_58, main_v233, main_v234, main_v235, main_v236, main_v237, main_v238, main_v239, main_v240, main_v241, main_v242, main_v243, main_v244, main_v245, main_v246, main_v247]
/-- the result buffers of the layer's third stretch, in order -/
def wrC : List (Ref sig .tc) := [main_cst_59, main_v249, main_cst_60, main_v250, main_v251, main_cst_61, main_v252, main_cst_62, main_v253, main_v254, main_cst_63, main_v255, main_v256, main_cst_64, main_v257, main_v258, main_v259, main_v260, main_cst_65, main_v261, main_v262, main_v263, main_v264, main_v265, main_v266, main_v267, main_v268, main_v269, main_v270]

theorem wrA_sub : (hostOps9 (F := Ideal)).Forall fun op => op.writes ⊆ (wrA.map (Proc.devRef (τ := τ) .tc)).toFinset := by
  simp only [hostOps9, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrB_sub : (hostOps10 (F := Ideal)).Forall fun op => op.writes ⊆ (wrB.map (Proc.devRef (τ := τ) .tc)).toFinset := by
  simp only [hostOps10, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrC_sub : (hostOps11 (F := Ideal)).Forall fun op => op.writes ⊆ (wrC.map (Proc.devRef (τ := τ) .tc)).toFinset := by
  simp only [hostOps11, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

theorem keepA (b : Ref sig .tc) (hb : b ∉ wrA) :
    StableHlo.after (hostOps9 (F := Ideal)) W (Proc.devRef .tc b) = W (Proc.devRef .tc b) :=
  StableHlo.after_of_writes_sub _ W wrA_sub hb
theorem keepB (b : Ref sig .tc) (hb : b ∉ wrB) :
    StableHlo.after (hostOps10 (F := Ideal)) W (Proc.devRef .tc b) = W (Proc.devRef .tc b) :=
  StableHlo.after_of_writes_sub _ W wrB_sub hb
theorem keepC (b : Ref sig .tc) (hb : b ∉ wrC) :
    StableHlo.after (hostOps11 (F := Ideal)) W (Proc.devRef .tc b) = W (Proc.devRef .tc b) :=
  StableHlo.after_of_writes_sub _ W wrC_sub hb

end Stretches

end Cert.KernelIdeal.KLayer3

end
-- ==== Proof.KLayer3.lean ====
/-
  One layer of the kernel program, as a function of what the layer finds (layer 3: regions 9, 10, 11 of the run).

  Between the boundary before the layer and the boundary after it the program runs three stretches of host operations and
  three regions.  The first stretch forms the neighbour aggregate of the features and cuts the layer's first weight matrix
  and shift out of the stacked parameters; the first region applies the affine map to features plus aggregate and leaves,
  beside the result z₁, the tiles' partial sums of z₁ and of z₁².  The second stretch turns the partial sums into the column
  mean and variance and cuts the first normalisation's scale and shift and the second affine map's matrix and shift; the
  second region normalises, clamps at zero, applies the second affine map and again leaves the partial sums.  The third
  stretch forms the second mean and variance and cuts the second scale and shift; the third region normalises and clamps.

  Each boundary's contents are read back to the contents before the layer, one step at a time: a stretch's result buffer
  holds the stretch's function of what the stretch found, a region's output array holds the region's function of what the
  region found, and every buffer a step does not write holds what it held.  Composed, the layer's output is the index-level
  layer function of the layer's input features, the edge rows and the eight parameter slices.
-/
import proofs.«144515_j12352325943894_2_alg».proof.Proof.FrameKI
import proofs.«144515_j12352325943894_2_alg».proof.Proof.KLayer3a

set_option maxRecDepth 16384
-- reading a buffer's array type off the program's 737-buffer signature is long
set_option maxHeartbeats 1000000

noncomputable section

namespace Cert.KernelIdeal.KLayer3

open Cert.KernelIdeal Cert.KernelIdeal.Gen
open Idealize.ShloMosaic Idealize.ShloMosaic.TcCoe Idealize.ShloMosaic.ValueIdx

/-! ## The run's boundaries around the layer -/

variable (m : (ℓ : Loc nD τ sig) → Buf (Elt Ideal) ℓ) (ρ : Dev nD → PrngReg) (c : Dev nD)

/-! ### Buffers the layer leaves alone -/

/-- One step back over each of the layer's six segments, for a buffer no stretch writes and no region has as an array. -/
theorem carry (b : Ref sig .tc) (nA : b ∉ wrA) (rA : ∀ w, Pipeline.arrRef spec9 w ≠ b) (nB : b ∉ wrB)
    (rB : ∀ w, Pipeline.arrRef spec10 w ≠ b) (nC : b ∉ wrC) (rC : ∀ w, Pipeline.arrRef spec11 w ≠ b) :
    W24 m ρ c (Proc.devRef .tc b) = W18 m ρ c (Proc.devRef .tc b) :=
  calc W24 m ρ c (Proc.devRef .tc b)
    _ = W23 m ρ c (Proc.devRef .tc b) := W24_of_ne m ρ c b rC
    _ = W22 m ρ c (Proc.devRef .tc b) := keepC (W22 m ρ c) b nC
    _ = W21 m ρ c (Proc.devRef .tc b) := W22_of_ne m ρ c b rB
    _ = W20 m ρ c (Proc.devRef .tc b) := keepB (W20 m ρ c) b nB
    _ = W19 m ρ c (Proc.devRef .tc b) := W20_of_ne m ρ c b rA
    _ = W18 m ρ c (Proc.devRef .tc b) := keepA (W18 m ρ c) b nA

theorem carry_main_arg0 : W24 m ρ c (Proc.devRef .tc main_arg0) = W18 m ρ c (Proc.devRef .tc main_arg0) :=
  carry m ρ c main_arg0 (by decide) (by decide) (by decide) (by decide) (by decide) (by decide)
theorem carry_main_arg1 : W24 m ρ c (Proc.devRef .tc main_arg1) = W18 m ρ c (Proc.devRef .tc main_arg1) :=
  carry m ρ c main_arg1 (by decide) (by decide) (by decide) (by decide) (by decide) (by decide)
theorem carry_main_arg2 : W24 m ρ c (Proc.devRef .tc main_arg2) = W18 m ρ c (Proc.devRef .tc main_arg2) :=
  carry m ρ c main_arg2 (by decide) (by decide) (by decide) (by decide) (by decide) (by decide)
theorem carry_main_arg3 : W24 m ρ c (Proc.devRef .tc main_arg3) = W18 m ρ c (Proc.devRef .tc main_arg3) :=
  carry m ρ c main_arg3 (by decide) (by decide) (by decide) (by decide) (by decide) (by decide)
theorem carry_main_arg4 : W24 m ρ c (Proc.devRef .tc main_arg4) = W18 m ρ c (Proc.devRef .tc main_arg4) :=
  carry m ρ c main_arg4 (by decide) (by decide) (by decide) (by decide) (by decide) (by decide)
theorem carry_main_arg5 : W24 m ρ c (Proc.devRef .tc main_arg5) = W18 m ρ c (Proc.devRef .tc main_arg5) :=
  carry m ρ c main_arg5 (by decide) (by decide) (by decide) (by decide) (by decide) (by decide)
theorem carry_main_arg6 : W24 m ρ c (Proc.devRef .tc main_arg6) = W18 m ρ c (Proc.devRef .tc main_arg6) :=
  carry m ρ c main_arg6 (by decide) (by decide) (by decide) (by decide) (by decide) (by decide)
theorem carry_main_arg7 : W24 m ρ c (Proc.devRef .tc main_arg7) = W18 m ρ c (Proc.devRef .tc main_arg7) :=
  carry m ρ c main_arg7 (by decide) (by decide) (by decide) (by decide) (by decide) (by decide)
theorem carry_main_arg8 : W24 m ρ c (Proc.devRef .tc main_arg8) = W18 m ρ c (Proc.devRef .tc main_arg8) :=
  carry m ρ c main_arg8 (by decide) (by decide) (by decide) (by decide) (by decide) (by decide)
theorem carry_main_arg9 : W24 m ρ c (Proc.devRef .tc main_arg9) = W18 m ρ c (Proc.devRef .tc main_arg9) :=
  carry m ρ c main_arg9 (by decide) (by decide) (by decide) (by decide) (by decide) (by decide)
theorem carry_main_arg10 : W24 m ρ c (Proc.devRef .tc main_arg10) = W18 m ρ c (Proc.devRef .tc main_arg10) :=
  carry m ρ c main_arg10 (by decide) (by decide) (by decide) (by decide) (by decide) (by decide)
theorem carry_main_arg11 : W24 m ρ c (Proc.devRef .tc main_arg11) = W18 m ρ c (Proc.devRef .tc main_arg11) :=
  carry m ρ c main_arg11 (by decide) (by decide) (by decide) (by decide) (by decide) (by decide)
theorem carry_main_arg12 : W24 m ρ c (Proc.devRef .tc main_arg12) = W18 m ρ c (Proc.devRef .tc main_arg12) :=
  carry m ρ c main_arg12 (by decide) (by decide) (by decide) (by decide) (by decide) (by decide)
theorem carry_main_v1 : W24 m ρ c (Proc.devRef .tc main_v1) = W18 m ρ c (Proc.devRef .tc main_v1) :=
  carry m ρ c main_v1 (by decide) (by decide) (by decide) (by decide) (by decide) (by decide)
theorem carry_main_v3 : W24 m ρ c (Proc.devRef .tc main_v3) = W18 m ρ c (Proc.devRef .tc main_v3) :=
  carry m ρ c main_v3 (by decide) (by decide) (by decide) (by decide) (by decide) (by decide)

-- the features of earlier layers, carried through this layer: the input array main_arg0 (above), and
theorem carry_main_v70 : W24 m ρ c (Proc.devRef .tc main_v70) = W18 m ρ c (Proc.devRef .tc main_v70) :=
  carry m ρ c main_v70 (by decide) (by decide) (by decide) (by decide) (by decide) (by decide)
theorem carry_main_v137 : W24 m ρ c (Proc.devRef .tc main_v137) = W18 m ρ c (Proc.devRef .tc main_v137) :=
  carry m ρ c main_v137 (by decide) (by decide) (by decide) (by decide) (by decide) (by decide)

/-- The layer's input features are an array of the first region, which only reads it: the region's exit holds what its
    entry held; no other segment of the layer touches it. -/
theorem carry_hin : W24 m ρ c (Proc.devRef .tc main_v204) = W18 m ρ c (Proc.devRef .tc main_v204) :=
  calc W24 m ρ c (Proc.devRef .tc main_v204)
    _ = W23 m ρ c (Proc.devRef .tc main_v204) := W24_of_ne m ρ c main_v204 (by decide)
    _ = W22 m ρ c (Proc.devRef .tc main_v204) := keepC (W22 m ρ c) main_v204 (by decide)
    _ = W21 m ρ c (Proc.devRef .tc main_v204) := W22_of_ne m ρ c main_v204 (by decide)
    _ = W20 m ρ c (Proc.devRef .tc main_v204) := keepB (W20 m ρ c) main_v204 (by decide)
    _ = W19 m ρ c (Proc.devRef .tc main_v204) :=
        (W20_arr m ρ c 0).trans (((dat9 (V19 m ρ) c).arrAt_in 0 rfl _).trans (A_eq9 (V19 m ρ) c 0))
    _ = W18 m ρ c (Proc.devRef .tc main_v204) := keepA (W18 m ρ c) main_v204 (by decide)

/-! ### The layer's arrays, named from what the layer finds -/

/-- the first affine map's result: features plus aggregate, times the layer's first matrix, plus its shift -/
def Z1 : GIN.Mat :=
  GIN.lin (addM (W18 m ρ c (Proc.devRef .tc main_v204))
      (KHost.agg (W18 m ρ c (Proc.devRef .tc main_v204)) (W18 m ρ c (Proc.devRef .tc main_v1))
        (W18 m ρ c (Proc.devRef .tc main_v3))))
    (KHost.matT 3 (W18 m ρ c (Proc.devRef .tc main_arg3))) (colOf (KHost.rowT 3 (W18 m ρ c (Proc.devRef .tc main_arg4))))

/-- the first normalisation, clamped at zero -/
def A1 : GIN.Mat :=
  GIN.bnrelu (Z1 m ρ c) (colOf (KHost.meanT (GIN.tileSum (Z1 m ρ c))))
    (colOf (KHost.varT (GIN.tileSum (Z1 m ρ c)) (GIN.tileSumSq (Z1 m ρ c))))
    (colOf (KHost.rowT 3 (W18 m ρ c (Proc.devRef .tc main_arg5)))) (colOf (KHost.rowT 3 (W18 m ρ c (Proc.devRef .tc main_arg6))))

/-- the second affine map's result -/
def Z2 : GIN.Mat :=
  GIN.lin (A1 m ρ c) (KHost.matT 3 (W18 m ρ c (Proc.devRef .tc main_arg7))) (colOf (KHost.rowT 3 (W18 m ρ c (Proc.devRef .tc main_arg8))))

theorem Z1_eq : Z1 m ρ c = GIN.lin (addM (W18 m ρ c (Proc.devRef .tc main_v204))
      (KHost.agg (W18 m ρ c (Proc.devRef .tc main_v204)) (W18 m ρ c (Proc.devRef .tc main_v1))
        (W18 m ρ c (Proc.devRef .tc main_v3))))
    (GIN.slW 3 (W18 m ρ c (Proc.devRef .tc main_arg3))) (GIN.slD 3 (W18 m ρ c (Proc.devRef .tc main_arg4))) := by
  unfold Z1; rw [KHost.matT_eq, colOf_rowT]

theorem A1_eq : A1 m ρ c = GIN.bnrelu (Z1 m ρ c) (GIN.meanK (Z1 m ρ c)) (GIN.varK (Z1 m ρ c))
    (GIN.slD 3 (W18 m ρ c (Proc.devRef .tc main_arg5))) (GIN.slD 3 (W18 m ρ c (Proc.devRef .tc main_arg6))) := by
  unfold A1; rw [colOf_meanT, colOf_varT, colOf_rowT, colOf_rowT]

theorem Z2_eq : Z2 m ρ c = GIN.lin (A1 m ρ c) (GIN.slW 3 (W18 m ρ c (Proc.devRef .tc main_arg7))) (GIN.slD 3 (W18 m ρ c (Proc.devRef .tc main_arg8))) := by
  unfold Z2; rw [KHost.matT_eq, colOf_rowT]

/-! ### The parameters at the boundaries where they are read -/

theorem arg_afterA (b : Ref sig .tc) (nA : b ∉ wrA) (rA : ∀ w, Pipeline.arrRef spec9 w ≠ b) :
    W20 m ρ c (Proc.devRef .tc b) = W18 m ρ c (Proc.devRef .tc b) :=
  (W20_of_ne m ρ c b rA).trans (keepA (W18 m ρ c) b nA)

theorem arg_afterB (b : Ref sig .tc) (nA : b ∉ wrA) (rA : ∀ w, Pipeline.arrRef spec9 w ≠ b) (nB : b ∉ wrB)
    (rB : ∀ w, Pipeline.arrRef spec10 w ≠ b) : W22 m ρ c (Proc.devRef .tc b) = W18 m ρ c (Proc.devRef .tc b) :=
  (W22_of_ne m ρ c b rB).trans ((keepB (W20 m ρ c) b nB).trans (arg_afterA m ρ c b nA rA))

/-! ## The layer's value -/

/-- the first region's affine result, from the contents the region finds -/
abbrev ZA (V : (c : Dev nD) → (b : Ref sig .tc) → Buf (Elt Ideal) ((c : Thread nD τ).loc b)) (c : Dev nD) : GIN.Mat :=
  GIN.lin (addM (V c (Pipeline.arrRef spec9 0)) (V c (Pipeline.arrRef spec9 1))) (V c (Pipeline.arrRef spec9 2))
    (fun j : GIN.SD.Idx => V c (Pipeline.arrRef spec9 3) (ix2 0 (j 0)))

/-- the second region's affine result, from the contents the region finds -/
abbrev ZB (V : (c : Dev nD) → (b : Ref sig .tc) → Buf (Elt Ideal) ((c : Thread nD τ).loc b)) (c : Dev nD) : GIN.Mat :=
  GIN.lin (GIN.bnrelu (V c (Pipeline.arrRef spec10 0)) (fun j : GIN.SD.Idx => V c (Pipeline.arrRef spec10 1) (ix2 0 (j 0)))
      (fun j : GIN.SD.Idx => V c (Pipeline.arrRef spec10 2) (ix2 0 (j 0))) (fun j : GIN.SD.Idx => V c (Pipeline.arrRef spec10 3) (ix2 0 (j 0)))
      (fun j : GIN.SD.Idx => V c (Pipeline.arrRef spec10 4) (ix2 0 (j 0))))
    (V c (Pipeline.arrRef spec10 5)) (fun j : GIN.SD.Idx => V c (Pipeline.arrRef spec10 6) (ix2 0 (j 0)))

/-- What the first region finds: the features as before the layer, their aggregate, the layer's first matrix and shift. -/
theorem ZA_entry : ZA (V19 m ρ) c = Z1 m ρ c := by
  show GIN.lin (addM (W19 m ρ c (Proc.devRef .tc main_v204)) (W19 m ρ c (Proc.devRef .tc main_v214)))
    (W19 m ρ c (Proc.devRef .tc main_v216)) (colOf (W19 m ρ c (Proc.devRef .tc main_v219))) = _
  rw [show W19 m ρ c (Proc.devRef .tc main_v204) = W18 m ρ c (Proc.devRef .tc main_v204) from keepA (W18 m ρ c) main_v204 (by decide),
    show W19 m ρ c (Proc.devRef .tc main_v214) = _ from sA_agg (W18 m ρ c),
    show W19 m ρ c (Proc.devRef .tc main_v216) = _ from sA_w1 (W18 m ρ c),
    show W19 m ρ c (Proc.devRef .tc main_v219) = _ from sA_b1 (W18 m ρ c)]
  rfl

section Value

/- What each of the layer's three regions leaves in its output arrays, as a function of the contents it finds: the first
   and the second leave the affine result and the tiles' partial sums of it and of its square, the third the
   normalised and clamped array. -/
variable
  (hA : ∀ (V : (c : Dev nD) → (b : Ref sig .tc) → Buf (Elt Ideal) ((c : Thread nD τ).loc b)) (c : Dev nD),
    (dat9 V c).arrAt 4 cfg9.N = ZA V c ∧ (dat9 V c).arrAt 5 cfg9.N = GIN.tileSum (ZA V c)
      ∧ (dat9 V c).arrAt 6 cfg9.N = GIN.tileSumSq (ZA V c))
  (hB : ∀ (V : (c : Dev nD) → (b : Ref sig .tc) → Buf (Elt Ideal) ((c : Thread nD τ).loc b)) (c : Dev nD),
    (dat10 V c).arrAt 7 cfg10.N = ZB V c ∧ (dat10 V c).arrAt 8 cfg10.N = GIN.tileSum (ZB V c)
      ∧ (dat10 V c).arrAt 9 cfg10.N = GIN.tileSumSq (ZB V c))
  (hC : ∀ (V : (c : Dev nD) → (b : Ref sig .tc) → Buf (Elt Ideal) ((c : Thread nD τ).loc b)) (c : Dev nD),
    (dat11 V c).arrAt 5 cfg11.N
      = GIN.bnrelu (V c (Pipeline.arrRef spec11 0)) (fun j : GIN.SD.Idx => V c (Pipeline.arrRef spec11 1) (ix2 0 (j 0)))
          (fun j : GIN.SD.Idx => V c (Pipeline.arrRef spec11 2) (ix2 0 (j 0))) (fun j : GIN.SD.Idx => V c (Pipeline.arrRef spec11 3) (ix2 0 (j 0)))
          (fun j : GIN.SD.Idx => V c (Pipeline.arrRef spec11 4) (ix2 0 (j 0))))

include hA hB hC

/-! ### After the first region: the affine result of features plus aggregate, and its tiles' partial sums -/

theorem afterA_z : W20 m ρ c (Proc.devRef .tc main_v220_0) = Z1 m ρ c :=
  (W20_arr m ρ c 4).trans ((hA (V19 m ρ) c).1.trans (ZA_entry m ρ c))
theorem afterA_s : W20 m ρ c (Proc.devRef .tc main_v220_1) = GIN.tileSum (Z1 m ρ c) :=
  (W20_arr m ρ c 5).trans ((hA (V19 m ρ) c).2.1.trans (congrArg GIN.tileSum (ZA_entry m ρ c)))
theorem afterA_q : W20 m ρ c (Proc.devRef .tc main_v220_2) = GIN.tileSumSq (Z1 m ρ c) :=
  (W20_arr m ρ c 6).trans ((hA (V19 m ρ) c).2.2.trans (congrArg GIN.tileSumSq (ZA_entry m ρ c)))

/-! ### What the second region finds, and what it leaves -/

theorem atB_z : W21 m ρ c (Proc.devRef .tc main_v220_0) = Z1 m ρ c :=
  (keepB (W20 m ρ c) main_v220_0 (by decide)).trans (afterA_z m ρ c hA hB hC)
theorem atB_mean : W21 m ρ c (Proc.devRef .tc main_v243) = KHost.meanT (GIN.tileSum (Z1 m ρ c)) :=
  (sB_mean (W20 m ρ c)).trans (congrArg KHost.meanT (afterA_s m ρ c hA hB hC))
theorem atB_var : W21 m ρ c (Proc.devRef .tc main_v244)
    = KHost.varT (GIN.tileSum (Z1 m ρ c)) (GIN.tileSumSq (Z1 m ρ c)) :=
  (sB_var (W20 m ρ c)).trans (congrArg₂ KHost.varT (afterA_s m ρ c hA hB hC) (afterA_q m ρ c hA hB hC))

omit hA hB hC in
theorem atB_g1 : W21 m ρ c (Proc.devRef .tc main_v245) = KHost.rowT 3 (W18 m ρ c (Proc.devRef .tc main_arg5)) :=
  (sB_g1 (W20 m ρ c)).trans (congrArg (KHost.rowT 3) (arg_afterA m ρ c main_arg5 (by decide) (by decide)))
omit hA hB hC in
theorem atB_be1 : W21 m ρ c (Proc.devRef .tc main_v246) = KHost.rowT 3 (W18 m ρ c (Proc.devRef .tc main_arg6)) :=
  (sB_be1 (W20 m ρ c)).trans (congrArg (KHost.rowT 3) (arg_afterA m ρ c main_arg6 (by decide) (by decide)))
omit hA hB hC in
theorem atB_w2 : W21 m ρ c (Proc.devRef .tc main_v240) = KHost.matT 3 (W18 m ρ c (Proc.devRef .tc main_arg7)) :=
  (sB_w2 (W20 m ρ c)).trans (congrArg (KHost.matT 3) (arg_afterA m ρ c main_arg7 (by decide) (by decide)))
omit hA hB hC in
theorem atB_b2 : W21 m ρ c (Proc.devRef .tc main_v247) = KHost.rowT 3 (W18 m ρ c (Proc.devRef .tc main_arg8)) :=
  (sB_b2 (W20 m ρ c)).trans (congrArg (KHost.rowT 3) (arg_afterA m ρ c main_arg8 (by decide) (by decide)))

theorem ZB_entry : ZB (V21 m ρ) c = Z2 m ρ c := by
  show GIN.lin (GIN.bnrelu (W21 m ρ c (Proc.devRef .tc main_v220_0)) (colOf (W21 m ρ c (Proc.devRef .tc main_v243)))
      (colOf (W21 m ρ c (Proc.devRef .tc main_v244))) (colOf (W21 m ρ c (Proc.devRef .tc main_v245)))
      (colOf (W21 m ρ c (Proc.devRef .tc main_v246))))
    (W21 m ρ c (Proc.devRef .tc main_v240)) (colOf (W21 m ρ c (Proc.devRef .tc main_v247))) = _
  rw [atB_z m ρ c hA hB hC, atB_mean m ρ c hA hB hC, atB_var m ρ c hA hB hC, atB_g1 m ρ c, atB_be1 m ρ c, atB_w2 m ρ c, atB_b2 m ρ c]
  rfl

theorem afterB_z : W22 m ρ c (Proc.devRef .tc main_v248_0) = Z2 m ρ c :=
  (W22_arr m ρ c 7).trans ((hB (V21 m ρ) c).1.trans (ZB_entry m ρ c hA hB hC))
theorem afterB_s : W22 m ρ c (Proc.devRef .tc main_v248_1) = GIN.tileSum (Z2 m ρ c) :=
  (W22_arr m ρ c 8).trans ((hB (V21 m ρ) c).2.1.trans (congrArg GIN.tileSum (ZB_entry m ρ c hA hB hC)))
theorem afterB_q : W22 m ρ c (Proc.devRef .tc main_v248_2) = GIN.tileSumSq (Z2 m ρ c) :=
  (W22_arr m ρ c 9).trans ((hB (V21 m ρ) c).2.2.trans (congrArg GIN.tileSumSq (ZB_entry m ρ c hA hB hC)))

/-! ### What the third region finds, and what it leaves -/

theorem atC_z : W23 m ρ c (Proc.devRef .tc main_v248_0) = Z2 m ρ c :=
  (keepC (W22 m ρ c) main_v248_0 (by decide)).trans (afterB_z m ρ c hA hB hC)
theorem atC_mean : W23 m ρ c (Proc.devRef .tc main_v267) = KHost.meanT (GIN.tileSum (Z2 m ρ c)) :=
  (sC_mean (W22 m ρ c)).trans (congrArg KHost.meanT (afterB_s m ρ c hA hB hC))
theorem atC_var : W23 m ρ c (Proc.devRef .tc main_v268)
    = KHost.varT (GIN.tileSum (Z2 m ρ c)) (GIN.tileSumSq (Z2 m ρ c)) :=
  (sC_var (W22 m ρ c)).trans (congrArg₂ KHost.varT (afterB_s m ρ c hA hB hC) (afterB_q m ρ c hA hB hC))
omit hA hB hC in
theorem atC_g : W23 m ρ c (Proc.devRef .tc main_v269) = KHost.rowT 3 (W18 m ρ c (Proc.devRef .tc main_arg9)) :=
  (sC_g (W22 m ρ c)).trans
    (congrArg (KHost.rowT 3) (arg_afterB m ρ c main_arg9 (by decide) (by decide) (by decide) (by decide)))
omit hA hB hC in
theorem atC_be : W23 m ρ c (Proc.devRef .tc main_v270) = KHost.rowT 3 (W18 m ρ c (Proc.devRef .tc main_arg10)) :=
  (sC_be (W22 m ρ c)).trans
    (congrArg (KHost.rowT 3) (arg_afterB m ρ c main_arg10 (by decide) (by decide) (by decide) (by decide)))

/-- After the third region: the second normalisation, clamped at zero. -/
theorem afterC : W24 m ρ c (Proc.devRef .tc main_v271)
    = GIN.bnrelu (Z2 m ρ c) (colOf (KHost.meanT (GIN.tileSum (Z2 m ρ c))))
        (colOf (KHost.varT (GIN.tileSum (Z2 m ρ c)) (GIN.tileSumSq (Z2 m ρ c))))
        (colOf (KHost.rowT 3 (W18 m ρ c (Proc.devRef .tc main_arg9)))) (colOf (KHost.rowT 3 (W18 m ρ c (Proc.devRef .tc main_arg10)))) := by
  refine (W24_arr m ρ c 5).trans ((hC (V23 m ρ) c).trans ?_)
  show GIN.bnrelu (W23 m ρ c (Proc.devRef .tc main_v248_0)) (colOf (W23 m ρ c (Proc.devRef .tc main_v267)))
      (colOf (W23 m ρ c (Proc.devRef .tc main_v268))) (colOf (W23 m ρ c (Proc.devRef .tc main_v269)))
      (colOf (W23 m ρ c (Proc.devRef .tc main_v270))) = _
  rw [atC_z m ρ c hA hB hC, atC_mean m ρ c hA hB hC, atC_var m ρ c hA hB hC, atC_g m ρ c, atC_be m ρ c]

/-- THE LAYER: the boundary after the layer holds, at the layer's output buffer, the index-level layer function of what the
    boundary before the layer holds: the input features, the edge rows the aggregate is taken along, and the layer's
    slices of the eight stacked parameter arrays. -/
theorem layer_value : W24 m ρ c (Proc.devRef .tc main_v271)
    = GIN.layerK (fun h => KHost.agg h (W18 m ρ c (Proc.devRef .tc main_v1)) (W18 m ρ c (Proc.devRef .tc main_v3)))
        (W18 m ρ c (Proc.devRef .tc main_v204))
        (GIN.slW 3 (W18 m ρ c (Proc.devRef .tc main_arg3))) (GIN.slD 3 (W18 m ρ c (Proc.devRef .tc main_arg4)))
        (GIN.slD 3 (W18 m ρ c (Proc.devRef .tc main_arg5))) (GIN.slD 3 (W18 m ρ c (Proc.devRef .tc main_arg6)))
        (GIN.slW 3 (W18 m ρ c (Proc.devRef .tc main_arg7))) (GIN.slD 3 (W18 m ρ c (Proc.devRef .tc main_arg8)))
        (GIN.slD 3 (W18 m ρ c (Proc.devRef .tc main_arg9))) (GIN.slD 3 (W18 m ρ c (Proc.devRef .tc main_arg10))) := by
  rw [afterC m ρ c hA hB hC, colOf_meanT, colOf_varT, colOf_rowT, colOf_rowT, Z2_eq, A1_eq, Z1_eq]
  rfl

end Value

end Cert.KernelIdeal.KLayer3

end
-- ==== Proof.KLayer4a.lean ====
/-
  One layer of the kernel program (layer 4: stretches 12, 13, 14 of the run): what its three stretches of host operations
  write and what they leave alone, from any buffer contents.

  The first stretch forms the neighbour aggregate of the features (gather the rows at the edges' first ends, add them up at
  the edges' second ends) and cuts the layer's first weight matrix and shift out of the stacked parameters.  The second
  turns the first region's two arrays of partial sums into the column mean and variance and cuts the first normalisation's
  scale and shift and the second affine map's matrix and shift.  The third does the same for the second normalisation.
  Each result buffer holds the composed function of the buffers the stretch read; a buffer that is no operation's result
  keeps its contents.
-/
import proofs.«144515_j12352325943894_2_alg».proof.Proof.Gen.KernelIdeal.Launch
import proofs.«144515_j12352325943894_2_alg».proof.Proof.Spec
import proofs.«144515_j12352325943894_2_alg».proof.Proof.KHost

set_option maxRecDepth 16384
-- reading a buffer's array type off the program's 737-buffer signature is long
set_option maxHeartbeats 1000000

noncomputable section

namespace Cert.KernelIdeal.KLayer4

open Cert.KernelIdeal Cert.KernelIdeal.Gen
open Idealize.ShloMosaic Idealize.ShloMosaic.TcCoe Idealize.ShloMosaic.ValueIdx

/-- two 50000 × 300 arrays added entry by entry -/
abbrev addM (x y : GIN.Mat) : GIN.Mat := fun i => x i + y i

/-- a 1 × 300 array read as a per-column vector -/
def colOf (x : FVec Ideal S1x300 .f32) : GIN.Col := fun j => x (ix2 0 (j 0))

theorem colOf_rowT (l : Fin 5) (b : FVec Ideal S5x300 .f32) : colOf (KHost.rowT l b) = GIN.slD l b := by
  funext j
  obtain ⟨j0, rfl⟩ : ∃ j0 : Fin 300, j = ix1 j0 := ⟨j 0, eq_ix1 j⟩
  exact KHost.rowT_apply l b j0

theorem colOf_meanT (z : GIN.Mat) : colOf (KHost.meanT (GIN.tileSum z)) = GIN.meanK z := KHost.meanT_eq z

theorem colOf_varT (z : GIN.Mat) : colOf (KHost.varT (GIN.tileSum z) (GIN.tileSumSq z)) = GIN.varK z := KHost.varT_eq z

/-! ## What the three stretches write, from any contents -/

section Stretches

variable (W : Valuation τ sig (Elt Ideal))

theorem sA_agg : StableHlo.after (hostOps12 (F := Ideal)) W (Proc.devRef .tc main_v281)
    = KHost.agg (W (Proc.devRef .tc main_v271)) (W (Proc.devRef .tc main_v1)) (W (Proc.devRef .tc main_v3)) := by
  dsimp only [hostOps12]; after_results_simp; rfl
theorem sA_w1 : StableHlo.after (hostOps12 (F := Ideal)) W (Proc.devRef .tc main_v283) = KHost.matT 4 (W (Proc.devRef .tc main_arg3)) := by
  dsimp only [hostOps12]; after_results_simp; rfl
theorem sA_b1 : StableHlo.after (hostOps12 (F := Ideal)) W (Proc.devRef .tc main_v286) = KHost.rowT 4 (W (Proc.devRef .tc main_arg4)) := by
  dsimp only [hostOps12]; after_results_simp; rfl

theorem sB_mean : StableHlo.after (hostOps13 (F := Ideal)) W (Proc.devRef .tc main_v310) = KHost.meanT (W (Proc.devRef .tc main_v287_1)) := by
  dsimp only [hostOps13]; after_results_simp; rfl
theorem sB_var : StableHlo.after (hostOps13 (F := Ideal)) W (Proc.devRef .tc main_v311)
    = KHost.varT (W (Proc.devRef .tc main_v287_1)) (W (Proc.devRef .tc main_v287_2)) := by
  dsimp only [hostOps13]; after_results_simp; rfl
theorem sB_g1 : StableHlo.after (hostOps13 (F := Ideal)) W (Proc.devRef .tc main_v312) = KHost.rowT 4 (W (Proc.devRef .tc main_arg5)) := by
  dsimp only [hostOps13]; after_results_simp; rfl
theorem sB_be1 : StableHlo.after (hostOps13 (F := Ideal)) W (Proc.devRef .tc main_v313) = KHost.rowT 4 (W (Proc.devRef .tc main_arg6)) := by
  dsimp only [hostOps13]; after_results_simp; rfl
theorem sB_w2 : StableHlo.after (hostOps13 (F := Ideal)) W (Proc.devRef .tc main_v307) = KHost.matT 4 (W (Proc.devRef .tc main_arg7)) := by
  dsimp only [hostOps13]; after_results_simp; rfl
theorem sB_b2 : StableHlo.after (hostOps13 (F := Ideal)) W (Proc.devRef .tc main_v314) = KHost.rowT 4 (W (Proc.devRef .tc main_arg8)) := by
  dsimp only [hostOps13]; after_results_simp; rfl

theorem sC_mean : StableHlo.after (hostOps14 (F := Ideal)) W (Proc.devRef .tc main_v334) = KHost.meanT (W (Proc.devRef .tc main_v315_1)) := by
  dsimp only [hostOps14]; after_results_simp; rfl
theorem sC_var : StableHlo.after (hostOps14 (F := Ideal)) W (Proc.devRef .tc main_v335)
    = KHost.varT (W (Proc.devRef .tc main_v315_1)) (W (Proc.devRef .tc main_v315_2)) := by
  dsimp only [hostOps14]; after_results_simp; rfl
theorem sC_g : StableHlo.after (hostOps14 (F := Ideal)) W (Proc.devRef .tc main_v336) = KHost.rowT 4 (W (Proc.devRef .tc main_arg9)) := by
  dsimp only [hostOps14]; after_results_simp; rfl
theorem sC_be : StableHlo.after (hostOps14 (F := Ideal)) W (Proc.devRef .tc main_v337) = KHost.rowT 4 (W (Proc.devRef .tc main_arg10)) := by
  dsimp only [hostOps14]; after_results_simp; rfl

/-! ### What the stretches leave alone: a buffer outside a stretch's list of result buffers keeps its contents -/

/-- the result buffers of the layer's first stretch, in order -/
def wrA : List (Ref sig .tc) := [main_c_66, main_v272, main_v273, main_c_67, main_v274, main_v275, main_v276, main_v277, main_v278, main_cst_68, main_v279, main_v280, main_v281, main_v282, main_v283, main_v284, main_v285, main_v286]
/-- the result buffers of the layer's second stretch, in order -/
def wrB : List (Ref sig .tc) := [main_cst_69, main_v288, main_cst_70, main_v289, main_v290, main_cst_71, main_v291, main_cst_72, main_v292, main_v293, main_cst_73, main_v294, main_v295, main_cst_74, main_v296, main_v297, main_v298, main_v299, main_cst_75, main_v300, main_v301, main_v302, main_v303, main_v304, main_v305, main_v306, main_v307, main_v308, main_v309, main_v310, main_v311, main_v312, main_v313, main_v314]
/-- the result buffers of the layer's third stretch, in order -/
def wrC : List (Ref sig .tc) := [main_cst_76, main_v316, main_cst_77, main_v317, main_v318, main_cst_78, main_v319, main_cst_79, main_v320, main_v321, main_cst_80, main_v322, main_v323, main_cst_81, main_v324, main_v325, main_v326, main_v327, main_cst_82, main_v328, main_v329, main_v330, main_v331, main_v332, main_v333, main_v334, main_v335, main_v336, main_v337]

theorem wrA_sub : (hostOps12 (F := Ideal)).Forall fun op => op.writes ⊆ (wrA.map (Proc.devRef (τ := τ) .tc)).toFinset := by
  simp only [hostOps12, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrB_sub : (hostOps13 (F := Ideal)).Forall fun op => op.writes ⊆ (wrB.map (Proc.devRef (τ := τ) .tc)).toFinset := by
  simp only [hostOps13, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)
theorem wrC_sub : (hostOps14 (F := Ideal)).Forall fun op => op.writes ⊆ (wrC.map (Proc.devRef (τ := τ) .tc)).toFinset := by
  simp only [hostOps14, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)

theorem keepA (b : Ref sig .tc) (hb : b ∉ wrA) :
    StableHlo.after (hostOps12 (F := Ideal)) W (Proc.devRef .tc b) = W (Proc.devRef .tc b) :=
  StableHlo.after_of_writes_sub _ W wrA_sub hb
theorem keepB (b : Ref sig .tc) (hb : b ∉ wrB) :
    StableHlo.after (hostOps13 (F := Ideal)) W (Proc.devRef .tc b) = W (Proc.devRef .tc b) :=
  StableHlo.after_of_writes_sub _ W wrB_sub hb
theorem keepC (b : Ref sig .tc) (hb : b ∉ wrC) :
    StableHlo.after (hostOps14 (F := Ideal)) W (Proc.devRef .tc b) = W (Proc.devRef .tc b) :=
  StableHlo.after_of_writes_sub _ W wrC_sub hb

end Stretches

end Cert.KernelIdeal.KLayer4

end
-- ==== Proof.KLayer4.lean ====
/-
  One layer of the kernel program, as a function of what the layer finds (layer 4: regions 12, 13, 14 of the run).

  Between the boundary before the layer and the boundary after it the program runs three stretches of host operations and
  three regions.  The first stretch forms the neighbour aggregate of the features and cuts the layer's first weight matrix
  and shift out of the stacked parameters; the first region applies the affine map to features plus aggregate and leaves,
  beside the result z₁, the tiles' partial sums of z₁ and of z₁².  The second stretch turns the partial sums into the column
  mean and variance and cuts the first normalisation's scale and shift and the second affine map's matrix and shift; the
  second region normalises, clamps at zero, applies the second affine map and again leaves the partial sums.  The third
  stretch forms the second mean and variance and cuts the second scale and shift; the third region normalises and clamps.

  Each boundary's contents are read back to the contents before the layer, one step at a time: a stretch's result buffer
  holds the stretch's function of what the stretch found, a region's output array holds the region's function of what the
  region found, and every buffer a step does not write holds what it held.  Composed, the layer's output is the index-level
  layer function of the layer's input features, the edge rows and the eight parameter slices.
-/
import proofs.«144515_j12352325943894_2_alg».proof.Proof.FrameKI
import proofs.«144515_j12352325943894_2_alg».proof.Proof.KLayer4a

set_option maxRecDepth 16384
-- reading a buffer's array type off the program's 737-buffer signature is long
set_option maxHeartbeats 1000000

noncomputable section

namespace Cert.KernelIdeal.KLayer4

open Cert.KernelIdeal Cert.KernelIdeal.Gen
open Idealize.ShloMosaic Idealize.ShloMosaic.TcCoe Idealize.ShloMosaic.ValueIdx

/-! ## The run's boundaries around the layer -/

variable (m : (ℓ : Loc nD τ sig) → Buf (Elt Ideal) ℓ) (ρ : Dev nD → PrngReg) (c : Dev nD)

/-! ### Buffers the layer leaves alone -/

/-- One step back over each of the layer's six segments, for a buffer no stretch writes and no region has as an array. -/
theorem carry (b : Ref sig .tc) (nA : b ∉ wrA) (rA : ∀ w, Pipeline.arrRef spec12 w ≠ b) (nB : b ∉ wrB)
    (rB : ∀ w, Pipeline.arrRef spec13 w ≠ b) (nC : b ∉ wrC) (rC : ∀ w, Pipeline.arrRef spec14 w ≠ b) :
    W30 m ρ c (Proc.devRef .tc b) = W24 m ρ c (Proc.devRef .tc b) :=
  calc W30 m ρ c (Proc.devRef .tc b)
    _ = W29 m ρ c (Proc.devRef .tc b) := W30_of_ne m ρ c b rC
    _ = W28 m ρ c (Proc.devRef .tc b) := keepC (W28 m ρ c) b nC
    _ = W27 m ρ c (Proc.devRef .tc b) := W28_of_ne m ρ c b rB
    _ = W26 m ρ c (Proc.devRef .tc b) := keepB (W26 m ρ c) b nB
    _ = W25 m ρ c (Proc.devRef .tc b) := W26_of_ne m ρ c b rA
    _ = W24 m ρ c (Proc.devRef .tc b) := keepA (W24 m ρ c) b nA

theorem carry_main_arg0 : W30 m ρ c (Proc.devRef .tc main_arg0) = W24 m ρ c (Proc.devRef .tc main_arg0) :=
  carry m ρ c main_arg0 (by decide) (by decide) (by decide) (by decide) (by decide) (by decide)
theorem carry_main_arg1 : W30 m ρ c (Proc.devRef .tc main_arg1) = W24 m ρ c (Proc.devRef .tc main_arg1) :=
  carry m ρ c main_arg1 (by decide) (by decide) (by decide) (by decide) (by decide) (by decide)
theorem carry_main_arg2 : W30 m ρ c (Proc.devRef .tc main_arg2) = W24 m ρ c (Proc.devRef .tc main_arg2) :=
  carry m ρ c main_arg2 (by decide) (by decide) (by decide) (by decide) (by decide) (by decide)
theorem carry_main_arg3 : W30 m ρ c (Proc.devRef .tc main_arg3) = W24 m ρ c (Proc.devRef .tc main_arg3) :=
  carry m ρ c main_arg3 (by decide) (by decide) (by decide) (by decide) (by decide) (by decide)
theorem carry_main_arg4 : W30 m ρ c (Proc.devRef .tc main_arg4) = W24 m ρ c (Proc.devRef .tc main_arg4) :=
  carry m ρ c main_arg4 (by decide) (by decide) (by decide) (by decide) (by decide) (by decide)
theorem carry_main_arg5 : W30 m ρ c (Proc.devRef .tc main_arg5) = W24 m ρ c (Proc.devRef .tc main_arg5) :=
  carry m ρ c main_arg5 (by decide) (by decide) (by decide) (by decide) (by decide) (by decide)
theorem carry_main_arg6 : W30 m ρ c (Proc.devRef .tc main_arg6) = W24 m ρ c (Proc.devRef .tc main_arg6) :=
  carry m ρ c main_arg6 (by decide) (by decide) (by decide) (by decide) (by decide) (by decide)
theorem carry_main_arg7 : W30 m ρ c (Proc.devRef .tc main_arg7) = W24 m ρ c (Proc.devRef .tc main_arg7) :=
  carry m ρ c main_arg7 (by decide) (by decide) (by decide) (by decide) (by decide) (by decide)
theorem carry_main_arg8 : W30 m ρ c (Proc.devRef .tc main_arg8) = W24 m ρ c (Proc.devRef .tc main_arg8) :=
  carry m ρ c main_arg8 (by decide) (by decide) (by decide) (by decide) (by decide) (by decide)
theorem carry_main_arg9 : W30 m ρ c (Proc.devRef .tc main_arg9) = W24 m ρ c (Proc.devRef .tc main_arg9) :=
  carry m ρ c main_arg9 (by decide) (by decide) (by decide) (by decide) (by decide) (by decide)
theorem carry_main_arg10 : W30 m ρ c (Proc.devRef .tc main_arg10) = W24 m ρ c (Proc.devRef .tc main_arg10) :=
  carry m ρ c main_arg10 (by decide) (by decide) (by decide) (by decide) (by decide) (by decide)
theorem carry_main_arg11 : W30 m ρ c (Proc.devRef .tc main_arg11) = W24 m ρ c (Proc.devRef .tc main_arg11) :=
  carry m ρ c main_arg11 (by decide) (by decide) (by decide) (by decide) (by decide) (by decide)
theorem carry_main_arg12 : W30 m ρ c (Proc.devRef .tc main_arg12) = W24 m ρ c (Proc.devRef .tc main_arg12) :=
  carry m ρ c main_arg12 (by decide) (by decide) (by decide) (by decide) (by decide) (by decide)
theorem carry_main_v1 : W30 m ρ c (Proc.devRef .tc main_v1) = W24 m ρ c (Proc.devRef .tc main_v1) :=
  carry m ρ c main_v1 (by decide) (by decide) (by decide) (by decide) (by decide) (by decide)
theorem carry_main_v3 : W30 m ρ c (Proc.devRef .tc main_v3) = W24 m ρ c (Proc.devRef .tc main_v3) :=
  carry m ρ c main_v3 (by decide) (by decide) (by decide) (by decide) (by decide) (by decide)

-- the features of earlier layers, carried through this layer: the input array main_arg0 (above), and
theorem carry_main_v70 : W30 m ρ c (Proc.devRef .tc main_v70) = W24 m ρ c (Proc.devRef .tc main_v70) :=
  carry m ρ c main_v70 (by decide) (by decide) (by decide) (by decide) (by decide) (by decide)
theorem carry_main_v137 : W30 m ρ c (Proc.devRef .tc main_v137) = W24 m ρ c (Proc.devRef .tc main_v137) :=
  carry m ρ c main_v137 (by decide) (by decide) (by decide) (by decide) (by decide) (by decide)
theorem carry_main_v204 : W30 m ρ c (Proc.devRef .tc main_v204) = W24 m ρ c (Proc.devRef .tc main_v204) :=
  carry m ρ c main_v204 (by decide) (by decide) (by decide) (by decide) (by decide) (by decide)

/-- The layer's input features are an array of the first region, which only reads it: the region's exit holds what its
    entry held; no other segment of the layer touches it. -/
theorem carry_hin : W30 m ρ c (Proc.devRef .tc main_v271) = W24 m ρ c (Proc.devRef .tc main_v271) :=
  calc W30 m ρ c (Proc.devRef .tc main_v271)
    _ = W29 m ρ c (Proc.devRef .tc main_v271) := W30_of_ne m ρ c main_v271 (by decide)
    _ = W28 m ρ c (Proc.devRef .tc main_v271) := keepC (W28 m ρ c) main_v271 (by decide)
    _ = W27 m ρ c (Proc.devRef .tc main_v271) := W28_of_ne m ρ c main_v271 (by decide)
    _ = W26 m ρ c (Proc.devRef .tc main_v271) := keepB (W26 m ρ c) main_v271 (by decide)
    _ = W25 m ρ c (Proc.devRef .tc main_v271) :=
        (W26_arr m ρ c 0).trans (((dat12 (V25 m ρ) c).arrAt_in 0 rfl _).trans (A_eq12 (V25 m ρ) c 0))
    _ = W24 m ρ c (Proc.devRef .tc main_v271) := keepA (W24 m ρ c) main_v271 (by decide)

/-! ### The layer's arrays, named from what the layer finds -/

/-- the first affine map's result: features plus aggregate, times the layer's first matrix, plus its shift -/
def Z1 : GIN.Mat :=
  GIN.lin (addM (W24 m ρ c (Proc.devRef .tc main_v271))
      (KHost.agg (W24 m ρ c (Proc.devRef .tc main_v271)) (W24 m ρ c (Proc.devRef .tc main_v1))
        (W24 m ρ c (Proc.devRef .tc main_v3))))
    (KHost.matT 4 (W24 m ρ c (Proc.devRef .tc main_arg3))) (colOf (KHost.rowT 4 (W24 m ρ c (Proc.devRef .tc main_arg4))))

/-- the first normalisation, clamped at zero -/
def A1 : GIN.Mat :=
  GIN.bnrelu (Z1 m ρ c) (colOf (KHost.meanT (GIN.tileSum (Z1 m ρ c))))
    (colOf (KHost.varT (GIN.tileSum (Z1 m ρ c)) (GIN.tileSumSq (Z1 m ρ c))))
    (colOf (KHost.rowT 4 (W24 m ρ c (Proc.devRef .tc main_arg5)))) (colOf (KHost.rowT 4 (W24 m ρ c (Proc.devRef .tc main_arg6))))

/-- the second affine map's result -/
def Z2 : GIN.Mat :=
  GIN.lin (A1 m ρ c) (KHost.matT 4 (W24 m ρ c (Proc.devRef .tc main_arg7))) (colOf (KHost.rowT 4 (W24 m ρ c (Proc.devRef .tc main_arg8))))

theorem Z1_eq : Z1 m ρ c = GIN.lin (addM (W24 m ρ c (Proc.devRef .tc main_v271))
      (KHost.agg (W24 m ρ c (Proc.devRef .tc main_v271)) (W24 m ρ c (Proc.devRef .tc main_v1))
        (W24 m ρ c (Proc.devRef .tc main_v3))))
    (GIN.slW 4 (W24 m ρ c (Proc.devRef .tc main_arg3))) (GIN.slD 4 (W24 m ρ c (Proc.devRef .tc main_arg4))) := by
  unfold Z1; rw [KHost.matT_eq, colOf_rowT]

theorem A1_eq : A1 m ρ c = GIN.bnrelu (Z1 m ρ c) (GIN.meanK (Z1 m ρ c)) (GIN.varK (Z1 m ρ c))
    (GIN.slD 4 (W24 m ρ c (Proc.devRef .tc main_arg5))) (GIN.slD 4 (W24 m ρ c (Proc.devRef .tc main_arg6))) := by
  unfold A1; rw [colOf_meanT, colOf_varT, colOf_rowT, colOf_rowT]

theorem Z2_eq : Z2 m ρ c = GIN.lin (A1 m ρ c) (GIN.slW 4 (W24 m ρ c (Proc.devRef .tc main_arg7))) (GIN.slD 4 (W24 m ρ c (Proc.devRef .tc main_arg8))) := by
  unfold Z2; rw [KHost.matT_eq, colOf_rowT]

/-! ### The parameters at the boundaries where they are read -/

theorem arg_afterA (b : Ref sig .tc) (nA : b ∉ wrA) (rA : ∀ w, Pipeline.arrRef spec12 w ≠ b) :
    W26 m ρ c (Proc.devRef .tc b) = W24 m ρ c (Proc.devRef .tc b) :=
  (W26_of_ne m ρ c b rA).trans (keepA (W24 m ρ c) b nA)

theorem arg_afterB (b : Ref sig .tc) (nA : b ∉ wrA) (rA : ∀ w, Pipeline.arrRef spec12 w ≠ b) (nB : b ∉ wrB)
    (rB : ∀ w, Pipeline.arrRef spec13 w ≠ b) : W28 m ρ c (Proc.devRef .tc b) = W24 m ρ c (Proc.devRef .tc b) :=
  (W28_of_ne m ρ c b rB).trans ((keepB (W26 m ρ c) b nB).trans (arg_afterA m ρ c b nA rA))

/-! ## The layer's value -/

/-- the first region's affine result, from the contents the region finds -/
abbrev ZA (V : (c : Dev nD) → (b : Ref sig .tc) → Buf (Elt Ideal) ((c : Thread nD τ).loc b)) (c : Dev nD) : GIN.Mat :=
  GIN.lin (addM (V c (Pipeline.arrRef spec12 0)) (V c (Pipeline.arrRef spec12 1))) (V c (Pipeline.arrRef spec12 2))
    (fun j : GIN.SD.Idx => V c (Pipeline.arrRef spec12 3) (ix2 0 (j 0)))

/-- the second region's affine result, from the contents the region finds -/
abbrev ZB (V : (c : Dev nD) → (b : Ref sig .tc) → Buf (Elt Ideal) ((c : Thread nD τ).loc b)) (c : Dev nD) : GIN.Mat :=
  GIN.lin (GIN.bnrelu (V c (Pipeline.arrRef spec13 0)) (fun j : GIN.SD.Idx => V c (Pipeline.arrRef spec13 1) (ix2 0 (j 0)))
      (fun j : GIN.SD.Idx => V c (Pipeline.arrRef spec13 2) (ix2 0 (j 0))) (fun j : GIN.SD.Idx => V c (Pipeline.arrRef spec13 3) (ix2 0 (j 0)))
      (fun j : GIN.SD.Idx => V c (Pipeline.arrRef spec13 4) (ix2 0 (j 0))))
    (V c (Pipeline.arrRef spec13 5)) (fun j : GIN.SD.Idx => V c (Pipeline.arrRef spec13 6) (ix2 0 (j 0)))

/-- What the first region finds: the features as before the layer, their aggregate, the layer's first matrix and shift. -/
theorem ZA_entry : ZA (V25 m ρ) c = Z1 m ρ c := by
  show GIN.lin (addM (W25 m ρ c (Proc.devRef .tc main_v271)) (W25 m ρ c (Proc.devRef .tc main_v281)))
    (W25 m ρ c (Proc.devRef .tc main_v283)) (colOf (W25 m ρ c (Proc.devRef .tc main_v286))) = _
  rw [show W25 m ρ c (Proc.devRef .tc main_v271) = W24 m ρ c (Proc.devRef .tc main_v271) from keepA (W24 m ρ c) main_v271 (by decide),
    show W25 m ρ c (Proc.devRef .tc main_v281) = _ from sA_agg (W24 m ρ c),
    show W25 m ρ c (Proc.devRef .tc main_v283) = _ from sA_w1 (W24 m ρ c),
    show W25 m ρ c (Proc.devRef .tc main_v286) = _ from sA_b1 (W24 m ρ c)]
  rfl

section Value

/- What each of the layer's three regions leaves in its output arrays, as a function of the contents it finds: the first
   and the second leave the affine result and the tiles' partial sums of it and of its square, the third the
   normalised and clamped array. -/
variable
  (hA : ∀ (V : (c : Dev nD) → (b : Ref sig .tc) → Buf (Elt Ideal) ((c : Thread nD τ).loc b)) (c : Dev nD),
    (dat12 V c).arrAt 4 cfg12.N = ZA V c ∧ (dat12 V c).arrAt 5 cfg12.N = GIN.tileSum (ZA V c)
      ∧ (dat12 V c).arrAt 6 cfg12.N = GIN.tileSumSq (ZA V c))
  (hB : ∀ (V : (c : Dev nD) → (b : Ref sig .tc) → Buf (Elt Ideal) ((c : Thread nD τ).loc b)) (c : Dev nD),
    (dat13 V c).arrAt 7 cfg13.N = ZB V c ∧ (dat13 V c).arrAt 8 cfg13.N = GIN.tileSum (ZB V c)
      ∧ (dat13 V c).arrAt 9 cfg13.N = GIN.tileSumSq (ZB V c))
  (hC : ∀ (V : (c : Dev nD) → (b : Ref sig .tc) → Buf (Elt Ideal) ((c : Thread nD τ).loc b)) (c : Dev nD),
    (dat14 V c).arrAt 5 cfg14.N
      = GIN.bnrelu (V c (Pipeline.arrRef spec14 0)) (fun j : GIN.SD.Idx => V c (Pipeline.arrRef spec14 1) (ix2 0 (j 0)))
          (fun j : GIN.SD.Idx => V c (Pipeline.arrRef spec14 2) (ix2 0 (j 0))) (fun j : GIN.SD.Idx => V c (Pipeline.arrRef spec14 3) (ix2 0 (j 0)))
          (fun j : GIN.SD.Idx => V c (Pipeline.arrRef spec14 4) (ix2 0 (j 0))))

include hA hB hC

/-! ### After the first region: the affine result of features plus aggregate, and its tiles' partial sums -/

theorem afterA_z : W26 m ρ c (Proc.devRef .tc main_v287_0) = Z1 m ρ c :=
  (W26_arr m ρ c 4).trans ((hA (V25 m ρ) c).1.trans (ZA_entry m ρ c))
theorem afterA_s : W26 m ρ c (Proc.devRef .tc main_v287_1) = GIN.tileSum (Z1 m ρ c) :=
  (W26_arr m ρ c 5).trans ((hA (V25 m ρ) c).2.1.trans (congrArg GIN.tileSum (ZA_entry m ρ c)))
theorem afterA_q : W26 m ρ c (Proc.devRef .tc main_v287_2) = GIN.tileSumSq (Z1 m ρ c) :=
  (W26_arr m ρ c 6).trans ((hA (V25 m ρ) c).2.2.trans (congrArg GIN.tileSumSq (ZA_entry m ρ c)))

/-! ### What the second region finds, and what it leaves -/

theorem atB_z : W27 m ρ c (Proc.devRef .tc main_v287_0) = Z1 m ρ c :=
  (keepB (W26 m ρ c) main_v287_0 (by decide)).trans (afterA_z m ρ c hA hB hC)
theorem atB_mean : W27 m ρ c (Proc.devRef .tc main_v310) = KHost.meanT (GIN.tileSum (Z1 m ρ c)) :=
  (sB_mean (W26 m ρ c)).trans (congrArg KHost.meanT (afterA_s m ρ c hA hB hC))
theorem atB_var : W27 m ρ c (Proc.devRef .tc main_v311)
    = KHost.varT (GIN.tileSum (Z1 m ρ c)) (GIN.tileSumSq (Z1 m ρ c)) :=
  (sB_var (W26 m ρ c)).trans (congrArg₂ KHost.varT (afterA_s m ρ c hA hB hC) (afterA_q m ρ c hA hB hC))

omit hA hB hC in
theorem atB_g1 : W27 m ρ c (Proc.devRef .tc main_v312) = KHost.rowT 4 (W24 m ρ c (Proc.devRef .tc main_arg5)) :=
  (sB_g1 (W26 m ρ c)).trans (congrArg (KHost.rowT 4) (arg_afterA m ρ c main_arg5 (by decide) (by decide)))
omit hA hB hC in
theorem atB_be1 : W27 m ρ c (Proc.devRef .tc main_v313) = KHost.rowT 4 (W24 m ρ c (Proc.devRef .tc main_arg6)) :=
  (sB_be1 (W26 m ρ c)).trans (congrArg (KHost.rowT 4) (arg_afterA m ρ c main_arg6 (by decide) (by decide)))
omit hA hB hC in
theorem atB_w2 : W27 m ρ c (Proc.devRef .tc main_v307) = KHost.matT 4 (W24 m ρ c (Proc.devRef .tc main_arg7)) :=
  (sB_w2 (W26 m ρ c)).trans (congrArg (KHost.matT 4) (arg_afterA m ρ c main_arg7 (by decide) (by decide)))
omit hA hB hC in
theorem atB_b2 : W27 m ρ c (Proc.devRef .tc main_v314) = KHost.rowT 4 (W24 m ρ c (Proc.devRef .tc main_arg8)) :=
  (sB_b2 (W26 m ρ c)).trans (congrArg (KHost.rowT 4) (arg_afterA m ρ c main_arg8 (by decide) (by decide)))

theorem ZB_entry : ZB (V27 m ρ) c = Z2 m ρ c := by
  show GIN.lin (GIN.bnrelu (W27 m ρ c (Proc.devRef .tc main_v287_0)) (colOf (W27 m ρ c (Proc.devRef .tc main_v310)))
      (colOf (W27 m ρ c (Proc.devRef .tc main_v311))) (colOf (W27 m ρ c (Proc.devRef .tc main_v312)))
      (colOf (W27 m ρ c (Proc.devRef .tc main_v313))))
    (W27 m ρ c (Proc.devRef .tc main_v307)) (colOf (W27 m ρ c (Proc.devRef .tc main_v314))) = _
  rw [atB_z m ρ c hA hB hC, atB_mean m ρ c hA hB hC, atB_var m ρ c hA hB hC, atB_g1 m ρ c, atB_be1 m ρ c, atB_w2 m ρ c, atB_b2 m ρ c]
  rfl

theorem afterB_z : W28 m ρ c (Proc.devRef .tc main_v315_0) = Z2 m ρ c :=
  (W28_arr m ρ c 7).trans ((hB (V27 m ρ) c).1.trans (ZB_entry m ρ c hA hB hC))
theorem afterB_s : W28 m ρ c (Proc.devRef .tc main_v315_1) = GIN.tileSum (Z2 m ρ c) :=
  (W28_arr m ρ c 8).trans ((hB (V27 m ρ) c).2.1.trans (congrArg GIN.tileSum (ZB_entry m ρ c hA hB hC)))
theorem afterB_q : W28 m ρ c (Proc.devRef .tc main_v315_2) = GIN.tileSumSq (Z2 m ρ c) :=
  (W28_arr m ρ c 9).trans ((hB (V27 m ρ) c).2.2.trans (congrArg GIN.tileSumSq (ZB_entry m ρ c hA hB hC)))

/-! ### What the third region finds, and what it leaves -/

theorem atC_z : W29 m ρ c (Proc.devRef .tc main_v315_0) = Z2 m ρ c :=
  (keepC (W28 m ρ c) main_v315_0 (by decide)).trans (afterB_z m ρ c hA hB hC)
theorem atC_mean : W29 m ρ c (Proc.devRef .tc main_v334) = KHost.meanT (GIN.tileSum (Z2 m ρ c)) :=
  (sC_mean (W28 m ρ c)).trans (congrArg KHost.meanT (afterB_s m ρ c hA hB hC))
theorem atC_var : W29 m ρ c (Proc.devRef .tc main_v335)
    = KHost.varT (GIN.tileSum (Z2 m ρ c)) (GIN.tileSumSq (Z2 m ρ c)) :=
  (sC_var (W28 m ρ c)).trans (congrArg₂ KHost.varT (afterB_s m ρ c hA hB hC) (afterB_q m ρ c hA hB hC))
omit hA hB hC in
theorem atC_g : W29 m ρ c (Proc.devRef .tc main_v336) = KHost.rowT 4 (W24 m ρ c (Proc.devRef .tc main_arg9)) :=
  (sC_g (W28 m ρ c)).trans
    (congrArg (KHost.rowT 4) (arg_afterB m ρ c main_arg9 (by decide) (by decide) (by decide) (by decide)))
omit hA hB hC in
theorem atC_be : W29 m ρ c (Proc.devRef .tc main_v337) = KHost.rowT 4 (W24 m ρ c (Proc.devRef .tc main_arg10)) :=
  (sC_be (W28 m ρ c)).trans
    (congrArg (KHost.rowT 4) (arg_afterB m ρ c main_arg10 (by decide) (by decide) (by decide) (by decide)))

/-- After the third region: the second normalisation, clamped at zero. -/
theorem afterC : W30 m ρ c (Proc.devRef .tc main_v338)
    = GIN.bnrelu (Z2 m ρ c) (colOf (KHost.meanT (GIN.tileSum (Z2 m ρ c))))
        (colOf (KHost.varT (GIN.tileSum (Z2 m ρ c)) (GIN.tileSumSq (Z2 m ρ c))))
        (colOf (KHost.rowT 4 (W24 m ρ c (Proc.devRef .tc main_arg9)))) (colOf (KHost.rowT 4 (W24 m ρ c (Proc.devRef .tc main_arg10)))) := by
  refine (W30_arr m ρ c 5).trans ((hC (V29 m ρ) c).trans ?_)
  show GIN.bnrelu (W29 m ρ c (Proc.devRef .tc main_v315_0)) (colOf (W29 m ρ c (Proc.devRef .tc main_v334)))
      (colOf (W29 m ρ c (Proc.devRef .tc main_v335))) (colOf (W29 m ρ c (Proc.devRef .tc main_v336)))
      (colOf (W29 m ρ c (Proc.devRef .tc main_v337))) = _
  rw [atC_z m ρ c hA hB hC, atC_mean m ρ c hA hB hC, atC_var m ρ c hA hB hC, atC_g m ρ c, atC_be m ρ c]

/-- THE LAYER: the boundary after the layer holds, at the layer's output buffer, the index-level layer function of what the
    boundary before the layer holds: the input features, the edge rows the aggregate is taken along, and the layer's
    slices of the eight stacked parameter arrays. -/
theorem layer_value : W30 m ρ c (Proc.devRef .tc main_v338)
    = GIN.layerK (fun h => KHost.agg h (W24 m ρ c (Proc.devRef .tc main_v1)) (W24 m ρ c (Proc.devRef .tc main_v3)))
        (W24 m ρ c (Proc.devRef .tc main_v271))
        (GIN.slW 4 (W24 m ρ c (Proc.devRef .tc main_arg3))) (GIN.slD 4 (W24 m ρ c (Proc.devRef .tc main_arg4)))
        (GIN.slD 4 (W24 m ρ c (Proc.devRef .tc main_arg5))) (GIN.slD 4 (W24 m ρ c (Proc.devRef .tc main_arg6)))
        (GIN.slW 4 (W24 m ρ c (Proc.devRef .tc main_arg7))) (GIN.slD 4 (W24 m ρ c (Proc.devRef .tc main_arg8)))
        (GIN.slD 4 (W24 m ρ c (Proc.devRef .tc main_arg9))) (GIN.slD 4 (W24 m ρ c (Proc.devRef .tc main_arg10))) := by
  rw [afterC m ρ c hA hB hC, colOf_meanT, colOf_varT, colOf_rowT, colOf_rowT, Z2_eq, A1_eq, Z1_eq]
  rfl

end Value

end Cert.KernelIdeal.KLayer4

end
-- ==== Proof.ReadoutK.lean ====
import proofs.«144515_j12352325943894_2_alg».proof.Proof.Gen.KernelIdeal.Launch
import Idealize.ShloMosaic.PureOps.Ideal

/-! # The readout, as the kernel's last stretch of host operations computes it

After the five layers the network pools every feature array over the graphs of the batch and reads the pooled
features out through one affine map per array.  With `batch n` the graph of node `n`:

* `counts g = Σ_{n : batch n = g} 1` (a scatter-add of ones into zeros), and `inv g = 1 / max (counts g) 1`;
* for each of the six feature arrays `f_0 = x, f_1, …, f_5`:
  `pooled_k g j = (Σ_{n : batch n = g} f_k n j) · inv g` (a scatter-add of the rows into zeros, times `inv` broadcast
  along the columns);
* `out_0 = 0`, and `out_{k+1} = (out_k + pooled_k · W_k) + b_k`, with `W_k` the `k`-th `300 × 128` slice of the stacked
  readout weights and `b_k` the `k`-th row of the stacked readout vectors, broadcast along the graphs.

The result is `out_6`.  This file names that composed term (`ROK`) and shows that the buffer the stretch writes last
holds it, whatever the contents `W` the stretch starts from: the term reads `W` only at the six feature arrays, the
batch vector, and the two stacked readout parameters.
-/

noncomputable section

namespace Cert.KernelIdeal.Readout

open Cert.KernelIdeal Cert.KernelIdeal.Gen
open Idealize.ShloMosaic Idealize.ShloMosaic.TcCoe Idealize.ShloMosaic.StableHlo

section Generic

variable {F : FTy → Type} [FloatOps F]

/-- `inv = 1 / max counts 1`, where `counts` is the scatter-add of a vector of ones into 256 zeros along the batch
    vector (read as a `50000 × 1` array of indices). -/
def invF (batch : IVec S50000 32) : FVec F S256 .f32 :=
  Host.divf
    (broadcastInDim S256 ![] bcast_S_S256 (constant (F := F) S_ .f32 0x3F800000#32))
    (maximumf
      (Host.scatterAdd scatter_S256_S50000x1_S50000_n_0_0_1
        (broadcastInDim S256 ![] bcast_S_S256 (constant (F := F) S_ .f32 0x00000000#32))
        (broadcastInDim S50000x1 ![0] bcast_S50000_S50000x1_0 batch)
        (broadcastInDim S50000 ![] bcast_S_S50000 (constant (F := F) S_ .f32 0x3F800000#32)))
      (broadcastInDim S256 ![] bcast_S_S256 (constant (F := F) S_ .f32 0x3F800000#32)))

/-- `pooled · Wk`: the rows of `f` scatter-added into a `256 × 300` array of zeros along the batch vector, times `inv`
    broadcast along the columns, contracted with the `300 × 128` matrix `Wk`. -/
def pooledDot (f : FVec F S50000x300 .f32) (batch : IVec S50000 32) (inv : FVec F S256 .f32)
    (Wk : FVec F S300x128 .f32) : FVec F S256x128 .f32 :=
  Host.dotGeneral dot_S256x300_S300x128_S256x128_1_0_0_1_n_n none
    (mulf
      (Host.scatterAdd scatter_S256x300_S50000x1_S50000x300_1_0_0_1
        (broadcastInDim S256x300 ![] bcast_S_S256x300 (constant (F := F) S_ .f32 0x00000000#32))
        (broadcastInDim S50000x1 ![0] bcast_S50000_S50000x1_0 batch)
        f)
      (broadcastInDim S256x300 ![0, 1] bcast_S256x1_S256x300_0_1 (broadcastInDim S256x1 ![0] bcast_S256_S256x1_0 inv)))
    Wk

/-- a row of the stacked readout vectors (already cut out as a `1 × 128` array), broadcast along the 256 graphs -/
def biasRow (b : FVec F S1x128 .f32) : FVec F S256x128 .f32 :=
  broadcastInDim S256x128 ![0, 1] bcast_S1x128_S256x128_0_1
    (broadcastInDim S1x128 ![1] bcast_S128_S1x128_1 (shapeCast S128 b shapeCasts_S1x128_S128))

/-- one step of the accumulation: `(out + pooled · Wk) + bk`, the slices `Wk`, `bk` given as cut out of the stacks -/
def stepK (out : FVec F S256x128 .f32) (f : FVec F S50000x300 .f32) (batch : IVec S50000 32) (inv : FVec F S256 .f32)
    (Wk : FVec F S1x300x128 .f32) (bk : FVec F S1x128 .f32) : FVec F S256x128 .f32 :=
  addf (addf out (pooledDot f batch inv (shapeCast S300x128 Wk shapeCasts_S1x300x128_S300x128))) (biasRow bk)

/-- the six steps from zeros -/
def ROKF (x f1 f2 f3 f4 f5 : FVec F S50000x300 .f32) (batch : IVec S50000 32) (fcW : FVec F S6x300x128 .f32)
    (fcb : FVec F S6x128 .f32) : FVec F S256x128 .f32 :=
  let inv := invF (F := F) batch
  let o0 : FVec F S256x128 .f32 := broadcastInDim S256x128 ![] bcast_S_S256x128 (constant (F := F) S_ .f32 0x00000000#32)
  let o1 := stepK o0 x batch inv (extractStridedSlice S1x300x128 ![0, 0, 0] fcW slices_S6x300x128_S1x300x128_0_0_0)
    (extractStridedSlice S1x128 ![0, 0] fcb slices_S6x128_S1x128_0_0)
  let o2 := stepK o1 f1 batch inv (extractStridedSlice S1x300x128 ![1, 0, 0] fcW slices_S6x300x128_S1x300x128_1_0_0)
    (extractStridedSlice S1x128 ![1, 0] fcb slices_S6x128_S1x128_1_0)
  let o3 := stepK o2 f2 batch inv (extractStridedSlice S1x300x128 ![2, 0, 0] fcW slices_S6x300x128_S1x300x128_2_0_0)
    (extractStridedSlice S1x128 ![2, 0] fcb slices_S6x128_S1x128_2_0)
  let o4 := stepK o3 f3 batch inv (extractStridedSlice S1x300x128 ![3, 0, 0] fcW slices_S6x300x128_S1x300x128_3_0_0)
    (extractStridedSlice S1x128 ![3, 0] fcb slices_S6x128_S1x128_3_0)
  let o5 := stepK o4 f4 batch inv (extractStridedSlice S1x300x128 ![4, 0, 0] fcW slices_S6x300x128_S1x300x128_4_0_0)
    (extractStridedSlice S1x128 ![4, 0] fcb slices_S6x128_S1x128_4_0)
  stepK o5 f5 batch inv (extractStridedSlice S1x300x128 ![5, 0, 0] fcW slices_S6x300x128_S1x300x128_5_0_0)
    (extractStridedSlice S1x128 ![5, 0] fcb slices_S6x128_S1x128_5_0)

attribute [local irreducible] Host.scatterAdd in
set_option maxRecDepth 16384 in
set_option maxHeartbeats 4000000 in
/-- The last buffer the stretch writes holds the composed term over the contents the stretch starts from.  Unrolling
    the fold, every operation's result at the buffer it writes is its function of the contents of its operands, and at
    any other buffer what was there; what is left is the composed term, read at the nine buffers the stretch does not
    write.  The scatter-add stays folded: the equation never looks inside it. -/
theorem after_hostOps15F (W : Valuation τ sig (Elt F)) :
    StableHlo.after (hostOps15 (F := F)) W (Proc.devRef .tc main_v437)
      = ROKF (W (Proc.devRef .tc main_arg0)) (W (Proc.devRef .tc main_v70)) (W (Proc.devRef .tc main_v137))
          (W (Proc.devRef .tc main_v204)) (W (Proc.devRef .tc main_v271)) (W (Proc.devRef .tc main_v338))
          (W (Proc.devRef .tc main_arg2)) (W (Proc.devRef .tc main_arg11)) (W (Proc.devRef .tc main_arg12)) := by
  after_results_simp
  rfl

end Generic

/-- the readout at the extended reals -/
def ROK (x f1 f2 f3 f4 f5 : FVec Ideal S50000x300 .f32) (batch : IVec S50000 32) (fcW : FVec Ideal S6x300x128 .f32)
    (fcb : FVec Ideal S6x128 .f32) : FVec Ideal S256x128 .f32 :=
  ROKF x f1 f2 f3 f4 f5 batch fcW fcb

theorem after_hostOps15 (W : Valuation τ sig (Elt Ideal)) :
    StableHlo.after (hostOps15 (F := Ideal)) W (Proc.devRef .tc main_v437)
      = ROK (W (Proc.devRef .tc main_arg0)) (W (Proc.devRef .tc main_v70)) (W (Proc.devRef .tc main_v137))
          (W (Proc.devRef .tc main_v204)) (W (Proc.devRef .tc main_v271)) (W (Proc.devRef .tc main_v338))
          (W (Proc.devRef .tc main_arg2)) (W (Proc.devRef .tc main_arg11)) (W (Proc.devRef .tc main_arg12)) :=
  after_hostOps15F W

end Cert.KernelIdeal.Readout

end
-- ==== Proof.KValue.lean ====
/-
  The kernel program's result as a function of the launch memory.

  The run is cut at 32 boundaries. Layer `l` (`l = 0 … 4`) occupies the six segments between boundaries `6 l` and `6 l + 6`.
  It reads, at boundary `6 l`, the features after `l` layers, the two rows of the edge list, and its slices of the eight
  stacked parameter arrays; it leaves the features after `l + 1` layers at boundary `6 l + 6`, in a buffer of their own;
  and every array a later layer or the readout still reads is the same at both boundaries. After the fifth layer the
  last stretch of host operations pools the six feature arrays over the graphs of the batch and reads them out.

  Given, per layer, its value read off its entry boundary and the arrays it leaves in place, the reads are walked back
  from the last boundary to the launch memory. The argument arrays are the launch's at every boundary. The edge rows,
  cut from the launch's edge list by the first stretch, are in place from boundary 6 on. So by induction on `l` the
  buffer of the features after `l` layers holds `GIN.feats (GIN.layerK A) x … l` of the launch's arrays, with `A` the
  neighbour aggregate along the launch's edges, from the boundary where it is written to the last one; and the result is
  the readout of those six arrays.
-/
import proofs.«144515_j12352325943894_2_alg».proof.Proof.FrameKI
import proofs.«144515_j12352325943894_2_alg».proof.Proof.Spec
import proofs.«144515_j12352325943894_2_alg».proof.Proof.KHost
import proofs.«144515_j12352325943894_2_alg».proof.Proof.ReadoutK

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The launch's arrays, and the features after `l` layers -/

/-- the node features at launch -/
abbrev X (c : Dev nD) : GIN.Mat := m ((c : Thread nD τ).loc main_arg0)
/-- the rows gathered from and the rows added into, cut from the launch's edge list -/
abbrev srcE (c : Dev nD) : IVec S400000 32 := KHost.src (m ((c : Thread nD τ).loc main_arg1))
abbrev dstE (c : Dev nD) : IVec S400000 32 := KHost.dst (m ((c : Thread nD τ).loc main_arg1))
/-- the neighbour aggregate along the launch's edges -/
abbrev aggE (c : Dev nD) : GIN.Mat → GIN.Mat := fun h => KHost.agg h (srcE m c) (dstE m c)

/-- the features after `l` of the kernel's layers, of the launch's arrays -/
abbrev FK (c : Dev nD) (l : Nat) (hl : l ≤ 5) : GIN.Mat :=
  GIN.feats (GIN.layerK (aggE m c)) (X m c)
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10)) l hl

/-- one more layer: layer `l`'s slices of the stacked parameters applied to the features after `l` layers -/
theorem FK_succ (c : Dev nD) (l : Nat) (hl : l + 1 ≤ 5) :
    FK m c (l + 1) hl
      = GIN.layerK (aggE m c) (FK m c l (Nat.le_of_succ_le hl))
          (GIN.slW ⟨l, hl⟩ (m ((c : Thread nD τ).loc main_arg3))) (GIN.slD ⟨l, hl⟩ (m ((c : Thread nD τ).loc main_arg4)))
          (GIN.slD ⟨l, hl⟩ (m ((c : Thread nD τ).loc main_arg5))) (GIN.slD ⟨l, hl⟩ (m ((c : Thread nD τ).loc main_arg6)))
          (GIN.slW ⟨l, hl⟩ (m ((c : Thread nD τ).loc main_arg7))) (GIN.slD ⟨l, hl⟩ (m ((c : Thread nD τ).loc main_arg8)))
          (GIN.slD ⟨l, hl⟩ (m ((c : Thread nD τ).loc main_arg9))) (GIN.slD ⟨l, hl⟩ (m ((c : Thread nD τ).loc main_arg10))) :=
  rfl

/-! ## Reading a layer, and the argument arrays, off a boundary's contents -/

/-- layer `l` read off contents `W`: its slices of the eight stacked parameter arrays as `W` holds them, applied to
    features `f`, the neighbour aggregate along rows `s`, `d` -/
abbrev layerAt (W : Valuation τ sig (Elt Ideal)) (l : Fin 5) (s d : IVec S400000 32) (f : GIN.Mat) : GIN.Mat :=
  GIN.layerK (fun h => KHost.agg h s d) f
    (GIN.slW l (W (Proc.devRef .tc main_arg3))) (GIN.slD l (W (Proc.devRef .tc main_arg4)))
    (GIN.slD l (W (Proc.devRef .tc main_arg5))) (GIN.slD l (W (Proc.devRef .tc main_arg6)))
    (GIN.slW l (W (Proc.devRef .tc main_arg7))) (GIN.slD l (W (Proc.devRef .tc main_arg8)))
    (GIN.slD l (W (Proc.devRef .tc main_arg9))) (GIN.slD l (W (Proc.devRef .tc main_arg10)))

/-- two contents hold the same twelve argument arrays the layers and the readout read: the node features, the batch
    vector, the layers' eight stacked parameter arrays, the readout's two -/
abbrev SameArgs (W' W : Valuation τ sig (Elt Ideal)) : Prop :=
  W' (Proc.devRef .tc main_arg0) = W (Proc.devRef .tc main_arg0)
  ∧ W' (Proc.devRef .tc main_arg2) = W (Proc.devRef .tc main_arg2)
  ∧ W' (Proc.devRef .tc main_arg3) = W (Proc.devRef .tc main_arg3)
  ∧ W' (Proc.devRef .tc main_arg4) = W (Proc.devRef .tc main_arg4)
  ∧ W' (Proc.devRef .tc main_arg5) = W (Proc.devRef .tc main_arg5)
  ∧ W' (Proc.devRef .tc main_arg6) = W (Proc.devRef .tc main_arg6)
  ∧ W' (Proc.devRef .tc main_arg7) = W (Proc.devRef .tc main_arg7)
  ∧ W' (Proc.devRef .tc main_arg8) = W (Proc.devRef .tc main_arg8)
  ∧ W' (Proc.devRef .tc main_arg9) = W (Proc.devRef .tc main_arg9)
  ∧ W' (Proc.devRef .tc main_arg10) = W (Proc.devRef .tc main_arg10)
  ∧ W' (Proc.devRef .tc main_arg11) = W (Proc.devRef .tc main_arg11)
  ∧ W' (Proc.devRef .tc main_arg12) = W (Proc.devRef .tc main_arg12)

theorem sameArgs_refl (W : Valuation τ sig (Elt Ideal)) : SameArgs W W :=
  ⟨rfl, rfl, rfl, rfl, rfl, rfl, rfl, rfl, rfl, rfl, rfl, rfl⟩

theorem sameArgs_trans {W'' W' W : Valuation τ sig (Elt Ideal)} (h : SameArgs W'' W') (k : SameArgs W' W) :
    SameArgs W'' W := by
  obtain ⟨a0, a2, a3, a4, a5, a6, a7, a8, a9, a10, a11, a12⟩ := h
  obtain ⟨b0, b2, b3, b4, b5, b6, b7, b8, b9, b10, b11, b12⟩ := k
  exact ⟨a0.trans b0, a2.trans b2, a3.trans b3, a4.trans b4, a5.trans b5, a6.trans b6, a7.trans b7, a8.trans b8,
    a9.trans b9, a10.trans b10, a11.trans b11, a12.trans b12⟩

/-- THE INDUCTION STEP. Contents that hold the launch's argument arrays: layer `l` read off them, along the launch's
    edge rows, applied to the features after `l` layers, is the features after `l + 1` layers. -/
theorem layer_step (c : Dev nD) (W : Valuation τ sig (Elt Ideal)) (l : Nat) (hl : l + 1 ≤ 5)
    (s d : IVec S400000 32) (f : GIN.Mat)
    (hargs : SameArgs W (W0 m ρ c)) (hs : s = srcE m c) (hd : d = dstE m c)
    (hf : f = FK m c l (Nat.le_of_succ_le hl)) :
    layerAt W ⟨l, hl⟩ s d f = FK m c (l + 1) hl := by
  obtain ⟨-, -, e3, e4, e5, e6, e7, e8, e9, e10, -, -⟩ := hargs
  subst hs hd hf
  dsimp only [layerAt]
  rw [e3, e4, e5, e6, e7, e8, e9, e10]
  exact (FK_succ m c l hl).symm

/-! ## What is given about each layer -/

/-- layer 0's value: the features after one layer, at boundary 6, are layer 0 read off the launch contents, the edge
    rows cut from the launch's edge list -/
abbrev HL0 : Prop := ∀ c : Dev nD, W6 m ρ c (Proc.devRef .tc main_v70)
  = layerAt (W0 m ρ c) 0 (KHost.src (W0 m ρ c (Proc.devRef .tc main_arg1))) (KHost.dst (W0 m ρ c (Proc.devRef .tc main_arg1)))
      (W0 m ρ c (Proc.devRef .tc main_arg0))
/-- layers 1 to 4: the features after `l + 1` layers, at boundary `6 l + 6`, are layer `l` read off boundary `6 l`'s
    contents, the edge rows and the features after `l` layers as that boundary holds them -/
abbrev HL1 : Prop := ∀ c : Dev nD, W12 m ρ c (Proc.devRef .tc main_v137)
  = layerAt (W6 m ρ c) 1 (W6 m ρ c (Proc.devRef .tc main_v1)) (W6 m ρ c (Proc.devRef .tc main_v3))
      (W6 m ρ c (Proc.devRef .tc main_v70))
abbrev HL2 : Prop := ∀ c : Dev nD, W18 m ρ c (Proc.devRef .tc main_v204)
  = layerAt (W12 m ρ c) 2 (W12 m ρ c (Proc.devRef .tc main_v1)) (W12 m ρ c (Proc.devRef .tc main_v3))
      (W12 m ρ c (Proc.devRef .tc main_v137))
abbrev HL3 : Prop := ∀ c : Dev nD, W24 m ρ c (Proc.devRef .tc main_v271)
  = layerAt (W18 m ρ c) 3 (W18 m ρ c (Proc.devRef .tc main_v1)) (W18 m ρ c (Proc.devRef .tc main_v3))
      (W18 m ρ c (Proc.devRef .tc main_v204))
abbrev HL4 : Prop := ∀ c : Dev nD, W30 m ρ c (Proc.devRef .tc main_v338)
  = layerAt (W24 m ρ c) 4 (W24 m ρ c (Proc.devRef .tc main_v1)) (W24 m ρ c (Proc.devRef .tc main_v3))
      (W24 m ρ c (Proc.devRef .tc main_v271))

/-- the edge rows at boundary 6: cut from the launch's edge list -/
abbrev HSrc : Prop := ∀ c : Dev nD, W6 m ρ c (Proc.devRef .tc main_v1) = KHost.src (m ((c : Thread nD τ).loc main_arg1))
abbrev HDst : Prop := ∀ c : Dev nD, W6 m ρ c (Proc.devRef .tc main_v3) = KHost.dst (m ((c : Thread nD τ).loc main_arg1))

/-- what layer 0 leaves in place: the argument arrays -/
abbrev HC0 : Prop := ∀ c : Dev nD, SameArgs (W6 m ρ c) (W0 m ρ c)
/-- what layers 1 to 3 leave in place: the argument arrays, the edge rows, the earlier layers' features -/
abbrev HC1 : Prop := ∀ c : Dev nD, SameArgs (W12 m ρ c) (W6 m ρ c)
  ∧ W12 m ρ c (Proc.devRef .tc main_v1) = W6 m ρ c (Proc.devRef .tc main_v1)
  ∧ W12 m ρ c (Proc.devRef .tc main_v3) = W6 m ρ c (Proc.devRef .tc main_v3)
  ∧ W12 m ρ c (Proc.devRef .tc main_v70) = W6 m ρ c (Proc.devRef .tc main_v70)
abbrev HC2 : Prop := ∀ c : Dev nD, SameArgs (W18 m ρ c) (W12 m ρ c)
  ∧ W18 m ρ c (Proc.devRef .tc main_v1) = W12 m ρ c (Proc.devRef .tc main_v1)
  ∧ W18 m ρ c (Proc.devRef .tc main_v3) = W12 m ρ c (Proc.devRef .tc main_v3)
  ∧ W18 m ρ c (Proc.devRef .tc main_v70) = W12 m ρ c (Proc.devRef .tc main_v70)
  ∧ W18 m ρ c (Proc.devRef .tc main_v137) = W12 m ρ c (Proc.devRef .tc main_v137)
abbrev HC3 : Prop := ∀ c : Dev nD, SameArgs (W24 m ρ c) (W18 m ρ c)
  ∧ W24 m ρ c (Proc.devRef .tc main_v1) = W18 m ρ c (Proc.devRef .tc main_v1)
  ∧ W24 m ρ c (Proc.devRef .tc main_v3) = W18 m ρ c (Proc.devRef .tc main_v3)
  ∧ W24 m ρ c (Proc.devRef .tc main_v70) = W18 m ρ c (Proc.devRef .tc main_v70)
  ∧ W24 m ρ c (Proc.devRef .tc main_v137) = W18 m ρ c (Proc.devRef .tc main_v137)
  ∧ W24 m ρ c (Proc.devRef .tc main_v204) = W18 m ρ c (Proc.devRef .tc main_v204)
/-- what layer 4 leaves in place: the argument arrays and the four earlier layers' features (no later layer reads the
    edge rows) -/
abbrev HC4 : Prop := ∀ c : Dev nD, SameArgs (W30 m ρ c) (W24 m ρ c)
  ∧ W30 m ρ c (Proc.devRef .tc main_v70) = W24 m ρ c (Proc.devRef .tc main_v70)
  ∧ W30 m ρ c (Proc.devRef .tc main_v137) = W24 m ρ c (Proc.devRef .tc main_v137)
  ∧ W30 m ρ c (Proc.devRef .tc main_v204) = W24 m ρ c (Proc.devRef .tc main_v204)
  ∧ W30 m ρ c (Proc.devRef .tc main_v271) = W24 m ρ c (Proc.devRef .tc main_v271)

/-! ## The boundaries, one layer at a time -/

/-- contents `W` hold the launch's argument arrays and the launch's edge rows -/
abbrev Ready (c : Dev nD) (W : Valuation τ sig (Elt Ideal)) : Prop :=
  SameArgs W (W0 m ρ c) ∧ W (Proc.devRef .tc main_v1) = srcE m c ∧ W (Proc.devRef .tc main_v3) = dstE m c

/-- what a layer leaves in place carries that from its entry boundary to its exit boundary -/
theorem ready_step (c : Dev nD) (W' W : Valuation τ sig (Elt Ideal)) (ha : SameArgs W' W)
    (h1 : W' (Proc.devRef .tc main_v1) = W (Proc.devRef .tc main_v1))
    (h3 : W' (Proc.devRef .tc main_v3) = W (Proc.devRef .tc main_v3)) (r : Ready m ρ c W) : Ready m ρ c W' := by
  obtain ⟨ra, r1, r3⟩ := r
  exact ⟨sameArgs_trans ha ra, h1.trans r1, h3.trans r3⟩

theorem ready6 (hc0 : HC0 m ρ) (hsrc : HSrc m ρ) (hdst : HDst m ρ) (c : Dev nD) : Ready m ρ c (W6 m ρ c) :=
  ⟨hc0 c, hsrc c, hdst c⟩

theorem ready12 (hc0 : HC0 m ρ) (hsrc : HSrc m ρ) (hdst : HDst m ρ) (hc1 : HC1 m ρ) (c : Dev nD) :
    Ready m ρ c (W12 m ρ c) := by
  obtain ⟨ha, h1, h3, -⟩ := hc1 c
  exact ready_step m ρ c _ _ ha h1 h3 (ready6 m ρ hc0 hsrc hdst c)

theorem ready18 (hc0 : HC0 m ρ) (hsrc : HSrc m ρ) (hdst : HDst m ρ) (hc1 : HC1 m ρ) (hc2 : HC2 m ρ) (c : Dev nD) :
    Ready m ρ c (W18 m ρ c) := by
  obtain ⟨ha, h1, h3, -⟩ := hc2 c
  exact ready_step m ρ c _ _ ha h1 h3 (ready12 m ρ hc0 hsrc hdst hc1 c)

theorem ready24 (hc0 : HC0 m ρ) (hsrc : HSrc m ρ) (hdst : HDst m ρ) (hc1 : HC1 m ρ) (hc2 : HC2 m ρ) (hc3 : HC3 m ρ)
    (c : Dev nD) : Ready m ρ c (W24 m ρ c) := by
  obtain ⟨ha, h1, h3, -⟩ := hc3 c
  exact ready_step m ρ c _ _ ha h1 h3 (ready18 m ρ hc0 hsrc hdst hc1 hc2 c)

/-- the features after one layer, where layer 0 leaves them -/
theorem feat1 (hL0 : HL0 m ρ) (c : Dev nD) : W6 m ρ c (Proc.devRef .tc main_v70) = FK m c 1 (by decide) :=
  (hL0 c).trans (layer_step m ρ c (W0 m ρ c) 0 (by decide) _ _ _ (sameArgs_refl _) rfl rfl rfl)

/-- the features after two layers, where layer 1 leaves them -/
theorem feat2 (hL0 : HL0 m ρ) (hc0 : HC0 m ρ) (hsrc : HSrc m ρ) (hdst : HDst m ρ) (hL1 : HL1 m ρ) (c : Dev nD) :
    W12 m ρ c (Proc.devRef .tc main_v137) = FK m c 2 (by decide) := by
  obtain ⟨ra, r1, r3⟩ := ready6 m ρ hc0 hsrc hdst c
  exact (hL1 c).trans (layer_step m ρ c (W6 m ρ c) 1 (by decide) _ _ _ ra r1 r3 (feat1 m ρ hL0 c))

/-- the features after three layers, where layer 2 leaves them -/
theorem feat3 (hL0 : HL0 m ρ) (hc0 : HC0 m ρ) (hsrc : HSrc m ρ) (hdst : HDst m ρ) (hL1 : HL1 m ρ) (hc1 : HC1 m ρ)
    (hL2 : HL2 m ρ) (c : Dev nD) : W18 m ρ c (Proc.devRef .tc main_v204) = FK m c 3 (by decide) := by
  obtain ⟨ra, r1, r3⟩ := ready12 m ρ hc0 hsrc hdst hc1 c
  exact (hL2 c).trans (layer_step m ρ c (W12 m ρ c) 2 (by decide) _ _ _ ra r1 r3 (feat2 m ρ hL0 hc0 hsrc hdst hL1 c))

/-- the features after four layers, where layer 3 leaves them -/
theorem feat4 (hL0 : HL0 m ρ) (hc0 : HC0 m ρ) (hsrc : HSrc m ρ) (hdst : HDst m ρ) (hL1 : HL1 m ρ) (hc1 : HC1 m ρ)
    (hL2 : HL2 m ρ) (hc2 : HC2 m ρ) (hL3 : HL3 m ρ) (c : Dev nD) :
    W24 m ρ c (Proc.devRef .tc main_v271) = FK m c 4 (by decide) := by
  obtain ⟨ra, r1, r3⟩ := ready18 m ρ hc0 hsrc hdst hc1 hc2 c
  exact (hL3 c).trans
    (layer_step m ρ c (W18 m ρ c) 3 (by decide) _ _ _ ra r1 r3 (feat3 m ρ hL0 hc0 hsrc hdst hL1 hc1 hL2 c))

/-- the features after five layers, where layer 4 leaves them -/
theorem feat5 (hL0 : HL0 m ρ) (hc0 : HC0 m ρ) (hsrc : HSrc m ρ) (hdst : HDst m ρ) (hL1 : HL1 m ρ) (hc1 : HC1 m ρ)
    (hL2 : HL2 m ρ) (hc2 : HC2 m ρ) (hL3 : HL3 m ρ) (hc3 : HC3 m ρ) (hL4 : HL4 m ρ) (c : Dev nD) :
    W30 m ρ c (Proc.devRef .tc main_v338) = FK m c 5 (by decide) := by
  obtain ⟨ra, r1, r3⟩ := ready24 m ρ hc0 hsrc hdst hc1 hc2 hc3 c
  exact (hL4 c).trans
    (layer_step m ρ c (W24 m ρ c) 4 (by decide) _ _ _ ra r1 r3 (feat4 m ρ hL0 hc0 hsrc hdst hL1 hc1 hL2 hc2 hL3 c))

/-! ## The result -/

/-- THE KERNEL'S RESULT: the readout of the launch's node features and of the features after one to five of the
    kernel's layers, along the launch's batch vector, with the launch's readout parameters. Each feature buffer is read
    at the last boundary, where it still holds what its layer left; so are the four argument arrays. -/
theorem out_eq (hL0 : HL0 m ρ) (hc0 : HC0 m ρ) (hsrc : HSrc m ρ) (hdst : HDst m ρ) (hL1 : HL1 m ρ) (hc1 : HC1 m ρ)
    (hL2 : HL2 m ρ) (hc2 : HC2 m ρ) (hL3 : HL3 m ρ) (hc3 : HC3 m ρ) (hL4 : HL4 m ρ) (hc4 : HC4 m ρ) (c : Dev nD) :
    W31 m ρ c (Proc.devRef .tc main_v437)
      = Readout.ROK (X m c) (FK m c 1 (by decide)) (FK m c 2 (by decide)) (FK m c 3 (by decide)) (FK m c 4 (by decide))
          (FK m c 5 (by decide)) (m ((c : Thread nD τ).loc main_arg2)) (m ((c : Thread nD τ).loc main_arg11))
          (m ((c : Thread nD τ).loc main_arg12)) := by
  obtain ⟨a4, g70, g137, g204, g271⟩ := hc4 c
  obtain ⟨-, -, -, f70, f137, f204⟩ := hc3 c
  obtain ⟨-, -, -, e70, e137⟩ := hc2 c
  obtain ⟨-, -, -, d70⟩ := hc1 c
  obtain ⟨r24, -, -⟩ := ready24 m ρ hc0 hsrc hdst hc1 hc2 hc3 c
  obtain ⟨e0, e2, -, -, -, -, -, -, -, -, e11, e12⟩ := sameArgs_trans a4 r24
  have k0 : W30 m ρ c (Proc.devRef .tc main_arg0) = X m c := e0
  have k2 : W30 m ρ c (Proc.devRef .tc main_arg2) = m ((c : Thread nD τ).loc main_arg2) := e2
  have k11 : W30 m ρ c (Proc.devRef .tc main_arg11) = m ((c : Thread nD τ).loc main_arg11) := e11
  have k12 : W30 m ρ c (Proc.devRef .tc main_arg12) = m ((c : Thread nD τ).loc main_arg12) := e12
  have h1 : W30 m ρ c (Proc.devRef .tc main_v70) = FK m c 1 (by decide) :=
    g70.trans (f70.trans (e70.trans (d70.trans (feat1 m ρ hL0 c))))
  have h2 : W30 m ρ c (Proc.devRef .tc main_v137) = FK m c 2 (by decide) :=
    g137.trans (f137.trans (e137.trans (feat2 m ρ hL0 hc0 hsrc hdst hL1 c)))
  have h3 : W30 m ρ c (Proc.devRef .tc main_v204) = FK m c 3 (by decide) :=
    g204.trans (f204.trans (feat3 m ρ hL0 hc0 hsrc hdst hL1 hc1 hL2 c))
  have h4 : W30 m ρ c (Proc.devRef .tc main_v271) = FK m c 4 (by decide) :=
    g271.trans (feat4 m ρ hL0 hc0 hsrc hdst hL1 hc1 hL2 hc2 hL3 c)
  have h5 : W30 m ρ c (Proc.devRef .tc main_v338) = FK m c 5 (by decide) :=
    feat5 m ρ hL0 hc0 hsrc hdst hL1 hc1 hL2 hc2 hL3 hc3 hL4 c
  calc W31 m ρ c (Proc.devRef .tc main_v437)
      = Readout.ROK (W30 m ρ c (Proc.devRef .tc main_arg0)) (W30 m ρ c (Proc.devRef .tc main_v70))
          (W30 m ρ c (Proc.devRef .tc main_v137)) (W30 m ρ c (Proc.devRef .tc main_v204))
          (W30 m ρ c (Proc.devRef .tc main_v271)) (W30 m ρ c (Proc.devRef .tc main_v338))
          (W30 m ρ c (Proc.devRef .tc main_arg2)) (W30 m ρ c (Proc.devRef .tc main_arg11))
          (W30 m ρ c (Proc.devRef .tc main_arg12)) := Readout.after_hostOps15 (W30 m ρ c)
    _ = _ := by rw [k0, k2, k11, k12, h1, h2, h3, h4, h5]

end Cert.KernelIdeal.KValue

end
-- ==== Proof.KAll.lean ====
/-
  The kernel program's result as a function of the launch memory, with nothing left to assume.

  Each of the fifteen regions leaves in its output arrays the index-level function of the arrays it finds: a layer's
  first region the affine map of features plus aggregate with the tiles' partial sums of the result and of its square,
  the second region the same of the normalised and clamped first result, the third region the second normalisation
  clamped at zero. Given these, each layer's output buffer holds the layer function of what the boundary before the
  layer holds, and the layer leaves in place every array a later layer or the readout reads. The edge rows are cut
  from the launch's edge list by the first stretch. Walking the boundaries back to the launch, the result is the
  readout of the launch's node features and of the features after one to five layers.
-/
import proofs.«144515_j12352325943894_2_alg».proof.Proof.KRegA
import proofs.«144515_j12352325943894_2_alg».proof.Proof.KRegB
import proofs.«144515_j12352325943894_2_alg».proof.Proof.KRegC
import proofs.«144515_j12352325943894_2_alg».proof.Proof.KRegA3
import proofs.«144515_j12352325943894_2_alg».proof.Proof.KRegB4
import proofs.«144515_j12352325943894_2_alg».proof.Proof.KRegC5
import proofs.«144515_j12352325943894_2_alg».proof.Proof.KRegA6
import proofs.«144515_j12352325943894_2_alg».proof.Proof.KRegB7
import proofs.«144515_j12352325943894_2_alg».proof.Proof.KRegC8
import proofs.«144515_j12352325943894_2_alg».proof.Proof.KRegA9
import proofs.«144515_j12352325943894_2_alg».proof.Proof.KRegB10
import proofs.«144515_j12352325943894_2_alg».proof.Proof.KRegC11
import proofs.«144515_j12352325943894_2_alg».proof.Proof.KRegA12
import proofs.«144515_j12352325943894_2_alg».proof.Proof.KRegB13
import proofs.«144515_j12352325943894_2_alg».proof.Proof.KRegC14
import proofs.«144515_j12352325943894_2_alg».proof.Proof.KLayer0
import proofs.«144515_j12352325943894_2_alg».proof.Proof.KLayer1
import proofs.«144515_j12352325943894_2_alg».proof.Proof.KLayer2
import proofs.«144515_j12352325943894_2_alg».proof.Proof.KLayer3
import proofs.«144515_j12352325943894_2_alg».proof.Proof.KLayer4
import proofs.«144515_j12352325943894_2_alg».proof.Proof.KValue

noncomputable section

namespace Cert.KernelIdeal.KAll

open Cert.KernelIdeal Cert.KernelIdeal.Gen
open Idealize.ShloMosaic Idealize.ShloMosaic.TcCoe Idealize.ShloMosaic.ValueIdx Idealize.SL.Sem

/-- the contents a region finds: every core's buffer at every TensorCore reference -/
abbrev Found : Type := (c : Dev nD) → (b : Ref sig .tc) → Buf (Elt Ideal) ((c : Thread nD τ).loc b)

/-! ## What the regions leave, layer by layer -/

/-- layer 0's first region leaves the affine result of features plus aggregate and its tiles' partial sums -/
theorem hA0 (V : Found) (c : Dev nD) :
    (dat0 V c).arrAt 4 cfg0.N = KLayer0.ZA V c ∧ (dat0 V c).arrAt 5 cfg0.N = GIN.tileSum (KLayer0.ZA V c)
      ∧ (dat0 V c).arrAt 6 cfg0.N = GIN.tileSumSq (KLayer0.ZA V c) :=
  ⟨Reg0.z_final V c, Reg0.s_final V c, Reg0.q_final V c⟩

/-- layer 0's second region leaves the second affine result and its tiles' partial sums -/
theorem hB0 (V : Found) (c : Dev nD) :
    (dat1 V c).arrAt 7 cfg1.N = KLayer0.ZB V c ∧ (dat1 V c).arrAt 8 cfg1.N = GIN.tileSum (KLayer0.ZB V c)
      ∧ (dat1 V c).arrAt 9 cfg1.N = GIN.tileSumSq (KLayer0.ZB V c) :=
  ⟨Reg1.z_final V c, Reg1.s_final V c, Reg1.q_final V c⟩

/-- layer 0's third region leaves the normalised array clamped at zero -/
theorem hC0 (V : Found) (c : Dev nD) :
    (dat2 V c).arrAt 5 cfg2.N
      = GIN.bnrelu (V c (Pipeline.arrRef spec2 0)) (fun j : GIN.SD.Idx => V c (Pipeline.arrRef spec2 1) (ix2 0 (j 0)))
          (fun j : GIN.SD.Idx => V c (Pipeline.arrRef spec2 2) (ix2 0 (j 0))) (fun j : GIN.SD.Idx => V c (Pipeline.arrRef spec2 3) (ix2 0 (j 0)))
          (fun j : GIN.SD.Idx => V c (Pipeline.arrRef spec2 4) (ix2 0 (j 0))) :=
  Reg2.h_final V c

/-- layer 1's first region leaves the affine result of features plus aggregate and its tiles' partial sums -/
theorem hA1 (V : Found) (c : Dev nD) :
    (dat3 V c).arrAt 4 cfg3.N = KLayer1.ZA V c ∧ (dat3 V c).arrAt 5 cfg3.N = GIN.tileSum (KLayer1.ZA V c)
      ∧ (dat3 V c).arrAt 6 cfg3.N = GIN.tileSumSq (KLayer1.ZA V c) :=
  ⟨Reg3.z_final V c, Reg3.s_final V c, Reg3.q_final V c⟩

/-- layer 1's second region leaves the second affine result and its tiles' partial sums -/
theorem hB1 (V : Found) (c : Dev nD) :
    (dat4 V c).arrAt 7 cfg4.N = KLayer1.ZB V c ∧ (dat4 V c).arrAt 8 cfg4.N = GIN.tileSum (KLayer1.ZB V c)
      ∧ (dat4 V c).arrAt 9 cfg4.N = GIN.tileSumSq (KLayer1.ZB V c) :=
  ⟨Reg4.z_final V c, Reg4.s_final V c, Reg4.q_final V c⟩

/-- layer 1's third region leaves the normalised array clamped at zero -/
theorem hC1 (V : Found) (c : Dev nD) :
    (dat5 V c).arrAt 5 cfg5.N
      = GIN.bnrelu (V c (Pipeline.arrRef spec5 0)) (fun j : GIN.SD.Idx => V c (Pipeline.arrRef spec5 1) (ix2 0 (j 0)))
          (fun j : GIN.SD.Idx => V c (Pipeline.arrRef spec5 2) (ix2 0 (j 0))) (fun j : GIN.SD.Idx => V c (Pipeline.arrRef spec5 3) (ix2 0 (j 0)))
          (fun j : GIN.SD.Idx => V c (Pipeline.arrRef spec5 4) (ix2 0 (j 0))) :=
  Reg5.h_final V c

/-- layer 2's first region leaves the affine result of features plus aggregate and its tiles' partial sums -/
theorem hA2 (V : Found) (c : Dev nD) :
    (dat6 V c).arrAt 4 cfg6.N = KLayer2.ZA V c ∧ (dat6 V c).arrAt 5 cfg6.N = GIN.tileSum (KLayer2.ZA V c)
      ∧ (dat6 V c).arrAt 6 cfg6.N = GIN.tileSumSq (KLayer2.ZA V c) :=
  ⟨Reg6.z_final V c, Reg6.s_final V c, Reg6.q_final V c⟩

/-- layer 2's second region leaves the second affine result and its tiles' partial sums -/
theorem hB2 (V : Found) (c : Dev nD) :
    (dat7 V c).arrAt 7 cfg7.N = KLayer2.ZB V c ∧ (dat7 V c).arrAt 8 cfg7.N = GIN.tileSum (KLayer2.ZB V c)
      ∧ (dat7 V c).arrAt 9 cfg7.N = GIN.tileSumSq (KLayer2.ZB V c) :=
  ⟨Reg7.z_final V c, Reg7.s_final V c, Reg7.q_final V c⟩

/-- layer 2's third region leaves the normalised array clamped at zero -/
theorem hC2 (V : Found) (c : Dev nD) :
    (dat8 V c).arrAt 5 cfg8.N
      = GIN.bnrelu (V c (Pipeline.arrRef spec8 0)) (fun j : GIN.SD.Idx => V c (Pipeline.arrRef spec8 1) (ix2 0 (j 0)))
          (fun j : GIN.SD.Idx => V c (Pipeline.arrRef spec8 2) (ix2 0 (j 0))) (fun j : GIN.SD.Idx => V c (Pipeline.arrRef spec8 3) (ix2 0 (j 0)))
          (fun j : GIN.SD.Idx => V c (Pipeline.arrRef spec8 4) (ix2 0 (j 0))) :=
  Reg8.h_final V c

/-- layer 3's first region leaves the affine result of features plus aggregate and its tiles' partial sums -/
theorem hA3 (V : Found) (c : Dev nD) :
    (dat9 V c).arrAt 4 cfg9.N = KLayer3.ZA V c ∧ (dat9 V c).arrAt 5 cfg9.N = GIN.tileSum (KLayer3.ZA V c)
      ∧ (dat9 V c).arrAt 6 cfg9.N = GIN.tileSumSq (KLayer3.ZA V c) :=
  ⟨Reg9.z_final V c, Reg9.s_final V c, Reg9.q_final V c⟩

/-- layer 3's second region leaves the second affine result and its tiles' partial sums -/
theorem hB3 (V : Found) (c : Dev nD) :
    (dat10 V c).arrAt 7 cfg10.N = KLayer3.ZB V c ∧ (dat10 V c).arrAt 8 cfg10.N = GIN.tileSum (KLayer3.ZB V c)
      ∧ (dat10 V c).arrAt 9 cfg10.N = GIN.tileSumSq (KLayer3.ZB V c) :=
  ⟨Reg10.z_final V c, Reg10.s_final V c, Reg10.q_final V c⟩

/-- layer 3's third region leaves the normalised array clamped at zero -/
theorem hC3 (V : Found) (c : Dev nD) :
    (dat11 V c).arrAt 5 cfg11.N
      = GIN.bnrelu (V c (Pipeline.arrRef spec11 0)) (fun j : GIN.SD.Idx => V c (Pipeline.arrRef spec11 1) (ix2 0 (j 0)))
          (fun j : GIN.SD.Idx => V c (Pipeline.arrRef spec11 2) (ix2 0 (j 0))) (fun j : GIN.SD.Idx => V c (Pipeline.arrRef spec11 3) (ix2 0 (j 0)))
          (fun j : GIN.SD.Idx => V c (Pipeline.arrRef spec11 4) (ix2 0 (j 0))) :=
  Reg11.h_final V c

/-- layer 4's first region leaves the affine result of features plus aggregate and its tiles' partial sums -/
theorem hA4 (V : Found) (c : Dev nD) :
    (dat12 V c).arrAt 4 cfg12.N = KLayer4.ZA V c ∧ (dat12 V c).arrAt 5 cfg12.N = GIN.tileSum (KLayer4.ZA V c)
      ∧ (dat12 V c).arrAt 6 cfg12.N = GIN.tileSumSq (KLayer4.ZA V c) :=
  ⟨Reg12.z_final V c, Reg12.s_final V c, Reg12.q_final V c⟩

/-- layer 4's second region leaves the second affine result and its tiles' partial sums -/
theorem hB4 (V : Found) (c : Dev nD) :
    (dat13 V c).arrAt 7 cfg13.N = KLayer4.ZB V c ∧ (dat13 V c).arrAt 8 cfg13.N = GIN.tileSum (KLayer4.ZB V c)
      ∧ (dat13 V c).arrAt 9 cfg13.N = GIN.tileSumSq (KLayer4.ZB V c) :=
  ⟨Reg13.z_final V c, Reg13.s_final V c, Reg13.q_final V c⟩

/-- layer 4's third region leaves the normalised array clamped at zero -/
theorem hC4 (V : Found) (c : Dev nD) :
    (dat14 V c).arrAt 5 cfg14.N
      = GIN.bnrelu (V c (Pipeline.arrRef spec14 0)) (fun j : GIN.SD.Idx => V c (Pipeline.arrRef spec14 1) (ix2 0 (j 0)))
          (fun j : GIN.SD.Idx => V c (Pipeline.arrRef spec14 2) (ix2 0 (j 0))) (fun j : GIN.SD.Idx => V c (Pipeline.arrRef spec14 3) (ix2 0 (j 0)))
          (fun j : GIN.SD.Idx => V c (Pipeline.arrRef spec14 4) (ix2 0 (j 0))) :=
  Reg14.h_final V c

/-! ## The layers' values and what they leave in place -/

variable (m : (ℓ : Loc nD τ sig) → Buf (Elt Ideal) ℓ) (ρ : Dev nD → PrngReg)

/-- layer 0's output buffer, at the boundary after the layer, holds the layer function of what the boundary before it holds -/
theorem layer0 : KValue.HL0 m ρ := fun c => KLayer0.layer_value m ρ c hA0 hB0 hC0

/-- layer 1's output buffer, at the boundary after the layer, holds the layer function of what the boundary before it holds -/
theorem layer1 : KValue.HL1 m ρ := fun c => KLayer1.layer_value m ρ c hA1 hB1 hC1

/-- layer 2's output buffer, at the boundary after the layer, holds the layer function of what the boundary before it holds -/
theorem layer2 : KValue.HL2 m ρ := fun c => KLayer2.layer_value m ρ c hA2 hB2 hC2

/-- layer 3's output buffer, at the boundary after the layer, holds the layer function of what the boundary before it holds -/
theorem layer3 : KValue.HL3 m ρ := fun c => KLayer3.layer_value m ρ c hA3 hB3 hC3

/-- layer 4's output buffer, at the boundary after the layer, holds the layer function of what the boundary before it holds -/
theorem layer4 : KValue.HL4 m ρ := fun c => KLayer4.layer_value m ρ c hA4 hB4 hC4

/-- layer 0 leaves the argument arrays in place -/
theorem kept0 : KValue.HC0 m ρ := fun c =>
  ⟨KLayer0.carry_main_arg0 m ρ c,
      KLayer0.carry_main_arg2 m ρ c,
      KLayer0.carry_main_arg3 m ρ c,
      KLayer0.carry_main_arg4 m ρ c,
      KLayer0.carry_main_arg5 m ρ c,
      KLayer0.carry_main_arg6 m ρ c,
      KLayer0.carry_main_arg7 m ρ c,
      KLayer0.carry_main_arg8 m ρ c,
      KLayer0.carry_main_arg9 m ρ c,
      KLayer0.carry_main_arg10 m ρ c,
      KLayer0.carry_main_arg11 m ρ c,
      KLayer0.carry_main_arg12 m ρ c⟩

/-- layer 1 leaves the argument arrays, the edge rows and the earlier layers' features in place -/
theorem kept1 : KValue.HC1 m ρ := fun c =>
  ⟨⟨KLayer1.carry_main_arg0 m ρ c,
      KLayer1.carry_main_arg2 m ρ c,
      KLayer1.carry_main_arg3 m ρ c,
      KLayer1.carry_main_arg4 m ρ c,
      KLayer1.carry_main_arg5 m ρ c,
      KLayer1.carry_main_arg6 m ρ c,
      KLayer1.carry_main_arg7 m ρ c,
      KLayer1.carry_main_arg8 m ρ c,
      KLayer1.carry_main_arg9 m ρ c,
      KLayer1.carry_main_arg10 m ρ c,
      KLayer1.carry_main_arg11 m ρ c,
      KLayer1.carry_main_arg12 m ρ c⟩,
    KLayer1.carry_main_v1 m ρ c, KLayer1.carry_main_v3 m ρ c, KLayer1.carry_hin m ρ c⟩

/-- layer 2 leaves the argument arrays, the edge rows and the earlier layers' features in place -/
theorem kept2 : KValue.HC2 m ρ := fun c =>
  ⟨⟨KLayer2.carry_main_arg0 m ρ c,
      KLayer2.carry_main_arg2 m ρ c,
      KLayer2.carry_main_arg3 m ρ c,
      KLayer2.carry_main_arg4 m ρ c,
      KLayer2.carry_main_arg5 m ρ c,
      KLayer2.carry_main_arg6 m ρ c,
      KLayer2.carry_main_arg7 m ρ c,
      KLayer2.carry_main_arg8 m ρ c,
      KLayer2.carry_main_arg9 m ρ c,
      KLayer2.carry_main_arg10 m ρ c,
      KLayer2.carry_main_arg11 m ρ c,
      KLayer2.carry_main_arg12 m ρ c⟩,
    KLayer2.carry_main_v1 m ρ c, KLayer2.carry_main_v3 m ρ c, KLayer2.carry_main_v70 m ρ c, KLayer2.carry_hin m ρ c⟩

/-- layer 3 leaves the argument arrays, the edge rows and the earlier layers' features in place -/
theorem kept3 : KValue.HC3 m ρ := fun c =>
  ⟨⟨KLayer3.carry_main_arg0 m ρ c,
      KLayer3.carry_main_arg2 m ρ c,
      KLayer3.carry_main_arg3 m ρ c,
      KLayer3.carry_main_arg4 m ρ c,
      KLayer3.carry_main_arg5 m ρ c,
      KLayer3.carry_main_arg6 m ρ c,
      KLayer3.carry_main_arg7 m ρ c,
      KLayer3.carry_main_arg8 m ρ c,
      KLayer3.carry_main_arg9 m ρ c,
      KLayer3.carry_main_arg10 m ρ c,
      KLayer3.carry_main_arg11 m ρ c,
      KLayer3.carry_main_arg12 m ρ c⟩,
    KLayer3.carry_main_v1 m ρ c, KLayer3.carry_main_v3 m ρ c, KLayer3.carry_main_v70 m ρ c, KLayer3.carry_main_v137 m ρ c, KLayer3.carry_hin m ρ c⟩

/-- layer 4 leaves the argument arrays and the earlier layers' features in place -/
theorem kept4 : KValue.HC4 m ρ := fun c =>
  ⟨⟨KLayer4.carry_main_arg0 m ρ c,
      KLayer4.carry_main_arg2 m ρ c,
      KLayer4.carry_main_arg3 m ρ c,
      KLayer4.carry_main_arg4 m ρ c,
      KLayer4.carry_main_arg5 m ρ c,
      KLayer4.carry_main_arg6 m ρ c,
      KLayer4.carry_main_arg7 m ρ c,
      KLayer4.carry_main_arg8 m ρ c,
      KLayer4.carry_main_arg9 m ρ c,
      KLayer4.carry_main_arg10 m ρ c,
      KLayer4.carry_main_arg11 m ρ c,
      KLayer4.carry_main_arg12 m ρ c⟩,
    KLayer4.carry_main_v70 m ρ c, KLayer4.carry_main_v137 m ρ c, KLayer4.carry_main_v204 m ρ c, KLayer4.carry_hin m ρ c⟩

/-- the edges' first ends at the boundary after layer 0: row 0 of the launch's edge list, flattened (the launch
    contents at a reference are the launch memory there) -/
theorem srcRow : KValue.HSrc m ρ := fun c => KLayer0.src_at6 m ρ c

/-- the edges' second ends likewise: row 1 of the launch's edge list -/
theorem dstRow : KValue.HDst m ρ := fun c => KLayer0.dst_at6 m ρ c

/-! ## The result -/

/-- THE KERNEL'S RESULT: the readout of the launch's node features and of the features after one to five of the
    kernel's layers, along the launch's batch vector, with the launch's readout parameters. -/
theorem value (c : Dev nD) :
    W31 m ρ c (Proc.devRef .tc main_v437)
      = Readout.ROK (KValue.X m c) (KValue.FK m c 1 (by decide)) (KValue.FK m c 2 (by decide)) (KValue.FK m c 3 (by decide))
          (KValue.FK m c 4 (by decide)) (KValue.FK m c 5 (by decide)) (m ((c : Thread nD τ).loc main_arg2))
          (m ((c : Thread nD τ).loc main_arg11)) (m ((c : Thread nD τ).loc main_arg12)) :=
  KValue.out_eq m ρ (layer0 m ρ) (kept0 m ρ) (srcRow m ρ) (dstRow m ρ) (layer1 m ρ) (kept1 m ρ) (layer2 m ρ) (kept2 m ρ)
    (layer3 m ρ) (kept3 m ρ) (layer4 m ρ) (kept4 m ρ) c

end Cert.KernelIdeal.KAll

end
-- ==== Proof.RefRun.Ops.lean ====
/- The reference's @main as lists of its host operations, in program order, each call's operations listed at the
   call over the call's record of buffers (the callee's body with its arguments and record substituted). The
   whole line `ops` is cut where the computation is: the two index rows of the edge list; per layer its two
   halves (aggregation, first linear map, batch statistics, normalisation, relu; then the second linear map
   with its statistics, normalisation, relu); the per-graph counts; one readout term per layer's features. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

/-- The source and target rows of the edge list (main_v1, main_v3). 4 operations. -/
abbrev opsPre : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000 ]

/-- Layer 0, first half: neighbour sum added to the features, linear map, batch normalisation, relu. 73 operations. -/
abbrev opsL0a : List (HloOp τ sig (Elt F)) :=
  [ StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst (constant S_ .f32 0x00000000#32),
    StableHlo.unary main_cst main_v11 (broadcastInDim S50000x300 ![] bcast_S_S50000x300 : (⟨S_, .f32⟩ : BufTy).Contents (Elt F) → (⟨S50000x300, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_arg0 main_v13 main_v14 (addf : (⟨S50000x300, .f32⟩ : BufTy).Contents (Elt F) → (⟨S50000x300, .f32⟩ : BufTy).Contents (Elt F) → (⟨S50000x300, .f32⟩ : BufTy).Contents (Elt F)),
    StableHlo.unary main_arg3 main_v15 ((extractStridedSlice S1x300x300 ![0, 0, 0] · slices_S5x300x300_S1x300x300_0_0_0) : (⟨S5x300x300, .f32⟩ : BufTy).Contents (Elt F) → (⟨S1x300x300, .f32⟩ : BufTy).Contents (Elt F)),
    StableHlo.reshape main_v15 main_v16 rfl shapeCasts_S1x300x300_S300x300,
    StableHlo.binary main_v14 main_v16 main_v17 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v18 ((extractStridedSlice S1x300 ![0, 0] · slices_S5x300_S1x300_0_0) : (⟨S5x300, .f32⟩ : BufTy).Contents (Elt F) → (⟨S1x300, .f32⟩ : BufTy).Contents (Elt F)),
    StableHlo.reshape main_v18 main_v19 rfl shapeCasts_S1x300_S300,
    StableHlo.unary main_v19 main_v20 (broadcastInDim S1x300 ![1] bcast_S300_S1x300_1 : (⟨S300, .f32⟩ : BufTy).Contents (Elt F) → (⟨S1x300, .f32⟩ : BufTy).Contents (Elt F)),
    StableHlo.unary main_v20 main_v21 (broadcastInDim S50000x300 ![0, 1] bcast_S1x300_S50000x300_0_1 : (⟨S1x300, .f32⟩ : BufTy).Contents (Elt F) → (⟨S50000x300, .f32⟩ : BufTy).Contents (Elt F)),
    StableHlo.binary main_v17 main_v21 main_v22 (addf : (⟨S50000x300, .f32⟩ : BufTy).Contents (Elt F) → (⟨S50000x300, .f32⟩ : BufTy).Contents (Elt F) → (⟨S50000x300, .f32⟩ : BufTy).Contents (Elt F)),
    StableHlo.unary main_arg5 main_v23 ((extractStridedSlice S1x300 ![0, 0] · slices_S5x300_S1x300_0_0) : (⟨S5x300, .f32⟩ : BufTy).Contents (Elt F) → (⟨S1x300, .f32⟩ : BufTy).Contents (Elt F)),
    StableHlo.reshape main_v23 main_v24 rfl shapeCasts_S1x300_S300,
    StableHlo.unary main_arg6 main_v25 ((extractStridedSlice S1x300 ![0, 0] · slices_S5x300_S1x300_0_0) : (⟨S5x300, .f32⟩ : BufTy).Contents (Elt F) → (⟨S1x300, .f32⟩ : BufTy).Contents (Elt F)),
    StableHlo.reshape main_v25 main_v26 rfl shapeCasts_S1x300_S300,
    StableHlo.nullary main_cst_1 (constant S_ .f32 0x00000000#32),
    StableHlo.binary main_v22 main_cst_1 main_v27 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_2 (constant S_ .f32 0x47435000#32),
    StableHlo.unary main_cst_2 main_v28 (broadcastInDim S300 ![] bcast_S_S300 : (⟨S_, .f32⟩ : BufTy).Contents (Elt F) → (⟨S300, .f32⟩ : BufTy).Contents (Elt F)),
    StableHlo.binary main_v27 main_v28 main_v29 (Host.divf : (⟨S300, .f32⟩ : BufTy).Contents (Elt F) → (⟨S300, .f32⟩ : BufTy).Contents (Elt F) → (⟨S300, .f32⟩ : BufTy).Contents (Elt F)),
    StableHlo.nullary main_c_3 (constantI S_ 32 0#32),
    StableHlo.TRef.nullary main_call0.cst (constant S_ .f32 0x00000000#32),
    StableHlo.TRef.binary (StableHlo.TRef.of main_v22 : StableHlo.TRef sig ⟨S50000x300, .f32⟩) main_call0.cst main_call0.v0 (fun x v => Host.reduceAdd x v reducesTo_S50000x300_S300_d0 h_S_),
    StableHlo.TRef.unary main_call0.v0 main_call0.v1 (broadcastInDim S1x300 ![1] bcast_S300_S1x300_1),
    StableHlo.TRef.nullary main_call0.cst_0 (constant S_ .f32 0x47435000#32),
    StableHlo.TRef.unary main_call0.cst_0 main_call0.v2 (broadcastInDim S1x300 ![] bcast_S_S1x300),
    StableHlo.TRef.binary main_call0.v1 main_call0.v2 main_call0.v3 Host.divf,
    StableHlo.TRef.unary main_call0.v3 main_call0.v4 (broadcastInDim S50000x300 ![0, 1] bcast_S1x300_S50000x300_0_1),
    StableHlo.TRef.binary (StableHlo.TRef.of main_v22 : StableHlo.TRef sig ⟨S50000x300, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x300_S300_d0 h_S_),
    StableHlo.TRef.unary main_call0.v8 main_call0.v10 (broadcastInDim S300 ![] bcast_S_S300),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S300 ![] bcast_S_S300),
    StableHlo.TRef.ternary main_call0.v12 main_call0.v11 main_call0.call0.v1 main_call0.call0.v2 (fun p a b => select (broadcastInDim S300 ![] bcast_S_S300 p) a b),
    StableHlo.unary main_v29 main_v31 (broadcastInDim S1x300 ![1] bcast_S300_S1x300_1 : (⟨S300, .f32⟩ : BufTy).Contents (Elt F) → (⟨S1x300, .f32⟩ : BufTy).Contents (Elt F)),
    StableHlo.unary main_v31 main_v32 (broadcastInDim S50000x300 ![0, 1] bcast_S1x300_S50000x300_0_1 : (⟨S1x300, .f32⟩ : BufTy).Contents (Elt F) → (⟨S50000x300, .f32⟩ : BufTy).Contents (Elt F)),
    StableHlo.binary main_v22 main_v32 main_v33 (subf : (⟨S50000x300, .f32⟩ : BufTy).Contents (Elt F) → (⟨S50000x300, .f32⟩ : BufTy).Contents (Elt F) → (⟨S50000x300, .f32⟩ : BufTy).Contents (Elt F)),
    StableHlo.nullary main_cst_4 (constant S_ .f32 0x3727C5AC#32),
    StableHlo.unary main_cst_4 main_v34 (broadcastInDim S300 ![] bcast_S_S300 : (⟨S_, .f32⟩ : BufTy).Contents (Elt F) → (⟨S300, .f32⟩ : BufTy).Contents (Elt F)),
    StableHlo.binary main_v30 main_v34 main_v35 (addf : (⟨S300, .f32⟩ : BufTy).Contents (Elt F) → (⟨S300, .f32⟩ : BufTy).Contents (Elt F) → (⟨S300, .f32⟩ : BufTy).Contents (Elt F)),
    StableHlo.unary main_v35 main_v36 (Host.rsqrt : (⟨S300, .f32⟩ : BufTy).Contents (Elt F) → (⟨S300, .f32⟩ : BufTy).Contents (Elt F)),
    StableHlo.unary main_v36 main_v37 (broadcastInDim S1x300 ![1] bcast_S300_S1x300_1 : (⟨S300, .f32⟩ : BufTy).Contents (Elt F) → (⟨S1x300, .f32⟩ : BufTy).Contents (Elt F)),
    StableHlo.unary main_v37 main_v38 (broadcastInDim S50000x300 ![0, 1] bcast_S1x300_S50000x300_0_1 : (⟨S1x300, .f32⟩ : BufTy).Contents (Elt F) → (⟨S50000x300, .f32⟩ : BufTy).Contents (Elt F)),
    StableHlo.binary main_v33 main_v38 main_v39 (mulf : (⟨S50000x300, .f32⟩ : BufTy).Contents (Elt F) → (⟨S50000x300, .f32⟩ : BufTy).Contents (Elt F) → (⟨S50000x300, .f32⟩ : BufTy).Contents (Elt F)),
    StableHlo.unary main_v24 main_v40 (broadcastInDim S1x300 ![1] bcast_S300_S1x300_1 : (⟨S300, .f32⟩ : BufTy).Contents (Elt F) → (⟨S1x300, .f32⟩ : BufTy).Contents (Elt F)),
    StableHlo.unary main_v40 main_v41 (broadcastInDim S50000x300 ![0, 1] bcast_S1x300_S50000x300_0_1 : (⟨S1x300, .f32⟩ : BufTy).Contents (Elt F) → (⟨S50000x300, .f32⟩ : BufTy).Contents (Elt F)),
    StableHlo.binary main_v39 main_v41 main_v42 (mulf : (⟨S50000x300, .f32⟩ : BufTy).Contents (Elt F) → (⟨S50000x300, .f32⟩ : BufTy).Contents (Elt F) → (⟨S50000x300, .f32⟩ : BufTy).Contents (Elt F)),
    StableHlo.unary main_v26 main_v43 (broadcastInDim S1x300 ![1] bcast_S300_S1x300_1 : (⟨S300, .f32⟩ : BufTy).Contents (Elt F) → (⟨S1x300, .f32⟩ : BufTy).Contents (Elt F)),
    StableHlo.unary main_v43 main_v44 (broadcastInDim S50000x300 ![0, 1] bcast_S1x300_S50000x300_0_1 : (⟨S1x300, .f32⟩ : BufTy).Contents (Elt F) → (⟨S50000x300, .f32⟩ : BufTy).Contents (Elt F)),
    StableHlo.binary main_v42 main_v44 main_v45 (addf : (⟨S50000x300, .f32⟩ : BufTy).Contents (Elt F) → (⟨S50000x300, .f32⟩ : BufTy).Contents (Elt F) → (⟨S50000x300, .f32⟩ : BufTy).Contents (Elt F)),
    StableHlo.TRef.nullary main_call1.cst (constant S_ .f32 0x00000000#32),
    StableHlo.TRef.unary main_call1.cst main_call1.v0 (broadcastInDim S50000x300 ![] bcast_S_S50000x300),
    StableHlo.TRef.binary (StableHlo.TRef.of main_v45 : StableHlo.TRef sig ⟨S50000x300, .f32⟩) main_call1.v0 main_call1.v1 maximumf ]

/-- Layer 0, second half: linear map, batch normalisation, relu. 59 operations. -/
abbrev opsL0b : List (HloOp τ sig (Elt F)) :=
  [ StableHlo.unary main_arg7 main_v47 ((extractStridedSlice S1x300x300 ![0, 0, 0] · slices_S5x300x300_S1x300x300_0_0_0) : (⟨S5x300x300, .f32⟩ : BufTy).Contents (Elt F) → (⟨S1x300x300, .f32⟩ : BufTy).Contents (Elt F)),
    StableHlo.reshape main_v47 main_v48 rfl shapeCasts_S1x300x300_S300x300,
    StableHlo.binary main_v46 main_v48 main_v49 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v50 ((extractStridedSlice S1x300 ![0, 0] · slices_S5x300_S1x300_0_0) : (⟨S5x300, .f32⟩ : BufTy).Contents (Elt F) → (⟨S1x300, .f32⟩ : BufTy).Contents (Elt F)),
    StableHlo.reshape main_v50 main_v51 rfl shapeCasts_S1x300_S300,
    StableHlo.unary main_v51 main_v52 (broadcastInDim S1x300 ![1] bcast_S300_S1x300_1 : (⟨S300, .f32⟩ : BufTy).Contents (Elt F) → (⟨S1x300, .f32⟩ : BufTy).Contents (Elt F)),
    StableHlo.unary main_v52 main_v53 (broadcastInDim S50000x300 ![0, 1] bcast_S1x300_S50000x300_0_1 : (⟨S1x300, .f32⟩ : BufTy).Contents (Elt F) → (⟨S50000x300, .f32⟩ : BufTy).Contents (Elt F)),
    StableHlo.binary main_v49 main_v53 main_v54 (addf : (⟨S50000x300, .f32⟩ : BufTy).Contents (Elt F) → (⟨S50000x300, .f32⟩ : BufTy).Contents (Elt F) → (⟨S50000x300, .f32⟩ : BufTy).Contents (Elt F)),
    StableHlo.unary main_arg9 main_v55 ((extractStridedSlice S1x300 ![0, 0] · slices_S5x300_S1x300_0_0) : (⟨S5x300, .f32⟩ : BufTy).Contents (Elt F) → (⟨S1x300, .f32⟩ : BufTy).Contents (Elt F)),
    StableHlo.reshape main_v55 main_v56 rfl shapeCasts_S1x300_S300,
    StableHlo.unary main_arg10 main_v57 ((extractStridedSlice S1x300 ![0, 0] · slices_S5x300_S1x300_0_0) : (⟨S5x300, .f32⟩ : BufTy).Contents (Elt F) → (⟨S1x300, .f32⟩ : BufTy).Contents (Elt F)),
    StableHlo.reshape main_v57 main_v58 rfl shapeCasts_S1x300_S300,
    StableHlo.nullary main_cst_5 (constant S_ .f32 0x00000000#32),
    StableHlo.binary main_v54 main_cst_5 main_v59 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_6 (constant S_ .f32 0x47435000#32),
    StableHlo.unary main_cst_6 main_v60 (broadcastInDim S300 ![] bcast_S_S300 : (⟨S_, .f32⟩ : BufTy).Contents (Elt F) → (⟨S300, .f32⟩ : BufTy).Contents (Elt F)),
    StableHlo.binary main_v59 main_v60 main_v61 (Host.divf : (⟨S300, .f32⟩ : BufTy).Contents (Elt F) → (⟨S300, .f32⟩ : BufTy).Contents (Elt F) → (⟨S300, .f32⟩ : BufTy).Contents (Elt F)),
    StableHlo.nullary main_c_7 (constantI S_ 32 0#32),
    StableHlo.TRef.nullary main_call2.cst (constant S_ .f32 0x00000000#32),
    StableHlo.TRef.binary (StableHlo.TRef.of main_v54 : StableHlo.TRef sig ⟨S50000x300, .f32⟩) main_call2.cst main_call2.v0 (fun x v => Host.reduceAdd x v reducesTo_S50000x300_S300_d0 h_S_),
    StableHlo.TRef.unary main_call2.v0 main_call2.v1 (broadcastInDim S1x300 ![1] bcast_S300_S1x300_1),
    StableHlo.TRef.nullary main_call2.cst_0 (constant S_ .f32 0x47435000#32),
    StableHlo.TRef.unary main_call2.cst_0 main_call2.v2 (broadcastInDim S1x300 ![] bcast_S_S1x300),
    StableHlo.TRef.binary main_call2.v1 main_call2.v2 main_call2.v3 Host.divf,
    StableHlo.TRef.unary main_call2.v3 main_call2.v4 (broadcastInDim S50000x300 ![0, 1] bcast_S1x300_S50000x300_0_1),
    StableHlo.TRef.binary (StableHlo.TRef.of main_v54 : StableHlo.TRef sig ⟨S50000x300, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x300_S300_d0 h_S_),
    StableHlo.TRef.unary main_call2.v8 main_call2.v10 (broadcastInDim S300 ![] bcast_S_S300),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S300 ![] bcast_S_S300),
    StableHlo.TRef.ternary main_call2.v12 main_call2.v11 main_call2.call0.v1 main_call2.call0.v2 (fun p a b => select (broadcastInDim S300 ![] bcast_S_S300 p) a b),
    StableHlo.unary main_v61 main_v63 (broadcastInDim S1x300 ![1] bcast_S300_S1x300_1 : (⟨S300, .f32⟩ : BufTy).Contents (Elt F) → (⟨S1x300, .f32⟩ : BufTy).Contents (Elt F)),
    StableHlo.unary main_v63 main_v64 (broadcastInDim S50000x300 ![0, 1] bcast_S1x300_S50000x300_0_1 : (⟨S1x300, .f32⟩ : BufTy).Contents (Elt F) → (⟨S50000x300, .f32⟩ : BufTy).Contents (Elt F)),
    StableHlo.binary main_v54 main_v64 main_v65 (subf : (⟨S50000x300, .f32⟩ : BufTy).Contents (Elt F) → (⟨S50000x300, .f32⟩ : BufTy).Contents (Elt F) → (⟨S50000x300, .f32⟩ : BufTy).Contents (Elt F)),
    StableHlo.nullary main_cst_8 (constant S_ .f32 0x3727C5AC#32),
    StableHlo.unary main_cst_8 main_v66 (broadcastInDim S300 ![] bcast_S_S300 : (⟨S_, .f32⟩ : BufTy).Contents (Elt F) → (⟨S300, .f32⟩ : BufTy).Contents (Elt F)),
    StableHlo.binary main_v62 main_v66 main_v67 (addf : (⟨S300, .f32⟩ : BufTy).Contents (Elt F) → (⟨S300, .f32⟩ : BufTy).Contents (Elt F) → (⟨S300, .f32⟩ : BufTy).Contents (Elt F)),
    StableHlo.unary main_v67 main_v68 (Host.rsqrt : (⟨S300, .f32⟩ : BufTy).Contents (Elt F) → (⟨S300, .f32⟩ : BufTy).Contents (Elt F)),
    StableHlo.unary main_v68 main_v69 (broadcastInDim S1x300 ![1] bcast_S300_S1x300_1 : (⟨S300, .f32⟩ : BufTy).Contents (Elt F) → (⟨S1x300, .f32⟩ : BufTy).Contents (Elt F)),
    StableHlo.unary main_v69 main_v70 (broadcastInDim S50000x300 ![0, 1] bcast_S1x300_S50000x300_0_1 : (⟨S1x300, .f32⟩ : BufTy).Contents (Elt F) → (⟨S50000x300, .f32⟩ : BufTy).Contents (Elt F)),
    StableHlo.binary main_v65 main_v70 main_v71 (mulf : (⟨S50000x300, .f32⟩ : BufTy).Contents (Elt F) → (⟨S50000x300, .f32⟩ : BufTy).Contents (Elt F) → (⟨S50000x300, .f32⟩ : BufTy).Contents (Elt F)),
    StableHlo.unary main_v56 main_v72 (broadcastInDim S1x300 ![1] bcast_S300_S1x300_1 : (⟨S300, .f32⟩ : BufTy).Contents (Elt F) → (⟨S1x300, .f32⟩ : BufTy).Contents (Elt F)),
    StableHlo.unary main_v72 main_v73 (broadcastInDim S50000x300 ![0, 1] bcast_S1x300_S50000x300_0_1 : (⟨S1x300, .f32⟩ : BufTy).Contents (Elt F) → (⟨S50000x300, .f32⟩ : BufTy).Contents (Elt F)),
    StableHlo.binary main_v71 main_v73 main_v74 (mulf : (⟨S50000x300, .f32⟩ : BufTy).Contents (Elt F) → (⟨S50000x300, .f32⟩ : BufTy).Contents (Elt F) → (⟨S50000x300, .f32⟩ : BufTy).Contents (Elt F)),
    StableHlo.unary main_v58 main_v75 (broadcastInDim S1x300 ![1] bcast_S300_S1x300_1 : (⟨S300, .f32⟩ : BufTy).Contents (Elt F) → (⟨S1x300, .f32⟩ : BufTy).Contents (Elt F)),
    StableHlo.unary main_v75 main_v76 (broadcastInDim S50000x300 ![0, 1] bcast_S1x300_S50000x300_0_1 : (⟨S1x300, .f32⟩ : BufTy).Contents (Elt F) → (⟨S50000x300, .f32⟩ : BufTy).Contents (Elt F)),
    StableHlo.binary main_v74 main_v76 main_v77 (addf : (⟨S50000x300, .f32⟩ : BufTy).Contents (Elt F) → (⟨S50000x300, .f32⟩ : BufTy).Contents (Elt F) → (⟨S50000x300, .f32⟩ : BufTy).Contents (Elt F)),
    StableHlo.TRef.nullary main_call3.cst (constant S_ .f32 0x00000000#32),
    StableHlo.TRef.unary main_call3.cst main_call3.v0 (broadcastInDim S50000x300 ![] bcast_S_S50000x300),
    StableHlo.TRef.binary (StableHlo.TRef.of main_v77 : StableHlo.TRef sig ⟨S50000x300, .f32⟩) main_call3.v0 main_call3.v1 maximumf ]

/-- Layer 1, first half: neighbour sum added to the features, linear map, batch normalisation, relu. 73 operations. -/
abbrev opsL1a : List (HloOp τ sig (Elt F)) :=
  [ StableHlo.nullary main_c_9 (constantI S_ 32 0#32),
    StableHlo.unary main_c_9 main_v79 (broadcastInDim S400000 ![] bcast_S_S400000 : (⟨S_, .i32⟩ : BufTy).Contents (Elt F) → (⟨S400000, .i32⟩ : BufTy).Contents (Elt F)),
    StableHlo.binary main_v1 main_v79 main_v80 (cmpi .slt : (⟨S400000, .i32⟩ : BufTy).Contents (Elt F) → (⟨S400000, .i32⟩ : BufTy).Contents (Elt F) → (⟨S400000, .i1⟩ : BufTy).Contents (Elt F)),
    StableHlo.nullary main_c_10 (constantI S_ 32 50000#32),
    StableHlo.unary main_c_10 main_v81 (broadcastInDim S400000 ![] bcast_S_S400000 : (⟨S_, .i32⟩ : BufTy).Contents (Elt F) → (⟨S400000, .i32⟩ : BufTy).Contents (Elt F)),
    StableHlo.binary main_v1 main_v81 main_v82 (addi : (⟨S400000, .i32⟩ : BufTy).Contents (Elt F) → (⟨S400000, .i32⟩ : BufTy).Contents (Elt F) → (⟨S400000, .i32⟩ : BufTy).Contents (Elt F)),
    StableHlo.ternary main_v80 main_v82 main_v1 main_v83 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v83 main_v84 (broadcastInDim S400000x1 ![0] bcast_S400000_S400000x1_0 : (⟨S400000, .i32⟩ : BufTy).Contents (Elt F) → (⟨S400000x1, .i32⟩ : BufTy).Contents (Elt F)),
    StableHlo.binary main_v78 main_v84 main_v85 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_11 (constant S_ .f32 0x00000000#32),
    StableHlo.unary main_cst_11 main_v86 (broadcastInDim S50000x300 ![] bcast_S_S50000x300 : (⟨S_, .f32⟩ : BufTy).Contents (Elt F) → (⟨S50000x300, .f32⟩ : BufTy).Contents (Elt F)),
    StableHlo.unary main_v3 main_v87 (broadcastInDim S400000x1 ![0] bcast_S400000_S400000x1_0 : (⟨S400000, .i32⟩ : BufTy).Contents (Elt F) → (⟨S400000x1, .i32⟩ : BufTy).Contents (Elt F)),
    StableHlo.ternary main_v86 main_v87 main_v85 main_v88 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v78 main_v88 main_v89 (addf : (⟨S50000x300, .f32⟩ : BufTy).Contents (Elt F) → (⟨S50000x300, .f32⟩ : BufTy).Contents (Elt F) → (⟨S50000x300, .f32⟩ : BufTy).Contents (Elt F)),
    StableHlo.unary main_arg3 main_v90 ((extractStridedSlice S1x300x300 ![1, 0, 0] · slices_S5x300x300_S1x300x300_1_0_0) : (⟨S5x300x300, .f32⟩ : BufTy).Contents (Elt F) → (⟨S1x300x300, .f32⟩ : BufTy).Contents (Elt F)),
    StableHlo.reshape main_v90 main_v91 rfl shapeCasts_S1x300x300_S300x300,
    StableHlo.binary main_v89 main_v91 main_v92 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v93 ((extractStridedSlice S1x300 ![1, 0] · slices_S5x300_S1x300_1_0) : (⟨S5x300, .f32⟩ : BufTy).Contents (Elt F) → (⟨S1x300, .f32⟩ : BufTy).Contents (Elt F)),
    StableHlo.reshape main_v93 main_v94 rfl shapeCasts_S1x300_S300,
    StableHlo.unary main_v94 main_v95 (broadcastInDim S1x300 ![1] bcast_S300_S1x300_1 : (⟨S300, .f32⟩ : BufTy).Contents (Elt F) → (⟨S1x300, .f32⟩ : BufTy).Contents (Elt F)),
    StableHlo.unary main_v95 main_v96 (broadcastInDim S50000x300 ![0, 1] bcast_S1x300_S50000x300_0_1 : (⟨S1x300, .f32⟩ : BufTy).Contents (Elt F) → (⟨S50000x300, .f32⟩ : BufTy).Contents (Elt F)),
    StableHlo.binary main_v92 main_v96 main_v97 (addf : (⟨S50000x300, .f32⟩ : BufTy).Contents (Elt F) → (⟨S50000x300, .f32⟩ : BufTy).Contents (Elt F) → (⟨S50000x300, .f32⟩ : BufTy).Contents (Elt F)),
    StableHlo.unary main_arg5 main_v98 ((extractStridedSlice S1x300 ![1, 0] · slices_S5x300_S1x300_1_0) : (⟨S5x300, .f32⟩ : BufTy).Contents (Elt F) → (⟨S1x300, .f32⟩ : BufTy).Contents (Elt F)),
    StableHlo.reshape main_v98 main_v99 rfl shapeCasts_S1x300_S300,
    StableHlo.unary main_arg6 main_v100 ((extractStridedSlice S1x300 ![1, 0] · slices_S5x300_S1x300_1_0) : (⟨S5x300, .f32⟩ : BufTy).Contents (Elt F) → (⟨S1x300, .f32⟩ : BufTy).Contents (Elt F)),
    StableHlo.reshape main_v100 main_v101 rfl shapeCasts_S1x300_S300,
    StableHlo.nullary main_cst_12 (constant S_ .f32 0x00000000#32),
    StableHlo.binary main_v97 main_cst_12 main_v102 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_13 (constant S_ .f32 0x47435000#32),
    StableHlo.unary main_cst_13 main_v103 (broadcastInDim S300 ![] bcast_S_S300 : (⟨S_, .f32⟩ : BufTy).Contents (Elt F) → (⟨S300, .f32⟩ : BufTy).Contents (Elt F)),
    StableHlo.binary main_v102 main_v103 main_v104 (Host.divf : (⟨S300, .f32⟩ : BufTy).Contents (Elt F) → (⟨S300, .f32⟩ : BufTy).Contents (Elt F) → (⟨S300, .f32⟩ : BufTy).Contents (Elt F)),
    StableHlo.nullary main_c_14 (constantI S_ 32 0#32),
    StableHlo.TRef.nullary main_call4.cst (constant S_ .f32 0x00000000#32),
    StableHlo.TRef.binary (StableHlo.TRef.of main_v97 : StableHlo.TRef sig ⟨S50000x300, .f32⟩) main_call4.cst main_call4.v0 (fun x v => Host.reduceAdd x v reducesTo_S50000x300_S300_d0 h_S_),
    StableHlo.TRef.unary main_call4.v0 main_call4.v1 (broadcastInDim S1x300 ![1] bcast_S300_S1x300_1),
    StableHlo.TRef.nullary main_call4.cst_0 (constant S_ .f32 0x47435000#32),
    StableHlo.TRef.unary main_call4.cst_0 main_call4.v2 (broadcastInDim S1x300 ![] bcast_S_S1x300),
    StableHlo.TRef.binary main_call4.v1 main_call4.v2 main_call4.v3 Host.divf,
    StableHlo.TRef.unary main_call4.v3 main_call4.v4 (broadcastInDim S50000x300 ![0, 1] bcast_S1x300_S50000x300_0_1),
    StableHlo.TRef.binary (StableHlo.TRef.of main_v97 : StableHlo.TRef sig ⟨S50000x300, .f32⟩) main_call4.v4 main_call4.v5 subf,
    StableHlo.TRef.binary main_call4.v5 main_call4.v5 main_call4.v6 mulf,
    StableHlo.TRef.unary (StableHlo.TRef.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x300_S300_d0 h_S_),
    StableHlo.TRef.unary main_call4.v8 main_call4.v10 (broadcastInDim S300 ![] bcast_S_S300),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S300 ![] bcast_S_S300),
    StableHlo.TRef.ternary main_call4.v12 main_call4.v11 main_call4.call0.v1 main_call4.call0.v2 (fun p a b => select (broadcastInDim S300 ![] bcast_S_S300 p) a b),
    StableHlo.unary main_v104 main_v106 (broadcastInDim S1x300 ![1] bcast_S300_S1x300_1 : (⟨S300, .f32⟩ : BufTy).Contents (Elt F) → (⟨S1x300, .f32⟩ : BufTy).Contents (Elt F)),
    StableHlo.unary main_v106 main_v107 (broadcastInDim S50000x300 ![0, 1] bcast_S1x300_S50000x300_0_1 : (⟨S1x300, .f32⟩ : BufTy).Contents (Elt F) → (⟨S50000x300, .f32⟩ : BufTy).Contents (Elt F)),
    StableHlo.binary main_v97 main_v107 main_v108 (subf : (⟨S50000x300, .f32⟩ : BufTy).Contents (Elt F) → (⟨S50000x300, .f32⟩ : BufTy).Contents (Elt F) → (⟨S50000x300, .f32⟩ : BufTy).Contents (Elt F)),
    StableHlo.nullary main_cst_15 (constant S_ .f32 0x3727C5AC#32),
    StableHlo.unary main_cst_15 main_v109 (broadcastInDim S300 ![] bcast_S_S300 : (⟨S_, .f32⟩ : BufTy).Contents (Elt F) → (⟨S300, .f32⟩ : BufTy).Contents (Elt F)),
    StableHlo.binary main_v105 main_v109 main_v110 (addf : (⟨S300, .f32⟩ : BufTy).Contents (Elt F) → (⟨S300, .f32⟩ : BufTy).Contents (Elt F) → (⟨S300, .f32⟩ : BufTy).Contents (Elt F)),
    StableHlo.unary main_v110 main_v111 (Host.rsqrt : (⟨S300, .f32⟩ : BufTy).Contents (Elt F) → (⟨S300, .f32⟩ : BufTy).Contents (Elt F)),
    StableHlo.unary main_v111 main_v112 (broadcastInDim S1x300 ![1] bcast_S300_S1x300_1 : (⟨S300, .f32⟩ : BufTy).Contents (Elt F) → (⟨S1x300, .f32⟩ : BufTy).Contents (Elt F)),
    StableHlo.unary main_v112 main_v113 (broadcastInDim S50000x300 ![0, 1] bcast_S1x300_S50000x300_0_1 : (⟨S1x300, .f32⟩ : BufTy).Contents (Elt F) → (⟨S50000x300, .f32⟩ : BufTy).Contents (Elt F)),
    StableHlo.binary main_v108 main_v113 main_v114 (mulf : (⟨S50000x300, .f32⟩ : BufTy).Contents (Elt F) → (⟨S50000x300, .f32⟩ : BufTy).Contents (Elt F) → (⟨S50000x300, .f32⟩ : BufTy).Contents (Elt F)),
    StableHlo.unary main_v99 main_v115 (broadcastInDim S1x300 ![1] bcast_S300_S1x300_1 : (⟨S300, .f32⟩ : BufTy).Contents (Elt F) → (⟨S1x300, .f32⟩ : BufTy).Contents (Elt F)),
    StableHlo.unary main_v115 main_v116 (broadcastInDim S50000x300 ![0, 1] bcast_S1x300_S50000x300_0_1 : (⟨S1x300, .f32⟩ : BufTy).Contents (Elt F) → (⟨S50000x300, .f32⟩ : BufTy).Contents (Elt F)),
    StableHlo.binary main_v114 main_v116 main_v117 (mulf : (⟨S50000x300, .f32⟩ : BufTy).Contents (Elt F) → (⟨S50000x300, .f32⟩ : BufTy).Contents (Elt F) → (⟨S50000x300, .f32⟩ : BufTy).Contents (Elt F)),
    StableHlo.unary main_v101 main_v118 (broadcastInDim S1x300 ![1] bcast_S300_S1x300_1 : (⟨S300, .f32⟩ : BufTy).Contents (Elt F) → (⟨S1x300, .f32⟩ : BufTy).Contents (Elt F)),
    StableHlo.unary main_v118 main_v119 (broadcastInDim S50000x300 ![0, 1] bcast_S1x300_S50000x300_0_1 : (⟨S1x300, .f32⟩ : BufTy).Contents (Elt F) → (⟨S50000x300, .f32⟩ : BufTy).Contents (Elt F)),
    StableHlo.binary main_v117 main_v119 main_v120 (addf : (⟨S50000x300, .f32⟩ : BufTy).Contents (Elt F) → (⟨S50000x300, .f32⟩ : BufTy).Contents (Elt F) → (⟨S50000x300, .f32⟩ : BufTy).Contents (Elt F)),
    StableHlo.TRef.nullary main_call5.cst (constant S_ .f32 0x00000000#32),
    StableHlo.TRef.unary main_call5.cst main_call5.v0 (broadcastInDim S50000x300 ![] bcast_S_S50000x300),
    StableHlo.TRef.binary (StableHlo.TRef.of main_v120 : StableHlo.TRef sig ⟨S50000x300, .f32⟩) main_call5.v0 main_call5.v1 maximumf ]

/-- Layer 1, second half: linear map, batch normalisation, relu. 59 operations. -/
abbrev opsL1b : List (HloOp τ sig (Elt F)) :=
  [ StableHlo.unary main_arg7 main_v122 ((extractStridedSlice S1x300x300 ![1, 0, 0] · slices_S5x300x300_S1x300x300_1_0_0) : (⟨S5x300x300, .f32⟩ : BufTy).Contents (Elt F) → (⟨S1x300x300, .f32⟩ : BufTy).Contents (Elt F)),
    StableHlo.reshape main_v122 main_v123 rfl shapeCasts_S1x300x300_S300x300,
    StableHlo.binary main_v121 main_v123 main_v124 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v125 ((extractStridedSlice S1x300 ![1, 0] · slices_S5x300_S1x300_1_0) : (⟨S5x300, .f32⟩ : BufTy).Contents (Elt F) → (⟨S1x300, .f32⟩ : BufTy).Contents (Elt F)),
    StableHlo.reshape main_v125 main_v126 rfl shapeCasts_S1x300_S300,
    StableHlo.unary main_v126 main_v127 (broadcastInDim S1x300 ![1] bcast_S300_S1x300_1 : (⟨S300, .f32⟩ : BufTy).Contents (Elt F) → (⟨S1x300, .f32⟩ : BufTy).Contents (Elt F)),
    StableHlo.unary main_v127 main_v128 (broadcastInDim S50000x300 ![0, 1] bcast_S1x300_S50000x300_0_1 : (⟨S1x300, .f32⟩ : BufTy).Contents (Elt F) → (⟨S50000x300, .f32⟩ : BufTy).Contents (Elt F)),
    StableHlo.binary main_v124 main_v128 main_v129 (addf : (⟨S50000x300, .f32⟩ : BufTy).Contents (Elt F) → (⟨S50000x300, .f32⟩ : BufTy).Contents (Elt F) → (⟨S50000x300, .f32⟩ : BufTy).Contents (Elt F)),
    StableHlo.unary main_arg9 main_v130 ((extractStridedSlice S1x300 ![1, 0] · slices_S5x300_S1x300_1_0) : (⟨S5x300, .f32⟩ : BufTy).Contents (Elt F) → (⟨S1x300, .f32⟩ : BufTy).Contents (Elt F)),
    StableHlo.reshape main_v130 main_v131 rfl shapeCasts_S1x300_S300,
    StableHlo.unary main_arg10 main_v132 ((extractStridedSlice S1x300 ![1, 0] · slices_S5x300_S1x300_1_0) : (⟨S5x300, .f32⟩ : BufTy).Contents (Elt F) → (⟨S1x300, .f32⟩ : BufTy).Contents (Elt F)),
    StableHlo.reshape main_v132 main_v133 rfl shapeCasts_S1x300_S300,
    StableHlo.nullary main_cst_16 (constant S_ .f32 0x00000000#32),
    StableHlo.binary main_v129 main_cst_16 main_v134 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_17 (constant S_ .f32 0x47435000#32),
    StableHlo.unary main_cst_17 main_v135 (broadcastInDim S300 ![] bcast_S_S300 : (⟨S_, .f32⟩ : BufTy).Contents (Elt F) → (⟨S300, .f32⟩ : BufTy).Contents (Elt F)),
    StableHlo.binary main_v134 main_v135 main_v136 (Host.divf : (⟨S300, .f32⟩ : BufTy).Contents (Elt F) → (⟨S300, .f32⟩ : BufTy).Contents (Elt F) → (⟨S300, .f32⟩ : BufTy).Contents (Elt F)),
    StableHlo.nullary main_c_18 (constantI S_ 32 0#32),
    StableHlo.TRef.nullary main_call6.cst (constant S_ .f32 0x00000000#32),
    StableHlo.TRef.binary (StableHlo.TRef.of main_v129 : StableHlo.TRef sig ⟨S50000x300, .f32⟩) main_call6.cst main_call6.v0 (fun x v => Host.reduceAdd x v reducesTo_S50000x300_S300_d0 h_S_),
    StableHlo.TRef.unary main_call6.v0 main_call6.v1 (broadcastInDim S1x300 ![1] bcast_S300_S1x300_1),
    StableHlo.TRef.nullary main_call6.cst_0 (constant S_ .f32 0x47435000#32),
    StableHlo.TRef.unary main_call6.cst_0 main_call6.v2 (broadcastInDim S1x300 ![] bcast_S_S1x300),
    StableHlo.TRef.binary main_call6.v1 main_call6.v2 main_call6.v3 Host.divf,
    StableHlo.TRef.unary main_call6.v3 main_call6.v4 (broadcastInDim S50000x300 ![0, 1] bcast_S1x300_S50000x300_0_1),
    StableHlo.TRef.binary (StableHlo.TRef.of main_v129 : StableHlo.TRef sig ⟨S50000x300, .f32⟩) main_call6.v4 main_call6.v5 subf,
    StableHlo.TRef.binary main_call6.v5 main_call6.v5 main_call6.v6 mulf,
    StableHlo.TRef.unary (StableHlo.TRef.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x300_S300_d0 h_S_),
    StableHlo.TRef.unary main_call6.v8 main_call6.v10 (broadcastInDim S300 ![] bcast_S_S300),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S300 ![] bcast_S_S300),
    StableHlo.TRef.ternary main_call6.v12 main_call6.v11 main_call6.call0.v1 main_call6.call0.v2 (fun p a b => select (broadcastInDim S300 ![] bcast_S_S300 p) a b),
    StableHlo.unary main_v136 main_v138 (broadcastInDim S1x300 ![1] bcast_S300_S1x300_1 : (⟨S300, .f32⟩ : BufTy).Contents (Elt F) → (⟨S1x300, .f32⟩ : BufTy).Contents (Elt F)),
    StableHlo.unary main_v138 main_v139 (broadcastInDim S50000x300 ![0, 1] bcast_S1x300_S50000x300_0_1 : (⟨S1x300, .f32⟩ : BufTy).Contents (Elt F) → (⟨S50000x300, .f32⟩ : BufTy).Contents (Elt F)),
    StableHlo.binary main_v129 main_v139 main_v140 (subf : (⟨S50000x300, .f32⟩ : BufTy).Contents (Elt F) → (⟨S50000x300, .f32⟩ : BufTy).Contents (Elt F) → (⟨S50000x300, .f32⟩ : BufTy).Contents (Elt F)),
    StableHlo.nullary main_cst_19 (constant S_ .f32 0x3727C5AC#32),
    StableHlo.unary main_cst_19 main_v141 (broadcastInDim S300 ![] bcast_S_S300 : (⟨S_, .f32⟩ : BufTy).Contents (Elt F) → (⟨S300, .f32⟩ : BufTy).Contents (Elt F)),
    StableHlo.binary main_v137 main_v141 main_v142 (addf : (⟨S300, .f32⟩ : BufTy).Contents (Elt F) → (⟨S300, .f32⟩ : BufTy).Contents (Elt F) → (⟨S300, .f32⟩ : BufTy).Contents (Elt F)),
    StableHlo.unary main_v142 main_v143 (Host.rsqrt : (⟨S300, .f32⟩ : BufTy).Contents (Elt F) → (⟨S300, .f32⟩ : BufTy).Contents (Elt F)),
    StableHlo.unary main_v143 main_v144 (broadcastInDim S1x300 ![1] bcast_S300_S1x300_1 : (⟨S300, .f32⟩ : BufTy).Contents (Elt F) → (⟨S1x300, .f32⟩ : BufTy).Contents (Elt F)),
    StableHlo.unary main_v144 main_v145 (broadcastInDim S50000x300 ![0, 1] bcast_S1x300_S50000x300_0_1 : (⟨S1x300, .f32⟩ : BufTy).Contents (Elt F) → (⟨S50000x300, .f32⟩ : BufTy).Contents (Elt F)),
    StableHlo.binary main_v140 main_v145 main_v146 (mulf : (⟨S50000x300, .f32⟩ : BufTy).Contents (Elt F) → (⟨S50000x300, .f32⟩ : BufTy).Contents (Elt F) → (⟨S50000x300, .f32⟩ : BufTy).Contents (Elt F)),
    StableHlo.unary main_v131 main_v147 (broadcastInDim S1x300 ![1] bcast_S300_S1x300_1 : (⟨S300, .f32⟩ : BufTy).Contents (Elt F) → (⟨S1x300, .f32⟩ : BufTy).Contents (Elt F)),
    StableHlo.unary main_v147 main_v148 (broadcastInDim S50000x300 ![0, 1] bcast_S1x300_S50000x300_0_1 : (⟨S1x300, .f32⟩ : BufTy).Contents (Elt F) → (⟨S50000x300, .f32⟩ : BufTy).Contents (Elt F)),
    StableHlo.binary main_v146 main_v148 main_v149 (mulf : (⟨S50000x300, .f32⟩ : BufTy).Contents (Elt F) → (⟨S50000x300, .f32⟩ : BufTy).Contents (Elt F) → (⟨S50000x300, .f32⟩ : BufTy).Contents (Elt F)),
    StableHlo.unary main_v133 main_v150 (broadcastInDim S1x300 ![1] bcast_S300_S1x300_1 : (⟨S300, .f32⟩ : BufTy).Contents (Elt F) → (⟨S1x300, .f32⟩ : BufTy).Contents (Elt F)),
    StableHlo.unary main_v150 main_v151 (broadcastInDim S50000x300 ![0, 1] bcast_S1x300_S50000x300_0_1 : (⟨S1x300, .f32⟩ : BufTy).Contents (Elt F) → (⟨S50000x300, .f32⟩ : BufTy).Contents (Elt F)),
    StableHlo.binary main_v149 main_v151 main_v152 (addf : (⟨S50000x300, .f32⟩ : BufTy).Contents (Elt F) → (⟨S50000x300, .f32⟩ : BufTy).Contents (Elt F) → (⟨S50000x300, .f32⟩ : BufTy).Contents (Elt F)),
    StableHlo.TRef.nullary main_call7.cst (constant S_ .f32 0x00000000#32),
    StableHlo.TRef.unary main_call7.cst main_call7.v0 (broadcastInDim S50000x300 ![] bcast_S_S50000x300),
    StableHlo.TRef.binary (StableHlo.TRef.of main_v152 : StableHlo.TRef sig ⟨S50000x300, .f32⟩) main_call7.v0 main_call7.v1 maximumf ]

/-- Layer 2, first half: neighbour sum added to the features, linear map, batch normalisation, relu. 73 operations. -/
abbrev opsL2a : List (HloOp τ sig (Elt F)) :=
  [ StableHlo.nullary main_c_20 (constantI S_ 32 0#32),
    StableHlo.unary main_c_20 main_v154 (broadcastInDim S400000 ![] bcast_S_S400000 : (⟨S_, .i32⟩ : BufTy).Contents (Elt F) → (⟨S400000, .i32⟩ : BufTy).Contents (Elt F)),
    StableHlo.binary main_v1 main_v154 main_v155 (cmpi .slt : (⟨S400000, .i32⟩ : BufTy).Contents (Elt F) → (⟨S400000, .i32⟩ : BufTy).Contents (Elt F) → (⟨S400000, .i1⟩ : BufTy).Contents (Elt F)),
    StableHlo.nullary main_c_21 (constantI S_ 32 50000#32),
    StableHlo.unary main_c_21 main_v156 (broadcastInDim S400000 ![] bcast_S_S400000 : (⟨S_, .i32⟩ : BufTy).Contents (Elt F) → (⟨S400000, .i32⟩ : BufTy).Contents (Elt F)),
    StableHlo.binary main_v1 main_v156 main_v157 (addi : (⟨S400000, .i32⟩ : BufTy).Contents (Elt F) → (⟨S400000, .i32⟩ : BufTy).Contents (Elt F) → (⟨S400000, .i32⟩ : BufTy).Contents (Elt F)),
    StableHlo.ternary main_v155 main_v157 main_v1 main_v158 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v158 main_v159 (broadcastInDim S400000x1 ![0] bcast_S400000_S400000x1_0 : (⟨S400000, .i32⟩ : BufTy).Contents (Elt F) → (⟨S400000x1, .i32⟩ : BufTy).Contents (Elt F)),
    StableHlo.binary main_v153 main_v159 main_v160 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_22 (constant S_ .f32 0x00000000#32),
    StableHlo.unary main_cst_22 main_v161 (broadcastInDim S50000x300 ![] bcast_S_S50000x300 : (⟨S_, .f32⟩ : BufTy).Contents (Elt F) → (⟨S50000x300, .f32⟩ : BufTy).Contents (Elt F)),
    StableHlo.unary main_v3 main_v162 (broadcastInDim S400000x1 ![0] bcast_S400000_S400000x1_0 : (⟨S400000, .i32⟩ : BufTy).Contents (Elt F) → (⟨S400000x1, .i32⟩ : BufTy).Contents (Elt F)),
    StableHlo.ternary main_v161 main_v162 main_v160 main_v163 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v153 main_v163 main_v164 (addf : (⟨S50000x300, .f32⟩ : BufTy).Contents (Elt F) → (⟨S50000x300, .f32⟩ : BufTy).Contents (Elt F) → (⟨S50000x300, .f32⟩ : BufTy).Contents (Elt F)),
    StableHlo.unary main_arg3 main_v165 ((extractStridedSlice S1x300x300 ![2, 0, 0] · slices_S5x300x300_S1x300x300_2_0_0) : (⟨S5x300x300, .f32⟩ : BufTy).Contents (Elt F) → (⟨S1x300x300, .f32⟩ : BufTy).Contents (Elt F)),
    StableHlo.reshape main_v165 main_v166 rfl shapeCasts_S1x300x300_S300x300,
    StableHlo.binary main_v164 main_v166 main_v167 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v168 ((extractStridedSlice S1x300 ![2, 0] · slices_S5x300_S1x300_2_0) : (⟨S5x300, .f32⟩ : BufTy).Contents (Elt F) → (⟨S1x300, .f32⟩ : BufTy).Contents (Elt F)),
    StableHlo.reshape main_v168 main_v169 rfl shapeCasts_S1x300_S300,
    StableHlo.unary main_v169 main_v170 (broadcastInDim S1x300 ![1] bcast_S300_S1x300_1 : (⟨S300, .f32⟩ : BufTy).Contents (Elt F) → (⟨S1x300, .f32⟩ : BufTy).Contents (Elt F)),
    StableHlo.unary main_v170 main_v171 (broadcastInDim S50000x300 ![0, 1] bcast_S1x300_S50000x300_0_1 : (⟨S1x300, .f32⟩ : BufTy).Contents (Elt F) → (⟨S50000x300, .f32⟩ : BufTy).Contents (Elt F)),
    StableHlo.binary main_v167 main_v171 main_v172 (addf : (⟨S50000x300, .f32⟩ : BufTy).Contents (Elt F) → (⟨S50000x300, .f32⟩ : BufTy).Contents (Elt F) → (⟨S50000x300, .f32⟩ : BufTy).Contents (Elt F)),
    StableHlo.unary main_arg5 main_v173 ((extractStridedSlice S1x300 ![2, 0] · slices_S5x300_S1x300_2_0) : (⟨S5x300, .f32⟩ : BufTy).Contents (Elt F) → (⟨S1x300, .f32⟩ : BufTy).Contents (Elt F)),
    StableHlo.reshape main_v173 main_v174 rfl shapeCasts_S1x300_S300,
    StableHlo.unary main_arg6 main_v175 ((extractStridedSlice S1x300 ![2, 0] · slices_S5x300_S1x300_2_0) : (⟨S5x300, .f32⟩ : BufTy).Contents (Elt F) → (⟨S1x300, .f32⟩ : BufTy).Contents (Elt F)),
    StableHlo.reshape main_v175 main_v176 rfl shapeCasts_S1x300_S300,
    StableHlo.nullary main_cst_23 (constant S_ .f32 0x00000000#32),
    StableHlo.binary main_v172 main_cst_23 main_v177 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_24 (constant S_ .f32 0x47435000#32),
    StableHlo.unary main_cst_24 main_v178 (broadcastInDim S300 ![] bcast_S_S300 : (⟨S_, .f32⟩ : BufTy).Contents (Elt F) → (⟨S300, .f32⟩ : BufTy).Contents (Elt F)),
    StableHlo.binary main_v177 main_v178 main_v179 (Host.divf : (⟨S300, .f32⟩ : BufTy).Contents (Elt F) → (⟨S300, .f32⟩ : BufTy).Contents (Elt F) → (⟨S300, .f32⟩ : BufTy).Contents (Elt F)),
    StableHlo.nullary main_c_25 (constantI S_ 32 0#32),
    StableHlo.TRef.nullary main_call8.cst (constant S_ .f32 0x00000000#32),
    StableHlo.TRef.binary (StableHlo.TRef.of main_v172 : StableHlo.TRef sig ⟨S50000x300, .f32⟩) main_call8.cst main_call8.v0 (fun x v => Host.reduceAdd x v reducesTo_S50000x300_S300_d0 h_S_),
    StableHlo.TRef.unary main_call8.v0 main_call8.v1 (broadcastInDim S1x300 ![1] bcast_S300_S1x300_1),
    StableHlo.TRef.nullary main_call8.cst_0 (constant S_ .f32 0x47435000#32),
    StableHlo.TRef.unary main_call8.cst_0 main_call8.v2 (broadcastInDim S1x300 ![] bcast_S_S1x300),
    StableHlo.TRef.binary main_call8.v1 main_call8.v2 main_call8.v3 Host.divf,
    StableHlo.TRef.unary main_call8.v3 main_call8.v4 (broadcastInDim S50000x300 ![0, 1] bcast_S1x300_S50000x300_0_1),
    StableHlo.TRef.binary (StableHlo.TRef.of main_v172 : StableHlo.TRef sig ⟨S50000x300, .f32⟩) main_call8.v4 main_call8.v5 subf,
    StableHlo.TRef.binary main_call8.v5 main_call8.v5 main_call8.v6 mulf,
    StableHlo.TRef.unary (StableHlo.TRef.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x300_S300_d0 h_S_),
    StableHlo.TRef.unary main_call8.v8 main_call8.v10 (broadcastInDim S300 ![] bcast_S_S300),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S300 ![] bcast_S_S300),
    StableHlo.TRef.ternary main_call8.v12 main_call8.v11 main_call8.call0.v1 main_call8.call0.v2 (fun p a b => select (broadcastInDim S300 ![] bcast_S_S300 p) a b),
    StableHlo.unary main_v179 main_v181 (broadcastInDim S1x300 ![1] bcast_S300_S1x300_1 : (⟨S300, .f32⟩ : BufTy).Contents (Elt F) → (⟨S1x300, .f32⟩ : BufTy).Contents (Elt F)),
    StableHlo.unary main_v181 main_v182 (broadcastInDim S50000x300 ![0, 1] bcast_S1x300_S50000x300_0_1 : (⟨S1x300, .f32⟩ : BufTy).Contents (Elt F) → (⟨S50000x300, .f32⟩ : BufTy).Contents (Elt F)),
    StableHlo.binary main_v172 main_v182 main_v183 (subf : (⟨S50000x300, .f32⟩ : BufTy).Contents (Elt F) → (⟨S50000x300, .f32⟩ : BufTy).Contents (Elt F) → (⟨S50000x300, .f32⟩ : BufTy).Contents (Elt F)),
    StableHlo.nullary main_cst_26 (constant S_ .f32 0x3727C5AC#32),
    StableHlo.unary main_cst_26 main_v184 (broadcastInDim S300 ![] bcast_S_S300 : (⟨S_, .f32⟩ : BufTy).Contents (Elt F) → (⟨S300, .f32⟩ : BufTy).Contents (Elt F)),
    StableHlo.binary main_v180 main_v184 main_v185 (addf : (⟨S300, .f32⟩ : BufTy).Contents (Elt F) → (⟨S300, .f32⟩ : BufTy).Contents (Elt F) → (⟨S300, .f32⟩ : BufTy).Contents (Elt F)),
    StableHlo.unary main_v185 main_v186 (Host.rsqrt : (⟨S300, .f32⟩ : BufTy).Contents (Elt F) → (⟨S300, .f32⟩ : BufTy).Contents (Elt F)),
    StableHlo.unary main_v186 main_v187 (broadcastInDim S1x300 ![1] bcast_S300_S1x300_1 : (⟨S300, .f32⟩ : BufTy).Contents (Elt F) → (⟨S1x300, .f32⟩ : BufTy).Contents (Elt F)),
    StableHlo.unary main_v187 main_v188 (broadcastInDim S50000x300 ![0, 1] bcast_S1x300_S50000x300_0_1 : (⟨S1x300, .f32⟩ : BufTy).Contents (Elt F) → (⟨S50000x300, .f32⟩ : BufTy).Contents (Elt F)),
    StableHlo.binary main_v183 main_v188 main_v189 (mulf : (⟨S50000x300, .f32⟩ : BufTy).Contents (Elt F) → (⟨S50000x300, .f32⟩ : BufTy).Contents (Elt F) → (⟨S50000x300, .f32⟩ : BufTy).Contents (Elt F)),
    StableHlo.unary main_v174 main_v190 (broadcastInDim S1x300 ![1] bcast_S300_S1x300_1 : (⟨S300, .f32⟩ : BufTy).Contents (Elt F) → (⟨S1x300, .f32⟩ : BufTy).Contents (Elt F)),
    StableHlo.unary main_v190 main_v191 (broadcastInDim S50000x300 ![0, 1] bcast_S1x300_S50000x300_0_1 : (⟨S1x300, .f32⟩ : BufTy).Contents (Elt F) → (⟨S50000x300, .f32⟩ : BufTy).Contents (Elt F)),
    StableHlo.binary main_v189 main_v191 main_v192 (mulf : (⟨S50000x300, .f32⟩ : BufTy).Contents (Elt F) → (⟨S50000x300, .f32⟩ : BufTy).Contents (Elt F) → (⟨S50000x300, .f32⟩ : BufTy).Contents (Elt F)),
    StableHlo.unary main_v176 main_v193 (broadcastInDim S1x300 ![1] bcast_S300_S1x300_1 : (⟨S300, .f32⟩ : BufTy).Contents (Elt F) → (⟨S1x300, .f32⟩ : BufTy).Contents (Elt F)),
    StableHlo.unary main_v193 main_v194 (broadcastInDim S50000x300 ![0, 1] bcast_S1x300_S50000x300_0_1 : (⟨S1x300, .f32⟩ : BufTy).Contents (Elt F) → (⟨S50000x300, .f32⟩ : BufTy).Contents (Elt F)),
    StableHlo.binary main_v192 main_v194 main_v195 (addf : (⟨S50000x300, .f32⟩ : BufTy).Contents (Elt F) → (⟨S50000x300, .f32⟩ : BufTy).Contents (Elt F) → (⟨S50000x300, .f32⟩ : BufTy).Contents (Elt F)),
    StableHlo.TRef.nullary main_call9.cst (constant S_ .f32 0x00000000#32),
    StableHlo.TRef.unary main_call9.cst main_call9.v0 (broadcastInDim S50000x300 ![] bcast_S_S50000x300),
    StableHlo.TRef.binary (StableHlo.TRef.of main_v195 : StableHlo.TRef sig ⟨S50000x300, .f32⟩) main_call9.v0 main_call9.v1 maximumf ]

/-- Layer 2, second half: linear map, batch normalisation, relu. 59 operations. -/
abbrev opsL2b : List (HloOp τ sig (Elt F)) :=
  [ StableHlo.unary main_arg7 main_v197 ((extractStridedSlice S1x300x300 ![2, 0, 0] · slices_S5x300x300_S1x300x300_2_0_0) : (⟨S5x300x300, .f32⟩ : BufTy).Contents (Elt F) → (⟨S1x300x300, .f32⟩ : BufTy).Contents (Elt F)),
    StableHlo.reshape main_v197 main_v198 rfl shapeCasts_S1x300x300_S300x300,
    StableHlo.binary main_v196 main_v198 main_v199 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v200 ((extractStridedSlice S1x300 ![2, 0] · slices_S5x300_S1x300_2_0) : (⟨S5x300, .f32⟩ : BufTy).Contents (Elt F) → (⟨S1x300, .f32⟩ : BufTy).Contents (Elt F)),
    StableHlo.reshape main_v200 main_v201 rfl shapeCasts_S1x300_S300,
    StableHlo.unary main_v201 main_v202 (broadcastInDim S1x300 ![1] bcast_S300_S1x300_1 : (⟨S300, .f32⟩ : BufTy).Contents (Elt F) → (⟨S1x300, .f32⟩ : BufTy).Contents (Elt F)),
    StableHlo.unary main_v202 main_v203 (broadcastInDim S50000x300 ![0, 1] bcast_S1x300_S50000x300_0_1 : (⟨S1x300, .f32⟩ : BufTy).Contents (Elt F) → (⟨S50000x300, .f32⟩ : BufTy).Contents (Elt F)),
    StableHlo.binary main_v199 main_v203 main_v204 (addf : (⟨S50000x300, .f32⟩ : BufTy).Contents (Elt F) → (⟨S50000x300, .f32⟩ : BufTy).Contents (Elt F) → (⟨S50000x300, .f32⟩ : BufTy).Contents (Elt F)),
    StableHlo.unary main_arg9 main_v205 ((extractStridedSlice S1x300 ![2, 0] · slices_S5x300_S1x300_2_0) : (⟨S5x300, .f32⟩ : BufTy).Contents (Elt F) → (⟨S1x300, .f32⟩ : BufTy).Contents (Elt F)),
    StableHlo.reshape main_v205 main_v206 rfl shapeCasts_S1x300_S300,
    StableHlo.unary main_arg10 main_v207 ((extractStridedSlice S1x300 ![2, 0] · slices_S5x300_S1x300_2_0) : (⟨S5x300, .f32⟩ : BufTy).Contents (Elt F) → (⟨S1x300, .f32⟩ : BufTy).Contents (Elt F)),
    StableHlo.reshape main_v207 main_v208 rfl shapeCasts_S1x300_S300,
    StableHlo.nullary main_cst_27 (constant S_ .f32 0x00000000#32),
    StableHlo.binary main_v204 main_cst_27 main_v209 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_28 (constant S_ .f32 0x47435000#32),
    StableHlo.unary main_cst_28 main_v210 (broadcastInDim S300 ![] bcast_S_S300 : (⟨S_, .f32⟩ : BufTy).Contents (Elt F) → (⟨S300, .f32⟩ : BufTy).Contents (Elt F)),
    StableHlo.binary main_v209 main_v210 main_v211 (Host.divf : (⟨S300, .f32⟩ : BufTy).Contents (Elt F) → (⟨S300, .f32⟩ : BufTy).Contents (Elt F) → (⟨S300, .f32⟩ : BufTy).Contents (Elt F)),
    StableHlo.nullary main_c_29 (constantI S_ 32 0#32),
    StableHlo.TRef.nullary main_call10.cst (constant S_ .f32 0x00000000#32),
    StableHlo.TRef.binary (StableHlo.TRef.of main_v204 : StableHlo.TRef sig ⟨S50000x300, .f32⟩) main_call10.cst main_call10.v0 (fun x v => Host.reduceAdd x v reducesTo_S50000x300_S300_d0 h_S_),
    StableHlo.TRef.unary main_call10.v0 main_call10.v1 (broadcastInDim S1x300 ![1] bcast_S300_S1x300_1),
    StableHlo.TRef.nullary main_call10.cst_0 (constant S_ .f32 0x47435000#32),
    StableHlo.TRef.unary main_call10.cst_0 main_call10.v2 (broadcastInDim S1x300 ![] bcast_S_S1x300),
    StableHlo.TRef.binary main_call10.v1 main_call10.v2 main_call10.v3 Host.divf,
    StableHlo.TRef.unary main_call10.v3 main_call10.v4 (broadcastInDim S50000x300 ![0, 1] bcast_S1x300_S50000x300_0_1),
    StableHlo.TRef.binary (StableHlo.TRef.of main_v204 : StableHlo.TRef sig ⟨S50000x300, .f32⟩) main_call10.v4 main_call10.v5 subf,
    StableHlo.TRef.binary main_call10.v5 main_call10.v5 main_call10.v6 mulf,
    StableHlo.TRef.unary (StableHlo.TRef.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x300_S300_d0 h_S_),
    StableHlo.TRef.unary main_call10.v8 main_call10.v10 (broadcastInDim S300 ![] bcast_S_S300),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S300 ![] bcast_S_S300),
    StableHlo.TRef.ternary main_call10.v12 main_call10.v11 main_call10.call0.v1 main_call10.call0.v2 (fun p a b => select (broadcastInDim S300 ![] bcast_S_S300 p) a b),
    StableHlo.unary main_v211 main_v213 (broadcastInDim S1x300 ![1] bcast_S300_S1x300_1 : (⟨S300, .f32⟩ : BufTy).Contents (Elt F) → (⟨S1x300, .f32⟩ : BufTy).Contents (Elt F)),
    StableHlo.unary main_v213 main_v214 (broadcastInDim S50000x300 ![0, 1] bcast_S1x300_S50000x300_0_1 : (⟨S1x300, .f32⟩ : BufTy).Contents (Elt F) → (⟨S50000x300, .f32⟩ : BufTy).Contents (Elt F)),
    StableHlo.binary main_v204 main_v214 main_v215 (subf : (⟨S50000x300, .f32⟩ : BufTy).Contents (Elt F) → (⟨S50000x300, .f32⟩ : BufTy).Contents (Elt F) → (⟨S50000x300, .f32⟩ : BufTy).Contents (Elt F)),
    StableHlo.nullary main_cst_30 (constant S_ .f32 0x3727C5AC#32),
    StableHlo.unary main_cst_30 main_v216 (broadcastInDim S300 ![] bcast_S_S300 : (⟨S_, .f32⟩ : BufTy).Contents (Elt F) → (⟨S300, .f32⟩ : BufTy).Contents (Elt F)),
    StableHlo.binary main_v212 main_v216 main_v217 (addf : (⟨S300, .f32⟩ : BufTy).Contents (Elt F) → (⟨S300, .f32⟩ : BufTy).Contents (Elt F) → (⟨S300, .f32⟩ : BufTy).Contents (Elt F)),
    StableHlo.unary main_v217 main_v218 (Host.rsqrt : (⟨S300, .f32⟩ : BufTy).Contents (Elt F) → (⟨S300, .f32⟩ : BufTy).Contents (Elt F)),
    StableHlo.unary main_v218 main_v219 (broadcastInDim S1x300 ![1] bcast_S300_S1x300_1 : (⟨S300, .f32⟩ : BufTy).Contents (Elt F) → (⟨S1x300, .f32⟩ : BufTy).Contents (Elt F)),
    StableHlo.unary main_v219 main_v220 (broadcastInDim S50000x300 ![0, 1] bcast_S1x300_S50000x300_0_1 : (⟨S1x300, .f32⟩ : BufTy).Contents (Elt F) → (⟨S50000x300, .f32⟩ : BufTy).Contents (Elt F)),
    StableHlo.binary main_v215 main_v220 main_v221 (mulf : (⟨S50000x300, .f32⟩ : BufTy).Contents (Elt F) → (⟨S50000x300, .f32⟩ : BufTy).Contents (Elt F) → (⟨S50000x300, .f32⟩ : BufTy).Contents (Elt F)),
    StableHlo.unary main_v206 main_v222 (broadcastInDim S1x300 ![1] bcast_S300_S1x300_1 : (⟨S300, .f32⟩ : BufTy).Contents (Elt F) → (⟨S1x300, .f32⟩ : BufTy).Contents (Elt F)),
    StableHlo.unary main_v222 main_v223 (broadcastInDim S50000x300 ![0, 1] bcast_S1x300_S50000x300_0_1 : (⟨S1x300, .f32⟩ : BufTy).Contents (Elt F) → (⟨S50000x300, .f32⟩ : BufTy).Contents (Elt F)),
    StableHlo.binary main_v221 main_v223 main_v224 (mulf : (⟨S50000x300, .f32⟩ : BufTy).Contents (Elt F) → (⟨S50000x300, .f32⟩ : BufTy).Contents (Elt F) → (⟨S50000x300, .f32⟩ : BufTy).Contents (Elt F)),
    StableHlo.unary main_v208 main_v225 (broadcastInDim S1x300 ![1] bcast_S300_S1x300_1 : (⟨S300, .f32⟩ : BufTy).Contents (Elt F) → (⟨S1x300, .f32⟩ : BufTy).Contents (Elt F)),
    StableHlo.unary main_v225 main_v226 (broadcastInDim S50000x300 ![0, 1] bcast_S1x300_S50000x300_0_1 : (⟨S1x300, .f32⟩ : BufTy).Contents (Elt F) → (⟨S50000x300, .f32⟩ : BufTy).Contents (Elt F)),
    StableHlo.binary main_v224 main_v226 main_v227 (addf : (⟨S50000x300, .f32⟩ : BufTy).Contents (Elt F) → (⟨S50000x300, .f32⟩ : BufTy).Contents (Elt F) → (⟨S50000x300, .f32⟩ : BufTy).Contents (Elt F)),
    StableHlo.TRef.nullary main_call11.cst (constant S_ .f32 0x00000000#32),
    StableHlo.TRef.unary main_call11.cst main_call11.v0 (broadcastInDim S50000x300 ![] bcast_S_S50000x300),
    StableHlo.TRef.binary (StableHlo.TRef.of main_v227 : StableHlo.TRef sig ⟨S50000x300, .f32⟩) main_call11.v0 main_call11.v1 maximumf ]

/-- Layer 3, first half: neighbour sum added to the features, linear map, batch normalisation, relu. 73 operations. -/
abbrev opsL3a : List (HloOp τ sig (Elt F)) :=
  [ StableHlo.nullary main_c_31 (constantI S_ 32 0#32),
    StableHlo.unary main_c_31 main_v229 (broadcastInDim S400000 ![] bcast_S_S400000 : (⟨S_, .i32⟩ : BufTy).Contents (Elt F) → (⟨S400000, .i32⟩ : BufTy).Contents (Elt F)),
    StableHlo.binary main_v1 main_v229 main_v230 (cmpi .slt : (⟨S400000, .i32⟩ : BufTy).Contents (Elt F) → (⟨S400000, .i32⟩ : BufTy).Contents (Elt F) → (⟨S400000, .i1⟩ : BufTy).Contents (Elt F)),
    StableHlo.nullary main_c_32 (constantI S_ 32 50000#32),
    StableHlo.unary main_c_32 main_v231 (broadcastInDim S400000 ![] bcast_S_S400000 : (⟨S_, .i32⟩ : BufTy).Contents (Elt F) → (⟨S400000, .i32⟩ : BufTy).Contents (Elt F)),
    StableHlo.binary main_v1 main_v231 main_v232 (addi : (⟨S400000, .i32⟩ : BufTy).Contents (Elt F) → (⟨S400000, .i32⟩ : BufTy).Contents (Elt F) → (⟨S400000, .i32⟩ : BufTy).Contents (Elt F)),
    StableHlo.ternary main_v230 main_v232 main_v1 main_v233 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v233 main_v234 (broadcastInDim S400000x1 ![0] bcast_S400000_S400000x1_0 : (⟨S400000, .i32⟩ : BufTy).Contents (Elt F) → (⟨S400000x1, .i32⟩ : BufTy).Contents (Elt F)),
    StableHlo.binary main_v228 main_v234 main_v235 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_33 (constant S_ .f32 0x00000000#32),
    StableHlo.unary main_cst_33 main_v236 (broadcastInDim S50000x300 ![] bcast_S_S50000x300 : (⟨S_, .f32⟩ : BufTy).Contents (Elt F) → (⟨S50000x300, .f32⟩ : BufTy).Contents (Elt F)),
    StableHlo.unary main_v3 main_v237 (broadcastInDim S400000x1 ![0] bcast_S400000_S400000x1_0 : (⟨S400000, .i32⟩ : BufTy).Contents (Elt F) → (⟨S400000x1, .i32⟩ : BufTy).Contents (Elt F)),
    StableHlo.ternary main_v236 main_v237 main_v235 main_v238 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v228 main_v238 main_v239 (addf : (⟨S50000x300, .f32⟩ : BufTy).Contents (Elt F) → (⟨S50000x300, .f32⟩ : BufTy).Contents (Elt F) → (⟨S50000x300, .f32⟩ : BufTy).Contents (Elt F)),
    StableHlo.unary main_arg3 main_v240 ((extractStridedSlice S1x300x300 ![3, 0, 0] · slices_S5x300x300_S1x300x300_3_0_0) : (⟨S5x300x300, .f32⟩ : BufTy).Contents (Elt F) → (⟨S1x300x300, .f32⟩ : BufTy).Contents (Elt F)),
    StableHlo.reshape main_v240 main_v241 rfl shapeCasts_S1x300x300_S300x300,
    StableHlo.binary main_v239 main_v241 main_v242 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v243 ((extractStridedSlice S1x300 ![3, 0] · slices_S5x300_S1x300_3_0) : (⟨S5x300, .f32⟩ : BufTy).Contents (Elt F) → (⟨S1x300, .f32⟩ : BufTy).Contents (Elt F)),
    StableHlo.reshape main_v243 main_v244 rfl shapeCasts_S1x300_S300,
    StableHlo.unary main_v244 main_v245 (broadcastInDim S1x300 ![1] bcast_S300_S1x300_1 : (⟨S300, .f32⟩ : BufTy).Contents (Elt F) → (⟨S1x300, .f32⟩ : BufTy).Contents (Elt F)),
    StableHlo.unary main_v245 main_v246 (broadcastInDim S50000x300 ![0, 1] bcast_S1x300_S50000x300_0_1 : (⟨S1x300, .f32⟩ : BufTy).Contents (Elt F) → (⟨S50000x300, .f32⟩ : BufTy).Contents (Elt F)),
    StableHlo.binary main_v242 main_v246 main_v247 (addf : (⟨S50000x300, .f32⟩ : BufTy).Contents (Elt F) → (⟨S50000x300, .f32⟩ : BufTy).Contents (Elt F) → (⟨S50000x300, .f32⟩ : BufTy).Contents (Elt F)),
    StableHlo.unary main_arg5 main_v248 ((extractStridedSlice S1x300 ![3, 0] · slices_S5x300_S1x300_3_0) : (⟨S5x300, .f32⟩ : BufTy).Contents (Elt F) → (⟨S1x300, .f32⟩ : BufTy).Contents (Elt F)),
    StableHlo.reshape main_v248 main_v249 rfl shapeCasts_S1x300_S300,
    StableHlo.unary main_arg6 main_v250 ((extractStridedSlice S1x300 ![3, 0] · slices_S5x300_S1x300_3_0) : (⟨S5x300, .f32⟩ : BufTy).Contents (Elt F) → (⟨S1x300, .f32⟩ : BufTy).Contents (Elt F)),
    StableHlo.reshape main_v250 main_v251 rfl shapeCasts_S1x300_S300,
    StableHlo.nullary main_cst_34 (constant S_ .f32 0x00000000#32),
    StableHlo.binary main_v247 main_cst_34 main_v252 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_35 (constant S_ .f32 0x47435000#32),
    StableHlo.unary main_cst_35 main_v253 (broadcastInDim S300 ![] bcast_S_S300 : (⟨S_, .f32⟩ : BufTy).Contents (Elt F) → (⟨S300, .f32⟩ : BufTy).Contents (Elt F)),
    StableHlo.binary main_v252 main_v253 main_v254 (Host.divf : (⟨S300, .f32⟩ : BufTy).Contents (Elt F) → (⟨S300, .f32⟩ : BufTy).Contents (Elt F) → (⟨S300, .f32⟩ : BufTy).Contents (Elt F)),
    StableHlo.nullary main_c_36 (constantI S_ 32 0#32),
    StableHlo.TRef.nullary main_call12.cst (constant S_ .f32 0x00000000#32),
    StableHlo.TRef.binary (StableHlo.TRef.of main_v247 : StableHlo.TRef sig ⟨S50000x300, .f32⟩) main_call12.cst main_call12.v0 (fun x v => Host.reduceAdd x v reducesTo_S50000x300_S300_d0 h_S_),
    StableHlo.TRef.unary main_call12.v0 main_call12.v1 (broadcastInDim S1x300 ![1] bcast_S300_S1x300_1),
    StableHlo.TRef.nullary main_call12.cst_0 (constant S_ .f32 0x47435000#32),
    StableHlo.TRef.unary main_call12.cst_0 main_call12.v2 (broadcastInDim S1x300 ![] bcast_S_S1x300),
    StableHlo.TRef.binary main_call12.v1 main_call12.v2 main_call12.v3 Host.divf,
    StableHlo.TRef.unary main_call12.v3 main_call12.v4 (broadcastInDim S50000x300 ![0, 1] bcast_S1x300_S50000x300_0_1),
    StableHlo.TRef.binary (StableHlo.TRef.of main_v247 : StableHlo.TRef sig ⟨S50000x300, .f32⟩) main_call12.v4 main_call12.v5 subf,
    StableHlo.TRef.binary main_call12.v5 main_call12.v5 main_call12.v6 mulf,
    StableHlo.TRef.unary (StableHlo.TRef.of main_c_36 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x300_S300_d0 h_S_),
    StableHlo.TRef.unary main_call12.v8 main_call12.v10 (broadcastInDim S300 ![] bcast_S_S300),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S300 ![] bcast_S_S300),
    StableHlo.TRef.ternary main_call12.v12 main_call12.v11 main_call12.call0.v1 main_call12.call0.v2 (fun p a b => select (broadcastInDim S300 ![] bcast_S_S300 p) a b),
    StableHlo.unary main_v254 main_v256 (broadcastInDim S1x300 ![1] bcast_S300_S1x300_1 : (⟨S300, .f32⟩ : BufTy).Contents (Elt F) → (⟨S1x300, .f32⟩ : BufTy).Contents (Elt F)),
    StableHlo.unary main_v256 main_v257 (broadcastInDim S50000x300 ![0, 1] bcast_S1x300_S50000x300_0_1 : (⟨S1x300, .f32⟩ : BufTy).Contents (Elt F) → (⟨S50000x300, .f32⟩ : BufTy).Contents (Elt F)),
    StableHlo.binary main_v247 main_v257 main_v258 (subf : (⟨S50000x300, .f32⟩ : BufTy).Contents (Elt F) → (⟨S50000x300, .f32⟩ : BufTy).Contents (Elt F) → (⟨S50000x300, .f32⟩ : BufTy).Contents (Elt F)),
    StableHlo.nullary main_cst_37 (constant S_ .f32 0x3727C5AC#32),
    StableHlo.unary main_cst_37 main_v259 (broadcastInDim S300 ![] bcast_S_S300 : (⟨S_, .f32⟩ : BufTy).Contents (Elt F) → (⟨S300, .f32⟩ : BufTy).Contents (Elt F)),
    StableHlo.binary main_v255 main_v259 main_v260 (addf : (⟨S300, .f32⟩ : BufTy).Contents (Elt F) → (⟨S300, .f32⟩ : BufTy).Contents (Elt F) → (⟨S300, .f32⟩ : BufTy).Contents (Elt F)),
    StableHlo.unary main_v260 main_v261 (Host.rsqrt : (⟨S300, .f32⟩ : BufTy).Contents (Elt F) → (⟨S300, .f32⟩ : BufTy).Contents (Elt F)),
    StableHlo.unary main_v261 main_v262 (broadcastInDim S1x300 ![1] bcast_S300_S1x300_1 : (⟨S300, .f32⟩ : BufTy).Contents (Elt F) → (⟨S1x300, .f32⟩ : BufTy).Contents (Elt F)),
    StableHlo.unary main_v262 main_v263 (broadcastInDim S50000x300 ![0, 1] bcast_S1x300_S50000x300_0_1 : (⟨S1x300, .f32⟩ : BufTy).Contents (Elt F) → (⟨S50000x300, .f32⟩ : BufTy).Contents (Elt F)),
    StableHlo.binary main_v258 main_v263 main_v264 (mulf : (⟨S50000x300, .f32⟩ : BufTy).Contents (Elt F) → (⟨S50000x300, .f32⟩ : BufTy).Contents (Elt F) → (⟨S50000x300, .f32⟩ : BufTy).Contents (Elt F)),
    StableHlo.unary main_v249 main_v265 (broadcastInDim S1x300 ![1] bcast_S300_S1x300_1 : (⟨S300, .f32⟩ : BufTy).Contents (Elt F) → (⟨S1x300, .f32⟩ : BufTy).Contents (Elt F)),
    StableHlo.unary main_v265 main_v266 (broadcastInDim S50000x300 ![0, 1] bcast_S1x300_S50000x300_0_1 : (⟨S1x300, .f32⟩ : BufTy).Contents (Elt F) → (⟨S50000x300, .f32⟩ : BufTy).Contents (Elt F)),
    StableHlo.binary main_v264 main_v266 main_v267 (mulf : (⟨S50000x300, .f32⟩ : BufTy).Contents (Elt F) → (⟨S50000x300, .f32⟩ : BufTy).Contents (Elt F) → (⟨S50000x300, .f32⟩ : BufTy).Contents (Elt F)),
    StableHlo.unary main_v251 main_v268 (broadcastInDim S1x300 ![1] bcast_S300_S1x300_1 : (⟨S300, .f32⟩ : BufTy).Contents (Elt F) → (⟨S1x300, .f32⟩ : BufTy).Contents (Elt F)),
    StableHlo.unary main_v268 main_v269 (broadcastInDim S50000x300 ![0, 1] bcast_S1x300_S50000x300_0_1 : (⟨S1x300, .f32⟩ : BufTy).Contents (Elt F) → (⟨S50000x300, .f32⟩ : BufTy).Contents (Elt F)),
    StableHlo.binary main_v267 main_v269 main_v270 (addf : (⟨S50000x300, .f32⟩ : BufTy).Contents (Elt F) → (⟨S50000x300, .f32⟩ : BufTy).Contents (Elt F) → (⟨S50000x300, .f32⟩ : BufTy).Contents (Elt F)),
    StableHlo.TRef.nullary main_call13.cst (constant S_ .f32 0x00000000#32),
    StableHlo.TRef.unary main_call13.cst main_call13.v0 (broadcastInDim S50000x300 ![] bcast_S_S50000x300),
    StableHlo.TRef.binary (StableHlo.TRef.of main_v270 : StableHlo.TRef sig ⟨S50000x300, .f32⟩) main_call13.v0 main_call13.v1 maximumf ]

/-- Layer 3, second half: linear map, batch normalisation, relu. 59 operations. -/
abbrev opsL3b : List (HloOp τ sig (Elt F)) :=
  [ StableHlo.unary main_arg7 main_v272 ((extractStridedSlice S1x300x300 ![3, 0, 0] · slices_S5x300x300_S1x300x300_3_0_0) : (⟨S5x300x300, .f32⟩ : BufTy).Contents (Elt F) → (⟨S1x300x300, .f32⟩ : BufTy).Contents (Elt F)),
    StableHlo.reshape main_v272 main_v273 rfl shapeCasts_S1x300x300_S300x300,
    StableHlo.binary main_v271 main_v273 main_v274 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v275 ((extractStridedSlice S1x300 ![3, 0] · slices_S5x300_S1x300_3_0) : (⟨S5x300, .f32⟩ : BufTy).Contents (Elt F) → (⟨S1x300, .f32⟩ : BufTy).Contents (Elt F)),
    StableHlo.reshape main_v275 main_v276 rfl shapeCasts_S1x300_S300,
    StableHlo.unary main_v276 main_v277 (broadcastInDim S1x300 ![1] bcast_S300_S1x300_1 : (⟨S300, .f32⟩ : BufTy).Contents (Elt F) → (⟨S1x300, .f32⟩ : BufTy).Contents (Elt F)),
    StableHlo.unary main_v277 main_v278 (broadcastInDim S50000x300 ![0, 1] bcast_S1x300_S50000x300_0_1 : (⟨S1x300, .f32⟩ : BufTy).Contents (Elt F) → (⟨S50000x300, .f32⟩ : BufTy).Contents (Elt F)),
    StableHlo.binary main_v274 main_v278 main_v279 (addf : (⟨S50000x300, .f32⟩ : BufTy).Contents (Elt F) → (⟨S50000x300, .f32⟩ : BufTy).Contents (Elt F) → (⟨S50000x300, .f32⟩ : BufTy).Contents (Elt F)),
    StableHlo.unary main_arg9 main_v280 ((extractStridedSlice S1x300 ![3, 0] · slices_S5x300_S1x300_3_0) : (⟨S5x300, .f32⟩ : BufTy).Contents (Elt F) → (⟨S1x300, .f32⟩ : BufTy).Contents (Elt F)),
    StableHlo.reshape main_v280 main_v281 rfl shapeCasts_S1x300_S300,
    StableHlo.unary main_arg10 main_v282 ((extractStridedSlice S1x300 ![3, 0] · slices_S5x300_S1x300_3_0) : (⟨S5x300, .f32⟩ : BufTy).Contents (Elt F) → (⟨S1x300, .f32⟩ : BufTy).Contents (Elt F)),
    StableHlo.reshape main_v282 main_v283 rfl shapeCasts_S1x300_S300,
    StableHlo.nullary main_cst_38 (constant S_ .f32 0x00000000#32),
    StableHlo.binary main_v279 main_cst_38 main_v284 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_39 (constant S_ .f32 0x47435000#32),
    StableHlo.unary main_cst_39 main_v285 (broadcastInDim S300 ![] bcast_S_S300 : (⟨S_, .f32⟩ : BufTy).Contents (Elt F) → (⟨S300, .f32⟩ : BufTy).Contents (Elt F)),
    StableHlo.binary main_v284 main_v285 main_v286 (Host.divf : (⟨S300, .f32⟩ : BufTy).Contents (Elt F) → (⟨S300, .f32⟩ : BufTy).Contents (Elt F) → (⟨S300, .f32⟩ : BufTy).Contents (Elt F)),
    StableHlo.nullary main_c_40 (constantI S_ 32 0#32),
    StableHlo.TRef.nullary main_call14.cst (constant S_ .f32 0x00000000#32),
    StableHlo.TRef.binary (StableHlo.TRef.of main_v279 : StableHlo.TRef sig ⟨S50000x300, .f32⟩) main_call14.cst main_call14.v0 (fun x v => Host.reduceAdd x v reducesTo_S50000x300_S300_d0 h_S_),
    StableHlo.TRef.unary main_call14.v0 main_call14.v1 (broadcastInDim S1x300 ![1] bcast_S300_S1x300_1),
    StableHlo.TRef.nullary main_call14.cst_0 (constant S_ .f32 0x47435000#32),
    StableHlo.TRef.unary main_call14.cst_0 main_call14.v2 (broadcastInDim S1x300 ![] bcast_S_S1x300),
    StableHlo.TRef.binary main_call14.v1 main_call14.v2 main_call14.v3 Host.divf,
    StableHlo.TRef.unary main_call14.v3 main_call14.v4 (broadcastInDim S50000x300 ![0, 1] bcast_S1x300_S50000x300_0_1),
    StableHlo.TRef.binary (StableHlo.TRef.of main_v279 : StableHlo.TRef sig ⟨S50000x300, .f32⟩) main_call14.v4 main_call14.v5 subf,
    StableHlo.TRef.binary main_call14.v5 main_call14.v5 main_call14.v6 mulf,
    StableHlo.TRef.unary (StableHlo.TRef.of main_c_40 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x300_S300_d0 h_S_),
    StableHlo.TRef.unary main_call14.v8 main_call14.v10 (broadcastInDim S300 ![] bcast_S_S300),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S300 ![] bcast_S_S300),
    StableHlo.TRef.ternary main_call14.v12 main_call14.v11 main_call14.call0.v1 main_call14.call0.v2 (fun p a b => select (broadcastInDim S300 ![] bcast_S_S300 p) a b),
    StableHlo.unary main_v286 main_v288 (broadcastInDim S1x300 ![1] bcast_S300_S1x300_1 : (⟨S300, .f32⟩ : BufTy).Contents (Elt F) → (⟨S1x300, .f32⟩ : BufTy).Contents (Elt F)),
    StableHlo.unary main_v288 main_v289 (broadcastInDim S50000x300 ![0, 1] bcast_S1x300_S50000x300_0_1 : (⟨S1x300, .f32⟩ : BufTy).Contents (Elt F) → (⟨S50000x300, .f32⟩ : BufTy).Contents (Elt F)),
    StableHlo.binary main_v279 main_v289 main_v290 (subf : (⟨S50000x300, .f32⟩ : BufTy).Contents (Elt F) → (⟨S50000x300, .f32⟩ : BufTy).Contents (Elt F) → (⟨S50000x300, .f32⟩ : BufTy).Contents (Elt F)),
    StableHlo.nullary main_cst_41 (constant S_ .f32 0x3727C5AC#32),
    StableHlo.unary main_cst_41 main_v291 (broadcastInDim S300 ![] bcast_S_S300 : (⟨S_, .f32⟩ : BufTy).Contents (Elt F) → (⟨S300, .f32⟩ : BufTy).Contents (Elt F)),
    StableHlo.binary main_v287 main_v291 main_v292 (addf : (⟨S300, .f32⟩ : BufTy).Contents (Elt F) → (⟨S300, .f32⟩ : BufTy).Contents (Elt F) → (⟨S300, .f32⟩ : BufTy).Contents (Elt F)),
    StableHlo.unary main_v292 main_v293 (Host.rsqrt : (⟨S300, .f32⟩ : BufTy).Contents (Elt F) → (⟨S300, .f32⟩ : BufTy).Contents (Elt F)),
    StableHlo.unary main_v293 main_v294 (broadcastInDim S1x300 ![1] bcast_S300_S1x300_1 : (⟨S300, .f32⟩ : BufTy).Contents (Elt F) → (⟨S1x300, .f32⟩ : BufTy).Contents (Elt F)),
    StableHlo.unary main_v294 main_v295 (broadcastInDim S50000x300 ![0, 1] bcast_S1x300_S50000x300_0_1 : (⟨S1x300, .f32⟩ : BufTy).Contents (Elt F) → (⟨S50000x300, .f32⟩ : BufTy).Contents (Elt F)),
    StableHlo.binary main_v290 main_v295 main_v296 (mulf : (⟨S50000x300, .f32⟩ : BufTy).Contents (Elt F) → (⟨S50000x300, .f32⟩ : BufTy).Contents (Elt F) → (⟨S50000x300, .f32⟩ : BufTy).Contents (Elt F)),
    StableHlo.unary main_v281 main_v297 (broadcastInDim S1x300 ![1] bcast_S300_S1x300_1 : (⟨S300, .f32⟩ : BufTy).Contents (Elt F) → (⟨S1x300, .f32⟩ : BufTy).Contents (Elt F)),
    StableHlo.unary main_v297 main_v298 (broadcastInDim S50000x300 ![0, 1] bcast_S1x300_S50000x300_0_1 : (⟨S1x300, .f32⟩ : BufTy).Contents (Elt F) → (⟨S50000x300, .f32⟩ : BufTy).Contents (Elt F)),
    StableHlo.binary main_v296 main_v298 main_v299 (mulf : (⟨S50000x300, .f32⟩ : BufTy).Contents (Elt F) → (⟨S50000x300, .f32⟩ : BufTy).Contents (Elt F) → (⟨S50000x300, .f32⟩ : BufTy).Contents (Elt F)),
    StableHlo.unary main_v283 main_v300 (broadcastInDim S1x300 ![1] bcast_S300_S1x300_1 : (⟨S300, .f32⟩ : BufTy).Contents (Elt F) → (⟨S1x300, .f32⟩ : BufTy).Contents (Elt F)),
    StableHlo.unary main_v300 main_v301 (broadcastInDim S50000x300 ![0, 1] bcast_S1x300_S50000x300_0_1 : (⟨S1x300, .f32⟩ : BufTy).Contents (Elt F) → (⟨S50000x300, .f32⟩ : BufTy).Contents (Elt F)),
    StableHlo.binary main_v299 main_v301 main_v302 (addf : (⟨S50000x300, .f32⟩ : BufTy).Contents (Elt F) → (⟨S50000x300, .f32⟩ : BufTy).Contents (Elt F) → (⟨S50000x300, .f32⟩ : BufTy).Contents (Elt F)),
    StableHlo.TRef.nullary main_call15.cst (constant S_ .f32 0x00000000#32),
    StableHlo.TRef.unary main_call15.cst main_call15.v0 (broadcastInDim S50000x300 ![] bcast_S_S50000x300),
    StableHlo.TRef.binary (StableHlo.TRef.of main_v302 : StableHlo.TRef sig ⟨S50000x300, .f32⟩) main_call15.v0 main_call15.v1 maximumf ]

/-- Layer 4, first half: neighbour sum added to the features, linear map, batch normalisation, relu. 73 operations. -/
abbrev opsL4a : List (HloOp τ sig (Elt F)) :=
  [ StableHlo.nullary main_c_42 (constantI S_ 32 0#32),
    StableHlo.unary main_c_42 main_v304 (broadcastInDim S400000 ![] bcast_S_S400000 : (⟨S_, .i32⟩ : BufTy).Contents (Elt F) → (⟨S400000, .i32⟩ : BufTy).Contents (Elt F)),
    StableHlo.binary main_v1 main_v304 main_v305 (cmpi .slt : (⟨S400000, .i32⟩ : BufTy).Contents (Elt F) → (⟨S400000, .i32⟩ : BufTy).Contents (Elt F) → (⟨S400000, .i1⟩ : BufTy).Contents (Elt F)),
    StableHlo.nullary main_c_43 (constantI S_ 32 50000#32),
    StableHlo.unary main_c_43 main_v306 (broadcastInDim S400000 ![] bcast_S_S400000 : (⟨S_, .i32⟩ : BufTy).Contents (Elt F) → (⟨S400000, .i32⟩ : BufTy).Contents (Elt F)),
    StableHlo.binary main_v1 main_v306 main_v307 (addi : (⟨S400000, .i32⟩ : BufTy).Contents (Elt F) → (⟨S400000, .i32⟩ : BufTy).Contents (Elt F) → (⟨S400000, .i32⟩ : BufTy).Contents (Elt F)),
    StableHlo.ternary main_v305 main_v307 main_v1 main_v308 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v308 main_v309 (broadcastInDim S400000x1 ![0] bcast_S400000_S400000x1_0 : (⟨S400000, .i32⟩ : BufTy).Contents (Elt F) → (⟨S400000x1, .i32⟩ : BufTy).Contents (Elt F)),
    StableHlo.binary main_v303 main_v309 main_v310 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_44 (constant S_ .f32 0x00000000#32),
    StableHlo.unary main_cst_44 main_v311 (broadcastInDim S50000x300 ![] bcast_S_S50000x300 : (⟨S_, .f32⟩ : BufTy).Contents (Elt F) → (⟨S50000x300, .f32⟩ : BufTy).Contents (Elt F)),
    StableHlo.unary main_v3 main_v312 (broadcastInDim S400000x1 ![0] bcast_S400000_S400000x1_0 : (⟨S400000, .i32⟩ : BufTy).Contents (Elt F) → (⟨S400000x1, .i32⟩ : BufTy).Contents (Elt F)),
    StableHlo.ternary main_v311 main_v312 main_v310 main_v313 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v303 main_v313 main_v314 (addf : (⟨S50000x300, .f32⟩ : BufTy).Contents (Elt F) → (⟨S50000x300, .f32⟩ : BufTy).Contents (Elt F) → (⟨S50000x300, .f32⟩ : BufTy).Contents (Elt F)),
    StableHlo.unary main_arg3 main_v315 ((extractStridedSlice S1x300x300 ![4, 0, 0] · slices_S5x300x300_S1x300x300_4_0_0) : (⟨S5x300x300, .f32⟩ : BufTy).Contents (Elt F) → (⟨S1x300x300, .f32⟩ : BufTy).Contents (Elt F)),
    StableHlo.reshape main_v315 main_v316 rfl shapeCasts_S1x300x300_S300x300,
    StableHlo.binary main_v314 main_v316 main_v317 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v318 ((extractStridedSlice S1x300 ![4, 0] · slices_S5x300_S1x300_4_0) : (⟨S5x300, .f32⟩ : BufTy).Contents (Elt F) → (⟨S1x300, .f32⟩ : BufTy).Contents (Elt F)),
    StableHlo.reshape main_v318 main_v319 rfl shapeCasts_S1x300_S300,
    StableHlo.unary main_v319 main_v320 (broadcastInDim S1x300 ![1] bcast_S300_S1x300_1 : (⟨S300, .f32⟩ : BufTy).Contents (Elt F) → (⟨S1x300, .f32⟩ : BufTy).Contents (Elt F)),
    StableHlo.unary main_v320 main_v321 (broadcastInDim S50000x300 ![0, 1] bcast_S1x300_S50000x300_0_1 : (⟨S1x300, .f32⟩ : BufTy).Contents (Elt F) → (⟨S50000x300, .f32⟩ : BufTy).Contents (Elt F)),
    StableHlo.binary main_v317 main_v321 main_v322 (addf : (⟨S50000x300, .f32⟩ : BufTy).Contents (Elt F) → (⟨S50000x300, .f32⟩ : BufTy).Contents (Elt F) → (⟨S50000x300, .f32⟩ : BufTy).Contents (Elt F)),
    StableHlo.unary main_arg5 main_v323 ((extractStridedSlice S1x300 ![4, 0] · slices_S5x300_S1x300_4_0) : (⟨S5x300, .f32⟩ : BufTy).Contents (Elt F) → (⟨S1x300, .f32⟩ : BufTy).Contents (Elt F)),
    StableHlo.reshape main_v323 main_v324 rfl shapeCasts_S1x300_S300,
    StableHlo.unary main_arg6 main_v325 ((extractStridedSlice S1x300 ![4, 0] · slices_S5x300_S1x300_4_0) : (⟨S5x300, .f32⟩ : BufTy).Contents (Elt F) → (⟨S1x300, .f32⟩ : BufTy).Contents (Elt F)),
    StableHlo.reshape main_v325 main_v326 rfl shapeCasts_S1x300_S300,
    StableHlo.nullary main_cst_45 (constant S_ .f32 0x00000000#32),
    StableHlo.binary main_v322 main_cst_45 main_v327 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_46 (constant S_ .f32 0x47435000#32),
    StableHlo.unary main_cst_46 main_v328 (broadcastInDim S300 ![] bcast_S_S300 : (⟨S_, .f32⟩ : BufTy).Contents (Elt F) → (⟨S300, .f32⟩ : BufTy).Contents (Elt F)),
    StableHlo.binary main_v327 main_v328 main_v329 (Host.divf : (⟨S300, .f32⟩ : BufTy).Contents (Elt F) → (⟨S300, .f32⟩ : BufTy).Contents (Elt F) → (⟨S300, .f32⟩ : BufTy).Contents (Elt F)),
    StableHlo.nullary main_c_47 (constantI S_ 32 0#32),
    StableHlo.TRef.nullary main_call16.cst (constant S_ .f32 0x00000000#32),
    StableHlo.TRef.binary (StableHlo.TRef.of main_v322 : StableHlo.TRef sig ⟨S50000x300, .f32⟩) main_call16.cst main_call16.v0 (fun x v => Host.reduceAdd x v reducesTo_S50000x300_S300_d0 h_S_),
    StableHlo.TRef.unary main_call16.v0 main_call16.v1 (broadcastInDim S1x300 ![1] bcast_S300_S1x300_1),
    StableHlo.TRef.nullary main_call16.cst_0 (constant S_ .f32 0x47435000#32),
    StableHlo.TRef.unary main_call16.cst_0 main_call16.v2 (broadcastInDim S1x300 ![] bcast_S_S1x300),
    StableHlo.TRef.binary main_call16.v1 main_call16.v2 main_call16.v3 Host.divf,
    StableHlo.TRef.unary main_call16.v3 main_call16.v4 (broadcastInDim S50000x300 ![0, 1] bcast_S1x300_S50000x300_0_1),
    StableHlo.TRef.binary (StableHlo.TRef.of main_v322 : StableHlo.TRef sig ⟨S50000x300, .f32⟩) main_call16.v4 main_call16.v5 subf,
    StableHlo.TRef.binary main_call16.v5 main_call16.v5 main_call16.v6 mulf,
    StableHlo.TRef.unary (StableHlo.TRef.of main_c_47 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x300_S300_d0 h_S_),
    StableHlo.TRef.unary main_call16.v8 main_call16.v10 (broadcastInDim S300 ![] bcast_S_S300),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S300 ![] bcast_S_S300),
    StableHlo.TRef.ternary main_call16.v12 main_call16.v11 main_call16.call0.v1 main_call16.call0.v2 (fun p a b => select (broadcastInDim S300 ![] bcast_S_S300 p) a b),
    StableHlo.unary main_v329 main_v331 (broadcastInDim S1x300 ![1] bcast_S300_S1x300_1 : (⟨S300, .f32⟩ : BufTy).Contents (Elt F) → (⟨S1x300, .f32⟩ : BufTy).Contents (Elt F)),
    StableHlo.unary main_v331 main_v332 (broadcastInDim S50000x300 ![0, 1] bcast_S1x300_S50000x300_0_1 : (⟨S1x300, .f32⟩ : BufTy).Contents (Elt F) → (⟨S50000x300, .f32⟩ : BufTy).Contents (Elt F)),
    StableHlo.binary main_v322 main_v332 main_v333 (subf : (⟨S50000x300, .f32⟩ : BufTy).Contents (Elt F) → (⟨S50000x300, .f32⟩ : BufTy).Contents (Elt F) → (⟨S50000x300, .f32⟩ : BufTy).Contents (Elt F)),
    StableHlo.nullary main_cst_48 (constant S_ .f32 0x3727C5AC#32),
    StableHlo.unary main_cst_48 main_v334 (broadcastInDim S300 ![] bcast_S_S300 : (⟨S_, .f32⟩ : BufTy).Contents (Elt F) → (⟨S300, .f32⟩ : BufTy).Contents (Elt F)),
    StableHlo.binary main_v330 main_v334 main_v335 (addf : (⟨S300, .f32⟩ : BufTy).Contents (Elt F) → (⟨S300, .f32⟩ : BufTy).Contents (Elt F) → (⟨S300, .f32⟩ : BufTy).Contents (Elt F)),
    StableHlo.unary main_v335 main_v336 (Host.rsqrt : (⟨S300, .f32⟩ : BufTy).Contents (Elt F) → (⟨S300, .f32⟩ : BufTy).Contents (Elt F)),
    StableHlo.unary main_v336 main_v337 (broadcastInDim S1x300 ![1] bcast_S300_S1x300_1 : (⟨S300, .f32⟩ : BufTy).Contents (Elt F) → (⟨S1x300, .f32⟩ : BufTy).Contents (Elt F)),
    StableHlo.unary main_v337 main_v338 (broadcastInDim S50000x300 ![0, 1] bcast_S1x300_S50000x300_0_1 : (⟨S1x300, .f32⟩ : BufTy).Contents (Elt F) → (⟨S50000x300, .f32⟩ : BufTy).Contents (Elt F)),
    StableHlo.binary main_v333 main_v338 main_v339 (mulf : (⟨S50000x300, .f32⟩ : BufTy).Contents (Elt F) → (⟨S50000x300, .f32⟩ : BufTy).Contents (Elt F) → (⟨S50000x300, .f32⟩ : BufTy).Contents (Elt F)),
    StableHlo.unary main_v324 main_v340 (broadcastInDim S1x300 ![1] bcast_S300_S1x300_1 : (⟨S300, .f32⟩ : BufTy).Contents (Elt F) → (⟨S1x300, .f32⟩ : BufTy).Contents (Elt F)),
    StableHlo.unary main_v340 main_v341 (broadcastInDim S50000x300 ![0, 1] bcast_S1x300_S50000x300_0_1 : (⟨S1x300, .f32⟩ : BufTy).Contents (Elt F) → (⟨S50000x300, .f32⟩ : BufTy).Contents (Elt F)),
    StableHlo.binary main_v339 main_v341 main_v342 (mulf : (⟨S50000x300, .f32⟩ : BufTy).Contents (Elt F) → (⟨S50000x300, .f32⟩ : BufTy).Contents (Elt F) → (⟨S50000x300, .f32⟩ : BufTy).Contents (Elt F)),
    StableHlo.unary main_v326 main_v343 (broadcastInDim S1x300 ![1] bcast_S300_S1x300_1 : (⟨S300, .f32⟩ : BufTy).Contents (Elt F) → (⟨S1x300, .f32⟩ : BufTy).Contents (Elt F)),
    StableHlo.unary main_v343 main_v344 (broadcastInDim S50000x300 ![0, 1] bcast_S1x300_S50000x300_0_1 : (⟨S1x300, .f32⟩ : BufTy).Contents (Elt F) → (⟨S50000x300, .f32⟩ : BufTy).Contents (Elt F)),
    StableHlo.binary main_v342 main_v344 main_v345 (addf : (⟨S50000x300, .f32⟩ : BufTy).Contents (Elt F) → (⟨S50000x300, .f32⟩ : BufTy).Contents (Elt F) → (⟨S50000x300, .f32⟩ : BufTy).Contents (Elt F)),
    StableHlo.TRef.nullary main_call17.cst (constant S_ .f32 0x00000000#32),
    StableHlo.TRef.unary main_call17.cst main_call17.v0 (broadcastInDim S50000x300 ![] bcast_S_S50000x300),
    StableHlo.TRef.binary (StableHlo.TRef.of main_v345 : StableHlo.TRef sig ⟨S50000x300, .f32⟩) main_call17.v0 main_call17.v1 maximumf ]

/-- Layer 4, second half: linear map, batch normalisation, relu. 59 operations. -/
abbrev opsL4b : List (HloOp τ sig (Elt F)) :=
  [ StableHlo.unary main_arg7 main_v347 ((extractStridedSlice S1x300x300 ![4, 0, 0] · slices_S5x300x300_S1x300x300_4_0_0) : (⟨S5x300x300, .f32⟩ : BufTy).Contents (Elt F) → (⟨S1x300x300, .f32⟩ : BufTy).Contents (Elt F)),
    StableHlo.reshape main_v347 main_v348 rfl shapeCasts_S1x300x300_S300x300,
    StableHlo.binary main_v346 main_v348 main_v349 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v350 ((extractStridedSlice S1x300 ![4, 0] · slices_S5x300_S1x300_4_0) : (⟨S5x300, .f32⟩ : BufTy).Contents (Elt F) → (⟨S1x300, .f32⟩ : BufTy).Contents (Elt F)),
    StableHlo.reshape main_v350 main_v351 rfl shapeCasts_S1x300_S300,
    StableHlo.unary main_v351 main_v352 (broadcastInDim S1x300 ![1] bcast_S300_S1x300_1 : (⟨S300, .f32⟩ : BufTy).Contents (Elt F) → (⟨S1x300, .f32⟩ : BufTy).Contents (Elt F)),
    StableHlo.unary main_v352 main_v353 (broadcastInDim S50000x300 ![0, 1] bcast_S1x300_S50000x300_0_1 : (⟨S1x300, .f32⟩ : BufTy).Contents (Elt F) → (⟨S50000x300, .f32⟩ : BufTy).Contents (Elt F)),
    StableHlo.binary main_v349 main_v353 main_v354 (addf : (⟨S50000x300, .f32⟩ : BufTy).Contents (Elt F) → (⟨S50000x300, .f32⟩ : BufTy).Contents (Elt F) → (⟨S50000x300, .f32⟩ : BufTy).Contents (Elt F)),
    StableHlo.unary main_arg9 main_v355 ((extractStridedSlice S1x300 ![4, 0] · slices_S5x300_S1x300_4_0) : (⟨S5x300, .f32⟩ : BufTy).Contents (Elt F) → (⟨S1x300, .f32⟩ : BufTy).Contents (Elt F)),
    StableHlo.reshape main_v355 main_v356 rfl shapeCasts_S1x300_S300,
    StableHlo.unary main_arg10 main_v357 ((extractStridedSlice S1x300 ![4, 0] · slices_S5x300_S1x300_4_0) : (⟨S5x300, .f32⟩ : BufTy).Contents (Elt F) → (⟨S1x300, .f32⟩ : BufTy).Contents (Elt F)),
    StableHlo.reshape main_v357 main_v358 rfl shapeCasts_S1x300_S300,
    StableHlo.nullary main_cst_49 (constant S_ .f32 0x00000000#32),
    StableHlo.binary main_v354 main_cst_49 main_v359 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_50 (constant S_ .f32 0x47435000#32),
    StableHlo.unary main_cst_50 main_v360 (broadcastInDim S300 ![] bcast_S_S300 : (⟨S_, .f32⟩ : BufTy).Contents (Elt F) → (⟨S300, .f32⟩ : BufTy).Contents (Elt F)),
    StableHlo.binary main_v359 main_v360 main_v361 (Host.divf : (⟨S300, .f32⟩ : BufTy).Contents (Elt F) → (⟨S300, .f32⟩ : BufTy).Contents (Elt F) → (⟨S300, .f32⟩ : BufTy).Contents (Elt F)),
    StableHlo.nullary main_c_51 (constantI S_ 32 0#32),
    StableHlo.TRef.nullary main_call18.cst (constant S_ .f32 0x00000000#32),
    StableHlo.TRef.binary (StableHlo.TRef.of main_v354 : StableHlo.TRef sig ⟨S50000x300, .f32⟩) main_call18.cst main_call18.v0 (fun x v => Host.reduceAdd x v reducesTo_S50000x300_S300_d0 h_S_),
    StableHlo.TRef.unary main_call18.v0 main_call18.v1 (broadcastInDim S1x300 ![1] bcast_S300_S1x300_1),
    StableHlo.TRef.nullary main_call18.cst_0 (constant S_ .f32 0x47435000#32),
    StableHlo.TRef.unary main_call18.cst_0 main_call18.v2 (broadcastInDim S1x300 ![] bcast_S_S1x300),
    StableHlo.TRef.binary main_call18.v1 main_call18.v2 main_call18.v3 Host.divf,
    StableHlo.TRef.unary main_call18.v3 main_call18.v4 (broadcastInDim S50000x300 ![0, 1] bcast_S1x300_S50000x300_0_1),
    StableHlo.TRef.binary (StableHlo.TRef.of main_v354 : StableHlo.TRef sig ⟨S50000x300, .f32⟩) main_call18.v4 main_call18.v5 subf,
    StableHlo.TRef.binary main_call18.v5 main_call18.v5 main_call18.v6 mulf,
    StableHlo.TRef.unary (StableHlo.TRef.of main_c_51 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x300_S300_d0 h_S_),
    StableHlo.TRef.unary main_call18.v8 main_call18.v10 (broadcastInDim S300 ![] bcast_S_S300),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S300 ![] bcast_S_S300),
    StableHlo.TRef.ternary main_call18.v12 main_call18.v11 main_call18.call0.v1 main_call18.call0.v2 (fun p a b => select (broadcastInDim S300 ![] bcast_S_S300 p) a b),
    StableHlo.unary main_v361 main_v363 (broadcastInDim S1x300 ![1] bcast_S300_S1x300_1 : (⟨S300, .f32⟩ : BufTy).Contents (Elt F) → (⟨S1x300, .f32⟩ : BufTy).Contents (Elt F)),
    StableHlo.unary main_v363 main_v364 (broadcastInDim S50000x300 ![0, 1] bcast_S1x300_S50000x300_0_1 : (⟨S1x300, .f32⟩ : BufTy).Contents (Elt F) → (⟨S50000x300, .f32⟩ : BufTy).Contents (Elt F)),
    StableHlo.binary main_v354 main_v364 main_v365 (subf : (⟨S50000x300, .f32⟩ : BufTy).Contents (Elt F) → (⟨S50000x300, .f32⟩ : BufTy).Contents (Elt F) → (⟨S50000x300, .f32⟩ : BufTy).Contents (Elt F)),
    StableHlo.nullary main_cst_52 (constant S_ .f32 0x3727C5AC#32),
    StableHlo.unary main_cst_52 main_v366 (broadcastInDim S300 ![] bcast_S_S300 : (⟨S_, .f32⟩ : BufTy).Contents (Elt F) → (⟨S300, .f32⟩ : BufTy).Contents (Elt F)),
    StableHlo.binary main_v362 main_v366 main_v367 (addf : (⟨S300, .f32⟩ : BufTy).Contents (Elt F) → (⟨S300, .f32⟩ : BufTy).Contents (Elt F) → (⟨S300, .f32⟩ : BufTy).Contents (Elt F)),
    StableHlo.unary main_v367 main_v368 (Host.rsqrt : (⟨S300, .f32⟩ : BufTy).Contents (Elt F) → (⟨S300, .f32⟩ : BufTy).Contents (Elt F)),
    StableHlo.unary main_v368 main_v369 (broadcastInDim S1x300 ![1] bcast_S300_S1x300_1 : (⟨S300, .f32⟩ : BufTy).Contents (Elt F) → (⟨S1x300, .f32⟩ : BufTy).Contents (Elt F)),
    StableHlo.unary main_v369 main_v370 (broadcastInDim S50000x300 ![0, 1] bcast_S1x300_S50000x300_0_1 : (⟨S1x300, .f32⟩ : BufTy).Contents (Elt F) → (⟨S50000x300, .f32⟩ : BufTy).Contents (Elt F)),
    StableHlo.binary main_v365 main_v370 main_v371 (mulf : (⟨S50000x300, .f32⟩ : BufTy).Contents (Elt F) → (⟨S50000x300, .f32⟩ : BufTy).Contents (Elt F) → (⟨S50000x300, .f32⟩ : BufTy).Contents (Elt F)),
    StableHlo.unary main_v356 main_v372 (broadcastInDim S1x300 ![1] bcast_S300_S1x300_1 : (⟨S300, .f32⟩ : BufTy).Contents (Elt F) → (⟨S1x300, .f32⟩ : BufTy).Contents (Elt F)),
    StableHlo.unary main_v372 main_v373 (broadcastInDim S50000x300 ![0, 1] bcast_S1x300_S50000x300_0_1 : (⟨S1x300, .f32⟩ : BufTy).Contents (Elt F) → (⟨S50000x300, .f32⟩ : BufTy).Contents (Elt F)),
    StableHlo.binary main_v371 main_v373 main_v374 (mulf : (⟨S50000x300, .f32⟩ : BufTy).Contents (Elt F) → (⟨S50000x300, .f32⟩ : BufTy).Contents (Elt F) → (⟨S50000x300, .f32⟩ : BufTy).Contents (Elt F)),
    StableHlo.unary main_v358 main_v375 (broadcastInDim S1x300 ![1] bcast_S300_S1x300_1 : (⟨S300, .f32⟩ : BufTy).Contents (Elt F) → (⟨S1x300, .f32⟩ : BufTy).Contents (Elt F)),
    StableHlo.unary main_v375 main_v376 (broadcastInDim S50000x300 ![0, 1] bcast_S1x300_S50000x300_0_1 : (⟨S1x300, .f32⟩ : BufTy).Contents (Elt F) → (⟨S50000x300, .f32⟩ : BufTy).Contents (Elt F)),
    StableHlo.binary main_v374 main_v376 main_v377 (addf : (⟨S50000x300, .f32⟩ : BufTy).Contents (Elt F) → (⟨S50000x300, .f32⟩ : BufTy).Contents (Elt F) → (⟨S50000x300, .f32⟩ : BufTy).Contents (Elt F)),
    StableHlo.TRef.nullary main_call19.cst (constant S_ .f32 0x00000000#32),
    StableHlo.TRef.unary main_call19.cst main_call19.v0 (broadcastInDim S50000x300 ![] bcast_S_S50000x300),
    StableHlo.TRef.binary (StableHlo.TRef.of main_v377 : StableHlo.TRef sig ⟨S50000x300, .f32⟩) main_call19.v0 main_call19.v1 maximumf ]

/-- Nodes per graph, the reciprocal of the count clamped below at one (main_v386), the zero accumulator (main_v387). 14 operations. -/
abbrev opsPool : List (HloOp τ sig (Elt F)) :=
  [ StableHlo.nullary main_cst_53 (constant S_ .f32 0x3F800000#32),
    StableHlo.unary main_cst_53 main_v379 (broadcastInDim S50000 ![] bcast_S_S50000 : (⟨S_, .f32⟩ : BufTy).Contents (Elt F) → (⟨S50000, .f32⟩ : BufTy).Contents (Elt F)),
    StableHlo.nullary main_cst_54 (constant S_ .f32 0x00000000#32),
    StableHlo.unary main_cst_54 main_v380 (broadcastInDim S256 ![] bcast_S_S256 : (⟨S_, .f32⟩ : BufTy).Contents (Elt F) → (⟨S256, .f32⟩ : BufTy).Contents (Elt F)),
    StableHlo.unary main_arg2 main_v381 (broadcastInDim S50000x1 ![0] bcast_S50000_S50000x1_0 : (⟨S50000, .i32⟩ : BufTy).Contents (Elt F) → (⟨S50000x1, .i32⟩ : BufTy).Contents (Elt F)),
    StableHlo.ternary main_v380 main_v381 main_v379 main_v382 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_55 (constant S_ .f32 0x3F800000#32),
    StableHlo.unary main_cst_55 main_v383 (broadcastInDim S256 ![] bcast_S_S256 : (⟨S_, .f32⟩ : BufTy).Contents (Elt F) → (⟨S256, .f32⟩ : BufTy).Contents (Elt F)),
    StableHlo.binary main_v382 main_v383 main_v384 (maximumf : (⟨S256, .f32⟩ : BufTy).Contents (Elt F) → (⟨S256, .f32⟩ : BufTy).Contents (Elt F) → (⟨S256, .f32⟩ : BufTy).Contents (Elt F)),
    StableHlo.nullary main_cst_56 (constant S_ .f32 0x3F800000#32),
    StableHlo.unary main_cst_56 main_v385 (broadcastInDim S256 ![] bcast_S_S256 : (⟨S_, .f32⟩ : BufTy).Contents (Elt F) → (⟨S256, .f32⟩ : BufTy).Contents (Elt F)),
    StableHlo.binary main_v385 main_v384 main_v386 (Host.divf : (⟨S256, .f32⟩ : BufTy).Contents (Elt F) → (⟨S256, .f32⟩ : BufTy).Contents (Elt F) → (⟨S256, .f32⟩ : BufTy).Contents (Elt F)),
    StableHlo.nullary main_cst_57 (constant S_ .f32 0x00000000#32),
    StableHlo.unary main_cst_57 main_v387 (broadcastInDim S256x128 ![] bcast_S_S256x128 : (⟨S_, .f32⟩ : BufTy).Contents (Elt F) → (⟨S256x128, .f32⟩ : BufTy).Contents (Elt F)) ]

/-- Readout term 0: per-graph mean of the layer's features through its prediction map, added to the accumulator. 16 operations. -/
abbrev opsRead0 : List (HloOp τ sig (Elt F)) :=
  [ StableHlo.nullary main_cst_58 (constant S_ .f32 0x00000000#32),
    StableHlo.unary main_cst_58 main_v388 (broadcastInDim S256x300 ![] bcast_S_S256x300 : (⟨S_, .f32⟩ : BufTy).Contents (Elt F) → (⟨S256x300, .f32⟩ : BufTy).Contents (Elt F)),
    StableHlo.unary main_arg2 main_v389 (broadcastInDim S50000x1 ![0] bcast_S50000_S50000x1_0 : (⟨S50000, .i32⟩ : BufTy).Contents (Elt F) → (⟨S50000x1, .i32⟩ : BufTy).Contents (Elt F)),
    StableHlo.ternary main_v388 main_v389 main_arg0 main_v390 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v391 (broadcastInDim S256x1 ![0] bcast_S256_S256x1_0 : (⟨S256, .f32⟩ : BufTy).Contents (Elt F) → (⟨S256x1, .f32⟩ : BufTy).Contents (Elt F)),
    StableHlo.unary main_v391 main_v392 (broadcastInDim S256x300 ![0, 1] bcast_S256x1_S256x300_0_1 : (⟨S256x1, .f32⟩ : BufTy).Contents (Elt F) → (⟨S256x300, .f32⟩ : BufTy).Contents (Elt F)),
    StableHlo.binary main_v390 main_v392 main_v393 (mulf : (⟨S256x300, .f32⟩ : BufTy).Contents (Elt F) → (⟨S256x300, .f32⟩ : BufTy).Contents (Elt F) → (⟨S256x300, .f32⟩ : BufTy).Contents (Elt F)),
    StableHlo.unary main_arg11 main_v394 ((extractStridedSlice S1x300x128 ![0, 0, 0] · slices_S6x300x128_S1x300x128_0_0_0) : (⟨S6x300x128, .f32⟩ : BufTy).Contents (Elt F) → (⟨S1x300x128, .f32⟩ : BufTy).Contents (Elt F)),
    StableHlo.reshape main_v394 main_v395 rfl shapeCasts_S1x300x128_S300x128,
    StableHlo.binary main_v393 main_v395 main_v396 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v397 ((extractStridedSlice S1x128 ![0, 0] · slices_S6x128_S1x128_0_0) : (⟨S6x128, .f32⟩ : BufTy).Contents (Elt F) → (⟨S1x128, .f32⟩ : BufTy).Contents (Elt F)),
    StableHlo.reshape main_v397 main_v398 rfl shapeCasts_S1x128_S128,
    StableHlo.unary main_v398 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S256x128 ![0, 1] bcast_S1x128_S256x128_0_1 : (⟨S1x128, .f32⟩ : BufTy).Contents (Elt F) → (⟨S256x128, .f32⟩ : BufTy).Contents (Elt F)),
    StableHlo.binary main_v396 main_v400 main_v401 (addf : (⟨S256x128, .f32⟩ : BufTy).Contents (Elt F) → (⟨S256x128, .f32⟩ : BufTy).Contents (Elt F) → (⟨S256x128, .f32⟩ : BufTy).Contents (Elt F)),
    StableHlo.binary main_v387 main_v401 main_v402 (addf : (⟨S256x128, .f32⟩ : BufTy).Contents (Elt F) → (⟨S256x128, .f32⟩ : BufTy).Contents (Elt F) → (⟨S256x128, .f32⟩ : BufTy).Contents (Elt F)) ]

/-- Readout term 1: per-graph mean of the layer's features through its prediction map, added to the accumulator. 16 operations. -/
abbrev opsRead1 : List (HloOp τ sig (Elt F)) :=
  [ StableHlo.nullary main_cst_59 (constant S_ .f32 0x00000000#32),
    StableHlo.unary main_cst_59 main_v403 (broadcastInDim S256x300 ![] bcast_S_S256x300 : (⟨S_, .f32⟩ : BufTy).Contents (Elt F) → (⟨S256x300, .f32⟩ : BufTy).Contents (Elt F)),
    StableHlo.unary main_arg2 main_v404 (broadcastInDim S50000x1 ![0] bcast_S50000_S50000x1_0 : (⟨S50000, .i32⟩ : BufTy).Contents (Elt F) → (⟨S50000x1, .i32⟩ : BufTy).Contents (Elt F)),
    StableHlo.ternary main_v403 main_v404 main_v78 main_v405 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v406 (broadcastInDim S256x1 ![0] bcast_S256_S256x1_0 : (⟨S256, .f32⟩ : BufTy).Contents (Elt F) → (⟨S256x1, .f32⟩ : BufTy).Contents (Elt F)),
    StableHlo.unary main_v406 main_v407 (broadcastInDim S256x300 ![0, 1] bcast_S256x1_S256x300_0_1 : (⟨S256x1, .f32⟩ : BufTy).Contents (Elt F) → (⟨S256x300, .f32⟩ : BufTy).Contents (Elt F)),
    StableHlo.binary main_v405 main_v407 main_v408 (mulf : (⟨S256x300, .f32⟩ : BufTy).Contents (Elt F) → (⟨S256x300, .f32⟩ : BufTy).Contents (Elt F) → (⟨S256x300, .f32⟩ : BufTy).Contents (Elt F)),
    StableHlo.unary main_arg11 main_v409 ((extractStridedSlice S1x300x128 ![1, 0, 0] · slices_S6x300x128_S1x300x128_1_0_0) : (⟨S6x300x128, .f32⟩ : BufTy).Contents (Elt F) → (⟨S1x300x128, .f32⟩ : BufTy).Contents (Elt F)),
    StableHlo.reshape main_v409 main_v410 rfl shapeCasts_S1x300x128_S300x128,
    StableHlo.binary main_v408 main_v410 main_v411 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v412 ((extractStridedSlice S1x128 ![1, 0] · slices_S6x128_S1x128_1_0) : (⟨S6x128, .f32⟩ : BufTy).Contents (Elt F) → (⟨S1x128, .f32⟩ : BufTy).Contents (Elt F)),
    StableHlo.reshape main_v412 main_v413 rfl shapeCasts_S1x128_S128,
    StableHlo.unary main_v413 main_v414 (broadcastInDim S1x128 ![1] bcast_S128_S1x128_1 : (⟨S128, .f32⟩ : BufTy).Contents (Elt F) → (⟨S1x128, .f32⟩ : BufTy).Contents (Elt F)),
    StableHlo.unary main_v414 main_v415 (broadcastInDim S256x128 ![0, 1] bcast_S1x128_S256x128_0_1 : (⟨S1x128, .f32⟩ : BufTy).Contents (Elt F) → (⟨S256x128, .f32⟩ : BufTy).Contents (Elt F)),
    StableHlo.binary main_v411 main_v415 main_v416 (addf : (⟨S256x128, .f32⟩ : BufTy).Contents (Elt F) → (⟨S256x128, .f32⟩ : BufTy).Contents (Elt F) → (⟨S256x128, .f32⟩ : BufTy).Contents (Elt F)),
    StableHlo.binary main_v402 main_v416 main_v417 (addf : (⟨S256x128, .f32⟩ : BufTy).Contents (Elt F) → (⟨S256x128, .f32⟩ : BufTy).Contents (Elt F) → (⟨S256x128, .f32⟩ : BufTy).Contents (Elt F)) ]

/-- Readout term 2: per-graph mean of the layer's features through its prediction map, added to the accumulator. 16 operations. -/
abbrev opsRead2 : List (HloOp τ sig (Elt F)) :=
  [ StableHlo.nullary main_cst_60 (constant S_ .f32 0x00000000#32),
    StableHlo.unary main_cst_60 main_v418 (broadcastInDim S256x300 ![] bcast_S_S256x300 : (⟨S_, .f32⟩ : BufTy).Contents (Elt F) → (⟨S256x300, .f32⟩ : BufTy).Contents (Elt F)),
    StableHlo.unary main_arg2 main_v419 (broadcastInDim S50000x1 ![0] bcast_S50000_S50000x1_0 : (⟨S50000, .i32⟩ : BufTy).Contents (Elt F) → (⟨S50000x1, .i32⟩ : BufTy).Contents (Elt F)),
    StableHlo.ternary main_v418 main_v419 main_v153 main_v420 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v421 (broadcastInDim S256x1 ![0] bcast_S256_S256x1_0 : (⟨S256, .f32⟩ : BufTy).Contents (Elt F) → (⟨S256x1, .f32⟩ : BufTy).Contents (Elt F)),
    StableHlo.unary main_v421 main_v422 (broadcastInDim S256x300 ![0, 1] bcast_S256x1_S256x300_0_1 : (⟨S256x1, .f32⟩ : BufTy).Contents (Elt F) → (⟨S256x300, .f32⟩ : BufTy).Contents (Elt F)),
    StableHlo.binary main_v420 main_v422 main_v423 (mulf : (⟨S256x300, .f32⟩ : BufTy).Contents (Elt F) → (⟨S256x300, .f32⟩ : BufTy).Contents (Elt F) → (⟨S256x300, .f32⟩ : BufTy).Contents (Elt F)),
    StableHlo.unary main_arg11 main_v424 ((extractStridedSlice S1x300x128 ![2, 0, 0] · slices_S6x300x128_S1x300x128_2_0_0) : (⟨S6x300x128, .f32⟩ : BufTy).Contents (Elt F) → (⟨S1x300x128, .f32⟩ : BufTy).Contents (Elt F)),
    StableHlo.reshape main_v424 main_v425 rfl shapeCasts_S1x300x128_S300x128,
    StableHlo.binary main_v423 main_v425 main_v426 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v427 ((extractStridedSlice S1x128 ![2, 0] · slices_S6x128_S1x128_2_0) : (⟨S6x128, .f32⟩ : BufTy).Contents (Elt F) → (⟨S1x128, .f32⟩ : BufTy).Contents (Elt F)),
    StableHlo.reshape main_v427 main_v428 rfl shapeCasts_S1x128_S128,
    StableHlo.unary main_v428 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S256x128 ![0, 1] bcast_S1x128_S256x128_0_1 : (⟨S1x128, .f32⟩ : BufTy).Contents (Elt F) → (⟨S256x128, .f32⟩ : BufTy).Contents (Elt F)),
    StableHlo.binary main_v426 main_v430 main_v431 (addf : (⟨S256x128, .f32⟩ : BufTy).Contents (Elt F) → (⟨S256x128, .f32⟩ : BufTy).Contents (Elt F) → (⟨S256x128, .f32⟩ : BufTy).Contents (Elt F)),
    StableHlo.binary main_v417 main_v431 main_v432 (addf : (⟨S256x128, .f32⟩ : BufTy).Contents (Elt F) → (⟨S256x128, .f32⟩ : BufTy).Contents (Elt F) → (⟨S256x128, .f32⟩ : BufTy).Contents (Elt F)) ]

/-- Readout term 3: per-graph mean of the layer's features through its prediction map, added to the accumulator. 16 operations. -/
abbrev opsRead3 : List (HloOp τ sig (Elt F)) :=
  [ StableHlo.nullary main_cst_61 (constant S_ .f32 0x00000000#32),
    StableHlo.unary main_cst_61 main_v433 (broadcastInDim S256x300 ![] bcast_S_S256x300 : (⟨S_, .f32⟩ : BufTy).Contents (Elt F) → (⟨S256x300, .f32⟩ : BufTy).Contents (Elt F)),
    StableHlo.unary main_arg2 main_v434 (broadcastInDim S50000x1 ![0] bcast_S50000_S50000x1_0 : (⟨S50000, .i32⟩ : BufTy).Contents (Elt F) → (⟨S50000x1, .i32⟩ : BufTy).Contents (Elt F)),
    StableHlo.ternary main_v433 main_v434 main_v228 main_v435 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v436 (broadcastInDim S256x1 ![0] bcast_S256_S256x1_0 : (⟨S256, .f32⟩ : BufTy).Contents (Elt F) → (⟨S256x1, .f32⟩ : BufTy).Contents (Elt F)),
    StableHlo.unary main_v436 main_v437 (broadcastInDim S256x300 ![0, 1] bcast_S256x1_S256x300_0_1 : (⟨S256x1, .f32⟩ : BufTy).Contents (Elt F) → (⟨S256x300, .f32⟩ : BufTy).Contents (Elt F)),
    StableHlo.binary main_v435 main_v437 main_v438 (mulf : (⟨S256x300, .f32⟩ : BufTy).Contents (Elt F) → (⟨S256x300, .f32⟩ : BufTy).Contents (Elt F) → (⟨S256x300, .f32⟩ : BufTy).Contents (Elt F)),
    StableHlo.unary main_arg11 main_v439 ((extractStridedSlice S1x300x128 ![3, 0, 0] · slices_S6x300x128_S1x300x128_3_0_0) : (⟨S6x300x128, .f32⟩ : BufTy).Contents (Elt F) → (⟨S1x300x128, .f32⟩ : BufTy).Contents (Elt F)),
    StableHlo.reshape main_v439 main_v440 rfl shapeCasts_S1x300x128_S300x128,
    StableHlo.binary main_v438 main_v440 main_v441 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v442 ((extractStridedSlice S1x128 ![3, 0] · slices_S6x128_S1x128_3_0) : (⟨S6x128, .f32⟩ : BufTy).Contents (Elt F) → (⟨S1x128, .f32⟩ : BufTy).Contents (Elt F)),
    StableHlo.reshape main_v442 main_v443 rfl shapeCasts_S1x128_S128,
    StableHlo.unary main_v443 main_v444 (broadcastInDim S1x128 ![1] bcast_S128_S1x128_1 : (⟨S128, .f32⟩ : BufTy).Contents (Elt F) → (⟨S1x128, .f32⟩ : BufTy).Contents (Elt F)),
    StableHlo.unary main_v444 main_v445 (broadcastInDim S256x128 ![0, 1] bcast_S1x128_S256x128_0_1 : (⟨S1x128, .f32⟩ : BufTy).Contents (Elt F) → (⟨S256x128, .f32⟩ : BufTy).Contents (Elt F)),
    StableHlo.binary main_v441 main_v445 main_v446 (addf : (⟨S256x128, .f32⟩ : BufTy).Contents (Elt F) → (⟨S256x128, .f32⟩ : BufTy).Contents (Elt F) → (⟨S256x128, .f32⟩ : BufTy).Contents (Elt F)),
    StableHlo.binary main_v432 main_v446 main_v447 (addf : (⟨S256x128, .f32⟩ : BufTy).Contents (Elt F) → (⟨S256x128, .f32⟩ : BufTy).Contents (Elt F) → (⟨S256x128, .f32⟩ : BufTy).Contents (Elt F)) ]

/-- Readout term 4: per-graph mean of the layer's features through its prediction map, added to the accumulator. 16 operations. -/
abbrev opsRead4 : List (HloOp τ sig (Elt F)) :=
  [ StableHlo.nullary main_cst_62 (constant S_ .f32 0x00000000#32),
    StableHlo.unary main_cst_62 main_v448 (broadcastInDim S256x300 ![] bcast_S_S256x300 : (⟨S_, .f32⟩ : BufTy).Contents (Elt F) → (⟨S256x300, .f32⟩ : BufTy).Contents (Elt F)),
    StableHlo.unary main_arg2 main_v449 (broadcastInDim S50000x1 ![0] bcast_S50000_S50000x1_0 : (⟨S50000, .i32⟩ : BufTy).Contents (Elt F) → (⟨S50000x1, .i32⟩ : BufTy).Contents (Elt F)),
    StableHlo.ternary main_v448 main_v449 main_v303 main_v450 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v451 (broadcastInDim S256x1 ![0] bcast_S256_S256x1_0 : (⟨S256, .f32⟩ : BufTy).Contents (Elt F) → (⟨S256x1, .f32⟩ : BufTy).Contents (Elt F)),
    StableHlo.unary main_v451 main_v452 (broadcastInDim S256x300 ![0, 1] bcast_S256x1_S256x300_0_1 : (⟨S256x1, .f32⟩ : BufTy).Contents (Elt F) → (⟨S256x300, .f32⟩ : BufTy).Contents (Elt F)),
    StableHlo.binary main_v450 main_v452 main_v453 (mulf : (⟨S256x300, .f32⟩ : BufTy).Contents (Elt F) → (⟨S256x300, .f32⟩ : BufTy).Contents (Elt F) → (⟨S256x300, .f32⟩ : BufTy).Contents (Elt F)),
    StableHlo.unary main_arg11 main_v454 ((extractStridedSlice S1x300x128 ![4, 0, 0] · slices_S6x300x128_S1x300x128_4_0_0) : (⟨S6x300x128, .f32⟩ : BufTy).Contents (Elt F) → (⟨S1x300x128, .f32⟩ : BufTy).Contents (Elt F)),
    StableHlo.reshape main_v454 main_v455 rfl shapeCasts_S1x300x128_S300x128,
    StableHlo.binary main_v453 main_v455 main_v456 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v457 ((extractStridedSlice S1x128 ![4, 0] · slices_S6x128_S1x128_4_0) : (⟨S6x128, .f32⟩ : BufTy).Contents (Elt F) → (⟨S1x128, .f32⟩ : BufTy).Contents (Elt F)),
    StableHlo.reshape main_v457 main_v458 rfl shapeCasts_S1x128_S128,
    StableHlo.unary main_v458 main_v459 (broadcastInDim S1x128 ![1] bcast_S128_S1x128_1 : (⟨S128, .f32⟩ : BufTy).Contents (Elt F) → (⟨S1x128, .f32⟩ : BufTy).Contents (Elt F)),
    StableHlo.unary main_v459 main_v460 (broadcastInDim S256x128 ![0, 1] bcast_S1x128_S256x128_0_1 : (⟨S1x128, .f32⟩ : BufTy).Contents (Elt F) → (⟨S256x128, .f32⟩ : BufTy).Contents (Elt F)),
    StableHlo.binary main_v456 main_v460 main_v461 (addf : (⟨S256x128, .f32⟩ : BufTy).Contents (Elt F) → (⟨S256x128, .f32⟩ : BufTy).Contents (Elt F) → (⟨S256x128, .f32⟩ : BufTy).Contents (Elt F)),
    StableHlo.binary main_v447 main_v461 main_v462 (addf : (⟨S256x128, .f32⟩ : BufTy).Contents (Elt F) → (⟨S256x128, .f32⟩ : BufTy).Contents (Elt F) → (⟨S256x128, .f32⟩ : BufTy).Contents (Elt F)) ]

/-- Readout term 5: per-graph mean of the layer's features through its prediction map, added to the accumulator. 16 operations. -/
abbrev opsRead5 : List (HloOp τ sig (Elt F)) :=
  [ StableHlo.nullary main_cst_63 (constant S_ .f32 0x00000000#32),
    StableHlo.unary main_cst_63 main_v463 (broadcastInDim S256x300 ![] bcast_S_S256x300 : (⟨S_, .f32⟩ : BufTy).Contents (Elt F) → (⟨S256x300, .f32⟩ : BufTy).Contents (Elt F)),
    StableHlo.unary main_arg2 main_v464 (broadcastInDim S50000x1 ![0] bcast_S50000_S50000x1_0 : (⟨S50000, .i32⟩ : BufTy).Contents (Elt F) → (⟨S50000x1, .i32⟩ : BufTy).Contents (Elt F)),
    StableHlo.ternary main_v463 main_v464 main_v378 main_v465 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v466 (broadcastInDim S256x1 ![0] bcast_S256_S256x1_0 : (⟨S256, .f32⟩ : BufTy).Contents (Elt F) → (⟨S256x1, .f32⟩ : BufTy).Contents (Elt F)),
    StableHlo.unary main_v466 main_v467 (broadcastInDim S256x300 ![0, 1] bcast_S256x1_S256x300_0_1 : (⟨S256x1, .f32⟩ : BufTy).Contents (Elt F) → (⟨S256x300, .f32⟩ : BufTy).Contents (Elt F)),
    StableHlo.binary main_v465 main_v467 main_v468 (mulf : (⟨S256x300, .f32⟩ : BufTy).Contents (Elt F) → (⟨S256x300, .f32⟩ : BufTy).Contents (Elt F) → (⟨S256x300, .f32⟩ : BufTy).Contents (Elt F)),
    StableHlo.unary main_arg11 main_v469 ((extractStridedSlice S1x300x128 ![5, 0, 0] · slices_S6x300x128_S1x300x128_5_0_0) : (⟨S6x300x128, .f32⟩ : BufTy).Contents (Elt F) → (⟨S1x300x128, .f32⟩ : BufTy).Contents (Elt F)),
    StableHlo.reshape main_v469 main_v470 rfl shapeCasts_S1x300x128_S300x128,
    StableHlo.binary main_v468 main_v470 main_v471 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v472 ((extractStridedSlice S1x128 ![5, 0] · slices_S6x128_S1x128_5_0) : (⟨S6x128, .f32⟩ : BufTy).Contents (Elt F) → (⟨S1x128, .f32⟩ : BufTy).Contents (Elt F)),
    StableHlo.reshape main_v472 main_v473 rfl shapeCasts_S1x128_S128,
    StableHlo.unary main_v473 main_v474 (broadcastInDim S1x128 ![1] bcast_S128_S1x128_1 : (⟨S128, .f32⟩ : BufTy).Contents (Elt F) → (⟨S1x128, .f32⟩ : BufTy).Contents (Elt F)),
    StableHlo.unary main_v474 main_v475 (broadcastInDim S256x128 ![0, 1] bcast_S1x128_S256x128_0_1 : (⟨S1x128, .f32⟩ : BufTy).Contents (Elt F) → (⟨S256x128, .f32⟩ : BufTy).Contents (Elt F)),
    StableHlo.binary main_v471 main_v475 main_v476 (addf : (⟨S256x128, .f32⟩ : BufTy).Contents (Elt F) → (⟨S256x128, .f32⟩ : BufTy).Contents (Elt F) → (⟨S256x128, .f32⟩ : BufTy).Contents (Elt F)),
    StableHlo.binary main_v462 main_v476 main_v477 (addf : (⟨S256x128, .f32⟩ : BufTy).Contents (Elt F) → (⟨S256x128, .f32⟩ : BufTy).Contents (Elt F) → (⟨S256x128, .f32⟩ : BufTy).Contents (Elt F)) ]

/-- Layer 0. -/
abbrev opsL0 : List (HloOp τ sig (Elt F)) := opsL0a ++ opsL0b

/-- Layer 1. -/
abbrev opsL1 : List (HloOp τ sig (Elt F)) := opsL1a ++ opsL1b

/-- Layer 2. -/
abbrev opsL2 : List (HloOp τ sig (Elt F)) := opsL2a ++ opsL2b

/-- Layer 3. -/
abbrev opsL3 : List (HloOp τ sig (Elt F)) := opsL3a ++ opsL3b

/-- Layer 4. -/
abbrev opsL4 : List (HloOp τ sig (Elt F)) := opsL4a ++ opsL4b

/-- The readout. -/
abbrev opsTail : List (HloOp τ sig (Elt F)) := opsPool ++ opsRead0 ++ opsRead1 ++ opsRead2 ++ opsRead3 ++ opsRead4 ++ opsRead5

/-- @main's 774 operations, in order. -/
abbrev ops : List (HloOp τ sig (Elt F)) := opsPre ++ opsL0 ++ opsL1 ++ opsL2 ++ opsL3 ++ opsL4 ++ opsTail

end Cert.ReferenceIdeal.Run

end
-- ==== Proof.RefRun.Side.lean ====
/- Per list of Ops.lean: each operation's buffers are TensorCore references of the signature, each determines
   what it writes (none allocates), and the references the list writes, so that a buffer outside them keeps its
   contents through the list (opsX_keep … (by decide)). -/
import proofs.«144515_j12352325943894_2_alg».proof.Proof.RefRun.Ops

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

theorem opsPre_sub : (opsPre : List (HloOp τ sig (Elt F))).Forall fun op => op.bufs ⊆ tcRefs τ sig :=
  ⟨unary_bufs_sub .., reshape_bufs_sub .., unary_bufs_sub .., reshape_bufs_sub ..⟩

theorem opsPre_fresh : (opsPre : List (HloOp τ sig (Elt F))).Forall fun op => op.fresh = ∅ :=
  ⟨rfl, rfl, rfl, rfl⟩

/-- The references the operations of opsPre write, in order. -/
abbrev opsPre_W : List (Ref sig .tc) :=
  [main_v0, main_v1, main_v2, main_v3]

theorem opsPre_writes : (opsPre : List (HloOp τ sig (Elt F))).Forall fun op => op.writes ⊆ (opsPre_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsPre writes keeps its contents through them. -/
theorem opsPre_keep (V : Valuation τ sig (Elt F)) (r : Ref sig .tc) (h : r ∉ opsPre_W) :
    after opsPre V (r : DevRef τ sig) = V (r : DevRef τ sig) :=
  after_of_writes_sub opsPre V opsPre_writes h

theorem opsL0a_sub : (opsL0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL0a_fresh : (opsL0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL0a write, in order. -/
abbrev opsL0a_W : List (Ref sig .tc) :=
  [main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v31, main_v32, main_v33, main_cst_4, main_v34, main_v35, main_v36, main_v37, main_v38, main_v39, main_v40, main_v41, main_v42, main_v43, main_v44, main_v45, main_call1.cst.ref, main_call1.v0.ref, main_call1.v1.ref]

theorem opsL0a_writes : (opsL0a : List (HloOp τ sig (Elt F))).Forall fun op => op.writes ⊆ (opsL0a_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL0a writes keeps its contents through them. -/
theorem opsL0a_keep (V : Valuation τ sig (Elt F)) (r : Ref sig .tc) (h : r ∉ opsL0a_W) :
    after opsL0a V (r : DevRef τ sig) = V (r : DevRef τ sig) :=
  after_of_writes_sub opsL0a V opsL0a_writes h

theorem opsL0b_sub : (opsL0b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL0b_fresh : (opsL0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL0b write, in order. -/
abbrev opsL0b_W : List (Ref sig .tc) :=
  [main_v47, main_v48, main_v49, main_v50, main_v51, main_v52, main_v53, main_v54, main_v55, main_v56, main_v57, main_v58, main_cst_5, main_v59, main_cst_6, main_v60, main_v61, main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v63, main_v64, main_v65, main_cst_8, main_v66, main_v67, main_v68, main_v69, main_v70, main_v71, main_v72, main_v73, main_v74, main_v75, main_v76, main_v77, main_call3.cst.ref, main_call3.v0.ref, main_call3.v1.ref]

theorem opsL0b_writes : (opsL0b : List (HloOp τ sig (Elt F))).Forall fun op => op.writes ⊆ (opsL0b_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL0b writes keeps its contents through them. -/
theorem opsL0b_keep (V : Valuation τ sig (Elt F)) (r : Ref sig .tc) (h : r ∉ opsL0b_W) :
    after opsL0b V (r : DevRef τ sig) = V (r : DevRef τ sig) :=
  after_of_writes_sub opsL0b V opsL0b_writes h

theorem opsL1a_sub : (opsL1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL1a_fresh : (opsL1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL1a write, in order. -/
abbrev opsL1a_W : List (Ref sig .tc) :=
  [main_c_9, main_v79, main_v80, main_c_10, main_v81, main_v82, main_v83, main_v84, main_v85, main_cst_11, main_v86, main_v87, main_v88, main_v89, main_v90, main_v91, main_v92, main_v93, main_v94, main_v95, main_v96, main_v97, main_v98, main_v99, main_v100, main_v101, main_cst_12, main_v102, main_cst_13, main_v103, main_v104, main_c_14, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v106, main_v107, main_v108, main_cst_15, main_v109, main_v110, main_v111, main_v112, main_v113, main_v114, main_v115, main_v116, main_v117, main_v118, main_v119, main_v120, main_call5.cst.ref, main_call5.v0.ref, main_call5.v1.ref]

theorem opsL1a_writes : (opsL1a : List (HloOp τ sig (Elt F))).Forall fun op => op.writes ⊆ (opsL1a_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL1a writes keeps its contents through them. -/
theorem opsL1a_keep (V : Valuation τ sig (Elt F)) (r : Ref sig .tc) (h : r ∉ opsL1a_W) :
    after opsL1a V (r : DevRef τ sig) = V (r : DevRef τ sig) :=
  after_of_writes_sub opsL1a V opsL1a_writes h

theorem opsL1b_sub : (opsL1b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL1b_fresh : (opsL1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL1b write, in order. -/
abbrev opsL1b_W : List (Ref sig .tc) :=
  [main_v122, main_v123, main_v124, main_v125, main_v126, main_v127, main_v128, main_v129, main_v130, main_v131, main_v132, main_v133, main_cst_16, main_v134, main_cst_17, main_v135, main_v136, main_c_18, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v138, main_v139, main_v140, main_cst_19, main_v141, main_v142, main_v143, main_v144, main_v145, main_v146, main_v147, main_v148, main_v149, main_v150, main_v151, main_v152, main_call7.cst.ref, main_call7.v0.ref, main_call7.v1.ref]

theorem opsL1b_writes : (opsL1b : List (HloOp τ sig (Elt F))).Forall fun op => op.writes ⊆ (opsL1b_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL1b writes keeps its contents through them. -/
theorem opsL1b_keep (V : Valuation τ sig (Elt F)) (r : Ref sig .tc) (h : r ∉ opsL1b_W) :
    after opsL1b V (r : DevRef τ sig) = V (r : DevRef τ sig) :=
  after_of_writes_sub opsL1b V opsL1b_writes h

theorem opsL2a_sub : (opsL2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL2a_fresh : (opsL2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL2a write, in order. -/
abbrev opsL2a_W : List (Ref sig .tc) :=
  [main_c_20, main_v154, main_v155, main_c_21, main_v156, main_v157, main_v158, main_v159, main_v160, main_cst_22, main_v161, main_v162, main_v163, main_v164, main_v165, main_v166, main_v167, main_v168, main_v169, main_v170, main_v171, main_v172, main_v173, main_v174, main_v175, main_v176, main_cst_23, main_v177, main_cst_24, main_v178, main_v179, main_c_25, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v181, main_v182, main_v183, main_cst_26, main_v184, main_v185, main_v186, main_v187, main_v188, main_v189, main_v190, main_v191, main_v192, main_v193, main_v194, main_v195, main_call9.cst.ref, main_call9.v0.ref, main_call9.v1.ref]

theorem opsL2a_writes : (opsL2a : List (HloOp τ sig (Elt F))).Forall fun op => op.writes ⊆ (opsL2a_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL2a writes keeps its contents through them. -/
theorem opsL2a_keep (V : Valuation τ sig (Elt F)) (r : Ref sig .tc) (h : r ∉ opsL2a_W) :
    after opsL2a V (r : DevRef τ sig) = V (r : DevRef τ sig) :=
  after_of_writes_sub opsL2a V opsL2a_writes h

theorem opsL2b_sub : (opsL2b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL2b_fresh : (opsL2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL2b write, in order. -/
abbrev opsL2b_W : List (Ref sig .tc) :=
  [main_v197, main_v198, main_v199, main_v200, main_v201, main_v202, main_v203, main_v204, main_v205, main_v206, main_v207, main_v208, main_cst_27, main_v209, main_cst_28, main_v210, main_v211, main_c_29, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v213, main_v214, main_v215, main_cst_30, main_v216, main_v217, main_v218, main_v219, main_v220, main_v221, main_v222, main_v223, main_v224, main_v225, main_v226, main_v227, main_call11.cst.ref, main_call11.v0.ref, main_call11.v1.ref]

theorem opsL2b_writes : (opsL2b : List (HloOp τ sig (Elt F))).Forall fun op => op.writes ⊆ (opsL2b_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL2b writes keeps its contents through them. -/
theorem opsL2b_keep (V : Valuation τ sig (Elt F)) (r : Ref sig .tc) (h : r ∉ opsL2b_W) :
    after opsL2b V (r : DevRef τ sig) = V (r : DevRef τ sig) :=
  after_of_writes_sub opsL2b V opsL2b_writes h

theorem opsL3a_sub : (opsL3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL3a_fresh : (opsL3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL3a write, in order. -/
abbrev opsL3a_W : List (Ref sig .tc) :=
  [main_c_31, main_v229, main_v230, main_c_32, main_v231, main_v232, main_v233, main_v234, main_v235, main_cst_33, main_v236, main_v237, main_v238, main_v239, main_v240, main_v241, main_v242, main_v243, main_v244, main_v245, main_v246, main_v247, main_v248, main_v249, main_v250, main_v251, main_cst_34, main_v252, main_cst_35, main_v253, main_v254, main_c_36, main_call12.cst.ref, main_call12.v0.ref, main_call12.v1.ref, main_call12.cst_0.ref, main_call12.v2.ref, main_call12.v3.ref, main_call12.v4.ref, main_call12.v5.ref, main_call12.v6.ref, main_call12.v7.ref, main_call12.cst_1.ref, main_call12.v8.ref, main_call12.cst_2.ref, main_call12.v9.ref, main_call12.v10.ref, main_call12.v11.ref, main_call12.cst_3.ref, main_call12.v12.ref, main_call12.cst_4.ref, main_call12.call0.v0.ref, main_call12.call0.v1.ref, main_call12.call0.v2.ref, main_v256, main_v257, main_v258, main_cst_37, main_v259, main_v260, main_v261, main_v262, main_v263, main_v264, main_v265, main_v266, main_v267, main_v268, main_v269, main_v270, main_call13.cst.ref, main_call13.v0.ref, main_call13.v1.ref]

theorem opsL3a_writes : (opsL3a : List (HloOp τ sig (Elt F))).Forall fun op => op.writes ⊆ (opsL3a_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL3a writes keeps its contents through them. -/
theorem opsL3a_keep (V : Valuation τ sig (Elt F)) (r : Ref sig .tc) (h : r ∉ opsL3a_W) :
    after opsL3a V (r : DevRef τ sig) = V (r : DevRef τ sig) :=
  after_of_writes_sub opsL3a V opsL3a_writes h

theorem opsL3b_sub : (opsL3b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL3b_fresh : (opsL3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL3b write, in order. -/
abbrev opsL3b_W : List (Ref sig .tc) :=
  [main_v272, main_v273, main_v274, main_v275, main_v276, main_v277, main_v278, main_v279, main_v280, main_v281, main_v282, main_v283, main_cst_38, main_v284, main_cst_39, main_v285, main_v286, main_c_40, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v288, main_v289, main_v290, main_cst_41, main_v291, main_v292, main_v293, main_v294, main_v295, main_v296, main_v297, main_v298, main_v299, main_v300, main_v301, main_v302, main_call15.cst.ref, main_call15.v0.ref, main_call15.v1.ref]

theorem opsL3b_writes : (opsL3b : List (HloOp τ sig (Elt F))).Forall fun op => op.writes ⊆ (opsL3b_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL3b writes keeps its contents through them. -/
theorem opsL3b_keep (V : Valuation τ sig (Elt F)) (r : Ref sig .tc) (h : r ∉ opsL3b_W) :
    after opsL3b V (r : DevRef τ sig) = V (r : DevRef τ sig) :=
  after_of_writes_sub opsL3b V opsL3b_writes h

theorem opsL4a_sub : (opsL4a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL4a_fresh : (opsL4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL4a write, in order. -/
abbrev opsL4a_W : List (Ref sig .tc) :=
  [main_c_42, main_v304, main_v305, main_c_43, main_v306, main_v307, main_v308, main_v309, main_v310, main_cst_44, main_v311, main_v312, main_v313, main_v314, main_v315, main_v316, main_v317, main_v318, main_v319, main_v320, main_v321, main_v322, main_v323, main_v324, main_v325, main_v326, main_cst_45, main_v327, main_cst_46, main_v328, main_v329, main_c_47, main_call16.cst.ref, main_call16.v0.ref, main_call16.v1.ref, main_call16.cst_0.ref, main_call16.v2.ref, main_call16.v3.ref, main_call16.v4.ref, main_call16.v5.ref, main_call16.v6.ref, main_call16.v7.ref, main_call16.cst_1.ref, main_call16.v8.ref, main_call16.cst_2.ref, main_call16.v9.ref, main_call16.v10.ref, main_call16.v11.ref, main_call16.cst_3.ref, main_call16.v12.ref, main_call16.cst_4.ref, main_call16.call0.v0.ref, main_call16.call0.v1.ref, main_call16.call0.v2.ref, main_v331, main_v332, main_v333, main_cst_48, main_v334, main_v335, main_v336, main_v337, main_v338, main_v339, main_v340, main_v341, main_v342, main_v343, main_v344, main_v345, main_call17.cst.ref, main_call17.v0.ref, main_call17.v1.ref]

theorem opsL4a_writes : (opsL4a : List (HloOp τ sig (Elt F))).Forall fun op => op.writes ⊆ (opsL4a_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL4a writes keeps its contents through them. -/
theorem opsL4a_keep (V : Valuation τ sig (Elt F)) (r : Ref sig .tc) (h : r ∉ opsL4a_W) :
    after opsL4a V (r : DevRef τ sig) = V (r : DevRef τ sig) :=
  after_of_writes_sub opsL4a V opsL4a_writes h

theorem opsL4b_sub : (opsL4b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL4b_fresh : (opsL4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of opsL4b write, in order. -/
abbrev opsL4b_W : List (Ref sig .tc) :=
  [main_v347, main_v348, main_v349, main_v350, main_v351, main_v352, main_v353, main_v354, main_v355, main_v356, main_v357, main_v358, main_cst_49, main_v359, main_cst_50, main_v360, main_v361, main_c_51, main_call18.cst.ref, main_call18.v0.ref, main_call18.v1.ref, main_call18.cst_0.ref, main_call18.v2.ref, main_call18.v3.ref, main_call18.v4.ref, main_call18.v5.ref, main_call18.v6.ref, main_call18.v7.ref, main_call18.cst_1.ref, main_call18.v8.ref, main_call18.cst_2.ref, main_call18.v9.ref, main_call18.v10.ref, main_call18.v11.ref, main_call18.cst_3.ref, main_call18.v12.ref, main_call18.cst_4.ref, main_call18.call0.v0.ref, main_call18.call0.v1.ref, main_call18.call0.v2.ref, main_v363, main_v364, main_v365, main_cst_52, main_v366, main_v367, main_v368, main_v369, main_v370, main_v371, main_v372, main_v373, main_v374, main_v375, main_v376, main_v377, main_call19.cst.ref, main_call19.v0.ref, main_call19.v1.ref]

theorem opsL4b_writes : (opsL4b : List (HloOp τ sig (Elt F))).Forall fun op => op.writes ⊆ (opsL4b_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsL4b writes keeps its contents through them. -/
theorem opsL4b_keep (V : Valuation τ sig (Elt F)) (r : Ref sig .tc) (h : r ∉ opsL4b_W) :
    after opsL4b V (r : DevRef τ sig) = V (r : DevRef τ sig) :=
  after_of_writes_sub opsL4b V opsL4b_writes h

theorem opsPool_sub : (opsPool : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub ..⟩

theorem opsPool_fresh : (opsPool : List (HloOp τ sig (Elt F))).Forall fun op => op.fresh = ∅ :=
  ⟨rfl, rfl, rfl, rfl, rfl, rfl, rfl, rfl, rfl, rfl, rfl, rfl, rfl, rfl⟩

/-- The references the operations of opsPool write, in order. -/
abbrev opsPool_W : List (Ref sig .tc) :=
  [main_cst_53, main_v379, main_cst_54, main_v380, main_v381, main_v382, main_cst_55, main_v383, main_v384, main_cst_56, main_v385, main_v386, main_cst_57, main_v387]

theorem opsPool_writes : (opsPool : List (HloOp τ sig (Elt F))).Forall fun op => op.writes ⊆ (opsPool_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsPool writes keeps its contents through them. -/
theorem opsPool_keep (V : Valuation τ sig (Elt F)) (r : Ref sig .tc) (h : r ∉ opsPool_W) :
    after opsPool V (r : DevRef τ sig) = V (r : DevRef τ sig) :=
  after_of_writes_sub opsPool V opsPool_writes h

theorem opsRead0_sub : (opsRead0 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead0_fresh : (opsRead0 : List (HloOp τ sig (Elt F))).Forall fun op => op.fresh = ∅ :=
  ⟨rfl, rfl, rfl, rfl, rfl, rfl, rfl, rfl, rfl, rfl, rfl, rfl, rfl, rfl, rfl, rfl⟩

/-- The references the operations of opsRead0 write, in order. -/
abbrev opsRead0_W : List (Ref sig .tc) :=
  [main_cst_58, main_v388, main_v389, main_v390, main_v391, main_v392, main_v393, main_v394, main_v395, main_v396, main_v397, main_v398, main_v399, main_v400, main_v401, main_v402]

theorem opsRead0_writes : (opsRead0 : List (HloOp τ sig (Elt F))).Forall fun op => op.writes ⊆ (opsRead0_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead0 writes keeps its contents through them. -/
theorem opsRead0_keep (V : Valuation τ sig (Elt F)) (r : Ref sig .tc) (h : r ∉ opsRead0_W) :
    after opsRead0 V (r : DevRef τ sig) = V (r : DevRef τ sig) :=
  after_of_writes_sub opsRead0 V opsRead0_writes h

theorem opsRead1_sub : (opsRead1 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead1_fresh : (opsRead1 : List (HloOp τ sig (Elt F))).Forall fun op => op.fresh = ∅ :=
  ⟨rfl, rfl, rfl, rfl, rfl, rfl, rfl, rfl, rfl, rfl, rfl, rfl, rfl, rfl, rfl, rfl⟩

/-- The references the operations of opsRead1 write, in order. -/
abbrev opsRead1_W : List (Ref sig .tc) :=
  [main_cst_59, main_v403, main_v404, main_v405, main_v406, main_v407, main_v408, main_v409, main_v410, main_v411, main_v412, main_v413, main_v414, main_v415, main_v416, main_v417]

theorem opsRead1_writes : (opsRead1 : List (HloOp τ sig (Elt F))).Forall fun op => op.writes ⊆ (opsRead1_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead1 writes keeps its contents through them. -/
theorem opsRead1_keep (V : Valuation τ sig (Elt F)) (r : Ref sig .tc) (h : r ∉ opsRead1_W) :
    after opsRead1 V (r : DevRef τ sig) = V (r : DevRef τ sig) :=
  after_of_writes_sub opsRead1 V opsRead1_writes h

theorem opsRead2_sub : (opsRead2 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead2_fresh : (opsRead2 : List (HloOp τ sig (Elt F))).Forall fun op => op.fresh = ∅ :=
  ⟨rfl, rfl, rfl, rfl, rfl, rfl, rfl, rfl, rfl, rfl, rfl, rfl, rfl, rfl, rfl, rfl⟩

/-- The references the operations of opsRead2 write, in order. -/
abbrev opsRead2_W : List (Ref sig .tc) :=
  [main_cst_60, main_v418, main_v419, main_v420, main_v421, main_v422, main_v423, main_v424, main_v425, main_v426, main_v427, main_v428, main_v429, main_v430, main_v431, main_v432]

theorem opsRead2_writes : (opsRead2 : List (HloOp τ sig (Elt F))).Forall fun op => op.writes ⊆ (opsRead2_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead2 writes keeps its contents through them. -/
theorem opsRead2_keep (V : Valuation τ sig (Elt F)) (r : Ref sig .tc) (h : r ∉ opsRead2_W) :
    after opsRead2 V (r : DevRef τ sig) = V (r : DevRef τ sig) :=
  after_of_writes_sub opsRead2 V opsRead2_writes h

theorem opsRead3_sub : (opsRead3 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead3_fresh : (opsRead3 : List (HloOp τ sig (Elt F))).Forall fun op => op.fresh = ∅ :=
  ⟨rfl, rfl, rfl, rfl, rfl, rfl, rfl, rfl, rfl, rfl, rfl, rfl, rfl, rfl, rfl, rfl⟩

/-- The references the operations of opsRead3 write, in order. -/
abbrev opsRead3_W : List (Ref sig .tc) :=
  [main_cst_61, main_v433, main_v434, main_v435, main_v436, main_v437, main_v438, main_v439, main_v440, main_v441, main_v442, main_v443, main_v444, main_v445, main_v446, main_v447]

theorem opsRead3_writes : (opsRead3 : List (HloOp τ sig (Elt F))).Forall fun op => op.writes ⊆ (opsRead3_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead3 writes keeps its contents through them. -/
theorem opsRead3_keep (V : Valuation τ sig (Elt F)) (r : Ref sig .tc) (h : r ∉ opsRead3_W) :
    after opsRead3 V (r : DevRef τ sig) = V (r : DevRef τ sig) :=
  after_of_writes_sub opsRead3 V opsRead3_writes h

theorem opsRead4_sub : (opsRead4 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead4_fresh : (opsRead4 : List (HloOp τ sig (Elt F))).Forall fun op => op.fresh = ∅ :=
  ⟨rfl, rfl, rfl, rfl, rfl, rfl, rfl, rfl, rfl, rfl, rfl, rfl, rfl, rfl, rfl, rfl⟩

/-- The references the operations of opsRead4 write, in order. -/
abbrev opsRead4_W : List (Ref sig .tc) :=
  [main_cst_62, main_v448, main_v449, main_v450, main_v451, main_v452, main_v453, main_v454, main_v455, main_v456, main_v457, main_v458, main_v459, main_v460, main_v461, main_v462]

theorem opsRead4_writes : (opsRead4 : List (HloOp τ sig (Elt F))).Forall fun op => op.writes ⊆ (opsRead4_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead4 writes keeps its contents through them. -/
theorem opsRead4_keep (V : Valuation τ sig (Elt F)) (r : Ref sig .tc) (h : r ∉ opsRead4_W) :
    after opsRead4 V (r : DevRef τ sig) = V (r : DevRef τ sig) :=
  after_of_writes_sub opsRead4 V opsRead4_writes h

theorem opsRead5_sub : (opsRead5 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

theorem opsRead5_fresh : (opsRead5 : List (HloOp τ sig (Elt F))).Forall fun op => op.fresh = ∅ :=
  ⟨rfl, rfl, rfl, rfl, rfl, rfl, rfl, rfl, rfl, rfl, rfl, rfl, rfl, rfl, rfl, rfl⟩

/-- The references the operations of opsRead5 write, in order. -/
abbrev opsRead5_W : List (Ref sig .tc) :=
  [main_cst_63, main_v463, main_v464, main_v465, main_v466, main_v467, main_v468, main_v469, main_v470, main_v471, main_v472, main_v473, main_v474, main_v475, main_v476, main_v477]

theorem opsRead5_writes : (opsRead5 : List (HloOp τ sig (Elt F))).Forall fun op => op.writes ⊆ (opsRead5_W.map (Proc.devRef (τ := τ) .tc)).toFinset :=
  ⟨by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide),
   by simp only [List.Forall, nullary_writes, unary_writes, binary_writes, ternary_writes, reshape_writes, Finset.singleton_subset_iff, List.mem_toFinset]; exact List.mem_map_of_mem (by decide)⟩

/-- A buffer none of the operations of opsRead5 writes keeps its contents through them. -/
theorem opsRead5_keep (V : Valuation τ sig (Elt F)) (r : Ref sig .tc) (h : r ∉ opsRead5_W) :
    after opsRead5 V (r : DevRef τ sig) = V (r : DevRef τ sig) :=
  after_of_writes_sub opsRead5 V opsRead5_writes h

end Cert.ReferenceIdeal.Run

end
-- ==== Proof.RefRun.Part0.lean ====
/- The printed window main_part0 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part0, calls inlined. 83 operations. -/
abbrev partOps0 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst (constant S_ .f32 0x00000000#32),
    StableHlo.unary main_cst main_v11 (broadcastInDim S50000x300 ![] bcast_S_S50000x300 : (⟨S_, .f32⟩ : BufTy).Contents (Elt F) → (⟨S50000x300, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_arg0 main_v13 main_v14 (addf : (⟨S50000x300, .f32⟩ : BufTy).Contents (Elt F) → (⟨S50000x300, .f32⟩ : BufTy).Contents (Elt F) → (⟨S50000x300, .f32⟩ : BufTy).Contents (Elt F)),
    StableHlo.unary main_arg3 main_v15 ((extractStridedSlice S1x300x300 ![0, 0, 0] · slices_S5x300x300_S1x300x300_0_0_0) : (⟨S5x300x300, .f32⟩ : BufTy).Contents (Elt F) → (⟨S1x300x300, .f32⟩ : BufTy).Contents (Elt F)),
    StableHlo.reshape main_v15 main_v16 rfl shapeCasts_S1x300x300_S300x300,
    StableHlo.binary main_v14 main_v16 main_v17 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v18 ((extractStridedSlice S1x300 ![0, 0] · slices_S5x300_S1x300_0_0) : (⟨S5x300, .f32⟩ : BufTy).Contents (Elt F) → (⟨S1x300, .f32⟩ : BufTy).Contents (Elt F)),
    StableHlo.reshape main_v18 main_v19 rfl shapeCasts_S1x300_S300,
    StableHlo.unary main_v19 main_v20 (broadcastInDim S1x300 ![1] bcast_S300_S1x300_1 : (⟨S300, .f32⟩ : BufTy).Contents (Elt F) → (⟨S1x300, .f32⟩ : BufTy).Contents (Elt F)),
    StableHlo.unary main_v20 main_v21 (broadcastInDim S50000x300 ![0, 1] bcast_S1x300_S50000x300_0_1 : (⟨S1x300, .f32⟩ : BufTy).Contents (Elt F) → (⟨S50000x300, .f32⟩ : BufTy).Contents (Elt F)),
    StableHlo.binary main_v17 main_v21 main_v22 (addf : (⟨S50000x300, .f32⟩ : BufTy).Contents (Elt F) → (⟨S50000x300, .f32⟩ : BufTy).Contents (Elt F) → (⟨S50000x300, .f32⟩ : BufTy).Contents (Elt F)),
    StableHlo.unary main_arg5 main_v23 ((extractStridedSlice S1x300 ![0, 0] · slices_S5x300_S1x300_0_0) : (⟨S5x300, .f32⟩ : BufTy).Contents (Elt F) → (⟨S1x300, .f32⟩ : BufTy).Contents (Elt F)),
    StableHlo.reshape main_v23 main_v24 rfl shapeCasts_S1x300_S300,
    StableHlo.unary main_arg6 main_v25 ((extractStridedSlice S1x300 ![0, 0] · slices_S5x300_S1x300_0_0) : (⟨S5x300, .f32⟩ : BufTy).Contents (Elt F) → (⟨S1x300, .f32⟩ : BufTy).Contents (Elt F)),
    StableHlo.reshape main_v25 main_v26 rfl shapeCasts_S1x300_S300,
    StableHlo.nullary main_cst_1 (constant S_ .f32 0x00000000#32),
    StableHlo.binary main_v22 main_cst_1 main_v27 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_2 (constant S_ .f32 0x47435000#32),
    StableHlo.unary main_cst_2 main_v28 (broadcastInDim S300 ![] bcast_S_S300 : (⟨S_, .f32⟩ : BufTy).Contents (Elt F) → (⟨S300, .f32⟩ : BufTy).Contents (Elt F)),
    StableHlo.binary main_v27 main_v28 main_v29 (Host.divf : (⟨S300, .f32⟩ : BufTy).Contents (Elt F) → (⟨S300, .f32⟩ : BufTy).Contents (Elt F) → (⟨S300, .f32⟩ : BufTy).Contents (Elt F)),
    StableHlo.nullary main_c_3 (constantI S_ 32 0#32),
    StableHlo.TRef.nullary main_call0.cst (constant S_ .f32 0x00000000#32),
    StableHlo.TRef.binary (StableHlo.TRef.of main_v22 : StableHlo.TRef sig ⟨S50000x300, .f32⟩) main_call0.cst main_call0.v0 (fun x v => Host.reduceAdd x v reducesTo_S50000x300_S300_d0 h_S_),
    StableHlo.TRef.unary main_call0.v0 main_call0.v1 (broadcastInDim S1x300 ![1] bcast_S300_S1x300_1),
    StableHlo.TRef.nullary main_call0.cst_0 (constant S_ .f32 0x47435000#32),
    StableHlo.TRef.unary main_call0.cst_0 main_call0.v2 (broadcastInDim S1x300 ![] bcast_S_S1x300),
    StableHlo.TRef.binary main_call0.v1 main_call0.v2 main_call0.v3 Host.divf,
    StableHlo.TRef.unary main_call0.v3 main_call0.v4 (broadcastInDim S50000x300 ![0, 1] bcast_S1x300_S50000x300_0_1),
    StableHlo.TRef.binary (StableHlo.TRef.of main_v22 : StableHlo.TRef sig ⟨S50000x300, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x300_S300_d0 h_S_),
    StableHlo.TRef.unary main_call0.v8 main_call0.v10 (broadcastInDim S300 ![] bcast_S_S300),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S300 ![] bcast_S_S300),
    StableHlo.TRef.ternary main_call0.v12 main_call0.v11 main_call0.call0.v1 main_call0.call0.v2 (fun p a b => select (broadcastInDim S300 ![] bcast_S_S300 p) a b),
    StableHlo.unary main_v29 main_v31 (broadcastInDim S1x300 ![1] bcast_S300_S1x300_1 : (⟨S300, .f32⟩ : BufTy).Contents (Elt F) → (⟨S1x300, .f32⟩ : BufTy).Contents (Elt F)),
    StableHlo.unary main_v31 main_v32 (broadcastInDim S50000x300 ![0, 1] bcast_S1x300_S50000x300_0_1 : (⟨S1x300, .f32⟩ : BufTy).Contents (Elt F) → (⟨S50000x300, .f32⟩ : BufTy).Contents (Elt F)),
    StableHlo.binary main_v22 main_v32 main_v33 (subf : (⟨S50000x300, .f32⟩ : BufTy).Contents (Elt F) → (⟨S50000x300, .f32⟩ : BufTy).Contents (Elt F) → (⟨S50000x300, .f32⟩ : BufTy).Contents (Elt F)),
    StableHlo.nullary main_cst_4 (constant S_ .f32 0x3727C5AC#32),
    StableHlo.unary main_cst_4 main_v34 (broadcastInDim S300 ![] bcast_S_S300 : (⟨S_, .f32⟩ : BufTy).Contents (Elt F) → (⟨S300, .f32⟩ : BufTy).Contents (Elt F)),
    StableHlo.binary main_v30 main_v34 main_v35 (addf : (⟨S300, .f32⟩ : BufTy).Contents (Elt F) → (⟨S300, .f32⟩ : BufTy).Contents (Elt F) → (⟨S300, .f32⟩ : BufTy).Contents (Elt F)),
    StableHlo.unary main_v35 main_v36 (Host.rsqrt : (⟨S300, .f32⟩ : BufTy).Contents (Elt F) → (⟨S300, .f32⟩ : BufTy).Contents (Elt F)),
    StableHlo.unary main_v36 main_v37 (broadcastInDim S1x300 ![1] bcast_S300_S1x300_1 : (⟨S300, .f32⟩ : BufTy).Contents (Elt F) → (⟨S1x300, .f32⟩ : BufTy).Contents (Elt F)),
    StableHlo.unary main_v37 main_v38 (broadcastInDim S50000x300 ![0, 1] bcast_S1x300_S50000x300_0_1 : (⟨S1x300, .f32⟩ : BufTy).Contents (Elt F) → (⟨S50000x300, .f32⟩ : BufTy).Contents (Elt F)),
    StableHlo.binary main_v33 main_v38 main_v39 (mulf : (⟨S50000x300, .f32⟩ : BufTy).Contents (Elt F) → (⟨S50000x300, .f32⟩ : BufTy).Contents (Elt F) → (⟨S50000x300, .f32⟩ : BufTy).Contents (Elt F)),
    StableHlo.unary main_v24 main_v40 (broadcastInDim S1x300 ![1] bcast_S300_S1x300_1 : (⟨S300, .f32⟩ : BufTy).Contents (Elt F) → (⟨S1x300, .f32⟩ : BufTy).Contents (Elt F)),
    StableHlo.unary main_v40 main_v41 (broadcastInDim S50000x300 ![0, 1] bcast_S1x300_S50000x300_0_1 : (⟨S1x300, .f32⟩ : BufTy).Contents (Elt F) → (⟨S50000x300, .f32⟩ : BufTy).Contents (Elt F)),
    StableHlo.binary main_v39 main_v41 main_v42 (mulf : (⟨S50000x300, .f32⟩ : BufTy).Contents (Elt F) → (⟨S50000x300, .f32⟩ : BufTy).Contents (Elt F) → (⟨S50000x300, .f32⟩ : BufTy).Contents (Elt F)),
    StableHlo.unary main_v26 main_v43 (broadcastInDim S1x300 ![1] bcast_S300_S1x300_1 : (⟨S300, .f32⟩ : BufTy).Contents (Elt F) → (⟨S1x300, .f32⟩ : BufTy).Contents (Elt F)),
    StableHlo.unary main_v43 main_v44 (broadcastInDim S50000x300 ![0, 1] bcast_S1x300_S50000x300_0_1 : (⟨S1x300, .f32⟩ : BufTy).Contents (Elt F) → (⟨S50000x300, .f32⟩ : BufTy).Contents (Elt F)),
    StableHlo.binary main_v42 main_v44 main_v45 (addf : (⟨S50000x300, .f32⟩ : BufTy).Contents (Elt F) → (⟨S50000x300, .f32⟩ : BufTy).Contents (Elt F) → (⟨S50000x300, .f32⟩ : BufTy).Contents (Elt F)),
    StableHlo.TRef.nullary main_call1.cst (constant S_ .f32 0x00000000#32),
    StableHlo.TRef.unary main_call1.cst main_call1.v0 (broadcastInDim S50000x300 ![] bcast_S_S50000x300),
    StableHlo.TRef.binary (StableHlo.TRef.of main_v45 : StableHlo.TRef sig ⟨S50000x300, .f32⟩) main_call1.v0 main_call1.v1 maximumf,
    StableHlo.unary main_arg7 main_v47 ((extractStridedSlice S1x300x300 ![0, 0, 0] · slices_S5x300x300_S1x300x300_0_0_0) : (⟨S5x300x300, .f32⟩ : BufTy).Contents (Elt F) → (⟨S1x300x300, .f32⟩ : BufTy).Contents (Elt F)),
    StableHlo.reshape main_v47 main_v48 rfl shapeCasts_S1x300x300_S300x300,
    StableHlo.binary main_v46 main_v48 main_v49 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v50 ((extractStridedSlice S1x300 ![0, 0] · slices_S5x300_S1x300_0_0) : (⟨S5x300, .f32⟩ : BufTy).Contents (Elt F) → (⟨S1x300, .f32⟩ : BufTy).Contents (Elt F)),
    StableHlo.reshape main_v50 main_v51 rfl shapeCasts_S1x300_S300,
    StableHlo.unary main_v51 main_v52 (broadcastInDim S1x300 ![1] bcast_S300_S1x300_1 : (⟨S300, .f32⟩ : BufTy).Contents (Elt F) → (⟨S1x300, .f32⟩ : BufTy).Contents (Elt F)) ]

set_option maxRecDepth 8192 in
set_option maxHeartbeats 4000000 in
theorem main_part0_eq (c : Dev nD) : main_part0 (F := F) c = seq partOps0 := by
  simp only [main_part0, fn_var.body, fn_where.body, fn_relu.body, seq, bind_assoc, pure_bind]
  all_goals rfl

end Cert.ReferenceIdeal.Run

end
-- ==== Proof.RefRun.Part1.lean ====
/- The printed window main_part1 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part1, calls inlined. 83 operations. -/
abbrev partOps1 : List (HloOp τ sig (Elt F)) :=
  [ StableHlo.unary main_v52 main_v53 (broadcastInDim S50000x300 ![0, 1] bcast_S1x300_S50000x300_0_1 : (⟨S1x300, .f32⟩ : BufTy).Contents (Elt F) → (⟨S50000x300, .f32⟩ : BufTy).Contents (Elt F)),
    StableHlo.binary main_v49 main_v53 main_v54 (addf : (⟨S50000x300, .f32⟩ : BufTy).Contents (Elt F) → (⟨S50000x300, .f32⟩ : BufTy).Contents (Elt F) → (⟨S50000x300, .f32⟩ : BufTy).Contents (Elt F)),
    StableHlo.unary main_arg9 main_v55 ((extractStridedSlice S1x300 ![0, 0] · slices_S5x300_S1x300_0_0) : (⟨S5x300, .f32⟩ : BufTy).Contents (Elt F) → (⟨S1x300, .f32⟩ : BufTy).Contents (Elt F)),
    StableHlo.reshape main_v55 main_v56 rfl shapeCasts_S1x300_S300,
    StableHlo.unary main_arg10 main_v57 ((extractStridedSlice S1x300 ![0, 0] · slices_S5x300_S1x300_0_0) : (⟨S5x300, .f32⟩ : BufTy).Contents (Elt F) → (⟨S1x300, .f32⟩ : BufTy).Contents (Elt F)),
    StableHlo.reshape main_v57 main_v58 rfl shapeCasts_S1x300_S300,
    StableHlo.nullary main_cst_5 (constant S_ .f32 0x00000000#32),
    StableHlo.binary main_v54 main_cst_5 main_v59 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_6 (constant S_ .f32 0x47435000#32),
    StableHlo.unary main_cst_6 main_v60 (broadcastInDim S300 ![] bcast_S_S300 : (⟨S_, .f32⟩ : BufTy).Contents (Elt F) → (⟨S300, .f32⟩ : BufTy).Contents (Elt F)),
    StableHlo.binary main_v59 main_v60 main_v61 (Host.divf : (⟨S300, .f32⟩ : BufTy).Contents (Elt F) → (⟨S300, .f32⟩ : BufTy).Contents (Elt F) → (⟨S300, .f32⟩ : BufTy).Contents (Elt F)),
    StableHlo.nullary main_c_7 (constantI S_ 32 0#32),
    StableHlo.TRef.nullary main_call2.cst (constant S_ .f32 0x00000000#32),
    StableHlo.TRef.binary (StableHlo.TRef.of main_v54 : StableHlo.TRef sig ⟨S50000x300, .f32⟩) main_call2.cst main_call2.v0 (fun x v => Host.reduceAdd x v reducesTo_S50000x300_S300_d0 h_S_),
    StableHlo.TRef.unary main_call2.v0 main_call2.v1 (broadcastInDim S1x300 ![1] bcast_S300_S1x300_1),
    StableHlo.TRef.nullary main_call2.cst_0 (constant S_ .f32 0x47435000#32),
    StableHlo.TRef.unary main_call2.cst_0 main_call2.v2 (broadcastInDim S1x300 ![] bcast_S_S1x300),
    StableHlo.TRef.binary main_call2.v1 main_call2.v2 main_call2.v3 Host.divf,
    StableHlo.TRef.unary main_call2.v3 main_call2.v4 (broadcastInDim S50000x300 ![0, 1] bcast_S1x300_S50000x300_0_1),
    StableHlo.TRef.binary (StableHlo.TRef.of main_v54 : StableHlo.TRef sig ⟨S50000x300, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x300_S300_d0 h_S_),
    StableHlo.TRef.unary main_call2.v8 main_call2.v10 (broadcastInDim S300 ![] bcast_S_S300),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S300 ![] bcast_S_S300),
    StableHlo.TRef.ternary main_call2.v12 main_call2.v11 main_call2.call0.v1 main_call2.call0.v2 (fun p a b => select (broadcastInDim S300 ![] bcast_S_S300 p) a b),
    StableHlo.unary main_v61 main_v63 (broadcastInDim S1x300 ![1] bcast_S300_S1x300_1 : (⟨S300, .f32⟩ : BufTy).Contents (Elt F) → (⟨S1x300, .f32⟩ : BufTy).Contents (Elt F)),
    StableHlo.unary main_v63 main_v64 (broadcastInDim S50000x300 ![0, 1] bcast_S1x300_S50000x300_0_1 : (⟨S1x300, .f32⟩ : BufTy).Contents (Elt F) → (⟨S50000x300, .f32⟩ : BufTy).Contents (Elt F)),
    StableHlo.binary main_v54 main_v64 main_v65 (subf : (⟨S50000x300, .f32⟩ : BufTy).Contents (Elt F) → (⟨S50000x300, .f32⟩ : BufTy).Contents (Elt F) → (⟨S50000x300, .f32⟩ : BufTy).Contents (Elt F)),
    StableHlo.nullary main_cst_8 (constant S_ .f32 0x3727C5AC#32),
    StableHlo.unary main_cst_8 main_v66 (broadcastInDim S300 ![] bcast_S_S300 : (⟨S_, .f32⟩ : BufTy).Contents (Elt F) → (⟨S300, .f32⟩ : BufTy).Contents (Elt F)),
    StableHlo.binary main_v62 main_v66 main_v67 (addf : (⟨S300, .f32⟩ : BufTy).Contents (Elt F) → (⟨S300, .f32⟩ : BufTy).Contents (Elt F) → (⟨S300, .f32⟩ : BufTy).Contents (Elt F)),
    StableHlo.unary main_v67 main_v68 (Host.rsqrt : (⟨S300, .f32⟩ : BufTy).Contents (Elt F) → (⟨S300, .f32⟩ : BufTy).Contents (Elt F)),
    StableHlo.unary main_v68 main_v69 (broadcastInDim S1x300 ![1] bcast_S300_S1x300_1 : (⟨S300, .f32⟩ : BufTy).Contents (Elt F) → (⟨S1x300, .f32⟩ : BufTy).Contents (Elt F)),
    StableHlo.unary main_v69 main_v70 (broadcastInDim S50000x300 ![0, 1] bcast_S1x300_S50000x300_0_1 : (⟨S1x300, .f32⟩ : BufTy).Contents (Elt F) → (⟨S50000x300, .f32⟩ : BufTy).Contents (Elt F)),
    StableHlo.binary main_v65 main_v70 main_v71 (mulf : (⟨S50000x300, .f32⟩ : BufTy).Contents (Elt F) → (⟨S50000x300, .f32⟩ : BufTy).Contents (Elt F) → (⟨S50000x300, .f32⟩ : BufTy).Contents (Elt F)),
    StableHlo.unary main_v56 main_v72 (broadcastInDim S1x300 ![1] bcast_S300_S1x300_1 : (⟨S300, .f32⟩ : BufTy).Contents (Elt F) → (⟨S1x300, .f32⟩ : BufTy).Contents (Elt F)),
    StableHlo.unary main_v72 main_v73 (broadcastInDim S50000x300 ![0, 1] bcast_S1x300_S50000x300_0_1 : (⟨S1x300, .f32⟩ : BufTy).Contents (Elt F) → (⟨S50000x300, .f32⟩ : BufTy).Contents (Elt F)),
    StableHlo.binary main_v71 main_v73 main_v74 (mulf : (⟨S50000x300, .f32⟩ : BufTy).Contents (Elt F) → (⟨S50000x300, .f32⟩ : BufTy).Contents (Elt F) → (⟨S50000x300, .f32⟩ : BufTy).Contents (Elt F)),
    StableHlo.unary main_v58 main_v75 (broadcastInDim S1x300 ![1] bcast_S300_S1x300_1 : (⟨S300, .f32⟩ : BufTy).Contents (Elt F) → (⟨S1x300, .f32⟩ : BufTy).Contents (Elt F)),
    StableHlo.unary main_v75 main_v76 (broadcastInDim S50000x300 ![0, 1] bcast_S1x300_S50000x300_0_1 : (⟨S1x300, .f32⟩ : BufTy).Contents (Elt F) → (⟨S50000x300, .f32⟩ : BufTy).Contents (Elt F)),
    StableHlo.binary main_v74 main_v76 main_v77 (addf : (⟨S50000x300, .f32⟩ : BufTy).Contents (Elt F) → (⟨S50000x300, .f32⟩ : BufTy).Contents (Elt F) → (⟨S50000x300, .f32⟩ : BufTy).Contents (Elt F)),
    StableHlo.TRef.nullary main_call3.cst (constant S_ .f32 0x00000000#32),
    StableHlo.TRef.unary main_call3.cst main_call3.v0 (broadcastInDim S50000x300 ![] bcast_S_S50000x300),
    StableHlo.TRef.binary (StableHlo.TRef.of main_v77 : StableHlo.TRef sig ⟨S50000x300, .f32⟩) main_call3.v0 main_call3.v1 maximumf,
    StableHlo.nullary main_c_9 (constantI S_ 32 0#32),
    StableHlo.unary main_c_9 main_v79 (broadcastInDim S400000 ![] bcast_S_S400000 : (⟨S_, .i32⟩ : BufTy).Contents (Elt F) → (⟨S400000, .i32⟩ : BufTy).Contents (Elt F)),
    StableHlo.binary main_v1 main_v79 main_v80 (cmpi .slt : (⟨S400000, .i32⟩ : BufTy).Contents (Elt F) → (⟨S400000, .i32⟩ : BufTy).Contents (Elt F) → (⟨S400000, .i1⟩ : BufTy).Contents (Elt F)),
    StableHlo.nullary main_c_10 (constantI S_ 32 50000#32),
    StableHlo.unary main_c_10 main_v81 (broadcastInDim S400000 ![] bcast_S_S400000 : (⟨S_, .i32⟩ : BufTy).Contents (Elt F) → (⟨S400000, .i32⟩ : BufTy).Contents (Elt F)),
    StableHlo.binary main_v1 main_v81 main_v82 (addi : (⟨S400000, .i32⟩ : BufTy).Contents (Elt F) → (⟨S400000, .i32⟩ : BufTy).Contents (Elt F) → (⟨S400000, .i32⟩ : BufTy).Contents (Elt F)),
    StableHlo.ternary main_v80 main_v82 main_v1 main_v83 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v83 main_v84 (broadcastInDim S400000x1 ![0] bcast_S400000_S400000x1_0 : (⟨S400000, .i32⟩ : BufTy).Contents (Elt F) → (⟨S400000x1, .i32⟩ : BufTy).Contents (Elt F)),
    StableHlo.binary main_v78 main_v84 main_v85 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_11 (constant S_ .f32 0x00000000#32),
    StableHlo.unary main_cst_11 main_v86 (broadcastInDim S50000x300 ![] bcast_S_S50000x300 : (⟨S_, .f32⟩ : BufTy).Contents (Elt F) → (⟨S50000x300, .f32⟩ : BufTy).Contents (Elt F)),
    StableHlo.unary main_v3 main_v87 (broadcastInDim S400000x1 ![0] bcast_S400000_S400000x1_0 : (⟨S400000, .i32⟩ : BufTy).Contents (Elt F) → (⟨S400000x1, .i32⟩ : BufTy).Contents (Elt F)),
    StableHlo.ternary main_v86 main_v87 main_v85 main_v88 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v78 main_v88 main_v89 (addf : (⟨S50000x300, .f32⟩ : BufTy).Contents (Elt F) → (⟨S50000x300, .f32⟩ : BufTy).Contents (Elt F) → (⟨S50000x300, .f32⟩ : BufTy).Contents (Elt F)),
    StableHlo.unary main_arg3 main_v90 ((extractStridedSlice S1x300x300 ![1, 0, 0] · slices_S5x300x300_S1x300x300_1_0_0) : (⟨S5x300x300, .f32⟩ : BufTy).Contents (Elt F) → (⟨S1x300x300, .f32⟩ : BufTy).Contents (Elt F)),
    StableHlo.reshape main_v90 main_v91 rfl shapeCasts_S1x300x300_S300x300,
    StableHlo.binary main_v89 main_v91 main_v92 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v93 ((extractStridedSlice S1x300 ![1, 0] · slices_S5x300_S1x300_1_0) : (⟨S5x300, .f32⟩ : BufTy).Contents (Elt F) → (⟨S1x300, .f32⟩ : BufTy).Contents (Elt F)),
    StableHlo.reshape main_v93 main_v94 rfl shapeCasts_S1x300_S300,
    StableHlo.unary main_v94 main_v95 (broadcastInDim S1x300 ![1] bcast_S300_S1x300_1 : (⟨S300, .f32⟩ : BufTy).Contents (Elt F) → (⟨S1x300, .f32⟩ : BufTy).Contents (Elt F)),
    StableHlo.unary main_v95 main_v96 (broadcastInDim S50000x300 ![0, 1] bcast_S1x300_S50000x300_0_1 : (⟨S1x300, .f32⟩ : BufTy).Contents (Elt F) → (⟨S50000x300, .f32⟩ : BufTy).Contents (Elt F)),
    StableHlo.binary main_v92 main_v96 main_v97 (addf : (⟨S50000x300, .f32⟩ : BufTy).Contents (Elt F) → (⟨S50000x300, .f32⟩ : BufTy).Contents (Elt F) → (⟨S50000x300, .f32⟩ : BufTy).Contents (Elt F)),
    StableHlo.unary main_arg5 main_v98 ((extractStridedSlice S1x300 ![1, 0] · slices_S5x300_S1x300_1_0) : (⟨S5x300, .f32⟩ : BufTy).Contents (Elt F) → (⟨S1x300, .f32⟩ : BufTy).Contents (Elt F)),
    StableHlo.reshape main_v98 main_v99 rfl shapeCasts_S1x300_S300,
    StableHlo.unary main_arg6 main_v100 ((extractStridedSlice S1x300 ![1, 0] · slices_S5x300_S1x300_1_0) : (⟨S5x300, .f32⟩ : BufTy).Contents (Elt F) → (⟨S1x300, .f32⟩ : BufTy).Contents (Elt F)),
    StableHlo.reshape main_v100 main_v101 rfl shapeCasts_S1x300_S300,
    StableHlo.nullary main_cst_12 (constant S_ .f32 0x00000000#32),
    StableHlo.binary main_v97 main_cst_12 main_v102 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_13 (constant S_ .f32 0x47435000#32),
    StableHlo.unary main_cst_13 main_v103 (broadcastInDim S300 ![] bcast_S_S300 : (⟨S_, .f32⟩ : BufTy).Contents (Elt F) → (⟨S300, .f32⟩ : BufTy).Contents (Elt F)) ]

set_option maxRecDepth 8192 in
set_option maxHeartbeats 4000000 in
theorem main_part1_eq (c : Dev nD) : main_part1 (F := F) c = seq partOps1 := by
  simp only [main_part1, fn_var.body, fn_where.body, fn_relu.body, seq, bind_assoc, pure_bind]
  all_goals rfl

end Cert.ReferenceIdeal.Run

end
-- ==== Proof.RefRun.Part2.lean ====
/- The printed window main_part2 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part2, calls inlined. 106 operations. -/
abbrev partOps2 : List (HloOp τ sig (Elt F)) :=
  [ StableHlo.binary main_v102 main_v103 main_v104 (Host.divf : (⟨S300, .f32⟩ : BufTy).Contents (Elt F) → (⟨S300, .f32⟩ : BufTy).Contents (Elt F) → (⟨S300, .f32⟩ : BufTy).Contents (Elt F)),
    StableHlo.nullary main_c_14 (constantI S_ 32 0#32),
    StableHlo.TRef.nullary main_call4.cst (constant S_ .f32 0x00000000#32),
    StableHlo.TRef.binary (StableHlo.TRef.of main_v97 : StableHlo.TRef sig ⟨S50000x300, .f32⟩) main_call4.cst main_call4.v0 (fun x v => Host.reduceAdd x v reducesTo_S50000x300_S300_d0 h_S_),
    StableHlo.TRef.unary main_call4.v0 main_call4.v1 (broadcastInDim S1x300 ![1] bcast_S300_S1x300_1),
    StableHlo.TRef.nullary main_call4.cst_0 (constant S_ .f32 0x47435000#32),
    StableHlo.TRef.unary main_call4.cst_0 main_call4.v2 (broadcastInDim S1x300 ![] bcast_S_S1x300),
    StableHlo.TRef.binary main_call4.v1 main_call4.v2 main_call4.v3 Host.divf,
    StableHlo.TRef.unary main_call4.v3 main_call4.v4 (broadcastInDim S50000x300 ![0, 1] bcast_S1x300_S50000x300_0_1),
    StableHlo.TRef.binary (StableHlo.TRef.of main_v97 : StableHlo.TRef sig ⟨S50000x300, .f32⟩) main_call4.v4 main_call4.v5 subf,
    StableHlo.TRef.binary main_call4.v5 main_call4.v5 main_call4.v6 mulf,
    StableHlo.TRef.unary (StableHlo.TRef.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x300_S300_d0 h_S_),
    StableHlo.TRef.unary main_call4.v8 main_call4.v10 (broadcastInDim S300 ![] bcast_S_S300),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S300 ![] bcast_S_S300),
    StableHlo.TRef.ternary main_call4.v12 main_call4.v11 main_call4.call0.v1 main_call4.call0.v2 (fun p a b => select (broadcastInDim S300 ![] bcast_S_S300 p) a b),
    StableHlo.unary main_v104 main_v106 (broadcastInDim S1x300 ![1] bcast_S300_S1x300_1 : (⟨S300, .f32⟩ : BufTy).Contents (Elt F) → (⟨S1x300, .f32⟩ : BufTy).Contents (Elt F)),
    StableHlo.unary main_v106 main_v107 (broadcastInDim S50000x300 ![0, 1] bcast_S1x300_S50000x300_0_1 : (⟨S1x300, .f32⟩ : BufTy).Contents (Elt F) → (⟨S50000x300, .f32⟩ : BufTy).Contents (Elt F)),
    StableHlo.binary main_v97 main_v107 main_v108 (subf : (⟨S50000x300, .f32⟩ : BufTy).Contents (Elt F) → (⟨S50000x300, .f32⟩ : BufTy).Contents (Elt F) → (⟨S50000x300, .f32⟩ : BufTy).Contents (Elt F)),
    StableHlo.nullary main_cst_15 (constant S_ .f32 0x3727C5AC#32),
    StableHlo.unary main_cst_15 main_v109 (broadcastInDim S300 ![] bcast_S_S300 : (⟨S_, .f32⟩ : BufTy).Contents (Elt F) → (⟨S300, .f32⟩ : BufTy).Contents (Elt F)),
    StableHlo.binary main_v105 main_v109 main_v110 (addf : (⟨S300, .f32⟩ : BufTy).Contents (Elt F) → (⟨S300, .f32⟩ : BufTy).Contents (Elt F) → (⟨S300, .f32⟩ : BufTy).Contents (Elt F)),
    StableHlo.unary main_v110 main_v111 (Host.rsqrt : (⟨S300, .f32⟩ : BufTy).Contents (Elt F) → (⟨S300, .f32⟩ : BufTy).Contents (Elt F)),
    StableHlo.unary main_v111 main_v112 (broadcastInDim S1x300 ![1] bcast_S300_S1x300_1 : (⟨S300, .f32⟩ : BufTy).Contents (Elt F) → (⟨S1x300, .f32⟩ : BufTy).Contents (Elt F)),
    StableHlo.unary main_v112 main_v113 (broadcastInDim S50000x300 ![0, 1] bcast_S1x300_S50000x300_0_1 : (⟨S1x300, .f32⟩ : BufTy).Contents (Elt F) → (⟨S50000x300, .f32⟩ : BufTy).Contents (Elt F)),
    StableHlo.binary main_v108 main_v113 main_v114 (mulf : (⟨S50000x300, .f32⟩ : BufTy).Contents (Elt F) → (⟨S50000x300, .f32⟩ : BufTy).Contents (Elt F) → (⟨S50000x300, .f32⟩ : BufTy).Contents (Elt F)),
    StableHlo.unary main_v99 main_v115 (broadcastInDim S1x300 ![1] bcast_S300_S1x300_1 : (⟨S300, .f32⟩ : BufTy).Contents (Elt F) → (⟨S1x300, .f32⟩ : BufTy).Contents (Elt F)),
    StableHlo.unary main_v115 main_v116 (broadcastInDim S50000x300 ![0, 1] bcast_S1x300_S50000x300_0_1 : (⟨S1x300, .f32⟩ : BufTy).Contents (Elt F) → (⟨S50000x300, .f32⟩ : BufTy).Contents (Elt F)),
    StableHlo.binary main_v114 main_v116 main_v117 (mulf : (⟨S50000x300, .f32⟩ : BufTy).Contents (Elt F) → (⟨S50000x300, .f32⟩ : BufTy).Contents (Elt F) → (⟨S50000x300, .f32⟩ : BufTy).Contents (Elt F)),
    StableHlo.unary main_v101 main_v118 (broadcastInDim S1x300 ![1] bcast_S300_S1x300_1 : (⟨S300, .f32⟩ : BufTy).Contents (Elt F) → (⟨S1x300, .f32⟩ : BufTy).Contents (Elt F)),
    StableHlo.unary main_v118 main_v119 (broadcastInDim S50000x300 ![0, 1] bcast_S1x300_S50000x300_0_1 : (⟨S1x300, .f32⟩ : BufTy).Contents (Elt F) → (⟨S50000x300, .f32⟩ : BufTy).Contents (Elt F)),
    StableHlo.binary main_v117 main_v119 main_v120 (addf : (⟨S50000x300, .f32⟩ : BufTy).Contents (Elt F) → (⟨S50000x300, .f32⟩ : BufTy).Contents (Elt F) → (⟨S50000x300, .f32⟩ : BufTy).Contents (Elt F)),
    StableHlo.TRef.nullary main_call5.cst (constant S_ .f32 0x00000000#32),
    StableHlo.TRef.unary main_call5.cst main_call5.v0 (broadcastInDim S50000x300 ![] bcast_S_S50000x300),
    StableHlo.TRef.binary (StableHlo.TRef.of main_v120 : StableHlo.TRef sig ⟨S50000x300, .f32⟩) main_call5.v0 main_call5.v1 maximumf,
    StableHlo.unary main_arg7 main_v122 ((extractStridedSlice S1x300x300 ![1, 0, 0] · slices_S5x300x300_S1x300x300_1_0_0) : (⟨S5x300x300, .f32⟩ : BufTy).Contents (Elt F) → (⟨S1x300x300, .f32⟩ : BufTy).Contents (Elt F)),
    StableHlo.reshape main_v122 main_v123 rfl shapeCasts_S1x300x300_S300x300,
    StableHlo.binary main_v121 main_v123 main_v124 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v125 ((extractStridedSlice S1x300 ![1, 0] · slices_S5x300_S1x300_1_0) : (⟨S5x300, .f32⟩ : BufTy).Contents (Elt F) → (⟨S1x300, .f32⟩ : BufTy).Contents (Elt F)),
    StableHlo.reshape main_v125 main_v126 rfl shapeCasts_S1x300_S300,
    StableHlo.unary main_v126 main_v127 (broadcastInDim S1x300 ![1] bcast_S300_S1x300_1 : (⟨S300, .f32⟩ : BufTy).Contents (Elt F) → (⟨S1x300, .f32⟩ : BufTy).Contents (Elt F)),
    StableHlo.unary main_v127 main_v128 (broadcastInDim S50000x300 ![0, 1] bcast_S1x300_S50000x300_0_1 : (⟨S1x300, .f32⟩ : BufTy).Contents (Elt F) → (⟨S50000x300, .f32⟩ : BufTy).Contents (Elt F)),
    StableHlo.binary main_v124 main_v128 main_v129 (addf : (⟨S50000x300, .f32⟩ : BufTy).Contents (Elt F) → (⟨S50000x300, .f32⟩ : BufTy).Contents (Elt F) → (⟨S50000x300, .f32⟩ : BufTy).Contents (Elt F)),
    StableHlo.unary main_arg9 main_v130 ((extractStridedSlice S1x300 ![1, 0] · slices_S5x300_S1x300_1_0) : (⟨S5x300, .f32⟩ : BufTy).Contents (Elt F) → (⟨S1x300, .f32⟩ : BufTy).Contents (Elt F)),
    StableHlo.reshape main_v130 main_v131 rfl shapeCasts_S1x300_S300,
    StableHlo.unary main_arg10 main_v132 ((extractStridedSlice S1x300 ![1, 0] · slices_S5x300_S1x300_1_0) : (⟨S5x300, .f32⟩ : BufTy).Contents (Elt F) → (⟨S1x300, .f32⟩ : BufTy).Contents (Elt F)),
    StableHlo.reshape main_v132 main_v133 rfl shapeCasts_S1x300_S300,
    StableHlo.nullary main_cst_16 (constant S_ .f32 0x00000000#32),
    StableHlo.binary main_v129 main_cst_16 main_v134 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_17 (constant S_ .f32 0x47435000#32),
    StableHlo.unary main_cst_17 main_v135 (broadcastInDim S300 ![] bcast_S_S300 : (⟨S_, .f32⟩ : BufTy).Contents (Elt F) → (⟨S300, .f32⟩ : BufTy).Contents (Elt F)),
    StableHlo.binary main_v134 main_v135 main_v136 (Host.divf : (⟨S300, .f32⟩ : BufTy).Contents (Elt F) → (⟨S300, .f32⟩ : BufTy).Contents (Elt F) → (⟨S300, .f32⟩ : BufTy).Contents (Elt F)),
    StableHlo.nullary main_c_18 (constantI S_ 32 0#32),
    StableHlo.TRef.nullary main_call6.cst (constant S_ .f32 0x00000000#32),
    StableHlo.TRef.binary (StableHlo.TRef.of main_v129 : StableHlo.TRef sig ⟨S50000x300, .f32⟩) main_call6.cst main_call6.v0 (fun x v => Host.reduceAdd x v reducesTo_S50000x300_S300_d0 h_S_),
    StableHlo.TRef.unary main_call6.v0 main_call6.v1 (broadcastInDim S1x300 ![1] bcast_S300_S1x300_1),
    StableHlo.TRef.nullary main_call6.cst_0 (constant S_ .f32 0x47435000#32),
    StableHlo.TRef.unary main_call6.cst_0 main_call6.v2 (broadcastInDim S1x300 ![] bcast_S_S1x300),
    StableHlo.TRef.binary main_call6.v1 main_call6.v2 main_call6.v3 Host.divf,
    StableHlo.TRef.unary main_call6.v3 main_call6.v4 (broadcastInDim S50000x300 ![0, 1] bcast_S1x300_S50000x300_0_1),
    StableHlo.TRef.binary (StableHlo.TRef.of main_v129 : StableHlo.TRef sig ⟨S50000x300, .f32⟩) main_call6.v4 main_call6.v5 subf,
    StableHlo.TRef.binary main_call6.v5 main_call6.v5 main_call6.v6 mulf,
    StableHlo.TRef.unary (StableHlo.TRef.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x300_S300_d0 h_S_),
    StableHlo.TRef.unary main_call6.v8 main_call6.v10 (broadcastInDim S300 ![] bcast_S_S300),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S300 ![] bcast_S_S300),
    StableHlo.TRef.ternary main_call6.v12 main_call6.v11 main_call6.call0.v1 main_call6.call0.v2 (fun p a b => select (broadcastInDim S300 ![] bcast_S_S300 p) a b),
    StableHlo.unary main_v136 main_v138 (broadcastInDim S1x300 ![1] bcast_S300_S1x300_1 : (⟨S300, .f32⟩ : BufTy).Contents (Elt F) → (⟨S1x300, .f32⟩ : BufTy).Contents (Elt F)),
    StableHlo.unary main_v138 main_v139 (broadcastInDim S50000x300 ![0, 1] bcast_S1x300_S50000x300_0_1 : (⟨S1x300, .f32⟩ : BufTy).Contents (Elt F) → (⟨S50000x300, .f32⟩ : BufTy).Contents (Elt F)),
    StableHlo.binary main_v129 main_v139 main_v140 (subf : (⟨S50000x300, .f32⟩ : BufTy).Contents (Elt F) → (⟨S50000x300, .f32⟩ : BufTy).Contents (Elt F) → (⟨S50000x300, .f32⟩ : BufTy).Contents (Elt F)),
    StableHlo.nullary main_cst_19 (constant S_ .f32 0x3727C5AC#32),
    StableHlo.unary main_cst_19 main_v141 (broadcastInDim S300 ![] bcast_S_S300 : (⟨S_, .f32⟩ : BufTy).Contents (Elt F) → (⟨S300, .f32⟩ : BufTy).Contents (Elt F)),
    StableHlo.binary main_v137 main_v141 main_v142 (addf : (⟨S300, .f32⟩ : BufTy).Contents (Elt F) → (⟨S300, .f32⟩ : BufTy).Contents (Elt F) → (⟨S300, .f32⟩ : BufTy).Contents (Elt F)),
    StableHlo.unary main_v142 main_v143 (Host.rsqrt : (⟨S300, .f32⟩ : BufTy).Contents (Elt F) → (⟨S300, .f32⟩ : BufTy).Contents (Elt F)),
    StableHlo.unary main_v143 main_v144 (broadcastInDim S1x300 ![1] bcast_S300_S1x300_1 : (⟨S300, .f32⟩ : BufTy).Contents (Elt F) → (⟨S1x300, .f32⟩ : BufTy).Contents (Elt F)),
    StableHlo.unary main_v144 main_v145 (broadcastInDim S50000x300 ![0, 1] bcast_S1x300_S50000x300_0_1 : (⟨S1x300, .f32⟩ : BufTy).Contents (Elt F) → (⟨S50000x300, .f32⟩ : BufTy).Contents (Elt F)),
    StableHlo.binary main_v140 main_v145 main_v146 (mulf : (⟨S50000x300, .f32⟩ : BufTy).Contents (Elt F) → (⟨S50000x300, .f32⟩ : BufTy).Contents (Elt F) → (⟨S50000x300, .f32⟩ : BufTy).Contents (Elt F)),
    StableHlo.unary main_v131 main_v147 (broadcastInDim S1x300 ![1] bcast_S300_S1x300_1 : (⟨S300, .f32⟩ : BufTy).Contents (Elt F) → (⟨S1x300, .f32⟩ : BufTy).Contents (Elt F)),
    StableHlo.unary main_v147 main_v148 (broadcastInDim S50000x300 ![0, 1] bcast_S1x300_S50000x300_0_1 : (⟨S1x300, .f32⟩ : BufTy).Contents (Elt F) → (⟨S50000x300, .f32⟩ : BufTy).Contents (Elt F)),
    StableHlo.binary main_v146 main_v148 main_v149 (mulf : (⟨S50000x300, .f32⟩ : BufTy).Contents (Elt F) → (⟨S50000x300, .f32⟩ : BufTy).Contents (Elt F) → (⟨S50000x300, .f32⟩ : BufTy).Contents (Elt F)),
    StableHlo.unary main_v133 main_v150 (broadcastInDim S1x300 ![1] bcast_S300_S1x300_1 : (⟨S300, .f32⟩ : BufTy).Contents (Elt F) → (⟨S1x300, .f32⟩ : BufTy).Contents (Elt F)),
    StableHlo.unary main_v150 main_v151 (broadcastInDim S50000x300 ![0, 1] bcast_S1x300_S50000x300_0_1 : (⟨S1x300, .f32⟩ : BufTy).Contents (Elt F) → (⟨S50000x300, .f32⟩ : BufTy).Contents (Elt F)),
    StableHlo.binary main_v149 main_v151 main_v152 (addf : (⟨S50000x300, .f32⟩ : BufTy).Contents (Elt F) → (⟨S50000x300, .f32⟩ : BufTy).Contents (Elt F) → (⟨S50000x300, .f32⟩ : BufTy).Contents (Elt F)),
    StableHlo.TRef.nullary main_call7.cst (constant S_ .f32 0x00000000#32),
    StableHlo.TRef.unary main_call7.cst main_call7.v0 (broadcastInDim S50000x300 ![] bcast_S_S50000x300),
    StableHlo.TRef.binary (StableHlo.TRef.of main_v152 : StableHlo.TRef sig ⟨S50000x300, .f32⟩) main_call7.v0 main_call7.v1 maximumf,
    StableHlo.nullary main_c_20 (constantI S_ 32 0#32),
    StableHlo.unary main_c_20 main_v154 (broadcastInDim S400000 ![] bcast_S_S400000 : (⟨S_, .i32⟩ : BufTy).Contents (Elt F) → (⟨S400000, .i32⟩ : BufTy).Contents (Elt F)),
    StableHlo.binary main_v1 main_v154 main_v155 (cmpi .slt : (⟨S400000, .i32⟩ : BufTy).Contents (Elt F) → (⟨S400000, .i32⟩ : BufTy).Contents (Elt F) → (⟨S400000, .i1⟩ : BufTy).Contents (Elt F)),
    StableHlo.nullary main_c_21 (constantI S_ 32 50000#32) ]

set_option maxRecDepth 8192 in
set_option maxHeartbeats 4000000 in
theorem main_part2_eq (c : Dev nD) : main_part2 (F := F) c = seq partOps2 := by
  simp only [main_part2, fn_var.body, fn_where.body, fn_relu.body, seq, bind_assoc, pure_bind]
  all_goals rfl

end Cert.ReferenceIdeal.Run

end
-- ==== Proof.RefRun.Part3.lean ====
/- The printed window main_part3 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part3, calls inlined. 83 operations. -/
abbrev partOps3 : List (HloOp τ sig (Elt F)) :=
  [ StableHlo.unary main_c_21 main_v156 (broadcastInDim S400000 ![] bcast_S_S400000 : (⟨S_, .i32⟩ : BufTy).Contents (Elt F) → (⟨S400000, .i32⟩ : BufTy).Contents (Elt F)),
    StableHlo.binary main_v1 main_v156 main_v157 (addi : (⟨S400000, .i32⟩ : BufTy).Contents (Elt F) → (⟨S400000, .i32⟩ : BufTy).Contents (Elt F) → (⟨S400000, .i32⟩ : BufTy).Contents (Elt F)),
    StableHlo.ternary main_v155 main_v157 main_v1 main_v158 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v158 main_v159 (broadcastInDim S400000x1 ![0] bcast_S400000_S400000x1_0 : (⟨S400000, .i32⟩ : BufTy).Contents (Elt F) → (⟨S400000x1, .i32⟩ : BufTy).Contents (Elt F)),
    StableHlo.binary main_v153 main_v159 main_v160 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_22 (constant S_ .f32 0x00000000#32),
    StableHlo.unary main_cst_22 main_v161 (broadcastInDim S50000x300 ![] bcast_S_S50000x300 : (⟨S_, .f32⟩ : BufTy).Contents (Elt F) → (⟨S50000x300, .f32⟩ : BufTy).Contents (Elt F)),
    StableHlo.unary main_v3 main_v162 (broadcastInDim S400000x1 ![0] bcast_S400000_S400000x1_0 : (⟨S400000, .i32⟩ : BufTy).Contents (Elt F) → (⟨S400000x1, .i32⟩ : BufTy).Contents (Elt F)),
    StableHlo.ternary main_v161 main_v162 main_v160 main_v163 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v153 main_v163 main_v164 (addf : (⟨S50000x300, .f32⟩ : BufTy).Contents (Elt F) → (⟨S50000x300, .f32⟩ : BufTy).Contents (Elt F) → (⟨S50000x300, .f32⟩ : BufTy).Contents (Elt F)),
    StableHlo.unary main_arg3 main_v165 ((extractStridedSlice S1x300x300 ![2, 0, 0] · slices_S5x300x300_S1x300x300_2_0_0) : (⟨S5x300x300, .f32⟩ : BufTy).Contents (Elt F) → (⟨S1x300x300, .f32⟩ : BufTy).Contents (Elt F)),
    StableHlo.reshape main_v165 main_v166 rfl shapeCasts_S1x300x300_S300x300,
    StableHlo.binary main_v164 main_v166 main_v167 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v168 ((extractStridedSlice S1x300 ![2, 0] · slices_S5x300_S1x300_2_0) : (⟨S5x300, .f32⟩ : BufTy).Contents (Elt F) → (⟨S1x300, .f32⟩ : BufTy).Contents (Elt F)),
    StableHlo.reshape main_v168 main_v169 rfl shapeCasts_S1x300_S300,
    StableHlo.unary main_v169 main_v170 (broadcastInDim S1x300 ![1] bcast_S300_S1x300_1 : (⟨S300, .f32⟩ : BufTy).Contents (Elt F) → (⟨S1x300, .f32⟩ : BufTy).Contents (Elt F)),
    StableHlo.unary main_v170 main_v171 (broadcastInDim S50000x300 ![0, 1] bcast_S1x300_S50000x300_0_1 : (⟨S1x300, .f32⟩ : BufTy).Contents (Elt F) → (⟨S50000x300, .f32⟩ : BufTy).Contents (Elt F)),
    StableHlo.binary main_v167 main_v171 main_v172 (addf : (⟨S50000x300, .f32⟩ : BufTy).Contents (Elt F) → (⟨S50000x300, .f32⟩ : BufTy).Contents (Elt F) → (⟨S50000x300, .f32⟩ : BufTy).Contents (Elt F)),
    StableHlo.unary main_arg5 main_v173 ((extractStridedSlice S1x300 ![2, 0] · slices_S5x300_S1x300_2_0) : (⟨S5x300, .f32⟩ : BufTy).Contents (Elt F) → (⟨S1x300, .f32⟩ : BufTy).Contents (Elt F)),
    StableHlo.reshape main_v173 main_v174 rfl shapeCasts_S1x300_S300,
    StableHlo.unary main_arg6 main_v175 ((extractStridedSlice S1x300 ![2, 0] · slices_S5x300_S1x300_2_0) : (⟨S5x300, .f32⟩ : BufTy).Contents (Elt F) → (⟨S1x300, .f32⟩ : BufTy).Contents (Elt F)),
    StableHlo.reshape main_v175 main_v176 rfl shapeCasts_S1x300_S300,
    StableHlo.nullary main_cst_23 (constant S_ .f32 0x00000000#32),
    StableHlo.binary main_v172 main_cst_23 main_v177 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_24 (constant S_ .f32 0x47435000#32),
    StableHlo.unary main_cst_24 main_v178 (broadcastInDim S300 ![] bcast_S_S300 : (⟨S_, .f32⟩ : BufTy).Contents (Elt F) → (⟨S300, .f32⟩ : BufTy).Contents (Elt F)),
    StableHlo.binary main_v177 main_v178 main_v179 (Host.divf : (⟨S300, .f32⟩ : BufTy).Contents (Elt F) → (⟨S300, .f32⟩ : BufTy).Contents (Elt F) → (⟨S300, .f32⟩ : BufTy).Contents (Elt F)),
    StableHlo.nullary main_c_25 (constantI S_ 32 0#32),
    StableHlo.TRef.nullary main_call8.cst (constant S_ .f32 0x00000000#32),
    StableHlo.TRef.binary (StableHlo.TRef.of main_v172 : StableHlo.TRef sig ⟨S50000x300, .f32⟩) main_call8.cst main_call8.v0 (fun x v => Host.reduceAdd x v reducesTo_S50000x300_S300_d0 h_S_),
    StableHlo.TRef.unary main_call8.v0 main_call8.v1 (broadcastInDim S1x300 ![1] bcast_S300_S1x300_1),
    StableHlo.TRef.nullary main_call8.cst_0 (constant S_ .f32 0x47435000#32),
    StableHlo.TRef.unary main_call8.cst_0 main_call8.v2 (broadcastInDim S1x300 ![] bcast_S_S1x300),
    StableHlo.TRef.binary main_call8.v1 main_call8.v2 main_call8.v3 Host.divf,
    StableHlo.TRef.unary main_call8.v3 main_call8.v4 (broadcastInDim S50000x300 ![0, 1] bcast_S1x300_S50000x300_0_1),
    StableHlo.TRef.binary (StableHlo.TRef.of main_v172 : StableHlo.TRef sig ⟨S50000x300, .f32⟩) main_call8.v4 main_call8.v5 subf,
    StableHlo.TRef.binary main_call8.v5 main_call8.v5 main_call8.v6 mulf,
    StableHlo.TRef.unary (StableHlo.TRef.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x300_S300_d0 h_S_),
    StableHlo.TRef.unary main_call8.v8 main_call8.v10 (broadcastInDim S300 ![] bcast_S_S300),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S300 ![] bcast_S_S300),
    StableHlo.TRef.ternary main_call8.v12 main_call8.v11 main_call8.call0.v1 main_call8.call0.v2 (fun p a b => select (broadcastInDim S300 ![] bcast_S_S300 p) a b),
    StableHlo.unary main_v179 main_v181 (broadcastInDim S1x300 ![1] bcast_S300_S1x300_1 : (⟨S300, .f32⟩ : BufTy).Contents (Elt F) → (⟨S1x300, .f32⟩ : BufTy).Contents (Elt F)),
    StableHlo.unary main_v181 main_v182 (broadcastInDim S50000x300 ![0, 1] bcast_S1x300_S50000x300_0_1 : (⟨S1x300, .f32⟩ : BufTy).Contents (Elt F) → (⟨S50000x300, .f32⟩ : BufTy).Contents (Elt F)),
    StableHlo.binary main_v172 main_v182 main_v183 (subf : (⟨S50000x300, .f32⟩ : BufTy).Contents (Elt F) → (⟨S50000x300, .f32⟩ : BufTy).Contents (Elt F) → (⟨S50000x300, .f32⟩ : BufTy).Contents (Elt F)),
    StableHlo.nullary main_cst_26 (constant S_ .f32 0x3727C5AC#32),
    StableHlo.unary main_cst_26 main_v184 (broadcastInDim S300 ![] bcast_S_S300 : (⟨S_, .f32⟩ : BufTy).Contents (Elt F) → (⟨S300, .f32⟩ : BufTy).Contents (Elt F)),
    StableHlo.binary main_v180 main_v184 main_v185 (addf : (⟨S300, .f32⟩ : BufTy).Contents (Elt F) → (⟨S300, .f32⟩ : BufTy).Contents (Elt F) → (⟨S300, .f32⟩ : BufTy).Contents (Elt F)),
    StableHlo.unary main_v185 main_v186 (Host.rsqrt : (⟨S300, .f32⟩ : BufTy).Contents (Elt F) → (⟨S300, .f32⟩ : BufTy).Contents (Elt F)),
    StableHlo.unary main_v186 main_v187 (broadcastInDim S1x300 ![1] bcast_S300_S1x300_1 : (⟨S300, .f32⟩ : BufTy).Contents (Elt F) → (⟨S1x300, .f32⟩ : BufTy).Contents (Elt F)),
    StableHlo.unary main_v187 main_v188 (broadcastInDim S50000x300 ![0, 1] bcast_S1x300_S50000x300_0_1 : (⟨S1x300, .f32⟩ : BufTy).Contents (Elt F) → (⟨S50000x300, .f32⟩ : BufTy).Contents (Elt F)),
    StableHlo.binary main_v183 main_v188 main_v189 (mulf : (⟨S50000x300, .f32⟩ : BufTy).Contents (Elt F) → (⟨S50000x300, .f32⟩ : BufTy).Contents (Elt F) → (⟨S50000x300, .f32⟩ : BufTy).Contents (Elt F)),
    StableHlo.unary main_v174 main_v190 (broadcastInDim S1x300 ![1] bcast_S300_S1x300_1 : (⟨S300, .f32⟩ : BufTy).Contents (Elt F) → (⟨S1x300, .f32⟩ : BufTy).Contents (Elt F)),
    StableHlo.unary main_v190 main_v191 (broadcastInDim S50000x300 ![0, 1] bcast_S1x300_S50000x300_0_1 : (⟨S1x300, .f32⟩ : BufTy).Contents (Elt F) → (⟨S50000x300, .f32⟩ : BufTy).Contents (Elt F)),
    StableHlo.binary main_v189 main_v191 main_v192 (mulf : (⟨S50000x300, .f32⟩ : BufTy).Contents (Elt F) → (⟨S50000x300, .f32⟩ : BufTy).Contents (Elt F) → (⟨S50000x300, .f32⟩ : BufTy).Contents (Elt F)),
    StableHlo.unary main_v176 main_v193 (broadcastInDim S1x300 ![1] bcast_S300_S1x300_1 : (⟨S300, .f32⟩ : BufTy).Contents (Elt F) → (⟨S1x300, .f32⟩ : BufTy).Contents (Elt F)),
    StableHlo.unary main_v193 main_v194 (broadcastInDim S50000x300 ![0, 1] bcast_S1x300_S50000x300_0_1 : (⟨S1x300, .f32⟩ : BufTy).Contents (Elt F) → (⟨S50000x300, .f32⟩ : BufTy).Contents (Elt F)),
    StableHlo.binary main_v192 main_v194 main_v195 (addf : (⟨S50000x300, .f32⟩ : BufTy).Contents (Elt F) → (⟨S50000x300, .f32⟩ : BufTy).Contents (Elt F) → (⟨S50000x300, .f32⟩ : BufTy).Contents (Elt F)),
    StableHlo.TRef.nullary main_call9.cst (constant S_ .f32 0x00000000#32),
    StableHlo.TRef.unary main_call9.cst main_call9.v0 (broadcastInDim S50000x300 ![] bcast_S_S50000x300),
    StableHlo.TRef.binary (StableHlo.TRef.of main_v195 : StableHlo.TRef sig ⟨S50000x300, .f32⟩) main_call9.v0 main_call9.v1 maximumf,
    StableHlo.unary main_arg7 main_v197 ((extractStridedSlice S1x300x300 ![2, 0, 0] · slices_S5x300x300_S1x300x300_2_0_0) : (⟨S5x300x300, .f32⟩ : BufTy).Contents (Elt F) → (⟨S1x300x300, .f32⟩ : BufTy).Contents (Elt F)),
    StableHlo.reshape main_v197 main_v198 rfl shapeCasts_S1x300x300_S300x300,
    StableHlo.binary main_v196 main_v198 main_v199 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v200 ((extractStridedSlice S1x300 ![2, 0] · slices_S5x300_S1x300_2_0) : (⟨S5x300, .f32⟩ : BufTy).Contents (Elt F) → (⟨S1x300, .f32⟩ : BufTy).Contents (Elt F)),
    StableHlo.reshape main_v200 main_v201 rfl shapeCasts_S1x300_S300,
    StableHlo.unary main_v201 main_v202 (broadcastInDim S1x300 ![1] bcast_S300_S1x300_1 : (⟨S300, .f32⟩ : BufTy).Contents (Elt F) → (⟨S1x300, .f32⟩ : BufTy).Contents (Elt F)),
    StableHlo.unary main_v202 main_v203 (broadcastInDim S50000x300 ![0, 1] bcast_S1x300_S50000x300_0_1 : (⟨S1x300, .f32⟩ : BufTy).Contents (Elt F) → (⟨S50000x300, .f32⟩ : BufTy).Contents (Elt F)),
    StableHlo.binary main_v199 main_v203 main_v204 (addf : (⟨S50000x300, .f32⟩ : BufTy).Contents (Elt F) → (⟨S50000x300, .f32⟩ : BufTy).Contents (Elt F) → (⟨S50000x300, .f32⟩ : BufTy).Contents (Elt F)),
    StableHlo.unary main_arg9 main_v205 ((extractStridedSlice S1x300 ![2, 0] · slices_S5x300_S1x300_2_0) : (⟨S5x300, .f32⟩ : BufTy).Contents (Elt F) → (⟨S1x300, .f32⟩ : BufTy).Contents (Elt F)),
    StableHlo.reshape main_v205 main_v206 rfl shapeCasts_S1x300_S300,
    StableHlo.unary main_arg10 main_v207 ((extractStridedSlice S1x300 ![2, 0] · slices_S5x300_S1x300_2_0) : (⟨S5x300, .f32⟩ : BufTy).Contents (Elt F) → (⟨S1x300, .f32⟩ : BufTy).Contents (Elt F)),
    StableHlo.reshape main_v207 main_v208 rfl shapeCasts_S1x300_S300,
    StableHlo.nullary main_cst_27 (constant S_ .f32 0x00000000#32),
    StableHlo.binary main_v204 main_cst_27 main_v209 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)) ]

set_option maxRecDepth 8192 in
set_option maxHeartbeats 4000000 in
theorem main_part3_eq (c : Dev nD) : main_part3 (F := F) c = seq partOps3 := by
  simp only [main_part3, fn_var.body, fn_where.body, fn_relu.body, seq, bind_assoc, pure_bind]
  all_goals rfl

end Cert.ReferenceIdeal.Run

end
-- ==== Proof.RefRun.Part4.lean ====
/- The printed window main_part4 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part4, calls inlined. 104 operations. -/
abbrev partOps4 : List (HloOp τ sig (Elt F)) :=
  [ StableHlo.nullary main_cst_28 (constant S_ .f32 0x47435000#32),
    StableHlo.unary main_cst_28 main_v210 (broadcastInDim S300 ![] bcast_S_S300 : (⟨S_, .f32⟩ : BufTy).Contents (Elt F) → (⟨S300, .f32⟩ : BufTy).Contents (Elt F)),
    StableHlo.binary main_v209 main_v210 main_v211 (Host.divf : (⟨S300, .f32⟩ : BufTy).Contents (Elt F) → (⟨S300, .f32⟩ : BufTy).Contents (Elt F) → (⟨S300, .f32⟩ : BufTy).Contents (Elt F)),
    StableHlo.nullary main_c_29 (constantI S_ 32 0#32),
    StableHlo.TRef.nullary main_call10.cst (constant S_ .f32 0x00000000#32),
    StableHlo.TRef.binary (StableHlo.TRef.of main_v204 : StableHlo.TRef sig ⟨S50000x300, .f32⟩) main_call10.cst main_call10.v0 (fun x v => Host.reduceAdd x v reducesTo_S50000x300_S300_d0 h_S_),
    StableHlo.TRef.unary main_call10.v0 main_call10.v1 (broadcastInDim S1x300 ![1] bcast_S300_S1x300_1),
    StableHlo.TRef.nullary main_call10.cst_0 (constant S_ .f32 0x47435000#32),
    StableHlo.TRef.unary main_call10.cst_0 main_call10.v2 (broadcastInDim S1x300 ![] bcast_S_S1x300),
    StableHlo.TRef.binary main_call10.v1 main_call10.v2 main_call10.v3 Host.divf,
    StableHlo.TRef.unary main_call10.v3 main_call10.v4 (broadcastInDim S50000x300 ![0, 1] bcast_S1x300_S50000x300_0_1),
    StableHlo.TRef.binary (StableHlo.TRef.of main_v204 : StableHlo.TRef sig ⟨S50000x300, .f32⟩) main_call10.v4 main_call10.v5 subf,
    StableHlo.TRef.binary main_call10.v5 main_call10.v5 main_call10.v6 mulf,
    StableHlo.TRef.unary (StableHlo.TRef.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x300_S300_d0 h_S_),
    StableHlo.TRef.unary main_call10.v8 main_call10.v10 (broadcastInDim S300 ![] bcast_S_S300),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S300 ![] bcast_S_S300),
    StableHlo.TRef.ternary main_call10.v12 main_call10.v11 main_call10.call0.v1 main_call10.call0.v2 (fun p a b => select (broadcastInDim S300 ![] bcast_S_S300 p) a b),
    StableHlo.unary main_v211 main_v213 (broadcastInDim S1x300 ![1] bcast_S300_S1x300_1 : (⟨S300, .f32⟩ : BufTy).Contents (Elt F) → (⟨S1x300, .f32⟩ : BufTy).Contents (Elt F)),
    StableHlo.unary main_v213 main_v214 (broadcastInDim S50000x300 ![0, 1] bcast_S1x300_S50000x300_0_1 : (⟨S1x300, .f32⟩ : BufTy).Contents (Elt F) → (⟨S50000x300, .f32⟩ : BufTy).Contents (Elt F)),
    StableHlo.binary main_v204 main_v214 main_v215 (subf : (⟨S50000x300, .f32⟩ : BufTy).Contents (Elt F) → (⟨S50000x300, .f32⟩ : BufTy).Contents (Elt F) → (⟨S50000x300, .f32⟩ : BufTy).Contents (Elt F)),
    StableHlo.nullary main_cst_30 (constant S_ .f32 0x3727C5AC#32),
    StableHlo.unary main_cst_30 main_v216 (broadcastInDim S300 ![] bcast_S_S300 : (⟨S_, .f32⟩ : BufTy).Contents (Elt F) → (⟨S300, .f32⟩ : BufTy).Contents (Elt F)),
    StableHlo.binary main_v212 main_v216 main_v217 (addf : (⟨S300, .f32⟩ : BufTy).Contents (Elt F) → (⟨S300, .f32⟩ : BufTy).Contents (Elt F) → (⟨S300, .f32⟩ : BufTy).Contents (Elt F)),
    StableHlo.unary main_v217 main_v218 (Host.rsqrt : (⟨S300, .f32⟩ : BufTy).Contents (Elt F) → (⟨S300, .f32⟩ : BufTy).Contents (Elt F)),
    StableHlo.unary main_v218 main_v219 (broadcastInDim S1x300 ![1] bcast_S300_S1x300_1 : (⟨S300, .f32⟩ : BufTy).Contents (Elt F) → (⟨S1x300, .f32⟩ : BufTy).Contents (Elt F)),
    StableHlo.unary main_v219 main_v220 (broadcastInDim S50000x300 ![0, 1] bcast_S1x300_S50000x300_0_1 : (⟨S1x300, .f32⟩ : BufTy).Contents (Elt F) → (⟨S50000x300, .f32⟩ : BufTy).Contents (Elt F)),
    StableHlo.binary main_v215 main_v220 main_v221 (mulf : (⟨S50000x300, .f32⟩ : BufTy).Contents (Elt F) → (⟨S50000x300, .f32⟩ : BufTy).Contents (Elt F) → (⟨S50000x300, .f32⟩ : BufTy).Contents (Elt F)),
    StableHlo.unary main_v206 main_v222 (broadcastInDim S1x300 ![1] bcast_S300_S1x300_1 : (⟨S300, .f32⟩ : BufTy).Contents (Elt F) → (⟨S1x300, .f32⟩ : BufTy).Contents (Elt F)),
    StableHlo.unary main_v222 main_v223 (broadcastInDim S50000x300 ![0, 1] bcast_S1x300_S50000x300_0_1 : (⟨S1x300, .f32⟩ : BufTy).Contents (Elt F) → (⟨S50000x300, .f32⟩ : BufTy).Contents (Elt F)),
    StableHlo.binary main_v221 main_v223 main_v224 (mulf : (⟨S50000x300, .f32⟩ : BufTy).Contents (Elt F) → (⟨S50000x300, .f32⟩ : BufTy).Contents (Elt F) → (⟨S50000x300, .f32⟩ : BufTy).Contents (Elt F)),
    StableHlo.unary main_v208 main_v225 (broadcastInDim S1x300 ![1] bcast_S300_S1x300_1 : (⟨S300, .f32⟩ : BufTy).Contents (Elt F) → (⟨S1x300, .f32⟩ : BufTy).Contents (Elt F)),
    StableHlo.unary main_v225 main_v226 (broadcastInDim S50000x300 ![0, 1] bcast_S1x300_S50000x300_0_1 : (⟨S1x300, .f32⟩ : BufTy).Contents (Elt F) → (⟨S50000x300, .f32⟩ : BufTy).Contents (Elt F)),
    StableHlo.binary main_v224 main_v226 main_v227 (addf : (⟨S50000x300, .f32⟩ : BufTy).Contents (Elt F) → (⟨S50000x300, .f32⟩ : BufTy).Contents (Elt F) → (⟨S50000x300, .f32⟩ : BufTy).Contents (Elt F)),
    StableHlo.TRef.nullary main_call11.cst (constant S_ .f32 0x00000000#32),
    StableHlo.TRef.unary main_call11.cst main_call11.v0 (broadcastInDim S50000x300 ![] bcast_S_S50000x300),
    StableHlo.TRef.binary (StableHlo.TRef.of main_v227 : StableHlo.TRef sig ⟨S50000x300, .f32⟩) main_call11.v0 main_call11.v1 maximumf,
    StableHlo.nullary main_c_31 (constantI S_ 32 0#32),
    StableHlo.unary main_c_31 main_v229 (broadcastInDim S400000 ![] bcast_S_S400000 : (⟨S_, .i32⟩ : BufTy).Contents (Elt F) → (⟨S400000, .i32⟩ : BufTy).Contents (Elt F)),
    StableHlo.binary main_v1 main_v229 main_v230 (cmpi .slt : (⟨S400000, .i32⟩ : BufTy).Contents (Elt F) → (⟨S400000, .i32⟩ : BufTy).Contents (Elt F) → (⟨S400000, .i1⟩ : BufTy).Contents (Elt F)),
    StableHlo.nullary main_c_32 (constantI S_ 32 50000#32),
    StableHlo.unary main_c_32 main_v231 (broadcastInDim S400000 ![] bcast_S_S400000 : (⟨S_, .i32⟩ : BufTy).Contents (Elt F) → (⟨S400000, .i32⟩ : BufTy).Contents (Elt F)),
    StableHlo.binary main_v1 main_v231 main_v232 (addi : (⟨S400000, .i32⟩ : BufTy).Contents (Elt F) → (⟨S400000, .i32⟩ : BufTy).Contents (Elt F) → (⟨S400000, .i32⟩ : BufTy).Contents (Elt F)),
    StableHlo.ternary main_v230 main_v232 main_v1 main_v233 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v233 main_v234 (broadcastInDim S400000x1 ![0] bcast_S400000_S400000x1_0 : (⟨S400000, .i32⟩ : BufTy).Contents (Elt F) → (⟨S400000x1, .i32⟩ : BufTy).Contents (Elt F)),
    StableHlo.binary main_v228 main_v234 main_v235 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_33 (constant S_ .f32 0x00000000#32),
    StableHlo.unary main_cst_33 main_v236 (broadcastInDim S50000x300 ![] bcast_S_S50000x300 : (⟨S_, .f32⟩ : BufTy).Contents (Elt F) → (⟨S50000x300, .f32⟩ : BufTy).Contents (Elt F)),
    StableHlo.unary main_v3 main_v237 (broadcastInDim S400000x1 ![0] bcast_S400000_S400000x1_0 : (⟨S400000, .i32⟩ : BufTy).Contents (Elt F) → (⟨S400000x1, .i32⟩ : BufTy).Contents (Elt F)),
    StableHlo.ternary main_v236 main_v237 main_v235 main_v238 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v228 main_v238 main_v239 (addf : (⟨S50000x300, .f32⟩ : BufTy).Contents (Elt F) → (⟨S50000x300, .f32⟩ : BufTy).Contents (Elt F) → (⟨S50000x300, .f32⟩ : BufTy).Contents (Elt F)),
    StableHlo.unary main_arg3 main_v240 ((extractStridedSlice S1x300x300 ![3, 0, 0] · slices_S5x300x300_S1x300x300_3_0_0) : (⟨S5x300x300, .f32⟩ : BufTy).Contents (Elt F) → (⟨S1x300x300, .f32⟩ : BufTy).Contents (Elt F)),
    StableHlo.reshape main_v240 main_v241 rfl shapeCasts_S1x300x300_S300x300,
    StableHlo.binary main_v239 main_v241 main_v242 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v243 ((extractStridedSlice S1x300 ![3, 0] · slices_S5x300_S1x300_3_0) : (⟨S5x300, .f32⟩ : BufTy).Contents (Elt F) → (⟨S1x300, .f32⟩ : BufTy).Contents (Elt F)),
    StableHlo.reshape main_v243 main_v244 rfl shapeCasts_S1x300_S300,
    StableHlo.unary main_v244 main_v245 (broadcastInDim S1x300 ![1] bcast_S300_S1x300_1 : (⟨S300, .f32⟩ : BufTy).Contents (Elt F) → (⟨S1x300, .f32⟩ : BufTy).Contents (Elt F)),
    StableHlo.unary main_v245 main_v246 (broadcastInDim S50000x300 ![0, 1] bcast_S1x300_S50000x300_0_1 : (⟨S1x300, .f32⟩ : BufTy).Contents (Elt F) → (⟨S50000x300, .f32⟩ : BufTy).Contents (Elt F)),
    StableHlo.binary main_v242 main_v246 main_v247 (addf : (⟨S50000x300, .f32⟩ : BufTy).Contents (Elt F) → (⟨S50000x300, .f32⟩ : BufTy).Contents (Elt F) → (⟨S50000x300, .f32⟩ : BufTy).Contents (Elt F)),
    StableHlo.unary main_arg5 main_v248 ((extractStridedSlice S1x300 ![3, 0] · slices_S5x300_S1x300_3_0) : (⟨S5x300, .f32⟩ : BufTy).Contents (Elt F) → (⟨S1x300, .f32⟩ : BufTy).Contents (Elt F)),
    StableHlo.reshape main_v248 main_v249 rfl shapeCasts_S1x300_S300,
    StableHlo.unary main_arg6 main_v250 ((extractStridedSlice S1x300 ![3, 0] · slices_S5x300_S1x300_3_0) : (⟨S5x300, .f32⟩ : BufTy).Contents (Elt F) → (⟨S1x300, .f32⟩ : BufTy).Contents (Elt F)),
    StableHlo.reshape main_v250 main_v251 rfl shapeCasts_S1x300_S300,
    StableHlo.nullary main_cst_34 (constant S_ .f32 0x00000000#32),
    StableHlo.binary main_v247 main_cst_34 main_v252 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_35 (constant S_ .f32 0x47435000#32),
    StableHlo.unary main_cst_35 main_v253 (broadcastInDim S300 ![] bcast_S_S300 : (⟨S_, .f32⟩ : BufTy).Contents (Elt F) → (⟨S300, .f32⟩ : BufTy).Contents (Elt F)),
    StableHlo.binary main_v252 main_v253 main_v254 (Host.divf : (⟨S300, .f32⟩ : BufTy).Contents (Elt F) → (⟨S300, .f32⟩ : BufTy).Contents (Elt F) → (⟨S300, .f32⟩ : BufTy).Contents (Elt F)),
    StableHlo.nullary main_c_36 (constantI S_ 32 0#32),
    StableHlo.TRef.nullary main_call12.cst (constant S_ .f32 0x00000000#32),
    StableHlo.TRef.binary (StableHlo.TRef.of main_v247 : StableHlo.TRef sig ⟨S50000x300, .f32⟩) main_call12.cst main_call12.v0 (fun x v => Host.reduceAdd x v reducesTo_S50000x300_S300_d0 h_S_),
    StableHlo.TRef.unary main_call12.v0 main_call12.v1 (broadcastInDim S1x300 ![1] bcast_S300_S1x300_1),
    StableHlo.TRef.nullary main_call12.cst_0 (constant S_ .f32 0x47435000#32),
    StableHlo.TRef.unary main_call12.cst_0 main_call12.v2 (broadcastInDim S1x300 ![] bcast_S_S1x300),
    StableHlo.TRef.binary main_call12.v1 main_call12.v2 main_call12.v3 Host.divf,
    StableHlo.TRef.unary main_call12.v3 main_call12.v4 (broadcastInDim S50000x300 ![0, 1] bcast_S1x300_S50000x300_0_1),
    StableHlo.TRef.binary (StableHlo.TRef.of main_v247 : StableHlo.TRef sig ⟨S50000x300, .f32⟩) main_call12.v4 main_call12.v5 subf,
    StableHlo.TRef.binary main_call12.v5 main_call12.v5 main_call12.v6 mulf,
    StableHlo.TRef.unary (StableHlo.TRef.of main_c_36 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x300_S300_d0 h_S_),
    StableHlo.TRef.unary main_call12.v8 main_call12.v10 (broadcastInDim S300 ![] bcast_S_S300),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S300 ![] bcast_S_S300),
    StableHlo.TRef.ternary main_call12.v12 main_call12.v11 main_call12.call0.v1 main_call12.call0.v2 (fun p a b => select (broadcastInDim S300 ![] bcast_S_S300 p) a b),
    StableHlo.unary main_v254 main_v256 (broadcastInDim S1x300 ![1] bcast_S300_S1x300_1 : (⟨S300, .f32⟩ : BufTy).Contents (Elt F) → (⟨S1x300, .f32⟩ : BufTy).Contents (Elt F)),
    StableHlo.unary main_v256 main_v257 (broadcastInDim S50000x300 ![0, 1] bcast_S1x300_S50000x300_0_1 : (⟨S1x300, .f32⟩ : BufTy).Contents (Elt F) → (⟨S50000x300, .f32⟩ : BufTy).Contents (Elt F)),
    StableHlo.binary main_v247 main_v257 main_v258 (subf : (⟨S50000x300, .f32⟩ : BufTy).Contents (Elt F) → (⟨S50000x300, .f32⟩ : BufTy).Contents (Elt F) → (⟨S50000x300, .f32⟩ : BufTy).Contents (Elt F)),
    StableHlo.nullary main_cst_37 (constant S_ .f32 0x3727C5AC#32),
    StableHlo.unary main_cst_37 main_v259 (broadcastInDim S300 ![] bcast_S_S300 : (⟨S_, .f32⟩ : BufTy).Contents (Elt F) → (⟨S300, .f32⟩ : BufTy).Contents (Elt F)) ]

set_option maxRecDepth 8192 in
set_option maxHeartbeats 4000000 in
theorem main_part4_eq (c : Dev nD) : main_part4 (F := F) c = seq partOps4 := by
  simp only [main_part4, fn_var.body, fn_where.body, fn_relu.body, seq, bind_assoc, pure_bind]
  all_goals rfl

end Cert.ReferenceIdeal.Run

end
-- ==== Proof.RefRun.Part5.lean ====
/- The printed window main_part5 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part5, calls inlined. 85 operations. -/
abbrev partOps5 : List (HloOp τ sig (Elt F)) :=
  [ StableHlo.binary main_v255 main_v259 main_v260 (addf : (⟨S300, .f32⟩ : BufTy).Contents (Elt F) → (⟨S300, .f32⟩ : BufTy).Contents (Elt F) → (⟨S300, .f32⟩ : BufTy).Contents (Elt F)),
    StableHlo.unary main_v260 main_v261 (Host.rsqrt : (⟨S300, .f32⟩ : BufTy).Contents (Elt F) → (⟨S300, .f32⟩ : BufTy).Contents (Elt F)),
    StableHlo.unary main_v261 main_v262 (broadcastInDim S1x300 ![1] bcast_S300_S1x300_1 : (⟨S300, .f32⟩ : BufTy).Contents (Elt F) → (⟨S1x300, .f32⟩ : BufTy).Contents (Elt F)),
    StableHlo.unary main_v262 main_v263 (broadcastInDim S50000x300 ![0, 1] bcast_S1x300_S50000x300_0_1 : (⟨S1x300, .f32⟩ : BufTy).Contents (Elt F) → (⟨S50000x300, .f32⟩ : BufTy).Contents (Elt F)),
    StableHlo.binary main_v258 main_v263 main_v264 (mulf : (⟨S50000x300, .f32⟩ : BufTy).Contents (Elt F) → (⟨S50000x300, .f32⟩ : BufTy).Contents (Elt F) → (⟨S50000x300, .f32⟩ : BufTy).Contents (Elt F)),
    StableHlo.unary main_v249 main_v265 (broadcastInDim S1x300 ![1] bcast_S300_S1x300_1 : (⟨S300, .f32⟩ : BufTy).Contents (Elt F) → (⟨S1x300, .f32⟩ : BufTy).Contents (Elt F)),
    StableHlo.unary main_v265 main_v266 (broadcastInDim S50000x300 ![0, 1] bcast_S1x300_S50000x300_0_1 : (⟨S1x300, .f32⟩ : BufTy).Contents (Elt F) → (⟨S50000x300, .f32⟩ : BufTy).Contents (Elt F)),
    StableHlo.binary main_v264 main_v266 main_v267 (mulf : (⟨S50000x300, .f32⟩ : BufTy).Contents (Elt F) → (⟨S50000x300, .f32⟩ : BufTy).Contents (Elt F) → (⟨S50000x300, .f32⟩ : BufTy).Contents (Elt F)),
    StableHlo.unary main_v251 main_v268 (broadcastInDim S1x300 ![1] bcast_S300_S1x300_1 : (⟨S300, .f32⟩ : BufTy).Contents (Elt F) → (⟨S1x300, .f32⟩ : BufTy).Contents (Elt F)),
    StableHlo.unary main_v268 main_v269 (broadcastInDim S50000x300 ![0, 1] bcast_S1x300_S50000x300_0_1 : (⟨S1x300, .f32⟩ : BufTy).Contents (Elt F) → (⟨S50000x300, .f32⟩ : BufTy).Contents (Elt F)),
    StableHlo.binary main_v267 main_v269 main_v270 (addf : (⟨S50000x300, .f32⟩ : BufTy).Contents (Elt F) → (⟨S50000x300, .f32⟩ : BufTy).Contents (Elt F) → (⟨S50000x300, .f32⟩ : BufTy).Contents (Elt F)),
    StableHlo.TRef.nullary main_call13.cst (constant S_ .f32 0x00000000#32),
    StableHlo.TRef.unary main_call13.cst main_call13.v0 (broadcastInDim S50000x300 ![] bcast_S_S50000x300),
    StableHlo.TRef.binary (StableHlo.TRef.of main_v270 : StableHlo.TRef sig ⟨S50000x300, .f32⟩) main_call13.v0 main_call13.v1 maximumf,
    StableHlo.unary main_arg7 main_v272 ((extractStridedSlice S1x300x300 ![3, 0, 0] · slices_S5x300x300_S1x300x300_3_0_0) : (⟨S5x300x300, .f32⟩ : BufTy).Contents (Elt F) → (⟨S1x300x300, .f32⟩ : BufTy).Contents (Elt F)),
    StableHlo.reshape main_v272 main_v273 rfl shapeCasts_S1x300x300_S300x300,
    StableHlo.binary main_v271 main_v273 main_v274 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v275 ((extractStridedSlice S1x300 ![3, 0] · slices_S5x300_S1x300_3_0) : (⟨S5x300, .f32⟩ : BufTy).Contents (Elt F) → (⟨S1x300, .f32⟩ : BufTy).Contents (Elt F)),
    StableHlo.reshape main_v275 main_v276 rfl shapeCasts_S1x300_S300,
    StableHlo.unary main_v276 main_v277 (broadcastInDim S1x300 ![1] bcast_S300_S1x300_1 : (⟨S300, .f32⟩ : BufTy).Contents (Elt F) → (⟨S1x300, .f32⟩ : BufTy).Contents (Elt F)),
    StableHlo.unary main_v277 main_v278 (broadcastInDim S50000x300 ![0, 1] bcast_S1x300_S50000x300_0_1 : (⟨S1x300, .f32⟩ : BufTy).Contents (Elt F) → (⟨S50000x300, .f32⟩ : BufTy).Contents (Elt F)),
    StableHlo.binary main_v274 main_v278 main_v279 (addf : (⟨S50000x300, .f32⟩ : BufTy).Contents (Elt F) → (⟨S50000x300, .f32⟩ : BufTy).Contents (Elt F) → (⟨S50000x300, .f32⟩ : BufTy).Contents (Elt F)),
    StableHlo.unary main_arg9 main_v280 ((extractStridedSlice S1x300 ![3, 0] · slices_S5x300_S1x300_3_0) : (⟨S5x300, .f32⟩ : BufTy).Contents (Elt F) → (⟨S1x300, .f32⟩ : BufTy).Contents (Elt F)),
    StableHlo.reshape main_v280 main_v281 rfl shapeCasts_S1x300_S300,
    StableHlo.unary main_arg10 main_v282 ((extractStridedSlice S1x300 ![3, 0] · slices_S5x300_S1x300_3_0) : (⟨S5x300, .f32⟩ : BufTy).Contents (Elt F) → (⟨S1x300, .f32⟩ : BufTy).Contents (Elt F)),
    StableHlo.reshape main_v282 main_v283 rfl shapeCasts_S1x300_S300,
    StableHlo.nullary main_cst_38 (constant S_ .f32 0x00000000#32),
    StableHlo.binary main_v279 main_cst_38 main_v284 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_39 (constant S_ .f32 0x47435000#32),
    StableHlo.unary main_cst_39 main_v285 (broadcastInDim S300 ![] bcast_S_S300 : (⟨S_, .f32⟩ : BufTy).Contents (Elt F) → (⟨S300, .f32⟩ : BufTy).Contents (Elt F)),
    StableHlo.binary main_v284 main_v285 main_v286 (Host.divf : (⟨S300, .f32⟩ : BufTy).Contents (Elt F) → (⟨S300, .f32⟩ : BufTy).Contents (Elt F) → (⟨S300, .f32⟩ : BufTy).Contents (Elt F)),
    StableHlo.nullary main_c_40 (constantI S_ 32 0#32),
    StableHlo.TRef.nullary main_call14.cst (constant S_ .f32 0x00000000#32),
    StableHlo.TRef.binary (StableHlo.TRef.of main_v279 : StableHlo.TRef sig ⟨S50000x300, .f32⟩) main_call14.cst main_call14.v0 (fun x v => Host.reduceAdd x v reducesTo_S50000x300_S300_d0 h_S_),
    StableHlo.TRef.unary main_call14.v0 main_call14.v1 (broadcastInDim S1x300 ![1] bcast_S300_S1x300_1),
    StableHlo.TRef.nullary main_call14.cst_0 (constant S_ .f32 0x47435000#32),
    StableHlo.TRef.unary main_call14.cst_0 main_call14.v2 (broadcastInDim S1x300 ![] bcast_S_S1x300),
    StableHlo.TRef.binary main_call14.v1 main_call14.v2 main_call14.v3 Host.divf,
    StableHlo.TRef.unary main_call14.v3 main_call14.v4 (broadcastInDim S50000x300 ![0, 1] bcast_S1x300_S50000x300_0_1),
    StableHlo.TRef.binary (StableHlo.TRef.of main_v279 : StableHlo.TRef sig ⟨S50000x300, .f32⟩) main_call14.v4 main_call14.v5 subf,
    StableHlo.TRef.binary main_call14.v5 main_call14.v5 main_call14.v6 mulf,
    StableHlo.TRef.unary (StableHlo.TRef.of main_c_40 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x300_S300_d0 h_S_),
    StableHlo.TRef.unary main_call14.v8 main_call14.v10 (broadcastInDim S300 ![] bcast_S_S300),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S300 ![] bcast_S_S300),
    StableHlo.TRef.ternary main_call14.v12 main_call14.v11 main_call14.call0.v1 main_call14.call0.v2 (fun p a b => select (broadcastInDim S300 ![] bcast_S_S300 p) a b),
    StableHlo.unary main_v286 main_v288 (broadcastInDim S1x300 ![1] bcast_S300_S1x300_1 : (⟨S300, .f32⟩ : BufTy).Contents (Elt F) → (⟨S1x300, .f32⟩ : BufTy).Contents (Elt F)),
    StableHlo.unary main_v288 main_v289 (broadcastInDim S50000x300 ![0, 1] bcast_S1x300_S50000x300_0_1 : (⟨S1x300, .f32⟩ : BufTy).Contents (Elt F) → (⟨S50000x300, .f32⟩ : BufTy).Contents (Elt F)),
    StableHlo.binary main_v279 main_v289 main_v290 (subf : (⟨S50000x300, .f32⟩ : BufTy).Contents (Elt F) → (⟨S50000x300, .f32⟩ : BufTy).Contents (Elt F) → (⟨S50000x300, .f32⟩ : BufTy).Contents (Elt F)),
    StableHlo.nullary main_cst_41 (constant S_ .f32 0x3727C5AC#32),
    StableHlo.unary main_cst_41 main_v291 (broadcastInDim S300 ![] bcast_S_S300 : (⟨S_, .f32⟩ : BufTy).Contents (Elt F) → (⟨S300, .f32⟩ : BufTy).Contents (Elt F)),
    StableHlo.binary main_v287 main_v291 main_v292 (addf : (⟨S300, .f32⟩ : BufTy).Contents (Elt F) → (⟨S300, .f32⟩ : BufTy).Contents (Elt F) → (⟨S300, .f32⟩ : BufTy).Contents (Elt F)),
    StableHlo.unary main_v292 main_v293 (Host.rsqrt : (⟨S300, .f32⟩ : BufTy).Contents (Elt F) → (⟨S300, .f32⟩ : BufTy).Contents (Elt F)),
    StableHlo.unary main_v293 main_v294 (broadcastInDim S1x300 ![1] bcast_S300_S1x300_1 : (⟨S300, .f32⟩ : BufTy).Contents (Elt F) → (⟨S1x300, .f32⟩ : BufTy).Contents (Elt F)),
    StableHlo.unary main_v294 main_v295 (broadcastInDim S50000x300 ![0, 1] bcast_S1x300_S50000x300_0_1 : (⟨S1x300, .f32⟩ : BufTy).Contents (Elt F) → (⟨S50000x300, .f32⟩ : BufTy).Contents (Elt F)),
    StableHlo.binary main_v290 main_v295 main_v296 (mulf : (⟨S50000x300, .f32⟩ : BufTy).Contents (Elt F) → (⟨S50000x300, .f32⟩ : BufTy).Contents (Elt F) → (⟨S50000x300, .f32⟩ : BufTy).Contents (Elt F)),
    StableHlo.unary main_v281 main_v297 (broadcastInDim S1x300 ![1] bcast_S300_S1x300_1 : (⟨S300, .f32⟩ : BufTy).Contents (Elt F) → (⟨S1x300, .f32⟩ : BufTy).Contents (Elt F)),
    StableHlo.unary main_v297 main_v298 (broadcastInDim S50000x300 ![0, 1] bcast_S1x300_S50000x300_0_1 : (⟨S1x300, .f32⟩ : BufTy).Contents (Elt F) → (⟨S50000x300, .f32⟩ : BufTy).Contents (Elt F)),
    StableHlo.binary main_v296 main_v298 main_v299 (mulf : (⟨S50000x300, .f32⟩ : BufTy).Contents (Elt F) → (⟨S50000x300, .f32⟩ : BufTy).Contents (Elt F) → (⟨S50000x300, .f32⟩ : BufTy).Contents (Elt F)),
    StableHlo.unary main_v283 main_v300 (broadcastInDim S1x300 ![1] bcast_S300_S1x300_1 : (⟨S300, .f32⟩ : BufTy).Contents (Elt F) → (⟨S1x300, .f32⟩ : BufTy).Contents (Elt F)),
    StableHlo.unary main_v300 main_v301 (broadcastInDim S50000x300 ![0, 1] bcast_S1x300_S50000x300_0_1 : (⟨S1x300, .f32⟩ : BufTy).Contents (Elt F) → (⟨S50000x300, .f32⟩ : BufTy).Contents (Elt F)),
    StableHlo.binary main_v299 main_v301 main_v302 (addf : (⟨S50000x300, .f32⟩ : BufTy).Contents (Elt F) → (⟨S50000x300, .f32⟩ : BufTy).Contents (Elt F) → (⟨S50000x300, .f32⟩ : BufTy).Contents (Elt F)),
    StableHlo.TRef.nullary main_call15.cst (constant S_ .f32 0x00000000#32),
    StableHlo.TRef.unary main_call15.cst main_call15.v0 (broadcastInDim S50000x300 ![] bcast_S_S50000x300),
    StableHlo.TRef.binary (StableHlo.TRef.of main_v302 : StableHlo.TRef sig ⟨S50000x300, .f32⟩) main_call15.v0 main_call15.v1 maximumf,
    StableHlo.nullary main_c_42 (constantI S_ 32 0#32),
    StableHlo.unary main_c_42 main_v304 (broadcastInDim S400000 ![] bcast_S_S400000 : (⟨S_, .i32⟩ : BufTy).Contents (Elt F) → (⟨S400000, .i32⟩ : BufTy).Contents (Elt F)),
    StableHlo.binary main_v1 main_v304 main_v305 (cmpi .slt : (⟨S400000, .i32⟩ : BufTy).Contents (Elt F) → (⟨S400000, .i32⟩ : BufTy).Contents (Elt F) → (⟨S400000, .i1⟩ : BufTy).Contents (Elt F)),
    StableHlo.nullary main_c_43 (constantI S_ 32 50000#32),
    StableHlo.unary main_c_43 main_v306 (broadcastInDim S400000 ![] bcast_S_S400000 : (⟨S_, .i32⟩ : BufTy).Contents (Elt F) → (⟨S400000, .i32⟩ : BufTy).Contents (Elt F)),
    StableHlo.binary main_v1 main_v306 main_v307 (addi : (⟨S400000, .i32⟩ : BufTy).Contents (Elt F) → (⟨S400000, .i32⟩ : BufTy).Contents (Elt F) → (⟨S400000, .i32⟩ : BufTy).Contents (Elt F)),
    StableHlo.ternary main_v305 main_v307 main_v1 main_v308 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v308 main_v309 (broadcastInDim S400000x1 ![0] bcast_S400000_S400000x1_0 : (⟨S400000, .i32⟩ : BufTy).Contents (Elt F) → (⟨S400000x1, .i32⟩ : BufTy).Contents (Elt F)),
    StableHlo.binary main_v303 main_v309 main_v310 ((fun x i => Host.gather gather_S50000x300_S400000x1_S400000x300_1_0_n_n_0_1_1300 x i) : (⟨S50000x300, .f32⟩ : BufTy).Contents (Elt F) → (⟨S400000x1, .i32⟩ : BufTy).Contents (Elt F) → (⟨S400000x300, .f32⟩ : BufTy).Contents (Elt F)),
    StableHlo.nullary main_cst_44 (constant S_ .f32 0x00000000#32),
    StableHlo.unary main_cst_44 main_v311 (broadcastInDim S50000x300 ![] bcast_S_S50000x300 : (⟨S_, .f32⟩ : BufTy).Contents (Elt F) → (⟨S50000x300, .f32⟩ : BufTy).Contents (Elt F)),
    StableHlo.unary main_v3 main_v312 (broadcastInDim S400000x1 ![0] bcast_S400000_S400000x1_0 : (⟨S400000, .i32⟩ : BufTy).Contents (Elt F) → (⟨S400000x1, .i32⟩ : BufTy).Contents (Elt F)) ]

set_option maxRecDepth 8192 in
set_option maxHeartbeats 4000000 in
theorem main_part5_eq (c : Dev nD) : main_part5 (F := F) c = seq partOps5 := by
  simp only [main_part5, fn_var.body, fn_where.body, fn_relu.body, seq, bind_assoc, pure_bind]
  all_goals rfl

end Cert.ReferenceIdeal.Run

end
-- ==== Proof.RefRun.Part6.lean ====
/- The printed window main_part6 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part6, calls inlined. 104 operations. -/
abbrev partOps6 : List (HloOp τ sig (Elt F)) :=
  [ StableHlo.ternary main_v311 main_v312 main_v310 main_v313 ((fun x i u => Host.scatterAdd scatter_S50000x300_S400000x1_S400000x300_1_0_0_1 x i u) : (⟨S50000x300, .f32⟩ : BufTy).Contents (Elt F) → (⟨S400000x1, .i32⟩ : BufTy).Contents (Elt F) → (⟨S400000x300, .f32⟩ : BufTy).Contents (Elt F) → (⟨S50000x300, .f32⟩ : BufTy).Contents (Elt F)),
    StableHlo.binary main_v303 main_v313 main_v314 (addf : (⟨S50000x300, .f32⟩ : BufTy).Contents (Elt F) → (⟨S50000x300, .f32⟩ : BufTy).Contents (Elt F) → (⟨S50000x300, .f32⟩ : BufTy).Contents (Elt F)),
    StableHlo.unary main_arg3 main_v315 ((extractStridedSlice S1x300x300 ![4, 0, 0] · slices_S5x300x300_S1x300x300_4_0_0) : (⟨S5x300x300, .f32⟩ : BufTy).Contents (Elt F) → (⟨S1x300x300, .f32⟩ : BufTy).Contents (Elt F)),
    StableHlo.reshape main_v315 main_v316 rfl shapeCasts_S1x300x300_S300x300,
    StableHlo.binary main_v314 main_v316 main_v317 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg4 main_v318 ((extractStridedSlice S1x300 ![4, 0] · slices_S5x300_S1x300_4_0) : (⟨S5x300, .f32⟩ : BufTy).Contents (Elt F) → (⟨S1x300, .f32⟩ : BufTy).Contents (Elt F)),
    StableHlo.reshape main_v318 main_v319 rfl shapeCasts_S1x300_S300,
    StableHlo.unary main_v319 main_v320 (broadcastInDim S1x300 ![1] bcast_S300_S1x300_1 : (⟨S300, .f32⟩ : BufTy).Contents (Elt F) → (⟨S1x300, .f32⟩ : BufTy).Contents (Elt F)),
    StableHlo.unary main_v320 main_v321 (broadcastInDim S50000x300 ![0, 1] bcast_S1x300_S50000x300_0_1 : (⟨S1x300, .f32⟩ : BufTy).Contents (Elt F) → (⟨S50000x300, .f32⟩ : BufTy).Contents (Elt F)),
    StableHlo.binary main_v317 main_v321 main_v322 (addf : (⟨S50000x300, .f32⟩ : BufTy).Contents (Elt F) → (⟨S50000x300, .f32⟩ : BufTy).Contents (Elt F) → (⟨S50000x300, .f32⟩ : BufTy).Contents (Elt F)),
    StableHlo.unary main_arg5 main_v323 ((extractStridedSlice S1x300 ![4, 0] · slices_S5x300_S1x300_4_0) : (⟨S5x300, .f32⟩ : BufTy).Contents (Elt F) → (⟨S1x300, .f32⟩ : BufTy).Contents (Elt F)),
    StableHlo.reshape main_v323 main_v324 rfl shapeCasts_S1x300_S300,
    StableHlo.unary main_arg6 main_v325 ((extractStridedSlice S1x300 ![4, 0] · slices_S5x300_S1x300_4_0) : (⟨S5x300, .f32⟩ : BufTy).Contents (Elt F) → (⟨S1x300, .f32⟩ : BufTy).Contents (Elt F)),
    StableHlo.reshape main_v325 main_v326 rfl shapeCasts_S1x300_S300,
    StableHlo.nullary main_cst_45 (constant S_ .f32 0x00000000#32),
    StableHlo.binary main_v322 main_cst_45 main_v327 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_46 (constant S_ .f32 0x47435000#32),
    StableHlo.unary main_cst_46 main_v328 (broadcastInDim S300 ![] bcast_S_S300 : (⟨S_, .f32⟩ : BufTy).Contents (Elt F) → (⟨S300, .f32⟩ : BufTy).Contents (Elt F)),
    StableHlo.binary main_v327 main_v328 main_v329 (Host.divf : (⟨S300, .f32⟩ : BufTy).Contents (Elt F) → (⟨S300, .f32⟩ : BufTy).Contents (Elt F) → (⟨S300, .f32⟩ : BufTy).Contents (Elt F)),
    StableHlo.nullary main_c_47 (constantI S_ 32 0#32),
    StableHlo.TRef.nullary main_call16.cst (constant S_ .f32 0x00000000#32),
    StableHlo.TRef.binary (StableHlo.TRef.of main_v322 : StableHlo.TRef sig ⟨S50000x300, .f32⟩) main_call16.cst main_call16.v0 (fun x v => Host.reduceAdd x v reducesTo_S50000x300_S300_d0 h_S_),
    StableHlo.TRef.unary main_call16.v0 main_call16.v1 (broadcastInDim S1x300 ![1] bcast_S300_S1x300_1),
    StableHlo.TRef.nullary main_call16.cst_0 (constant S_ .f32 0x47435000#32),
    StableHlo.TRef.unary main_call16.cst_0 main_call16.v2 (broadcastInDim S1x300 ![] bcast_S_S1x300),
    StableHlo.TRef.binary main_call16.v1 main_call16.v2 main_call16.v3 Host.divf,
    StableHlo.TRef.unary main_call16.v3 main_call16.v4 (broadcastInDim S50000x300 ![0, 1] bcast_S1x300_S50000x300_0_1),
    StableHlo.TRef.binary (StableHlo.TRef.of main_v322 : StableHlo.TRef sig ⟨S50000x300, .f32⟩) main_call16.v4 main_call16.v5 subf,
    StableHlo.TRef.binary main_call16.v5 main_call16.v5 main_call16.v6 mulf,
    StableHlo.TRef.unary (StableHlo.TRef.of main_c_47 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x300_S300_d0 h_S_),
    StableHlo.TRef.unary main_call16.v8 main_call16.v10 (broadcastInDim S300 ![] bcast_S_S300),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S300 ![] bcast_S_S300),
    StableHlo.TRef.ternary main_call16.v12 main_call16.v11 main_call16.call0.v1 main_call16.call0.v2 (fun p a b => select (broadcastInDim S300 ![] bcast_S_S300 p) a b),
    StableHlo.unary main_v329 main_v331 (broadcastInDim S1x300 ![1] bcast_S300_S1x300_1 : (⟨S300, .f32⟩ : BufTy).Contents (Elt F) → (⟨S1x300, .f32⟩ : BufTy).Contents (Elt F)),
    StableHlo.unary main_v331 main_v332 (broadcastInDim S50000x300 ![0, 1] bcast_S1x300_S50000x300_0_1 : (⟨S1x300, .f32⟩ : BufTy).Contents (Elt F) → (⟨S50000x300, .f32⟩ : BufTy).Contents (Elt F)),
    StableHlo.binary main_v322 main_v332 main_v333 (subf : (⟨S50000x300, .f32⟩ : BufTy).Contents (Elt F) → (⟨S50000x300, .f32⟩ : BufTy).Contents (Elt F) → (⟨S50000x300, .f32⟩ : BufTy).Contents (Elt F)),
    StableHlo.nullary main_cst_48 (constant S_ .f32 0x3727C5AC#32),
    StableHlo.unary main_cst_48 main_v334 (broadcastInDim S300 ![] bcast_S_S300 : (⟨S_, .f32⟩ : BufTy).Contents (Elt F) → (⟨S300, .f32⟩ : BufTy).Contents (Elt F)),
    StableHlo.binary main_v330 main_v334 main_v335 (addf : (⟨S300, .f32⟩ : BufTy).Contents (Elt F) → (⟨S300, .f32⟩ : BufTy).Contents (Elt F) → (⟨S300, .f32⟩ : BufTy).Contents (Elt F)),
    StableHlo.unary main_v335 main_v336 (Host.rsqrt : (⟨S300, .f32⟩ : BufTy).Contents (Elt F) → (⟨S300, .f32⟩ : BufTy).Contents (Elt F)),
    StableHlo.unary main_v336 main_v337 (broadcastInDim S1x300 ![1] bcast_S300_S1x300_1 : (⟨S300, .f32⟩ : BufTy).Contents (Elt F) → (⟨S1x300, .f32⟩ : BufTy).Contents (Elt F)),
    StableHlo.unary main_v337 main_v338 (broadcastInDim S50000x300 ![0, 1] bcast_S1x300_S50000x300_0_1 : (⟨S1x300, .f32⟩ : BufTy).Contents (Elt F) → (⟨S50000x300, .f32⟩ : BufTy).Contents (Elt F)),
    StableHlo.binary main_v333 main_v338 main_v339 (mulf : (⟨S50000x300, .f32⟩ : BufTy).Contents (Elt F) → (⟨S50000x300, .f32⟩ : BufTy).Contents (Elt F) → (⟨S50000x300, .f32⟩ : BufTy).Contents (Elt F)),
    StableHlo.unary main_v324 main_v340 (broadcastInDim S1x300 ![1] bcast_S300_S1x300_1 : (⟨S300, .f32⟩ : BufTy).Contents (Elt F) → (⟨S1x300, .f32⟩ : BufTy).Contents (Elt F)),
    StableHlo.unary main_v340 main_v341 (broadcastInDim S50000x300 ![0, 1] bcast_S1x300_S50000x300_0_1 : (⟨S1x300, .f32⟩ : BufTy).Contents (Elt F) → (⟨S50000x300, .f32⟩ : BufTy).Contents (Elt F)),
    StableHlo.binary main_v339 main_v341 main_v342 (mulf : (⟨S50000x300, .f32⟩ : BufTy).Contents (Elt F) → (⟨S50000x300, .f32⟩ : BufTy).Contents (Elt F) → (⟨S50000x300, .f32⟩ : BufTy).Contents (Elt F)),
    StableHlo.unary main_v326 main_v343 (broadcastInDim S1x300 ![1] bcast_S300_S1x300_1 : (⟨S300, .f32⟩ : BufTy).Contents (Elt F) → (⟨S1x300, .f32⟩ : BufTy).Contents (Elt F)),
    StableHlo.unary main_v343 main_v344 (broadcastInDim S50000x300 ![0, 1] bcast_S1x300_S50000x300_0_1 : (⟨S1x300, .f32⟩ : BufTy).Contents (Elt F) → (⟨S50000x300, .f32⟩ : BufTy).Contents (Elt F)),
    StableHlo.binary main_v342 main_v344 main_v345 (addf : (⟨S50000x300, .f32⟩ : BufTy).Contents (Elt F) → (⟨S50000x300, .f32⟩ : BufTy).Contents (Elt F) → (⟨S50000x300, .f32⟩ : BufTy).Contents (Elt F)),
    StableHlo.TRef.nullary main_call17.cst (constant S_ .f32 0x00000000#32),
    StableHlo.TRef.unary main_call17.cst main_call17.v0 (broadcastInDim S50000x300 ![] bcast_S_S50000x300),
    StableHlo.TRef.binary (StableHlo.TRef.of main_v345 : StableHlo.TRef sig ⟨S50000x300, .f32⟩) main_call17.v0 main_call17.v1 maximumf,
    StableHlo.unary main_arg7 main_v347 ((extractStridedSlice S1x300x300 ![4, 0, 0] · slices_S5x300x300_S1x300x300_4_0_0) : (⟨S5x300x300, .f32⟩ : BufTy).Contents (Elt F) → (⟨S1x300x300, .f32⟩ : BufTy).Contents (Elt F)),
    StableHlo.reshape main_v347 main_v348 rfl shapeCasts_S1x300x300_S300x300,
    StableHlo.binary main_v346 main_v348 main_v349 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v350 ((extractStridedSlice S1x300 ![4, 0] · slices_S5x300_S1x300_4_0) : (⟨S5x300, .f32⟩ : BufTy).Contents (Elt F) → (⟨S1x300, .f32⟩ : BufTy).Contents (Elt F)),
    StableHlo.reshape main_v350 main_v351 rfl shapeCasts_S1x300_S300,
    StableHlo.unary main_v351 main_v352 (broadcastInDim S1x300 ![1] bcast_S300_S1x300_1 : (⟨S300, .f32⟩ : BufTy).Contents (Elt F) → (⟨S1x300, .f32⟩ : BufTy).Contents (Elt F)),
    StableHlo.unary main_v352 main_v353 (broadcastInDim S50000x300 ![0, 1] bcast_S1x300_S50000x300_0_1 : (⟨S1x300, .f32⟩ : BufTy).Contents (Elt F) → (⟨S50000x300, .f32⟩ : BufTy).Contents (Elt F)),
    StableHlo.binary main_v349 main_v353 main_v354 (addf : (⟨S50000x300, .f32⟩ : BufTy).Contents (Elt F) → (⟨S50000x300, .f32⟩ : BufTy).Contents (Elt F) → (⟨S50000x300, .f32⟩ : BufTy).Contents (Elt F)),
    StableHlo.unary main_arg9 main_v355 ((extractStridedSlice S1x300 ![4, 0] · slices_S5x300_S1x300_4_0) : (⟨S5x300, .f32⟩ : BufTy).Contents (Elt F) → (⟨S1x300, .f32⟩ : BufTy).Contents (Elt F)),
    StableHlo.reshape main_v355 main_v356 rfl shapeCasts_S1x300_S300,
    StableHlo.unary main_arg10 main_v357 ((extractStridedSlice S1x300 ![4, 0] · slices_S5x300_S1x300_4_0) : (⟨S5x300, .f32⟩ : BufTy).Contents (Elt F) → (⟨S1x300, .f32⟩ : BufTy).Contents (Elt F)),
    StableHlo.reshape main_v357 main_v358 rfl shapeCasts_S1x300_S300,
    StableHlo.nullary main_cst_49 (constant S_ .f32 0x00000000#32),
    StableHlo.binary main_v354 main_cst_49 main_v359 ((fun x v => Host.reduceAdd x v reducesTo_S50000x300_S300_d0 h_S_) : (⟨S50000x300, .f32⟩ : BufTy).Contents (Elt F) → (⟨S_, .f32⟩ : BufTy).Contents (Elt F) → (⟨S300, .f32⟩ : BufTy).Contents (Elt F)),
    StableHlo.nullary main_cst_50 (constant S_ .f32 0x47435000#32),
    StableHlo.unary main_cst_50 main_v360 (broadcastInDim S300 ![] bcast_S_S300 : (⟨S_, .f32⟩ : BufTy).Contents (Elt F) → (⟨S300, .f32⟩ : BufTy).Contents (Elt F)),
    StableHlo.binary main_v359 main_v360 main_v361 (Host.divf : (⟨S300, .f32⟩ : BufTy).Contents (Elt F) → (⟨S300, .f32⟩ : BufTy).Contents (Elt F) → (⟨S300, .f32⟩ : BufTy).Contents (Elt F)),
    StableHlo.nullary main_c_51 (constantI S_ 32 0#32),
    StableHlo.TRef.nullary main_call18.cst (constant S_ .f32 0x00000000#32),
    StableHlo.TRef.binary (StableHlo.TRef.of main_v354 : StableHlo.TRef sig ⟨S50000x300, .f32⟩) main_call18.cst main_call18.v0 (fun x v => Host.reduceAdd x v reducesTo_S50000x300_S300_d0 h_S_),
    StableHlo.TRef.unary main_call18.v0 main_call18.v1 (broadcastInDim S1x300 ![1] bcast_S300_S1x300_1),
    StableHlo.TRef.nullary main_call18.cst_0 (constant S_ .f32 0x47435000#32),
    StableHlo.TRef.unary main_call18.cst_0 main_call18.v2 (broadcastInDim S1x300 ![] bcast_S_S1x300),
    StableHlo.TRef.binary main_call18.v1 main_call18.v2 main_call18.v3 Host.divf,
    StableHlo.TRef.unary main_call18.v3 main_call18.v4 (broadcastInDim S50000x300 ![0, 1] bcast_S1x300_S50000x300_0_1),
    StableHlo.TRef.binary (StableHlo.TRef.of main_v354 : StableHlo.TRef sig ⟨S50000x300, .f32⟩) main_call18.v4 main_call18.v5 subf,
    StableHlo.TRef.binary main_call18.v5 main_call18.v5 main_call18.v6 mulf,
    StableHlo.TRef.unary (StableHlo.TRef.of main_c_51 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x300_S300_d0 h_S_),
    StableHlo.TRef.unary main_call18.v8 main_call18.v10 (broadcastInDim S300 ![] bcast_S_S300),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S300 ![] bcast_S_S300),
    StableHlo.TRef.ternary main_call18.v12 main_call18.v11 main_call18.call0.v1 main_call18.call0.v2 (fun p a b => select (broadcastInDim S300 ![] bcast_S_S300 p) a b),
    StableHlo.unary main_v361 main_v363 (broadcastInDim S1x300 ![1] bcast_S300_S1x300_1 : (⟨S300, .f32⟩ : BufTy).Contents (Elt F) → (⟨S1x300, .f32⟩ : BufTy).Contents (Elt F)),
    StableHlo.unary main_v363 main_v364 (broadcastInDim S50000x300 ![0, 1] bcast_S1x300_S50000x300_0_1 : (⟨S1x300, .f32⟩ : BufTy).Contents (Elt F) → (⟨S50000x300, .f32⟩ : BufTy).Contents (Elt F)),
    StableHlo.binary main_v354 main_v364 main_v365 (subf : (⟨S50000x300, .f32⟩ : BufTy).Contents (Elt F) → (⟨S50000x300, .f32⟩ : BufTy).Contents (Elt F) → (⟨S50000x300, .f32⟩ : BufTy).Contents (Elt F)) ]

set_option maxRecDepth 8192 in
set_option maxHeartbeats 4000000 in
theorem main_part6_eq (c : Dev nD) : main_part6 (F := F) c = seq partOps6 := by
  simp only [main_part6, fn_var.body, fn_where.body, fn_relu.body, seq, bind_assoc, pure_bind]
  all_goals rfl

end Cert.ReferenceIdeal.Run

end
-- ==== Proof.RefRun.Part7.lean ====
/- The printed window main_part7 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part7, calls inlined. 62 operations. -/
abbrev partOps7 : List (HloOp τ sig (Elt F)) :=
  [ StableHlo.nullary main_cst_52 (constant S_ .f32 0x3727C5AC#32),
    StableHlo.unary main_cst_52 main_v366 (broadcastInDim S300 ![] bcast_S_S300 : (⟨S_, .f32⟩ : BufTy).Contents (Elt F) → (⟨S300, .f32⟩ : BufTy).Contents (Elt F)),
    StableHlo.binary main_v362 main_v366 main_v367 (addf : (⟨S300, .f32⟩ : BufTy).Contents (Elt F) → (⟨S300, .f32⟩ : BufTy).Contents (Elt F) → (⟨S300, .f32⟩ : BufTy).Contents (Elt F)),
    StableHlo.unary main_v367 main_v368 (Host.rsqrt : (⟨S300, .f32⟩ : BufTy).Contents (Elt F) → (⟨S300, .f32⟩ : BufTy).Contents (Elt F)),
    StableHlo.unary main_v368 main_v369 (broadcastInDim S1x300 ![1] bcast_S300_S1x300_1 : (⟨S300, .f32⟩ : BufTy).Contents (Elt F) → (⟨S1x300, .f32⟩ : BufTy).Contents (Elt F)),
    StableHlo.unary main_v369 main_v370 (broadcastInDim S50000x300 ![0, 1] bcast_S1x300_S50000x300_0_1 : (⟨S1x300, .f32⟩ : BufTy).Contents (Elt F) → (⟨S50000x300, .f32⟩ : BufTy).Contents (Elt F)),
    StableHlo.binary main_v365 main_v370 main_v371 (mulf : (⟨S50000x300, .f32⟩ : BufTy).Contents (Elt F) → (⟨S50000x300, .f32⟩ : BufTy).Contents (Elt F) → (⟨S50000x300, .f32⟩ : BufTy).Contents (Elt F)),
    StableHlo.unary main_v356 main_v372 (broadcastInDim S1x300 ![1] bcast_S300_S1x300_1 : (⟨S300, .f32⟩ : BufTy).Contents (Elt F) → (⟨S1x300, .f32⟩ : BufTy).Contents (Elt F)),
    StableHlo.unary main_v372 main_v373 (broadcastInDim S50000x300 ![0, 1] bcast_S1x300_S50000x300_0_1 : (⟨S1x300, .f32⟩ : BufTy).Contents (Elt F) → (⟨S50000x300, .f32⟩ : BufTy).Contents (Elt F)),
    StableHlo.binary main_v371 main_v373 main_v374 (mulf : (⟨S50000x300, .f32⟩ : BufTy).Contents (Elt F) → (⟨S50000x300, .f32⟩ : BufTy).Contents (Elt F) → (⟨S50000x300, .f32⟩ : BufTy).Contents (Elt F)),
    StableHlo.unary main_v358 main_v375 (broadcastInDim S1x300 ![1] bcast_S300_S1x300_1 : (⟨S300, .f32⟩ : BufTy).Contents (Elt F) → (⟨S1x300, .f32⟩ : BufTy).Contents (Elt F)),
    StableHlo.unary main_v375 main_v376 (broadcastInDim S50000x300 ![0, 1] bcast_S1x300_S50000x300_0_1 : (⟨S1x300, .f32⟩ : BufTy).Contents (Elt F) → (⟨S50000x300, .f32⟩ : BufTy).Contents (Elt F)),
    StableHlo.binary main_v374 main_v376 main_v377 (addf : (⟨S50000x300, .f32⟩ : BufTy).Contents (Elt F) → (⟨S50000x300, .f32⟩ : BufTy).Contents (Elt F) → (⟨S50000x300, .f32⟩ : BufTy).Contents (Elt F)),
    StableHlo.TRef.nullary main_call19.cst (constant S_ .f32 0x00000000#32),
    StableHlo.TRef.unary main_call19.cst main_call19.v0 (broadcastInDim S50000x300 ![] bcast_S_S50000x300),
    StableHlo.TRef.binary (StableHlo.TRef.of main_v377 : StableHlo.TRef sig ⟨S50000x300, .f32⟩) main_call19.v0 main_call19.v1 maximumf,
    StableHlo.nullary main_cst_53 (constant S_ .f32 0x3F800000#32),
    StableHlo.unary main_cst_53 main_v379 (broadcastInDim S50000 ![] bcast_S_S50000 : (⟨S_, .f32⟩ : BufTy).Contents (Elt F) → (⟨S50000, .f32⟩ : BufTy).Contents (Elt F)),
    StableHlo.nullary main_cst_54 (constant S_ .f32 0x00000000#32),
    StableHlo.unary main_cst_54 main_v380 (broadcastInDim S256 ![] bcast_S_S256 : (⟨S_, .f32⟩ : BufTy).Contents (Elt F) → (⟨S256, .f32⟩ : BufTy).Contents (Elt F)),
    StableHlo.unary main_arg2 main_v381 (broadcastInDim S50000x1 ![0] bcast_S50000_S50000x1_0 : (⟨S50000, .i32⟩ : BufTy).Contents (Elt F) → (⟨S50000x1, .i32⟩ : BufTy).Contents (Elt F)),
    StableHlo.ternary main_v380 main_v381 main_v379 main_v382 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_55 (constant S_ .f32 0x3F800000#32),
    StableHlo.unary main_cst_55 main_v383 (broadcastInDim S256 ![] bcast_S_S256 : (⟨S_, .f32⟩ : BufTy).Contents (Elt F) → (⟨S256, .f32⟩ : BufTy).Contents (Elt F)),
    StableHlo.binary main_v382 main_v383 main_v384 (maximumf : (⟨S256, .f32⟩ : BufTy).Contents (Elt F) → (⟨S256, .f32⟩ : BufTy).Contents (Elt F) → (⟨S256, .f32⟩ : BufTy).Contents (Elt F)),
    StableHlo.nullary main_cst_56 (constant S_ .f32 0x3F800000#32),
    StableHlo.unary main_cst_56 main_v385 (broadcastInDim S256 ![] bcast_S_S256 : (⟨S_, .f32⟩ : BufTy).Contents (Elt F) → (⟨S256, .f32⟩ : BufTy).Contents (Elt F)),
    StableHlo.binary main_v385 main_v384 main_v386 (Host.divf : (⟨S256, .f32⟩ : BufTy).Contents (Elt F) → (⟨S256, .f32⟩ : BufTy).Contents (Elt F) → (⟨S256, .f32⟩ : BufTy).Contents (Elt F)),
    StableHlo.nullary main_cst_57 (constant S_ .f32 0x00000000#32),
    StableHlo.unary main_cst_57 main_v387 (broadcastInDim S256x128 ![] bcast_S_S256x128 : (⟨S_, .f32⟩ : BufTy).Contents (Elt F) → (⟨S256x128, .f32⟩ : BufTy).Contents (Elt F)),
    StableHlo.nullary main_cst_58 (constant S_ .f32 0x00000000#32),
    StableHlo.unary main_cst_58 main_v388 (broadcastInDim S256x300 ![] bcast_S_S256x300 : (⟨S_, .f32⟩ : BufTy).Contents (Elt F) → (⟨S256x300, .f32⟩ : BufTy).Contents (Elt F)),
    StableHlo.unary main_arg2 main_v389 (broadcastInDim S50000x1 ![0] bcast_S50000_S50000x1_0 : (⟨S50000, .i32⟩ : BufTy).Contents (Elt F) → (⟨S50000x1, .i32⟩ : BufTy).Contents (Elt F)),
    StableHlo.ternary main_v388 main_v389 main_arg0 main_v390 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v391 (broadcastInDim S256x1 ![0] bcast_S256_S256x1_0 : (⟨S256, .f32⟩ : BufTy).Contents (Elt F) → (⟨S256x1, .f32⟩ : BufTy).Contents (Elt F)),
    StableHlo.unary main_v391 main_v392 (broadcastInDim S256x300 ![0, 1] bcast_S256x1_S256x300_0_1 : (⟨S256x1, .f32⟩ : BufTy).Contents (Elt F) → (⟨S256x300, .f32⟩ : BufTy).Contents (Elt F)),
    StableHlo.binary main_v390 main_v392 main_v393 (mulf : (⟨S256x300, .f32⟩ : BufTy).Contents (Elt F) → (⟨S256x300, .f32⟩ : BufTy).Contents (Elt F) → (⟨S256x300, .f32⟩ : BufTy).Contents (Elt F)),
    StableHlo.unary main_arg11 main_v394 ((extractStridedSlice S1x300x128 ![0, 0, 0] · slices_S6x300x128_S1x300x128_0_0_0) : (⟨S6x300x128, .f32⟩ : BufTy).Contents (Elt F) → (⟨S1x300x128, .f32⟩ : BufTy).Contents (Elt F)),
    StableHlo.reshape main_v394 main_v395 rfl shapeCasts_S1x300x128_S300x128,
    StableHlo.binary main_v393 main_v395 main_v396 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v397 ((extractStridedSlice S1x128 ![0, 0] · slices_S6x128_S1x128_0_0) : (⟨S6x128, .f32⟩ : BufTy).Contents (Elt F) → (⟨S1x128, .f32⟩ : BufTy).Contents (Elt F)),
    StableHlo.reshape main_v397 main_v398 rfl shapeCasts_S1x128_S128,
    StableHlo.unary main_v398 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S256x128 ![0, 1] bcast_S1x128_S256x128_0_1 : (⟨S1x128, .f32⟩ : BufTy).Contents (Elt F) → (⟨S256x128, .f32⟩ : BufTy).Contents (Elt F)),
    StableHlo.binary main_v396 main_v400 main_v401 (addf : (⟨S256x128, .f32⟩ : BufTy).Contents (Elt F) → (⟨S256x128, .f32⟩ : BufTy).Contents (Elt F) → (⟨S256x128, .f32⟩ : BufTy).Contents (Elt F)),
    StableHlo.binary main_v387 main_v401 main_v402 (addf : (⟨S256x128, .f32⟩ : BufTy).Contents (Elt F) → (⟨S256x128, .f32⟩ : BufTy).Contents (Elt F) → (⟨S256x128, .f32⟩ : BufTy).Contents (Elt F)),
    StableHlo.nullary main_cst_59 (constant S_ .f32 0x00000000#32),
    StableHlo.unary main_cst_59 main_v403 (broadcastInDim S256x300 ![] bcast_S_S256x300 : (⟨S_, .f32⟩ : BufTy).Contents (Elt F) → (⟨S256x300, .f32⟩ : BufTy).Contents (Elt F)),
    StableHlo.unary main_arg2 main_v404 (broadcastInDim S50000x1 ![0] bcast_S50000_S50000x1_0 : (⟨S50000, .i32⟩ : BufTy).Contents (Elt F) → (⟨S50000x1, .i32⟩ : BufTy).Contents (Elt F)),
    StableHlo.ternary main_v403 main_v404 main_v78 main_v405 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v406 (broadcastInDim S256x1 ![0] bcast_S256_S256x1_0 : (⟨S256, .f32⟩ : BufTy).Contents (Elt F) → (⟨S256x1, .f32⟩ : BufTy).Contents (Elt F)),
    StableHlo.unary main_v406 main_v407 (broadcastInDim S256x300 ![0, 1] bcast_S256x1_S256x300_0_1 : (⟨S256x1, .f32⟩ : BufTy).Contents (Elt F) → (⟨S256x300, .f32⟩ : BufTy).Contents (Elt F)),
    StableHlo.binary main_v405 main_v407 main_v408 (mulf : (⟨S256x300, .f32⟩ : BufTy).Contents (Elt F) → (⟨S256x300, .f32⟩ : BufTy).Contents (Elt F) → (⟨S256x300, .f32⟩ : BufTy).Contents (Elt F)),
    StableHlo.unary main_arg11 main_v409 ((extractStridedSlice S1x300x128 ![1, 0, 0] · slices_S6x300x128_S1x300x128_1_0_0) : (⟨S6x300x128, .f32⟩ : BufTy).Contents (Elt F) → (⟨S1x300x128, .f32⟩ : BufTy).Contents (Elt F)),
    StableHlo.reshape main_v409 main_v410 rfl shapeCasts_S1x300x128_S300x128,
    StableHlo.binary main_v408 main_v410 main_v411 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v412 ((extractStridedSlice S1x128 ![1, 0] · slices_S6x128_S1x128_1_0) : (⟨S6x128, .f32⟩ : BufTy).Contents (Elt F) → (⟨S1x128, .f32⟩ : BufTy).Contents (Elt F)),
    StableHlo.reshape main_v412 main_v413 rfl shapeCasts_S1x128_S128,
    StableHlo.unary main_v413 main_v414 (broadcastInDim S1x128 ![1] bcast_S128_S1x128_1 : (⟨S128, .f32⟩ : BufTy).Contents (Elt F) → (⟨S1x128, .f32⟩ : BufTy).Contents (Elt F)),
    StableHlo.unary main_v414 main_v415 (broadcastInDim S256x128 ![0, 1] bcast_S1x128_S256x128_0_1 : (⟨S1x128, .f32⟩ : BufTy).Contents (Elt F) → (⟨S256x128, .f32⟩ : BufTy).Contents (Elt F)),
    StableHlo.binary main_v411 main_v415 main_v416 (addf : (⟨S256x128, .f32⟩ : BufTy).Contents (Elt F) → (⟨S256x128, .f32⟩ : BufTy).Contents (Elt F) → (⟨S256x128, .f32⟩ : BufTy).Contents (Elt F)),
    StableHlo.binary main_v402 main_v416 main_v417 (addf : (⟨S256x128, .f32⟩ : BufTy).Contents (Elt F) → (⟨S256x128, .f32⟩ : BufTy).Contents (Elt F) → (⟨S256x128, .f32⟩ : BufTy).Contents (Elt F)) ]

set_option maxRecDepth 8192 in
set_option maxHeartbeats 4000000 in
theorem main_part7_eq (c : Dev nD) : main_part7 (F := F) c = seq partOps7 := by
  simp only [main_part7, fn_var.body, fn_where.body, fn_relu.body, seq, bind_assoc, pure_bind]
  all_goals rfl

end Cert.ReferenceIdeal.Run

end
-- ==== Proof.RefRun.Part8.lean ====
/- The printed window main_part8 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part8, calls inlined. 60 operations. -/
abbrev partOps8 : List (HloOp τ sig (Elt F)) :=
  [ StableHlo.nullary main_cst_60 (constant S_ .f32 0x00000000#32),
    StableHlo.unary main_cst_60 main_v418 (broadcastInDim S256x300 ![] bcast_S_S256x300 : (⟨S_, .f32⟩ : BufTy).Contents (Elt F) → (⟨S256x300, .f32⟩ : BufTy).Contents (Elt F)),
    StableHlo.unary main_arg2 main_v419 (broadcastInDim S50000x1 ![0] bcast_S50000_S50000x1_0 : (⟨S50000, .i32⟩ : BufTy).Contents (Elt F) → (⟨S50000x1, .i32⟩ : BufTy).Contents (Elt F)),
    StableHlo.ternary main_v418 main_v419 main_v153 main_v420 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v421 (broadcastInDim S256x1 ![0] bcast_S256_S256x1_0 : (⟨S256, .f32⟩ : BufTy).Contents (Elt F) → (⟨S256x1, .f32⟩ : BufTy).Contents (Elt F)),
    StableHlo.unary main_v421 main_v422 (broadcastInDim S256x300 ![0, 1] bcast_S256x1_S256x300_0_1 : (⟨S256x1, .f32⟩ : BufTy).Contents (Elt F) → (⟨S256x300, .f32⟩ : BufTy).Contents (Elt F)),
    StableHlo.binary main_v420 main_v422 main_v423 (mulf : (⟨S256x300, .f32⟩ : BufTy).Contents (Elt F) → (⟨S256x300, .f32⟩ : BufTy).Contents (Elt F) → (⟨S256x300, .f32⟩ : BufTy).Contents (Elt F)),
    StableHlo.unary main_arg11 main_v424 ((extractStridedSlice S1x300x128 ![2, 0, 0] · slices_S6x300x128_S1x300x128_2_0_0) : (⟨S6x300x128, .f32⟩ : BufTy).Contents (Elt F) → (⟨S1x300x128, .f32⟩ : BufTy).Contents (Elt F)),
    StableHlo.reshape main_v424 main_v425 rfl shapeCasts_S1x300x128_S300x128,
    StableHlo.binary main_v423 main_v425 main_v426 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v427 ((extractStridedSlice S1x128 ![2, 0] · slices_S6x128_S1x128_2_0) : (⟨S6x128, .f32⟩ : BufTy).Contents (Elt F) → (⟨S1x128, .f32⟩ : BufTy).Contents (Elt F)),
    StableHlo.reshape main_v427 main_v428 rfl shapeCasts_S1x128_S128,
    StableHlo.unary main_v428 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S256x128 ![0, 1] bcast_S1x128_S256x128_0_1 : (⟨S1x128, .f32⟩ : BufTy).Contents (Elt F) → (⟨S256x128, .f32⟩ : BufTy).Contents (Elt F)),
    StableHlo.binary main_v426 main_v430 main_v431 (addf : (⟨S256x128, .f32⟩ : BufTy).Contents (Elt F) → (⟨S256x128, .f32⟩ : BufTy).Contents (Elt F) → (⟨S256x128, .f32⟩ : BufTy).Contents (Elt F)),
    StableHlo.binary main_v417 main_v431 main_v432 (addf : (⟨S256x128, .f32⟩ : BufTy).Contents (Elt F) → (⟨S256x128, .f32⟩ : BufTy).Contents (Elt F) → (⟨S256x128, .f32⟩ : BufTy).Contents (Elt F)),
    StableHlo.nullary main_cst_61 (constant S_ .f32 0x00000000#32),
    StableHlo.unary main_cst_61 main_v433 (broadcastInDim S256x300 ![] bcast_S_S256x300 : (⟨S_, .f32⟩ : BufTy).Contents (Elt F) → (⟨S256x300, .f32⟩ : BufTy).Contents (Elt F)),
    StableHlo.unary main_arg2 main_v434 (broadcastInDim S50000x1 ![0] bcast_S50000_S50000x1_0 : (⟨S50000, .i32⟩ : BufTy).Contents (Elt F) → (⟨S50000x1, .i32⟩ : BufTy).Contents (Elt F)),
    StableHlo.ternary main_v433 main_v434 main_v228 main_v435 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v436 (broadcastInDim S256x1 ![0] bcast_S256_S256x1_0 : (⟨S256, .f32⟩ : BufTy).Contents (Elt F) → (⟨S256x1, .f32⟩ : BufTy).Contents (Elt F)),
    StableHlo.unary main_v436 main_v437 (broadcastInDim S256x300 ![0, 1] bcast_S256x1_S256x300_0_1 : (⟨S256x1, .f32⟩ : BufTy).Contents (Elt F) → (⟨S256x300, .f32⟩ : BufTy).Contents (Elt F)),
    StableHlo.binary main_v435 main_v437 main_v438 (mulf : (⟨S256x300, .f32⟩ : BufTy).Contents (Elt F) → (⟨S256x300, .f32⟩ : BufTy).Contents (Elt F) → (⟨S256x300, .f32⟩ : BufTy).Contents (Elt F)),
    StableHlo.unary main_arg11 main_v439 ((extractStridedSlice S1x300x128 ![3, 0, 0] · slices_S6x300x128_S1x300x128_3_0_0) : (⟨S6x300x128, .f32⟩ : BufTy).Contents (Elt F) → (⟨S1x300x128, .f32⟩ : BufTy).Contents (Elt F)),
    StableHlo.reshape main_v439 main_v440 rfl shapeCasts_S1x300x128_S300x128,
    StableHlo.binary main_v438 main_v440 main_v441 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v442 ((extractStridedSlice S1x128 ![3, 0] · slices_S6x128_S1x128_3_0) : (⟨S6x128, .f32⟩ : BufTy).Contents (Elt F) → (⟨S1x128, .f32⟩ : BufTy).Contents (Elt F)),
    StableHlo.reshape main_v442 main_v443 rfl shapeCasts_S1x128_S128,
    StableHlo.unary main_v443 main_v444 (broadcastInDim S1x128 ![1] bcast_S128_S1x128_1 : (⟨S128, .f32⟩ : BufTy).Contents (Elt F) → (⟨S1x128, .f32⟩ : BufTy).Contents (Elt F)),
    StableHlo.unary main_v444 main_v445 (broadcastInDim S256x128 ![0, 1] bcast_S1x128_S256x128_0_1 : (⟨S1x128, .f32⟩ : BufTy).Contents (Elt F) → (⟨S256x128, .f32⟩ : BufTy).Contents (Elt F)),
    StableHlo.binary main_v441 main_v445 main_v446 (addf : (⟨S256x128, .f32⟩ : BufTy).Contents (Elt F) → (⟨S256x128, .f32⟩ : BufTy).Contents (Elt F) → (⟨S256x128, .f32⟩ : BufTy).Contents (Elt F)),
    StableHlo.binary main_v432 main_v446 main_v447 (addf : (⟨S256x128, .f32⟩ : BufTy).Contents (Elt F) → (⟨S256x128, .f32⟩ : BufTy).Contents (Elt F) → (⟨S256x128, .f32⟩ : BufTy).Contents (Elt F)),
    StableHlo.nullary main_cst_62 (constant S_ .f32 0x00000000#32),
    StableHlo.unary main_cst_62 main_v448 (broadcastInDim S256x300 ![] bcast_S_S256x300 : (⟨S_, .f32⟩ : BufTy).Contents (Elt F) → (⟨S256x300, .f32⟩ : BufTy).Contents (Elt F)),
    StableHlo.unary main_arg2 main_v449 (broadcastInDim S50000x1 ![0] bcast_S50000_S50000x1_0 : (⟨S50000, .i32⟩ : BufTy).Contents (Elt F) → (⟨S50000x1, .i32⟩ : BufTy).Contents (Elt F)),
    StableHlo.ternary main_v448 main_v449 main_v303 main_v450 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v451 (broadcastInDim S256x1 ![0] bcast_S256_S256x1_0 : (⟨S256, .f32⟩ : BufTy).Contents (Elt F) → (⟨S256x1, .f32⟩ : BufTy).Contents (Elt F)),
    StableHlo.unary main_v451 main_v452 (broadcastInDim S256x300 ![0, 1] bcast_S256x1_S256x300_0_1 : (⟨S256x1, .f32⟩ : BufTy).Contents (Elt F) → (⟨S256x300, .f32⟩ : BufTy).Contents (Elt F)),
    StableHlo.binary main_v450 main_v452 main_v453 (mulf : (⟨S256x300, .f32⟩ : BufTy).Contents (Elt F) → (⟨S256x300, .f32⟩ : BufTy).Contents (Elt F) → (⟨S256x300, .f32⟩ : BufTy).Contents (Elt F)),
    StableHlo.unary main_arg11 main_v454 ((extractStridedSlice S1x300x128 ![4, 0, 0] · slices_S6x300x128_S1x300x128_4_0_0) : (⟨S6x300x128, .f32⟩ : BufTy).Contents (Elt F) → (⟨S1x300x128, .f32⟩ : BufTy).Contents (Elt F)),
    StableHlo.reshape main_v454 main_v455 rfl shapeCasts_S1x300x128_S300x128,
    StableHlo.binary main_v453 main_v455 main_v456 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v457 ((extractStridedSlice S1x128 ![4, 0] · slices_S6x128_S1x128_4_0) : (⟨S6x128, .f32⟩ : BufTy).Contents (Elt F) → (⟨S1x128, .f32⟩ : BufTy).Contents (Elt F)),
    StableHlo.reshape main_v457 main_v458 rfl shapeCasts_S1x128_S128,
    StableHlo.unary main_v458 main_v459 (broadcastInDim S1x128 ![1] bcast_S128_S1x128_1 : (⟨S128, .f32⟩ : BufTy).Contents (Elt F) → (⟨S1x128, .f32⟩ : BufTy).Contents (Elt F)),
    StableHlo.unary main_v459 main_v460 (broadcastInDim S256x128 ![0, 1] bcast_S1x128_S256x128_0_1 : (⟨S1x128, .f32⟩ : BufTy).Contents (Elt F) → (⟨S256x128, .f32⟩ : BufTy).Contents (Elt F)),
    StableHlo.binary main_v456 main_v460 main_v461 (addf : (⟨S256x128, .f32⟩ : BufTy).Contents (Elt F) → (⟨S256x128, .f32⟩ : BufTy).Contents (Elt F) → (⟨S256x128, .f32⟩ : BufTy).Contents (Elt F)),
    StableHlo.binary main_v447 main_v461 main_v462 (addf : (⟨S256x128, .f32⟩ : BufTy).Contents (Elt F) → (⟨S256x128, .f32⟩ : BufTy).Contents (Elt F) → (⟨S256x128, .f32⟩ : BufTy).Contents (Elt F)),
    StableHlo.nullary main_cst_63 (constant S_ .f32 0x00000000#32),
    StableHlo.unary main_cst_63 main_v463 (broadcastInDim S256x300 ![] bcast_S_S256x300 : (⟨S_, .f32⟩ : BufTy).Contents (Elt F) → (⟨S256x300, .f32⟩ : BufTy).Contents (Elt F)),
    StableHlo.unary main_arg2 main_v464 (broadcastInDim S50000x1 ![0] bcast_S50000_S50000x1_0 : (⟨S50000, .i32⟩ : BufTy).Contents (Elt F) → (⟨S50000x1, .i32⟩ : BufTy).Contents (Elt F)),
    StableHlo.ternary main_v463 main_v464 main_v378 main_v465 ((fun x i u => Host.scatterAdd scatter_S256x300_S50000x1_S50000x300_1_0_0_1 x i u) : (⟨S256x300, .f32⟩ : BufTy).Contents (Elt F) → (⟨S50000x1, .i32⟩ : BufTy).Contents (Elt F) → (⟨S50000x300, .f32⟩ : BufTy).Contents (Elt F) → (⟨S256x300, .f32⟩ : BufTy).Contents (Elt F)),
    StableHlo.unary main_v386 main_v466 (broadcastInDim S256x1 ![0] bcast_S256_S256x1_0 : (⟨S256, .f32⟩ : BufTy).Contents (Elt F) → (⟨S256x1, .f32⟩ : BufTy).Contents (Elt F)),
    StableHlo.unary main_v466 main_v467 (broadcastInDim S256x300 ![0, 1] bcast_S256x1_S256x300_0_1 : (⟨S256x1, .f32⟩ : BufTy).Contents (Elt F) → (⟨S256x300, .f32⟩ : BufTy).Contents (Elt F)),
    StableHlo.binary main_v465 main_v467 main_v468 (mulf : (⟨S256x300, .f32⟩ : BufTy).Contents (Elt F) → (⟨S256x300, .f32⟩ : BufTy).Contents (Elt F) → (⟨S256x300, .f32⟩ : BufTy).Contents (Elt F)),
    StableHlo.unary main_arg11 main_v469 ((extractStridedSlice S1x300x128 ![5, 0, 0] · slices_S6x300x128_S1x300x128_5_0_0) : (⟨S6x300x128, .f32⟩ : BufTy).Contents (Elt F) → (⟨S1x300x128, .f32⟩ : BufTy).Contents (Elt F)),
    StableHlo.reshape main_v469 main_v470 rfl shapeCasts_S1x300x128_S300x128,
    StableHlo.binary main_v468 main_v470 main_v471 ((fun l r => Host.dotGeneral dot_S256x300_S300x128_S256x128_1_0_0_1_n_n none l r) : (⟨S256x300, .f32⟩ : BufTy).Contents (Elt F) → (⟨S300x128, .f32⟩ : BufTy).Contents (Elt F) → (⟨S256x128, .f32⟩ : BufTy).Contents (Elt F)),
    StableHlo.unary main_arg12 main_v472 ((extractStridedSlice S1x128 ![5, 0] · slices_S6x128_S1x128_5_0) : (⟨S6x128, .f32⟩ : BufTy).Contents (Elt F) → (⟨S1x128, .f32⟩ : BufTy).Contents (Elt F)),
    StableHlo.reshape main_v472 main_v473 rfl shapeCasts_S1x128_S128 ]

set_option maxRecDepth 8192 in
set_option maxHeartbeats 4000000 in
theorem main_part8_eq (c : Dev nD) : main_part8 (F := F) c = seq partOps8 := by
  simp only [main_part8, fn_var.body, fn_where.body, fn_relu.body, seq, bind_assoc, pure_bind]
  all_goals rfl

end Cert.ReferenceIdeal.Run

end
-- ==== Proof.RefRun.Part9.lean ====
/- The printed window main_part9 of @main as the list of its operations. -/
import proofs.«144515_j12352325943894_2_alg».proof.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem

variable {F : FTy → Type} [FloatOps F] [Facts]

open Idealize.ShloMosaic.StableHlo

/-- The operations of the window main_part9, calls inlined. 4 operations. -/
abbrev partOps9 : List (HloOp τ sig (Elt F)) :=
  [ StableHlo.unary main_v473 main_v474 (broadcastInDim S1x128 ![1] bcast_S128_S1x128_1 : (⟨S128, .f32⟩ : BufTy).Contents (Elt F) → (⟨S1x128, .f32⟩ : BufTy).Contents (Elt F)),
    StableHlo.unary main_v474 main_v475 (broadcastInDim S256x128 ![0, 1] bcast_S1x128_S256x128_0_1 : (⟨S1x128, .f32⟩ : BufTy).Contents (Elt F) → (⟨S256x128, .f32⟩ : BufTy).Contents (Elt F)),
    StableHlo.binary main_v471 main_v475 main_v476 (addf : (⟨S256x128, .f32⟩ : BufTy).Contents (Elt F) → (⟨S256x128, .f32⟩ : BufTy).Contents (Elt F) → (⟨S256x128, .f32⟩ : BufTy).Contents (Elt F)),
    StableHlo.binary main_v462 main_v476 main_v477 (addf : (⟨S256x128, .f32⟩ : BufTy).Contents (Elt F) → (⟨S256x128, .f32⟩ : BufTy).Contents (Elt F) → (⟨S256x128, .f32⟩ : BufTy).Contents (Elt F)) ]

set_option maxRecDepth 8192 in
set_option maxHeartbeats 4000000 in
theorem main_part9_eq (c : Dev nD) : main_part9 (F := F) c = seq partOps9 := by
  simp only [main_part9, fn_var.body, fn_where.body, fn_relu.body, seq, bind_assoc, pure_bind]
  all_goals rfl

end Cert.ReferenceIdeal.Run

end
-- ==== Proof.RefRun.lean ====
/- The reference's run read back. @main is printed in ten windows; each window is the straight line of its
   operations (RefRun/Part0 … Part9), the windows in order are the whole line `ops` of RefRun/Ops.lean, every
   operation touches TensorCore buffers only and determines what it writes (RefRun/Side.lean), and the signature
   scopes nothing: so every weakly fair execution of @main terminates with each buffer at the fold of the
   operations' results over the launch contents (Lib/StableHlo/Run.lean `run_seq`). -/
import Idealize.ShloMosaic.Lib.Pipeline.Frame
import proofs.«144515_j12352325943894_2_alg».proof.Proof.RefRun.Ops
import proofs.«144515_j12352325943894_2_alg».proof.Proof.RefRun.Side
import proofs.«144515_j12352325943894_2_alg».proof.Proof.RefRun.Part0
import proofs.«144515_j12352325943894_2_alg».proof.Proof.RefRun.Part1
import proofs.«144515_j12352325943894_2_alg».proof.Proof.RefRun.Part2
import proofs.«144515_j12352325943894_2_alg».proof.Proof.RefRun.Part3
import proofs.«144515_j12352325943894_2_alg».proof.Proof.RefRun.Part4
import proofs.«144515_j12352325943894_2_alg».proof.Proof.RefRun.Part5
import proofs.«144515_j12352325943894_2_alg».proof.Proof.RefRun.Part6
import proofs.«144515_j12352325943894_2_alg».proof.Proof.RefRun.Part7
import proofs.«144515_j12352325943894_2_alg».proof.Proof.RefRun.Part8
import proofs.«144515_j12352325943894_2_alg».proof.Proof.RefRun.Part9

noncomputable section

namespace Cert.ReferenceIdeal.Run

open Cert.ReferenceIdeal Cert.ReferenceIdeal.Facts₀ Cert.ReferenceIdeal.Facts Idealize.ShloMosaic Idealize.ShloMosaic.TcCoe Idealize.SL.Sem
open Idealize.ShloMosaic.StableHlo

variable {F : FTy → Type} [FloatOps F] [Facts]

set_option maxRecDepth 100000 in  -- the two concatenations are unrolled entry by entry
/-- The windows' lists, in order, are the whole line: both sides are the same 774 entries, concatenation
    computes. -/
theorem ops_eq_parts : (ops : List (HloOp τ sig (Elt F)))
    = partOps0 ++ (partOps1 ++ (partOps2 ++ (partOps3 ++ (partOps4 ++ (partOps5 ++ (partOps6 ++ (partOps7 ++ (partOps8 ++ partOps9)))))))) :=
  rfl

/-- @main is the straight line `ops`: it runs its windows in order, each the line of its own list, and two lines
    run one after the other are their concatenation run as one (`seq_append`). -/
theorem main_eq (c : Dev nD) : main (F := F) c = seq ops := by
  rw [ops_eq_parts, seq_append, seq_append, seq_append, seq_append, seq_append, seq_append, seq_append, seq_append,
    seq_append, ← main_part0_eq c, ← main_part1_eq c, ← main_part2_eq c, ← main_part3_eq c, ← main_part4_eq c,
    ← main_part5_eq c, ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
private theorem forall_app {α : Type} {p : α → Prop} {l₁ l₂ : List α} (h₁ : l₁.Forall p) (h₂ : l₂.Forall p) :
    (l₁ ++ l₂).Forall p :=
  List.forall_append.mpr ⟨h₁, h₂⟩

/-- Every operation's buffers are TensorCore references of the signature. -/
theorem ops_sub : (ops : List (HloOp τ sig (Elt F))).Forall fun op => op.bufs ⊆ tcRefs τ sig :=
  forall_app (forall_app (forall_app (forall_app (forall_app (forall_app opsPre_sub
    (forall_app opsL0a_sub opsL0b_sub)) (forall_app opsL1a_sub opsL1b_sub)) (forall_app opsL2a_sub opsL2b_sub))
    (forall_app opsL3a_sub opsL3b_sub)) (forall_app opsL4a_sub opsL4b_sub))
    (forall_app (forall_app (forall_app (forall_app (forall_app (forall_app opsPool_sub opsRead0_sub) opsRead1_sub)
      opsRead2_sub) opsRead3_sub) opsRead4_sub) opsRead5_sub)

/-- Every operation determines what it writes. -/
theorem ops_fresh : (ops : List (HloOp τ sig (Elt F))).Forall fun op => op.fresh = ∅ :=
  forall_app (forall_app (forall_app (forall_app (forall_app (forall_app opsPre_fresh
    (forall_app opsL0a_fresh opsL0b_fresh)) (forall_app opsL1a_fresh opsL1b_fresh)) (forall_app opsL2a_fresh opsL2b_fresh))
    (forall_app opsL3a_fresh opsL3b_fresh)) (forall_app opsL4a_fresh opsL4b_fresh))
    (forall_app (forall_app (forall_app (forall_app (forall_app (forall_app opsPool_fresh opsRead0_fresh) opsRead1_fresh)
      opsRead2_fresh) opsRead3_fresh) opsRead4_fresh) opsRead5_fresh)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The fold of the whole line is the folds of its lists, one after the other (`after_append`): the contents after
    @main are read list by list, each from the contents the lists before it leave. -/
theorem after_ops (V : Valuation τ sig (Elt F)) :
    after ops V = after opsRead5 (after opsRead4 (after opsRead3 (after opsRead2 (after opsRead1 (after opsRead0
      (after opsPool (after opsL4b (after opsL4a (after opsL3b (after opsL3a (after opsL2b (after opsL2a
        (after opsL1b (after opsL1a (after opsL0b (after opsL0a (after opsPre V))))))))))))))))) := by
  simp only [ops, opsL0, opsL1, opsL2, opsL3, opsL4, opsTail, after_append]

end Cert.ReferenceIdeal.Run

end
-- ==== Proof.RefLayer.Agg.lean ====
/-
  The reference's neighbour aggregation as a pure function of the node features and the edge list:
  the source and destination rows of the edge array, a negative source index wrapped by the node
  count, the features gathered at the sources and summed into the destinations from zero.
-/
import proofs.«144515_j12352325943894_2_alg».proof.ReferenceIdeal
import proofs.«144515_j12352325943894_2_alg».proof.Proof.Spec
import Idealize.ShloMosaic.PureOps.Ideal.Laws
import Idealize.ShloMosaic.Lib.IdealHost

noncomputable section

namespace Cert.ReferenceIdeal.RefLayer

open Idealize.ShloMosaic Idealize.ShloMosaic.ValueIdx Cert.ReferenceIdeal

variable [Facts₀]
open Facts₀

/-- row 0 of the edge array as a vector: the edges' sources -/
def src (ei : IVec S2x400000 32) : IVec S400000 32 :=
  shapeCast S400000 (extractStridedSlice S1x400000 ![0, 0] ei slices_S2x400000_S1x400000_0_0) shapeCasts_S1x400000_S400000

/-- row 1 of the edge array as a vector: the edges' destinations -/
def dst (ei : IVec S2x400000 32) : IVec S400000 32 :=
  shapeCast S400000 (extractStridedSlice S1x400000 ![1, 0] ei slices_S2x400000_S1x400000_1_0) shapeCasts_S1x400000_S400000

/-- the sources with a negative index wrapped by the node count -/
def wrap (s : IVec S400000 32) : IVec S400000 32 :=
  select (cmpi .slt s (broadcastInDim S400000 ![] bcast_S_S400000 (constantI S_ 32 0#32)))
    (addi s (broadcastInDim S400000 ![] bcast_S_S400000 (constantI S_ 32 50000#32))) s

/-- the features of every edge's source row -/
def gathered (h : FVec Ideal S50000x300 .f32) (s : IVec S400000 32) : FVec Ideal S400000x300 .f32 :=
  Host.gather gather_S50000x300_S400000x1_S400000x300_1_0_n_n_0_1_1300 h
    (broadcastInDim S400000x1 ![0] bcast_S400000_S400000x1_0 (wrap s))

/-- the sum, into every destination row, of the features of the sources of the edges that end there -/
def agg (h : FVec Ideal S50000x300 .f32) (s d : IVec S400000 32) : FVec Ideal S50000x300 .f32 :=
  Host.scatterAdd scatter_S50000x300_S400000x1_S400000x300_1_0_0_1
    (broadcastInDim S50000x300 ![] bcast_S_S50000x300 (constant S_ .f32 0x00000000#32))
    (broadcastInDim S400000x1 ![0] bcast_S400000_S400000x1_0 d)
    (gathered h s)

/-- a finite sum of real numbers is a real number -/
theorem sum_real {ι : Type} (t : Finset ι) (f : ι → EReal) (hf : ∀ j, ∃ r : ℝ, f j = (r : EReal)) :
    ∃ r : ℝ, ∑ j ∈ t, f j = (r : EReal) := by
  classical
  induction t using Finset.induction_on with
  | empty => exact ⟨0, by simp⟩
  | insert a t ha ih =>
    obtain ⟨r, hr⟩ := ih
    obtain ⟨q, hq⟩ := hf a
    exact ⟨q + r, by rw [Finset.sum_insert ha, hr, hq, EReal.coe_add]⟩

/-- a scatter-add of real updates into a real array is real, whatever the indices: every entry is the
    array's entry plus a finite sum of updates -/
theorem scatterAdd_real {s si su : Shape} (D : ScatterDims s si su) {w : Nat} (x : s.Idx → EReal) (idx : IVec si w)
    (upd : su.Idx → EReal) (hx : GIN.AllReal x) (hu : GIN.AllReal upd) :
    GIN.AllReal (Ideal.hostScatterAdd D x idx upd) := by
  intro i
  obtain ⟨r, hr⟩ := sum_real (Finset.univ.filter fun j => D.resultIdx? j idx = some i) upd hu
  obtain ⟨q, hq⟩ := hx i
  exact ⟨q + r, by unfold Ideal.hostScatterAdd; rw [hr, hq, EReal.coe_add]⟩

/-- the aggregate of real features is real: every entry is zero plus a finite sum of entries of the features -/
theorem agg_real (h : FVec Ideal S50000x300 .f32) (s d : IVec S400000 32) (hh : GIN.AllReal h) :
    GIN.AllReal (agg h s d) :=
  scatterAdd_real scatter_S50000x300_S400000x1_S400000x300_1_0_0_1 _ _ _
    (fun i => ⟨0, (broadcastInDim_scalar_apply bcast_S_S50000x300 _ i).trans Ideal.ofBits_zero_f32⟩)
    (fun j => hh _)

end Cert.ReferenceIdeal.RefLayer

end
-- ==== Proof.RefLayer.Core.lean ====
/-
  One layer of the reference as a pure function of the features, the neighbour aggregate and the layer's
  parameters — the affine map, the column mean and biased variance over the 50000 rows, the normalisation
  with scale and shift, the maximum with zero, twice — and its reading index by index: it is the
  specification's layer.
-/
import proofs.«144515_j12352325943894_2_alg».proof.ReferenceIdeal
import proofs.«144515_j12352325943894_2_alg».proof.Proof.Spec
import Idealize.ShloMosaic.PureOps.Ideal.Laws
import Idealize.ShloMosaic.Lib.IdealHost
import Idealize.ShloMosaic.Lib.StackMember
import Idealize.ShloMosaic.Lib.Pipeline.Value

noncomputable section

namespace Cert.ReferenceIdeal.RefLayer

open Idealize.ShloMosaic Idealize.ShloMosaic.ValueIdx Cert.ReferenceIdeal

variable [Facts₀]
open Facts₀

/-! ### The operations, composed as the program composes them -/

/-- a per-column vector laid along every row: `[300] → [1, 300] → [50000, 300]` -/
def rows (v : FVec Ideal S300 .f32) : FVec Ideal S50000x300 .f32 :=
  broadcastInDim S50000x300 ![0, 1] bcast_S1x300_S50000x300_0_1 (broadcastInDim S1x300 ![1] bcast_S300_S1x300_1 v)

/-- `x W + b` -/
def affine (x : FVec Ideal S50000x300 .f32) (W : FVec Ideal S300x300 .f32) (b : FVec Ideal S300 .f32) :
    FVec Ideal S50000x300 .f32 :=
  addf (Host.dotGeneral dot_S50000x300_S300x300_S50000x300_1_0_0_1_n_n none x W) (rows b)

/-- the column sums from zero -/
def colSum (z : FVec Ideal S50000x300 .f32) : FVec Ideal S300 .f32 :=
  Host.reduceAdd z (constant S_ .f32 0x00000000#32) reducesTo_S50000x300_S300_d0 h_S_

/-- the column means: the sums over the row count -/
def colMean (z : FVec Ideal S50000x300 .f32) : FVec Ideal S300 .f32 :=
  Host.divf (colSum z) (broadcastInDim S300 ![] bcast_S_S300 (constant S_ .f32 0x47435000#32))

/-- the column means as the variance takes them, divided as a row and laid along every row -/
def meanRows (z : FVec Ideal S50000x300 .f32) : FVec Ideal S50000x300 .f32 :=
  broadcastInDim S50000x300 ![0, 1] bcast_S1x300_S50000x300_0_1
    (Host.divf (broadcastInDim S1x300 ![1] bcast_S300_S1x300_1 (colSum z))
      (broadcastInDim S1x300 ![] bcast_S_S1x300 (constant S_ .f32 0x47435000#32)))

/-- the variance's divisor: the row count less the integer zero converted -/
def divisor : FVec Ideal S_ .f32 :=
  subf (constant S_ .f32 0x47435000#32) (sitofp .f32 (constantI S_ 32 0#32))

/-- the column variances: the sums of squared deviations over the divisor, where the divisor is positive -/
def colVar (z : FVec Ideal S50000x300 .f32) : FVec Ideal S300 .f32 :=
  select (broadcastInDim S300 ![] bcast_S_S300 (cmpf .ogt divisor (constant S_ .f32 0x00000000#32)))
    (Host.divf (colSum (mulf (subf z (meanRows z)) (subf z (meanRows z)))) (broadcastInDim S300 ![] bcast_S_S300 divisor))
    (broadcastInDim S300 ![] bcast_S_S300 (constant S_ .f32 0x7FC00000#32))

/-- centre, scale by the inverse root of the variance plus ε, scale, shift, and the maximum with zero -/
def normalize (z : FVec Ideal S50000x300 .f32) (mu v g be : FVec Ideal S300 .f32) : FVec Ideal S50000x300 .f32 :=
  maximumf
    (addf
      (mulf
        (mulf (subf z (rows mu))
          (rows (Host.rsqrt (addf v (broadcastInDim S300 ![] bcast_S_S300 (constant S_ .f32 0x3727C5AC#32))))))
        (rows g))
      (rows be))
    (broadcastInDim S50000x300 ![] bcast_S_S50000x300 (constant S_ .f32 0x00000000#32))

/-- batch normalisation with the array's own column statistics, then the maximum with zero -/
def bn (z : FVec Ideal S50000x300 .f32) (g be : FVec Ideal S300 .f32) : FVec Ideal S50000x300 .f32 :=
  normalize z (colMean z) (colVar z) g be

/-- one layer from the features `h` and the aggregate `a` -/
def core (h a : FVec Ideal S50000x300 .f32) (W1 : FVec Ideal S300x300 .f32) (b1 g1 be1 : FVec Ideal S300 .f32)
    (W2 : FVec Ideal S300x300 .f32) (b2 g be : FVec Ideal S300 .f32) : FVec Ideal S50000x300 .f32 :=
  bn (affine (bn (affine (addf h a) W1 b1) g1 be1) W2 b2) g be

/-! ### Read at an index -/

theorem rows_apply (v : FVec Ideal S300 .f32) (p : Fin 50000) (q : Fin 300) : rows v (ix2 p q) = v (ix1 q) :=
  (broadcastInDim_apply _ bcast_S1x300_S50000x300_0_1 _ (ix2 p q) (ix2 (0 : Fin 1) q)
      (fun a => match a with | ⟨0, _⟩ => rfl | ⟨1, _⟩ => rfl)).trans
    (broadcastInDim_apply _ bcast_S300_S1x300_1 v (ix2 (0 : Fin 1) q) (ix1 q) (fun a => match a with | ⟨0, _⟩ => rfl))

theorem hostRsqrt_apply {s : Shape} (x : FVec Ideal s .f32) (i : s.Idx) : Host.rsqrt x i = Ideal.rsqrt (x i) := rfl

/-- the program's contraction record is the plain rows-by-columns one -/
theorem dot_eq_plain : dot_S50000x300_S300x300_S50000x300_1_0_0_1_n_n = DotDims.plain 50000 300 300 := rfl

theorem affine_eq (x : FVec Ideal S50000x300 .f32) (W : FVec Ideal S300x300 .f32) (b : FVec Ideal S300 .f32) :
    affine x W b = GIN.lin x W b := by
  funext i
  obtain ⟨p, q, rfl⟩ : ∃ (p : Fin 50000) (q : Fin 300), i = ix2 p q := ⟨i 0, i 1, eq_ix2 i⟩
  unfold affine GIN.lin
  rw [addf_apply, rows_apply, dot_eq_plain, StackMember.dotGeneral_plain_apply]

/-- the reduced index with the row put back is the pair (row, column) -/
theorem lift_eq (hr : S50000x300.Reduces [0] S300) (j : S300.Idx) (k : Fin 50000) : hr.lift j k = ix2 k (j 0) := by
  funext a
  apply Fin.ext
  match a with
  | ⟨0, _⟩ => rfl
  | ⟨1, _⟩ => rfl

theorem colSum_apply (z : FVec Ideal S50000x300 .f32) (j : S300.Idx) :
    colSum z j = GIN.c0 + ∑ n : Fin 50000, z (ix2 n (j 0)) := by
  unfold colSum
  rw [hostReduceAdd_apply, Ideal.hostReduceAdd_single reducesTo_S50000x300_S300_d0 (by decide : S50000x300.Reduces [0] S300)]
  exact congrArg (GIN.c0 + ·) (Finset.sum_congr rfl fun k _ => congrArg z (lift_eq _ j k))

theorem colMean_eq (z : FVec Ideal S50000x300 .f32) : colMean z = GIN.meanR z := by
  funext j
  unfold colMean GIN.meanR
  rw [hostDivf_apply, colSum_apply, broadcastInDim_scalar_apply, constant_apply]
  rfl

theorem meanRows_apply (z : FVec Ideal S50000x300 .f32) (p : Fin 50000) (q : Fin 300) :
    meanRows z (ix2 p q) = GIN.meanR z (ix1 q) := by
  rw [← colMean_eq]
  unfold meanRows colMean
  refine (broadcastInDim_apply _ bcast_S1x300_S50000x300_0_1 _ (ix2 p q) (ix2 (0 : Fin 1) q)
      (fun a => match a with | ⟨0, _⟩ => rfl | ⟨1, _⟩ => rfl)).trans ?_
  have h1 := broadcastInDim_apply _ bcast_S300_S1x300_1 (colSum z) (ix2 (0 : Fin 1) q) (ix1 q)
    (fun a => match a with | ⟨0, _⟩ => rfl)
  rw [hostDivf_apply, hostDivf_apply, h1, broadcastInDim_scalar_apply, broadcastInDim_scalar_apply]

theorem colVar_eq (z : FVec Ideal S50000x300 .f32) : colVar z = GIN.varR z := by
  funext j
  obtain ⟨q, rfl⟩ : ∃ q : Fin 300, j = ix1 q := ⟨j 0, eq_ix1 j⟩
  unfold colVar GIN.varR
  rw [select_apply, hostDivf_apply, colSum_apply, broadcastInDim_scalar_apply, broadcastInDim_scalar_apply,
    broadcastInDim_scalar_apply, constant_apply]
  simp only [mulf_apply, subf_apply, meanRows_apply]
  rfl

theorem normalize_eq (z : FVec Ideal S50000x300 .f32) (mu v g be : FVec Ideal S300 .f32) :
    normalize z mu v g be = GIN.bnrelu z mu v g be := by
  funext i
  obtain ⟨p, q, rfl⟩ : ∃ (p : Fin 50000) (q : Fin 300), i = ix2 p q := ⟨i 0, i 1, eq_ix2 i⟩
  unfold normalize GIN.bnrelu
  simp only [maximumf_apply, addf_apply, mulf_apply, subf_apply, rows_apply, hostRsqrt_apply, broadcastInDim_scalar_apply,
    constant_apply]
  rfl

/-- the reference's layer is the specification's, whatever the aggregate is a function of -/
theorem core_eq (A : GIN.Mat → GIN.Mat) (h : FVec Ideal S50000x300 .f32) (W1 : FVec Ideal S300x300 .f32)
    (b1 g1 be1 : FVec Ideal S300 .f32) (W2 : FVec Ideal S300x300 .f32) (b2 g be : FVec Ideal S300 .f32) :
    core h (A h) W1 b1 g1 be1 W2 b2 g be = GIN.layerR A h W1 b1 g1 be1 W2 b2 g be := by
  unfold core bn GIN.layerR
  simp only [affine_eq, colMean_eq, colVar_eq, normalize_eq]
  rfl

end Cert.ReferenceIdeal.RefLayer

end
-- ==== Proof.RefLayer.Slices.lean ====
/-
  Layer `l`'s weight matrix and per-column vectors out of the stacked parameters: the slice of one
  leading index, with the unit axis dropped, is the specification's `slW l` / `slD l`.
-/
import proofs.«144515_j12352325943894_2_alg».proof.ReferenceIdeal
import proofs.«144515_j12352325943894_2_alg».proof.Proof.Spec
import Idealize.ShloMosaic.Lib.ValueLayout
import Idealize.ShloMosaic.Lib.Pipeline.Value

noncomputable section

namespace Cert.ReferenceIdeal.RefLayer

open Idealize.ShloMosaic Idealize.ShloMosaic.ValueIdx Cert.ReferenceIdeal

variable [Facts₀]
open Facts₀

/-- the slice at leading index `l` of the stacked matrices, as a matrix -/
theorem slW_eq (l : Fin 5) (W : FVec Ideal S5x300x300 .f32) (hs : S5x300x300.Slices ![l.val, 0, 0] S1x300x300) :
    shapeCast S300x300 (extractStridedSlice S1x300x300 ![l.val, 0, 0] W hs) shapeCasts_S1x300x300_S300x300 = GIN.slW l W := by
  funext j
  obtain ⟨p, q, rfl⟩ : ∃ (p : Fin 300) (q : Fin 300), j = ix2 p q := ⟨j 0, j 1, eq_ix2 j⟩
  rw [shapeCast_1ab_ab_apply,
    extractStridedSlice_apply ![l.val, 0, 0] W hs (ix3 (0 : Fin 1) p q) (ix3 l p q)
      (fun a => match a with
        | ⟨0, _⟩ => rfl
        | ⟨1, _⟩ => (Nat.zero_add _).symm
        | ⟨2, _⟩ => (Nat.zero_add _).symm)]
  rfl

/-- the slice at leading index `l` of the stacked vectors, as a vector -/
theorem slD_eq (l : Fin 5) (b : FVec Ideal S5x300 .f32) (hs : S5x300.Slices ![l.val, 0] S1x300) :
    shapeCast S300 (extractStridedSlice S1x300 ![l.val, 0] b hs) shapeCasts_S1x300_S300 = GIN.slD l b := by
  funext j
  obtain ⟨q, rfl⟩ : ∃ q : Fin 300, j = ix1 q := ⟨j 0, eq_ix1 j⟩
  rw [shapeCast_1a_a_apply,
    extractStridedSlice_apply ![l.val, 0] b hs (ix2 (0 : Fin 1) q) (ix2 l q)
      (fun a => match a with
        | ⟨0, _⟩ => rfl
        | ⟨1, _⟩ => (Nat.zero_add _).symm)]
  rfl

/-! ### At the five layers, as the program spells the offsets -/

theorem slW_eq_0 (W : FVec Ideal S5x300x300 .f32) :
    shapeCast S300x300 (extractStridedSlice S1x300x300 ![0, 0, 0] W slices_S5x300x300_S1x300x300_0_0_0) shapeCasts_S1x300x300_S300x300
      = GIN.slW 0 W :=
  slW_eq 0 W _

theorem slW_eq_1 (W : FVec Ideal S5x300x300 .f32) :
    shapeCast S300x300 (extractStridedSlice S1x300x300 ![1, 0, 0] W slices_S5x300x300_S1x300x300_1_0_0) shapeCasts_S1x300x300_S300x300
      = GIN.slW 1 W :=
  slW_eq 1 W _

theorem slW_eq_2 (W : FVec Ideal S5x300x300 .f32) :
    shapeCast S300x300 (extractStridedSlice S1x300x300 ![2, 0, 0] W slices_S5x300x300_S1x300x300_2_0_0) shapeCasts_S1x300x300_S300x300
      = GIN.slW 2 W :=
  slW_eq 2 W _

theorem slW_eq_3 (W : FVec Ideal S5x300x300 .f32) :
    shapeCast S300x300 (extractStridedSlice S1x300x300 ![3, 0, 0] W slices_S5x300x300_S1x300x300_3_0_0) shapeCasts_S1x300x300_S300x300
      = GIN.slW 3 W :=
  slW_eq 3 W _

theorem slW_eq_4 (W : FVec Ideal S5x300x300 .f32) :
    shapeCast S300x300 (extractStridedSlice S1x300x300 ![4, 0, 0] W slices_S5x300x300_S1x300x300_4_0_0) shapeCasts_S1x300x300_S300x300
      = GIN.slW 4 W :=
  slW_eq 4 W _

theorem slD_eq_0 (b : FVec Ideal S5x300 .f32) :
    shapeCast S300 (extractStridedSlice S1x300 ![0, 0] b slices_S5x300_S1x300_0_0) shapeCasts_S1x300_S300 = GIN.slD 0 b :=
  slD_eq 0 b _

theorem slD_eq_1 (b : FVec Ideal S5x300 .f32) :
    shapeCast S300 (extractStridedSlice S1x300 ![1, 0] b slices_S5x300_S1x300_1_0) shapeCasts_S1x300_S300 = GIN.slD 1 b :=
  slD_eq 1 b _

theorem slD_eq_2 (b : FVec Ideal S5x300 .f32) :
    shapeCast S300 (extractStridedSlice S1x300 ![2, 0] b slices_S5x300_S1x300_2_0) shapeCasts_S1x300_S300 = GIN.slD 2 b :=
  slD_eq 2 b _

theorem slD_eq_3 (b : FVec Ideal S5x300 .f32) :
    shapeCast S300 (extractStridedSlice S1x300 ![3, 0] b slices_S5x300_S1x300_3_0) shapeCasts_S1x300_S300 = GIN.slD 3 b :=
  slD_eq 3 b _

theorem slD_eq_4 (b : FVec Ideal S5x300 .f32) :
    shapeCast S300 (extractStridedSlice S1x300 ![4, 0] b slices_S5x300_S1x300_4_0) shapeCasts_S1x300_S300 = GIN.slD 4 b :=
  slD_eq 4 b _

end Cert.ReferenceIdeal.RefLayer

end
-- ==== Proof.RefLayer.lean ====
/-
  One layer of the reference as pure functions of its inputs: the neighbour aggregate, the layer from
  the features and the aggregate (equal to the specification's layer), and the layers' parameters out
  of the stacked ones.
-/
import proofs.«144515_j12352325943894_2_alg».proof.Proof.RefLayer.Agg
import proofs.«144515_j12352325943894_2_alg».proof.Proof.RefLayer.Core
import proofs.«144515_j12352325943894_2_alg».proof.Proof.RefLayer.Slices
-- ==== Proof.ReadoutR.lean ====
import proofs.«144515_j12352325943894_2_alg».proof.Proof.RefRun.Ops
import Idealize.ShloMosaic.PureOps.Ideal

/-! # The readout, as the reference's last operations compute it

After the five layers the network pools every feature array over the graphs of the batch and reads the pooled
features out through one affine map per array.  With `batch n` the graph of node `n`:

* `counts g = Σ_{n : batch n = g} 1` (a scatter-add of ones into zeros), and `inv g = 1 / max (counts g) 1`;
* for each of the six feature arrays `f_0 = x, f_1, …, f_5`:
  `pooled_k g j = (Σ_{n : batch n = g} f_k n j) · inv g` (a scatter-add of the rows into zeros, times `inv` broadcast
  along the columns);
* `out_0 = 0`, and `out_{k+1} = out_k + (pooled_k · W_k + b_k)`, with `W_k` the `k`-th `300 × 128` slice of the stacked
  readout weights and `b_k` the `k`-th row of the stacked readout vectors, broadcast along the graphs.

The result is `out_6`.  This file names that composed term (`ROR`) and shows that the buffer the operations write
last holds it, whatever the contents `V` they start from: the term reads `V` only at the six feature arrays, the
batch vector, and the two stacked readout parameters.
-/

noncomputable section

namespace Cert.ReferenceIdeal.Readout

open Cert.ReferenceIdeal Cert.ReferenceIdeal.Facts₀ Cert.ReferenceIdeal.Facts Cert.ReferenceIdeal.Run
open Idealize.ShloMosaic Idealize.ShloMosaic.TcCoe Idealize.ShloMosaic.StableHlo

variable [Facts]

section Generic

variable {F : FTy → Type} [FloatOps F]

/-- `inv = 1 / max counts 1`, where `counts` is the scatter-add of a vector of ones into 256 zeros along the batch
    vector (read as a `50000 × 1` array of indices). -/
def invF (batch : IVec S50000 32) : FVec F S256 .f32 :=
  Host.divf
    (broadcastInDim S256 ![] bcast_S_S256 (constant (F := F) S_ .f32 0x3F800000#32))
    (maximumf
      (Host.scatterAdd scatter_S256_S50000x1_S50000_n_0_0_1
        (broadcastInDim S256 ![] bcast_S_S256 (constant (F := F) S_ .f32 0x00000000#32))
        (broadcastInDim S50000x1 ![0] bcast_S50000_S50000x1_0 batch)
        (broadcastInDim S50000 ![] bcast_S_S50000 (constant (F := F) S_ .f32 0x3F800000#32)))
      (broadcastInDim S256 ![] bcast_S_S256 (constant (F := F) S_ .f32 0x3F800000#32)))

/-- `pooled · Wk`: the rows of `f` scatter-added into a `256 × 300` array of zeros along the batch vector, times `inv`
    broadcast along the columns, contracted with the `300 × 128` matrix `Wk`. -/
def pooledDot (f : FVec F S50000x300 .f32) (batch : IVec S50000 32) (inv : FVec F S256 .f32)
    (Wk : FVec F S300x128 .f32) : FVec F S256x128 .f32 :=
  Host.dotGeneral dot_S256x300_S300x128_S256x128_1_0_0_1_n_n none
    (mulf
      (Host.scatterAdd scatter_S256x300_S50000x1_S50000x300_1_0_0_1
        (broadcastInDim S256x300 ![] bcast_S_S256x300 (constant (F := F) S_ .f32 0x00000000#32))
        (broadcastInDim S50000x1 ![0] bcast_S50000_S50000x1_0 batch)
        f)
      (broadcastInDim S256x300 ![0, 1] bcast_S256x1_S256x300_0_1 (broadcastInDim S256x1 ![0] bcast_S256_S256x1_0 inv)))
    Wk

/-- a row of the stacked readout vectors (already cut out as a `1 × 128` array), broadcast along the 256 graphs -/
def biasRow (b : FVec F S1x128 .f32) : FVec F S256x128 .f32 :=
  broadcastInDim S256x128 ![0, 1] bcast_S1x128_S256x128_0_1
    (broadcastInDim S1x128 ![1] bcast_S128_S1x128_1 (shapeCast S128 b shapeCasts_S1x128_S128))

/-- one step of the accumulation: `out + (pooled · Wk + bk)`, the slices `Wk`, `bk` given as cut out of the stacks -/
def stepR (out : FVec F S256x128 .f32) (f : FVec F S50000x300 .f32) (batch : IVec S50000 32) (inv : FVec F S256 .f32)
    (Wk : FVec F S1x300x128 .f32) (bk : FVec F S1x128 .f32) : FVec F S256x128 .f32 :=
  addf out (addf (pooledDot f batch inv (shapeCast S300x128 Wk shapeCasts_S1x300x128_S300x128)) (biasRow bk))

/-- the six steps from zeros -/
def RORF (x f1 f2 f3 f4 f5 : FVec F S50000x300 .f32) (batch : IVec S50000 32) (fcW : FVec F S6x300x128 .f32)
    (fcb : FVec F S6x128 .f32) : FVec F S256x128 .f32 :=
  let inv := invF (F := F) batch
  let o0 : FVec F S256x128 .f32 := broadcastInDim S256x128 ![] bcast_S_S256x128 (constant (F := F) S_ .f32 0x00000000#32)
  let o1 := stepR o0 x batch inv (extractStridedSlice S1x300x128 ![0, 0, 0] fcW slices_S6x300x128_S1x300x128_0_0_0)
    (extractStridedSlice S1x128 ![0, 0] fcb slices_S6x128_S1x128_0_0)
  let o2 := stepR o1 f1 batch inv (extractStridedSlice S1x300x128 ![1, 0, 0] fcW slices_S6x300x128_S1x300x128_1_0_0)
    (extractStridedSlice S1x128 ![1, 0] fcb slices_S6x128_S1x128_1_0)
  let o3 := stepR o2 f2 batch inv (extractStridedSlice S1x300x128 ![2, 0, 0] fcW slices_S6x300x128_S1x300x128_2_0_0)
    (extractStridedSlice S1x128 ![2, 0] fcb slices_S6x128_S1x128_2_0)
  let o4 := stepR o3 f3 batch inv (extractStridedSlice S1x300x128 ![3, 0, 0] fcW slices_S6x300x128_S1x300x128_3_0_0)
    (extractStridedSlice S1x128 ![3, 0] fcb slices_S6x128_S1x128_3_0)
  let o5 := stepR o4 f4 batch inv (extractStridedSlice S1x300x128 ![4, 0, 0] fcW slices_S6x300x128_S1x300x128_4_0_0)
    (extractStridedSlice S1x128 ![4, 0] fcb slices_S6x128_S1x128_4_0)
  stepR o5 f5 batch inv (extractStridedSlice S1x300x128 ![5, 0, 0] fcW slices_S6x300x128_S1x300x128_5_0_0)
    (extractStridedSlice S1x128 ![5, 0] fcb slices_S6x128_S1x128_5_0)

attribute [local irreducible] Host.scatterAdd in
set_option maxRecDepth 16384 in
set_option maxHeartbeats 4000000 in
/-- The last buffer the readout's operations write holds the composed term over the contents they start from.
    Unrolling the fold, every operation's result at the buffer it writes is its function of the contents of its
    operands, and at any other buffer what was there; what is left is the composed term, read at the nine buffers the
    operations do not write.  The scatter-add stays folded: the equation never looks inside it. -/
theorem after_opsTailF (V : Valuation τ sig (Elt F)) :
    StableHlo.after (opsTail (F := F)) V (Proc.devRef .tc main_v477)
      = RORF (V (Proc.devRef .tc main_arg0)) (V (Proc.devRef .tc main_v78)) (V (Proc.devRef .tc main_v153))
          (V (Proc.devRef .tc main_v228)) (V (Proc.devRef .tc main_v303)) (V (Proc.devRef .tc main_v378))
          (V (Proc.devRef .tc main_arg2)) (V (Proc.devRef .tc main_arg11)) (V (Proc.devRef .tc main_arg12)) := by
  simp only [opsTail, opsPool, opsRead0, opsRead1, opsRead2, opsRead3, opsRead4, opsRead5, List.cons_append, List.nil_append,
    List.append_assoc]
  after_results_simp
  rfl

end Generic

/-- the readout at the extended reals -/
def ROR (x f1 f2 f3 f4 f5 : FVec Ideal S50000x300 .f32) (batch : IVec S50000 32) (fcW : FVec Ideal S6x300x128 .f32)
    (fcb : FVec Ideal S6x128 .f32) : FVec Ideal S256x128 .f32 :=
  RORF x f1 f2 f3 f4 f5 batch fcW fcb

theorem after_opsTail (V : Valuation τ sig (Elt Ideal)) :
    StableHlo.after (opsTail (F := Ideal)) V (Proc.devRef .tc main_v477)
      = ROR (V (Proc.devRef .tc main_arg0)) (V (Proc.devRef .tc main_v78)) (V (Proc.devRef .tc main_v153))
          (V (Proc.devRef .tc main_v228)) (V (Proc.devRef .tc main_v303)) (V (Proc.devRef .tc main_v378))
          (V (Proc.devRef .tc main_arg2)) (V (Proc.devRef .tc main_arg11)) (V (Proc.devRef .tc main_arg12)) :=
  after_opsTailF V

end Cert.ReferenceIdeal.Readout

end
-- ==== Proof.RefValue.Base.lean ====
/-
  What the reference's operations leave alone, and its first four operations.  Every operation writes one
  buffer, so a line of operations changes no buffer outside the list of those its operations write.  The first
  four operations cut the two rows of the edge array: the edges' sources and the edges' destinations.  The
  readout's operations write none of the arguments and none of the layers' results.
-/
import proofs.«144515_j12352325943894_2_alg».proof.Proof.RefRun.Ops
import proofs.«144515_j12352325943894_2_alg».proof.Proof.RefLayer.Agg
import Idealize.ShloMosaic.Lib.StableHlo.Run
import Idealize.ShloMosaic.PureOps.Ideal

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- a reference of a list is, as a device buffer, in the list's set of device buffers -/
theorem single_sub_of_mem {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map_of_mem hy))

/-- the references `opsPre` writes, in order -/
def wPre : List (Ref sig .tc) :=
  [ main_v0, main_v1, main_v2, main_v3 ]

theorem opsPre_writes : (opsPre : List (HloOp τ sig (Elt F))).Forall fun op =>
    op.writes ⊆ (wPre.map (Proc.devRef (τ := τ) .tc)).toFinset := by
  simp only [opsPre, List.Forall, nullary_writes, unary_writes, binary_writes, ternary_writes, reshape_writes]
  repeat' apply And.intro
  all_goals exact single_sub_of_mem (by decide)

/-- a reference `opsPre` does not write keeps its contents -/
theorem opsPre_carry (V : Valuation τ sig (Elt F)) {r : Ref sig .tc} (hr : r ∉ wPre) :
    after opsPre V (Proc.devRef .tc r) = V (Proc.devRef .tc r) :=
  after_of_writes_sub opsPre V opsPre_writes hr

/-- the references the readout's operations write, in order -/
def wTail : List (Ref sig .tc) :=
  [ main_cst_53, main_v379, main_cst_54, main_v380, main_v381, main_v382,
    main_cst_55, main_v383, main_v384, main_cst_56, main_v385, main_v386,
    main_cst_57, main_v387, main_cst_58, main_v388, main_v389, main_v390,
    main_v391, main_v392, main_v393, main_v394, main_v395, main_v396,
    main_v397, main_v398, main_v399, main_v400, main_v401, main_v402,
    main_cst_59, main_v403, main_v404, main_v405, main_v406, main_v407,
    main_v408, main_v409, main_v410, main_v411, main_v412, main_v413,
    main_v414, main_v415, main_v416, main_v417, main_cst_60, main_v418,
    main_v419, main_v420, main_v421, main_v422, main_v423, main_v424,
    main_v425, main_v426, main_v427, main_v428, main_v429, main_v430,
    main_v431, main_v432, main_cst_61, main_v433, main_v434, main_v435,
    main_v436, main_v437, main_v438, main_v439, main_v440, main_v441,
    main_v442, main_v443, main_v444, main_v445, main_v446, main_v447,
    main_cst_62, main_v448, main_v449, main_v450, main_v451, main_v452,
    main_v453, main_v454, main_v455, main_v456, main_v457, main_v458,
    main_v459, main_v460, main_v461, main_v462, main_cst_63, main_v463,
    main_v464, main_v465, main_v466, main_v467, main_v468, main_v469,
    main_v470, main_v471, main_v472, main_v473, main_v474, main_v475,
    main_v476, main_v477 ]

theorem opsTail_writes : (opsTail : List (HloOp τ sig (Elt F))).Forall fun op =>
    op.writes ⊆ (wTail.map (Proc.devRef (τ := τ) .tc)).toFinset := by
  simp only [opsTail, opsPool, opsRead0, opsRead1, opsRead2, opsRead3, opsRead4, opsRead5, List.cons_append, List.nil_append,
    List.append_assoc, List.Forall, nullary_writes, unary_writes, binary_writes, ternary_writes, reshape_writes]
  repeat' apply And.intro
  all_goals exact single_sub_of_mem (by decide)

/-- a reference the readout's operations do not write keeps its contents -/
theorem opsTail_carry (V : Valuation τ sig (Elt F)) {r : Ref sig .tc} (hr : r ∉ wTail) :
    after opsTail V (Proc.devRef .tc r) = V (Proc.devRef .tc r) :=
  after_of_writes_sub opsTail V opsTail_writes hr

end Carry

/-- after the first four operations the first index vector is the edges' sources -/
theorem pre_v1 (V : Valuation τ sig (Elt Ideal)) :
    after (opsPre (F := Ideal)) V (Proc.devRef .tc main_v1) = RefLayer.src (V (Proc.devRef .tc main_arg1)) := by
  after_results
  rfl

/-- after the first four operations the second index vector is the edges' destinations -/
theorem pre_v3 (V : Valuation τ sig (Elt Ideal)) :
    after (opsPre (F := Ideal)) V (Proc.devRef .tc main_v3) = RefLayer.dst (V (Proc.devRef .tc main_arg1)) := by
  after_results
  rfl

end Cert.ReferenceIdeal.RefValue

end
-- ==== Proof.RefValue.L0.lean ====
/-
  Layer 0 of the reference, read off its operations.  The layer's first half adds the neighbour aggregate to the
  features, applies the first affine map, and normalises every column by its batch statistics with the maximum with
  zero; the second half applies the second affine map and normalises again.  The last buffer of each half holds the
  composition of the functions of its operations, which is the reference layer's term over the contents the half
  starts from; the two halves one after the other are the specification's layer, the layer's matrices and vectors
  cut out of the stacked parameters at index 0.  No operation of the layer writes a buffer outside the list of
  those the layer's operations write.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.RefValue.Base

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- the references `opsL0a` writes, in order -/
def wL0a : List (Ref sig .tc) :=
  [ main_c, main_v4, main_v5, main_c_0, main_v6, main_v7,
    main_v8, main_v9, main_v10, main_cst, main_v11, main_v12,
    main_v13, main_v14, main_v15, main_v16, main_v17, main_v18,
    main_v19, main_v20, main_v21, main_v22, main_v23, main_v24,
    main_v25, main_v26, main_cst_1, main_v27, main_cst_2, main_v28,
    main_v29, main_c_3, main_call0.cst.ref, main_call0.v0.ref, main_call0.v1.ref, main_call0.cst_0.ref,
    main_call0.v2.ref, main_call0.v3.ref, main_call0.v4.ref, main_call0.v5.ref, main_call0.v6.ref, main_call0.v7.ref,
    main_call0.cst_1.ref, main_call0.v8.ref, main_call0.cst_2.ref, main_call0.v9.ref, main_call0.v10.ref, main_call0.v11.ref,
    main_call0.cst_3.ref, main_call0.v12.ref, main_call0.cst_4.ref, main_call0.call0.v0.ref, main_call0.call0.v1.ref, main_call0.call0.v2.ref,
    main_v31, main_v32, main_v33, main_cst_4, main_v34, main_v35,
    main_v36, main_v37, main_v38, main_v39, main_v40, main_v41,
    main_v42, main_v43, main_v44, main_v45, main_call1.cst.ref, main_call1.v0.ref,
    main_call1.v1.ref ]

theorem opsL0a_writes : (opsL0a : List (HloOp τ sig (Elt F))).Forall fun op =>
    op.writes ⊆ (wL0a.map (Proc.devRef (τ := τ) .tc)).toFinset := by
  simp only [opsL0a, List.Forall, nullary_writes, unary_writes, binary_writes, ternary_writes, reshape_writes]
  repeat' apply And.intro
  all_goals exact single_sub_of_mem (by decide)

/-- a reference `opsL0a` does not write keeps its contents -/
theorem opsL0a_carry (V : Valuation τ sig (Elt F)) {r : Ref sig .tc} (hr : r ∉ wL0a) :
    after opsL0a V (Proc.devRef .tc r) = V (Proc.devRef .tc r) :=
  after_of_writes_sub opsL0a V opsL0a_writes hr

/-- the references `opsL0b` writes, in order -/
def wL0b : List (Ref sig .tc) :=
  [ main_v47, main_v48, main_v49, main_v50, main_v51, main_v52,
    main_v53, main_v54, main_v55, main_v56, main_v57, main_v58,
    main_cst_5, main_v59, main_cst_6, main_v60, main_v61, main_c_7,
    main_call2.cst.ref, main_call2.v0.ref, main_call2.v1.ref, main_call2.cst_0.ref, main_call2.v2.ref, main_call2.v3.ref,
    main_call2.v4.ref, main_call2.v5.ref, main_call2.v6.ref, main_call2.v7.ref, main_call2.cst_1.ref, main_call2.v8.ref,
    main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v63, main_v64,
    main_v65, main_cst_8, main_v66, main_v67, main_v68, main_v69,
    main_v70, main_v71, main_v72, main_v73, main_v74, main_v75,
    main_v76, main_v77, main_call3.cst.ref, main_call3.v0.ref, main_call3.v1.ref ]

theorem opsL0b_writes : (opsL0b : List (HloOp τ sig (Elt F))).Forall fun op =>
    op.writes ⊆ (wL0b.map (Proc.devRef (τ := τ) .tc)).toFinset := by
  simp only [opsL0b, List.Forall, nullary_writes, unary_writes, binary_writes, ternary_writes, reshape_writes]
  repeat' apply And.intro
  all_goals exact single_sub_of_mem (by decide)

/-- a reference `opsL0b` does not write keeps its contents -/
theorem opsL0b_carry (V : Valuation τ sig (Elt F)) {r : Ref sig .tc} (hr : r ∉ wL0b) :
    after opsL0b V (Proc.devRef .tc r) = V (Proc.devRef .tc r) :=
  after_of_writes_sub opsL0b V opsL0b_writes hr

/-- a reference neither half of the layer writes keeps its contents -/
theorem opsL0_carry (V : Valuation τ sig (Elt F)) {r : Ref sig .tc} (hr : r ∉ wL0a ++ wL0b) :
    after opsL0 V (Proc.devRef .tc r) = V (Proc.devRef .tc r) := by
  show after (opsL0a ++ opsL0b) V (Proc.devRef .tc r) = V (Proc.devRef .tc r)
  rw [after_append opsL0a opsL0b, opsL0b_carry _ (fun h => hr (List.mem_append_right _ h)),
    opsL0a_carry _ (fun h => hr (List.mem_append_left _ h))]

end Carry

/-- layer 0's matrix as the program cuts it out of the stacked matrices: the slice at leading index 0, its unit axis dropped -/
def cutW0 (W : FVec Ideal S5x300x300 .f32) : FVec Ideal S300x300 .f32 :=
  shapeCast S300x300 (extractStridedSlice S1x300x300 ![0, 0, 0] W slices_S5x300x300_S1x300x300_0_0_0) shapeCasts_S1x300x300_S300x300

/-- layer 0's vector as the program cuts it out of the stacked vectors: the slice at leading index 0, its unit axis dropped -/
def cutD0 (b : FVec Ideal S5x300 .f32) : FVec Ideal S300 .f32 :=
  shapeCast S300 (extractStridedSlice S1x300 ![0, 0] b slices_S5x300_S1x300_0_0) shapeCasts_S1x300_S300

theorem cutW0_eq (W : FVec Ideal S5x300x300 .f32) : cutW0 W = GIN.slW 0 W := RefLayer.slW_eq_0 W

theorem cutD0_eq (b : FVec Ideal S5x300 .f32) : cutD0 b = GIN.slD 0 b := RefLayer.slD_eq_0 b

attribute [local irreducible] Host.reduceAdd Host.gather Host.scatterAdd Ideal.matmul Host.divf Host.rsqrt in
set_option maxRecDepth 8192 in
/-- The first half's fold at its last buffer, operation by operation: the aggregate added to the features, the affine map
    with the layer's first matrix and vector, the normalisation by the column statistics with the maximum.  The sums, the
    gather, the scatter, the contraction, the quotient and the inverse root stay folded: the equation never looks inside. -/
theorem half_a0 (V : Valuation τ sig (Elt Ideal)) :
    after (opsL0a (F := Ideal)) V (Proc.devRef .tc main_v46)
      = RefLayer.bn (RefLayer.affine
            (addf (V (Proc.devRef .tc main_arg0)) (RefLayer.agg (V (Proc.devRef .tc main_arg0)) (V (Proc.devRef .tc main_v1)) (V (Proc.devRef .tc main_v3))))
            (cutW0 (V (Proc.devRef .tc main_arg3))) (cutD0 (V (Proc.devRef .tc main_arg4))))
          (cutD0 (V (Proc.devRef .tc main_arg5))) (cutD0 (V (Proc.devRef .tc main_arg6))) := by
  after_results_simp
  rfl

attribute [local irreducible] Host.reduceAdd Host.gather Host.scatterAdd Ideal.matmul Host.divf Host.rsqrt in
set_option maxRecDepth 8192 in
/-- The second half's fold at its last buffer: the affine map with the layer's second matrix and vector, the normalisation
    by the column statistics with the maximum. -/
theorem half_b0 (V : Valuation τ sig (Elt Ideal)) :
    after (opsL0b (F := Ideal)) V (Proc.devRef .tc main_v78)
      = RefLayer.bn (RefLayer.affine (V (Proc.devRef .tc main_v46))
            (cutW0 (V (Proc.devRef .tc main_arg7))) (cutD0 (V (Proc.devRef .tc main_arg8))))
          (cutD0 (V (Proc.devRef .tc main_arg9))) (cutD0 (V (Proc.devRef .tc main_arg10))) := by
  after_results_simp
  rfl

/-- Layer 0: from any contents, the layer's result buffer ends holding the specification's layer of the features it
    started with, aggregated along the two index vectors, with the parameters at index 0. -/
theorem layer_0 (V : Valuation τ sig (Elt Ideal)) :
    after (opsL0 (F := Ideal)) V (Proc.devRef .tc main_v78)
      = GIN.layerR (fun h => RefLayer.agg h (V (Proc.devRef .tc main_v1)) (V (Proc.devRef .tc main_v3)))
          (V (Proc.devRef .tc main_arg0))
          (GIN.slW 0 (V (Proc.devRef .tc main_arg3))) (GIN.slD 0 (V (Proc.devRef .tc main_arg4)))
          (GIN.slD 0 (V (Proc.devRef .tc main_arg5))) (GIN.slD 0 (V (Proc.devRef .tc main_arg6)))
          (GIN.slW 0 (V (Proc.devRef .tc main_arg7))) (GIN.slD 0 (V (Proc.devRef .tc main_arg8)))
          (GIN.slD 0 (V (Proc.devRef .tc main_arg9))) (GIN.slD 0 (V (Proc.devRef .tc main_arg10))) := by
  show after (opsL0a (F := Ideal) ++ opsL0b) V (Proc.devRef .tc main_v78) = _
  rw [after_append opsL0a opsL0b, half_b0, half_a0,
    opsL0a_carry V (r := main_arg7) (by decide), opsL0a_carry V (r := main_arg8) (by decide),
    opsL0a_carry V (r := main_arg9) (by decide), opsL0a_carry V (r := main_arg10) (by decide)]
  simp only [cutW0_eq, cutD0_eq]
  exact RefLayer.core_eq (fun h => RefLayer.agg h (V (Proc.devRef .tc main_v1)) (V (Proc.devRef .tc main_v3))) (V (Proc.devRef .tc main_arg0))
    _ _ _ _ _ _ _ _

end Cert.ReferenceIdeal.RefValue

end
-- ==== Proof.RefValue.L1.lean ====
/-
  Layer 1 of the reference, read off its operations.  The layer's first half adds the neighbour aggregate to the
  features, applies the first affine map, and normalises every column by its batch statistics with the maximum with
  zero; the second half applies the second affine map and normalises again.  The last buffer of each half holds the
  composition of the functions of its operations, which is the reference layer's term over the contents the half
  starts from; the two halves one after the other are the specification's layer, the layer's matrices and vectors
  cut out of the stacked parameters at index 1.  No operation of the layer writes a buffer outside the list of
  those the layer's operations write.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.RefValue.Base

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- the references `opsL1a` writes, in order -/
def wL1a : List (Ref sig .tc) :=
  [ main_c_9, main_v79, main_v80, main_c_10, main_v81, main_v82,
    main_v83, main_v84, main_v85, main_cst_11, main_v86, main_v87,
    main_v88, main_v89, main_v90, main_v91, main_v92, main_v93,
    main_v94, main_v95, main_v96, main_v97, main_v98, main_v99,
    main_v100, main_v101, main_cst_12, main_v102, main_cst_13, main_v103,
    main_v104, main_c_14, main_call4.cst.ref, main_call4.v0.ref, main_call4.v1.ref, main_call4.cst_0.ref,
    main_call4.v2.ref, main_call4.v3.ref, main_call4.v4.ref, main_call4.v5.ref, main_call4.v6.ref, main_call4.v7.ref,
    main_call4.cst_1.ref, main_call4.v8.ref, main_call4.cst_2.ref, main_call4.v9.ref, main_call4.v10.ref, main_call4.v11.ref,
    main_call4.cst_3.ref, main_call4.v12.ref, main_call4.cst_4.ref, main_call4.call0.v0.ref, main_call4.call0.v1.ref, main_call4.call0.v2.ref,
    main_v106, main_v107, main_v108, main_cst_15, main_v109, main_v110,
    main_v111, main_v112, main_v113, main_v114, main_v115, main_v116,
    main_v117, main_v118, main_v119, main_v120, main_call5.cst.ref, main_call5.v0.ref,
    main_call5.v1.ref ]

theorem opsL1a_writes : (opsL1a : List (HloOp τ sig (Elt F))).Forall fun op =>
    op.writes ⊆ (wL1a.map (Proc.devRef (τ := τ) .tc)).toFinset := by
  simp only [opsL1a, List.Forall, nullary_writes, unary_writes, binary_writes, ternary_writes, reshape_writes]
  repeat' apply And.intro
  all_goals exact single_sub_of_mem (by decide)

/-- a reference `opsL1a` does not write keeps its contents -/
theorem opsL1a_carry (V : Valuation τ sig (Elt F)) {r : Ref sig .tc} (hr : r ∉ wL1a) :
    after opsL1a V (Proc.devRef .tc r) = V (Proc.devRef .tc r) :=
  after_of_writes_sub opsL1a V opsL1a_writes hr

/-- the references `opsL1b` writes, in order -/
def wL1b : List (Ref sig .tc) :=
  [ main_v122, main_v123, main_v124, main_v125, main_v126, main_v127,
    main_v128, main_v129, main_v130, main_v131, main_v132, main_v133,
    main_cst_16, main_v134, main_cst_17, main_v135, main_v136, main_c_18,
    main_call6.cst.ref, main_call6.v0.ref, main_call6.v1.ref, main_call6.cst_0.ref, main_call6.v2.ref, main_call6.v3.ref,
    main_call6.v4.ref, main_call6.v5.ref, main_call6.v6.ref, main_call6.v7.ref, main_call6.cst_1.ref, main_call6.v8.ref,
    main_call6.cst_2.ref, main_call6.v9.ref, main_call6.v10.ref, main_call6.v11.ref, main_call6.cst_3.ref, main_call6.v12.ref,
    main_call6.cst_4.ref, main_call6.call0.v0.ref, main_call6.call0.v1.ref, main_call6.call0.v2.ref, main_v138, main_v139,
    main_v140, main_cst_19, main_v141, main_v142, main_v143, main_v144,
    main_v145, main_v146, main_v147, main_v148, main_v149, main_v150,
    main_v151, main_v152, main_call7.cst.ref, main_call7.v0.ref, main_call7.v1.ref ]

theorem opsL1b_writes : (opsL1b : List (HloOp τ sig (Elt F))).Forall fun op =>
    op.writes ⊆ (wL1b.map (Proc.devRef (τ := τ) .tc)).toFinset := by
  simp only [opsL1b, List.Forall, nullary_writes, unary_writes, binary_writes, ternary_writes, reshape_writes]
  repeat' apply And.intro
  all_goals exact single_sub_of_mem (by decide)

/-- a reference `opsL1b` does not write keeps its contents -/
theorem opsL1b_carry (V : Valuation τ sig (Elt F)) {r : Ref sig .tc} (hr : r ∉ wL1b) :
    after opsL1b V (Proc.devRef .tc r) = V (Proc.devRef .tc r) :=
  after_of_writes_sub opsL1b V opsL1b_writes hr

/-- a reference neither half of the layer writes keeps its contents -/
theorem opsL1_carry (V : Valuation τ sig (Elt F)) {r : Ref sig .tc} (hr : r ∉ wL1a ++ wL1b) :
    after opsL1 V (Proc.devRef .tc r) = V (Proc.devRef .tc r) := by
  show after (opsL1a ++ opsL1b) V (Proc.devRef .tc r) = V (Proc.devRef .tc r)
  rw [after_append opsL1a opsL1b, opsL1b_carry _ (fun h => hr (List.mem_append_right _ h)),
    opsL1a_carry _ (fun h => hr (List.mem_append_left _ h))]

end Carry

/-- layer 1's matrix as the program cuts it out of the stacked matrices: the slice at leading index 1, its unit axis dropped -/
def cutW1 (W : FVec Ideal S5x300x300 .f32) : FVec Ideal S300x300 .f32 :=
  shapeCast S300x300 (extractStridedSlice S1x300x300 ![1, 0, 0] W slices_S5x300x300_S1x300x300_1_0_0) shapeCasts_S1x300x300_S300x300

/-- layer 1's vector as the program cuts it out of the stacked vectors: the slice at leading index 1, its unit axis dropped -/
def cutD1 (b : FVec Ideal S5x300 .f32) : FVec Ideal S300 .f32 :=
  shapeCast S300 (extractStridedSlice S1x300 ![1, 0] b slices_S5x300_S1x300_1_0) shapeCasts_S1x300_S300

theorem cutW1_eq (W : FVec Ideal S5x300x300 .f32) : cutW1 W = GIN.slW 1 W := RefLayer.slW_eq_1 W

theorem cutD1_eq (b : FVec Ideal S5x300 .f32) : cutD1 b = GIN.slD 1 b := RefLayer.slD_eq_1 b

attribute [local irreducible] Host.reduceAdd Host.gather Host.scatterAdd Ideal.matmul Host.divf Host.rsqrt in
set_option maxRecDepth 8192 in
/-- The first half's fold at its last buffer, operation by operation: the aggregate added to the features, the affine map
    with the layer's first matrix and vector, the normalisation by the column statistics with the maximum.  The sums, the
    gather, the scatter, the contraction, the quotient and the inverse root stay folded: the equation never looks inside. -/
theorem half_a1 (V : Valuation τ sig (Elt Ideal)) :
    after (opsL1a (F := Ideal)) V (Proc.devRef .tc main_v121)
      = RefLayer.bn (RefLayer.affine
            (addf (V (Proc.devRef .tc main_v78)) (RefLayer.agg (V (Proc.devRef .tc main_v78)) (V (Proc.devRef .tc main_v1)) (V (Proc.devRef .tc main_v3))))
            (cutW1 (V (Proc.devRef .tc main_arg3))) (cutD1 (V (Proc.devRef .tc main_arg4))))
          (cutD1 (V (Proc.devRef .tc main_arg5))) (cutD1 (V (Proc.devRef .tc main_arg6))) := by
  after_results_simp
  rfl

attribute [local irreducible] Host.reduceAdd Host.gather Host.scatterAdd Ideal.matmul Host.divf Host.rsqrt in
set_option maxRecDepth 8192 in
/-- The second half's fold at its last buffer: the affine map with the layer's second matrix and vector, the normalisation
    by the column statistics with the maximum. -/
theorem half_b1 (V : Valuation τ sig (Elt Ideal)) :
    after (opsL1b (F := Ideal)) V (Proc.devRef .tc main_v153)
      = RefLayer.bn (RefLayer.affine (V (Proc.devRef .tc main_v121))
            (cutW1 (V (Proc.devRef .tc main_arg7))) (cutD1 (V (Proc.devRef .tc main_arg8))))
          (cutD1 (V (Proc.devRef .tc main_arg9))) (cutD1 (V (Proc.devRef .tc main_arg10))) := by
  after_results_simp
  rfl

/-- Layer 1: from any contents, the layer's result buffer ends holding the specification's layer of the features it
    started with, aggregated along the two index vectors, with the parameters at index 1. -/
theorem layer_1 (V : Valuation τ sig (Elt Ideal)) :
    after (opsL1 (F := Ideal)) V (Proc.devRef .tc main_v153)
      = GIN.layerR (fun h => RefLayer.agg h (V (Proc.devRef .tc main_v1)) (V (Proc.devRef .tc main_v3)))
          (V (Proc.devRef .tc main_v78))
          (GIN.slW 1 (V (Proc.devRef .tc main_arg3))) (GIN.slD 1 (V (Proc.devRef .tc main_arg4)))
          (GIN.slD 1 (V (Proc.devRef .tc main_arg5))) (GIN.slD 1 (V (Proc.devRef .tc main_arg6)))
          (GIN.slW 1 (V (Proc.devRef .tc main_arg7))) (GIN.slD 1 (V (Proc.devRef .tc main_arg8)))
          (GIN.slD 1 (V (Proc.devRef .tc main_arg9))) (GIN.slD 1 (V (Proc.devRef .tc main_arg10))) := by
  show after (opsL1a (F := Ideal) ++ opsL1b) V (Proc.devRef .tc main_v153) = _
  rw [after_append opsL1a opsL1b, half_b1, half_a1,
    opsL1a_carry V (r := main_arg7) (by decide), opsL1a_carry V (r := main_arg8) (by decide),
    opsL1a_carry V (r := main_arg9) (by decide), opsL1a_carry V (r := main_arg10) (by decide)]
  simp only [cutW1_eq, cutD1_eq]
  exact RefLayer.core_eq (fun h => RefLayer.agg h (V (Proc.devRef .tc main_v1)) (V (Proc.devRef .tc main_v3))) (V (Proc.devRef .tc main_v78))
    _ _ _ _ _ _ _ _

end Cert.ReferenceIdeal.RefValue

end
-- ==== Proof.RefValue.L2.lean ====
/-
  Layer 2 of the reference, read off its operations.  The layer's first half adds the neighbour aggregate to the
  features, applies the first affine map, and normalises every column by its batch statistics with the maximum with
  zero; the second half applies the second affine map and normalises again.  The last buffer of each half holds the
  composition of the functions of its operations, which is the reference layer's term over the contents the half
  starts from; the two halves one after the other are the specification's layer, the layer's matrices and vectors
  cut out of the stacked parameters at index 2.  No operation of the layer writes a buffer outside the list of
  those the layer's operations write.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.RefValue.Base

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- the references `opsL2a` writes, in order -/
def wL2a : List (Ref sig .tc) :=
  [ main_c_20, main_v154, main_v155, main_c_21, main_v156, main_v157,
    main_v158, main_v159, main_v160, main_cst_22, main_v161, main_v162,
    main_v163, main_v164, main_v165, main_v166, main_v167, main_v168,
    main_v169, main_v170, main_v171, main_v172, main_v173, main_v174,
    main_v175, main_v176, main_cst_23, main_v177, main_cst_24, main_v178,
    main_v179, main_c_25, main_call8.cst.ref, main_call8.v0.ref, main_call8.v1.ref, main_call8.cst_0.ref,
    main_call8.v2.ref, main_call8.v3.ref, main_call8.v4.ref, main_call8.v5.ref, main_call8.v6.ref, main_call8.v7.ref,
    main_call8.cst_1.ref, main_call8.v8.ref, main_call8.cst_2.ref, main_call8.v9.ref, main_call8.v10.ref, main_call8.v11.ref,
    main_call8.cst_3.ref, main_call8.v12.ref, main_call8.cst_4.ref, main_call8.call0.v0.ref, main_call8.call0.v1.ref, main_call8.call0.v2.ref,
    main_v181, main_v182, main_v183, main_cst_26, main_v184, main_v185,
    main_v186, main_v187, main_v188, main_v189, main_v190, main_v191,
    main_v192, main_v193, main_v194, main_v195, main_call9.cst.ref, main_call9.v0.ref,
    main_call9.v1.ref ]

theorem opsL2a_writes : (opsL2a : List (HloOp τ sig (Elt F))).Forall fun op =>
    op.writes ⊆ (wL2a.map (Proc.devRef (τ := τ) .tc)).toFinset := by
  simp only [opsL2a, List.Forall, nullary_writes, unary_writes, binary_writes, ternary_writes, reshape_writes]
  repeat' apply And.intro
  all_goals exact single_sub_of_mem (by decide)

/-- a reference `opsL2a` does not write keeps its contents -/
theorem opsL2a_carry (V : Valuation τ sig (Elt F)) {r : Ref sig .tc} (hr : r ∉ wL2a) :
    after opsL2a V (Proc.devRef .tc r) = V (Proc.devRef .tc r) :=
  after_of_writes_sub opsL2a V opsL2a_writes hr

/-- the references `opsL2b` writes, in order -/
def wL2b : List (Ref sig .tc) :=
  [ main_v197, main_v198, main_v199, main_v200, main_v201, main_v202,
    main_v203, main_v204, main_v205, main_v206, main_v207, main_v208,
    main_cst_27, main_v209, main_cst_28, main_v210, main_v211, main_c_29,
    main_call10.cst.ref, main_call10.v0.ref, main_call10.v1.ref, main_call10.cst_0.ref, main_call10.v2.ref, main_call10.v3.ref,
    main_call10.v4.ref, main_call10.v5.ref, main_call10.v6.ref, main_call10.v7.ref, main_call10.cst_1.ref, main_call10.v8.ref,
    main_call10.cst_2.ref, main_call10.v9.ref, main_call10.v10.ref, main_call10.v11.ref, main_call10.cst_3.ref, main_call10.v12.ref,
    main_call10.cst_4.ref, main_call10.call0.v0.ref, main_call10.call0.v1.ref, main_call10.call0.v2.ref, main_v213, main_v214,
    main_v215, main_cst_30, main_v216, main_v217, main_v218, main_v219,
    main_v220, main_v221, main_v222, main_v223, main_v224, main_v225,
    main_v226, main_v227, main_call11.cst.ref, main_call11.v0.ref, main_call11.v1.ref ]

theorem opsL2b_writes : (opsL2b : List (HloOp τ sig (Elt F))).Forall fun op =>
    op.writes ⊆ (wL2b.map (Proc.devRef (τ := τ) .tc)).toFinset := by
  simp only [opsL2b, List.Forall, nullary_writes, unary_writes, binary_writes, ternary_writes, reshape_writes]
  repeat' apply And.intro
  all_goals exact single_sub_of_mem (by decide)

/-- a reference `opsL2b` does not write keeps its contents -/
theorem opsL2b_carry (V : Valuation τ sig (Elt F)) {r : Ref sig .tc} (hr : r ∉ wL2b) :
    after opsL2b V (Proc.devRef .tc r) = V (Proc.devRef .tc r) :=
  after_of_writes_sub opsL2b V opsL2b_writes hr

/-- a reference neither half of the layer writes keeps its contents -/
theorem opsL2_carry (V : Valuation τ sig (Elt F)) {r : Ref sig .tc} (hr : r ∉ wL2a ++ wL2b) :
    after opsL2 V (Proc.devRef .tc r) = V (Proc.devRef .tc r) := by
  show after (opsL2a ++ opsL2b) V (Proc.devRef .tc r) = V (Proc.devRef .tc r)
  rw [after_append opsL2a opsL2b, opsL2b_carry _ (fun h => hr (List.mem_append_right _ h)),
    opsL2a_carry _ (fun h => hr (List.mem_append_left _ h))]

end Carry

/-- layer 2's matrix as the program cuts it out of the stacked matrices: the slice at leading index 2, its unit axis dropped -/
def cutW2 (W : FVec Ideal S5x300x300 .f32) : FVec Ideal S300x300 .f32 :=
  shapeCast S300x300 (extractStridedSlice S1x300x300 ![2, 0, 0] W slices_S5x300x300_S1x300x300_2_0_0) shapeCasts_S1x300x300_S300x300

/-- layer 2's vector as the program cuts it out of the stacked vectors: the slice at leading index 2, its unit axis dropped -/
def cutD2 (b : FVec Ideal S5x300 .f32) : FVec Ideal S300 .f32 :=
  shapeCast S300 (extractStridedSlice S1x300 ![2, 0] b slices_S5x300_S1x300_2_0) shapeCasts_S1x300_S300

theorem cutW2_eq (W : FVec Ideal S5x300x300 .f32) : cutW2 W = GIN.slW 2 W := RefLayer.slW_eq_2 W

theorem cutD2_eq (b : FVec Ideal S5x300 .f32) : cutD2 b = GIN.slD 2 b := RefLayer.slD_eq_2 b

attribute [local irreducible] Host.reduceAdd Host.gather Host.scatterAdd Ideal.matmul Host.divf Host.rsqrt in
set_option maxRecDepth 8192 in
/-- The first half's fold at its last buffer, operation by operation: the aggregate added to the features, the affine map
    with the layer's first matrix and vector, the normalisation by the column statistics with the maximum.  The sums, the
    gather, the scatter, the contraction, the quotient and the inverse root stay folded: the equation never looks inside. -/
theorem half_a2 (V : Valuation τ sig (Elt Ideal)) :
    after (opsL2a (F := Ideal)) V (Proc.devRef .tc main_v196)
      = RefLayer.bn (RefLayer.affine
            (addf (V (Proc.devRef .tc main_v153)) (RefLayer.agg (V (Proc.devRef .tc main_v153)) (V (Proc.devRef .tc main_v1)) (V (Proc.devRef .tc main_v3))))
            (cutW2 (V (Proc.devRef .tc main_arg3))) (cutD2 (V (Proc.devRef .tc main_arg4))))
          (cutD2 (V (Proc.devRef .tc main_arg5))) (cutD2 (V (Proc.devRef .tc main_arg6))) := by
  after_results_simp
  rfl

attribute [local irreducible] Host.reduceAdd Host.gather Host.scatterAdd Ideal.matmul Host.divf Host.rsqrt in
set_option maxRecDepth 8192 in
/-- The second half's fold at its last buffer: the affine map with the layer's second matrix and vector, the normalisation
    by the column statistics with the maximum. -/
theorem half_b2 (V : Valuation τ sig (Elt Ideal)) :
    after (opsL2b (F := Ideal)) V (Proc.devRef .tc main_v228)
      = RefLayer.bn (RefLayer.affine (V (Proc.devRef .tc main_v196))
            (cutW2 (V (Proc.devRef .tc main_arg7))) (cutD2 (V (Proc.devRef .tc main_arg8))))
          (cutD2 (V (Proc.devRef .tc main_arg9))) (cutD2 (V (Proc.devRef .tc main_arg10))) := by
  after_results_simp
  rfl

/-- Layer 2: from any contents, the layer's result buffer ends holding the specification's layer of the features it
    started with, aggregated along the two index vectors, with the parameters at index 2. -/
theorem layer_2 (V : Valuation τ sig (Elt Ideal)) :
    after (opsL2 (F := Ideal)) V (Proc.devRef .tc main_v228)
      = GIN.layerR (fun h => RefLayer.agg h (V (Proc.devRef .tc main_v1)) (V (Proc.devRef .tc main_v3)))
          (V (Proc.devRef .tc main_v153))
          (GIN.slW 2 (V (Proc.devRef .tc main_arg3))) (GIN.slD 2 (V (Proc.devRef .tc main_arg4)))
          (GIN.slD 2 (V (Proc.devRef .tc main_arg5))) (GIN.slD 2 (V (Proc.devRef .tc main_arg6)))
          (GIN.slW 2 (V (Proc.devRef .tc main_arg7))) (GIN.slD 2 (V (Proc.devRef .tc main_arg8)))
          (GIN.slD 2 (V (Proc.devRef .tc main_arg9))) (GIN.slD 2 (V (Proc.devRef .tc main_arg10))) := by
  show after (opsL2a (F := Ideal) ++ opsL2b) V (Proc.devRef .tc main_v228) = _
  rw [after_append opsL2a opsL2b, half_b2, half_a2,
    opsL2a_carry V (r := main_arg7) (by decide), opsL2a_carry V (r := main_arg8) (by decide),
    opsL2a_carry V (r := main_arg9) (by decide), opsL2a_carry V (r := main_arg10) (by decide)]
  simp only [cutW2_eq, cutD2_eq]
  exact RefLayer.core_eq (fun h => RefLayer.agg h (V (Proc.devRef .tc main_v1)) (V (Proc.devRef .tc main_v3))) (V (Proc.devRef .tc main_v153))
    _ _ _ _ _ _ _ _

end Cert.ReferenceIdeal.RefValue

end
-- ==== Proof.RefValue.L3.lean ====
/-
  Layer 3 of the reference, read off its operations.  The layer's first half adds the neighbour aggregate to the
  features, applies the first affine map, and normalises every column by its batch statistics with the maximum with
  zero; the second half applies the second affine map and normalises again.  The last buffer of each half holds the
  composition of the functions of its operations, which is the reference layer's term over the contents the half
  starts from; the two halves one after the other are the specification's layer, the layer's matrices and vectors
  cut out of the stacked parameters at index 3.  No operation of the layer writes a buffer outside the list of
  those the layer's operations write.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.RefValue.Base

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- the references `opsL3a` writes, in order -/
def wL3a : List (Ref sig .tc) :=
  [ main_c_31, main_v229, main_v230, main_c_32, main_v231, main_v232,
    main_v233, main_v234, main_v235, main_cst_33, main_v236, main_v237,
    main_v238, main_v239, main_v240, main_v241, main_v242, main_v243,
    main_v244, main_v245, main_v246, main_v247, main_v248, main_v249,
    main_v250, main_v251, main_cst_34, main_v252, main_cst_35, main_v253,
    main_v254, main_c_36, main_call12.cst.ref, main_call12.v0.ref, main_call12.v1.ref, main_call12.cst_0.ref,
    main_call12.v2.ref, main_call12.v3.ref, main_call12.v4.ref, main_call12.v5.ref, main_call12.v6.ref, main_call12.v7.ref,
    main_call12.cst_1.ref, main_call12.v8.ref, main_call12.cst_2.ref, main_call12.v9.ref, main_call12.v10.ref, main_call12.v11.ref,
    main_call12.cst_3.ref, main_call12.v12.ref, main_call12.cst_4.ref, main_call12.call0.v0.ref, main_call12.call0.v1.ref, main_call12.call0.v2.ref,
    main_v256, main_v257, main_v258, main_cst_37, main_v259, main_v260,
    main_v261, main_v262, main_v263, main_v264, main_v265, main_v266,
    main_v267, main_v268, main_v269, main_v270, main_call13.cst.ref, main_call13.v0.ref,
    main_call13.v1.ref ]

theorem opsL3a_writes : (opsL3a : List (HloOp τ sig (Elt F))).Forall fun op =>
    op.writes ⊆ (wL3a.map (Proc.devRef (τ := τ) .tc)).toFinset := by
  simp only [opsL3a, List.Forall, nullary_writes, unary_writes, binary_writes, ternary_writes, reshape_writes]
  repeat' apply And.intro
  all_goals exact single_sub_of_mem (by decide)

/-- a reference `opsL3a` does not write keeps its contents -/
theorem opsL3a_carry (V : Valuation τ sig (Elt F)) {r : Ref sig .tc} (hr : r ∉ wL3a) :
    after opsL3a V (Proc.devRef .tc r) = V (Proc.devRef .tc r) :=
  after_of_writes_sub opsL3a V opsL3a_writes hr

/-- the references `opsL3b` writes, in order -/
def wL3b : List (Ref sig .tc) :=
  [ main_v272, main_v273, main_v274, main_v275, main_v276, main_v277,
    main_v278, main_v279, main_v280, main_v281, main_v282, main_v283,
    main_cst_38, main_v284, main_cst_39, main_v285, main_v286, main_c_40,
    main_call14.cst.ref, main_call14.v0.ref, main_call14.v1.ref, main_call14.cst_0.ref, main_call14.v2.ref, main_call14.v3.ref,
    main_call14.v4.ref, main_call14.v5.ref, main_call14.v6.ref, main_call14.v7.ref, main_call14.cst_1.ref, main_call14.v8.ref,
    main_call14.cst_2.ref, main_call14.v9.ref, main_call14.v10.ref, main_call14.v11.ref, main_call14.cst_3.ref, main_call14.v12.ref,
    main_call14.cst_4.ref, main_call14.call0.v0.ref, main_call14.call0.v1.ref, main_call14.call0.v2.ref, main_v288, main_v289,
    main_v290, main_cst_41, main_v291, main_v292, main_v293, main_v294,
    main_v295, main_v296, main_v297, main_v298, main_v299, main_v300,
    main_v301, main_v302, main_call15.cst.ref, main_call15.v0.ref, main_call15.v1.ref ]

theorem opsL3b_writes : (opsL3b : List (HloOp τ sig (Elt F))).Forall fun op =>
    op.writes ⊆ (wL3b.map (Proc.devRef (τ := τ) .tc)).toFinset := by
  simp only [opsL3b, List.Forall, nullary_writes, unary_writes, binary_writes, ternary_writes, reshape_writes]
  repeat' apply And.intro
  all_goals exact single_sub_of_mem (by decide)

/-- a reference `opsL3b` does not write keeps its contents -/
theorem opsL3b_carry (V : Valuation τ sig (Elt F)) {r : Ref sig .tc} (hr : r ∉ wL3b) :
    after opsL3b V (Proc.devRef .tc r) = V (Proc.devRef .tc r) :=
  after_of_writes_sub opsL3b V opsL3b_writes hr

/-- a reference neither half of the layer writes keeps its contents -/
theorem opsL3_carry (V : Valuation τ sig (Elt F)) {r : Ref sig .tc} (hr : r ∉ wL3a ++ wL3b) :
    after opsL3 V (Proc.devRef .tc r) = V (Proc.devRef .tc r) := by
  show after (opsL3a ++ opsL3b) V (Proc.devRef .tc r) = V (Proc.devRef .tc r)
  rw [after_append opsL3a opsL3b, opsL3b_carry _ (fun h => hr (List.mem_append_right _ h)),
    opsL3a_carry _ (fun h => hr (List.mem_append_left _ h))]

end Carry

/-- layer 3's matrix as the program cuts it out of the stacked matrices: the slice at leading index 3, its unit axis dropped -/
def cutW3 (W : FVec Ideal S5x300x300 .f32) : FVec Ideal S300x300 .f32 :=
  shapeCast S300x300 (extractStridedSlice S1x300x300 ![3, 0, 0] W slices_S5x300x300_S1x300x300_3_0_0) shapeCasts_S1x300x300_S300x300

/-- layer 3's vector as the program cuts it out of the stacked vectors: the slice at leading index 3, its unit axis dropped -/
def cutD3 (b : FVec Ideal S5x300 .f32) : FVec Ideal S300 .f32 :=
  shapeCast S300 (extractStridedSlice S1x300 ![3, 0] b slices_S5x300_S1x300_3_0) shapeCasts_S1x300_S300

theorem cutW3_eq (W : FVec Ideal S5x300x300 .f32) : cutW3 W = GIN.slW 3 W := RefLayer.slW_eq_3 W

theorem cutD3_eq (b : FVec Ideal S5x300 .f32) : cutD3 b = GIN.slD 3 b := RefLayer.slD_eq_3 b

attribute [local irreducible] Host.reduceAdd Host.gather Host.scatterAdd Ideal.matmul Host.divf Host.rsqrt in
set_option maxRecDepth 8192 in
/-- The first half's fold at its last buffer, operation by operation: the aggregate added to the features, the affine map
    with the layer's first matrix and vector, the normalisation by the column statistics with the maximum.  The sums, the
    gather, the scatter, the contraction, the quotient and the inverse root stay folded: the equation never looks inside. -/
theorem half_a3 (V : Valuation τ sig (Elt Ideal)) :
    after (opsL3a (F := Ideal)) V (Proc.devRef .tc main_v271)
      = RefLayer.bn (RefLayer.affine
            (addf (V (Proc.devRef .tc main_v228)) (RefLayer.agg (V (Proc.devRef .tc main_v228)) (V (Proc.devRef .tc main_v1)) (V (Proc.devRef .tc main_v3))))
            (cutW3 (V (Proc.devRef .tc main_arg3))) (cutD3 (V (Proc.devRef .tc main_arg4))))
          (cutD3 (V (Proc.devRef .tc main_arg5))) (cutD3 (V (Proc.devRef .tc main_arg6))) := by
  after_results_simp
  rfl

attribute [local irreducible] Host.reduceAdd Host.gather Host.scatterAdd Ideal.matmul Host.divf Host.rsqrt in
set_option maxRecDepth 8192 in
/-- The second half's fold at its last buffer: the affine map with the layer's second matrix and vector, the normalisation
    by the column statistics with the maximum. -/
theorem half_b3 (V : Valuation τ sig (Elt Ideal)) :
    after (opsL3b (F := Ideal)) V (Proc.devRef .tc main_v303)
      = RefLayer.bn (RefLayer.affine (V (Proc.devRef .tc main_v271))
            (cutW3 (V (Proc.devRef .tc main_arg7))) (cutD3 (V (Proc.devRef .tc main_arg8))))
          (cutD3 (V (Proc.devRef .tc main_arg9))) (cutD3 (V (Proc.devRef .tc main_arg10))) := by
  after_results_simp
  rfl

/-- Layer 3: from any contents, the layer's result buffer ends holding the specification's layer of the features it
    started with, aggregated along the two index vectors, with the parameters at index 3. -/
theorem layer_3 (V : Valuation τ sig (Elt Ideal)) :
    after (opsL3 (F := Ideal)) V (Proc.devRef .tc main_v303)
      = GIN.layerR (fun h => RefLayer.agg h (V (Proc.devRef .tc main_v1)) (V (Proc.devRef .tc main_v3)))
          (V (Proc.devRef .tc main_v228))
          (GIN.slW 3 (V (Proc.devRef .tc main_arg3))) (GIN.slD 3 (V (Proc.devRef .tc main_arg4)))
          (GIN.slD 3 (V (Proc.devRef .tc main_arg5))) (GIN.slD 3 (V (Proc.devRef .tc main_arg6)))
          (GIN.slW 3 (V (Proc.devRef .tc main_arg7))) (GIN.slD 3 (V (Proc.devRef .tc main_arg8)))
          (GIN.slD 3 (V (Proc.devRef .tc main_arg9))) (GIN.slD 3 (V (Proc.devRef .tc main_arg10))) := by
  show after (opsL3a (F := Ideal) ++ opsL3b) V (Proc.devRef .tc main_v303) = _
  rw [after_append opsL3a opsL3b, half_b3, half_a3,
    opsL3a_carry V (r := main_arg7) (by decide), opsL3a_carry V (r := main_arg8) (by decide),
    opsL3a_carry V (r := main_arg9) (by decide), opsL3a_carry V (r := main_arg10) (by decide)]
  simp only [cutW3_eq, cutD3_eq]
  exact RefLayer.core_eq (fun h => RefLayer.agg h (V (Proc.devRef .tc main_v1)) (V (Proc.devRef .tc main_v3))) (V (Proc.devRef .tc main_v228))
    _ _ _ _ _ _ _ _

end Cert.ReferenceIdeal.RefValue

end
-- ==== Proof.RefValue.L4.lean ====
/-
  Layer 4 of the reference, read off its operations.  The layer's first half adds the neighbour aggregate to the
  features, applies the first affine map, and normalises every column by its batch statistics with the maximum with
  zero; the second half applies the second affine map and normalises again.  The last buffer of each half holds the
  composition of the functions of its operations, which is the reference layer's term over the contents the half
  starts from; the two halves one after the other are the specification's layer, the layer's matrices and vectors
  cut out of the stacked parameters at index 4.  No operation of the layer writes a buffer outside the list of
  those the layer's operations write.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.RefValue.Base

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

section Carry

variable {F : FTy → Type} [FloatOps F]

/-- the references `opsL4a` writes, in order -/
def wL4a : List (Ref sig .tc) :=
  [ main_c_42, main_v304, main_v305, main_c_43, main_v306, main_v307,
    main_v308, main_v309, main_v310, main_cst_44, main_v311, main_v312,
    main_v313, main_v314, main_v315, main_v316, main_v317, main_v318,
    main_v319, main_v320, main_v321, main_v322, main_v323, main_v324,
    main_v325, main_v326, main_cst_45, main_v327, main_cst_46, main_v328,
    main_v329, main_c_47, main_call16.cst.ref, main_call16.v0.ref, main_call16.v1.ref, main_call16.cst_0.ref,
    main_call16.v2.ref, main_call16.v3.ref, main_call16.v4.ref, main_call16.v5.ref, main_call16.v6.ref, main_call16.v7.ref,
    main_call16.cst_1.ref, main_call16.v8.ref, main_call16.cst_2.ref, main_call16.v9.ref, main_call16.v10.ref, main_call16.v11.ref,
    main_call16.cst_3.ref, main_call16.v12.ref, main_call16.cst_4.ref, main_call16.call0.v0.ref, main_call16.call0.v1.ref, main_call16.call0.v2.ref,
    main_v331, main_v332, main_v333, main_cst_48, main_v334, main_v335,
    main_v336, main_v337, main_v338, main_v339, main_v340, main_v341,
    main_v342, main_v343, main_v344, main_v345, main_call17.cst.ref, main_call17.v0.ref,
    main_call17.v1.ref ]

theorem opsL4a_writes : (opsL4a : List (HloOp τ sig (Elt F))).Forall fun op =>
    op.writes ⊆ (wL4a.map (Proc.devRef (τ := τ) .tc)).toFinset := by
  simp only [opsL4a, List.Forall, nullary_writes, unary_writes, binary_writes, ternary_writes, reshape_writes]
  repeat' apply And.intro
  all_goals exact single_sub_of_mem (by decide)

/-- a reference `opsL4a` does not write keeps its contents -/
theorem opsL4a_carry (V : Valuation τ sig (Elt F)) {r : Ref sig .tc} (hr : r ∉ wL4a) :
    after opsL4a V (Proc.devRef .tc r) = V (Proc.devRef .tc r) :=
  after_of_writes_sub opsL4a V opsL4a_writes hr

/-- the references `opsL4b` writes, in order -/
def wL4b : List (Ref sig .tc) :=
  [ main_v347, main_v348, main_v349, main_v350, main_v351, main_v352,
    main_v353, main_v354, main_v355, main_v356, main_v357, main_v358,
    main_cst_49, main_v359, main_cst_50, main_v360, main_v361, main_c_51,
    main_call18.cst.ref, main_call18.v0.ref, main_call18.v1.ref, main_call18.cst_0.ref, main_call18.v2.ref, main_call18.v3.ref,
    main_call18.v4.ref, main_call18.v5.ref, main_call18.v6.ref, main_call18.v7.ref, main_call18.cst_1.ref, main_call18.v8.ref,
    main_call18.cst_2.ref, main_call18.v9.ref, main_call18.v10.ref, main_call18.v11.ref, main_call18.cst_3.ref, main_call18.v12.ref,
    main_call18.cst_4.ref, main_call18.call0.v0.ref, main_call18.call0.v1.ref, main_call18.call0.v2.ref, main_v363, main_v364,
    main_v365, main_cst_52, main_v366, main_v367, main_v368, main_v369,
    main_v370, main_v371, main_v372, main_v373, main_v374, main_v375,
    main_v376, main_v377, main_call19.cst.ref, main_call19.v0.ref, main_call19.v1.ref ]

theorem opsL4b_writes : (opsL4b : List (HloOp τ sig (Elt F))).Forall fun op =>
    op.writes ⊆ (wL4b.map (Proc.devRef (τ := τ) .tc)).toFinset := by
  simp only [opsL4b, List.Forall, nullary_writes, unary_writes, binary_writes, ternary_writes, reshape_writes]
  repeat' apply And.intro
  all_goals exact single_sub_of_mem (by decide)

/-- a reference `opsL4b` does not write keeps its contents -/
theorem opsL4b_carry (V : Valuation τ sig (Elt F)) {r : Ref sig .tc} (hr : r ∉ wL4b) :
    after opsL4b V (Proc.devRef .tc r) = V (Proc.devRef .tc r) :=
  after_of_writes_sub opsL4b V opsL4b_writes hr

/-- a reference neither half of the layer writes keeps its contents -/
theorem opsL4_carry (V : Valuation τ sig (Elt F)) {r : Ref sig .tc} (hr : r ∉ wL4a ++ wL4b) :
    after opsL4 V (Proc.devRef .tc r) = V (Proc.devRef .tc r) := by
  show after (opsL4a ++ opsL4b) V (Proc.devRef .tc r) = V (Proc.devRef .tc r)
  rw [after_append opsL4a opsL4b, opsL4b_carry _ (fun h => hr (List.mem_append_right _ h)),
    opsL4a_carry _ (fun h => hr (List.mem_append_left _ h))]

end Carry

/-- layer 4's matrix as the program cuts it out of the stacked matrices: the slice at leading index 4, its unit axis dropped -/
def cutW4 (W : FVec Ideal S5x300x300 .f32) : FVec Ideal S300x300 .f32 :=
  shapeCast S300x300 (extractStridedSlice S1x300x300 ![4, 0, 0] W slices_S5x300x300_S1x300x300_4_0_0) shapeCasts_S1x300x300_S300x300

/-- layer 4's vector as the program cuts it out of the stacked vectors: the slice at leading index 4, its unit axis dropped -/
def cutD4 (b : FVec Ideal S5x300 .f32) : FVec Ideal S300 .f32 :=
  shapeCast S300 (extractStridedSlice S1x300 ![4, 0] b slices_S5x300_S1x300_4_0) shapeCasts_S1x300_S300

theorem cutW4_eq (W : FVec Ideal S5x300x300 .f32) : cutW4 W = GIN.slW 4 W := RefLayer.slW_eq_4 W

theorem cutD4_eq (b : FVec Ideal S5x300 .f32) : cutD4 b = GIN.slD 4 b := RefLayer.slD_eq_4 b

attribute [local irreducible] Host.reduceAdd Host.gather Host.scatterAdd Ideal.matmul Host.divf Host.rsqrt in
set_option maxRecDepth 8192 in
/-- The first half's fold at its last buffer, operation by operation: the aggregate added to the features, the affine map
    with the layer's first matrix and vector, the normalisation by the column statistics with the maximum.  The sums, the
    gather, the scatter, the contraction, the quotient and the inverse root stay folded: the equation never looks inside. -/
theorem half_a4 (V : Valuation τ sig (Elt Ideal)) :
    after (opsL4a (F := Ideal)) V (Proc.devRef .tc main_v346)
      = RefLayer.bn (RefLayer.affine
            (addf (V (Proc.devRef .tc main_v303)) (RefLayer.agg (V (Proc.devRef .tc main_v303)) (V (Proc.devRef .tc main_v1)) (V (Proc.devRef .tc main_v3))))
            (cutW4 (V (Proc.devRef .tc main_arg3))) (cutD4 (V (Proc.devRef .tc main_arg4))))
          (cutD4 (V (Proc.devRef .tc main_arg5))) (cutD4 (V (Proc.devRef .tc main_arg6))) := by
  after_results_simp
  rfl

attribute [local irreducible] Host.reduceAdd Host.gather Host.scatterAdd Ideal.matmul Host.divf Host.rsqrt in
set_option maxRecDepth 8192 in
/-- The second half's fold at its last buffer: the affine map with the layer's second matrix and vector, the normalisation
    by the column statistics with the maximum. -/
theorem half_b4 (V : Valuation τ sig (Elt Ideal)) :
    after (opsL4b (F := Ideal)) V (Proc.devRef .tc main_v378)
      = RefLayer.bn (RefLayer.affine (V (Proc.devRef .tc main_v346))
            (cutW4 (V (Proc.devRef .tc main_arg7))) (cutD4 (V (Proc.devRef .tc main_arg8))))
          (cutD4 (V (Proc.devRef .tc main_arg9))) (cutD4 (V (Proc.devRef .tc main_arg10))) := by
  after_results_simp
  rfl

/-- Layer 4: from any contents, the layer's result buffer ends holding the specification's layer of the features it
    started with, aggregated along the two index vectors, with the parameters at index 4. -/
theorem layer_4 (V : Valuation τ sig (Elt Ideal)) :
    after (opsL4 (F := Ideal)) V (Proc.devRef .tc main_v378)
      = GIN.layerR (fun h => RefLayer.agg h (V (Proc.devRef .tc main_v1)) (V (Proc.devRef .tc main_v3)))
          (V (Proc.devRef .tc main_v303))
          (GIN.slW 4 (V (Proc.devRef .tc main_arg3))) (GIN.slD 4 (V (Proc.devRef .tc main_arg4)))
          (GIN.slD 4 (V (Proc.devRef .tc main_arg5))) (GIN.slD 4 (V (Proc.devRef .tc main_arg6)))
          (GIN.slW 4 (V (Proc.devRef .tc main_arg7))) (GIN.slD 4 (V (Proc.devRef .tc main_arg8)))
          (GIN.slD 4 (V (Proc.devRef .tc main_arg9))) (GIN.slD 4 (V (Proc.devRef .tc main_arg10))) := by
  show after (opsL4a (F := Ideal) ++ opsL4b) V (Proc.devRef .tc main_v378) = _
  rw [after_append opsL4a opsL4b, half_b4, half_a4,
    opsL4a_carry V (r := main_arg7) (by decide), opsL4a_carry V (r := main_arg8) (by decide),
    opsL4a_carry V (r := main_arg9) (by decide), opsL4a_carry V (r := main_arg10) (by decide)]
  simp only [cutW4_eq, cutD4_eq]
  exact RefLayer.core_eq (fun h => RefLayer.agg h (V (Proc.devRef .tc main_v1)) (V (Proc.devRef .tc main_v3))) (V (Proc.devRef .tc main_v303))
    _ _ _ _ _ _ _ _

end Cert.ReferenceIdeal.RefValue

end
-- ==== Proof.RefValue.lean ====
/-
  The reference's result as a function of its arguments.  Its operations are, in order: the cut of the edge array's
  two rows, five layers, the readout.  No layer writes an argument or an index vector, and none writes an earlier
  layer's result; so each layer starts from the arguments as launched, the index vectors as cut, and the features the
  layer before it left, and ends with the specification's features one layer on.  The readout reads the node features
  and the five layers' features, and the result buffer ends holding the readout's term of them.  The arguments end as
  launched.
-/
import proofs.«144515_j12352325943894_2_alg».proof.Proof.RefRun.Ops
import proofs.«144515_j12352325943894_2_alg».proof.Proof.Spec
import proofs.«144515_j12352325943894_2_alg».proof.Proof.RefLayer
import proofs.«144515_j12352325943894_2_alg».proof.Proof.ReadoutR
import proofs.«144515_j12352325943894_2_alg».proof.Proof.RefValue.Base
import proofs.«144515_j12352325943894_2_alg».proof.Proof.RefValue.L0
import proofs.«144515_j12352325943894_2_alg».proof.Proof.RefValue.L1
import proofs.«144515_j12352325943894_2_alg».proof.Proof.RefValue.L2
import proofs.«144515_j12352325943894_2_alg».proof.Proof.RefValue.L3
import proofs.«144515_j12352325943894_2_alg».proof.Proof.RefValue.L4

noncomputable section

namespace Cert.ReferenceIdeal.RefValue

open Cert.ReferenceIdeal Cert.ReferenceIdeal.Facts₀ Cert.ReferenceIdeal.Facts Cert.ReferenceIdeal.Run
open Idealize.ShloMosaic Idealize.ShloMosaic.TcCoe Idealize.SL.Sem Idealize.ShloMosaic.StableHlo

variable [Facts]

/-- the features after `l` layers of the specification's reference layer, aggregated along the edge array the contents hold,
    from the node features and the stacked parameters the contents hold -/
abbrev feat (V : Valuation τ sig (Elt Ideal)) (l : Nat) (hl : l ≤ 5) : GIN.Mat :=
  GIN.feats (GIN.layerR (fun h => RefLayer.agg h (RefLayer.src (V (Proc.devRef .tc main_arg1))) (RefLayer.dst (V (Proc.devRef .tc main_arg1)))))
    (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) l hl

/-- contents `W` that hold the arguments as `V` does, and in the two index vectors the rows of `V`'s edge array -/
structure Keeps (V W : Valuation τ sig (Elt Ideal)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  a12 : W (Proc.devRef .tc main_arg12) = V (Proc.devRef .tc main_arg12)
  v1 : W (Proc.devRef .tc main_v1) = RefLayer.src (V (Proc.devRef .tc main_arg1))
  v3 : W (Proc.devRef .tc main_v3) = RefLayer.dst (V (Proc.devRef .tc main_arg1))

/-- the first four operations write no argument, and cut the two rows -/
theorem keeps_pre (V : Valuation τ sig (Elt Ideal)) : Keeps V (after (opsPre (F := Ideal)) V) :=
  ⟨opsPre_carry V (r := main_arg0) (by decide),
    opsPre_carry V (r := main_arg1) (by decide),
    opsPre_carry V (r := main_arg2) (by decide),
    opsPre_carry V (r := main_arg3) (by decide),
    opsPre_carry V (r := main_arg4) (by decide),
    opsPre_carry V (r := main_arg5) (by decide),
    opsPre_carry V (r := main_arg6) (by decide),
    opsPre_carry V (r := main_arg7) (by decide),
    opsPre_carry V (r := main_arg8) (by decide),
    opsPre_carry V (r := main_arg9) (by decide),
    opsPre_carry V (r := main_arg10) (by decide),
    opsPre_carry V (r := main_arg11) (by decide),
    opsPre_carry V (r := main_arg12) (by decide),
    pre_v1 V, pre_v3 V⟩

/-- layer 0 writes none of them -/
theorem keeps_L0 {V W : Valuation τ sig (Elt Ideal)} (h : Keeps V W) : Keeps V (after (opsL0 (F := Ideal)) W) :=
  ⟨(opsL0_carry W (r := main_arg0) (by decide)).trans h.a0,
    (opsL0_carry W (r := main_arg1) (by decide)).trans h.a1,
    (opsL0_carry W (r := main_arg2) (by decide)).trans h.a2,
    (opsL0_carry W (r := main_arg3) (by decide)).trans h.a3,
    (opsL0_carry W (r := main_arg4) (by decide)).trans h.a4,
    (opsL0_carry W (r := main_arg5) (by decide)).trans h.a5,
    (opsL0_carry W (r := main_arg6) (by decide)).trans h.a6,
    (opsL0_carry W (r := main_arg7) (by decide)).trans h.a7,
    (opsL0_carry W (r := main_arg8) (by decide)).trans h.a8,
    (opsL0_carry W (r := main_arg9) (by decide)).trans h.a9,
    (opsL0_carry W (r := main_arg10) (by decide)).trans h.a10,
    (opsL0_carry W (r := main_arg11) (by decide)).trans h.a11,
    (opsL0_carry W (r := main_arg12) (by decide)).trans h.a12,
    (opsL0_carry W (r := main_v1) (by decide)).trans h.v1,
    (opsL0_carry W (r := main_v3) (by decide)).trans h.v3⟩

/-- layer 1 writes none of them -/
theorem keeps_L1 {V W : Valuation τ sig (Elt Ideal)} (h : Keeps V W) : Keeps V (after (opsL1 (F := Ideal)) W) :=
  ⟨(opsL1_carry W (r := main_arg0) (by decide)).trans h.a0,
    (opsL1_carry W (r := main_arg1) (by decide)).trans h.a1,
    (opsL1_carry W (r := main_arg2) (by decide)).trans h.a2,
    (opsL1_carry W (r := main_arg3) (by decide)).trans h.a3,
    (opsL1_carry W (r := main_arg4) (by decide)).trans h.a4,
    (opsL1_carry W (r := main_arg5) (by decide)).trans h.a5,
    (opsL1_carry W (r := main_arg6) (by decide)).trans h.a6,
    (opsL1_carry W (r := main_arg7) (by decide)).trans h.a7,
    (opsL1_carry W (r := main_arg8) (by decide)).trans h.a8,
    (opsL1_carry W (r := main_arg9) (by decide)).trans h.a9,
    (opsL1_carry W (r := main_arg10) (by decide)).trans h.a10,
    (opsL1_carry W (r := main_arg11) (by decide)).trans h.a11,
    (opsL1_carry W (r := main_arg12) (by decide)).trans h.a12,
    (opsL1_carry W (r := main_v1) (by decide)).trans h.v1,
    (opsL1_carry W (r := main_v3) (by decide)).trans h.v3⟩

/-- layer 2 writes none of them -/
theorem keeps_L2 {V W : Valuation τ sig (Elt Ideal)} (h : Keeps V W) : Keeps V (after (opsL2 (F := Ideal)) W) :=
  ⟨(opsL2_carry W (r := main_arg0) (by decide)).trans h.a0,
    (opsL2_carry W (r := main_arg1) (by decide)).trans h.a1,
    (opsL2_carry W (r := main_arg2) (by decide)).trans h.a2,
    (opsL2_carry W (r := main_arg3) (by decide)).trans h.a3,
    (opsL2_carry W (r := main_arg4) (by decide)).trans h.a4,
    (opsL2_carry W (r := main_arg5) (by decide)).trans h.a5,
    (opsL2_carry W (r := main_arg6) (by decide)).trans h.a6,
    (opsL2_carry W (r := main_arg7) (by decide)).trans h.a7,
    (opsL2_carry W (r := main_arg8) (by decide)).trans h.a8,
    (opsL2_carry W (r := main_arg9) (by decide)).trans h.a9,
    (opsL2_carry W (r := main_arg10) (by decide)).trans h.a10,
    (opsL2_carry W (r := main_arg11) (by decide)).trans h.a11,
    (opsL2_carry W (r := main_arg12) (by decide)).trans h.a12,
    (opsL2_carry W (r := main_v1) (by decide)).trans h.v1,
    (opsL2_carry W (r := main_v3) (by decide)).trans h.v3⟩

/-- layer 3 writes none of them -/
theorem keeps_L3 {V W : Valuation τ sig (Elt Ideal)} (h : Keeps V W) : Keeps V (after (opsL3 (F := Ideal)) W) :=
  ⟨(opsL3_carry W (r := main_arg0) (by decide)).trans h.a0,
    (opsL3_carry W (r := main_arg1) (by decide)).trans h.a1,
    (opsL3_carry W (r := main_arg2) (by decide)).trans h.a2,
    (opsL3_carry W (r := main_arg3) (by decide)).trans h.a3,
    (opsL3_carry W (r := main_arg4) (by decide)).trans h.a4,
    (opsL3_carry W (r := main_arg5) (by decide)).trans h.a5,
    (opsL3_carry W (r := main_arg6) (by decide)).trans h.a6,
    (opsL3_carry W (r := main_arg7) (by decide)).trans h.a7,
    (opsL3_carry W (r := main_arg8) (by decide)).trans h.a8,
    (opsL3_carry W (r := main_arg9) (by decide)).trans h.a9,
    (opsL3_carry W (r := main_arg10) (by decide)).trans h.a10,
    (opsL3_carry W (r := main_arg11) (by decide)).trans h.a11,
    (opsL3_carry W (r := main_arg12) (by decide)).trans h.a12,
    (opsL3_carry W (r := main_v1) (by decide)).trans h.v1,
    (opsL3_carry W (r := main_v3) (by decide)).trans h.v3⟩

/-- layer 4 writes none of them -/
theorem keeps_L4 {V W : Valuation τ sig (Elt Ideal)} (h : Keeps V W) : Keeps V (after (opsL4 (F := Ideal)) W) :=
  ⟨(opsL4_carry W (r := main_arg0) (by decide)).trans h.a0,
    (opsL4_carry W (r := main_arg1) (by decide)).trans h.a1,
    (opsL4_carry W (r := main_arg2) (by decide)).trans h.a2,
    (opsL4_carry W (r := main_arg3) (by decide)).trans h.a3,
    (opsL4_carry W (r := main_arg4) (by decide)).trans h.a4,
    (opsL4_carry W (r := main_arg5) (by decide)).trans h.a5,
    (opsL4_carry W (r := main_arg6) (by decide)).trans h.a6,
    (opsL4_carry W (r := main_arg7) (by decide)).trans h.a7,
    (opsL4_carry W (r := main_arg8) (by decide)).trans h.a8,
    (opsL4_carry W (r := main_arg9) (by decide)).trans h.a9,
    (opsL4_carry W (r := main_arg10) (by decide)).trans h.a10,
    (opsL4_carry W (r := main_arg11) (by decide)).trans h.a11,
    (opsL4_carry W (r := main_arg12) (by decide)).trans h.a12,
    (opsL4_carry W (r := main_v1) (by decide)).trans h.v1,
    (opsL4_carry W (r := main_v3) (by decide)).trans h.v3⟩

/-- layer 0 from contents that keep the arguments and the index vectors: the features after 1 layer -/
theorem step0 {V W : Valuation τ sig (Elt Ideal)} (h : Keeps V W) :
    after (opsL0 (F := Ideal)) W (Proc.devRef .tc main_v78) = feat V 1 (by decide) := by
  rw [layer_0 W, h.v1, h.v3, h.a0, h.a3, h.a4, h.a5, h.a6, h.a7, h.a8, h.a9, h.a10]
  rfl

/-- layer 1 from contents that keep the arguments and the index vectors and hold the features after 1 layer: the features after 2 layers -/
theorem step1 {V W : Valuation τ sig (Elt Ideal)} (h : Keeps V W) (hf : W (Proc.devRef .tc main_v78) = feat V 1 (by decide)) :
    after (opsL1 (F := Ideal)) W (Proc.devRef .tc main_v153) = feat V 2 (by decide) := by
  rw [layer_1 W, h.v1, h.v3, hf, h.a3, h.a4, h.a5, h.a6, h.a7, h.a8, h.a9, h.a10]
  rfl

/-- layer 2 from contents that keep the arguments and the index vectors and hold the features after 2 layers: the features after 3 layers -/
theorem step2 {V W : Valuation τ sig (Elt Ideal)} (h : Keeps V W) (hf : W (Proc.devRef .tc main_v153) = feat V 2 (by decide)) :
    after (opsL2 (F := Ideal)) W (Proc.devRef .tc main_v228) = feat V 3 (by decide) := by
  rw [layer_2 W, h.v1, h.v3, hf, h.a3, h.a4, h.a5, h.a6, h.a7, h.a8, h.a9, h.a10]
  rfl

/-- layer 3 from contents that keep the arguments and the index vectors and hold the features after 3 layers: the features after 4 layers -/
theorem step3 {V W : Valuation τ sig (Elt Ideal)} (h : Keeps V W) (hf : W (Proc.devRef .tc main_v228) = feat V 3 (by decide)) :
    after (opsL3 (F := Ideal)) W (Proc.devRef .tc main_v303) = feat V 4 (by decide) := by
  rw [layer_3 W, h.v1, h.v3, hf, h.a3, h.a4, h.a5, h.a6, h.a7, h.a8, h.a9, h.a10]
  rfl

/-- layer 4 from contents that keep the arguments and the index vectors and hold the features after 4 layers: the features after 5 layers -/
theorem step4 {V W : Valuation τ sig (Elt Ideal)} (h : Keeps V W) (hf : W (Proc.devRef .tc main_v303) = feat V 4 (by decide)) :
    after (opsL4 (F := Ideal)) W (Proc.devRef .tc main_v378) = feat V 5 (by decide) := by
  rw [layer_4 W, h.v1, h.v3, hf, h.a3, h.a4, h.a5, h.a6, h.a7, h.a8, h.a9, h.a10]
  rfl

/-- the whole line of operations, stretch by stretch -/
theorem after_ops_eq (V : Valuation τ sig (Elt Ideal)) :
    after (ops (F := Ideal)) V = after opsTail (after opsL4 (after opsL3 (after opsL2 (after opsL1 (after opsL0 (after opsPre V)))))) := by
  show after (opsPre (F := Ideal) ++ opsL0 ++ opsL1 ++ opsL2 ++ opsL3 ++ opsL4 ++ opsTail) V = _
  rw [after_append _ opsTail, after_append _ opsL4, after_append _ opsL3, after_append _ opsL2, after_append _ opsL1,
    after_append _ opsL0]

/-- the contents after the five layers keep the arguments and the index vectors -/
theorem keeps_layers (V : Valuation τ sig (Elt Ideal)) : Keeps V (after opsL4 (after opsL3 (after opsL2 (after opsL1 (after opsL0 (after opsPre V)))))) :=
  keeps_L4 (keeps_L3 (keeps_L2 (keeps_L1 (keeps_L0 (keeps_pre V)))))

/-- The reference's result: the readout of the node features and of the specification's features after one to five layers. -/
theorem out_eq' (V : Valuation τ sig (Elt Ideal)) :
    after (ops (F := Ideal)) V (Proc.devRef .tc main_v477)
      = Readout.ROR (V (Proc.devRef .tc main_arg0)) (feat V 1 (by decide)) (feat V 2 (by decide)) (feat V 3 (by decide))
          (feat V 4 (by decide)) (feat V 5 (by decide))
          (V (Proc.devRef .tc main_arg2)) (V (Proc.devRef .tc main_arg11)) (V (Proc.devRef .tc main_arg12)) := by
  have k0 := keeps_pre V
  have k1 := keeps_L0 k0
  have k2 := keeps_L1 k1
  have k3 := keeps_L2 k2
  have k4 := keeps_L3 k3
  have k5 := keeps_L4 k4
  have f1_1 := step0 k0
  have f2_2 := step1 k1 f1_1
  have f1_2 := (opsL1_carry (after opsL0 (after opsPre V)) (r := main_v78) (by decide)).trans f1_1
  have f3_3 := step2 k2 f2_2
  have f1_3 := (opsL2_carry (after opsL1 (after opsL0 (after opsPre V))) (r := main_v78) (by decide)).trans f1_2
  have f2_3 := (opsL2_carry (after opsL1 (after opsL0 (after opsPre V))) (r := main_v153) (by decide)).trans f2_2
  have f4_4 := step3 k3 f3_3
  have f1_4 := (opsL3_carry (after opsL2 (after opsL1 (after opsL0 (after opsPre V)))) (r := main_v78) (by decide)).trans f1_3
  have f2_4 := (opsL3_carry (after opsL2 (after opsL1 (after opsL0 (after opsPre V)))) (r := main_v153) (by decide)).trans f2_3
  have f3_4 := (opsL3_carry (after opsL2 (after opsL1 (after opsL0 (after opsPre V)))) (r := main_v228) (by decide)).trans f3_3
  have f5_5 := step4 k4 f4_4
  have f1_5 := (opsL4_carry (after opsL3 (after opsL2 (after opsL1 (after opsL0 (after opsPre V))))) (r := main_v78) (by decide)).trans f1_4
  have f2_5 := (opsL4_carry (after opsL3 (after opsL2 (after opsL1 (after opsL0 (after opsPre V))))) (r := main_v153) (by decide)).trans f2_4
  have f3_5 := (opsL4_carry (after opsL3 (after opsL2 (after opsL1 (after opsL0 (after opsPre V))))) (r := main_v228) (by decide)).trans f3_4
  have f4_5 := (opsL4_carry (after opsL3 (after opsL2 (after opsL1 (after opsL0 (after opsPre V))))) (r := main_v303) (by decide)).trans f4_4
  rw [after_ops_eq V, Readout.after_opsTail, k5.a0, f1_5, f2_5, f3_5, f4_5, f5_5, k5.a2, k5.a11, k5.a12]

/-- the same, the features spelt out -/
theorem out_eq (V : Valuation τ sig (Elt Ideal)) :
    after (ops (F := Ideal)) V (Proc.devRef .tc main_v477)
      = Readout.ROR (V (Proc.devRef .tc main_arg0))
          (GIN.feats (GIN.layerR (fun h => RefLayer.agg h (RefLayer.src (V (Proc.devRef .tc main_arg1))) (RefLayer.dst (V (Proc.devRef .tc main_arg1)))))
            (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) 1 (by decide))
          (GIN.feats (GIN.layerR (fun h => RefLayer.agg h (RefLayer.src (V (Proc.devRef .tc main_arg1))) (RefLayer.dst (V (Proc.devRef .tc main_arg1)))))
            (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) 2 (by decide))
          (GIN.feats (GIN.layerR (fun h => RefLayer.agg h (RefLayer.src (V (Proc.devRef .tc main_arg1))) (RefLayer.dst (V (Proc.devRef .tc main_arg1)))))
            (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) 3 (by decide))
          (GIN.feats (GIN.layerR (fun h => RefLayer.agg h (RefLayer.src (V (Proc.devRef .tc main_arg1))) (RefLayer.dst (V (Proc.devRef .tc main_arg1)))))
            (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) 4 (by decide))
          (GIN.feats (GIN.layerR (fun h => RefLayer.agg h (RefLayer.src (V (Proc.devRef .tc main_arg1))) (RefLayer.dst (V (Proc.devRef .tc main_arg1)))))
            (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) 5 (by decide))
          (V (Proc.devRef .tc main_arg2)) (V (Proc.devRef .tc main_arg11)) (V (Proc.devRef .tc main_arg12)) :=
  out_eq' V

/-- argument 0 ends as launched -/
theorem arg0_eq (V : Valuation τ sig (Elt Ideal)) :
    after (ops (F := Ideal)) V (Proc.devRef .tc main_arg0) = V (Proc.devRef .tc main_arg0) := by
  rw [after_ops_eq V, opsTail_carry _ (r := main_arg0) (by decide)]
  exact (keeps_layers V).a0

/-- argument 1 ends as launched -/
theorem arg1_eq (V : Valuation τ sig (Elt Ideal)) :
    after (ops (F := Ideal)) V (Proc.devRef .tc main_arg1) = V (Proc.devRef .tc main_arg1) := by
  rw [after_ops_eq V, opsTail_carry _ (r := main_arg1) (by decide)]
  exact (keeps_layers V).a1

/-- argument 2 ends as launched -/
theorem arg2_eq (V : Valuation τ sig (Elt Ideal)) :
    after (ops (F := Ideal)) V (Proc.devRef .tc main_arg2) = V (Proc.devRef .tc main_arg2) := by
  rw [after_ops_eq V, opsTail_carry _ (r := main_arg2) (by decide)]
  exact (keeps_layers V).a2

/-- argument 3 ends as launched -/
theorem arg3_eq (V : Valuation τ sig (Elt Ideal)) :
    after (ops (F := Ideal)) V (Proc.devRef .tc main_arg3) = V (Proc.devRef .tc main_arg3) := by
  rw [after_ops_eq V, opsTail_carry _ (r := main_arg3) (by decide)]
  exact (keeps_layers V).a3

/-- argument 4 ends as launched -/
theorem arg4_eq (V : Valuation τ sig (Elt Ideal)) :
    after (ops (F := Ideal)) V (Proc.devRef .tc main_arg4) = V (Proc.devRef .tc main_arg4) := by
  rw [after_ops_eq V, opsTail_carry _ (r := main_arg4) (by decide)]
  exact (keeps_layers V).a4

/-- argument 5 ends as launched -/
theorem arg5_eq (V : Valuation τ sig (Elt Ideal)) :
    after (ops (F := Ideal)) V (Proc.devRef .tc main_arg5) = V (Proc.devRef .tc main_arg5) := by
  rw [after_ops_eq V, opsTail_carry _ (r := main_arg5) (by decide)]
  exact (keeps_layers V).a5

/-- argument 6 ends as launched -/
theorem arg6_eq (V : Valuation τ sig (Elt Ideal)) :
    after (ops (F := Ideal)) V (Proc.devRef .tc main_arg6) = V (Proc.devRef .tc main_arg6) := by
  rw [after_ops_eq V, opsTail_carry _ (r := main_arg6) (by decide)]
  exact (keeps_layers V).a6

/-- argument 7 ends as launched -/
theorem arg7_eq (V : Valuation τ sig (Elt Ideal)) :
    after (ops (F := Ideal)) V (Proc.devRef .tc main_arg7) = V (Proc.devRef .tc main_arg7) := by
  rw [after_ops_eq V, opsTail_carry _ (r := main_arg7) (by decide)]
  exact (keeps_layers V).a7

/-- argument 8 ends as launched -/
theorem arg8_eq (V : Valuation τ sig (Elt Ideal)) :
    after (ops (F := Ideal)) V (Proc.devRef .tc main_arg8) = V (Proc.devRef .tc main_arg8) := by
  rw [after_ops_eq V, opsTail_carry _ (r := main_arg8) (by decide)]
  exact (keeps_layers V).a8

/-- argument 9 ends as launched -/
theorem arg9_eq (V : Valuation τ sig (Elt Ideal)) :
    after (ops (F := Ideal)) V (Proc.devRef .tc main_arg9) = V (Proc.devRef .tc main_arg9) := by
  rw [after_ops_eq V, opsTail_carry _ (r := main_arg9) (by decide)]
  exact (keeps_layers V).a9

/-- argument 10 ends as launched -/
theorem arg10_eq (V : Valuation τ sig (Elt Ideal)) :
    after (ops (F := Ideal)) V (Proc.devRef .tc main_arg10) = V (Proc.devRef .tc main_arg10) := by
  rw [after_ops_eq V, opsTail_carry _ (r := main_arg10) (by decide)]
  exact (keeps_layers V).a10

/-- argument 11 ends as launched -/
theorem arg11_eq (V : Valuation τ sig (Elt Ideal)) :
    after (ops (F := Ideal)) V (Proc.devRef .tc main_arg11) = V (Proc.devRef .tc main_arg11) := by
  rw [after_ops_eq V, opsTail_carry _ (r := main_arg11) (by decide)]
  exact (keeps_layers V).a11

/-- argument 12 ends as launched -/
theorem arg12_eq (V : Valuation τ sig (Elt Ideal)) :
    after (ops (F := Ideal)) V (Proc.devRef .tc main_arg12) = V (Proc.devRef .tc main_arg12) := by
  rw [after_ops_eq V, opsTail_carry _ (r := main_arg12) (by decide)]
  exact (keeps_layers V).a12

end Cert.ReferenceIdeal.RefValue

end
-- ==== Proof.Math.lean ====
/-
  The two ways of taking a column's batch statistics agree on real data, and with them one layer and the stack of layers.

  The words the programs spell are the reals `0`, `8`, `50000` and a positive `ε`.  Sums, differences, products, `max · 0`,
  quotients by a nonzero real and the reciprocal square root of a positive real keep real numbers real, so every intermediate
  array of a layer is real once its inputs are, the variance column being a nonnegative real and `v + ε` a positive one.

  For a real column `g` over the `N = 50000` rows, with `S = Σ g` and `Q = Σ g²`: the 200 rows of partial sums hold each of the
  25 tiles' sums 8 times and the tiles cover the rows once, so they add up to `8 S` (and `8 Q`), whence the kernel's mean is
  `8 S / 8 / N = S / N`; and `Σ (g - S/N)² = Q - 2 (S/N) S + N (S/N)² = Q - S²/N`, so the reference's variance `Σ (g - S/N)² / N`
  is `Q/N - (S/N)²`, which is nonnegative, so the kernel's `max (Q/N - (S/N)²) 0` is the same number.
-/
import proofs.«144515_j12352325943894_2_alg».proof.Proof.Spec
import Mathlib.Tactic.Ring
import Mathlib.Tactic.FieldSimp
import Mathlib.Tactic.Positivity
import Mathlib.Tactic.NormNum
import Mathlib.Algebra.BigOperators.Fin
import Mathlib.Algebra.BigOperators.Ring.Finset
import Mathlib.Algebra.Order.BigOperators.Group.Finset

noncomputable section

namespace GIN

open Idealize.ShloMosaic Idealize.ShloMosaic.ValueIdx

/-! ### The constants -/

theorem c0_eq : c0 = 0 := by
  simp [c0, Ideal.ofBits, Ideal.ieee]

theorem c8_eq : c8 = ((8 : ℝ) : EReal) := by
  simp [c8, Ideal.ofBits, Ideal.ieee, -EReal.coe_mul]; norm_num

theorem cN_eq : cN = ((50000 : ℝ) : EReal) := by
  simp [cN, Ideal.ofBits, Ideal.ieee, -EReal.coe_mul]; norm_num

/-- the word of `ε`: significand `2^23 + 0x27C5AC = 10995116`, exponent `110 - 127 - 23 = -40` -/
theorem cEps_eq : cEps = ((10995116 / 2 ^ 40 : ℝ) : EReal) := by
  simp [cEps, Ideal.ofBits, Ideal.ieee, -EReal.coe_mul]; norm_num

theorem cEps_pos : ∃ e : ℝ, 0 < e ∧ cEps = (e : EReal) :=
  ⟨10995116 / 2 ^ 40, by norm_num, cEps_eq⟩

theorem nR_eq : nR = ((50000 : ℝ) : EReal) := by
  simp [nR, cN_eq]

theorem nR_gt : Ideal.cmp .ogt nR c0 = 1#1 := by
  simp [Ideal.cmp, nR_eq, c0_eq]

/-! ### Real numbers inside the extended reals are closed under the network's arithmetic -/

theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_congr {a b : ℝ} (h : a = b) : (a : EReal) = (b : EReal) := by rw [h]

theorem coe_max (a b : ℝ) : ((max a b : ℝ) : EReal) = max (a : EReal) (b : EReal) :=
  EReal.coe_strictMono.monotone.map_max

theorem real_c0 : ∃ r : ℝ, c0 = (r : EReal) := ⟨0, c0_eq⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy; exact ⟨max a b, (coe_max a b).symm⟩

theorem real_sum {ι : Type} (s : Finset ι) (f : ι → EReal) (hf : ∀ i ∈ s, ∃ r : ℝ, f i = (r : EReal)) :
    ∃ r : ℝ, ∑ i ∈ s, f i = (r : EReal) := by
  classical
  revert hf
  refine Finset.induction_on s (fun _ => ⟨0, by simp⟩) ?_
  intro a s ha ih hf
  rw [Finset.sum_insert ha]
  exact real_add (hf a (Finset.mem_insert_self a s)) (ih fun i hi => hf i (Finset.mem_insert_of_mem hi))

/-- a quotient by a nonzero real constant -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- the reciprocal square root at a positive real -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem real_rsqrt {x : EReal} (hx : ∃ r : ℝ, 0 < r ∧ x = (r : EReal)) : ∃ r : ℝ, Ideal.rsqrt x = (r : EReal) := by
  obtain ⟨a, ha, rfl⟩ := hx
  exact ⟨_, rsqrt_pos ha⟩

theorem AllReal.add {ι : Type} {x y : ι → EReal} (hx : AllReal x) (hy : AllReal y) : AllReal (fun i => x i + y i) :=
  fun i => real_add (hx i) (hy i)

theorem AllReal.slW {W : S5W.Idx → EReal} (hW : AllReal W) (l : Fin 5) : AllReal (slW l W) := fun j => hW _
theorem AllReal.slD {b : S5D.Idx → EReal} (hb : AllReal b) (l : Fin 5) : AllReal (slD l b) := fun j => hb _

theorem AllReal.lin {z : Mat} {W : Wt} {b : Col} (hz : AllReal z) (hW : AllReal W) (hb : AllReal b) : AllReal (lin z W b) :=
  fun i => real_add (real_sum _ _ fun k _ => real_mul (hz _) (hW _)) (hb _)

/-- the normalisation keeps real entries real: the variance column is a nonnegative real, so `v + ε` is a positive real -/
theorem AllReal.bnrelu {z : Mat} {mu v g be : Col} (hz : AllReal z) (hmu : AllReal mu)
    (hv : ∀ j, ∃ r : ℝ, 0 ≤ r ∧ v j = (r : EReal)) (hg : AllReal g) (hbe : AllReal be) : AllReal (bnrelu z mu v g be) := by
  intro i
  obtain ⟨e, he, hce⟩ := cEps_pos
  obtain ⟨r, hr, hvr⟩ := hv (ix1 (i 1))
  have hrs : ∃ t : ℝ, Ideal.rsqrt (v (ix1 (i 1)) + cEps) = (t : EReal) :=
    real_rsqrt ⟨r + e, by positivity, by rw [hvr, hce, EReal.coe_add]⟩
  exact real_max (real_add (real_mul (real_mul (real_sub (hz i) (hmu _)) hrs) (hg _)) (hbe _)) real_c0

/-! ### The tiles cover the rows once, and each tile's partial sum stands on 8 rows -/

/-- a row of the features as (tile, row within the tile) -/
def tileEquiv : Fin 25 × Fin 2000 ≃ Fin 50000 where
  toFun x := ⟨2000 * x.1.val + x.2.val, by have := x.1.isLt; have := x.2.isLt; omega⟩
  invFun n := (⟨n.val / 2000, by have := n.isLt; omega⟩, ⟨n.val % 2000, by omega⟩)
  left_inv := by
    rintro ⟨⟨t, ht⟩, ⟨r, hr⟩⟩
    refine Prod.ext (Fin.ext ?_) (Fin.ext ?_)
    · show (2000 * t + r) / 2000 = t
      omega
    · show (2000 * t + r) % 2000 = r
      omega
  right_inv := by
    rintro ⟨n, hn⟩
    refine Fin.ext ?_
    show 2000 * (n / 2000) + n % 2000 = n
    omega

/-- a row of the partial sums as (tile, copy) -/
def rowEquiv : Fin 25 × Fin 8 ≃ Fin 200 where
  toFun x := ⟨8 * x.1.val + x.2.val, by have := x.1.isLt; have := x.2.isLt; omega⟩
  invFun p := (⟨p.val / 8, by have := p.isLt; omega⟩, ⟨p.val % 8, by omega⟩)
  left_inv := by
    rintro ⟨⟨t, ht⟩, ⟨r, hr⟩⟩
    refine Prod.ext (Fin.ext ?_) (Fin.ext ?_)
    · show (8 * t + r) / 8 = t
      omega
    · show (8 * t + r) % 8 = r
      omega
  right_inv := by
    rintro ⟨n, hn⟩
    refine Fin.ext ?_
    show 8 * (n / 8) + n % 8 = n
    omega

theorem tileRow_rowEquiv (t : Fin 25) (s : Fin 8) (r : Fin 2000) : tileRow (rowEquiv (t, s)) r = tileEquiv (t, r) := by
  refine Fin.ext ?_
  show 2000 * ((8 * t.val + s.val) / 8) + r.val = 2000 * t.val + r.val
  have := s.isLt
  omega

/-- adding the 200 rows of partial sums counts every row of the features 8 times -/
theorem sum_tiles (g : Fin 50000 → ℝ) :
    ∑ p : Fin 200, ∑ r : Fin 2000, g (tileRow p r) = 8 * ∑ n : Fin 50000, g n := by
  rw [← rowEquiv.sum_comp (fun p => ∑ r : Fin 2000, g (tileRow p r)), ← tileEquiv.sum_comp g,
    Fintype.sum_prod_type, Fintype.sum_prod_type, Finset.mul_sum]
  refine Finset.sum_congr rfl fun t _ => ?_
  simp only [tileRow_rowEquiv]
  rw [Finset.sum_const, Finset.card_univ, Fintype.card_fin, nsmul_eq_mul]
  norm_num

/-- over the reals, `max (E[g²] - (E g)²) 0` is the mean of the squared deviations -/
theorem real_var {ι : Type} [Fintype ι] (g : ι → ℝ) (N : ℝ) (hcard : (Fintype.card ι : ℝ) = N) (hN : 0 < N) :
    max ((∑ i, g i * g i) / N - (∑ i, g i) / N * ((∑ i, g i) / N)) 0
      = (∑ i, (g i - (∑ k, g k) / N) * (g i - (∑ k, g k) / N)) / N := by
  have hsq : ∀ m : ℝ, ∑ i, (g i - m) * (g i - m) = (∑ i, g i * g i) - 2 * m * (∑ i, g i) + N * (m * m) := by
    intro m
    have : ∀ i, (g i - m) * (g i - m) = g i * g i - 2 * m * g i + m * m := fun i => by ring
    simp only [this, Finset.sum_add_distrib, Finset.sum_sub_distrib, ← Finset.mul_sum, Finset.sum_const,
      Finset.card_univ, nsmul_eq_mul, hcard]
    ring
  have hnn : 0 ≤ (∑ i, (g i - (∑ k, g k) / N) * (g i - (∑ k, g k) / N)) / N :=
    div_nonneg (Finset.sum_nonneg fun i _ => mul_self_nonneg _) hN.le
  have heq : (∑ i, g i * g i) / N - (∑ i, g i) / N * ((∑ i, g i) / N)
      = (∑ i, (g i - (∑ k, g k) / N) * (g i - (∑ k, g k) / N)) / N := by
    rw [hsq]
    field_simp
    ring
  rw [heq, max_eq_left hnn]

/-! ### The statistics of real data, as real numbers -/

/-- the reference's mean -/
theorem meanR_coe (f : SN.Idx → ℝ) (j : SD.Idx) :
    meanR (fun i => (f i : EReal)) j = (((∑ n : Fin 50000, f (ix2 n (j 0))) / 50000 : ℝ) : EReal) := by
  simp only [meanR]
  rw [c0_eq, zero_add, cN_eq, ← coe_sum, Ideal.div_coe (by norm_num), ← EReal.coe_mul]
  apply coe_congr
  ring

/-- the reference's variance: the select takes the quotient, the divisor `N - 0` being positive -/
theorem varR_coe (f : SN.Idx → ℝ) (j : SD.Idx) :
    varR (fun i => (f i : EReal)) j
      = (((∑ n : Fin 50000, (f (ix2 n (j 0)) - (∑ m : Fin 50000, f (ix2 m (j 0))) / 50000)
            * (f (ix2 n (j 0)) - (∑ m : Fin 50000, f (ix2 m (j 0))) / 50000)) / 50000 : ℝ) : EReal) := by
  simp only [varR, nR_gt, select_one, meanR_coe, ← EReal.coe_sub, ← EReal.coe_mul]
  rw [c0_eq, zero_add, nR_eq, ← coe_sum, Ideal.div_coe (by norm_num), ← EReal.coe_mul]
  apply coe_congr
  ring

/-- the kernel's final division by 8 and by `N`, the 200 partial sums being real -/
theorem statK_of (s : SP.Idx → EReal) (j : SD.Idx) (t : Fin 200 → ℝ) (hs : ∀ p, s (ix2 p (j 0)) = (t p : EReal)) :
    statK s j = (((∑ p : Fin 200, t p) / 8 / 50000 : ℝ) : EReal) := by
  simp only [statK, hs]
  rw [c0_eq, zero_add, c8_eq, cN_eq, ← coe_sum, Ideal.div_coe (by norm_num), Ideal.div_coe (by norm_num),
    ← EReal.coe_mul, ← EReal.coe_mul]
  apply coe_congr
  ring

theorem tileSum_coe (f : SN.Idx → ℝ) (p : Fin 200) (c : Fin 300) :
    tileSum (fun i => (f i : EReal)) (ix2 p c) = ((∑ r : Fin 2000, f (ix2 (tileRow p r) c) : ℝ) : EReal) := by
  show ∑ r : Fin 2000, ((f (ix2 (tileRow p r) c) : ℝ) : EReal) = _
  rw [coe_sum]

theorem tileSumSq_coe (f : SN.Idx → ℝ) (p : Fin 200) (c : Fin 300) :
    tileSumSq (fun i => (f i : EReal)) (ix2 p c)
      = ((∑ r : Fin 2000, f (ix2 (tileRow p r) c) * f (ix2 (tileRow p r) c) : ℝ) : EReal) := by
  show ∑ r : Fin 2000, ((f (ix2 (tileRow p r) c) : ℝ) : EReal) * ((f (ix2 (tileRow p r) c) : ℝ) : EReal) = _
  simp only [← EReal.coe_mul]
  rw [coe_sum]

/-- the kernel's mean: the 200 rows add up to 8 times the column sum -/
theorem meanK_coe (f : SN.Idx → ℝ) (j : SD.Idx) :
    meanK (fun i => (f i : EReal)) j = (((∑ n : Fin 50000, f (ix2 n (j 0))) / 50000 : ℝ) : EReal) := by
  rw [meanK, statK_of _ j (fun p => ∑ r : Fin 2000, f (ix2 (tileRow p r) (j 0))) (fun p => tileSum_coe f p (j 0)),
    sum_tiles (fun n => f (ix2 n (j 0)))]
  apply coe_congr
  ring

/-- the kernel's mean of squares -/
theorem statK_tileSumSq_coe (f : SN.Idx → ℝ) (j : SD.Idx) :
    statK (tileSumSq (fun i => (f i : EReal))) j
      = (((∑ n : Fin 50000, f (ix2 n (j 0)) * f (ix2 n (j 0))) / 50000 : ℝ) : EReal) := by
  rw [statK_of _ j (fun p => ∑ r : Fin 2000, f (ix2 (tileRow p r) (j 0)) * f (ix2 (tileRow p r) (j 0)))
      (fun p => tileSumSq_coe f p (j 0)),
    sum_tiles (fun n => f (ix2 n (j 0)) * f (ix2 n (j 0)))]
  apply coe_congr
  ring

theorem varK_coe (f : SN.Idx → ℝ) (j : SD.Idx) :
    varK (fun i => (f i : EReal)) j
      = ((max ((∑ n : Fin 50000, f (ix2 n (j 0)) * f (ix2 n (j 0))) / 50000
            - (∑ n : Fin 50000, f (ix2 n (j 0))) / 50000 * ((∑ n : Fin 50000, f (ix2 n (j 0))) / 50000)) 0 : ℝ) : EReal) := by
  simp only [varK]
  rw [statK_tileSumSq_coe, meanK_coe, c0_eq, ← EReal.coe_mul, ← EReal.coe_sub, ← EReal.coe_zero, ← coe_max]

/-! ### The two statistics agree on real data -/

theorem eq_coe_of_allReal {ι : Type} {x : ι → EReal} (hx : AllReal x) : ∃ f : ι → ℝ, x = fun i => (f i : EReal) := by
  choose f hf using hx
  exact ⟨f, funext hf⟩

theorem meanK_eq (z : Mat) (hz : AllReal z) : meanK z = meanR z := by
  obtain ⟨f, rfl⟩ := eq_coe_of_allReal hz
  funext j
  rw [meanK_coe, meanR_coe]

theorem varK_eq (z : Mat) (hz : AllReal z) : varK z = varR z := by
  obtain ⟨f, rfl⟩ := eq_coe_of_allReal hz
  funext j
  rw [varK_coe, varR_coe]
  apply coe_congr
  exact real_var (fun n : Fin 50000 => f (ix2 n (j 0))) 50000 (by rw [Fintype.card_fin]; norm_num) (by norm_num)

theorem AllReal.meanR {z : Mat} (hz : AllReal z) : AllReal (meanR z) := by
  obtain ⟨f, rfl⟩ := eq_coe_of_allReal hz
  exact fun j => ⟨_, meanR_coe f j⟩

/-- the reference's variance of real data is a nonnegative real -/
theorem varR_nonneg {z : Mat} (hz : AllReal z) : ∀ j, ∃ r : ℝ, 0 ≤ r ∧ varR z j = (r : EReal) := by
  obtain ⟨f, rfl⟩ := eq_coe_of_allReal hz
  exact fun j => ⟨_, div_nonneg (Finset.sum_nonneg fun n _ => mul_self_nonneg _) (by norm_num), varR_coe f j⟩

theorem AllReal.varR {z : Mat} (hz : AllReal z) : AllReal (varR z) :=
  fun j => let ⟨r, _, h⟩ := varR_nonneg hz j; ⟨r, h⟩

/-! ### One layer, and the stack of layers -/

theorem layer_eq (A : Mat → Mat) (hA : ∀ h, AllReal h → AllReal (A h)) (h : Mat) (W1 : Wt) (b1 g1 be1 : Col)
    (W2 : Wt) (b2 g be : Col) (hh : AllReal h) (hW1 : AllReal W1) (hb1 : AllReal b1) (hg1 : AllReal g1)
    (hbe1 : AllReal be1) (hW2 : AllReal W2) (hb2 : AllReal b2) (hg : AllReal g) (hbe : AllReal be) :
    layerK A h W1 b1 g1 be1 W2 b2 g be = layerR A h W1 b1 g1 be1 W2 b2 g be
      ∧ AllReal (layerR A h W1 b1 g1 be1 W2 b2 g be) := by
  have hz1 : AllReal (lin (fun i => h i + A h i) W1 b1) := AllReal.lin (AllReal.add hh (hA h hh)) hW1 hb1
  have ha : AllReal (bnrelu (lin (fun i => h i + A h i) W1 b1) (meanR (lin (fun i => h i + A h i) W1 b1))
      (varR (lin (fun i => h i + A h i) W1 b1)) g1 be1) :=
    AllReal.bnrelu hz1 (AllReal.meanR hz1) (varR_nonneg hz1) hg1 hbe1
  have hz2 := AllReal.lin ha hW2 hb2
  refine ⟨?_, ?_⟩
  · simp only [layerK, layerR]
    rw [meanK_eq _ hz1, varK_eq _ hz1, meanK_eq _ hz2, varK_eq _ hz2]
  · simp only [layerR]
    exact AllReal.bnrelu hz2 (AllReal.meanR hz2) (varR_nonneg hz2) hg hbe

theorem feats_eq (A : Mat → Mat) (hA : ∀ h, AllReal h → AllReal (A h)) (x : Mat) (W1 : S5W.Idx → EReal)
    (b1 g1 be1 : S5D.Idx → EReal) (W2 : S5W.Idx → EReal) (b2 g be : S5D.Idx → EReal)
    (hx : AllReal x) (hW1 : AllReal W1) (hb1 : AllReal b1) (hg1 : AllReal g1) (hbe1 : AllReal be1)
    (hW2 : AllReal W2) (hb2 : AllReal b2) (hg : AllReal g) (hbe : AllReal be) (l : Nat) (hl : l ≤ 5) :
    feats (layerK A) x W1 b1 g1 be1 W2 b2 g be l hl = feats (layerR A) x W1 b1 g1 be1 W2 b2 g be l hl
      ∧ AllReal (feats (layerR A) x W1 b1 g1 be1 W2 b2 g be l hl) := by
  induction l with
  | zero =>
    refine ⟨?_, ?_⟩
    · simp only [feats]
    · simp only [feats]
      exact hx
  | succ l ih =>
    obtain ⟨he, hr⟩ := ih (Nat.le_of_succ_le hl)
    have key := layer_eq A hA (feats (layerR A) x W1 b1 g1 be1 W2 b2 g be l (Nat.le_of_succ_le hl))
      (slW ⟨l, hl⟩ W1) (slD ⟨l, hl⟩ b1) (slD ⟨l, hl⟩ g1) (slD ⟨l, hl⟩ be1) (slW ⟨l, hl⟩ W2) (slD ⟨l, hl⟩ b2)
      (slD ⟨l, hl⟩ g) (slD ⟨l, hl⟩ be) hr (hW1.slW _) (hb1.slD _) (hg1.slD _) (hbe1.slD _) (hW2.slW _) (hb2.slD _)
      (hg.slD _) (hbe.slD _)
    simp only [feats]
    rw [he]
    exact key

end GIN

end
-- ==== Proof.Fin.lean ====
/-
  From the precondition to "every float argument is real".

  The precondition is a conjunction, over the eleven float arguments, of `all (|x| < +∞)`. Over the extended reals
  `|x| = max x (-x)` and the word compared against denotes `⊤`, so `|x| < +∞` holds exactly when `x` is neither
  infinity, that is, when `x` is a real number.
-/
import proofs.«144515_j12352325943894_2_alg».proof.Defs
import proofs.«144515_j12352325943894_2_alg».proof.Proof.Spec
import Idealize.ShloMosaic.Lib.ReduceAll
import Idealize.ShloMosaic.Lib.ValueIdx

noncomputable section

namespace Cert.KernelIdeal.FinIn

open Idealize.ShloMosaic Idealize.SL.Sem Cert.Pre_finite_inputs

instance : Subsingleton S_.Idx := ⟨fun a b => funext fun d => d.elim0⟩

/-- The word `0x7F800000` denotes plus infinity. An extended real `x` with `max x (-x) < ⊤` is neither infinity,
    so it is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- `all (|x| < +∞)` over every axis of an array: a conjunction over all entries that came out true
    had every conjunct true, and each conjunct says its entry is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant S_ .f32 0x7F800000#32)))
          init hr hu j = 1#1) :
    GIN.AllReal x := by
  intro i
  exact real_of_abs_lt (x i) (Host.reduce_andi_all _ init hr hu j e i)

/-- The precondition is the conjunction of eleven `all (|x| < +∞)`, one per float argument; read at the one index of
    its result it gives, argument by argument, that every entry is a real number. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S50000x300.Idx) (m ((c.tc : Thread Cert.KernelIdeal.nD Cert.KernelIdeal.τ).loc Cert.KernelIdeal.main_arg0))
      ∧ GIN.AllReal (ι := S5x300x300.Idx) (m ((c.tc : Thread Cert.KernelIdeal.nD Cert.KernelIdeal.τ).loc Cert.KernelIdeal.main_arg3))
      ∧ GIN.AllReal (ι := S5x300.Idx) (m ((c.tc : Thread Cert.KernelIdeal.nD Cert.KernelIdeal.τ).loc Cert.KernelIdeal.main_arg4))
      ∧ GIN.AllReal (ι := S5x300.Idx) (m ((c.tc : Thread Cert.KernelIdeal.nD Cert.KernelIdeal.τ).loc Cert.KernelIdeal.main_arg5))
      ∧ GIN.AllReal (ι := S5x300.Idx) (m ((c.tc : Thread Cert.KernelIdeal.nD Cert.KernelIdeal.τ).loc Cert.KernelIdeal.main_arg6))
      ∧ GIN.AllReal (ι := S5x300x300.Idx) (m ((c.tc : Thread Cert.KernelIdeal.nD Cert.KernelIdeal.τ).loc Cert.KernelIdeal.main_arg7))
      ∧ GIN.AllReal (ι := S5x300.Idx) (m ((c.tc : Thread Cert.KernelIdeal.nD Cert.KernelIdeal.τ).loc Cert.KernelIdeal.main_arg8))
      ∧ GIN.AllReal (ι := S5x300.Idx) (m ((c.tc : Thread Cert.KernelIdeal.nD Cert.KernelIdeal.τ).loc Cert.KernelIdeal.main_arg9))
      ∧ GIN.AllReal (ι := S5x300.Idx) (m ((c.tc : Thread Cert.KernelIdeal.nD Cert.KernelIdeal.τ).loc Cert.KernelIdeal.main_arg10))
      ∧ GIN.AllReal (ι := S6x300x128.Idx) (m ((c.tc : Thread Cert.KernelIdeal.nD Cert.KernelIdeal.τ).loc Cert.KernelIdeal.main_arg11))
      ∧ GIN.AllReal (ι := S6x128.Idx) (m ((c.tc : Thread Cert.KernelIdeal.nD Cert.KernelIdeal.τ).loc Cert.KernelIdeal.main_arg12)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨a0, a3⟩, a4⟩, a5⟩, a6⟩, a7⟩, a8⟩, a9⟩, a10⟩, a11⟩, a12⟩ := h0
  exact ⟨allReal_of_all _ _ _ _ _ _ a0,
    allReal_of_all _ _ _ _ _ _ a3,
    allReal_of_all _ _ _ _ _ _ a4,
    allReal_of_all _ _ _ _ _ _ a5,
    allReal_of_all _ _ _ _ _ _ a6,
    allReal_of_all _ _ _ _ _ _ a7,
    allReal_of_all _ _ _ _ _ _ a8,
    allReal_of_all _ _ _ _ _ _ a9,
    allReal_of_all _ _ _ _ _ _ a10,
    allReal_of_all _ _ _ _ _ _ a11,
    allReal_of_all _ _ _ _ _ _ a12⟩

/-! Each conjunct by itself. -/

theorem real_arg0 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S50000x300.Idx) (m ((c.tc : Thread Cert.KernelIdeal.nD Cert.KernelIdeal.τ).loc Cert.KernelIdeal.main_arg0)) :=
  (real_args m h c).1

theorem real_arg3 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300x300.Idx) (m ((c.tc : Thread Cert.KernelIdeal.nD Cert.KernelIdeal.τ).loc Cert.KernelIdeal.main_arg3)) :=
  (real_args m h c).2.1

theorem real_arg4 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg4)) :=
  (real_args m h c).2.2.1

theorem real_arg5 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg5)) :=
  (real_args m h c).2.2.2.1

theorem real_arg6 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg6)) :=
  (real_args m h c).2.2.2.2.1

theorem real_arg7 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300x300.Idx) (m ((c.tc : Thread Cert.KernelIdeal.nD Cert.KernelIdeal.τ).loc Cert.KernelIdeal.main_arg7)) :=
  (real_args m h c).2.2.2.2.2.1

theorem real_arg8 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg8)) :=
  (real_args m h c).2.2.2.2.2.2.1

theorem real_arg9 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg9)) :=
  (real_args m h c).2.2.2.2.2.2.2.1

theorem real_arg10 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S5x300.Idx) (m ((c.tc : Thread Cert.KernelIdeal.nD Cert.KernelIdeal.τ).loc Cert.KernelIdeal.main_arg10)) :=
  (real_args m h c).2.2.2.2.2.2.2.2.1

theorem real_arg11 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S6x300x128.Idx) (m ((c.tc : Thread Cert.KernelIdeal.nD Cert.KernelIdeal.τ).loc Cert.KernelIdeal.main_arg11)) :=
  (real_args m h c).2.2.2.2.2.2.2.2.2.1

theorem real_arg12 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    GIN.AllReal (ι := S6x128.Idx) (m ((c.tc : Thread Cert.KernelIdeal.nD Cert.KernelIdeal.τ).loc Cert.KernelIdeal.main_arg12)) :=
  (real_args m h c).2.2.2.2.2.2.2.2.2.2

end Cert.KernelIdeal.FinIn

end
-- ==== Proof.AggSame.lean ====
/-
  The two programs form the neighbour aggregate by the same operations, in the same order, over dimension records that are
  the same data: the edges' two rows cut out of the edge array and flattened, a negative first end wrapped by the node
  count, the rows of the features gathered at the first ends and added, from a zero array, at the second ends. So the
  kernel's functions and the reference's are equal as they stand.
-/
import proofs.«144515_j12352325943894_2_alg».proof.Proof.KHost
import proofs.«144515_j12352325943894_2_alg».proof.Proof.RefLayer.Agg

noncomputable section

namespace Cert.AggSame

open Idealize.ShloMosaic

variable [Cert.KernelIdeal.Facts₀] [Cert.ReferenceIdeal.Facts₀]

/-- the edges' first ends -/
theorem src_same : Cert.KernelIdeal.KHost.src = Cert.ReferenceIdeal.RefLayer.src := rfl

/-- the edges' second ends -/
theorem dst_same : Cert.KernelIdeal.KHost.dst = Cert.ReferenceIdeal.RefLayer.dst := rfl

/-- the aggregate of the features along the edges -/
theorem agg_same : Cert.KernelIdeal.KHost.agg = Cert.ReferenceIdeal.RefLayer.agg := rfl

end Cert.AggSame

end
-- ==== Proof.ReadoutSame.lean ====
import proofs.«144515_j12352325943894_2_alg».proof.Proof.ReadoutK
import proofs.«144515_j12352325943894_2_alg».proof.Proof.ReadoutR
import Idealize.ShloMosaic.Lib.ValueIdx

/-! # The two readouts are the same function

Both programs pool the six feature arrays over the graphs of the batch with the same operations, over dimension
records that are the same data, and accumulate the six readout terms from zeros.  They differ in one place: with
`t_k = pooled_k · W_k` the kernel's program adds `(out_k + t_k) + b_k` and the reference's `out_k + (t_k + b_k)`.  Over the
extended reals a float addition is the addition of `EReal`, which is associative (it is a commutative monoid, the sum
`⊥ + ⊤ = ⊥` included), so each step agrees entry by entry and so do the six steps composed.
-/

noncomputable section

namespace Cert.Readout

open Idealize.ShloMosaic Idealize.ShloMosaic.ValueIdx

variable [Cert.ReferenceIdeal.Facts]

-- the scatter-add stays folded: the two sides apply it to the same operands, and no equation here looks inside it
attribute [local irreducible] Host.scatterAdd

/-- the reciprocal clamped counts: the same operations over the same dimension record -/
theorem inv_eq (batch : IVec Cert.KernelIdeal.S50000 32) :
    Cert.KernelIdeal.Readout.invF (F := Ideal) batch = Cert.ReferenceIdeal.Readout.invF (F := Ideal) batch := rfl

/-- the pooled features through a readout matrix: the same operations over the same dimension records -/
theorem pooledDot_eq (f : FVec Ideal Cert.KernelIdeal.S50000x300 .f32) (batch : IVec Cert.KernelIdeal.S50000 32)
    (inv : FVec Ideal Cert.KernelIdeal.S256 .f32) (Wk : FVec Ideal Cert.KernelIdeal.S300x128 .f32) :
    Cert.KernelIdeal.Readout.pooledDot f batch inv Wk = Cert.ReferenceIdeal.Readout.pooledDot f batch inv Wk := rfl

/-- a readout vector broadcast along the graphs: the same operations -/
theorem biasRow_eq (b : FVec Ideal Cert.KernelIdeal.S1x128 .f32) :
    Cert.KernelIdeal.Readout.biasRow b = Cert.ReferenceIdeal.Readout.biasRow b := rfl

/-- one step: `(out + t) + b = out + (t + b)` at every entry -/
theorem step_eq (out : FVec Ideal Cert.KernelIdeal.S256x128 .f32) (f : FVec Ideal Cert.KernelIdeal.S50000x300 .f32)
    (batch : IVec Cert.KernelIdeal.S50000 32) (inv : FVec Ideal Cert.KernelIdeal.S256 .f32)
    (Wk : FVec Ideal Cert.KernelIdeal.S1x300x128 .f32) (bk : FVec Ideal Cert.KernelIdeal.S1x128 .f32) :
    Cert.KernelIdeal.Readout.stepK out f batch inv Wk bk = Cert.ReferenceIdeal.Readout.stepR out f batch inv Wk bk := by
  funext i
  show (out i + Cert.KernelIdeal.Readout.pooledDot f batch inv _ i) + Cert.KernelIdeal.Readout.biasRow bk i
    = out i + (Cert.ReferenceIdeal.Readout.pooledDot f batch inv _ i + Cert.ReferenceIdeal.Readout.biasRow bk i)
  rw [add_assoc]
  rfl

/-- the six steps from zeros: each step agrees, and so does the reciprocal of the clamped counts they share -/
theorem ROKF_eq_RORF (x f1 f2 f3 f4 f5 : FVec Ideal Cert.KernelIdeal.S50000x300 .f32) (batch : IVec Cert.KernelIdeal.S50000 32)
    (fcW : FVec Ideal Cert.KernelIdeal.S6x300x128 .f32) (fcb : FVec Ideal Cert.KernelIdeal.S6x128 .f32) :
    Cert.KernelIdeal.Readout.ROKF x f1 f2 f3 f4 f5 batch fcW fcb
      = Cert.ReferenceIdeal.Readout.RORF x f1 f2 f3 f4 f5 batch fcW fcb := by
  simp only [Cert.KernelIdeal.Readout.ROKF, Cert.ReferenceIdeal.Readout.RORF, step_eq, inv_eq]

/-- THE READOUTS AGREE: on the same features, batch vector and readout parameters the kernel's composed readout and the
    reference's are the same `256 × 128` array. -/
theorem ROK_eq_ROR (x f1 f2 f3 f4 f5 : FVec Ideal Cert.KernelIdeal.S50000x300 .f32) (batch : IVec Cert.KernelIdeal.S50000 32)
    (fcW : FVec Ideal Cert.KernelIdeal.S6x300x128 .f32) (fcb : FVec Ideal Cert.KernelIdeal.S6x128 .f32) :
    Cert.KernelIdeal.Readout.ROK x f1 f2 f3 f4 f5 batch fcW fcb
      = Cert.ReferenceIdeal.Readout.ROR x f1 f2 f3 f4 f5 batch fcW fcb :=
  ROKF_eq_RORF x f1 f2 f3 f4 f5 batch fcW fcb

end Cert.Readout

end
-- ==== Proof.Bridge.lean ====
/-
  The bridge between the two programs' results.

  Both results are a readout of the input and the five layers' feature arrays. The kernel's layers take the column
  statistics from the tiles' partial sums, the reference's take them directly; on real arrays the two layer functions
  agree, the neighbour aggregate (the same function in both programs) keeps arrays real, so the feature arrays agree
  layer by layer. The two readouts are the same function of the features. Hence the results agree whenever the input
  and the layers' parameters are real, which the precondition gives.
-/
import proofs.«144515_j12352325943894_2_alg».proof.Proof.Math
import proofs.«144515_j12352325943894_2_alg».proof.Proof.Fin
import proofs.«144515_j12352325943894_2_alg».proof.Proof.AggSame
import proofs.«144515_j12352325943894_2_alg».proof.Proof.ReadoutSame

noncomputable section

namespace Cert.Bridge

open Idealize.ShloMosaic Idealize.SL.Sem

variable [Cert.KernelIdeal.Facts₀] [Cert.ReferenceIdeal.Facts]

/-- the kernel's feature array after `l` layers: the neighbour aggregate as the kernel's host operations form it,
    the column statistics from the tiles' partial sums -/
abbrev FK (x : GIN.Mat) (ei : IVec Cert.KernelIdeal.S2x400000 32)
    (W1 : GIN.S5W.Idx → EReal) (b1 g1 be1 : GIN.S5D.Idx → EReal) (W2 : GIN.S5W.Idx → EReal) (b2 g be : GIN.S5D.Idx → EReal) (l : Nat) (hl : l ≤ 5) : GIN.Mat :=
  GIN.feats (GIN.layerK (fun h => Cert.KernelIdeal.KHost.agg h (Cert.KernelIdeal.KHost.src ei) (Cert.KernelIdeal.KHost.dst ei)))
    x W1 b1 g1 be1 W2 b2 g be l hl

/-- the reference's feature array after `l` layers: the neighbour aggregate as the reference forms it, the column
    mean and variance taken directly -/
abbrev FR (x : GIN.Mat) (ei : IVec Cert.KernelIdeal.S2x400000 32)
    (W1 : GIN.S5W.Idx → EReal) (b1 g1 be1 : GIN.S5D.Idx → EReal) (W2 : GIN.S5W.Idx → EReal) (b2 g be : GIN.S5D.Idx → EReal) (l : Nat) (hl : l ≤ 5) : GIN.Mat :=
  GIN.feats (GIN.layerR (fun h => Cert.ReferenceIdeal.RefLayer.agg h (Cert.ReferenceIdeal.RefLayer.src ei) (Cert.ReferenceIdeal.RefLayer.dst ei)))
    x W1 b1 g1 be1 W2 b2 g be l hl

/-- On real input and real parameters the two feature arrays agree after every number of layers: the aggregates are the
    same function, it keeps arrays real, and on real arrays the two layer functions agree. -/
theorem feats_same (x : GIN.Mat) (ei : IVec Cert.KernelIdeal.S2x400000 32)
    (W1 : GIN.S5W.Idx → EReal) (b1 g1 be1 : GIN.S5D.Idx → EReal) (W2 : GIN.S5W.Idx → EReal) (b2 g be : GIN.S5D.Idx → EReal)
    (hx : GIN.AllReal x) (hW1 : GIN.AllReal W1) (hb1 : GIN.AllReal b1) (hg1 : GIN.AllReal g1) (hbe1 : GIN.AllReal be1)
    (hW2 : GIN.AllReal W2) (hb2 : GIN.AllReal b2) (hg : GIN.AllReal g) (hbe : GIN.AllReal be) (l : Nat) (hl : l ≤ 5) :
    FK x ei W1 b1 g1 be1 W2 b2 g be l hl = FR x ei W1 b1 g1 be1 W2 b2 g be l hl := by
  unfold FK FR
  rw [Cert.AggSame.agg_same, Cert.AggSame.src_same, Cert.AggSame.dst_same]
  exact (GIN.feats_eq
    (fun h => Cert.ReferenceIdeal.RefLayer.agg h (Cert.ReferenceIdeal.RefLayer.src ei) (Cert.ReferenceIdeal.RefLayer.dst ei))
    (fun h hh => Cert.ReferenceIdeal.RefLayer.agg_real h _ _ hh)
    x W1 b1 g1 be1 W2 b2 g be hx hW1 hb1 hg1 hbe1 hW2 hb2 hg hbe l hl).1

/-- THE RESULTS AGREE: the kernel's readout of its features is the reference's readout of its own. -/
theorem result_same (x : GIN.Mat) (ei : IVec Cert.KernelIdeal.S2x400000 32)
    (W1 : GIN.S5W.Idx → EReal) (b1 g1 be1 : GIN.S5D.Idx → EReal) (W2 : GIN.S5W.Idx → EReal) (b2 g be : GIN.S5D.Idx → EReal)
    (batch : IVec Cert.KernelIdeal.S50000 32)
    (fcW : FVec Ideal Cert.KernelIdeal.S6x300x128 .f32) (fcb : FVec Ideal Cert.KernelIdeal.S6x128 .f32)
    (hx : GIN.AllReal x) (hW1 : GIN.AllReal W1) (hb1 : GIN.AllReal b1) (hg1 : GIN.AllReal g1) (hbe1 : GIN.AllReal be1)
    (hW2 : GIN.AllReal W2) (hb2 : GIN.AllReal b2) (hg : GIN.AllReal g) (hbe : GIN.AllReal be) :
    Cert.KernelIdeal.Readout.ROK x (FK x ei W1 b1 g1 be1 W2 b2 g be 1 (by decide))
        (FK x ei W1 b1 g1 be1 W2 b2 g be 2 (by decide))
        (FK x ei W1 b1 g1 be1 W2 b2 g be 3 (by decide))
        (FK x ei W1 b1 g1 be1 W2 b2 g be 4 (by decide))
        (FK x ei W1 b1 g1 be1 W2 b2 g be 5 (by decide)) batch fcW fcb
      = Cert.ReferenceIdeal.Readout.ROR x (FR x ei W1 b1 g1 be1 W2 b2 g be 1 (by decide))
        (FR x ei W1 b1 g1 be1 W2 b2 g be 2 (by decide))
        (FR x ei W1 b1 g1 be1 W2 b2 g be 3 (by decide))
        (FR x ei W1 b1 g1 be1 W2 b2 g be 4 (by decide))
        (FR x ei W1 b1 g1 be1 W2 b2 g be 5 (by decide)) batch fcW fcb := by
  rw [feats_same x ei W1 b1 g1 be1 W2 b2 g be hx hW1 hb1 hg1 hbe1 hW2 hb2 hg hbe 1 (by decide),
    feats_same x ei W1 b1 g1 be1 W2 b2 g be hx hW1 hb1 hg1 hbe1 hW2 hb2 hg hbe 2 (by decide),
    feats_same x ei W1 b1 g1 be1 W2 b2 g be hx hW1 hb1 hg1 hbe1 hW2 hb2 hg hbe 3 (by decide),
    feats_same x ei W1 b1 g1 be1 W2 b2 g be hx hW1 hb1 hg1 hbe1 hW2 hb2 hg hbe 4 (by decide),
    feats_same x ei W1 b1 g1 be1 W2 b2 g be hx hW1 hb1 hg1 hbe1 hW2 hb2 hg hbe 5 (by decide)]
  exact Cert.Readout.ROK_eq_ROR _ _ _ _ _ _ _ _ _

/-- The same over a kernel memory of which the precondition holds, every argument read at a device's location:
    the precondition makes the input and the layers' parameters real. -/
theorem result_same_mem [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Readout.ROK (m ((c.tc : Thread Cert.KernelIdeal.nD Cert.KernelIdeal.τ).loc Cert.KernelIdeal.main_arg0))
        (FK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 1 (by decide))
        (FK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 2 (by decide))
        (FK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 3 (by decide))
        (FK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 4 (by decide))
        (FK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 5 (by decide))
        (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.ReferenceIdeal.Readout.ROR (m ((c.tc : Thread Cert.KernelIdeal.nD Cert.KernelIdeal.τ).loc Cert.KernelIdeal.main_arg0))
        (FR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 1 (by decide))
        (FR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 2 (by decide))
        (FR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 3 (by decide))
        (FR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 4 (by decide))
        (FR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) 5 (by decide))
        (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨r0, r3, r4, r5, r6, r7, r8, r9, r10, -, -⟩ := Cert.KernelIdeal.FinIn.real_args m hpre c
  exact result_same _ _ _ _ _ _ _ _ _ _ _ _ _ r0 r3 r4 r5 r6 r7 r8 r9 r10

end Cert.Bridge

end
-- ==== Proof.Algebraic.lean ====
/-
  The two programs against each other, at the extended reals.

  The reference is one straight line of host operations: it runs, and every buffer ends at the fold of the operations
  over the launch contents; read at the result buffer that fold is the readout of the node features and of the features
  after one to five reference layers, and read at an argument it is the argument as launched.  The kernel's run ends
  with its result buffer at the last boundary's contents, which are the readout of the node features and of the
  features after one to five kernel layers, and with its arguments as launched.  Under the precondition the input and
  the layers' parameters are real, so the kernel's layers (column statistics from the tiles' partial sums) and the
  reference's (mean and variance taken directly) give the same features, and the two readouts are one function: both
  results are one function of the thirteen argument arrays, `refResult`, and memories that agree on the arguments
  give it the same arguments.
-/
import proofs.«144515_j12352325943894_2_alg».proof.Defs
import proofs.«144515_j12352325943894_2_alg».proof.Proof.Gen.KernelIdeal
import proofs.«144515_j12352325943894_2_alg».proof.Proof.Gen.ReferenceIdeal
import proofs.«144515_j12352325943894_2_alg».proof.Proof.Gen.Pre_finite_inputs
import proofs.«144515_j12352325943894_2_alg».proof.Proof.KRun
import proofs.«144515_j12352325943894_2_alg».proof.Proof.KAll
import proofs.«144515_j12352325943894_2_alg».proof.Proof.RefRun
import proofs.«144515_j12352325943894_2_alg».proof.Proof.RefValue
import proofs.«144515_j12352325943894_2_alg».proof.Proof.Bridge

noncomputable section

namespace Cert.Proof.Claims

open Idealize.ShloMosaic Idealize.SL.Sem Idealize.ShloMosaic.StableHlo

/-- The reference's result as a function of the thirteen argument arrays (in the programs' order: node features, edge
    array, batch vector, the layers' eight stacked parameters, the readout's two): the readout of the node features and
    of the features after one to five reference layers. -/
abbrev refResult (x : GIN.Mat) (ei : IVec Cert.KernelIdeal.S2x400000 32) (batch : IVec Cert.KernelIdeal.S50000 32)
    (W1 : GIN.S5W.Idx → EReal) (b1 g1 be1 : GIN.S5D.Idx → EReal) (W2 : GIN.S5W.Idx → EReal) (b2 g be : GIN.S5D.Idx → EReal)
    (fcW : FVec Ideal Cert.KernelIdeal.S6x300x128 .f32) (fcb : FVec Ideal Cert.KernelIdeal.S6x128 .f32) :
    FVec Ideal Cert.ReferenceIdeal.S256x128 .f32 :=
  Cert.ReferenceIdeal.Readout.ROR x
    (Cert.Bridge.FR x ei W1 b1 g1 be1 W2 b2 g be 1 (by decide))
    (Cert.Bridge.FR x ei W1 b1 g1 be1 W2 b2 g be 2 (by decide))
    (Cert.Bridge.FR x ei W1 b1 g1 be1 W2 b2 g be 3 (by decide))
    (Cert.Bridge.FR x ei W1 b1 g1 be1 W2 b2 g be 4 (by decide))
    (Cert.Bridge.FR x ei W1 b1 g1 be1 W2 b2 g be 5 (by decide)) batch fcW fcb

/-- equal arguments, equal results -/
theorem refResult_congr {x x' : GIN.Mat} {ei ei' : IVec Cert.KernelIdeal.S2x400000 32} {batch batch' : IVec Cert.KernelIdeal.S50000 32}
    {W1 W1' : GIN.S5W.Idx → EReal} {b1 b1' g1 g1' be1 be1' : GIN.S5D.Idx → EReal} {W2 W2' : GIN.S5W.Idx → EReal}
    {b2 b2' g g' be be' : GIN.S5D.Idx → EReal} {fcW fcW' : FVec Ideal Cert.KernelIdeal.S6x300x128 .f32}
    {fcb fcb' : FVec Ideal Cert.KernelIdeal.S6x128 .f32}
    (h0 : x = x') (h1 : ei = ei') (h2 : batch = batch') (h3 : W1 = W1') (h4 : b1 = b1') (h5 : g1 = g1') (h6 : be1 = be1')
    (h7 : W2 = W2') (h8 : b2 = b2') (h9 : g = g') (h10 : be = be') (h11 : fcW = fcW') (h12 : fcb = fcb') :
    refResult x ei batch W1 b1 g1 be1 W2 b2 g be fcW fcb = refResult x' ei' batch' W1' b1' g1' be1' W2' b2' g' be' fcW' fcb' := by
  subst h0 h1 h2 h3 h4 h5 h6 h7 h8 h9 h10 h11 h12
  rfl

/-- The reference's result buffer, after its operations from any contents `V`, holds `refResult` of `V`'s arguments. -/
theorem ref_out (V : Valuation Cert.ReferenceIdeal.τ Cert.ReferenceIdeal.sig (Elt Ideal)) :
    after (Cert.ReferenceIdeal.Run.ops (F := Ideal)) V (Proc.devRef .tc Cert.ReferenceIdeal.main_v477)
      = refResult (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) :=
  Cert.ReferenceIdeal.RefValue.out_eq V

/-- The kernel's result, from a launch memory of which the precondition holds, is `refResult` of the launch's arguments:
    the last boundary's contents at the result buffer are the kernel's readout of the kernel's features, which on real
    input and parameters is the reference's readout of the reference's features. -/
theorem kernel_out (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W31 m ρ c (Proc.devRef .tc Cert.KernelIdeal.main_v437)
      = refResult (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) :=
  (Cert.KernelIdeal.KAll.value m ρ c).trans (Cert.Bridge.result_same_mem m hpre c)

/-- The reference runs and leaves its arguments as launched: each argument buffer ends at the operations' fold over the
    launch contents, and no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.arg0_eq (launchContents m c)),
     (h c Cert.ReferenceIdeal.main_arg1).trans (Cert.ReferenceIdeal.RefValue.arg1_eq (launchContents m c)),
     (h c Cert.ReferenceIdeal.main_arg2).trans (Cert.ReferenceIdeal.RefValue.arg2_eq (launchContents m c)),
     (h c Cert.ReferenceIdeal.main_arg3).trans (Cert.ReferenceIdeal.RefValue.arg3_eq (launchContents m c)),
     (h c Cert.ReferenceIdeal.main_arg4).trans (Cert.ReferenceIdeal.RefValue.arg4_eq (launchContents m c)),
     (h c Cert.ReferenceIdeal.main_arg5).trans (Cert.ReferenceIdeal.RefValue.arg5_eq (launchContents m c)),
     (h c Cert.ReferenceIdeal.main_arg6).trans (Cert.ReferenceIdeal.RefValue.arg6_eq (launchContents m c)),
     (h c Cert.ReferenceIdeal.main_arg7).trans (Cert.ReferenceIdeal.RefValue.arg7_eq (launchContents m c)),
     (h c Cert.ReferenceIdeal.main_arg8).trans (Cert.ReferenceIdeal.RefValue.arg8_eq (launchContents m c)),
     (h c Cert.ReferenceIdeal.main_arg9).trans (Cert.ReferenceIdeal.RefValue.arg9_eq (launchContents m c)),
     (h c Cert.ReferenceIdeal.main_arg10).trans (Cert.ReferenceIdeal.RefValue.arg10_eq (launchContents m c)),
     (h c Cert.ReferenceIdeal.main_arg11).trans (Cert.ReferenceIdeal.RefValue.arg11_eq (launchContents m c)),
     (h c Cert.ReferenceIdeal.main_arg12).trans (Cert.ReferenceIdeal.RefValue.arg12_eq (launchContents m c))⟩)
    (Cert.ReferenceIdeal.Run.run_main (F := Ideal) m ρ)

/-- From memories agreeing on the arguments, under the precondition, both programs run, leave their arguments as
    launched, and end with the same result: `refResult` of the kernel memory's arguments. -/
theorem algebraic : Cert.algebraic_KernelIdeal_ReferenceIdeal := by
  intro m ρ m' ρ' hpre hagree
  refine ⟨fun c => refResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun _ h c => ⟨(h c).1.trans (kernel_out m ρ hpre c), (h c).2⟩)
      (Cert.KernelIdeal.KRun.run (F := Ideal) m ρ)
  · refine (θ_run Cert.ReferenceIdeal.defs _ _).mono (fun _ h c => ?_) (Cert.ReferenceIdeal.Run.run_main (F := Ideal) m' ρ')
    obtain ⟨e0, e1, e2, e3, e4, e5, e6, e7, e8, e9, e10, e11, e12⟩ := hagree c
    exact ⟨(h c Cert.ReferenceIdeal.main_v477).trans ((ref_out (launchContents m' c)).trans
        (refResult_congr e0 e1 e2 e3 e4 e5 e6 e7 e8 e9 e10 e11 e12)),
     (h c Cert.ReferenceIdeal.main_arg0).trans (Cert.ReferenceIdeal.RefValue.arg0_eq (launchContents m' c)),
     (h c Cert.ReferenceIdeal.main_arg1).trans (Cert.ReferenceIdeal.RefValue.arg1_eq (launchContents m' c)),
     (h c Cert.ReferenceIdeal.main_arg2).trans (Cert.ReferenceIdeal.RefValue.arg2_eq (launchContents m' c)),
     (h c Cert.ReferenceIdeal.main_arg3).trans (Cert.ReferenceIdeal.RefValue.arg3_eq (launchContents m' c)),
     (h c Cert.ReferenceIdeal.main_arg4).trans (Cert.ReferenceIdeal.RefValue.arg4_eq (launchContents m' c)),
     (h c Cert.ReferenceIdeal.main_arg5).trans (Cert.ReferenceIdeal.RefValue.arg5_eq (launchContents m' c)),
     (h c Cert.ReferenceIdeal.main_arg6).trans (Cert.ReferenceIdeal.RefValue.arg6_eq (launchContents m' c)),
     (h c Cert.ReferenceIdeal.main_arg7).trans (Cert.ReferenceIdeal.RefValue.arg7_eq (launchContents m' c)),
     (h c Cert.ReferenceIdeal.main_arg8).trans (Cert.ReferenceIdeal.RefValue.arg8_eq (launchContents m' c)),
     (h c Cert.ReferenceIdeal.main_arg9).trans (Cert.ReferenceIdeal.RefValue.arg9_eq (launchContents m' c)),
     (h c Cert.ReferenceIdeal.main_arg10).trans (Cert.ReferenceIdeal.RefValue.arg10_eq (launchContents m' c)),
     (h c Cert.ReferenceIdeal.main_arg11).trans (Cert.ReferenceIdeal.RefValue.arg11_eq (launchContents m' c)),
     (h c Cert.ReferenceIdeal.main_arg12).trans (Cert.ReferenceIdeal.RefValue.arg12_eq (launchContents m' c))⟩

end Cert.Proof.Claims

end
-- ==== Proof.lean ====
/- The proof of `Cert.Claim` (proofs.«144515_j12352325943894_2_alg».proof.Defs).

   A five-layer GIN network with batch normalisation, computed two ways.  Both programs take node features
   `50000 × 300`, an edge array, a batch vector, five layers' stacked parameters and a readout's; a layer adds the
   neighbour aggregate to the features, applies an affine map, normalises every column by its batch mean and variance,
   applies `max · 0`, and does the same once more; the result is a readout of the input and the five layers' features.
   The kernel takes a column's statistics from 25 tiles' partial sums of `z` and `z²` (`E[z²] - E[z]²`, clamped at 0), the
   reference takes the mean and the mean squared deviation directly: equal over the reals, hence equal at the extended
   reals once every entry is a real number, which the precondition (every float input finite) gives and every step of a
   layer preserves.

   The frames: the kernel (at the bit-exact values and at the extended reals) runs and leaves its thirteen arguments as
   launched (the frame over its 15 regions and 16 stretches of host operations); the reference is a straight
   line of host operations none of which writes an argument.  The idealization rewrote no operation.  The equivalence:
   both results are one function of the thirteen argument arrays (Proof/Algebraic.lean). -/
import proofs.«144515_j12352325943894_2_alg».proof.Defs
import proofs.«144515_j12352325943894_2_alg».proof.Proof.Gen.Kernel
import proofs.«144515_j12352325943894_2_alg».proof.Proof.FrameK
import proofs.«144515_j12352325943894_2_alg».proof.Proof.Gen.KernelIdeal
import proofs.«144515_j12352325943894_2_alg».proof.Proof.FrameKI
import proofs.«144515_j12352325943894_2_alg».proof.Proof.Gen.ReferenceIdeal
import proofs.«144515_j12352325943894_2_alg».proof.Proof.Gen.Pre_finite_inputs
import proofs.«144515_j12352325943894_2_alg».proof.Proof.Algebraic
import Idealize.ShloMosaic.Adequacy
import Idealize.ShloMosaic.Init

noncomputable section

namespace Cert.Proof

open Idealize.ShloMosaic Idealize.SL.Sem

/-- the kernel at the bit-exact values runs and leaves its arguments as launched -/
theorem frame_k : Cert.frame_Kernel := fun m ρ _ => Cert.Kernel.Gen.frame m ρ

/-- the kernel at the extended reals runs and leaves its arguments as launched -/
theorem frame_ki : Cert.frame_KernelIdeal := fun m ρ _ => Cert.KernelIdeal.Gen.frame m ρ

/-- the idealization rewrote no operation -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, Claims.frame_ri, preserves, Claims.algebraic⟩

end Cert.Proof

end
